-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part3 {F : FTy → Type} [FloatOps F] (main_arg13 : FVec F S3x64 .f32) (main_arg14 : FVec F S3x64 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64 .f32 := Host.absf main_arg14
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  main_v63

def fn_part2 {F : FTy → Type} [FloatOps F] (main_arg9 : FVec F S3x64x64 .f32) (main_arg10 : FVec F S3x64 .f32) (main_arg11 : FVec F S3x64x64 .f32) (main_arg12 : FVec F S3x64 .f32) (main_arg13 : FVec F S3x64 .f32) (main_arg14 : FVec F S3x64 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64x64 .f32 := Host.absf main_arg11
  let main_cst_16 : FVec F S_ .f32 := constant S_ .f32 0x7F800000#32
  let main_v45 : FVec F S3x64x64 .f32 := broadcastInDim S3x64x64 ![] bcast_S_S3x64x64 main_cst_16
  let main_v46 : IVec S3x64x64 1 := cmpf .olt main_v44 main_v45
  let main_c_17 : IVec S_ 1 := constantI S_ 1 1#1
  let main_v47 : IVec S_ 1 := (fun x v => Host.reduce IntOp.andi x v reducesTo_S3x64x64_S_d0_1_2 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg13 main_arg14 main_v48 main_v49 main_v50

def fn_part1 {F : FTy → Type} [FloatOps F] (main_arg6 : FVec F S64 .f32) (main_arg7 : FVec F S64 .f32) (main_arg8 : FVec F S64 .f32) (main_arg9 : FVec F S3x64x64 .f32) (main_arg10 : FVec F S3x64 .f32) (main_arg11 : FVec F S3x64x64 .f32) (main_arg12 : FVec F S3x64 .f32) (main_arg13 : FVec F S3x64 .f32) (main_arg14 : FVec F S3x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S800000 32) (main_arg2 : IVec S800000 32) (main_arg3 : FVec F S128x64 .f32) (main_arg4 : FVec F S64 .f32) (main_arg5 : FVec F S64x64 .f32) (main_arg6 : FVec F S64 .f32) (main_arg7 : FVec F S64 .f32) (main_arg8 : FVec F S64 .f32) (main_arg9 : FVec F S3x64x64 .f32) (main_arg10 : FVec F S3x64 .f32) (main_arg11 : FVec F S3x64x64 .f32) (main_arg12 : FVec F S3x64 .f32) (main_arg13 : FVec F S3x64 .f32) (main_arg14 : FVec F S3x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S_ : Shape := ⟨0, ![]⟩
abbrev S800000x1 : Shape := ⟨2, ![800000, 1]⟩
abbrev S800000x128 : Shape := ⟨2, ![800000, 128]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S1x64x64 : Shape := ⟨3, ![1, 64, 64]⟩
abbrev S800000x64 : Shape := ⟨2, ![800000, 64]⟩

abbrev nBuf : Space → Nat
  | .hbm => 135
  | .vmem => 88
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x64, .f32⟩
  | 4 => ⟨S64, .f32⟩
  | 5 => ⟨S64x64, .f32⟩
  | 6 => ⟨S64, .f32⟩
  | 7 => ⟨S64, .f32⟩
  | 8 => ⟨S64, .f32⟩
  | 9 => ⟨S3x64x64, .f32⟩
  | 10 => ⟨S3x64, .f32⟩
  | 11 => ⟨S3x64x64, .f32⟩
  | 12 => ⟨S3x64, .f32⟩
  | 13 => ⟨S3x64, .f32⟩
  | 14 => ⟨S3x64, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S1x64, .f32⟩
  | 29 => ⟨S1x64, .f32⟩
  | 30 => ⟨S1x64, .f32⟩
  | 31 => ⟨S1x64, .f32⟩
  | 32 => ⟨S50000x64, .f32⟩
  | 33 => ⟨S1x64, .f32⟩
  | 34 => ⟨S1x64, .f32⟩
  | 35 => ⟨S50000x64, .f32⟩
  | 36 => ⟨S1x64x64, .f32⟩
  | 37 => ⟨S64x64, .f32⟩
  | 38 => ⟨S1x64, .f32⟩
  | 39 => ⟨S64, .f32⟩
  | 40 => ⟨S1x64x64, .f32⟩
  | 41 => ⟨S64x64, .f32⟩
  | 42 => ⟨S1x64, .f32⟩
  | 43 => ⟨S64, .f32⟩
  | 44 => ⟨S1x64, .f32⟩
  | 45 => ⟨S64, .f32⟩
  | 46 => ⟨S1x64, .f32⟩
  | 47 => ⟨S64, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S_, .f32⟩
  | 58 => ⟨S50000x64, .f32⟩
  | 59 => ⟨S800000x1, .i32⟩
  | 60 => ⟨S50000x64, .f32⟩
  | 61 => ⟨S1x64, .f32⟩
  | 62 => ⟨S1x64, .f32⟩
  | 63 => ⟨S1x64, .f32⟩
  | 64 => ⟨S1x64, .f32⟩
  | 65 => ⟨S50000x64, .f32⟩
  | 66 => ⟨S1x64, .f32⟩
  | 67 => ⟨S1x64, .f32⟩
  | 68 => ⟨S50000x64, .f32⟩
  | 69 => ⟨S1x64x64, .f32⟩
  | 70 => ⟨S64x64, .f32⟩
  | 71 => ⟨S1x64, .f32⟩
  | 72 => ⟨S64, .f32⟩
  | 73 => ⟨S1x64x64, .f32⟩
  | 74 => ⟨S64x64, .f32⟩
  | 75 => ⟨S1x64, .f32⟩
  | 76 => ⟨S64, .f32⟩
  | 77 => ⟨S1x64, .f32⟩
  | 78 => ⟨S64, .f32⟩
  | 79 => ⟨S1x64, .f32⟩
  | 80 => ⟨S64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x64, .f32⟩
  | 90 => ⟨S_, .f32⟩
  | 91 => ⟨S50000x64, .f32⟩
  | 92 => ⟨S800000x1, .i32⟩
  | 93 => ⟨S50000x64, .f32⟩
  | 94 => ⟨S1x64, .f32⟩
  | 95 => ⟨S1x64, .f32⟩
  | 96 => ⟨S1x64, .f32⟩
  | 97 => ⟨S1x64, .f32⟩
  | 98 => ⟨S50000x64, .f32⟩
  | 99 => ⟨S1x64, .f32⟩
  | 100 => ⟨S1x64, .f32⟩
  | 101 => ⟨S50000x64, .f32⟩
  | 102 => ⟨S1x64x64, .f32⟩
  | 103 => ⟨S64x64, .f32⟩
  | 104 => ⟨S1x64, .f32⟩
  | 105 => ⟨S64, .f32⟩
  | 106 => ⟨S1x64x64, .f32⟩
  | 107 => ⟨S64x64, .f32⟩
  | 108 => ⟨S1x64, .f32⟩
  | 109 => ⟨S64, .f32⟩
  | 110 => ⟨S1x64, .f32⟩
  | 111 => ⟨S64, .f32⟩
  | 112 => ⟨S1x64, .f32⟩
  | 113 => ⟨S64, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x64, .f32⟩
  | 123 => ⟨S_, .f32⟩
  | 124 => ⟨S50000x64, .f32⟩
  | 125 => ⟨S800000x1, .i32⟩
  | 126 => ⟨S50000x64, .f32⟩
  | 127 => ⟨S1x64, .f32⟩
  | _ => ⟨S50000x128, .f32⟩

abbrev hbmTy0_1 (i : Nat) : BufTy := match i % 128 with
  | 0 => ⟨S1x64, .f32⟩
  | 1 => ⟨S1x64, .f32⟩
  | 2 => ⟨S1x64, .f32⟩
  | 3 => ⟨S50000x64, .f32⟩
  | 4 => ⟨S1x64, .f32⟩
  | 5 => ⟨S1x64, .f32⟩
  | 6 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S1x64, .f32⟩
  | .local _ .vmem, ⟨61, _⟩ => ⟨S1x64, .f32⟩
  | .local _ .vmem, ⟨62, _⟩ => ⟨S1x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | .local _ .vmem, ⟨66, _⟩ => ⟨S5000x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S64x64, .f32⟩
  | .local _ .vmem, ⟨71, _⟩ => ⟨S1x64, .f32⟩
  | .local _ .vmem, ⟨72, _⟩ => ⟨S64x64, .f32⟩
  | .local _ .vmem, ⟨73, _⟩ => ⟨S1x64, .f32⟩
  | .local _ .vmem, ⟨74, _⟩ => ⟨S5000x64, .f32⟩
  | .local _ .vmem, ⟨75, _⟩ => ⟨S5000x64, .f32⟩
  | .local _ .vmem, ⟨76, _⟩ => ⟨S1x64, .f32⟩
  | .local _ .vmem, ⟨77, _⟩ => ⟨S1x64, .f32⟩
  | .local _ .vmem, ⟨78, _⟩ => ⟨S1x64, .f32⟩
  | .local _ .vmem, ⟨79, _⟩ => ⟨S1x64, .f32⟩
  | .local _ .vmem, ⟨80, _⟩ => ⟨S5000x64, .f32⟩
  | .local _ .vmem, ⟨81, _⟩ => ⟨S5000x64, .f32⟩
  | .local _ .vmem, ⟨82, _⟩ => ⟨S1x64, .f32⟩
  | .local _ .vmem, ⟨83, _⟩ => ⟨S1x64, .f32⟩
  | .local _ .vmem, ⟨84, _⟩ => ⟨S1x64, .f32⟩
  | .local _ .vmem, ⟨85, _⟩ => ⟨S1x64, .f32⟩
  | .local _ .vmem, ⟨86, _⟩ => ⟨S5000x64, .f32⟩
  | .local _ .vmem, ⟨87, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_1 : Ref sig .tc := ⟨.hbm, 48, rfl⟩
abbrev main_v28 : Ref sig .tc := ⟨.hbm, 49, rfl⟩
abbrev main_v29 : Ref sig .tc := ⟨.hbm, 50, rfl⟩
abbrev main_c_2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_v42_2 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_4 : Ref sig .tc := ⟨.hbm, 81, rfl⟩
abbrev main_v56 : Ref sig .tc := ⟨.hbm, 82, rfl⟩
abbrev main_v57 : Ref sig .tc := ⟨.hbm, 83, rfl⟩
abbrev main_c_5 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_6 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70_0 : Ref sig .tc := ⟨.hbm, 98, rfl⟩
abbrev main_v70_1 : Ref sig .tc := ⟨.hbm, 99, rfl⟩
abbrev main_v70_2 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_7 : Ref sig .tc := ⟨.hbm, 114, rfl⟩
abbrev main_v84 : Ref sig .tc := ⟨.hbm, 115, rfl⟩
abbrev main_v85 : Ref sig .tc := ⟨.hbm, 116, rfl⟩
abbrev main_c_8 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_9 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98_0 : Ref sig .tc := ⟨.hbm, 131, rfl⟩
abbrev main_v98_1 : Ref sig .tc := ⟨.hbm, 132, rfl⟩
abbrev main_v98_2 : Ref sig .tc := ⟨.hbm, 133, rfl⟩
abbrev main_v99 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg8_0 : Ref sig .tc := ⟨.vmem, 55, rfl⟩
abbrev cc4_scratch0 : Ref sig .tc := ⟨.vmem, 56, rfl⟩
abbrev cc4_scratch1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg6_0 : Ref sig .tc := ⟨.vmem, 74, rfl⟩
abbrev cc6_stg6_1 : Ref sig .tc := ⟨.vmem, 75, rfl⟩
abbrev cc6_stg7_0 : Ref sig .tc := ⟨.vmem, 76, rfl⟩
abbrev cc6_stg8_0 : Ref sig .tc := ⟨.vmem, 77, rfl⟩
abbrev cc6_scratch0 : Ref sig .tc := ⟨.vmem, 78, rfl⟩
abbrev cc6_scratch1 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg2_0 : Ref sig .tc := ⟨.vmem, 83, rfl⟩
abbrev cc7_stg3_0 : Ref sig .tc := ⟨.vmem, 84, rfl⟩
abbrev cc7_stg4_0 : Ref sig .tc := ⟨.vmem, 85, rfl⟩
abbrev cc7_stg5_0 : Ref sig .tc := ⟨.vmem, 86, rfl⟩
abbrev cc7_stg5_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem6_1 : DmaSem sig := 69
abbrev cc6_sem7_0 : DmaSem sig := 70
abbrev cc6_sem8_0 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem5_1 : DmaSem sig := 79

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_26 : BitVec 32 := 0#32
  let v43 : BitVec 1 := Scalar.cmpi .ne v42 c0_i32_26
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v44 : BitVec 1 := Scalar.cmpi .eq arg0 c9_i32
  let v45 : BitVec 32 := Scalar.extui v44
  let c0_i32_26 : BitVec 32 := 0#32
  let v46 : BitVec 1 := Scalar.cmpi .ne v45 c0_i32_26
  v46

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v44 : BitVec 1 := Scalar.cmpi .eq arg0 c9_i32
  let v45 : BitVec 32 := Scalar.extui v44
  let c0_i32_26 : BitVec 32 := 0#32
  let v46 : BitVec 1 := Scalar.cmpi .ne v45 c0_i32_26
  v46

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v44 : BitVec 1 := Scalar.cmpi .eq arg0 c9_i32
  let v45 : BitVec 32 := Scalar.extui v44
  let c0_i32_26 : BitVec 32 := 0#32
  let v46 : BitVec 1 := Scalar.cmpi .ne v45 c0_i32_26
  v46

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  shapeCasts_S5000x64_S5000x64 : S5000x64.ShapeCasts S5000x64
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S50000x64 : S_.BroadcastsInDim S50000x64 (![] : Fin 0 → Fin S50000x64.rank)
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S50000x64.size a
  hwx6_6 : ∀ i : grid6.Coords, EltTy.bits .f32 = 32 ∨ (Rect.block (s := S50000x64) S5000x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x64.size a ≤ S1x64.size a
  hwx6_8 : ∀ i : grid6.Coords, EltTy.bits .f32 = 32 ∨ (Rect.block (s := S1x64) S1x64.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S50000x64.size a
  hwx7_5 : ∀ i : grid7.Coords, EltTy.bits .f32 = 32 ∨ (Rect.block (s := S50000x64) S5000x64.size (cc7_transform_5 i) (hinb7_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v14_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14_2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v15) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v42_1) S1x64.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v42_2) S1x64.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v42_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42_1) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42_2) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v43) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v45) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v49) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v70_0) S5000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v70_1) S1x64.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v70_2) S1x64.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v70_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70_1) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70_2) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v69) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v71) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v71) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v93) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v73) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v94) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v77) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v95) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v98_0) S5000x64.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v98_1) S1x64.size cc6_transform_7 reads6_7 true true 1 stage6_7 sem6_7
    hrank6 hreads6_7 hinb6_7 nbuf6_7 (Memref.isWhole_whole _) hwx6_7 hstage6_7

abbrev win6_8 : Pipeline.Window sig grid6 :=
  Pipeline.Window.ofSpec (Memref.whole main_v98_2) S1x64.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev idle6 : Fin 9 → grid6.Coords → Bool := fun | 0 => fun _ => false | 1 => fun _ => false | 2 => fun _ => false | 3 => fun _ => false | 4 => fun _ => false | 5 => fun _ => false | 6 => fun _ => false | 7 => fun i => !(k6_cond2 i == 1#1) | 8 => fun i => !(k6_cond2 i == 1#1) | ⟨_ + 9, h⟩ => absurd h (Nat.not_lt.2 (Nat.le_add_left _ _))

abbrev win7_0 : Pipeline.Window sig grid7 :=
  Pipeline.Window.ofSpec (Memref.whole main_v98_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v98_1) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v98_2) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v96) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v97) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v99) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S1x64x64 : Shape := ⟨3, ![1, 64, 64]⟩
abbrev S800000x64 : Shape := ⟨2, ![800000, 64]⟩

abbrev nBuf : Space → Nat
  | .hbm => 339
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x64, .f32⟩
  | 4 => ⟨S64, .f32⟩
  | 5 => ⟨S64x64, .f32⟩
  | 6 => ⟨S64, .f32⟩
  | 7 => ⟨S64, .f32⟩
  | 8 => ⟨S64, .f32⟩
  | 9 => ⟨S3x64x64, .f32⟩
  | 10 => ⟨S3x64, .f32⟩
  | 11 => ⟨S3x64x64, .f32⟩
  | 12 => ⟨S3x64, .f32⟩
  | 13 => ⟨S3x64, .f32⟩
  | 14 => ⟨S3x64, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S50000x128, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S50000x64, .f32⟩
  | 37 => ⟨S1x64, .f32⟩
  | 38 => ⟨S50000x64, .f32⟩
  | 39 => ⟨S50000x64, .f32⟩
  | 40 => ⟨S_, .f32⟩
  | 41 => ⟨S64, .f32⟩
  | 42 => ⟨S_, .f32⟩
  | 43 => ⟨S64, .f32⟩
  | 44 => ⟨S64, .f32⟩
  | 45 => ⟨S_, .i32⟩
  | 46 => ⟨S_, .f32⟩
  | 47 => ⟨S64, .f32⟩
  | 48 => ⟨S1x64, .f32⟩
  | 49 => ⟨S_, .f32⟩
  | 50 => ⟨S1x64, .f32⟩
  | 51 => ⟨S1x64, .f32⟩
  | 52 => ⟨S50000x64, .f32⟩
  | 53 => ⟨S50000x64, .f32⟩
  | 54 => ⟨S50000x64, .f32⟩
  | 55 => ⟨S_, .f32⟩
  | 56 => ⟨S_, .f32⟩
  | 57 => ⟨S_, .f32⟩
  | 58 => ⟨S_, .f32⟩
  | 59 => ⟨S64, .f32⟩
  | 60 => ⟨S64, .f32⟩
  | 61 => ⟨S64, .f32⟩
  | 62 => ⟨S_, .f32⟩
  | 63 => ⟨S_, .i1⟩
  | 64 => ⟨S_, .f32⟩
  | 65 => ⟨S_, .f32⟩
  | 66 => ⟨S64, .f32⟩
  | 67 => ⟨S64, .f32⟩
  | 68 => ⟨S1x64, .f32⟩
  | 69 => ⟨S50000x64, .f32⟩
  | 70 => ⟨S50000x64, .f32⟩
  | 71 => ⟨S_, .f32⟩
  | 72 => ⟨S64, .f32⟩
  | 73 => ⟨S64, .f32⟩
  | 74 => ⟨S64, .f32⟩
  | 75 => ⟨S1x64, .f32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S1x64x64, .f32⟩
  | 88 => ⟨S64x64, .f32⟩
  | 89 => ⟨S1x64, .f32⟩
  | 90 => ⟨S64, .f32⟩
  | 91 => ⟨S1x64x64, .f32⟩
  | 92 => ⟨S64x64, .f32⟩
  | 93 => ⟨S1x64, .f32⟩
  | 94 => ⟨S64, .f32⟩
  | 95 => ⟨S1x64, .f32⟩
  | 96 => ⟨S64, .f32⟩
  | 97 => ⟨S1x64, .f32⟩
  | 98 => ⟨S64, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x64, .f32⟩
  | 108 => ⟨S_, .f32⟩
  | 109 => ⟨S50000x64, .f32⟩
  | 110 => ⟨S800000x1, .i32⟩
  | 111 => ⟨S50000x64, .f32⟩
  | 112 => ⟨S50000x64, .f32⟩
  | 113 => ⟨S50000x64, .f32⟩
  | 114 => ⟨S1x64, .f32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S50000x64, .f32⟩
  | 121 => ⟨S1x64, .f32⟩
  | 122 => ⟨S50000x64, .f32⟩
  | 123 => ⟨S50000x64, .f32⟩
  | 124 => ⟨S_, .f32⟩
  | 125 => ⟨S64, .f32⟩
  | 126 => ⟨S_, .f32⟩
  | 127 => ⟨S64, .f32⟩
  | _ => ⟨S50000x128, .f32⟩

abbrev hbmTy0_1 (i : Nat) : BufTy := match i % 128 with
  | 0 => ⟨S64, .f32⟩
  | 1 => ⟨S_, .i32⟩
  | 2 => ⟨S_, .f32⟩
  | 3 => ⟨S64, .f32⟩
  | 4 => ⟨S1x64, .f32⟩
  | 5 => ⟨S_, .f32⟩
  | 6 => ⟨S1x64, .f32⟩
  | 7 => ⟨S1x64, .f32⟩
  | 8 => ⟨S50000x64, .f32⟩
  | 9 => ⟨S50000x64, .f32⟩
  | 10 => ⟨S50000x64, .f32⟩
  | 11 => ⟨S_, .f32⟩
  | 12 => ⟨S_, .f32⟩
  | 13 => ⟨S_, .f32⟩
  | 14 => ⟨S_, .f32⟩
  | 15 => ⟨S64, .f32⟩
  | 16 => ⟨S64, .f32⟩
  | 17 => ⟨S64, .f32⟩
  | 18 => ⟨S_, .f32⟩
  | 19 => ⟨S_, .i1⟩
  | 20 => ⟨S_, .f32⟩
  | 21 => ⟨S_, .f32⟩
  | 22 => ⟨S64, .f32⟩
  | 23 => ⟨S64, .f32⟩
  | 24 => ⟨S1x64, .f32⟩
  | 25 => ⟨S50000x64, .f32⟩
  | 26 => ⟨S50000x64, .f32⟩
  | 27 => ⟨S_, .f32⟩
  | 28 => ⟨S64, .f32⟩
  | 29 => ⟨S64, .f32⟩
  | 30 => ⟨S64, .f32⟩
  | 31 => ⟨S1x64, .f32⟩
  | 32 => ⟨S50000x64, .f32⟩
  | 33 => ⟨S50000x64, .f32⟩
  | 34 => ⟨S1x64, .f32⟩
  | 35 => ⟨S50000x64, .f32⟩
  | 36 => ⟨S50000x64, .f32⟩
  | 37 => ⟨S1x64, .f32⟩
  | 38 => ⟨S50000x64, .f32⟩
  | 39 => ⟨S50000x64, .f32⟩
  | 40 => ⟨S_, .f32⟩
  | 41 => ⟨S50000x64, .f32⟩
  | 42 => ⟨S50000x64, .f32⟩
  | 43 => ⟨S1x64x64, .f32⟩
  | 44 => ⟨S64x64, .f32⟩
  | 45 => ⟨S1x64, .f32⟩
  | 46 => ⟨S64, .f32⟩
  | 47 => ⟨S1x64x64, .f32⟩
  | 48 => ⟨S64x64, .f32⟩
  | 49 => ⟨S1x64, .f32⟩
  | 50 => ⟨S64, .f32⟩
  | 51 => ⟨S1x64, .f32⟩
  | 52 => ⟨S64, .f32⟩
  | 53 => ⟨S1x64, .f32⟩
  | 54 => ⟨S64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S50000x64, .f32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S64, .f32⟩
  | 82 => ⟨S_, .f32⟩
  | 83 => ⟨S64, .f32⟩
  | 84 => ⟨S64, .f32⟩
  | 85 => ⟨S_, .i32⟩
  | 86 => ⟨S_, .f32⟩
  | 87 => ⟨S64, .f32⟩
  | 88 => ⟨S1x64, .f32⟩
  | 89 => ⟨S_, .f32⟩
  | 90 => ⟨S1x64, .f32⟩
  | 91 => ⟨S1x64, .f32⟩
  | 92 => ⟨S50000x64, .f32⟩
  | 93 => ⟨S50000x64, .f32⟩
  | 94 => ⟨S50000x64, .f32⟩
  | 95 => ⟨S_, .f32⟩
  | 96 => ⟨S_, .f32⟩
  | 97 => ⟨S_, .f32⟩
  | 98 => ⟨S_, .f32⟩
  | 99 => ⟨S64, .f32⟩
  | 100 => ⟨S64, .f32⟩
  | 101 => ⟨S64, .f32⟩
  | 102 => ⟨S_, .f32⟩
  | 103 => ⟨S_, .i1⟩
  | 104 => ⟨S_, .f32⟩
  | 105 => ⟨S_, .f32⟩
  | 106 => ⟨S64, .f32⟩
  | 107 => ⟨S64, .f32⟩
  | 108 => ⟨S1x64, .f32⟩
  | 109 => ⟨S50000x64, .f32⟩
  | 110 => ⟨S50000x64, .f32⟩
  | 111 => ⟨S_, .f32⟩
  | 112 => ⟨S64, .f32⟩
  | 113 => ⟨S64, .f32⟩
  | 114 => ⟨S64, .f32⟩
  | 115 => ⟨S1x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S1x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S1x64x64, .f32⟩
  | _ => ⟨S50000x128, .f32⟩

abbrev hbmTy0_2 (i : Nat) : BufTy := match i % 128 with
  | 0 => ⟨S64x64, .f32⟩
  | 1 => ⟨S1x64, .f32⟩
  | 2 => ⟨S64, .f32⟩
  | 3 => ⟨S1x64x64, .f32⟩
  | 4 => ⟨S64x64, .f32⟩
  | 5 => ⟨S1x64, .f32⟩
  | 6 => ⟨S64, .f32⟩
  | 7 => ⟨S1x64, .f32⟩
  | 8 => ⟨S64, .f32⟩
  | 9 => ⟨S1x64, .f32⟩
  | 10 => ⟨S64, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S_, .f32⟩
  | 21 => ⟨S50000x64, .f32⟩
  | 22 => ⟨S800000x1, .i32⟩
  | 23 => ⟨S50000x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x64, .f32⟩
  | 33 => ⟨S1x64, .f32⟩
  | 34 => ⟨S50000x64, .f32⟩
  | 35 => ⟨S50000x64, .f32⟩
  | 36 => ⟨S_, .f32⟩
  | 37 => ⟨S64, .f32⟩
  | 38 => ⟨S_, .f32⟩
  | 39 => ⟨S64, .f32⟩
  | 40 => ⟨S64, .f32⟩
  | 41 => ⟨S_, .i32⟩
  | 42 => ⟨S_, .f32⟩
  | 43 => ⟨S64, .f32⟩
  | 44 => ⟨S1x64, .f32⟩
  | 45 => ⟨S_, .f32⟩
  | 46 => ⟨S1x64, .f32⟩
  | 47 => ⟨S1x64, .f32⟩
  | 48 => ⟨S50000x64, .f32⟩
  | 49 => ⟨S50000x64, .f32⟩
  | 50 => ⟨S50000x64, .f32⟩
  | 51 => ⟨S_, .f32⟩
  | 52 => ⟨S_, .f32⟩
  | 53 => ⟨S_, .f32⟩
  | 54 => ⟨S_, .f32⟩
  | 55 => ⟨S64, .f32⟩
  | 56 => ⟨S64, .f32⟩
  | 57 => ⟨S64, .f32⟩
  | 58 => ⟨S_, .f32⟩
  | 59 => ⟨S_, .i1⟩
  | 60 => ⟨S_, .f32⟩
  | 61 => ⟨S_, .f32⟩
  | 62 => ⟨S64, .f32⟩
  | 63 => ⟨S64, .f32⟩
  | 64 => ⟨S1x64, .f32⟩
  | 65 => ⟨S50000x64, .f32⟩
  | 66 => ⟨S50000x64, .f32⟩
  | 67 => ⟨S_, .f32⟩
  | 68 => ⟨S64, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000x64, .f32⟩
  | 82 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call0_cst : Ref sig .tc := ⟨.hbm, 33, rfl⟩
abbrev main_call0_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_c_3 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_cst_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_cst_1 : Ref sig .tc := ⟨.hbm, 56, rfl⟩
abbrev main_call1_v8 : Ref sig .tc := ⟨.hbm, 57, rfl⟩
abbrev main_call1_cst_2 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_cst_3 : Ref sig .tc := ⟨.hbm, 62, rfl⟩
abbrev main_call1_v12 : Ref sig .tc := ⟨.hbm, 63, rfl⟩
abbrev main_call1_cst_4 : Ref sig .tc := ⟨.hbm, 64, rfl⟩
abbrev main_call1_call0_v0 : Ref sig .tc := ⟨.hbm, 65, rfl⟩
abbrev main_call1_call0_v1 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_4 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_call2_cst : Ref sig .tc := ⟨.hbm, 84, rfl⟩
abbrev main_call2_v0 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_c_5 : Ref sig .tc := ⟨.hbm, 99, rfl⟩
abbrev main_v52 : Ref sig .tc := ⟨.hbm, 100, rfl⟩
abbrev main_v53 : Ref sig .tc := ⟨.hbm, 101, rfl⟩
abbrev main_c_6 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_7 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_call3_cst : Ref sig .tc := ⟨.hbm, 117, rfl⟩
abbrev main_call3_v0 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_8 : Ref sig .tc := ⟨.hbm, 124, rfl⟩
abbrev main_v72 : Ref sig .tc := ⟨.hbm, 125, rfl⟩
abbrev main_cst_9 : Ref sig .tc := ⟨.hbm, 126, rfl⟩
abbrev main_v73 : Ref sig .tc := ⟨.hbm, 127, rfl⟩
abbrev main_v74 : Ref sig .tc := ⟨.hbm, 128, rfl⟩
abbrev main_c_10 : Ref sig .tc := ⟨.hbm, 129, rfl⟩
abbrev main_call4_cst : Ref sig .tc := ⟨.hbm, 130, rfl⟩
abbrev main_call4_v0 : Ref sig .tc := ⟨.hbm, 131, rfl⟩
abbrev main_call4_v1 : Ref sig .tc := ⟨.hbm, 132, rfl⟩
abbrev main_call4_cst_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_v5 : Ref sig .tc := ⟨.hbm, 137, rfl⟩
abbrev main_call4_v6 : Ref sig .tc := ⟨.hbm, 138, rfl⟩
abbrev main_call4_v7 : Ref sig .tc := ⟨.hbm, 139, rfl⟩
abbrev main_call4_cst_1 : Ref sig .tc := ⟨.hbm, 140, rfl⟩
abbrev main_call4_v8 : Ref sig .tc := ⟨.hbm, 141, rfl⟩
abbrev main_call4_cst_2 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_cst_3 : Ref sig .tc := ⟨.hbm, 146, rfl⟩
abbrev main_call4_v12 : Ref sig .tc := ⟨.hbm, 147, rfl⟩
abbrev main_call4_cst_4 : Ref sig .tc := ⟨.hbm, 148, rfl⟩
abbrev main_call4_call0_v0 : Ref sig .tc := ⟨.hbm, 149, rfl⟩
abbrev main_call4_call0_v1 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_cst_11 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_call5_cst : Ref sig .tc := ⟨.hbm, 168, rfl⟩
abbrev main_call5_v0 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_c_12 : Ref sig .tc := ⟨.hbm, 183, rfl⟩
abbrev main_v104 : Ref sig .tc := ⟨.hbm, 184, rfl⟩
abbrev main_v105 : Ref sig .tc := ⟨.hbm, 185, rfl⟩
abbrev main_c_13 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_cst_14 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_call6_cst : Ref sig .tc := ⟨.hbm, 201, rfl⟩
abbrev main_call6_v0 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_cst_15 : Ref sig .tc := ⟨.hbm, 208, rfl⟩
abbrev main_v124 : Ref sig .tc := ⟨.hbm, 209, rfl⟩
abbrev main_cst_16 : Ref sig .tc := ⟨.hbm, 210, rfl⟩
abbrev main_v125 : Ref sig .tc := ⟨.hbm, 211, rfl⟩
abbrev main_v126 : Ref sig .tc := ⟨.hbm, 212, rfl⟩
abbrev main_c_17 : Ref sig .tc := ⟨.hbm, 213, rfl⟩
abbrev main_call7_cst : Ref sig .tc := ⟨.hbm, 214, rfl⟩
abbrev main_call7_v0 : Ref sig .tc := ⟨.hbm, 215, rfl⟩
abbrev main_call7_v1 : Ref sig .tc := ⟨.hbm, 216, rfl⟩
abbrev main_call7_cst_0 : Ref sig .tc := ⟨.hbm, 217, rfl⟩
abbrev main_call7_v2 : Ref sig .tc := ⟨.hbm, 218, rfl⟩
abbrev main_call7_v3 : Ref sig .tc := ⟨.hbm, 219, rfl⟩
abbrev main_call7_v4 : Ref sig .tc := ⟨.hbm, 220, rfl⟩
abbrev main_call7_v5 : Ref sig .tc := ⟨.hbm, 221, rfl⟩
abbrev main_call7_v6 : Ref sig .tc := ⟨.hbm, 222, rfl⟩
abbrev main_call7_v7 : Ref sig .tc := ⟨.hbm, 223, rfl⟩
abbrev main_call7_cst_1 : Ref sig .tc := ⟨.hbm, 224, rfl⟩
abbrev main_call7_v8 : Ref sig .tc := ⟨.hbm, 225, rfl⟩
abbrev main_call7_cst_2 : Ref sig .tc := ⟨.hbm, 226, rfl⟩
abbrev main_call7_v9 : Ref sig .tc := ⟨.hbm, 227, rfl⟩
abbrev main_call7_v10 : Ref sig .tc := ⟨.hbm, 228, rfl⟩
abbrev main_call7_v11 : Ref sig .tc := ⟨.hbm, 229, rfl⟩
abbrev main_call7_cst_3 : Ref sig .tc := ⟨.hbm, 230, rfl⟩
abbrev main_call7_v12 : Ref sig .tc := ⟨.hbm, 231, rfl⟩
abbrev main_call7_cst_4 : Ref sig .tc := ⟨.hbm, 232, rfl⟩
abbrev main_call7_call0_v0 : Ref sig .tc := ⟨.hbm, 233, rfl⟩
abbrev main_call7_call0_v1 : Ref sig .tc := ⟨.hbm, 234, rfl⟩
abbrev main_v127 : Ref sig .tc := ⟨.hbm, 235, rfl⟩
abbrev main_v128 : Ref sig .tc := ⟨.hbm, 236, rfl⟩
abbrev main_v129 : Ref sig .tc := ⟨.hbm, 237, rfl⟩
abbrev main_v130 : Ref sig .tc := ⟨.hbm, 238, rfl⟩
abbrev main_cst_18 : Ref sig .tc := ⟨.hbm, 239, rfl⟩
abbrev main_v131 : Ref sig .tc := ⟨.hbm, 240, rfl⟩
abbrev main_v132 : Ref sig .tc := ⟨.hbm, 241, rfl⟩
abbrev main_v133 : Ref sig .tc := ⟨.hbm, 242, rfl⟩
abbrev main_v134 : Ref sig .tc := ⟨.hbm, 243, rfl⟩
abbrev main_v135 : Ref sig .tc := ⟨.hbm, 244, rfl⟩
abbrev main_v136 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_call8_cst : Ref sig .tc := ⟨.hbm, 252, rfl⟩
abbrev main_call8_v0 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_c_19 : Ref sig .tc := ⟨.hbm, 267, rfl⟩
abbrev main_v156 : Ref sig .tc := ⟨.hbm, 268, rfl⟩
abbrev main_v157 : Ref sig .tc := ⟨.hbm, 269, rfl⟩
abbrev main_c_20 : Ref sig .tc := ⟨.hbm, 270, rfl⟩
abbrev main_v158 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_21 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_v170 : Ref sig .tc := ⟨.hbm, 284, rfl⟩
abbrev main_call9_cst : Ref sig .tc := ⟨.hbm, 285, rfl⟩
abbrev main_call9_v0 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_cst_22 : Ref sig .tc := ⟨.hbm, 292, rfl⟩
abbrev main_v176 : Ref sig .tc := ⟨.hbm, 293, rfl⟩
abbrev main_cst_23 : Ref sig .tc := ⟨.hbm, 294, rfl⟩
abbrev main_v177 : Ref sig .tc := ⟨.hbm, 295, rfl⟩
abbrev main_v178 : Ref sig .tc := ⟨.hbm, 296, rfl⟩
abbrev main_c_24 : Ref sig .tc := ⟨.hbm, 297, rfl⟩
abbrev main_call10_cst : Ref sig .tc := ⟨.hbm, 298, rfl⟩
abbrev main_call10_v0 : Ref sig .tc := ⟨.hbm, 299, rfl⟩
abbrev main_call10_v1 : Ref sig .tc := ⟨.hbm, 300, rfl⟩
abbrev main_call10_cst_0 : Ref sig .tc := ⟨.hbm, 301, rfl⟩
abbrev main_call10_v2 : Ref sig .tc := ⟨.hbm, 302, rfl⟩
abbrev main_call10_v3 : Ref sig .tc := ⟨.hbm, 303, rfl⟩
abbrev main_call10_v4 : Ref sig .tc := ⟨.hbm, 304, rfl⟩
abbrev main_call10_v5 : Ref sig .tc := ⟨.hbm, 305, rfl⟩
abbrev main_call10_v6 : Ref sig .tc := ⟨.hbm, 306, rfl⟩
abbrev main_call10_v7 : Ref sig .tc := ⟨.hbm, 307, rfl⟩
abbrev main_call10_cst_1 : Ref sig .tc := ⟨.hbm, 308, rfl⟩
abbrev main_call10_v8 : Ref sig .tc := ⟨.hbm, 309, rfl⟩
abbrev main_call10_cst_2 : Ref sig .tc := ⟨.hbm, 310, rfl⟩
abbrev main_call10_v9 : Ref sig .tc := ⟨.hbm, 311, rfl⟩
abbrev main_call10_v10 : Ref sig .tc := ⟨.hbm, 312, rfl⟩
abbrev main_call10_v11 : Ref sig .tc := ⟨.hbm, 313, rfl⟩
abbrev main_call10_cst_3 : Ref sig .tc := ⟨.hbm, 314, rfl⟩
abbrev main_call10_v12 : Ref sig .tc := ⟨.hbm, 315, rfl⟩
abbrev main_call10_cst_4 : Ref sig .tc := ⟨.hbm, 316, rfl⟩
abbrev main_call10_call0_v0 : Ref sig .tc := ⟨.hbm, 317, rfl⟩
abbrev main_call10_call0_v1 : Ref sig .tc := ⟨.hbm, 318, rfl⟩
abbrev main_v179 : Ref sig .tc := ⟨.hbm, 319, rfl⟩
abbrev main_v180 : Ref sig .tc := ⟨.hbm, 320, rfl⟩
abbrev main_v181 : Ref sig .tc := ⟨.hbm, 321, rfl⟩
abbrev main_v182 : Ref sig .tc := ⟨.hbm, 322, rfl⟩
abbrev main_cst_25 : Ref sig .tc := ⟨.hbm, 323, rfl⟩
abbrev main_v183 : Ref sig .tc := ⟨.hbm, 324, rfl⟩
abbrev main_v184 : Ref sig .tc := ⟨.hbm, 325, rfl⟩
abbrev main_v185 : Ref sig .tc := ⟨.hbm, 326, rfl⟩
abbrev main_v186 : Ref sig .tc := ⟨.hbm, 327, rfl⟩
abbrev main_v187 : Ref sig .tc := ⟨.hbm, 328, rfl⟩
abbrev main_v188 : Ref sig .tc := ⟨.hbm, 329, rfl⟩
abbrev main_v189 : Ref sig .tc := ⟨.hbm, 330, rfl⟩
abbrev main_v190 : Ref sig .tc := ⟨.hbm, 331, rfl⟩
abbrev main_v191 : Ref sig .tc := ⟨.hbm, 332, rfl⟩
abbrev main_v192 : Ref sig .tc := ⟨.hbm, 333, rfl⟩
abbrev main_v193 : Ref sig .tc := ⟨.hbm, 334, rfl⟩
abbrev main_v194 : Ref sig .tc := ⟨.hbm, 335, rfl⟩
abbrev main_call11_cst : Ref sig .tc := ⟨.hbm, 336, rfl⟩
abbrev main_call11_v0 : Ref sig .tc := ⟨.hbm, 337, rfl⟩
abbrev main_v195 : Ref sig .tc := ⟨.hbm, 338, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Kernel.Mlp0Runs.lean ====
import proofs.«144771_j36481452212846_1_alg».proof.Proof.Gen.Kernel.Launch
import proofs.«144771_j36481452212846_1_alg».proof.Proof.Gen.Kernel.Skeleton
import proofs.«144771_j36481452212846_1_alg».proof.Proof.Gen.Kernel.Points
import Idealize.ShloMosaic.Lib.Pipeline.FrameBody
import Idealize.ShloMosaic.Lib.Ring
import Idealize.ShloMosaic.Lib.Tactic

/-! # The first statistics pass: what its ten tiles share, and its body in the three ways it runs

The pass walks the node rows in ten tiles of 5000. On each tile it forms the tile's linear
activations `z = relu((h + agg) · W₁ + b₁) · W₂ + b₂`, writes them out, and adds the tile's column
sums `Σ z` and column sums of squares `Σ z²` to two running rows that live from tile to tile. The
running rows are set to zero on the first tile; on the last tile the column mean `Σ z / n` and the
column variance `Σ z² / n − mean²` are formed from them and written out. So the body does one of
three things, told apart by the tile's number alone:

* first tile: zero both running rows, then accumulate;
* a middle tile: accumulate onto what the tile before left;
* last tile: accumulate, then emit mean and variance.

This file fixes the two tests on the tile number and decides where over the ten tiles they hold,
records on which tiles the mean and variance blocks are touched at all, names the buffers the body
is handed, and then runs the body once for each of the three cases: from the inputs' contents (and,
after the first tile, the running rows' contents) to the exact list of pieces each written buffer
ends with. -/

-- deciding membership in a block of 5000 rows walks the long axis one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests on the tile number -/

/-- "This is the first tile": the tile number compared with 0, widened to a word and tested against
    zero, exactly as the body computes it before it zeroes the running rows. -/
abbrev cond0_0 (i : grid0.Coords) : Prop := (Scalar.cmpi .ne (Scalar.extui (Scalar.cmpi .eq (BitVec.ofNat 32 (i 0).val) 0#32)) 0#32) = 1#1
/-- Over the ten tiles it holds at tile 0 and nowhere else. -/
theorem hcond0_0 : ∀ t : Fin cfg0.N, cond0_0 (grid0.coords t) ↔ t.val % 10 = 0 :=
  (by decide +kernel : ∀ t : Fin grid0.N, cond0_0 (grid0.coords t) ↔ t.val % 10 = 0)

/-- "This is the last tile": the tile number compared with 9, the test guarding the emission of mean
    and variance. -/
abbrev cond0_1 (i : grid0.Coords) : Prop := k0_cond2 i = 1#1
/-- Over the ten tiles it holds at tile 9 and nowhere else. -/
theorem hcond0_1 : ∀ t : Fin cfg0.N, cond0_1 (grid0.coords t) ↔ t.val % 10 = 9 :=
  (by decide +kernel : ∀ t : Fin grid0.N, cond0_1 (grid0.coords t) ↔ t.val % 10 = 9)

/-! ## On which tiles each block is touched

The six inputs and the activations block are in use on every tile. The mean block and the variance
block are stored into on the last tile only: on every earlier tile the body leaves them alone and
nothing is written back from them. -/

/-- Block 0 is in use on every tile. -/
theorem liveAt0_0 : ∀ t : Fin cfg0.N, cfg0.idle 0 (grid0.coords t) = false := by decide +kernel
/-- Block 1 is in use on every tile. -/
theorem liveAt0_1 : ∀ t : Fin cfg0.N, cfg0.idle 1 (grid0.coords t) = false := by decide +kernel
/-- Block 2 is in use on every tile. -/
theorem liveAt0_2 : ∀ t : Fin cfg0.N, cfg0.idle 2 (grid0.coords t) = false := by decide +kernel
/-- Block 3 is in use on every tile. -/
theorem liveAt0_3 : ∀ t : Fin cfg0.N, cfg0.idle 3 (grid0.coords t) = false := by decide +kernel
/-- Block 4 is in use on every tile. -/
theorem liveAt0_4 : ∀ t : Fin cfg0.N, cfg0.idle 4 (grid0.coords t) = false := by decide +kernel
/-- Block 5 is in use on every tile. -/
theorem liveAt0_5 : ∀ t : Fin cfg0.N, cfg0.idle 5 (grid0.coords t) = false := by decide +kernel
/-- Block 6 is in use on every tile. -/
theorem liveAt0_6 : ∀ t : Fin cfg0.N, cfg0.idle 6 (grid0.coords t) = false := by decide +kernel
/-- On the first tile the mean block is left alone. -/
theorem idleAt0_7_A : ∀ t : Fin cfg0.N, cond0_0 (grid0.coords t) → ¬cond0_1 (grid0.coords t) → cfg0.idle 7 (grid0.coords t) = true := by decide +kernel
/-- On the first tile the mean block is not written back. -/
theorem noFlush0_7_A : ∀ t : Fin cfg0.N, cond0_0 (grid0.coords t) → ¬cond0_1 (grid0.coords t) → (cfg0.win 7).flush t = false := by decide +kernel
/-- On a middle tile the mean block is left alone. -/
theorem idleAt0_7_B : ∀ t : Fin cfg0.N, ¬cond0_0 (grid0.coords t) → ¬cond0_1 (grid0.coords t) → cfg0.idle 7 (grid0.coords t) = true := by decide +kernel
/-- On a middle tile the mean block is not written back. -/
theorem noFlush0_7_B : ∀ t : Fin cfg0.N, ¬cond0_0 (grid0.coords t) → ¬cond0_1 (grid0.coords t) → (cfg0.win 7).flush t = false := by decide +kernel
/-- On the last tile the mean block is stored into. -/
theorem liveAt0_7_C : ∀ t : Fin cfg0.N, ¬cond0_0 (grid0.coords t) → cond0_1 (grid0.coords t) → cfg0.idle 7 (grid0.coords t) = false := by decide +kernel
/-- On the first tile the variance block is left alone. -/
theorem idleAt0_8_A : ∀ t : Fin cfg0.N, cond0_0 (grid0.coords t) → ¬cond0_1 (grid0.coords t) → cfg0.idle 8 (grid0.coords t) = true := by decide +kernel
/-- On the first tile the variance block is not written back. -/
theorem noFlush0_8_A : ∀ t : Fin cfg0.N, cond0_0 (grid0.coords t) → ¬cond0_1 (grid0.coords t) → (cfg0.win 8).flush t = false := by decide +kernel
/-- On a middle tile the variance block is left alone. -/
theorem idleAt0_8_B : ∀ t : Fin cfg0.N, ¬cond0_0 (grid0.coords t) → ¬cond0_1 (grid0.coords t) → cfg0.idle 8 (grid0.coords t) = true := by decide +kernel
/-- On a middle tile the variance block is not written back. -/
theorem noFlush0_8_B : ∀ t : Fin cfg0.N, ¬cond0_0 (grid0.coords t) → ¬cond0_1 (grid0.coords t) → (cfg0.win 8).flush t = false := by decide +kernel
/-- On the last tile the variance block is stored into. -/
theorem liveAt0_8_C : ∀ t : Fin cfg0.N, ¬cond0_0 (grid0.coords t) → cond0_1 (grid0.coords t) → cfg0.idle 8 (grid0.coords t) = false := by decide +kernel

/-! ## The buffers the body is handed -/

/-- A fixed buffer of the activations block's shape, through which the block's contents are read off
    a list of written pieces (which buffer of that shape is chosen makes no difference to what is read). -/
abbrev VO0_6 : View sig .tc .vmem S5000x64 .f32 := (Memref.whole cc0_stg6_0 : Memref sig .tc .vmem S5000x64 .f32).view
/-- The same for the mean block. -/
abbrev VO0_7 : View sig .tc .vmem S1x64 .f32 := (Memref.whole cc0_stg7_0 : Memref sig .tc .vmem S1x64 .f32).view
/-- The same for the variance block. -/
abbrev VO0_8 : View sig .tc .vmem S1x64 .f32 := (Memref.whole cc0_stg8_0 : Memref sig .tc .vmem S1x64 .f32).view

/-- The buffer holding each block on tile `t`, and the fact that it is a whole buffer. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)

/-- The running row of column sums `Σ z`: a whole buffer of the pass's own, kept from tile to tile. -/
abbrev scM0_0 : Memref sig .tc .vmem S1x64 .f32 := Memref.whole cc0_scratch0
/-- The running row of column sums of squares `Σ z²`, likewise. -/
abbrev scM0_1 : Memref sig .tc .vmem S1x64 .f32 := Memref.whole cc0_scratch1
/-- The two running rows as views: what they hold is stated through these. -/
abbrev VS0_0 : View sig .tc .vmem S1x64 .f32 := scM0_0.view
abbrev VS0_1 : View sig .tc .vmem S1x64 .f32 := scM0_1.view

/-- What the pass may use between tiles beside its blocks: the two running rows, each owned whole at
    some contents; every other scoped buffer of the program, kept closed as one conjunct; and the
    random-bit register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
            ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

/-! ## The body on the first tile -/

-- (the run's proof term is long; closing the definition walks all of it)
set_option maxHeartbeats 1000000 in
/-- FIRST TILE (the first-tile test holds, the last-tile test fails). Given the six inputs owned at
    their contents `x0 … x5`, the activations buffer and both running rows at anything, and the mean
    and variance buffers at contents `xi7`, `xi8`, the body ends with the inputs as they were, the
    mean and variance buffers still at `xi7`, `xi8`, and the activations buffer and the two running
    rows each holding a definite list of written pieces (latest first). The three lists are the
    data of this definition: `L6` for the activations, `LS0` for `Σ z` (zero, then zero plus the tile's
    column sums), `LS1` for `Σ z²` likewise. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on a middle tile -/

set_option maxHeartbeats 1000000 in
/-- A MIDDLE TILE (neither test holds). As on the first tile, except that the running rows come in
    owned at the contents `xs0`, `xs1` the tile before left and nothing zeroes them: `LS0` is one
    piece, `xs0` plus the tile's column sums, and `LS1` one piece, `xs1` plus the tile's column sums
    of squares. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on the last tile -/

set_option maxHeartbeats 1000000 in
/-- THE LAST TILE (the first-tile test fails, the last-tile test holds). The running rows come in at
    `xs0`, `xs1`; the mean and variance buffers may hold anything. The body accumulates as on a middle
    tile and then stores the mean, formed from the updated `Σ z`, and the variance, formed from the
    updated `Σ z` and `Σ z²`: beside `L6`, `LS0`, `LS1` there are now the piece lists `L7` of the mean
    buffer and `L8` of the variance buffer. -/
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (L7 : List (View.Piece (Elt F) S1x64 .f32)), Σ' (L8 : List (View.Piece (Elt F) S1x64 .f32)), Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.Kernel.Mlp0Dat.lean ====
import proofs.«144771_j36481452212846_1_alg».proof.Proof.Kernel.Mlp0Runs

/-! # The first statistics pass: what every buffer holds, tile by tile

The body's three runs say, for one tile, which pieces each written buffer ends with. Here those
pieces are read back into contents, and the contents are followed along the ten tiles:

* the activations block after tile `t` is what that tile's run wrote;
* the running rows `Σ z` and `Σ z²` after tile `t` are what that tile's run wrote, which on every tile
  but the first was computed from what tile `t − 1` left in them — a recursion on `t`, started by
  the zeroing on tile 0;
* the mean and variance blocks get their contents on tile 9, from the running rows as tile 9
  leaves them; on the earlier tiles they are not touched.

From this the data the pipelined launch asks for are assembled: what each block's array holds on
entry (a parameter `V`, since other passes run before this one), what each block's buffer holds
after the body on each tile, and what is kept between tiles (before the first tile: the running
rows at anything; after tile `t`: the running rows at exactly what tile `t` left). -/

-- deciding membership in a block of 5000 rows walks the long axis one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One tile: the written pieces read back -/

/-! ### First tile -/

/-- On the first tile the pieces written into the activations block reach every entry of it: they are whole-block pieces, and one
    whole block is the block. -/
theorem cover0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (y : S5000x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y

/-- What the first tile leaves in the activations block: its written pieces read back (over contents that, the pieces covering
    everything, are never seen). -/
def out0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) : Vec F S5000x64 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- On the first tile nothing is stored into the mean block and nothing is written back from it; this entry of the record is
    a placeholder that no statement reads. -/
def out0_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) : Vec F S1x64 .f32 :=
  VO0_7.read (Elt F) VO0_7.junk

/-- On the first tile nothing is stored into the variance block and nothing is written back from it; this entry of the record is
    a placeholder that no statement reads. -/
def out0_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) : Vec F S1x64 .f32 :=
  VO0_8.read (Elt F) VO0_8.junk

/-- On the first tile the pieces written into the running row of sums reach every entry of it: they are whole-block pieces, and one
    whole block is the block. -/
theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y

/-- What the first tile leaves in the running row of sums: its written pieces read back (over contents that, the pieces covering
    everything, are never seen). -/
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- On the first tile the pieces written into the running row of sums of squares reach every entry of it: they are whole-block pieces, and one
    whole block is the block. -/
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y

/-- What the first tile leaves in the running row of sums of squares: its written pieces read back (over contents that, the pieces covering
    everything, are never seen). -/
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-! ### A middle tile -/

/-- On a middle tile the pieces written into the activations block reach every entry of it: they are whole-block pieces, and one
    whole block is the block. -/
theorem cover0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What a middle tile leaves in the activations block: its written pieces read back (over contents that, the pieces covering
    everything, are never seen). -/
def out0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S5000x64 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On a middle tile nothing is stored into the mean block and nothing is written back from it; this entry of the record is
    a placeholder that no statement reads. -/
def out0_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VO0_7.read (Elt F) VO0_7.junk

/-- On a middle tile nothing is stored into the variance block and nothing is written back from it; this entry of the record is
    a placeholder that no statement reads. -/
def out0_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VO0_8.read (Elt F) VO0_8.junk

/-- On a middle tile the pieces written into the running row of sums reach every entry of it: they are whole-block pieces, and one
    whole block is the block. -/
theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What a middle tile leaves in the running row of sums: its written pieces read back (over contents that, the pieces covering
    everything, are never seen). -/
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On a middle tile the pieces written into the running row of sums of squares reach every entry of it: they are whole-block pieces, and one
    whole block is the block. -/
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What a middle tile leaves in the running row of sums of squares: its written pieces read back (over contents that, the pieces covering
    everything, are never seen). -/
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-! ### Last tile -/

/-- On the last tile the pieces written into the activations block reach every entry of it: they are whole-block pieces, and one
    whole block is the block. -/
theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What the last tile leaves in the activations block: its written pieces read back (over contents that, the pieces covering
    everything, are never seen). -/
def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S5000x64 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On the last tile the pieces written into the mean block reach every entry of it: they are whole-block pieces, and one
    whole block is the block. -/
theorem cover0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What the last tile leaves in the mean block: its written pieces read back (over contents that, the pieces covering
    everything, are never seen). -/
def out0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On the last tile the pieces written into the variance block reach every entry of it: they are whole-block pieces, and one
    whole block is the block. -/
theorem cover0_C_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What the last tile leaves in the variance block: its written pieces read back (over contents that, the pieces covering
    everything, are never seen). -/
def out0_C_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- On the last tile the pieces written into the running row of sums reach every entry of it: they are whole-block pieces, and one
    whole block is the block. -/
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y

/-- What the last tile leaves in the running row of sums: its written pieces read back (over contents that, the pieces covering
    everything, are never seen). -/
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- On the last tile the pieces written into the running row of sums of squares reach every entry of it: they are whole-block pieces, and one
    whole block is the block. -/
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y

/-- What the last tile leaves in the running row of sums of squares: its written pieces read back (over contents that, the pieces covering
    everything, are never seen). -/
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## The ten tiles -/

-- what every buffer of the core holds when the pass is entered
variable (V : (c : Dev nD) → (b : Ref sig .tc) → Buf (Elt F) ((c : Thread nD τ).loc b))

/-- Block `w` at tile `t`: the part of the block's array, as `V` has it, that the block's index map
    selects there. For the node features and the aggregated messages this is row tile `t`; for the
    two weight matrices and the two bias rows it is the whole array at every `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- THE RECORD after tile `n`: (activations block, mean block, variance block, `Σ z`, `Σ z²`). Tile 0
    runs the first-tile case on that tile's blocks. Tile `n + 1` runs the last-tile case if it is
    tile 9 and the middle-tile case otherwise, on its own blocks and on the two running rows of the
    record after tile `n`. (Ten tiles: a tile after the first is never a multiple of ten, and the
    branches saying otherwise are empty.) -/
def outsAt0 (c : Dev nD) : (n : ℕ) → n < cfg0.N → Vec F S5000x64 .f32 × Vec F S1x64 .f32 × Vec F S1x64 .f32 × Vec F S1x64 .f32 × Vec F S1x64 .f32
  | 0, hn =>
    (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 10 = 0 then
      False.elim (by have hN : n + 1 < 10 := lt_of_lt_of_eq hn (show cfg0.N = 10 from N_0); omega)
    else
      if h1 : (n + 1) % 10 = 9 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)

/-- The record at the first tile. -/
theorem outsAt0_A (c : Dev nD) (t : Fin cfg0.N) (h0 : t.val % 10 = 0) (h1 : ¬t.val % 10 = 9) :
    outsAt0 V c t.val t.isLt =
      (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (by exfalso; have hN : n + 1 < 10 := lt_of_lt_of_eq hn (show cfg0.N = 10 from N_0); (try dsimp only at h0); omega)

/-- The record at a middle tile, over the record of the tile before. -/
theorem outsAt0_B (c : Dev nD) (t : Fin cfg0.N) (h0 : ¬t.val % 10 = 0) (h1 : ¬t.val % 10 = 9) :
    outsAt0 V c t.val t.isLt =
      (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- The record at the last tile, over the record of the tile before. -/
theorem outsAt0_C (c : Dev nD) (t : Fin cfg0.N) (h0 : ¬t.val % 10 = 0) (h1 : t.val % 10 = 9) :
    outsAt0 V c t.val t.isLt =
      (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## What is kept between tiles -/

/-- Before tile `n`. Before the first tile: what any pass of this kind may assume (both running rows
    at anything). Before tile `n + 1`: the running rows owned at exactly the two last entries of the
    record after tile `n`; the other scoped buffers of the program, closed; the random-bit register
    at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
        ∗ Pipeline.scopedRestBut (Ix := Unit) (Name := ℕ) (U := UR sig nD τ) (Lvl := ℕ) (Val := Elt F) spec0 c [cc0_scratch0, cc0_scratch1])
      ∗ (∃ r, prngReg c r))

theorem PhiS0_zero (c : Dev nD) (n : ℕ) (h : n ≤ cfg0.N) (hz : n = 0) : PhiS0 V c n h = Pipeline.ΦA spec0 c := by
  subst hz; rfl

/-- After tile `n`. -/
theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
        ∗ Pipeline.scopedRestBut (Ix := Unit) (Name := ℕ) (U := UR sig nD τ) (Lvl := ℕ) (Val := Elt F) spec0 c [cc0_scratch0, cc0_scratch1])
      ∗ (∃ r, prngReg c r)) := rfl

/-- Before a tile that is not the first: the running rows at what the tile before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
        ∗ Pipeline.scopedRestBut (Ix := Unit) (Name := ℕ) (U := UR sig nD τ) (Lvl := ℕ) (Val := Elt F) spec0 c [cc0_scratch0, cc0_scratch1])
      ∗ (∃ r, prngReg c r)) := by
  cases n with
  | zero => exact absurd rfl hz
  | succ n => rfl

/-! ## The data of the pipelined launch -/

/-- On core `c`: the arrays as the pass finds them (`V`); after the body on tile `t`, each input block's
    buffer still at its block, and the three output blocks' buffers at the first three entries of
    the record; between tiles, `PhiS0`; every share full; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

/-- The arrays of the data are `V`'s: the field projected. -/
theorem A_eq0 (c : Dev nD) (w : Fin cfg0.W) : (dat0 V c).A w = V c (Pipeline.arrRef spec0 w) := by
  dsimp only [dat0]

/-- What is kept before tile `t`, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- Before the first tile: what any pass of this kind may assume. -/
theorem Phi0_first (c : Dev nD) : (dat0 V c).Φ 0 = Pipeline.ΦA spec0 c := by
  rw [show (dat0 V c).Φ 0 = PhiS0 V c 0 (Nat.zero_le _) from rfl, PhiS0_zero V c 0 _ rfl]

/-! What the body leaves, block by block: the data's case split reduced at each literal block. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

end Cert.Kernel.Hand

end
-- ==== Proof.Kernel.Mlp0Obl.lean ====
import proofs.«144771_j36481452212846_1_alg».proof.Proof.Kernel.Mlp0Dat

/-! # The first statistics pass: the body does on every tile what the data say

With the record of what each buffer holds after each tile in hand, it remains to check it against
the body, one tile at a time. On tile `t` the body is handed each block's buffer. An input block's
buffer holds that block whether or not it was fetched on this tile: the weights and biases are
fetched on tile 0 only, but their block never moves, and the body leaves them as it finds them. The
tile's number picks the case (0: first; 1 to 8: middle; 9: last); the running rows come in at
anything on tile 0 and at what tile `t − 1` left afterwards; the case's run then ends with every
buffer holding what the record says, because the pieces it writes cover each written buffer. The
mean and variance buffers, not touched before tile 9, go back as they came. After the last tile,
forgetting what the running rows hold gives back what the pass was entered with. -/

-- deciding membership in a block of 5000 rows walks the long axis one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the pass is entered
variable (V : (c : Dev nD) → (b : Ref sig .tc) → Buf (Elt F) ((c : Thread nD τ).loc b))

/-! ## What the body finds in the input blocks

For any data whose array for input block `W` is `V`'s and whose body hands the block's buffer back
holding the block, the buffer holds block `t` on tile `t`, for every `t`: where the block was fetched
this is what the fetch wrote; where it was not, the block's index is the one of the tile before,
and the buffer, left alone, still holds it. None of these blocks is cut short at the array's edge
and none is ever out of use, which settles the side conditions by unfolding. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! The same for the data of this pass. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## One tile -/

/-- What the body is handed on tile `t`: what is kept between tiles, the ledger of owed signals, and
    each block's current buffer, whole, at what it holds before the body. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- What it must hand back: the same, each buffer at what the data say the body leaves there (for a
    block out of use on this tile and not written back: at what it held). -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body on tile `t` takes the one to the other. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 10 = 0
  · by_cases h1 : t.val % 10 = 9
    · exfalso; omega
    ·
      -- first tile
      have hz : t.val = 0 := by omega
      have hc0 : cond0_0 (grid0.coords t) := (hcond0_0 t).mpr h0
      have hc1 : ¬cond0_1 (grid0.coords t) := fun h => h1 ((hcond0_1 t).mp h)
      rw [Dat.leavesExact_idle (dat0 V c) 7 t (idleAt0_7_A t hc0 hc1) (noFlush0_7_A t hc0 hc1)]
      rw [Dat.leavesExact_idle (dat0 V c) 8 t (idleAt0_8_A t hc0 hc1) (noFlush0_8_A t hc0 hc1)]
      rw [outsAt0_A V c t h0 h1]
      unfold out0_A_6 sout0_A_0 sout0_A_1; (try dsimp only)
      rw [PhiS0_castSucc V c t, PhiS0_zero V c _ _ hz, PhiA0_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _)
      isplitl [H7]; · iexists _; iexact H7
      iexists _; iexact H8
  · by_cases h1 : t.val % 10 = 9
    ·
      -- last tile
      have hz : t.val ≠ 0 := by omega
      have hc0 : ¬cond0_0 (grid0.coords t) := fun h => h0 ((hcond0_0 t).mp h)
      have hc1 : cond0_1 (grid0.coords t) := (hcond0_1 t).mpr h1
      rw [show (dat0 V c).leavesExact 7 t = owns (c : Thread nD τ) (ms0_7 t) fullShare ((dat0 V c).after 7 t) from by
        unfold Dat.leavesExact; rw [liveAt0_7_C t hc0 hc1], after0_7]
      rw [show (dat0 V c).leavesExact 8 t = owns (c : Thread nD τ) (ms0_8 t) fullShare ((dat0 V c).after 8 t) from by
        unfold Dat.leavesExact; rw [liveAt0_8_C t hc0 hc1], after0_8]
      rw [outsAt0_C V c t h0 h1]
      unfold out0_C_6 out0_C_7 out0_C_8 sout0_C_0 sout0_C_1; (try dsimp only)
      rw [PhiS0_castSucc V c t, PhiS0_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    ·
      -- a middle tile
      have hz : t.val ≠ 0 := by omega
      have hc0 : ¬cond0_0 (grid0.coords t) := fun h => h0 ((hcond0_0 t).mp h)
      have hc1 : ¬cond0_1 (grid0.coords t) := fun h => h1 ((hcond0_1 t).mp h)
      rw [Dat.leavesExact_idle (dat0 V c) 7 t (idleAt0_7_B t hc0 hc1) (noFlush0_7_B t hc0 hc1)]
      rw [Dat.leavesExact_idle (dat0 V c) 8 t (idleAt0_8_B t hc0 hc1) (noFlush0_8_B t hc0 hc1)]
      rw [outsAt0_B V c t h0 h1]
      unfold out0_B_6 sout0_B_0 sout0_B_1; (try dsimp only)
      rw [PhiS0_castSucc V c t, PhiS0_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The obligation in the form the launch takes it: the conjunction over all nine blocks, spelled
    block by block, is the pair above. -/
theorem body_obligation0 (c : Dev nD) : BodyObligation (dat0 (F := F) V c) (defs₀ (F := F)) Variants.none () Set.univ := fun t => by
  rw [bigSep_W0, bigSep_W0]
  exact sound_body0 V c t

/-! ## Leaving the pass -/

/-- After any tile, forgetting what the two running rows hold gives back what a pass of this kind
    is entered with. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- In particular after the last tile. -/
theorem Phi0_last_ent (c : Dev nD) : (dat0 V c).Φ (Fin.last cfg0.N) ⊢ Pipeline.ΦA spec0 c :=
  Phi0_out V c _ (by rw [Fin.val_last]; have : cfg0.N = 10 := N_0; omega)

end Cert.Kernel.Hand

end
-- ==== Proof.Kernel.Bn1.lean ====
/-
  One region of @main: the batch-norm-and-ReLU pallas_call of a GIN layer (cc1__bn_relu_kernel, with the
  pipeline cfg1 that launches it), on its grid of ten row tiles.

  Everything here is stated at a PARAMETER V: what the TensorCore's buffers hold at the moment the region is
  entered. From V alone we say what each window's block is at each grid point, what the body leaves in the
  output tile (one store of the normalised, scaled, shifted and clamped tile, a closed function of the five
  input blocks), and we discharge the per-point obligation the pipelined launch asks of the body.

  The body belongs to the plainest class of pipeline bodies: it reads its five input tiles through whole-tile
  rectangles, reads (and ignores) what the output tile held, writes the output tile once through a whole-tile
  rectangle, and keeps nothing between grid points. Four of the five inputs (variance, mean, scale, shift: one
  row of 64 each) have a block index that never moves, so the pipeline fetches them only at the first point;
  at later points their staging buffers still hold the same block, which is what the body needs.
-/
import proofs.«144771_j36481452212846_1_alg».proof.Proof.Gen.Kernel.Launch
import proofs.«144771_j36481452212846_1_alg».proof.Proof.Gen.Kernel.Skeleton
import proofs.«144771_j36481452212846_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle of 5000 rows walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every TensorCore buffer holds when the region is entered
variable (V : (c : Dev nD) → (b : Ref sig .tc) → Buf (Elt F) ((c : Thread nD τ).loc b))

/-! ## Blocks of the windows -/

/-- The block of window w at grid point t: the part of the window's array, as V has it, that the window's index
    map selects at t. For window 0 and window 5 this is row tile t of a 50000x64 array; for windows 1 to 4 it is
    the whole 1x64 row at every t. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body finds in the input windows

  For proof data whose array for window W is V's and whose body hands window W back holding its block, the
  current staging buffer of W holds block t at point t, for every t. Where the pipeline fetched at t this is
  what the fetch wrote; where it did not (windows 1 to 4 after the first point) the block index at t equals the
  one at t-1, so the buffer, left alone by the body, still holds the right block. The windows are never cut
  and never idle, which settles the side conditions by unfolding. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

/-- The whole 5000x64 tile. -/
abbrev r1_0 : Rect S5000x64 := Rect.unit (s := S5000x64) ![0, 0] S5000x64.size inb_S5000x64_S5000x64_0_0
/-- The whole 1x64 row. -/
abbrev r1_1 : Rect S1x64 := Rect.unit (s := S1x64) ![0, 0] S1x64.size inb_S1x64_S1x64_0_0

/-! ## The output tile after the body -/

/-- What the output window's staging buffer holds once the body has run, given the five input blocks
    (x0 the tile of pre-activations, x1 the mean row, x2 the variance row, x3 the scale row, x4 the shift row):
    the body's single store, over the whole tile, of max((x0 - x1) * rsqrt(x2 + eps) * x3 + x4, 0), the rows
    broadcast down the tile. The payload lists the values in the order the body reads them, and the body reads
    the variance row before the mean row; hence x2 stands before x1 below. -/
def out1_5 (x0 : Vec F S5000x64 .f32) (x1 x2 x3 x4 : Vec F S1x64 .f32) : Vec F S5000x64 .f32 :=
  View.canon [⟨r1_0, k1_pay1 (View.ld x0 r1_0) (View.ld x2 r1_1) (View.ld x1 r1_1) (View.ld x3 r1_1) (View.ld x4 r1_1)⟩]

/-- A single whole-tile piece covers the tile: one block of the tile's own size tiles it. -/
theorem cover1_5 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body on its six staging buffers -/

set_option maxHeartbeats 1000000 in
/-- Run on six whole staging buffers, the five inputs reading x0 … x4 and the output holding anything, the body
    ends with the inputs unchanged and the output reading out1_5 x0 … x4. The printed function is a sequence of
    five whole-buffer loads, one more load (of the output buffer, whose value nothing uses), and one whole-buffer
    store; symbolic execution walks it, and the store, covering the tile, leaves the canonical contents of its
    one piece whatever the output held before. -/
theorem sound_kernel1 (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data of the pipeline -/

/-- The proof data of this region's pipeline (cfg1) on core c. The arrays are what the region finds (V). After the body at point t every
    input window's buffer still holds its block, and the output window's holds out1_5 of the five input blocks.
    The invariant carried from point to point is the plain one (the scoped rest and the generator register,
    neither touched); every share is the full one; no signal is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The arrays of the proof data are V's: the field projected. -/
theorem A_eq1 (c : Dev nD) (w : Fin cfg1.W) : (dat1 V c).A w = V c (Pipeline.arrRef spec1 w) := by
  dsimp only [dat1]

/-! What the body leaves, one window at a time: the case split of the definition reduced at each literal window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! What the body finds in each input window, for this proof data: its block, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The obligation of the body at a grid point -/

/-- What the launch hands the body at point t: the invariant, the ledger of owed signals, and each window's current
    staging buffer, whole, holding what that window holds before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the launch wants back: the same, each buffer now holding what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at point t takes the one to the other. Each input buffer holds its block (before1_W), so the triple
    of the body applies with the blocks for x0 … x4; the invariant and the ledger are neither read nor changed,
    and do not depend on the point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation in the form the launch theorem takes it: the conjunction over all windows, spelled window by
    window, is the pre- and postcondition above. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Mlp2Runs.lean ====
import proofs.«144771_j36481452212846_1_alg».proof.Proof.Gen.Kernel.Launch
import proofs.«144771_j36481452212846_1_alg».proof.Proof.Gen.Kernel.Skeleton
import proofs.«144771_j36481452212846_1_alg».proof.Proof.Gen.Kernel.Points
import Idealize.ShloMosaic.Lib.Pipeline.FrameBody
import Idealize.ShloMosaic.Lib.Ring
import Idealize.ShloMosaic.Lib.Tactic

/-! # The first statistics pass: what its ten tiles share, and its body in the three ways it runs

The pass walks the node rows in ten tiles of 5000. On each tile it forms the tile's linear
activations `z = relu((h + agg) · W₁ + b₁) · W₂ + b₂`, writes them out, and adds the tile's column
sums `Σ z` and column sums of squares `Σ z²` to two running rows that live from tile to tile. The
running rows are set to zero on the first tile; on the last tile the column mean `Σ z / n` and the
column variance `Σ z² / n − mean²` are formed from them and written out. So the body does one of
three things, told apart by the tile's number alone:

* first tile: zero both running rows, then accumulate;
* a middle tile: accumulate onto what the tile before left;
* last tile: accumulate, then emit mean and variance.

This file fixes the two tests on the tile number and decides where over the ten tiles they hold,
records on which tiles the mean and variance blocks are touched at all, names the buffers the body
is handed, and then runs the body once for each of the three cases: from the inputs' contents (and,
after the first tile, the running rows' contents) to the exact list of pieces each written buffer
ends with. -/

-- deciding membership in a block of 5000 rows walks the long axis one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests on the tile number -/

/-- "This is the first tile": the tile number compared with 0, widened to a word and tested against
    zero, exactly as the body computes it before it zeroes the running rows. -/
abbrev cond2_0 (i : grid2.Coords) : Prop := (Scalar.cmpi .ne (Scalar.extui (Scalar.cmpi .eq (BitVec.ofNat 32 (i 0).val) 0#32)) 0#32) = 1#1
/-- Over the ten tiles it holds at tile 0 and nowhere else. -/
theorem hcond2_0 : ∀ t : Fin cfg2.N, cond2_0 (grid2.coords t) ↔ t.val % 10 = 0 :=
  (by decide +kernel : ∀ t : Fin grid2.N, cond2_0 (grid2.coords t) ↔ t.val % 10 = 0)

/-- "This is the last tile": the tile number compared with 9, the test guarding the emission of mean
    and variance. -/
abbrev cond2_1 (i : grid2.Coords) : Prop := k2_cond2 i = 1#1
/-- Over the ten tiles it holds at tile 9 and nowhere else. -/
theorem hcond2_1 : ∀ t : Fin cfg2.N, cond2_1 (grid2.coords t) ↔ t.val % 10 = 9 :=
  (by decide +kernel : ∀ t : Fin grid2.N, cond2_1 (grid2.coords t) ↔ t.val % 10 = 9)

/-! ## On which tiles each block is touched

The six inputs and the activations block are in use on every tile. The mean block and the variance
block are stored into on the last tile only: on every earlier tile the body leaves them alone and
nothing is written back from them. -/

/-- Block 0 is in use on every tile. -/
theorem liveAt2_0 : ∀ t : Fin cfg2.N, cfg2.idle 0 (grid2.coords t) = false := by decide +kernel
/-- Block 1 is in use on every tile. -/
theorem liveAt2_1 : ∀ t : Fin cfg2.N, cfg2.idle 1 (grid2.coords t) = false := by decide +kernel
/-- Block 2 is in use on every tile. -/
theorem liveAt2_2 : ∀ t : Fin cfg2.N, cfg2.idle 2 (grid2.coords t) = false := by decide +kernel
/-- Block 3 is in use on every tile. -/
theorem liveAt2_3 : ∀ t : Fin cfg2.N, cfg2.idle 3 (grid2.coords t) = false := by decide +kernel
/-- Block 4 is in use on every tile. -/
theorem liveAt2_4 : ∀ t : Fin cfg2.N, cfg2.idle 4 (grid2.coords t) = false := by decide +kernel
/-- Block 5 is in use on every tile. -/
theorem liveAt2_5 : ∀ t : Fin cfg2.N, cfg2.idle 5 (grid2.coords t) = false := by decide +kernel
/-- Block 6 is in use on every tile. -/
theorem liveAt2_6 : ∀ t : Fin cfg2.N, cfg2.idle 6 (grid2.coords t) = false := by decide +kernel
/-- On the first tile the mean block is left alone. -/
theorem idleAt2_7_A : ∀ t : Fin cfg2.N, cond2_0 (grid2.coords t) → ¬cond2_1 (grid2.coords t) → cfg2.idle 7 (grid2.coords t) = true := by decide +kernel
/-- On the first tile the mean block is not written back. -/
theorem noFlush2_7_A : ∀ t : Fin cfg2.N, cond2_0 (grid2.coords t) → ¬cond2_1 (grid2.coords t) → (cfg2.win 7).flush t = false := by decide +kernel
/-- On a middle tile the mean block is left alone. -/
theorem idleAt2_7_B : ∀ t : Fin cfg2.N, ¬cond2_0 (grid2.coords t) → ¬cond2_1 (grid2.coords t) → cfg2.idle 7 (grid2.coords t) = true := by decide +kernel
/-- On a middle tile the mean block is not written back. -/
theorem noFlush2_7_B : ∀ t : Fin cfg2.N, ¬cond2_0 (grid2.coords t) → ¬cond2_1 (grid2.coords t) → (cfg2.win 7).flush t = false := by decide +kernel
/-- On the last tile the mean block is stored into. -/
theorem liveAt2_7_C : ∀ t : Fin cfg2.N, ¬cond2_0 (grid2.coords t) → cond2_1 (grid2.coords t) → cfg2.idle 7 (grid2.coords t) = false := by decide +kernel
/-- On the first tile the variance block is left alone. -/
theorem idleAt2_8_A : ∀ t : Fin cfg2.N, cond2_0 (grid2.coords t) → ¬cond2_1 (grid2.coords t) → cfg2.idle 8 (grid2.coords t) = true := by decide +kernel
/-- On the first tile the variance block is not written back. -/
theorem noFlush2_8_A : ∀ t : Fin cfg2.N, cond2_0 (grid2.coords t) → ¬cond2_1 (grid2.coords t) → (cfg2.win 8).flush t = false := by decide +kernel
/-- On a middle tile the variance block is left alone. -/
theorem idleAt2_8_B : ∀ t : Fin cfg2.N, ¬cond2_0 (grid2.coords t) → ¬cond2_1 (grid2.coords t) → cfg2.idle 8 (grid2.coords t) = true := by decide +kernel
/-- On a middle tile the variance block is not written back. -/
theorem noFlush2_8_B : ∀ t : Fin cfg2.N, ¬cond2_0 (grid2.coords t) → ¬cond2_1 (grid2.coords t) → (cfg2.win 8).flush t = false := by decide +kernel
/-- On the last tile the variance block is stored into. -/
theorem liveAt2_8_C : ∀ t : Fin cfg2.N, ¬cond2_0 (grid2.coords t) → cond2_1 (grid2.coords t) → cfg2.idle 8 (grid2.coords t) = false := by decide +kernel

/-! ## The buffers the body is handed -/

/-- A fixed buffer of the activations block's shape, through which the block's contents are read off
    a list of written pieces (which buffer of that shape is chosen makes no difference to what is read). -/
abbrev VO2_6 : View sig .tc .vmem S5000x64 .f32 := (Memref.whole cc2_stg6_0 : Memref sig .tc .vmem S5000x64 .f32).view
/-- The same for the mean block. -/
abbrev VO2_7 : View sig .tc .vmem S1x64 .f32 := (Memref.whole cc2_stg7_0 : Memref sig .tc .vmem S1x64 .f32).view
/-- The same for the variance block. -/
abbrev VO2_8 : View sig .tc .vmem S1x64 .f32 := (Memref.whole cc2_stg8_0 : Memref sig .tc .vmem S1x64 .f32).view

/-- The buffer holding each block on tile `t`, and the fact that it is a whole buffer. -/
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x64 .f32 := win2_8.stage (cfg2.slots t 8)
abbrev hs2_8 (t : Fin cfg2.N) : (ms2_8 t).IsWhole := hstage2_8 ((cfg2.slots t 8).cast nbuf2_8)

/-- The running row of column sums `Σ z`: a whole buffer of the pass's own, kept from tile to tile. -/
abbrev scM2_0 : Memref sig .tc .vmem S1x64 .f32 := Memref.whole cc2_scratch0
/-- The running row of column sums of squares `Σ z²`, likewise. -/
abbrev scM2_1 : Memref sig .tc .vmem S1x64 .f32 := Memref.whole cc2_scratch1
/-- The two running rows as views: what they hold is stated through these. -/
abbrev VS2_0 : View sig .tc .vmem S1x64 .f32 := scM2_0.view
abbrev VS2_1 : View sig .tc .vmem S1x64 .f32 := scM2_1.view

/-- What the pass may use between tiles beside its blocks: the two running rows, each owned whole at
    some contents; every other scoped buffer of the program, kept closed as one conjunct; and the
    random-bit register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
            ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

/-! ## The body on the first tile -/

-- (the run's proof term is long; closing the definition walks all of it)
set_option maxHeartbeats 1000000 in
/-- FIRST TILE (the first-tile test holds, the last-tile test fails). Given the six inputs owned at
    their contents `x0 … x5`, the activations buffer and both running rows at anything, and the mean
    and variance buffers at contents `xi7`, `xi8`, the body ends with the inputs as they were, the
    mean and variance buffers still at `xi7`, `xi8`, and the activations buffer and the two running
    rows each holding a definite list of written pieces (latest first). The three lists are the
    data of this definition: `L6` for the activations, `LS0` for `Σ z` (zero, then zero plus the tile's
    column sums), `LS1` for `Σ z²` likewise. -/
noncomputable def kernelRun2_A (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on a middle tile -/

set_option maxHeartbeats 1000000 in
/-- A MIDDLE TILE (neither test holds). As on the first tile, except that the running rows come in
    owned at the contents `xs0`, `xs1` the tile before left and nothing zeroes them: `LS0` is one
    piece, `xs0` plus the tile's column sums, and `LS1` one piece, `xs1` plus the tile's column sums
    of squares. -/
noncomputable def kernelRun2_B (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on the last tile -/

set_option maxHeartbeats 1000000 in
/-- THE LAST TILE (the first-tile test fails, the last-tile test holds). The running rows come in at
    `xs0`, `xs1`; the mean and variance buffers may hold anything. The body accumulates as on a middle
    tile and then stores the mean, formed from the updated `Σ z`, and the variance, formed from the
    updated `Σ z` and `Σ z²`: beside `L6`, `LS0`, `LS1` there are now the piece lists `L7` of the mean
    buffer and `L8` of the variance buffer. -/
noncomputable def kernelRun2_C (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (L7 : List (View.Piece (Elt F) S1x64 .f32)), Σ' (L8 : List (View.Piece (Elt F) S1x64 .f32)), Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.Kernel.Mlp2Dat.lean ====
import proofs.«144771_j36481452212846_1_alg».proof.Proof.Kernel.Mlp2Runs

/-! # The first statistics pass: what every buffer holds, tile by tile

The body's three runs say, for one tile, which pieces each written buffer ends with. Here those
pieces are read back into contents, and the contents are followed along the ten tiles:

* the activations block after tile `t` is what that tile's run wrote;
* the running rows `Σ z` and `Σ z²` after tile `t` are what that tile's run wrote, which on every tile
  but the first was computed from what tile `t − 1` left in them — a recursion on `t`, started by
  the zeroing on tile 0;
* the mean and variance blocks get their contents on tile 9, from the running rows as tile 9
  leaves them; on the earlier tiles they are not touched.

From this the data the pipelined launch asks for are assembled: what each block's array holds on
entry (a parameter `V`, since other passes run before this one), what each block's buffer holds
after the body on each tile, and what is kept between tiles (before the first tile: the running
rows at anything; after tile `t`: the running rows at exactly what tile `t` left). -/

-- deciding membership in a block of 5000 rows walks the long axis one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One tile: the written pieces read back -/

/-! ### First tile -/

/-- On the first tile the pieces written into the activations block reach every entry of it: they are whole-block pieces, and one
    whole block is the block. -/
theorem cover2_A_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (y : S5000x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y

/-- What the first tile leaves in the activations block: its written pieces read back (over contents that, the pieces covering
    everything, are never seen). -/
def out2_A_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)

/-- On the first tile nothing is stored into the mean block and nothing is written back from it; this entry of the record is
    a placeholder that no statement reads. -/
def out2_A_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VO2_7.read (Elt F) VO2_7.junk

/-- On the first tile nothing is stored into the variance block and nothing is written back from it; this entry of the record is
    a placeholder that no statement reads. -/
def out2_A_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VO2_8.read (Elt F) VO2_8.junk

/-- On the first tile the pieces written into the running row of sums reach every entry of it: they are whole-block pieces, and one
    whole block is the block. -/
theorem scover2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y

/-- What the first tile leaves in the running row of sums: its written pieces read back (over contents that, the pieces covering
    everything, are never seen). -/
def sout2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- On the first tile the pieces written into the running row of sums of squares reach every entry of it: they are whole-block pieces, and one
    whole block is the block. -/
theorem scover2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y

/-- What the first tile leaves in the running row of sums of squares: its written pieces read back (over contents that, the pieces covering
    everything, are never seen). -/
def sout2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-! ### A middle tile -/

/-- On a middle tile the pieces written into the activations block reach every entry of it: they are whole-block pieces, and one
    whole block is the block. -/
theorem cover2_B_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What a middle tile leaves in the activations block: its written pieces read back (over contents that, the pieces covering
    everything, are never seen). -/
def out2_B_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On a middle tile nothing is stored into the mean block and nothing is written back from it; this entry of the record is
    a placeholder that no statement reads. -/
def out2_B_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO2_7.read (Elt F) VO2_7.junk

/-- On a middle tile nothing is stored into the variance block and nothing is written back from it; this entry of the record is
    a placeholder that no statement reads. -/
def out2_B_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO2_8.read (Elt F) VO2_8.junk

/-- On a middle tile the pieces written into the running row of sums reach every entry of it: they are whole-block pieces, and one
    whole block is the block. -/
theorem scover2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What a middle tile leaves in the running row of sums: its written pieces read back (over contents that, the pieces covering
    everything, are never seen). -/
def sout2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On a middle tile the pieces written into the running row of sums of squares reach every entry of it: they are whole-block pieces, and one
    whole block is the block. -/
theorem scover2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What a middle tile leaves in the running row of sums of squares: its written pieces read back (over contents that, the pieces covering
    everything, are never seen). -/
def sout2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-! ### Last tile -/

/-- On the last tile the pieces written into the activations block reach every entry of it: they are whole-block pieces, and one
    whole block is the block. -/
theorem cover2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What the last tile leaves in the activations block: its written pieces read back (over contents that, the pieces covering
    everything, are never seen). -/
def out2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On the last tile the pieces written into the mean block reach every entry of it: they are whole-block pieces, and one
    whole block is the block. -/
theorem cover2_C_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What the last tile leaves in the mean block: its written pieces read back (over contents that, the pieces covering
    everything, are never seen). -/
def out2_C_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On the last tile the pieces written into the variance block reach every entry of it: they are whole-block pieces, and one
    whole block is the block. -/
theorem cover2_C_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What the last tile leaves in the variance block: its written pieces read back (over contents that, the pieces covering
    everything, are never seen). -/
def out2_C_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- On the last tile the pieces written into the running row of sums reach every entry of it: they are whole-block pieces, and one
    whole block is the block. -/
theorem scover2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y

/-- What the last tile leaves in the running row of sums: its written pieces read back (over contents that, the pieces covering
    everything, are never seen). -/
def sout2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- On the last tile the pieces written into the running row of sums of squares reach every entry of it: they are whole-block pieces, and one
    whole block is the block. -/
theorem scover2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y

/-- What the last tile leaves in the running row of sums of squares: its written pieces read back (over contents that, the pieces covering
    everything, are never seen). -/
def sout2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## The ten tiles -/

-- what every buffer of the core holds when the pass is entered
variable (V : (c : Dev nD) → (b : Ref sig .tc) → Buf (Elt F) ((c : Thread nD τ).loc b))

/-- Block `w` at tile `t`: the part of the block's array, as `V` has it, that the block's index map
    selects there. For the node features and the aggregated messages this is row tile `t`; for the
    two weight matrices and the two bias rows it is the whole array at every `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- THE RECORD after tile `n`: (activations block, mean block, variance block, `Σ z`, `Σ z²`). Tile 0
    runs the first-tile case on that tile's blocks. Tile `n + 1` runs the last-tile case if it is
    tile 9 and the middle-tile case otherwise, on its own blocks and on the two running rows of the
    record after tile `n`. (Ten tiles: a tile after the first is never a multiple of ten, and the
    branches saying otherwise are empty.) -/
def outsAt2 (c : Dev nD) : (n : ℕ) → n < cfg2.N → Vec F S5000x64 .f32 × Vec F S1x64 .f32 × Vec F S1x64 .f32 × Vec F S1x64 .f32 × Vec F S1x64 .f32
  | 0, hn =>
    (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 10 = 0 then
      False.elim (by have hN : n + 1 < 10 := lt_of_lt_of_eq hn (show cfg2.N = 10 from N_2); omega)
    else
      if h1 : (n + 1) % 10 = 9 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

/-- The record at the first tile. -/
theorem outsAt2_A (c : Dev nD) (t : Fin cfg2.N) (h0 : t.val % 10 = 0) (h1 : ¬t.val % 10 = 9) :
    outsAt2 V c t.val t.isLt =
      (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (by exfalso; have hN : n + 1 < 10 := lt_of_lt_of_eq hn (show cfg2.N = 10 from N_2); (try dsimp only at h0); omega)

/-- The record at a middle tile, over the record of the tile before. -/
theorem outsAt2_B (c : Dev nD) (t : Fin cfg2.N) (h0 : ¬t.val % 10 = 0) (h1 : ¬t.val % 10 = 9) :
    outsAt2 V c t.val t.isLt =
      (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- The record at the last tile, over the record of the tile before. -/
theorem outsAt2_C (c : Dev nD) (t : Fin cfg2.N) (h0 : ¬t.val % 10 = 0) (h1 : t.val % 10 = 9) :
    outsAt2 V c t.val t.isLt =
      (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## What is kept between tiles -/

/-- Before tile `n`. Before the first tile: what any pass of this kind may assume (both running rows
    at anything). Before tile `n + 1`: the running rows owned at exactly the two last entries of the
    record after tile `n`; the other scoped buffers of the program, closed; the random-bit register
    at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
        ∗ Pipeline.scopedRestBut (Ix := Unit) (Name := ℕ) (U := UR sig nD τ) (Lvl := ℕ) (Val := Elt F) spec2 c [cc2_scratch0, cc2_scratch1])
      ∗ (∃ r, prngReg c r))

theorem PhiS2_zero (c : Dev nD) (n : ℕ) (h : n ≤ cfg2.N) (hz : n = 0) : PhiS2 V c n h = Pipeline.ΦA spec2 c := by
  subst hz; rfl

/-- After tile `n`. -/
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
        ∗ Pipeline.scopedRestBut (Ix := Unit) (Name := ℕ) (U := UR sig nD τ) (Lvl := ℕ) (Val := Elt F) spec2 c [cc2_scratch0, cc2_scratch1])
      ∗ (∃ r, prngReg c r)) := rfl

/-- Before a tile that is not the first: the running rows at what the tile before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
        ∗ Pipeline.scopedRestBut (Ix := Unit) (Name := ℕ) (U := UR sig nD τ) (Lvl := ℕ) (Val := Elt F) spec2 c [cc2_scratch0, cc2_scratch1])
      ∗ (∃ r, prngReg c r)) := by
  cases n with
  | zero => exact absurd rfl hz
  | succ n => rfl

/-! ## The data of the pipelined launch -/

/-- On core `c`: the arrays as the pass finds them (`V`); after the body on tile `t`, each input block's
    buffer still at its block, and the three output blocks' buffers at the first three entries of
    the record; between tiles, `PhiS2`; every share full; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

/-- The arrays of the data are `V`'s: the field projected. -/
theorem A_eq2 (c : Dev nD) (w : Fin cfg2.W) : (dat2 V c).A w = V c (Pipeline.arrRef spec2 w) := by
  dsimp only [dat2]

/-- What is kept before tile `t`, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- Before the first tile: what any pass of this kind may assume. -/
theorem Phi2_first (c : Dev nD) : (dat2 V c).Φ 0 = Pipeline.ΦA spec2 c := by
  rw [show (dat2 V c).Φ 0 = PhiS2 V c 0 (Nat.zero_le _) from rfl, PhiS2_zero V c 0 _ rfl]

/-! What the body leaves, block by block: the data's case split reduced at each literal block. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]

end Cert.Kernel.Hand

end
-- ==== Proof.Kernel.Mlp2Obl.lean ====
import proofs.«144771_j36481452212846_1_alg».proof.Proof.Kernel.Mlp2Dat

/-! # The first statistics pass: the body does on every tile what the data say

With the record of what each buffer holds after each tile in hand, it remains to check it against
the body, one tile at a time. On tile `t` the body is handed each block's buffer. An input block's
buffer holds that block whether or not it was fetched on this tile: the weights and biases are
fetched on tile 0 only, but their block never moves, and the body leaves them as it finds them. The
tile's number picks the case (0: first; 1 to 8: middle; 9: last); the running rows come in at
anything on tile 0 and at what tile `t − 1` left afterwards; the case's run then ends with every
buffer holding what the record says, because the pieces it writes cover each written buffer. The
mean and variance buffers, not touched before tile 9, go back as they came. After the last tile,
forgetting what the running rows hold gives back what the pass was entered with. -/

-- deciding membership in a block of 5000 rows walks the long axis one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the pass is entered
variable (V : (c : Dev nD) → (b : Ref sig .tc) → Buf (Elt F) ((c : Thread nD τ).loc b))

/-! ## What the body finds in the input blocks

For any data whose array for input block `W` is `V`'s and whose body hands the block's buffer back
holding the block, the buffer holds block `t` on tile `t`, for every `t`: where the block was fetched
this is what the fetch wrote; where it was not, the block's index is the one of the tile before,
and the buffer, left alone, still holds it. None of these blocks is cut short at the array's edge
and none is ever out of use, which settles the side conditions by unfolding. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! The same for the data of this pass. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## One tile -/

/-- What the body is handed on tile `t`: what is kept between tiles, the ledger of owed signals, and
    each block's current buffer, whole, at what it holds before the body. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- What it must hand back: the same, each buffer at what the data say the body leaves there (for a
    block out of use on this tile and not written back: at what it held). -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body on tile `t` takes the one to the other. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  by_cases h0 : t.val % 10 = 0
  · by_cases h1 : t.val % 10 = 9
    · exfalso; omega
    ·
      -- first tile
      have hz : t.val = 0 := by omega
      have hc0 : cond2_0 (grid2.coords t) := (hcond2_0 t).mpr h0
      have hc1 : ¬cond2_1 (grid2.coords t) := fun h => h1 ((hcond2_1 t).mp h)
      rw [Dat.leavesExact_idle (dat2 V c) 7 t (idleAt2_7_A t hc0 hc1) (noFlush2_7_A t hc0 hc1)]
      rw [Dat.leavesExact_idle (dat2 V c) 8 t (idleAt2_8_A t hc0 hc1) (noFlush2_8_A t hc0 hc1)]
      rw [outsAt2_A V c t h0 h1]
      unfold out2_A_6 sout2_A_0 sout2_A_1; (try dsimp only)
      rw [PhiS2_castSucc V c t, PhiS2_zero V c _ _ hz, PhiA2_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_A c (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_A_1 c _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_A_6 c _ _ _ _ _ _ _ _ _ _ _ _ _ _ _ _ _ _ _ _ _ _ _ _ _ _ _ _ _ _ _)
      isplitl [H7]; · iexists _; iexact H7
      iexists _; iexact H8
  · by_cases h1 : t.val % 10 = 9
    ·
      -- last tile
      have hz : t.val ≠ 0 := by omega
      have hc0 : ¬cond2_0 (grid2.coords t) := fun h => h0 ((hcond2_0 t).mp h)
      have hc1 : cond2_1 (grid2.coords t) := (hcond2_1 t).mpr h1
      rw [show (dat2 V c).leavesExact 7 t = owns (c : Thread nD τ) (ms2_7 t) fullShare ((dat2 V c).after 7 t) from by
        unfold Dat.leavesExact; rw [liveAt2_7_C t hc0 hc1], after2_7]
      rw [show (dat2 V c).leavesExact 8 t = owns (c : Thread nD τ) (ms2_8 t) fullShare ((dat2 V c).after 8 t) from by
        unfold Dat.leavesExact; rw [liveAt2_8_C t hc0 hc1], after2_8]
      rw [outsAt2_C V c t h0 h1]
      unfold out2_C_6 out2_C_7 out2_C_8 sout2_C_0 sout2_C_1; (try dsimp only)
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _)
    ·
      -- a middle tile
      have hz : t.val ≠ 0 := by omega
      have hc0 : ¬cond2_0 (grid2.coords t) := fun h => h0 ((hcond2_0 t).mp h)
      have hc1 : ¬cond2_1 (grid2.coords t) := fun h => h1 ((hcond2_1 t).mp h)
      rw [Dat.leavesExact_idle (dat2 V c) 7 t (idleAt2_7_B t hc0 hc1) (noFlush2_7_B t hc0 hc1)]
      rw [Dat.leavesExact_idle (dat2 V c) 8 t (idleAt2_8_B t hc0 hc1) (noFlush2_8_B t hc0 hc1)]
      rw [outsAt2_B V c t h0 h1]
      unfold out2_B_6 sout2_B_0 sout2_B_1; (try dsimp only)
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _)
      isplitl [H7]; · iexists _; iexact H7
      iexists _; iexact H8

/-- The obligation in the form the launch takes it: the conjunction over all nine blocks, spelled
    block by block, is the pair above. -/
theorem body_obligation2 (c : Dev nD) : BodyObligation (dat2 (F := F) V c) (defs₀ (F := F)) Variants.none () Set.univ := fun t => by
  rw [bigSep_W2, bigSep_W2]
  exact sound_body2 V c t

/-! ## Leaving the pass -/

/-- After any tile, forgetting what the two running rows hold gives back what a pass of this kind
    is entered with. -/
theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- In particular after the last tile. -/
theorem Phi2_last_ent (c : Dev nD) : (dat2 V c).Φ (Fin.last cfg2.N) ⊢ Pipeline.ΦA spec2 c :=
  Phi2_out V c _ (by rw [Fin.val_last]; have : cfg2.N = 10 := N_2; omega)

end Cert.Kernel.Hand

end
-- ==== Proof.Kernel.Bn3.lean ====
/-
  One region of @main: the batch-norm-and-ReLU pallas_call of a GIN layer (cc3__bn_relu_kernel, with the
  pipeline cfg3 that launches it), on its grid of ten row tiles.

  Everything here is stated at a PARAMETER V: what the TensorCore's buffers hold at the moment the region is
  entered. From V alone we say what each window's block is at each grid point, what the body leaves in the
  output tile (one store of the normalised, scaled, shifted and clamped tile, a closed function of the five
  input blocks), and we discharge the per-point obligation the pipelined launch asks of the body.

  The body belongs to the plainest class of pipeline bodies: it reads its five input tiles through whole-tile
  rectangles, reads (and ignores) what the output tile held, writes the output tile once through a whole-tile
  rectangle, and keeps nothing between grid points. Four of the five inputs (variance, mean, scale, shift: one
  row of 64 each) have a block index that never moves, so the pipeline fetches them only at the first point;
  at later points their staging buffers still hold the same block, which is what the body needs.
-/
import proofs.«144771_j36481452212846_1_alg».proof.Proof.Gen.Kernel.Launch
import proofs.«144771_j36481452212846_1_alg».proof.Proof.Gen.Kernel.Skeleton
import proofs.«144771_j36481452212846_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle of 5000 rows walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every TensorCore buffer holds when the region is entered
variable (V : (c : Dev nD) → (b : Ref sig .tc) → Buf (Elt F) ((c : Thread nD τ).loc b))

/-! ## Blocks of the windows -/

/-- The block of window w at grid point t: the part of the window's array, as V has it, that the window's index
    map selects at t. For window 0 and window 5 this is row tile t of a 50000x64 array; for windows 1 to 4 it is
    the whole 1x64 row at every t. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the body finds in the input windows

  For proof data whose array for window W is V's and whose body hands window W back holding its block, the
  current staging buffer of W holds block t at point t, for every t. Where the pipeline fetched at t this is
  what the fetch wrote; where it did not (windows 1 to 4 after the first point) the block index at t equals the
  one at t-1, so the buffer, left alone by the body, still holds the right block. The windows are never cut
  and never idle, which settles the side conditions by unfolding. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes through -/

/-- The whole 5000x64 tile. -/
abbrev r3_0 : Rect S5000x64 := Rect.unit (s := S5000x64) ![0, 0] S5000x64.size inb_S5000x64_S5000x64_0_0
/-- The whole 1x64 row. -/
abbrev r3_1 : Rect S1x64 := Rect.unit (s := S1x64) ![0, 0] S1x64.size inb_S1x64_S1x64_0_0

/-! ## The output tile after the body -/

/-- What the output window's staging buffer holds once the body has run, given the five input blocks
    (x0 the tile of pre-activations, x1 the mean row, x2 the variance row, x3 the scale row, x4 the shift row):
    the body's single store, over the whole tile, of max((x0 - x1) * rsqrt(x2 + eps) * x3 + x4, 0), the rows
    broadcast down the tile. The payload lists the values in the order the body reads them, and the body reads
    the variance row before the mean row; hence x2 stands before x1 below. -/
def out3_5 (x0 : Vec F S5000x64 .f32) (x1 x2 x3 x4 : Vec F S1x64 .f32) : Vec F S5000x64 .f32 :=
  View.canon [⟨r3_0, k3_pay1 (View.ld x0 r3_0) (View.ld x2 r3_1) (View.ld x1 r3_1) (View.ld x3 r3_1) (View.ld x4 r3_1)⟩]

/-- A single whole-tile piece covers the tile: one block of the tile's own size tiles it. -/
theorem cover3_5 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body on its six staging buffers -/

set_option maxHeartbeats 1000000 in
/-- Run on six whole staging buffers, the five inputs reading x0 … x4 and the output holding anything, the body
    ends with the inputs unchanged and the output reading out3_5 x0 … x4. The printed function is a sequence of
    five whole-buffer loads, one more load (of the output buffer, whose value nothing uses), and one whole-buffer
    store; symbolic execution walks it, and the store, covering the tile, leaves the canonical contents of its
    one piece whatever the output held before. -/
theorem sound_kernel3 (c : Dev nD) (E : Set ℕ) (i : grid3.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The proof data of the pipeline -/

/-- The proof data of this region's pipeline (cfg3) on core c. The arrays are what the region finds (V). After the body at point t every
    input window's buffer still holds its block, and the output window's holds out3_5 of the five input blocks.
    The invariant carried from point to point is the plain one (the scoped rest and the generator register,
    neither touched); every share is the full one; no signal is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The arrays of the proof data are V's: the field projected. -/
theorem A_eq3 (c : Dev nD) (w : Fin cfg3.W) : (dat3 V c).A w = V c (Pipeline.arrRef spec3 w) := by
  dsimp only [dat3]

/-! What the body leaves, one window at a time: the case split of the definition reduced at each literal window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-! What the body finds in each input window, for this proof data: its block, at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The obligation of the body at a grid point -/

/-- What the launch hands the body at point t: the invariant, the ledger of owed signals, and each window's current
    staging buffer, whole, holding what that window holds before the body. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What the launch wants back: the same, each buffer now holding what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at point t takes the one to the other. Each input buffer holds its block (before3_W), so the triple
    of the body applies with the blocks for x0 … x4; the invariant and the ledger are neither read nor changed,
    and do not depend on the point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation in the form the launch theorem takes it: the conjunction over all windows, spelled window by
    window, is the pre- and postcondition above. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Kernel.Mlp4Runs.lean ====
import proofs.«144771_j36481452212846_1_alg».proof.Proof.Gen.Kernel.Launch
import proofs.«144771_j36481452212846_1_alg».proof.Proof.Gen.Kernel.Skeleton
import proofs.«144771_j36481452212846_1_alg».proof.Proof.Gen.Kernel.Points
import Idealize.ShloMosaic.Lib.Pipeline.FrameBody
import Idealize.ShloMosaic.Lib.Ring
import Idealize.ShloMosaic.Lib.Tactic

/-! # The first statistics pass: what its ten tiles share, and its body in the three ways it runs

The pass walks the node rows in ten tiles of 5000. On each tile it forms the tile's linear
activations `z = relu((h + agg) · W₁ + b₁) · W₂ + b₂`, writes them out, and adds the tile's column
sums `Σ z` and column sums of squares `Σ z²` to two running rows that live from tile to tile. The
running rows are set to zero on the first tile; on the last tile the column mean `Σ z / n` and the
column variance `Σ z² / n − mean²` are formed from them and written out. So the body does one of
three things, told apart by the tile's number alone:

* first tile: zero both running rows, then accumulate;
* a middle tile: accumulate onto what the tile before left;
* last tile: accumulate, then emit mean and variance.

This file fixes the two tests on the tile number and decides where over the ten tiles they hold,
records on which tiles the mean and variance blocks are touched at all, names the buffers the body
is handed, and then runs the body once for each of the three cases: from the inputs' contents (and,
after the first tile, the running rows' contents) to the exact list of pieces each written buffer
ends with. -/

-- deciding membership in a block of 5000 rows walks the long axis one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests on the tile number -/

/-- "This is the first tile": the tile number compared with 0, widened to a word and tested against
    zero, exactly as the body computes it before it zeroes the running rows. -/
abbrev cond4_0 (i : grid4.Coords) : Prop := (Scalar.cmpi .ne (Scalar.extui (Scalar.cmpi .eq (BitVec.ofNat 32 (i 0).val) 0#32)) 0#32) = 1#1
/-- Over the ten tiles it holds at tile 0 and nowhere else. -/
theorem hcond4_0 : ∀ t : Fin cfg4.N, cond4_0 (grid4.coords t) ↔ t.val % 10 = 0 :=
  (by decide +kernel : ∀ t : Fin grid4.N, cond4_0 (grid4.coords t) ↔ t.val % 10 = 0)

/-- "This is the last tile": the tile number compared with 9, the test guarding the emission of mean
    and variance. -/
abbrev cond4_1 (i : grid4.Coords) : Prop := k4_cond2 i = 1#1
/-- Over the ten tiles it holds at tile 9 and nowhere else. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## On which tiles each block is touched

The six inputs and the activations block are in use on every tile. The mean block and the variance
block are stored into on the last tile only: on every earlier tile the body leaves them alone and
nothing is written back from them. -/

/-- Block 0 is in use on every tile. -/
theorem liveAt4_0 : ∀ t : Fin cfg4.N, cfg4.idle 0 (grid4.coords t) = false := by decide +kernel
/-- Block 1 is in use on every tile. -/
theorem liveAt4_1 : ∀ t : Fin cfg4.N, cfg4.idle 1 (grid4.coords t) = false := by decide +kernel
/-- Block 2 is in use on every tile. -/
theorem liveAt4_2 : ∀ t : Fin cfg4.N, cfg4.idle 2 (grid4.coords t) = false := by decide +kernel
/-- Block 3 is in use on every tile. -/
theorem liveAt4_3 : ∀ t : Fin cfg4.N, cfg4.idle 3 (grid4.coords t) = false := by decide +kernel
/-- Block 4 is in use on every tile. -/
theorem liveAt4_4 : ∀ t : Fin cfg4.N, cfg4.idle 4 (grid4.coords t) = false := by decide +kernel
/-- Block 5 is in use on every tile. -/
theorem liveAt4_5 : ∀ t : Fin cfg4.N, cfg4.idle 5 (grid4.coords t) = false := by decide +kernel
/-- Block 6 is in use on every tile. -/
theorem liveAt4_6 : ∀ t : Fin cfg4.N, cfg4.idle 6 (grid4.coords t) = false := by decide +kernel
/-- On the first tile the mean block is left alone. -/
theorem idleAt4_7_A : ∀ t : Fin cfg4.N, cond4_0 (grid4.coords t) → ¬cond4_1 (grid4.coords t) → cfg4.idle 7 (grid4.coords t) = true := by decide +kernel
/-- On the first tile the mean block is not written back. -/
theorem noFlush4_7_A : ∀ t : Fin cfg4.N, cond4_0 (grid4.coords t) → ¬cond4_1 (grid4.coords t) → (cfg4.win 7).flush t = false := by decide +kernel
/-- On a middle tile the mean block is left alone. -/
theorem idleAt4_7_B : ∀ t : Fin cfg4.N, ¬cond4_0 (grid4.coords t) → ¬cond4_1 (grid4.coords t) → cfg4.idle 7 (grid4.coords t) = true := by decide +kernel
/-- On a middle tile the mean block is not written back. -/
theorem noFlush4_7_B : ∀ t : Fin cfg4.N, ¬cond4_0 (grid4.coords t) → ¬cond4_1 (grid4.coords t) → (cfg4.win 7).flush t = false := by decide +kernel
/-- On the last tile the mean block is stored into. -/
theorem liveAt4_7_C : ∀ t : Fin cfg4.N, ¬cond4_0 (grid4.coords t) → cond4_1 (grid4.coords t) → cfg4.idle 7 (grid4.coords t) = false := by decide +kernel
/-- On the first tile the variance block is left alone. -/
theorem idleAt4_8_A : ∀ t : Fin cfg4.N, cond4_0 (grid4.coords t) → ¬cond4_1 (grid4.coords t) → cfg4.idle 8 (grid4.coords t) = true := by decide +kernel
/-- On the first tile the variance block is not written back. -/
theorem noFlush4_8_A : ∀ t : Fin cfg4.N, cond4_0 (grid4.coords t) → ¬cond4_1 (grid4.coords t) → (cfg4.win 8).flush t = false := by decide +kernel
/-- On a middle tile the variance block is left alone. -/
theorem idleAt4_8_B : ∀ t : Fin cfg4.N, ¬cond4_0 (grid4.coords t) → ¬cond4_1 (grid4.coords t) → cfg4.idle 8 (grid4.coords t) = true := by decide +kernel
/-- On a middle tile the variance block is not written back. -/
theorem noFlush4_8_B : ∀ t : Fin cfg4.N, ¬cond4_0 (grid4.coords t) → ¬cond4_1 (grid4.coords t) → (cfg4.win 8).flush t = false := by decide +kernel
/-- On the last tile the variance block is stored into. -/
theorem liveAt4_8_C : ∀ t : Fin cfg4.N, ¬cond4_0 (grid4.coords t) → cond4_1 (grid4.coords t) → cfg4.idle 8 (grid4.coords t) = false := by decide +kernel

/-! ## The buffers the body is handed -/

/-- A fixed buffer of the activations block's shape, through which the block's contents are read off
    a list of written pieces (which buffer of that shape is chosen makes no difference to what is read). -/
abbrev VO4_6 : View sig .tc .vmem S5000x64 .f32 := (Memref.whole cc4_stg6_0 : Memref sig .tc .vmem S5000x64 .f32).view
/-- The same for the mean block. -/
abbrev VO4_7 : View sig .tc .vmem S1x64 .f32 := (Memref.whole cc4_stg7_0 : Memref sig .tc .vmem S1x64 .f32).view
/-- The same for the variance block. -/
abbrev VO4_8 : View sig .tc .vmem S1x64 .f32 := (Memref.whole cc4_stg8_0 : Memref sig .tc .vmem S1x64 .f32).view

/-- The buffer holding each block on tile `t`, and the fact that it is a whole buffer. -/
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S5000x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x64 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x64 .f32 := win4_8.stage (cfg4.slots t 8)
abbrev hs4_8 (t : Fin cfg4.N) : (ms4_8 t).IsWhole := hstage4_8 ((cfg4.slots t 8).cast nbuf4_8)

/-- The running row of column sums `Σ z`: a whole buffer of the pass's own, kept from tile to tile. -/
abbrev scM4_0 : Memref sig .tc .vmem S1x64 .f32 := Memref.whole cc4_scratch0
/-- The running row of column sums of squares `Σ z²`, likewise. -/
abbrev scM4_1 : Memref sig .tc .vmem S1x64 .f32 := Memref.whole cc4_scratch1
/-- The two running rows as views: what they hold is stated through these. -/
abbrev VS4_0 : View sig .tc .vmem S1x64 .f32 := scM4_0.view
abbrev VS4_1 : View sig .tc .vmem S1x64 .f32 := scM4_1.view

/-- What the pass may use between tiles beside its blocks: the two running rows, each owned whole at
    some contents; every other scoped buffer of the program, kept closed as one conjunct; and the
    random-bit register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
            ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

/-! ## The body on the first tile -/

-- (the run's proof term is long; closing the definition walks all of it)
set_option maxHeartbeats 1000000 in
/-- FIRST TILE (the first-tile test holds, the last-tile test fails). Given the six inputs owned at
    their contents `x0 … x5`, the activations buffer and both running rows at anything, and the mean
    and variance buffers at contents `xi7`, `xi8`, the body ends with the inputs as they were, the
    mean and variance buffers still at `xi7`, `xi8`, and the activations buffer and the two running
    rows each holding a definite list of written pieces (latest first). The three lists are the
    data of this definition: `L6` for the activations, `LS0` for `Σ z` (zero, then zero plus the tile's
    column sums), `LS1` for `Σ z²` likewise. -/
noncomputable def kernelRun4_A (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on a middle tile -/

set_option maxHeartbeats 1000000 in
/-- A MIDDLE TILE (neither test holds). As on the first tile, except that the running rows come in
    owned at the contents `xs0`, `xs1` the tile before left and nothing zeroes them: `LS0` is one
    piece, `xs0` plus the tile's column sums, and `LS1` one piece, `xs1` plus the tile's column sums
    of squares. -/
noncomputable def kernelRun4_B (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on the last tile -/

set_option maxHeartbeats 1000000 in
/-- THE LAST TILE (the first-tile test fails, the last-tile test holds). The running rows come in at
    `xs0`, `xs1`; the mean and variance buffers may hold anything. The body accumulates as on a middle
    tile and then stores the mean, formed from the updated `Σ z`, and the variance, formed from the
    updated `Σ z` and `Σ z²`: beside `L6`, `LS0`, `LS1` there are now the piece lists `L7` of the mean
    buffer and `L8` of the variance buffer. -/
noncomputable def kernelRun4_C (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (L7 : List (View.Piece (Elt F) S1x64 .f32)), Σ' (L8 : List (View.Piece (Elt F) S1x64 .f32)), Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.Kernel.Mlp4Dat.lean ====
import proofs.«144771_j36481452212846_1_alg».proof.Proof.Kernel.Mlp4Runs

/-! # The first statistics pass: what every buffer holds, tile by tile

The body's three runs say, for one tile, which pieces each written buffer ends with. Here those
pieces are read back into contents, and the contents are followed along the ten tiles:

* the activations block after tile `t` is what that tile's run wrote;
* the running rows `Σ z` and `Σ z²` after tile `t` are what that tile's run wrote, which on every tile
  but the first was computed from what tile `t − 1` left in them — a recursion on `t`, started by
  the zeroing on tile 0;
* the mean and variance blocks get their contents on tile 9, from the running rows as tile 9
  leaves them; on the earlier tiles they are not touched.

From this the data the pipelined launch asks for are assembled: what each block's array holds on
entry (a parameter `V`, since other passes run before this one), what each block's buffer holds
after the body on each tile, and what is kept between tiles (before the first tile: the running
rows at anything; after tile `t`: the running rows at exactly what tile `t` left). -/

-- deciding membership in a block of 5000 rows walks the long axis one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One tile: the written pieces read back -/

/-! ### First tile -/

/-- On the first tile the pieces written into the activations block reach every entry of it: they are whole-block pieces, and one
    whole block is the block. -/
theorem cover4_A_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (y : S5000x64.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y

/-- What the first tile leaves in the activations block: its written pieces read back (over contents that, the pieces covering
    everything, are never seen). -/
def out4_A_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1)

/-- On the first tile nothing is stored into the mean block and nothing is written back from it; this entry of the record is
    a placeholder that no statement reads. -/
def out4_A_7 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VO4_7.read (Elt F) VO4_7.junk

/-- On the first tile nothing is stored into the variance block and nothing is written back from it; this entry of the record is
    a placeholder that no statement reads. -/
def out4_A_8 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VO4_8.read (Elt F) VO4_8.junk

/-- On the first tile the pieces written into the running row of sums reach every entry of it: they are whole-block pieces, and one
    whole block is the block. -/
theorem scover4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y

/-- What the first tile leaves in the running row of sums: its written pieces read back (over contents that, the pieces covering
    everything, are never seen). -/
def sout4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- On the first tile the pieces written into the running row of sums of squares reach every entry of it: they are whole-block pieces, and one
    whole block is the block. -/
theorem scover4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y

/-- What the first tile leaves in the running row of sums of squares: its written pieces read back (over contents that, the pieces covering
    everything, are never seen). -/
def sout4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-! ### A middle tile -/

/-- On a middle tile the pieces written into the activations block reach every entry of it: they are whole-block pieces, and one
    whole block is the block. -/
theorem cover4_B_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What a middle tile leaves in the activations block: its written pieces read back (over contents that, the pieces covering
    everything, are never seen). -/
def out4_B_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On a middle tile nothing is stored into the mean block and nothing is written back from it; this entry of the record is
    a placeholder that no statement reads. -/
def out4_B_7 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO4_7.read (Elt F) VO4_7.junk

/-- On a middle tile nothing is stored into the variance block and nothing is written back from it; this entry of the record is
    a placeholder that no statement reads. -/
def out4_B_8 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO4_8.read (Elt F) VO4_8.junk

/-- On a middle tile the pieces written into the running row of sums reach every entry of it: they are whole-block pieces, and one
    whole block is the block. -/
theorem scover4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What a middle tile leaves in the running row of sums: its written pieces read back (over contents that, the pieces covering
    everything, are never seen). -/
def sout4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On a middle tile the pieces written into the running row of sums of squares reach every entry of it: they are whole-block pieces, and one
    whole block is the block. -/
theorem scover4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What a middle tile leaves in the running row of sums of squares: its written pieces read back (over contents that, the pieces covering
    everything, are never seen). -/
def sout4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-! ### Last tile -/

/-- On the last tile the pieces written into the activations block reach every entry of it: they are whole-block pieces, and one
    whole block is the block. -/
theorem cover4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What the last tile leaves in the activations block: its written pieces read back (over contents that, the pieces covering
    everything, are never seen). -/
def out4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On the last tile the pieces written into the mean block reach every entry of it: they are whole-block pieces, and one
    whole block is the block. -/
theorem cover4_C_7 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What the last tile leaves in the mean block: its written pieces read back (over contents that, the pieces covering
    everything, are never seen). -/
def out4_C_7 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On the last tile the pieces written into the variance block reach every entry of it: they are whole-block pieces, and one
    whole block is the block. -/
theorem cover4_C_8 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What the last tile leaves in the variance block: its written pieces read back (over contents that, the pieces covering
    everything, are never seen). -/
def out4_C_8 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO4_8.read (Elt F) (VO4_8.writes (Elt F) VO4_8.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- On the last tile the pieces written into the running row of sums reach every entry of it: they are whole-block pieces, and one
    whole block is the block. -/
theorem scover4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y

/-- What the last tile leaves in the running row of sums: its written pieces read back (over contents that, the pieces covering
    everything, are never seen). -/
def sout4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- On the last tile the pieces written into the running row of sums of squares reach every entry of it: they are whole-block pieces, and one
    whole block is the block. -/
theorem scover4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y

/-- What the last tile leaves in the running row of sums of squares: its written pieces read back (over contents that, the pieces covering
    everything, are never seen). -/
def sout4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## The ten tiles -/

-- what every buffer of the core holds when the pass is entered
variable (V : (c : Dev nD) → (b : Ref sig .tc) → Buf (Elt F) ((c : Thread nD τ).loc b))

/-- Block `w` at tile `t`: the part of the block's array, as `V` has it, that the block's index map
    selects there. For the node features and the aggregated messages this is row tile `t`; for the
    two weight matrices and the two bias rows it is the whole array at every `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- THE RECORD after tile `n`: (activations block, mean block, variance block, `Σ z`, `Σ z²`). Tile 0
    runs the first-tile case on that tile's blocks. Tile `n + 1` runs the last-tile case if it is
    tile 9 and the middle-tile case otherwise, on its own blocks and on the two running rows of the
    record after tile `n`. (Ten tiles: a tile after the first is never a multiple of ten, and the
    branches saying otherwise are empty.) -/
def outsAt4 (c : Dev nD) : (n : ℕ) → n < cfg4.N → Vec F S5000x64 .f32 × Vec F S1x64 .f32 × Vec F S1x64 .f32 × Vec F S1x64 .f32 × Vec F S1x64 .f32
  | 0, hn =>
    (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 10 = 0 then
      False.elim (by have hN : n + 1 < 10 := lt_of_lt_of_eq hn (show cfg4.N = 10 from N_4); omega)
    else
      if h1 : (n + 1) % 10 = 9 then
        (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)
      else
        (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)

/-- The record at the first tile. -/
theorem outsAt4_A (c : Dev nD) (t : Fin cfg4.N) (h0 : t.val % 10 = 0) (h1 : ¬t.val % 10 = 9) :
    outsAt4 V c t.val t.isLt =
      (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (by exfalso; have hN : n + 1 < 10 := lt_of_lt_of_eq hn (show cfg4.N = 10 from N_4); (try dsimp only at h0); omega)

/-- The record at a middle tile, over the record of the tile before. -/
theorem outsAt4_B (c : Dev nD) (t : Fin cfg4.N) (h0 : ¬t.val % 10 = 0) (h1 : ¬t.val % 10 = 9) :
    outsAt4 V c t.val t.isLt =
      (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- The record at the last tile, over the record of the tile before. -/
theorem outsAt4_C (c : Dev nD) (t : Fin cfg4.N) (h0 : ¬t.val % 10 = 0) (h1 : t.val % 10 = 9) :
    outsAt4 V c t.val t.isLt =
      (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## What is kept between tiles -/

/-- Before tile `n`. Before the first tile: what any pass of this kind may assume (both running rows
    at anything). Before tile `n + 1`: the running rows owned at exactly the two last entries of the
    record after tile `n`; the other scoped buffers of the program, closed; the random-bit register
    at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2))
        ∗ Pipeline.scopedRestBut (Ix := Unit) (Name := ℕ) (U := UR sig nD τ) (Lvl := ℕ) (Val := Elt F) spec4 c [cc4_scratch0, cc4_scratch1])
      ∗ (∃ r, prngReg c r))

theorem PhiS4_zero (c : Dev nD) (n : ℕ) (h : n ≤ cfg4.N) (hz : n = 0) : PhiS4 V c n h = Pipeline.ΦA spec4 c := by
  subst hz; rfl

/-- After tile `n`. -/
theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2))
        ∗ Pipeline.scopedRestBut (Ix := Unit) (Name := ℕ) (U := UR sig nD τ) (Lvl := ℕ) (Val := Elt F) spec4 c [cc4_scratch0, cc4_scratch1])
      ∗ (∃ r, prngReg c r)) := rfl

/-- Before a tile that is not the first: the running rows at what the tile before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2))
        ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-! ## The data of the pipelined launch -/

/-- On core `c`: the arrays as the pass finds them (`V`); after the body on tile `t`, each input block's
    buffer still at its block, and the three output blocks' buffers at the first three entries of
    the record; between tiles, `PhiS4`; every share full; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2.1
  Φ t := PhiS4 V c t.val (Nat.le_of_lt_succ t.isLt)
  q _ := fullShare
  owed _ := 0

/-- The arrays of the data are `V`'s: the field projected. -/
theorem A_eq4 (c : Dev nD) (w : Fin cfg4.W) : (dat4 V c).A w = V c (Pipeline.arrRef spec4 w) := by
  dsimp only [dat4]

/-- What is kept before tile `t`, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- Before the first tile: what any pass of this kind may assume. -/
theorem Phi4_first (c : Dev nD) : (dat4 V c).Φ 0 = Pipeline.ΦA spec4 c := by
  rw [show (dat4 V c).Φ 0 = PhiS4 V c 0 (Nat.zero_le _) from rfl, PhiS4_zero V c 0 _ rfl]

/-! What the body leaves, block by block: the data's case split reduced at each literal block. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2.1 := by dsimp only [dat4]

end Cert.Kernel.Hand

end
-- ==== Proof.Kernel.Mlp4Obl.lean ====
import proofs.«144771_j36481452212846_1_alg».proof.Proof.Kernel.Mlp4Dat

/-! # The first statistics pass: the body does on every tile what the data say

With the record of what each buffer holds after each tile in hand, it remains to check it against
the body, one tile at a time. On tile `t` the body is handed each block's buffer. An input block's
buffer holds that block whether or not it was fetched on this tile: the weights and biases are
fetched on tile 0 only, but their block never moves, and the body leaves them as it finds them. The
tile's number picks the case (0: first; 1 to 8: middle; 9: last); the running rows come in at
anything on tile 0 and at what tile `t − 1` left afterwards; the case's run then ends with every
buffer holding what the record says, because the pieces it writes cover each written buffer. The
mean and variance buffers, not touched before tile 9, go back as they came. After the last tile,
forgetting what the running rows hold gives back what the pass was entered with. -/

-- deciding membership in a block of 5000 rows walks the long axis one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the pass is entered
variable (V : (c : Dev nD) → (b : Ref sig .tc) → Buf (Elt F) ((c : Thread nD τ).loc b))

/-! ## What the body finds in the input blocks

For any data whose array for input block `W` is `V`'s and whose body hands the block's buffer back
holding the block, the buffer holds block `t` on tile `t`, for every `t`: where the block was fetched
this is what the fetch wrote; where it was not, the block's index is the one of the tile before,
and the buffer, left alone, still holds it. None of these blocks is cut short at the array's edge
and none is ever out of use, which settles the side conditions by unfolding. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! The same for the data of this pass. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## One tile -/

/-- What the body is handed on tile `t`: what is kept between tiles, the ledger of owed signals, and
    each block's current buffer, whole, at what it holds before the body. -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- What it must hand back: the same, each buffer at what the data say the body leaves there (for a
    block out of use on this tile and not written back: at what it held). -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4800000 in
/-- The body on tile `t` takes the one to the other. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  by_cases h0 : t.val % 10 = 0
  · by_cases h1 : t.val % 10 = 9
    · exfalso; omega
    ·
      -- first tile
      have hz : t.val = 0 := by omega
      have hc0 : cond4_0 (grid4.coords t) := (hcond4_0 t).mpr h0
      have hc1 : ¬cond4_1 (grid4.coords t) := fun h => h1 ((hcond4_1 t).mp h)
      rw [Dat.leavesExact_idle (dat4 V c) 7 t (idleAt4_7_A t hc0 hc1) (noFlush4_7_A t hc0 hc1)]
      rw [Dat.leavesExact_idle (dat4 V c) 8 t (idleAt4_8_A t hc0 hc1) (noFlush4_8_A t hc0 hc1)]
      rw [outsAt4_A V c t h0 h1]
      unfold out4_A_6 sout4_A_0 sout4_A_1; (try dsimp only)
      rw [PhiS4_castSucc V c t, PhiS4_zero V c _ _ hz, PhiA4_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_A c (grid4.coords t) _ _ _ _ _ _ _ _ _ _ _ _ _ _ _ _ _ _ _ _ _ _ hc0 hc1 (iblk4 V c 0 t) (iblk4 V c 1 t) (iblk4 V c 2 t) (iblk4 V c 3 t) (iblk4 V c 4 t) (iblk4 V c 5 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_A_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_A_1 c _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_A_6 c _ _ _ _ _ _ _ _ _ _ _ _ _ _ _ _ _ _ _ _ _ _ _ _ _ _ _ _ _ _ _)
      isplitl [H7]; · iexists _; iexact H7
      iexists _; iexact H8
  · by_cases h1 : t.val % 10 = 9
    ·
      -- last tile
      have hz : t.val ≠ 0 := by omega
      have hc0 : ¬cond4_0 (grid4.coords t) := fun h => h0 ((hcond4_0 t).mp h)
      have hc1 : cond4_1 (grid4.coords t) := (hcond4_1 t).mpr h1
      rw [show (dat4 V c).leavesExact 7 t = owns (c : Thread nD τ) (ms4_7 t) fullShare ((dat4 V c).after 7 t) from by
        unfold Dat.leavesExact; rw [liveAt4_7_C t hc0 hc1], after4_7]
      rw [show (dat4 V c).leavesExact 8 t = owns (c : Thread nD τ) (ms4_8 t) fullShare ((dat4 V c).after 8 t) from by
        unfold Dat.leavesExact; rw [liveAt4_8_C t hc0 hc1], after4_8]
      rw [outsAt4_C V c t h0 h1]
      unfold out4_C_6 out4_C_7 out4_C_8 sout4_C_0 sout4_C_1; (try dsimp only)
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_C c (grid4.coords t) _ _ _ _ _ _ _ _ _ _ _ _ _ _ _ _ _ _ _ _ _ _ hc0 hc1 (iblk4 V c 0 t) (iblk4 V c 1 t) (iblk4 V c 2 t) (iblk4 V c 3 t) (iblk4 V c 4 t) (iblk4 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover4_C_8 c _ _ _ _ _ _ _ _ _ _ _ _ _ _ _ _ _ _ _ _ _ _ _ _ _ _ _ _ _ _ _ _ _)
    ·
      -- a middle tile
      have hz : t.val ≠ 0 := by omega
      have hc0 : ¬cond4_0 (grid4.coords t) := fun h => h0 ((hcond4_0 t).mp h)
      have hc1 : ¬cond4_1 (grid4.coords t) := fun h => h1 ((hcond4_1 t).mp h)
      rw [Dat.leavesExact_idle (dat4 V c) 7 t (idleAt4_7_B t hc0 hc1) (noFlush4_7_B t hc0 hc1)]
      rw [Dat.leavesExact_idle (dat4 V c) 8 t (idleAt4_8_B t hc0 hc1) (noFlush4_8_B t hc0 hc1)]
      rw [outsAt4_B V c t h0 h1]
      unfold out4_B_6 sout4_B_0 sout4_B_1; (try dsimp only)
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) _ _ _ _ _ _ _ _ _ _ _ _ _ _ _ _ _ _ _ _ _ _ hc0 hc1 (iblk4 V c 0 t) (iblk4 V c 1 t) (iblk4 V c 2 t) (iblk4 V c 3 t) (iblk4 V c 4 t) (iblk4 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _ _ _ _ _ _ _ _ _)
      isplitl [H7]; · iexists _; iexact H7
      iexists _; iexact H8

/-- The obligation in the form the launch takes it: the conjunction over all nine blocks, spelled
    block by block, is the pair above. -/
theorem body_obligation4 (c : Dev nD) : BodyObligation (dat4 (F := F) V c) (defs₀ (F := F)) Variants.none () Set.univ := fun t => by
  rw [bigSep_W4, bigSep_W4]
  exact sound_body4 V c t

/-! ## Leaving the pass -/

/-- After any tile, forgetting what the two running rows hold gives back what a pass of this kind
    is entered with. -/
theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- In particular after the last tile. -/
theorem Phi4_last_ent (c : Dev nD) : (dat4 V c).Φ (Fin.last cfg4.N) ⊢ Pipeline.ΦA spec4 c :=
  Phi4_out V c _ (by rw [Fin.val_last]; have : cfg4.N = 10 := N_4; omega)

end Cert.Kernel.Hand

end
-- ==== Proof.Kernel.Bn5.lean ====
/-
  One region of @main: the batch-norm-and-ReLU pallas_call of a GIN layer (cc5__bn_relu_kernel, with the
  pipeline cfg5 that launches it), on its grid of ten row tiles.

  Everything here is stated at a PARAMETER V: what the TensorCore's buffers hold at the moment the region is
  entered. From V alone we say what each window's block is at each grid point, what the body leaves in the
  output tile (one store of the normalised, scaled, shifted and clamped tile, a closed function of the five
  input blocks), and we discharge the per-point obligation the pipelined launch asks of the body.

  The body belongs to the plainest class of pipeline bodies: it reads its five input tiles through whole-tile
  rectangles, reads (and ignores) what the output tile held, writes the output tile once through a whole-tile
  rectangle, and keeps nothing between grid points. Four of the five inputs (variance, mean, scale, shift: one
  row of 64 each) have a block index that never moves, so the pipeline fetches them only at the first point;
  at later points their staging buffers still hold the same block, which is what the body needs.
-/
import proofs.«144771_j36481452212846_1_alg».proof.Proof.Gen.Kernel.Launch
import proofs.«144771_j36481452212846_1_alg».proof.Proof.Gen.Kernel.Skeleton
import proofs.«144771_j36481452212846_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle of 5000 rows walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every TensorCore buffer holds when the region is entered
variable (V : (c : Dev nD) → (b : Ref sig .tc) → Buf (Elt F) ((c : Thread nD τ).loc b))

/-! ## Blocks of the windows -/

/-- The block of window w at grid point t: the part of the window's array, as V has it, that the window's index
    map selects at t. For window 0 and window 5 this is row tile t of a 50000x64 array; for windows 1 to 4 it is
    the whole 1x64 row at every t. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## What the body finds in the input windows

  For proof data whose array for window W is V's and whose body hands window W back holding its block, the
  current staging buffer of W holds block t at point t, for every t. Where the pipeline fetched at t this is
  what the fetch wrote; where it did not (windows 1 to 4 after the first point) the block index at t equals the
  one at t-1, so the buffer, left alone by the body, still holds the right block. The windows are never cut
  and never idle, which settles the side conditions by unfolding. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body reads and writes through -/

/-- The whole 5000x64 tile. -/
abbrev r5_0 : Rect S5000x64 := Rect.unit (s := S5000x64) ![0, 0] S5000x64.size inb_S5000x64_S5000x64_0_0
/-- The whole 1x64 row. -/
abbrev r5_1 : Rect S1x64 := Rect.unit (s := S1x64) ![0, 0] S1x64.size inb_S1x64_S1x64_0_0

/-! ## The output tile after the body -/

/-- What the output window's staging buffer holds once the body has run, given the five input blocks
    (x0 the tile of pre-activations, x1 the mean row, x2 the variance row, x3 the scale row, x4 the shift row):
    the body's single store, over the whole tile, of max((x0 - x1) * rsqrt(x2 + eps) * x3 + x4, 0), the rows
    broadcast down the tile. The payload lists the values in the order the body reads them, and the body reads
    the variance row before the mean row; hence x2 stands before x1 below. -/
def out5_5 (x0 : Vec F S5000x64 .f32) (x1 x2 x3 x4 : Vec F S1x64 .f32) : Vec F S5000x64 .f32 :=
  View.canon [⟨r5_0, k5_pay1 (View.ld x0 r5_0) (View.ld x2 r5_1) (View.ld x1 r5_1) (View.ld x3 r5_1) (View.ld x4 r5_1)⟩]

/-- A single whole-tile piece covers the tile: one block of the tile's own size tiles it. -/
theorem cover5_5 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-! ## The body on its six staging buffers -/

set_option maxHeartbeats 1000000 in
/-- Run on six whole staging buffers, the five inputs reading x0 … x4 and the output holding anything, the body
    ends with the inputs unchanged and the output reading out5_5 x0 … x4. The printed function is a sequence of
    five whole-buffer loads, one more load (of the output buffer, whose value nothing uses), and one whole-buffer
    store; symbolic execution walks it, and the store, covering the tile, leaves the canonical contents of its
    one piece whatever the output held before. -/
theorem sound_kernel5 (c : Dev nD) (E : Set ℕ) (i : grid5.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The proof data of the pipeline -/

/-- The proof data of this region's pipeline (cfg5) on core c. The arrays are what the region finds (V). After the body at point t every
    input window's buffer still holds its block, and the output window's holds out5_5 of the five input blocks.
    The invariant carried from point to point is the plain one (the scoped rest and the generator register,
    neither touched); every share is the full one; no signal is owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The arrays of the proof data are V's: the field projected. -/
theorem A_eq5 (c : Dev nD) (w : Fin cfg5.W) : (dat5 V c).A w = V c (Pipeline.arrRef spec5 w) := by
  dsimp only [dat5]

/-! What the body leaves, one window at a time: the case split of the definition reduced at each literal window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-! What the body finds in each input window, for this proof data: its block, at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The obligation of the body at a grid point -/

/-- What the launch hands the body at point t: the invariant, the ledger of owed signals, and each window's current
    staging buffer, whole, holding what that window holds before the body. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- What the launch wants back: the same, each buffer now holding what the proof data says the body leaves. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at point t takes the one to the other. Each input buffer holds its block (before5_W), so the triple
    of the body applies with the blocks for x0 … x4; the invariant and the ledger are neither read nor changed,
    and do not depend on the point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation in the form the launch theorem takes it: the conjunction over all windows, spelled window by
    window, is the pre- and postcondition above. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.Kernel.Mlp6Runs.lean ====
import proofs.«144771_j36481452212846_1_alg».proof.Proof.Gen.Kernel.Launch
import proofs.«144771_j36481452212846_1_alg».proof.Proof.Gen.Kernel.Skeleton
import proofs.«144771_j36481452212846_1_alg».proof.Proof.Gen.Kernel.Points
import Idealize.ShloMosaic.Lib.Pipeline.FrameBody
import Idealize.ShloMosaic.Lib.Ring
import Idealize.ShloMosaic.Lib.Tactic

/-! # The first statistics pass: what its ten tiles share, and its body in the three ways it runs

The pass walks the node rows in ten tiles of 5000. On each tile it forms the tile's linear
activations `z = relu((h + agg) · W₁ + b₁) · W₂ + b₂`, writes them out, and adds the tile's column
sums `Σ z` and column sums of squares `Σ z²` to two running rows that live from tile to tile. The
running rows are set to zero on the first tile; on the last tile the column mean `Σ z / n` and the
column variance `Σ z² / n − mean²` are formed from them and written out. So the body does one of
three things, told apart by the tile's number alone:

* first tile: zero both running rows, then accumulate;
* a middle tile: accumulate onto what the tile before left;
* last tile: accumulate, then emit mean and variance.

This file fixes the two tests on the tile number and decides where over the ten tiles they hold,
records on which tiles the mean and variance blocks are touched at all, names the buffers the body
is handed, and then runs the body once for each of the three cases: from the inputs' contents (and,
after the first tile, the running rows' contents) to the exact list of pieces each written buffer
ends with. -/

-- deciding membership in a block of 5000 rows walks the long axis one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests on the tile number -/

/-- "This is the first tile": the tile number compared with 0, widened to a word and tested against
    zero, exactly as the body computes it before it zeroes the running rows. -/
abbrev cond6_0 (i : grid6.Coords) : Prop := (Scalar.cmpi .ne (Scalar.extui (Scalar.cmpi .eq (BitVec.ofNat 32 (i 0).val) 0#32)) 0#32) = 1#1
/-- Over the ten tiles it holds at tile 0 and nowhere else. -/
theorem hcond6_0 : ∀ t : Fin cfg6.N, cond6_0 (grid6.coords t) ↔ t.val % 10 = 0 :=
  (by decide +kernel : ∀ t : Fin grid6.N, cond6_0 (grid6.coords t) ↔ t.val % 10 = 0)

/-- "This is the last tile": the tile number compared with 9, the test guarding the emission of mean
    and variance. -/
abbrev cond6_1 (i : grid6.Coords) : Prop := k6_cond2 i = 1#1
/-- Over the ten tiles it holds at tile 9 and nowhere else. -/
theorem hcond6_1 : ∀ t : Fin cfg6.N, cond6_1 (grid6.coords t) ↔ t.val % 10 = 9 :=
  (by decide +kernel : ∀ t : Fin grid6.N, cond6_1 (grid6.coords t) ↔ t.val % 10 = 9)

/-! ## On which tiles each block is touched

The six inputs and the activations block are in use on every tile. The mean block and the variance
block are stored into on the last tile only: on every earlier tile the body leaves them alone and
nothing is written back from them. -/

/-- Block 0 is in use on every tile. -/
theorem liveAt6_0 : ∀ t : Fin cfg6.N, cfg6.idle 0 (grid6.coords t) = false := by decide +kernel
/-- Block 1 is in use on every tile. -/
theorem liveAt6_1 : ∀ t : Fin cfg6.N, cfg6.idle 1 (grid6.coords t) = false := by decide +kernel
/-- Block 2 is in use on every tile. -/
theorem liveAt6_2 : ∀ t : Fin cfg6.N, cfg6.idle 2 (grid6.coords t) = false := by decide +kernel
/-- Block 3 is in use on every tile. -/
theorem liveAt6_3 : ∀ t : Fin cfg6.N, cfg6.idle 3 (grid6.coords t) = false := by decide +kernel
/-- Block 4 is in use on every tile. -/
theorem liveAt6_4 : ∀ t : Fin cfg6.N, cfg6.idle 4 (grid6.coords t) = false := by decide +kernel
/-- Block 5 is in use on every tile. -/
theorem liveAt6_5 : ∀ t : Fin cfg6.N, cfg6.idle 5 (grid6.coords t) = false := by decide +kernel
/-- Block 6 is in use on every tile. -/
theorem liveAt6_6 : ∀ t : Fin cfg6.N, cfg6.idle 6 (grid6.coords t) = false := by decide +kernel
/-- On the first tile the mean block is left alone. -/
theorem idleAt6_7_A : ∀ t : Fin cfg6.N, cond6_0 (grid6.coords t) → ¬cond6_1 (grid6.coords t) → cfg6.idle 7 (grid6.coords t) = true := by decide +kernel
/-- On the first tile the mean block is not written back. -/
theorem noFlush6_7_A : ∀ t : Fin cfg6.N, cond6_0 (grid6.coords t) → ¬cond6_1 (grid6.coords t) → (cfg6.win 7).flush t = false := by decide +kernel
/-- On a middle tile the mean block is left alone. -/
theorem idleAt6_7_B : ∀ t : Fin cfg6.N, ¬cond6_0 (grid6.coords t) → ¬cond6_1 (grid6.coords t) → cfg6.idle 7 (grid6.coords t) = true := by decide +kernel
/-- On a middle tile the mean block is not written back. -/
theorem noFlush6_7_B : ∀ t : Fin cfg6.N, ¬cond6_0 (grid6.coords t) → ¬cond6_1 (grid6.coords t) → (cfg6.win 7).flush t = false := by decide +kernel
/-- On the last tile the mean block is stored into. -/
theorem liveAt6_7_C : ∀ t : Fin cfg6.N, ¬cond6_0 (grid6.coords t) → cond6_1 (grid6.coords t) → cfg6.idle 7 (grid6.coords t) = false := by decide +kernel
/-- On the first tile the variance block is left alone. -/
theorem idleAt6_8_A : ∀ t : Fin cfg6.N, cond6_0 (grid6.coords t) → ¬cond6_1 (grid6.coords t) → cfg6.idle 8 (grid6.coords t) = true := by decide +kernel
/-- On the first tile the variance block is not written back. -/
theorem noFlush6_8_A : ∀ t : Fin cfg6.N, cond6_0 (grid6.coords t) → ¬cond6_1 (grid6.coords t) → (cfg6.win 8).flush t = false := by decide +kernel
/-- On a middle tile the variance block is left alone. -/
theorem idleAt6_8_B : ∀ t : Fin cfg6.N, ¬cond6_0 (grid6.coords t) → ¬cond6_1 (grid6.coords t) → cfg6.idle 8 (grid6.coords t) = true := by decide +kernel
/-- On a middle tile the variance block is not written back. -/
theorem noFlush6_8_B : ∀ t : Fin cfg6.N, ¬cond6_0 (grid6.coords t) → ¬cond6_1 (grid6.coords t) → (cfg6.win 8).flush t = false := by decide +kernel
/-- On the last tile the variance block is stored into. -/
theorem liveAt6_8_C : ∀ t : Fin cfg6.N, ¬cond6_0 (grid6.coords t) → cond6_1 (grid6.coords t) → cfg6.idle 8 (grid6.coords t) = false := by decide +kernel

/-! ## The buffers the body is handed -/

/-- A fixed buffer of the activations block's shape, through which the block's contents are read off
    a list of written pieces (which buffer of that shape is chosen makes no difference to what is read). -/
abbrev VO6_6 : View sig .tc .vmem S5000x64 .f32 := (Memref.whole cc6_stg6_0 : Memref sig .tc .vmem S5000x64 .f32).view
/-- The same for the mean block. -/
abbrev VO6_7 : View sig .tc .vmem S1x64 .f32 := (Memref.whole cc6_stg7_0 : Memref sig .tc .vmem S1x64 .f32).view
/-- The same for the variance block. -/
abbrev VO6_8 : View sig .tc .vmem S1x64 .f32 := (Memref.whole cc6_stg8_0 : Memref sig .tc .vmem S1x64 .f32).view

/-- The buffer holding each block on tile `t`, and the fact that it is a whole buffer. -/
abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S64x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x64 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S64x64 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x64 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S5000x64 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x64 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1x64 .f32 := win6_8.stage (cfg6.slots t 8)
abbrev hs6_8 (t : Fin cfg6.N) : (ms6_8 t).IsWhole := hstage6_8 ((cfg6.slots t 8).cast nbuf6_8)

/-- The running row of column sums `Σ z`: a whole buffer of the pass's own, kept from tile to tile. -/
abbrev scM6_0 : Memref sig .tc .vmem S1x64 .f32 := Memref.whole cc6_scratch0
/-- The running row of column sums of squares `Σ z²`, likewise. -/
abbrev scM6_1 : Memref sig .tc .vmem S1x64 .f32 := Memref.whole cc6_scratch1
/-- The two running rows as views: what they hold is stated through these. -/
abbrev VS6_0 : View sig .tc .vmem S1x64 .f32 := scM6_0.view
abbrev VS6_1 : View sig .tc .vmem S1x64 .f32 := scM6_1.view

/-- What the pass may use between tiles beside its blocks: the two running rows, each owned whole at
    some contents; every other scoped buffer of the program, kept closed as one conjunct; and the
    random-bit register at some state. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
            ∗ Pipeline.scopedRestBut (Ix := Unit) (Name := ℕ) (U := UR sig nD τ) (Lvl := ℕ) (Val := Elt F) spec6 c [cc6_scratch0, cc6_scratch1])
          ∗ (∃ r, prngReg c r)) := by
  unfold Pipeline.ΦA; rw [scopedRest6_split]; simp only [scM6_0, scM6_1, owns_whole]; try rfl

/-! ## The body on the first tile -/

-- (the run's proof term is long; closing the definition walks all of it)
set_option maxHeartbeats 1000000 in
/-- FIRST TILE (the first-tile test holds, the last-tile test fails). Given the six inputs owned at
    their contents `x0 … x5`, the activations buffer and both running rows at anything, and the mean
    and variance buffers at contents `xi7`, `xi8`, the body ends with the inputs as they were, the
    mean and variance buffers still at `xi7`, `xi8`, and the activations buffer and the two running
    rows each holding a definite list of written pieces (latest first). The three lists are the
    data of this definition: `L6` for the activations, `LS0` for `Σ z` (zero, then zero plus the tile's
    column sums), `LS1` for `Σ z²` likewise. -/
noncomputable def kernelRun6_A (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc6__mlp_stats_kernel_eq_skeleton]; unfold cc6__mlp_stats_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on a middle tile -/

set_option maxHeartbeats 1000000 in
/-- A MIDDLE TILE (neither test holds). As on the first tile, except that the running rows come in
    owned at the contents `xs0`, `xs1` the tile before left and nothing zeroes them: `LS0` is one
    piece, `xs0` plus the tile's column sums, and `LS1` one piece, `xs1` plus the tile's column sums
    of squares. -/
noncomputable def kernelRun6_B (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc6__mlp_stats_kernel_eq_skeleton]; unfold cc6__mlp_stats_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on the last tile -/

set_option maxHeartbeats 1000000 in
/-- THE LAST TILE (the first-tile test fails, the last-tile test holds). The running rows come in at
    `xs0`, `xs1`; the mean and variance buffers may hold anything. The body accumulates as on a middle
    tile and then stores the mean, formed from the updated `Σ z`, and the variance, formed from the
    updated `Σ z` and `Σ z²`: beside `L6`, `LS0`, `LS1` there are now the piece lists `L7` of the mean
    buffer and `L8` of the variance buffer. -/
noncomputable def kernelRun6_C (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (L7 : List (View.Piece (Elt F) S1x64 .f32)), Σ' (L8 : List (View.Piece (Elt F) S1x64 .f32)), Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc6__mlp_stats_kernel_eq_skeleton]; unfold cc6__mlp_stats_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.Kernel.Mlp6Dat.lean ====
import proofs.«144771_j36481452212846_1_alg».proof.Proof.Kernel.Mlp6Runs

/-! # The first statistics pass: what every buffer holds, tile by tile

The body's three runs say, for one tile, which pieces each written buffer ends with. Here those
pieces are read back into contents, and the contents are followed along the ten tiles:

* the activations block after tile `t` is what that tile's run wrote;
* the running rows `Σ z` and `Σ z²` after tile `t` are what that tile's run wrote, which on every tile
  but the first was computed from what tile `t − 1` left in them — a recursion on `t`, started by
  the zeroing on tile 0;
* the mean and variance blocks get their contents on tile 9, from the running rows as tile 9
  leaves them; on the earlier tiles they are not touched.

From this the data the pipelined launch asks for are assembled: what each block's array holds on
entry (a parameter `V`, since other passes run before this one), what each block's buffer holds
after the body on each tile, and what is kept between tiles (before the first tile: the running
rows at anything; after tile `t`: the running rows at exactly what tile `t` left). -/

-- deciding membership in a block of 5000 rows walks the long axis one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One tile: the written pieces read back -/

/-! ### First tile -/

/-- On the first tile the pieces written into the activations block reach every entry of it: they are whole-block pieces, and one
    whole block is the block. -/
theorem cover6_A_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (y : S5000x64.Idx) :
    ∃ pc ∈ (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y

/-- What the first tile leaves in the activations block: its written pieces read back (over contents that, the pieces covering
    everything, are never seen). -/
def out6_A_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  VO6_6.read (Elt F) (VO6_6.writes (Elt F) VO6_6.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).1)

/-- On the first tile nothing is stored into the mean block and nothing is written back from it; this entry of the record is
    a placeholder that no statement reads. -/
def out6_A_7 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VO6_7.read (Elt F) VO6_7.junk

/-- On the first tile nothing is stored into the variance block and nothing is written back from it; this entry of the record is
    a placeholder that no statement reads. -/
def out6_A_8 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VO6_8.read (Elt F) VO6_8.junk

/-- On the first tile the pieces written into the running row of sums reach every entry of it: they are whole-block pieces, and one
    whole block is the block. -/
theorem scover6_A_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y

/-- What the first tile leaves in the running row of sums: its written pieces read back (over contents that, the pieces covering
    everything, are never seen). -/
def sout6_A_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS6_0.read (Elt F) (VS6_0.writes (Elt F) VS6_0.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- On the first tile the pieces written into the running row of sums of squares reach every entry of it: they are whole-block pieces, and one
    whole block is the block. -/
theorem scover6_A_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y

/-- What the first tile leaves in the running row of sums of squares: its written pieces read back (over contents that, the pieces covering
    everything, are never seen). -/
def sout6_A_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS6_1.read (Elt F) (VS6_1.writes (Elt F) VS6_1.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-! ### A middle tile -/

/-- On a middle tile the pieces written into the activations block reach every entry of it: they are whole-block pieces, and one
    whole block is the block. -/
theorem cover6_B_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What a middle tile leaves in the activations block: its written pieces read back (over contents that, the pieces covering
    everything, are never seen). -/
def out6_B_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO6_6.read (Elt F) (VO6_6.writes (Elt F) VO6_6.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On a middle tile nothing is stored into the mean block and nothing is written back from it; this entry of the record is
    a placeholder that no statement reads. -/
def out6_B_7 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO6_7.read (Elt F) VO6_7.junk

/-- On a middle tile nothing is stored into the variance block and nothing is written back from it; this entry of the record is
    a placeholder that no statement reads. -/
def out6_B_8 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO6_8.read (Elt F) VO6_8.junk

/-- On a middle tile the pieces written into the running row of sums reach every entry of it: they are whole-block pieces, and one
    whole block is the block. -/
theorem scover6_B_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What a middle tile leaves in the running row of sums: its written pieces read back (over contents that, the pieces covering
    everything, are never seen). -/
def sout6_B_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS6_0.read (Elt F) (VS6_0.writes (Elt F) VS6_0.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On a middle tile the pieces written into the running row of sums of squares reach every entry of it: they are whole-block pieces, and one
    whole block is the block. -/
theorem scover6_B_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What a middle tile leaves in the running row of sums of squares: its written pieces read back (over contents that, the pieces covering
    everything, are never seen). -/
def sout6_B_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS6_1.read (Elt F) (VS6_1.writes (Elt F) VS6_1.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-! ### Last tile -/

/-- On the last tile the pieces written into the activations block reach every entry of it: they are whole-block pieces, and one
    whole block is the block. -/
theorem cover6_C_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What the last tile leaves in the activations block: its written pieces read back (over contents that, the pieces covering
    everything, are never seen). -/
def out6_C_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO6_6.read (Elt F) (VO6_6.writes (Elt F) VO6_6.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On the last tile the pieces written into the mean block reach every entry of it: they are whole-block pieces, and one
    whole block is the block. -/
theorem cover6_C_7 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What the last tile leaves in the mean block: its written pieces read back (over contents that, the pieces covering
    everything, are never seen). -/
def out6_C_7 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO6_7.read (Elt F) (VO6_7.writes (Elt F) VO6_7.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On the last tile the pieces written into the variance block reach every entry of it: they are whole-block pieces, and one
    whole block is the block. -/
theorem cover6_C_8 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What the last tile leaves in the variance block: its written pieces read back (over contents that, the pieces covering
    everything, are never seen). -/
def out6_C_8 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO6_8.read (Elt F) (VO6_8.writes (Elt F) VO6_8.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- On the last tile the pieces written into the running row of sums reach every entry of it: they are whole-block pieces, and one
    whole block is the block. -/
theorem scover6_C_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y

/-- What the last tile leaves in the running row of sums: its written pieces read back (over contents that, the pieces covering
    everything, are never seen). -/
def sout6_C_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS6_0.read (Elt F) (VS6_0.writes (Elt F) VS6_0.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- On the last tile the pieces written into the running row of sums of squares reach every entry of it: they are whole-block pieces, and one
    whole block is the block. -/
theorem scover6_C_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y

/-- What the last tile leaves in the running row of sums of squares: its written pieces read back (over contents that, the pieces covering
    everything, are never seen). -/
def sout6_C_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS6_1.read (Elt F) (VS6_1.writes (Elt F) VS6_1.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## The ten tiles -/

-- what every buffer of the core holds when the pass is entered
variable (V : (c : Dev nD) → (b : Ref sig .tc) → Buf (Elt F) ((c : Thread nD τ).loc b))

/-- Block `w` at tile `t`: the part of the block's array, as `V` has it, that the block's index map
    selects there. For the node features and the aggregated messages this is row tile `t`; for the
    two weight matrices and the two bias rows it is the whole array at every `t`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- THE RECORD after tile `n`: (activations block, mean block, variance block, `Σ z`, `Σ z²`). Tile 0
    runs the first-tile case on that tile's blocks. Tile `n + 1` runs the last-tile case if it is
    tile 9 and the middle-tile case otherwise, on its own blocks and on the two running rows of the
    record after tile `n`. (Ten tiles: a tile after the first is never a multiple of ten, and the
    branches saying otherwise are empty.) -/
def outsAt6 (c : Dev nD) : (n : ℕ) → n < cfg6.N → Vec F S5000x64 .f32 × Vec F S1x64 .f32 × Vec F S1x64 .f32 × Vec F S1x64 .f32 × Vec F S1x64 .f32
  | 0, hn =>
    (out6_A_6 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      out6_A_7 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      out6_A_8 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩))
  | n + 1, hn =>
    if h0 : (n + 1) % 10 = 0 then
      False.elim (by have hN : n + 1 < 10 := lt_of_lt_of_eq hn (show cfg6.N = 10 from N_6); omega)
    else
      if h1 : (n + 1) % 10 = 9 then
        (out6_C_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_C_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_C_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2)
      else
        (out6_B_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_B_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_B_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2)

/-- The record at the first tile. -/
theorem outsAt6_A (c : Dev nD) (t : Fin cfg6.N) (h0 : t.val % 10 = 0) (h1 : ¬t.val % 10 = 9) :
    outsAt6 V c t.val t.isLt =
      (out6_A_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      out6_A_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      out6_A_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t)) := by
  obtain ⟨n, hn⟩ := t
  cases n with
  | zero => exact rfl
  | succ n => exact (by exfalso; have hN : n + 1 < 10 := lt_of_lt_of_eq hn (show cfg6.N = 10 from N_6); (try dsimp only at h0); omega)

/-- The record at a middle tile, over the record of the tile before. -/
theorem outsAt6_B (c : Dev nD) (t : Fin cfg6.N) (h0 : ¬t.val % 10 = 0) (h1 : ¬t.val % 10 = 9) :
    outsAt6 V c t.val t.isLt =
      (out6_B_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- The record at the last tile, over the record of the tile before. -/
theorem outsAt6_C (c : Dev nD) (t : Fin cfg6.N) (h0 : ¬t.val % 10 = 0) (h1 : t.val % 10 = 9) :
    outsAt6 V c t.val t.isLt =
      (out6_C_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_C_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_C_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## What is kept between tiles -/

/-- Before tile `n`. Before the first tile: what any pass of this kind may assume (both running rows
    at anything). Before tile `n + 1`: the running rows owned at exactly the two last entries of the
    record after tile `n`; the other scoped buffers of the program, closed; the random-bit register
    at some state. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.2.1) ∗ owns (c : Thread nD τ) scM6_1 fullShare ((outsAt6 V c n hn).2.2.2.2))
        ∗ Pipeline.scopedRestBut (Ix := Unit) (Name := ℕ) (U := UR sig nD τ) (Lvl := ℕ) (Val := Elt F) spec6 c [cc6_scratch0, cc6_scratch1])
      ∗ (∃ r, prngReg c r))

theorem PhiS6_zero (c : Dev nD) (n : ℕ) (h : n ≤ cfg6.N) (hz : n = 0) : PhiS6 V c n h = Pipeline.ΦA spec6 c := by
  subst hz; rfl

/-- After tile `n`. -/
theorem PhiS6_succ (c : Dev nD) (n : ℕ) (hn : n < cfg6.N) :
    PhiS6 V c (n + 1) hn = iprop(iprop(iprop(owns (c : Thread nD τ) scM6_0 fullShare ((outsAt6 V c n hn).2.2.2.1) ∗ owns (c : Thread nD τ) scM6_1 fullShare ((outsAt6 V c n hn).2.2.2.2))
        ∗ Pipeline.scopedRestBut (Ix := Unit) (Name := ℕ) (U := UR sig nD τ) (Lvl := ℕ) (Val := Elt F) spec6 c [cc6_scratch0, cc6_scratch1])
      ∗ (∃ r, prngReg c r)) := rfl

/-- Before a tile that is not the first: the running rows at what the tile before left. -/
theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.2.1) ∗ owns (c : Thread nD τ) scM6_1 fullShare ((outsAt6 V c (n - 1) (by omega)).2.2.2.2))
        ∗ Pipeline.scopedRestBut (Ix := Unit) (Name := ℕ) (U := UR sig nD τ) (Lvl := ℕ) (Val := Elt F) spec6 c [cc6_scratch0, cc6_scratch1])
      ∗ (∃ r, prngReg c r)) := by
  cases n with
  | zero => exact absurd rfl hz
  | succ n => rfl

/-! ## The data of the pipelined launch -/

/-- On core `c`: the arrays as the pass finds them (`V`); after the body on tile `t`, each input block's
    buffer still at its block, and the three output blocks' buffers at the first three entries of
    the record; between tiles, `PhiS6`; every share full; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => (outsAt6 V c t.val t.isLt).1
    | ⟨7, _⟩ => (outsAt6 V c t.val t.isLt).2.1
    | ⟨8, _⟩ => (outsAt6 V c t.val t.isLt).2.2.1
  Φ t := PhiS6 V c t.val (Nat.le_of_lt_succ t.isLt)
  q _ := fullShare
  owed _ := 0

/-- The arrays of the data are `V`'s: the field projected. -/
theorem A_eq6 (c : Dev nD) (w : Fin cfg6.W) : (dat6 V c).A w = V c (Pipeline.arrRef spec6 w) := by
  dsimp only [dat6]

/-- What is kept before tile `t`, restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-- Before the first tile: what any pass of this kind may assume. -/
theorem Phi6_first (c : Dev nD) : (dat6 V c).Φ 0 = Pipeline.ΦA spec6 c := by
  rw [show (dat6 V c).Φ 0 = PhiS6 V c 0 (Nat.zero_le _) from rfl, PhiS6_zero V c 0 _ rfl]

/-! What the body leaves, block by block: the data's case split reduced at each literal block. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = (outsAt6 V c t.val t.isLt).1 := by dsimp only [dat6]
theorem after6_7 (c : Dev nD) (t : Fin cfg6.N) : (dat6 V c).after 7 t = (outsAt6 V c t.val t.isLt).2.1 := by dsimp only [dat6]
theorem after6_8 (c : Dev nD) (t : Fin cfg6.N) : (dat6 V c).after 8 t = (outsAt6 V c t.val t.isLt).2.2.1 := by dsimp only [dat6]

end Cert.Kernel.Hand

end
-- ==== Proof.Kernel.Mlp6Obl.lean ====
import proofs.«144771_j36481452212846_1_alg».proof.Proof.Kernel.Mlp6Dat

/-! # The first statistics pass: the body does on every tile what the data say

With the record of what each buffer holds after each tile in hand, it remains to check it against
the body, one tile at a time. On tile `t` the body is handed each block's buffer. An input block's
buffer holds that block whether or not it was fetched on this tile: the weights and biases are
fetched on tile 0 only, but their block never moves, and the body leaves them as it finds them. The
tile's number picks the case (0: first; 1 to 8: middle; 9: last); the running rows come in at
anything on tile 0 and at what tile `t − 1` left afterwards; the case's run then ends with every
buffer holding what the record says, because the pieces it writes cover each written buffer. The
mean and variance buffers, not touched before tile 9, go back as they came. After the last tile,
forgetting what the running rows hold gives back what the pass was entered with. -/

-- deciding membership in a block of 5000 rows walks the long axis one coordinate at a time
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the pass is entered
variable (V : (c : Dev nD) → (b : Ref sig .tc) → Buf (Elt F) ((c : Thread nD τ).loc b))

/-! ## What the body finds in the input blocks

For any data whose array for input block `W` is `V`'s and whose body hands the block's buffer back
holding the block, the buffer holds block `t` on tile `t`, for every `t`: where the block was fetched
this is what the fetch wrote; where it was not, the block's index is the one of the tile before,
and the buffer, left alone, still holds it. None of these blocks is cut short at the array's edge
and none is ever out of use, which settles the side conditions by unfolding. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! The same for the data of this pass. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## One tile -/

/-- What the body is handed on tile `t`: what is kept between tiles, the ledger of owed signals, and
    each block's current buffer, whole, at what it holds before the body. -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d)))

/-- What it must hand back: the same, each buffer at what the data say the body leaves there (for a
    block out of use on this tile and not written back: at what it held). -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t)

set_option maxHeartbeats 4800000 in
/-- The body on tile `t` takes the one to the other. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  rw [show (dat6 V c).leavesExact 4 t = owns (c : Thread nD τ) (ms6_4 t) fullShare ((dat6 V c).after 4 t) from by
    unfold Dat.leavesExact; rw [liveAt6_4 t], after6_4]
  rw [show (dat6 V c).leavesExact 5 t = owns (c : Thread nD τ) (ms6_5 t) fullShare ((dat6 V c).after 5 t) from by
    unfold Dat.leavesExact; rw [liveAt6_5 t], after6_5]
  rw [show (dat6 V c).leavesExact 6 t = owns (c : Thread nD τ) (ms6_6 t) fullShare ((dat6 V c).after 6 t) from by
    unfold Dat.leavesExact; rw [liveAt6_6 t], after6_6]
  by_cases h0 : t.val % 10 = 0
  · by_cases h1 : t.val % 10 = 9
    · exfalso; omega
    ·
      -- first tile
      have hz : t.val = 0 := by omega
      have hc0 : cond6_0 (grid6.coords t) := (hcond6_0 t).mpr h0
      have hc1 : ¬cond6_1 (grid6.coords t) := fun h => h1 ((hcond6_1 t).mp h)
      rw [Dat.leavesExact_idle (dat6 V c) 7 t (idleAt6_7_A t hc0 hc1) (noFlush6_7_A t hc0 hc1)]
      rw [Dat.leavesExact_idle (dat6 V c) 8 t (idleAt6_8_A t hc0 hc1) (noFlush6_8_A t hc0 hc1)]
      rw [outsAt6_A V c t h0 h1]
      unfold out6_A_6 sout6_A_0 sout6_A_1; (try dsimp only)
      rw [PhiS6_castSucc V c t, PhiS6_zero V c _ _ hz, PhiA6_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun6_A c (grid6.coords t) _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_A_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover6_A_1 c _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_A_6 c _ _ _ _ _ _ _ _ _ _ _ _ _ _ _ _ _ _ _ _ _ _ _ _ _ _ _ _ _ _ _)
      isplitl [H7]; · iexists _; iexact H7
      iexists _; iexact H8
  · by_cases h1 : t.val % 10 = 9
    ·
      -- last tile
      have hz : t.val ≠ 0 := by omega
      have hc0 : ¬cond6_0 (grid6.coords t) := fun h => h0 ((hcond6_0 t).mp h)
      have hc1 : cond6_1 (grid6.coords t) := (hcond6_1 t).mpr h1
      rw [show (dat6 V c).leavesExact 7 t = owns (c : Thread nD τ) (ms6_7 t) fullShare ((dat6 V c).after 7 t) from by
        unfold Dat.leavesExact; rw [liveAt6_7_C t hc0 hc1], after6_7]
      rw [show (dat6 V c).leavesExact 8 t = owns (c : Thread nD τ) (ms6_8 t) fullShare ((dat6 V c).after 8 t) from by
        unfold Dat.leavesExact; rw [liveAt6_8_C t hc0 hc1], after6_8]
      rw [outsAt6_C V c t h0 h1]
      unfold out6_C_6 out6_C_7 out6_C_8 sout6_C_0 sout6_C_1; (try dsimp only)
      rw [PhiS6_castSucc V c t, PhiS6_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun6_C c (grid6.coords t) _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover6_C_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover6_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover6_C_8 c _ _ _ _ _ _ _ _ _ _ _ _ _ _ _ _ _ _ _ _ _ _ _ _ _ _ _ _ _ _ _ _ _)
    ·
      -- a middle tile
      have hz : t.val ≠ 0 := by omega
      have hc0 : ¬cond6_0 (grid6.coords t) := fun h => h0 ((hcond6_0 t).mp h)
      have hc1 : ¬cond6_1 (grid6.coords t) := fun h => h1 ((hcond6_1 t).mp h)
      rw [Dat.leavesExact_idle (dat6 V c) 7 t (idleAt6_7_B t hc0 hc1) (noFlush6_7_B t hc0 hc1)]
      rw [Dat.leavesExact_idle (dat6 V c) 8 t (idleAt6_8_B t hc0 hc1) (noFlush6_8_B t hc0 hc1)]
      rw [outsAt6_B V c t h0 h1]
      unfold out6_B_6 sout6_B_0 sout6_B_1; (try dsimp only)
      rw [PhiS6_castSucc V c t, PhiS6_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun6_B c (grid6.coords t) _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover6_B_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_B_6 c _ _ _ _ _ _ _ _ _ _ _ _ _ _ _ _ _ _ _ _ _ _ _ _ _ _ _ _ _ _ _ _ _)
      isplitl [H7]; · iexists _; iexact H7
      iexists _; iexact H8

/-- The obligation in the form the launch takes it: the conjunction over all nine blocks, spelled
    block by block, is the pair above. -/
theorem body_obligation6 (c : Dev nD) : BodyObligation (dat6 (F := F) V c) (defs₀ (F := F)) Variants.none () Set.univ := fun t => by
  rw [bigSep_W6, bigSep_W6]
  exact sound_body6 V c t

/-! ## Leaving the pass -/

/-- After any tile, forgetting what the two running rows hold gives back what a pass of this kind
    is entered with. -/
theorem Phi6_out (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- In particular after the last tile. -/
theorem Phi6_last_ent (c : Dev nD) : (dat6 V c).Φ (Fin.last cfg6.N) ⊢ Pipeline.ΦA spec6 c :=
  Phi6_out V c _ (by rw [Fin.val_last]; have : cfg6.N = 10 := N_6; omega)

end Cert.Kernel.Hand

end
-- ==== Proof.Kernel.Bn7.lean ====
/-
  One region of @main: the batch-norm-and-ReLU pallas_call of a GIN layer (cc7__bn_relu_kernel, with the
  pipeline cfg7 that launches it), on its grid of ten row tiles.

  Everything here is stated at a PARAMETER V: what the TensorCore's buffers hold at the moment the region is
  entered. From V alone we say what each window's block is at each grid point, what the body leaves in the
  output tile (one store of the normalised, scaled, shifted and clamped tile, a closed function of the five
  input blocks), and we discharge the per-point obligation the pipelined launch asks of the body.

  The body belongs to the plainest class of pipeline bodies: it reads its five input tiles through whole-tile
  rectangles, reads (and ignores) what the output tile held, writes the output tile once through a whole-tile
  rectangle, and keeps nothing between grid points. Four of the five inputs (variance, mean, scale, shift: one
  row of 64 each) have a block index that never moves, so the pipeline fetches them only at the first point;
  at later points their staging buffers still hold the same block, which is what the body needs.
-/
import proofs.«144771_j36481452212846_1_alg».proof.Proof.Gen.Kernel.Launch
import proofs.«144771_j36481452212846_1_alg».proof.Proof.Gen.Kernel.Skeleton
import proofs.«144771_j36481452212846_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle of 5000 rows walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every TensorCore buffer holds when the region is entered
variable (V : (c : Dev nD) → (b : Ref sig .tc) → Buf (Elt F) ((c : Thread nD τ).loc b))

/-! ## Blocks of the windows -/

/-- The block of window w at grid point t: the part of the window's array, as V has it, that the window's index
    map selects at t. For window 0 and window 5 this is row tile t of a 50000x64 array; for windows 1 to 4 it is
    the whole 1x64 row at every t. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## What the body finds in the input windows

  For proof data whose array for window W is V's and whose body hands window W back holding its block, the
  current staging buffer of W holds block t at point t, for every t. Where the pipeline fetched at t this is
  what the fetch wrote; where it did not (windows 1 to 4 after the first point) the block index at t equals the
  one at t-1, so the buffer, left alone by the body, still holds the right block. The windows are never cut
  and never idle, which settles the side conditions by unfolding. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The rectangles the body reads and writes through -/

/-- The whole 5000x64 tile. -/
abbrev r7_0 : Rect S5000x64 := Rect.unit (s := S5000x64) ![0, 0] S5000x64.size inb_S5000x64_S5000x64_0_0
/-- The whole 1x64 row. -/
abbrev r7_1 : Rect S1x64 := Rect.unit (s := S1x64) ![0, 0] S1x64.size inb_S1x64_S1x64_0_0

/-! ## The output tile after the body -/

/-- What the output window's staging buffer holds once the body has run, given the five input blocks
    (x0 the tile of pre-activations, x1 the mean row, x2 the variance row, x3 the scale row, x4 the shift row):
    the body's single store, over the whole tile, of max((x0 - x1) * rsqrt(x2 + eps) * x3 + x4, 0), the rows
    broadcast down the tile. The payload lists the values in the order the body reads them, and the body reads
    the variance row before the mean row; hence x2 stands before x1 below. -/
def out7_5 (x0 : Vec F S5000x64 .f32) (x1 x2 x3 x4 : Vec F S1x64 .f32) : Vec F S5000x64 .f32 :=
  View.canon [⟨r7_0, k7_pay1 (View.ld x0 r7_0) (View.ld x2 r7_1) (View.ld x1 r7_1) (View.ld x3 r7_1) (View.ld x4 r7_1)⟩]

/-- A single whole-tile piece covers the tile: one block of the tile's own size tiles it. -/
theorem cover7_5 (p0 : Vec F S5000x64 .f32) (y : S5000x64.Idx) :
    ∃ pc ∈ ([⟨r7_0, p0⟩] : List (View.Piece (Elt F) S5000x64 .f32)), y ∈ pc.1.set :=
  View.cover_of_tiled [⟨r7_0, p0⟩] S5000x64.size (by rfl) y

/-! ## The body on its six staging buffers -/

set_option maxHeartbeats 1000000 in
/-- Run on six whole staging buffers, the five inputs reading x0 … x4 and the output holding anything, the body
    ends with the inputs unchanged and the output reading out7_5 x0 … x4. The printed function is a sequence of
    five whole-buffer loads, one more load (of the output buffer, whose value nothing uses), and one whole-buffer
    store; symbolic execution walks it, and the store, covering the tile, leaves the canonical contents of its
    one piece whatever the output held before. -/
theorem sound_kernel7 (c : Dev nD) (E : Set ℕ) (i : grid7.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E
          (cc7__bn_relu_kernel i arg1 harg1 arg2 harg2 arg3 harg3 arg4 harg4 arg5 harg5 arg6 harg6) K := by
  simp only [cc7__bn_relu_kernel_eq_skeleton]; unfold cc7__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The proof data of the pipeline -/

/-- The proof data of this region's pipeline (cfg7) on core c. The arrays are what the region finds (V). After the body at point t every
    input window's buffer still holds its block, and the output window's holds out7_5 of the five input blocks.
    The invariant carried from point to point is the plain one (the scoped rest and the generator register,
    neither touched); every share is the full one; no signal is owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The arrays of the proof data are V's: the field projected. -/
theorem A_eq7 (c : Dev nD) (w : Fin cfg7.W) : (dat7 V c).A w = V c (Pipeline.arrRef spec7 w) := by
  dsimp only [dat7]

/-! What the body leaves, one window at a time: the case split of the definition reduced at each literal window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

/-! What the body finds in each input window, for this proof data: its block, at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The obligation of the body at a grid point -/

/-- What the launch hands the body at point t: the invariant, the ledger of owed signals, and each window's current
    staging buffer, whole, holding what that window holds before the body. -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- What the launch wants back: the same, each buffer now holding what the proof data says the body leaves. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at point t takes the one to the other. Each input buffer holds its block (before7_W), so the triple
    of the body applies with the blocks for x0 … x4; the invariant and the ledger are neither read nor changed,
    and do not depend on the point. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _
    (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation in the form the launch theorem takes it: the conjunction over all windows, spelled window by
    window, is the pre- and postcondition above. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.Kernel.Segs.lean ====
/-
  The run of @main, from the launch to the return.

  @main is four GIN layers, each a stretch of host operations (the neighbour sum and the slicing of that layer's
  parameters) followed by two pipelined kernel launches: one that applies the layer's two-layer perceptron tile by
  tile while accumulating the column sums and sums of squares of its output, and one that normalises with the
  resulting mean and variance, scales, shifts and clamps at zero. Twelve items in all.

  This module names what every buffer of a core holds at each of the thirteen boundaries between items (a fold
  from the launch memory), shows that no item ever changes an argument array, packages each launch as an item
  entered from one boundary's contents and left at the next one's, and runs the twelve items with the launch
  theorem for programs of several kernel regions. The result: the program terminates without fault and every
  unscoped buffer ends at the last boundary's contents; in particular every argument ends as launched, and the
  result array holds what the eighth launch leaves in it.
-/
import proofs.«144771_j36481452212846_1_alg».proof.Proof.Gen.Kernel.Regions
import proofs.«144771_j36481452212846_1_alg».proof.Proof.Kernel.Mlp0Obl
import proofs.«144771_j36481452212846_1_alg».proof.Proof.Kernel.Bn1
import proofs.«144771_j36481452212846_1_alg».proof.Proof.Kernel.Mlp2Obl
import proofs.«144771_j36481452212846_1_alg».proof.Proof.Kernel.Bn3
import proofs.«144771_j36481452212846_1_alg».proof.Proof.Kernel.Mlp4Obl
import proofs.«144771_j36481452212846_1_alg».proof.Proof.Kernel.Bn5
import proofs.«144771_j36481452212846_1_alg».proof.Proof.Kernel.Mlp6Obl
import proofs.«144771_j36481452212846_1_alg».proof.Proof.Kernel.Bn7
import Idealize.ShloMosaic.Lib.Pipeline.FrameBody
import Idealize.ShloMosaic.Lib.Pipeline.RegionsLoop
import Idealize.ShloMosaic.Lib.Pipeline.FrameSuffix
import Idealize.ShloMosaic.Lib.Tactic

-- deciding that a reference is none of a launch's window arrays, or none of a stretch's thirty results, compares
-- it against each in turn among the program's two hundred references
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at every boundary between two items of @main

@main is twelve items: a host stretch, two kernel regions, and again, four times over (one GIN layer each). We name what
every buffer of a core holds between two items, starting from the launch memory: a host stretch computes its
operations' results; a kernel region rewrites its window arrays and nothing else. -/

/-- What core `c`'s buffers hold at launch. -/
abbrev W0 : Dev nD → Valuation τ sig (Elt F) := fun c b => (s₀ m ρ).mem ((c : Dev nD), b)

/-- After the host stretch `hostOps0`: every buffer the stretch's operations compute holds its value, every other buffer is
    as before. This is what region 0 is entered from. -/
abbrev W1 : Dev nD → Valuation τ sig (Elt F) := fun c => StableHlo.after hostOps0 (W0 m ρ c)
/-- The same contents, read at the TensorCore's references. -/
abbrev V1 : (c : Dev nD) → (b : Ref sig .tc) → Buf (Elt F) ((c : Thread nD τ).loc b) := fun c b => W1 m ρ c b
/-- A buffer none of the stretch's operations writes is unchanged across it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After region 0 (layer 0, the linear-ReLU-linear kernel with its running column sums): each of the region's window arrays holds what
    the pipelined launch leaves there — an input array what it held, an output array its tiles' write-backs folded in
    grid order — and every other buffer is as the region found it. -/
def W2 (c : Dev nD) : Valuation τ sig (Elt F) :=
  Pipeline.withArrays spec0 c (W1 m ρ c) fun w => (dat0 (V1 m ρ) c).arrAt w cfg0.N
/-- At a window array of region 0, the contents after the region are the launch's final contents of that array. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- At any buffer that is no window array of region 0, the region changes nothing. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array is never written: it leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- The same contents, read at the TensorCore's references. -/
abbrev V2 : (c : Dev nD) → (b : Ref sig .tc) → Buf (Elt F) ((c : Thread nD τ).loc b) := fun c b => W2 m ρ c b
/-- The two facts that put region 0's arrays back among all the unscoped buffers at its exit: each array holds the
    launch's final contents, every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1 (layer 0, the normalise-scale-shift-clamp kernel): each of the region's window arrays holds what
    the pipelined launch leaves there — an input array what it held, an output array its tiles' write-backs folded in
    grid order — and every other buffer is as the region found it. -/
def W3 (c : Dev nD) : Valuation τ sig (Elt F) :=
  Pipeline.withArrays spec1 c (W2 m ρ c) fun w => (dat1 (V2 m ρ) c).arrAt w cfg1.N
/-- At a window array of region 1, the contents after the region are the launch's final contents of that array. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- At any buffer that is no window array of region 1, the region changes nothing. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array is never written: it leaves region 1 as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
/-- The same contents, read at the TensorCore's references. -/
abbrev V3 : (c : Dev nD) → (b : Ref sig .tc) → Buf (Elt F) ((c : Thread nD τ).loc b) := fun c b => W3 m ρ c b
/-- The two facts that put region 1's arrays back among all the unscoped buffers at its exit: each array holds the
    launch's final contents, every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host stretch `hostOps2`: every buffer the stretch's operations compute holds its value, every other buffer is
    as before. This is what region 2 is entered from. -/
abbrev W4 : Dev nD → Valuation τ sig (Elt F) := fun c => StableHlo.after hostOps2 (W3 m ρ c)
/-- The same contents, read at the TensorCore's references. -/
abbrev V4 : (c : Dev nD) → (b : Ref sig .tc) → Buf (Elt F) ((c : Thread nD τ).loc b) := fun c b => W4 m ρ c b
/-- A buffer none of the stretch's operations writes is unchanged across it. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

/-- After region 2 (layer 1, the linear-ReLU-linear kernel with its running column sums): each of the region's window arrays holds what
    the pipelined launch leaves there — an input array what it held, an output array its tiles' write-backs folded in
    grid order — and every other buffer is as the region found it. -/
def W5 (c : Dev nD) : Valuation τ sig (Elt F) :=
  Pipeline.withArrays spec2 c (W4 m ρ c) fun w => (dat2 (V4 m ρ) c).arrAt w cfg2.N
/-- At a window array of region 2, the contents after the region are the launch's final contents of that array. -/
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
/-- At any buffer that is no window array of region 2, the region changes nothing. -/
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- An input window's array is never written: it leaves region 2 as it entered. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))
/-- The same contents, read at the TensorCore's references. -/
abbrev V5 : (c : Dev nD) → (b : Ref sig .tc) → Buf (Elt F) ((c : Thread nD τ).loc b) := fun c b => W5 m ρ c b
/-- The two facts that put region 2's arrays back among all the unscoped buffers at its exit: each array holds the
    launch's final contents, every other buffer what it held at entry. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After region 3 (layer 1, the normalise-scale-shift-clamp kernel): each of the region's window arrays holds what
    the pipelined launch leaves there — an input array what it held, an output array its tiles' write-backs folded in
    grid order — and every other buffer is as the region found it. -/
def W6 (c : Dev nD) : Valuation τ sig (Elt F) :=
  Pipeline.withArrays spec3 c (W5 m ρ c) fun w => (dat3 (V5 m ρ) c).arrAt w cfg3.N
/-- At a window array of region 3, the contents after the region are the launch's final contents of that array. -/
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
/-- At any buffer that is no window array of region 3, the region changes nothing. -/
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- An input window's array is never written: it leaves region 3 as it entered. -/
theorem W6_in (c : Dev nD) (w : Fin cfg3.W) (hw : (cfg3.win w).isOut = false) :
    W6 m ρ c (Proc.devRef .tc (Pipeline.arrRef spec3 w)) = W5 m ρ c (Proc.devRef .tc (Pipeline.arrRef spec3 w)) :=
  (W6_arr m ρ c w).trans (((dat3 (V5 m ρ) c).arrAt_in w hw _).trans (A_eq3 (V5 m ρ) c w))
/-- The same contents, read at the TensorCore's references. -/
abbrev V6 : (c : Dev nD) → (b : Ref sig .tc) → Buf (Elt F) ((c : Thread nD τ).loc b) := fun c b => W6 m ρ c b
/-- The two facts that put region 3's arrays back among all the unscoped buffers at its exit: each array holds the
    launch's final contents, every other buffer what it held at entry. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After the host stretch `hostOps4`: every buffer the stretch's operations compute holds its value, every other buffer is
    as before. This is what region 4 is entered from. -/
abbrev W7 : Dev nD → Valuation τ sig (Elt F) := fun c => StableHlo.after hostOps4 (W6 m ρ c)
/-- The same contents, read at the TensorCore's references. -/
abbrev V7 : (c : Dev nD) → (b : Ref sig .tc) → Buf (Elt F) ((c : Thread nD τ).loc b) := fun c b => W7 m ρ c b
/-- A buffer none of the stretch's operations writes is unchanged across it. -/
theorem W7_of (c : Dev nD) (r : Ref sig .tc) (h : r ∉ hostOps4_W) :
    W7 m ρ c (Proc.devRef .tc r) = W6 m ρ c (Proc.devRef .tc r) :=
  StableHlo.after_of_writes_sub hostOps4 _ hostOps4_writes h

/-- After region 4 (layer 2, the linear-ReLU-linear kernel with its running column sums): each of the region's window arrays holds what
    the pipelined launch leaves there — an input array what it held, an output array its tiles' write-backs folded in
    grid order — and every other buffer is as the region found it. -/
def W8 (c : Dev nD) : Valuation τ sig (Elt F) :=
  Pipeline.withArrays spec4 c (W7 m ρ c) fun w => (dat4 (V7 m ρ) c).arrAt w cfg4.N
/-- At a window array of region 4, the contents after the region are the launch's final contents of that array. -/
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
/-- At any buffer that is no window array of region 4, the region changes nothing. -/
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- An input window's array is never written: it leaves region 4 as it entered. -/
theorem W8_in (c : Dev nD) (w : Fin cfg4.W) (hw : (cfg4.win w).isOut = false) :
    W8 m ρ c (Proc.devRef .tc (Pipeline.arrRef spec4 w)) = W7 m ρ c (Proc.devRef .tc (Pipeline.arrRef spec4 w)) :=
  (W8_arr m ρ c w).trans (((dat4 (V7 m ρ) c).arrAt_in w hw _).trans (A_eq4 (V7 m ρ) c w))
/-- The same contents, read at the TensorCore's references. -/
abbrev V8 : (c : Dev nD) → (b : Ref sig .tc) → Buf (Elt F) ((c : Thread nD τ).loc b) := fun c b => W8 m ρ c b
/-- The two facts that put region 4's arrays back among all the unscoped buffers at its exit: each array holds the
    launch's final contents, every other buffer what it held at entry. -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After region 5 (layer 2, the normalise-scale-shift-clamp kernel): each of the region's window arrays holds what
    the pipelined launch leaves there — an input array what it held, an output array its tiles' write-backs folded in
    grid order — and every other buffer is as the region found it. -/
def W9 (c : Dev nD) : Valuation τ sig (Elt F) :=
  Pipeline.withArrays spec5 c (W8 m ρ c) fun w => (dat5 (V8 m ρ) c).arrAt w cfg5.N
/-- At a window array of region 5, the contents after the region are the launch's final contents of that array. -/
theorem W9_arr (c : Dev nD) (w : Fin cfg5.W) :
    W9 m ρ c (Proc.devRef .tc (Pipeline.arrRef spec5 w)) = (dat5 (V8 m ρ) c).arrAt w cfg5.N := by
  unfold W9; exact Pipeline.withArrays_arr spec5 launch5.win.arr_inj c _ _ w
/-- At any buffer that is no window array of region 5, the region changes nothing. -/
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
/-- An input window's array is never written: it leaves region 5 as it entered. -/
theorem W9_in (c : Dev nD) (w : Fin cfg5.W) (hw : (cfg5.win w).isOut = false) :
    W9 m ρ c (Proc.devRef .tc (Pipeline.arrRef spec5 w)) = W8 m ρ c (Proc.devRef .tc (Pipeline.arrRef spec5 w)) :=
  (W9_arr m ρ c w).trans (((dat5 (V8 m ρ) c).arrAt_in w hw _).trans (A_eq5 (V8 m ρ) c w))
/-- The same contents, read at the TensorCore's references. -/
abbrev V9 : (c : Dev nD) → (b : Ref sig .tc) → Buf (Elt F) ((c : Thread nD τ).loc b) := fun c b => W9 m ρ c b
/-- The two facts that put region 5's arrays back among all the unscoped buffers at its exit: each array holds the
    launch's final contents, every other buffer what it held at entry. -/
theorem hF5 (c : Dev nD) (w : Fin cfg5.W) : (dat5 (V8 m ρ) c).arrAt w cfg5.N = V9 m ρ c (Pipeline.arrRef spec5 w) :=
  (W9_arr m ρ c w).symm
theorem hrest5 (c : Dev nD) : ∀ b, b ∉ Finset.univ.image (Pipeline.arrRef spec5) → V9 m ρ c b = V8 m ρ c b :=
  fun b hb => W9_of_ne m ρ c b fun w e => hb (Finset.mem_image.mpr ⟨w, Finset.mem_univ _, e⟩)

/-- After the host stretch `hostOps6`: every buffer the stretch's operations compute holds its value, every other buffer is
    as before. This is what region 6 is entered from. -/
abbrev W10 : Dev nD → Valuation τ sig (Elt F) := fun c => StableHlo.after hostOps6 (W9 m ρ c)
/-- The same contents, read at the TensorCore's references. -/
abbrev V10 : (c : Dev nD) → (b : Ref sig .tc) → Buf (Elt F) ((c : Thread nD τ).loc b) := fun c b => W10 m ρ c b
/-- A buffer none of the stretch's operations writes is unchanged across it. -/
theorem W10_of (c : Dev nD) (r : Ref sig .tc) (h : r ∉ hostOps6_W) :
    W10 m ρ c (Proc.devRef .tc r) = W9 m ρ c (Proc.devRef .tc r) :=
  StableHlo.after_of_writes_sub hostOps6 _ hostOps6_writes h

/-- After region 6 (layer 3, the linear-ReLU-linear kernel with its running column sums): each of the region's window arrays holds what
    the pipelined launch leaves there — an input array what it held, an output array its tiles' write-backs folded in
    grid order — and every other buffer is as the region found it. -/
def W11 (c : Dev nD) : Valuation τ sig (Elt F) :=
  Pipeline.withArrays spec6 c (W10 m ρ c) fun w => (dat6 (V10 m ρ) c).arrAt w cfg6.N
/-- At a window array of region 6, the contents after the region are the launch's final contents of that array. -/
theorem W11_arr (c : Dev nD) (w : Fin cfg6.W) :
    W11 m ρ c (Proc.devRef .tc (Pipeline.arrRef spec6 w)) = (dat6 (V10 m ρ) c).arrAt w cfg6.N := by
  unfold W11; exact Pipeline.withArrays_arr spec6 launch6.win.arr_inj c _ _ w
/-- At any buffer that is no window array of region 6, the region changes nothing. -/
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
/-- An input window's array is never written: it leaves region 6 as it entered. -/
theorem W11_in (c : Dev nD) (w : Fin cfg6.W) (hw : (cfg6.win w).isOut = false) :
    W11 m ρ c (Proc.devRef .tc (Pipeline.arrRef spec6 w)) = W10 m ρ c (Proc.devRef .tc (Pipeline.arrRef spec6 w)) :=
  (W11_arr m ρ c w).trans (((dat6 (V10 m ρ) c).arrAt_in w hw _).trans (A_eq6 (V10 m ρ) c w))
/-- The same contents, read at the TensorCore's references. -/
abbrev V11 : (c : Dev nD) → (b : Ref sig .tc) → Buf (Elt F) ((c : Thread nD τ).loc b) := fun c b => W11 m ρ c b
/-- The two facts that put region 6's arrays back among all the unscoped buffers at its exit: each array holds the
    launch's final contents, every other buffer what it held at entry. -/
theorem hF6 (c : Dev nD) (w : Fin cfg6.W) : (dat6 (V10 m ρ) c).arrAt w cfg6.N = V11 m ρ c (Pipeline.arrRef spec6 w) :=
  (W11_arr m ρ c w).symm
theorem hrest6 (c : Dev nD) : ∀ b, b ∉ Finset.univ.image (Pipeline.arrRef spec6) → V11 m ρ c b = V10 m ρ c b :=
  fun b hb => W11_of_ne m ρ c b fun w e => hb (Finset.mem_image.mpr ⟨w, Finset.mem_univ _, e⟩)

/-- After region 7 (layer 3, the normalise-scale-shift-clamp kernel): each of the region's window arrays holds what
    the pipelined launch leaves there — an input array what it held, an output array its tiles' write-backs folded in
    grid order — and every other buffer is as the region found it. -/
def W12 (c : Dev nD) : Valuation τ sig (Elt F) :=
  Pipeline.withArrays spec7 c (W11 m ρ c) fun w => (dat7 (V11 m ρ) c).arrAt w cfg7.N
/-- At a window array of region 7, the contents after the region are the launch's final contents of that array. -/
theorem W12_arr (c : Dev nD) (w : Fin cfg7.W) :
    W12 m ρ c (Proc.devRef .tc (Pipeline.arrRef spec7 w)) = (dat7 (V11 m ρ) c).arrAt w cfg7.N := by
  unfold W12; exact Pipeline.withArrays_arr spec7 launch7.win.arr_inj c _ _ w
/-- At any buffer that is no window array of region 7, the region changes nothing. -/
theorem W12_of_ne (c : Dev nD) (b : Ref sig .tc) (hb : ∀ w, Pipeline.arrRef spec7 w ≠ b) :
    W12 m ρ c (Proc.devRef .tc b) = W11 m ρ c (Proc.devRef .tc b) := by
  unfold W12; exact Pipeline.withArrays_of_ne spec7 c _ _ b hb
/-- An input window's array is never written: it leaves region 7 as it entered. -/
theorem W12_in (c : Dev nD) (w : Fin cfg7.W) (hw : (cfg7.win w).isOut = false) :
    W12 m ρ c (Proc.devRef .tc (Pipeline.arrRef spec7 w)) = W11 m ρ c (Proc.devRef .tc (Pipeline.arrRef spec7 w)) :=
  (W12_arr m ρ c w).trans (((dat7 (V11 m ρ) c).arrAt_in w hw _).trans (A_eq7 (V11 m ρ) c w))
/-- The same contents, read at the TensorCore's references. -/
abbrev V12 : (c : Dev nD) → (b : Ref sig .tc) → Buf (Elt F) ((c : Thread nD τ).loc b) := fun c b => W12 m ρ c b
/-- The two facts that put region 7's arrays back among all the unscoped buffers at its exit: each array holds the
    launch's final contents, every other buffer what it held at entry. -/
theorem hF7 (c : Dev nD) (w : Fin cfg7.W) : (dat7 (V11 m ρ) c).arrAt w cfg7.N = V12 m ρ c (Pipeline.arrRef spec7 w) :=
  (W12_arr m ρ c w).symm
theorem hrest7 (c : Dev nD) : ∀ b, b ∉ Finset.univ.image (Pipeline.arrRef spec7) → V12 m ρ c b = V11 m ρ c b :=
  fun b hb => W12_of_ne m ρ c b fun w e => hb (Finset.mem_image.mpr ⟨w, Finset.mem_univ _, e⟩)

/-! ## The arguments end as launched

No host operation writes an argument array, and no region has one as an output window: region 0 reads three of them
(the node features and the first layer's two weight matrices) through input windows, which are never written; every
other region's windows are arrays the program itself computed. So the contents of an argument's buffer walk back
unchanged through all twelve items to the launch memory. -/

/-- A buffer that none of the three later host stretches writes and that is no window array of regions 1 to 7
    holds at the end what it held when region 0 was left. -/
theorem W12_eq_W2 (c : Dev nD) (r : Ref sig .tc)
    (h2 : r ∉ hostOps2_W) (h4 : r ∉ hostOps4_W) (h6 : r ∉ hostOps6_W)
    (n1 : ∀ w, Pipeline.arrRef spec1 w ≠ r) (n2 : ∀ w, Pipeline.arrRef spec2 w ≠ r) (n3 : ∀ w, Pipeline.arrRef spec3 w ≠ r)
    (n4 : ∀ w, Pipeline.arrRef spec4 w ≠ r) (n5 : ∀ w, Pipeline.arrRef spec5 w ≠ r) (n6 : ∀ w, Pipeline.arrRef spec6 w ≠ r)
    (n7 : ∀ w, Pipeline.arrRef spec7 w ≠ r) :
    W12 m ρ c (Proc.devRef .tc r) = W2 m ρ c (Proc.devRef .tc r) :=
  (W12_of_ne m ρ c r n7).trans <| (W11_of_ne m ρ c r n6).trans <| (W10_of m ρ c r h6).trans <|
  (W9_of_ne m ρ c r n5).trans <| (W8_of_ne m ρ c r n4).trans <| (W7_of m ρ c r h4).trans <|
  (W6_of_ne m ρ c r n3).trans <| (W5_of_ne m ρ c r n2).trans <| (W4_of m ρ c r h2).trans <|
  (W3_of_ne m ρ c r n1)

/-- `main_arg0` is read by region 0 through its input window 0 and by nothing else. -/
theorem W12_main_arg0 (c : Dev nD) : W12 m ρ c (Proc.devRef .tc main_arg0) = m ((c : Thread nD τ).loc main_arg0) :=
  (W12_eq_W2 m ρ c main_arg0 (by decide) (by decide) (by decide) (by decide) (by decide) (by decide) (by decide) (by decide)
    (by decide) (by decide)).trans <| (W2_in m ρ c 0 rfl).trans <| (W1_of m ρ c main_arg0 (by decide)).trans rfl

/-- `main_arg1` is no window array of any region and no host operation's result. -/
theorem W12_main_arg1 (c : Dev nD) : W12 m ρ c (Proc.devRef .tc main_arg1) = m ((c : Thread nD τ).loc main_arg1) :=
  (W12_eq_W2 m ρ c main_arg1 (by decide) (by decide) (by decide) (by decide) (by decide) (by decide) (by decide) (by decide)
    (by decide) (by decide)).trans <| (W2_of_ne m ρ c main_arg1 (by decide)).trans <| (W1_of m ρ c main_arg1 (by decide)).trans rfl

/-- `main_arg2` is no window array of any region and no host operation's result. -/
theorem W12_main_arg2 (c : Dev nD) : W12 m ρ c (Proc.devRef .tc main_arg2) = m ((c : Thread nD τ).loc main_arg2) :=
  (W12_eq_W2 m ρ c main_arg2 (by decide) (by decide) (by decide) (by decide) (by decide) (by decide) (by decide) (by decide)
    (by decide) (by decide)).trans <| (W2_of_ne m ρ c main_arg2 (by decide)).trans <| (W1_of m ρ c main_arg2 (by decide)).trans rfl

/-- `main_arg3` is read by region 0 through its input window 2 and by nothing else. -/
theorem W12_main_arg3 (c : Dev nD) : W12 m ρ c (Proc.devRef .tc main_arg3) = m ((c : Thread nD τ).loc main_arg3) :=
  (W12_eq_W2 m ρ c main_arg3 (by decide) (by decide) (by decide) (by decide) (by decide) (by decide) (by decide) (by decide)
    (by decide) (by decide)).trans <| (W2_in m ρ c 2 rfl).trans <| (W1_of m ρ c main_arg3 (by decide)).trans rfl

/-- `main_arg4` is no window array of any region and no host operation's result. -/
theorem W12_main_arg4 (c : Dev nD) : W12 m ρ c (Proc.devRef .tc main_arg4) = m ((c : Thread nD τ).loc main_arg4) :=
  (W12_eq_W2 m ρ c main_arg4 (by decide) (by decide) (by decide) (by decide) (by decide) (by decide) (by decide) (by decide)
    (by decide) (by decide)).trans <| (W2_of_ne m ρ c main_arg4 (by decide)).trans <| (W1_of m ρ c main_arg4 (by decide)).trans rfl

/-- `main_arg5` is read by region 0 through its input window 4 and by nothing else. -/
theorem W12_main_arg5 (c : Dev nD) : W12 m ρ c (Proc.devRef .tc main_arg5) = m ((c : Thread nD τ).loc main_arg5) :=
  (W12_eq_W2 m ρ c main_arg5 (by decide) (by decide) (by decide) (by decide) (by decide) (by decide) (by decide) (by decide)
    (by decide) (by decide)).trans <| (W2_in m ρ c 4 rfl).trans <| (W1_of m ρ c main_arg5 (by decide)).trans rfl

/-- `main_arg6` is no window array of any region and no host operation's result. -/
theorem W12_main_arg6 (c : Dev nD) : W12 m ρ c (Proc.devRef .tc main_arg6) = m ((c : Thread nD τ).loc main_arg6) :=
  (W12_eq_W2 m ρ c main_arg6 (by decide) (by decide) (by decide) (by decide) (by decide) (by decide) (by decide) (by decide)
    (by decide) (by decide)).trans <| (W2_of_ne m ρ c main_arg6 (by decide)).trans <| (W1_of m ρ c main_arg6 (by decide)).trans rfl

/-- `main_arg7` is no window array of any region and no host operation's result. -/
theorem W12_main_arg7 (c : Dev nD) : W12 m ρ c (Proc.devRef .tc main_arg7) = m ((c : Thread nD τ).loc main_arg7) :=
  (W12_eq_W2 m ρ c main_arg7 (by decide) (by decide) (by decide) (by decide) (by decide) (by decide) (by decide) (by decide)
    (by decide) (by decide)).trans <| (W2_of_ne m ρ c main_arg7 (by decide)).trans <| (W1_of m ρ c main_arg7 (by decide)).trans rfl

/-- `main_arg8` is no window array of any region and no host operation's result. -/
theorem W12_main_arg8 (c : Dev nD) : W12 m ρ c (Proc.devRef .tc main_arg8) = m ((c : Thread nD τ).loc main_arg8) :=
  (W12_eq_W2 m ρ c main_arg8 (by decide) (by decide) (by decide) (by decide) (by decide) (by decide) (by decide) (by decide)
    (by decide) (by decide)).trans <| (W2_of_ne m ρ c main_arg8 (by decide)).trans <| (W1_of m ρ c main_arg8 (by decide)).trans rfl

/-- `main_arg9` is no window array of any region and no host operation's result. -/
theorem W12_main_arg9 (c : Dev nD) : W12 m ρ c (Proc.devRef .tc main_arg9) = m ((c : Thread nD τ).loc main_arg9) :=
  (W12_eq_W2 m ρ c main_arg9 (by decide) (by decide) (by decide) (by decide) (by decide) (by decide) (by decide) (by decide)
    (by decide) (by decide)).trans <| (W2_of_ne m ρ c main_arg9 (by decide)).trans <| (W1_of m ρ c main_arg9 (by decide)).trans rfl

/-- `main_arg10` is no window array of any region and no host operation's result. -/
theorem W12_main_arg10 (c : Dev nD) : W12 m ρ c (Proc.devRef .tc main_arg10) = m ((c : Thread nD τ).loc main_arg10) :=
  (W12_eq_W2 m ρ c main_arg10 (by decide) (by decide) (by decide) (by decide) (by decide) (by decide) (by decide) (by decide)
    (by decide) (by decide)).trans <| (W2_of_ne m ρ c main_arg10 (by decide)).trans <| (W1_of m ρ c main_arg10 (by decide)).trans rfl

/-- `main_arg11` is no window array of any region and no host operation's result. -/
theorem W12_main_arg11 (c : Dev nD) : W12 m ρ c (Proc.devRef .tc main_arg11) = m ((c : Thread nD τ).loc main_arg11) :=
  (W12_eq_W2 m ρ c main_arg11 (by decide) (by decide) (by decide) (by decide) (by decide) (by decide) (by decide) (by decide)
    (by decide) (by decide)).trans <| (W2_of_ne m ρ c main_arg11 (by decide)).trans <| (W1_of m ρ c main_arg11 (by decide)).trans rfl

/-- `main_arg12` is no window array of any region and no host operation's result. -/
theorem W12_main_arg12 (c : Dev nD) : W12 m ρ c (Proc.devRef .tc main_arg12) = m ((c : Thread nD τ).loc main_arg12) :=
  (W12_eq_W2 m ρ c main_arg12 (by decide) (by decide) (by decide) (by decide) (by decide) (by decide) (by decide) (by decide)
    (by decide) (by decide)).trans <| (W2_of_ne m ρ c main_arg12 (by decide)).trans <| (W1_of m ρ c main_arg12 (by decide)).trans rfl

/-- `main_arg13` is no window array of any region and no host operation's result. -/
theorem W12_main_arg13 (c : Dev nD) : W12 m ρ c (Proc.devRef .tc main_arg13) = m ((c : Thread nD τ).loc main_arg13) :=
  (W12_eq_W2 m ρ c main_arg13 (by decide) (by decide) (by decide) (by decide) (by decide) (by decide) (by decide) (by decide)
    (by decide) (by decide)).trans <| (W2_of_ne m ρ c main_arg13 (by decide)).trans <| (W1_of m ρ c main_arg13 (by decide)).trans rfl

/-- `main_arg14` is no window array of any region and no host operation's result. -/
theorem W12_main_arg14 (c : Dev nD) : W12 m ρ c (Proc.devRef .tc main_arg14) = m ((c : Thread nD τ).loc main_arg14) :=
  (W12_eq_W2 m ρ c main_arg14 (by decide) (by decide) (by decide) (by decide) (by decide) (by decide) (by decide) (by decide)
    (by decide) (by decide)).trans <| (W2_of_ne m ρ c main_arg14 (by decide)).trans <| (W1_of m ρ c main_arg14 (by decide)).trans rfl

/-- The program's result is region 7's output array, at what that launch leaves in it. -/
theorem W12_result (c : Dev nD) : W12 m ρ c (Proc.devRef .tc main_v99) = (dat7 (V11 m ρ) c).arrAt 5 cfg7.N :=
  W12_arr m ρ c 5

/-! # The proof data of all eight launches, and what a core holds between two items -/

/-- Each launch's proof data, taken at the contents its region is entered from. A literal case split on the launch's
    number, so that at a numeral it reduces to that launch's own data. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V7 m ρ) c
  | ⟨5, _⟩ => fun c => dat5 (V8 m ρ) c
  | ⟨6, _⟩ => fun c => dat6 (V10 m ρ) c
  | ⟨7, _⟩ => fun c => dat7 (V11 m ρ) c

/-- No variant is in play, and no core owes another anything: no level is assigned. -/
abbrev 𝒱run : Variants := Variants.none
abbrev Lrun : GSem nD τ sig → Finset Unit := fun _ => ∅
abbrev lvrun : GSem nD τ sig → Unit → ℕ := fun _ _ => 0
/-- What a core carries beside its buffers through every item: its generator register at some state (a region's
    invariant takes it in and hands it back) and the fact that it owes nothing. -/
abbrev Ride (c : Dev nD) : sProp 𝕄 := iprop((∃ r, prngReg c r) ∗ ∃ W, owes (c : Thread nD τ) (0 : CellTallies nD τ sig Unit) W)
/-- A host stretch as an item of the run: from every unscoped buffer at `W` it reaches every unscoped buffer at the
    stretch's results over `W`, the rest of the core's state riding along untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱run Lrun lvrun :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
/-- A TensorCore reference that is not scoped is one of the buffers the run tracks. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the "owes nothing" (the launch theorem wants that stated beside it): every unscoped buffer
    at the final contents, the generator register at some state. -/
abbrev Tend (c : Dev nD) : sProp 𝕄 := iprop(StableHlo.held (c : Thread nD τ) (Pipeline.ucRefs τ sig) (W12 m ρ c) ∗ ∃ r, prngReg c r)

/-! # The eight launches as items of the run -/

-- applying a library lemma stated over the family's configuration at an index needs unification to unfold plain
-- definitions inside a metavariable's type
set_option backward.isDefEq.respectTransparency.types false in
/-- REGION 0 (layer 0, the linear-ReLU-linear kernel with its running column sums) as an item of the run: entered with every unscoped
    buffer at `W1`, left with every unscoped buffer at `W2` (what the next item is entered from). At entry the region's
    window arrays are taken out of the unscoped buffers, the rest bypasses the region; the two scratch rows of running sums ride in the invariant with the generator register — cleared at the first
    grid point, so at entry they may hold anything, and left at whatever the last point made of them —
    nothing is owed before or after; the kernel has no semaphore of its own. At exit the arrays, now at the
    launch's final contents, are put back among the bypassing buffers. -/
def reg0 : Pipeline.RegionSeg (pcfgs (F := F)) adm (pdats m ρ) () defs₀ 𝒱run Lrun lvrun 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ Lrun lvrun 0 fun _ _ => rfl
  pre c := iprop(StableHlo.held (c : Thread nD τ) (Pipeline.ucRefs τ sig) (W1 m ρ c) ∗ Ride c)
  post c := iprop(StableHlo.held (c : Thread nD τ) (Pipeline.ucRefs τ sig) (W2 m ρ c) ∗ Ride c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 0 c).Φ 0 = Pipeline.ΦA spec0 c from Phi0_first (V1 m ρ) c]; unfold Pipeline.ΦA
    iintro ⟨Hprng, -, Hscoped⟩
    isplitl [Hscoped]; · iexact Hscoped
    iexact Hprng
  hout c := by
    rw [Pipeline.ownSems0_none]
    refine (show (pdats m ρ 0 c).Φ (Fin.last _) ⊢ Pipeline.ΦA spec0 c from Phi0_last_ent (V1 m ρ) c).trans ?_
    unfold Pipeline.ΦA
    iintro ⟨Hscoped, Hprng⟩
    isplitl [Hprng]; · iexact Hprng
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

-- applying a library lemma stated over the family's configuration at an index needs unification to unfold plain
-- definitions inside a metavariable's type
set_option backward.isDefEq.respectTransparency.types false in
/-- REGION 1 (layer 0, the normalise-scale-shift-clamp kernel) as an item of the run: entered with every unscoped
    buffer at `W2`, left with every unscoped buffer at `W3` (what the next item is entered from). At entry the region's
    window arrays are taken out of the unscoped buffers, the rest bypasses the region; the generator register rides in the invariant and comes back —
    nothing is owed before or after; the kernel has no semaphore of its own. At exit the arrays, now at the
    launch's final contents, are put back among the bypassing buffers. -/
def reg1 : Pipeline.RegionSeg (pcfgs (F := F)) adm (pdats m ρ) () defs₀ 𝒱run Lrun lvrun 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ Lrun lvrun 1 fun _ _ => rfl
  pre c := iprop(StableHlo.held (c : Thread nD τ) (Pipeline.ucRefs τ sig) (W2 m ρ c) ∗ Ride c)
  post c := iprop(StableHlo.held (c : Thread nD τ) (Pipeline.ucRefs τ sig) (W3 m ρ c) ∗ Ride c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 1 c).Φ 0 = Pipeline.ΦA spec1 c from rfl]; unfold Pipeline.ΦA
    iintro ⟨Hprng, -, Hscoped⟩
    isplitl [Hscoped]; · iexact Hscoped
    iexact Hprng
  hout c := by
    rw [Pipeline.ownSems0_none, show (pdats m ρ 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

-- applying a library lemma stated over the family's configuration at an index needs unification to unfold plain
-- definitions inside a metavariable's type
set_option backward.isDefEq.respectTransparency.types false in
/-- REGION 2 (layer 1, the linear-ReLU-linear kernel with its running column sums) as an item of the run: entered with every unscoped
    buffer at `W4`, left with every unscoped buffer at `W5` (what the next item is entered from). At entry the region's
    window arrays are taken out of the unscoped buffers, the rest bypasses the region; the two scratch rows of running sums ride in the invariant with the generator register — cleared at the first
    grid point, so at entry they may hold anything, and left at whatever the last point made of them —
    nothing is owed before or after; the kernel has no semaphore of its own. At exit the arrays, now at the
    launch's final contents, are put back among the bypassing buffers. -/
def reg2 : Pipeline.RegionSeg (pcfgs (F := F)) adm (pdats m ρ) () defs₀ 𝒱run Lrun lvrun 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ Lrun lvrun 2 fun _ _ => rfl
  pre c := iprop(StableHlo.held (c : Thread nD τ) (Pipeline.ucRefs τ sig) (W4 m ρ c) ∗ Ride c)
  post c := iprop(StableHlo.held (c : Thread nD τ) (Pipeline.ucRefs τ sig) (W5 m ρ c) ∗ Ride c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 2 c).Φ 0 = Pipeline.ΦA spec2 c from Phi2_first (V4 m ρ) c]; unfold Pipeline.ΦA
    iintro ⟨Hprng, -, Hscoped⟩
    isplitl [Hscoped]; · iexact Hscoped
    iexact Hprng
  hout c := by
    rw [Pipeline.ownSems0_none]
    refine (show (pdats m ρ 2 c).Φ (Fin.last _) ⊢ Pipeline.ΦA spec2 c from Phi2_last_ent (V4 m ρ) c).trans ?_
    unfold Pipeline.ΦA
    iintro ⟨Hscoped, Hprng⟩
    isplitl [Hprng]; · iexact Hprng
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

-- applying a library lemma stated over the family's configuration at an index needs unification to unfold plain
-- definitions inside a metavariable's type
set_option backward.isDefEq.respectTransparency.types false in
/-- REGION 3 (layer 1, the normalise-scale-shift-clamp kernel) as an item of the run: entered with every unscoped
    buffer at `W5`, left with every unscoped buffer at `W6` (what the next item is entered from). At entry the region's
    window arrays are taken out of the unscoped buffers, the rest bypasses the region; the generator register rides in the invariant and comes back —
    nothing is owed before or after; the kernel has no semaphore of its own. At exit the arrays, now at the
    launch's final contents, are put back among the bypassing buffers. -/
def reg3 : Pipeline.RegionSeg (pcfgs (F := F)) adm (pdats m ρ) () defs₀ 𝒱run Lrun lvrun 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ Lrun lvrun 3 fun _ _ => rfl
  pre c := iprop(StableHlo.held (c : Thread nD τ) (Pipeline.ucRefs τ sig) (W5 m ρ c) ∗ Ride c)
  post c := iprop(StableHlo.held (c : Thread nD τ) (Pipeline.ucRefs τ sig) (W6 m ρ c) ∗ Ride c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 3 c).Φ 0 = Pipeline.ΦA spec3 c from rfl]; unfold Pipeline.ΦA
    iintro ⟨Hprng, -, Hscoped⟩
    isplitl [Hscoped]; · iexact Hscoped
    iexact Hprng
  hout c := by
    rw [Pipeline.ownSems0_none, show (pdats m ρ 3 c).Φ (Fin.last _) = Pipeline.ΦA spec3 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

-- applying a library lemma stated over the family's configuration at an index needs unification to unfold plain
-- definitions inside a metavariable's type
set_option backward.isDefEq.respectTransparency.types false in
/-- REGION 4 (layer 2, the linear-ReLU-linear kernel with its running column sums) as an item of the run: entered with every unscoped
    buffer at `W7`, left with every unscoped buffer at `W8` (what the next item is entered from). At entry the region's
    window arrays are taken out of the unscoped buffers, the rest bypasses the region; the two scratch rows of running sums ride in the invariant with the generator register — cleared at the first
    grid point, so at entry they may hold anything, and left at whatever the last point made of them —
    nothing is owed before or after; the kernel has no semaphore of its own. At exit the arrays, now at the
    launch's final contents, are put back among the bypassing buffers. -/
def reg4 : Pipeline.RegionSeg (pcfgs (F := F)) adm (pdats m ρ) () defs₀ 𝒱run Lrun lvrun 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ Lrun lvrun 4 fun _ _ => rfl
  pre c := iprop(StableHlo.held (c : Thread nD τ) (Pipeline.ucRefs τ sig) (W7 m ρ c) ∗ Ride c)
  post c := iprop(StableHlo.held (c : Thread nD τ) (Pipeline.ucRefs τ sig) (W8 m ρ c) ∗ Ride c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 4 c).Φ 0 = Pipeline.ΦA spec4 c from Phi4_first (V7 m ρ) c]; unfold Pipeline.ΦA
    iintro ⟨Hprng, -, Hscoped⟩
    isplitl [Hscoped]; · iexact Hscoped
    iexact Hprng
  hout c := by
    rw [Pipeline.ownSems0_none]
    refine (show (pdats m ρ 4 c).Φ (Fin.last _) ⊢ Pipeline.ΦA spec4 c from Phi4_last_ent (V7 m ρ) c).trans ?_
    unfold Pipeline.ΦA
    iintro ⟨Hscoped, Hprng⟩
    isplitl [Hprng]; · iexact Hprng
    isplitr; · iempintro
    iexact Hscoped
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

-- applying a library lemma stated over the family's configuration at an index needs unification to unfold plain
-- definitions inside a metavariable's type
set_option backward.isDefEq.respectTransparency.types false in
/-- REGION 5 (layer 2, the normalise-scale-shift-clamp kernel) as an item of the run: entered with every unscoped
    buffer at `W8`, left with every unscoped buffer at `W9` (what the next item is entered from). At entry the region's
    window arrays are taken out of the unscoped buffers, the rest bypasses the region; the generator register rides in the invariant and comes back —
    nothing is owed before or after; the kernel has no semaphore of its own. At exit the arrays, now at the
    launch's final contents, are put back among the bypassing buffers. -/
def reg5 : Pipeline.RegionSeg (pcfgs (F := F)) adm (pdats m ρ) () defs₀ 𝒱run Lrun lvrun 5 where
  win := launch5.win.to₀
  block_pos := launch5.block_pos
  stage_whole := launch5.stage_whole
  K := PEmpty
  osem k := k.elim
  ho := Pipeline.OwnSemFacts.none _
  hbody c := (body_obligation5 (V8 m ρ) c).loose
  hwaits := Pipeline.hwaits_of_owed_zero _ _ _ _ Lrun lvrun 5 fun _ _ => rfl
  pre c := iprop(StableHlo.held (c : Thread nD τ) (Pipeline.ucRefs τ sig) (W8 m ρ c) ∗ Ride c)
  post c := iprop(StableHlo.held (c : Thread nD τ) (Pipeline.ucRefs τ sig) (W9 m ρ c) ∗ Ride c)
  X c := iprop(∃ r, prngReg c r)
  Y c := iprop(∃ r, prngReg c r)
  Z c := Pipeline.unscopedRest (Ix := Unit) (Name := ℕ) (U := UR sig nD τ) (Lvl := ℕ) spec5 c (V8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V8 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 5 c).Φ 0 = Pipeline.ΦA spec5 c from rfl]; unfold Pipeline.ΦA
    iintro ⟨Hprng, -, Hscoped⟩
    isplitl [Hscoped]; · iexact Hscoped
    iexact Hprng
  hout c := by
    rw [Pipeline.ownSems0_none, show (pdats m ρ 5 c).Φ (Fin.last _) = Pipeline.ΦA spec5 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V8 m ρ c) (V9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

-- applying a library lemma stated over the family's configuration at an index needs unification to unfold plain
-- definitions inside a metavariable's type
set_option backward.isDefEq.respectTransparency.types false in
/-- REGION 6 (layer 3, the linear-ReLU-linear kernel with its running column sums) as an item of the run: entered with every unscoped
    buffer at `W10`, left with every unscoped buffer at `W11` (what the next item is entered from). At entry the region's
    window arrays are taken out of the unscoped buffers, the rest bypasses the region; the two scratch rows of running sums ride in the invariant with the generator register — cleared at the first
    grid point, so at entry they may hold anything, and left at whatever the last point made of them —
    nothing is owed before or after; the kernel has no semaphore of its own. At exit the arrays, now at the
    launch's final contents, are put back among the bypassing buffers. -/
def reg6 : Pipeline.RegionSeg (pcfgs (F := F)) adm (pdats m ρ) () defs₀ 𝒱run Lrun lvrun 6 where
  win := launch6.win.to₀
  block_pos := launch6.block_pos
  stage_whole := launch6.stage_whole
  K := PEmpty
  osem k := k.elim
  ho := Pipeline.OwnSemFacts.none _
  hbody c := (body_obligation6 (V10 m ρ) c).loose
  hwaits := Pipeline.hwaits_of_owed_zero _ _ _ _ Lrun lvrun 6 fun _ _ => rfl
  pre c := iprop(StableHlo.held (c : Thread nD τ) (Pipeline.ucRefs τ sig) (W10 m ρ c) ∗ Ride c)
  post c := iprop(StableHlo.held (c : Thread nD τ) (Pipeline.ucRefs τ sig) (W11 m ρ c) ∗ Ride c)
  X c := iprop(∃ r, prngReg c r)
  Y c := iprop(∃ r, prngReg c r)
  Z c := Pipeline.unscopedRest (Ix := Unit) (Name := ℕ) (U := UR sig nD τ) (Lvl := ℕ) spec6 c (V10 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V10 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 6 c).Φ 0 = Pipeline.ΦA spec6 c from Phi6_first (V10 m ρ) c]; unfold Pipeline.ΦA
    iintro ⟨Hprng, -, Hscoped⟩
    isplitl [Hscoped]; · iexact Hscoped
    iexact Hprng
  hout c := by
    rw [Pipeline.ownSems0_none]
    refine (show (pdats m ρ 6 c).Φ (Fin.last _) ⊢ Pipeline.ΦA spec6 c from Phi6_last_ent (V10 m ρ) c).trans ?_
    unfold Pipeline.ΦA
    iintro ⟨Hscoped, Hprng⟩
    isplitl [Hprng]; · iexact Hprng
    isplitr; · iempintro
    iexact Hscoped
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V10 m ρ c) (V11 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

-- applying a library lemma stated over the family's configuration at an index needs unification to unfold plain
-- definitions inside a metavariable's type
set_option backward.isDefEq.respectTransparency.types false in
/-- REGION 7 (layer 3, the normalise-scale-shift-clamp kernel) as an item of the run: entered with every unscoped
    buffer at `W11`, left with every unscoped buffer at `W12` (what the launch reads at the end). At entry the region's
    window arrays are taken out of the unscoped buffers, the rest bypasses the region; the generator register rides in the invariant and comes back —
    nothing is owed before or after; the kernel has no semaphore of its own. At exit the arrays, now at the
    launch's final contents, are put back among the bypassing buffers. -/
def reg7 : Pipeline.RegionSeg (pcfgs (F := F)) adm (pdats m ρ) () defs₀ 𝒱run Lrun lvrun 7 where
  win := launch7.win.to₀
  block_pos := launch7.block_pos
  stage_whole := launch7.stage_whole
  K := PEmpty
  osem k := k.elim
  ho := Pipeline.OwnSemFacts.none _
  hbody c := (body_obligation7 (V11 m ρ) c).loose
  hwaits := Pipeline.hwaits_of_owed_zero _ _ _ _ Lrun lvrun 7 fun _ _ => rfl
  pre c := iprop(StableHlo.held (c : Thread nD τ) (Pipeline.ucRefs τ sig) (W11 m ρ c) ∗ Ride c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V11 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V11 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 7 c).Φ 0 = Pipeline.ΦA spec7 c from rfl]; unfold Pipeline.ΦA
    iintro ⟨Hprng, -, Hscoped⟩
    isplitl [Hscoped]; · iexact Hscoped
    iexact Hprng
  hout c := by
    rw [Pipeline.ownSems0_none, show (pdats m ρ 7 c).Φ (Fin.last _) = Pipeline.ΦA spec7 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V11 m ρ c) (V12 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%T, -, HO⟩; iexists T; iexact HO

/-! # @main as its twelve items, and the launch -/

/-- @main's items in order: per GIN layer a host stretch (entered from the boundary's contents) and the layer's two
    kernel regions. -/
abbrev segs : List (Pipeline.Seg (pcfgs (F := F)) adm (pdats m ρ) () defs₀ 𝒱run Lrun lvrun) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .host (hseg hostOps4 hostOps4_sub hostOps4_fresh (W6 m ρ)),
    .region (reg4 m ρ),
    .region (reg5 m ρ),
    .host (hseg hostOps6 hostOps6_sub hostOps6_fresh (W9 m ρ)),
    .region (reg6 m ρ),
    .region (reg7 m ρ) ]

/-- The items' own programs, in order, are exactly the chain @main was shown to be. -/
theorem segs_progs : (segs m ρ).map Pipeline.Seg.prog = [
      StableHlo.seq hostOps0,
      Prog.lift (.customCall (Pipeline.entry 0) ()),
      Prog.lift (.customCall (Pipeline.entry 1) ()),
      StableHlo.seq hostOps2,
      Prog.lift (.customCall (Pipeline.entry 2) ()),
      Prog.lift (.customCall (Pipeline.entry 3) ()),
      StableHlo.seq hostOps4,
      Prog.lift (.customCall (Pipeline.entry 4) ()),
      Prog.lift (.customCall (Pipeline.entry 5) ()),
      StableHlo.seq hostOps6,
      Prog.lift (.customCall (Pipeline.entry 6) ()),
      Prog.lift (.customCall (Pipeline.entry 7) ()) ] := rfl

/-- @main IS the run of its items. -/
theorem main_run (c : Dev nD) : main (F := F) c = Pipeline.Seg.run (segs m ρ) := by
  rw [main_chain c, Pipeline.Seg.run_eq_chain, segs_progs]

-- the launch theorem's implicit arguments are found by unifying its conclusion with ours, which takes unfolding plain
-- definitions in a metavariable's type
set_option backward.isDefEq.respectTransparency.types false in
/-- THE RUN. From any launch memory with zero counters, every weakly fair execution of @main on the TensorCores
    terminates without fault, and in every final state each unscoped buffer of each core holds the last boundary's
    contents `W12`: the twelve items chain state to state (each is entered from exactly what the one before left), the
    first state is what the launch deals, and the last is read against the final memory. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W12 m ρ c b) :=
  Pipeline.θ_run_regions_kit (pcfgs (F := F)) adm (pdats m ρ) () cellOf_inj emb₁ defs₀ 𝒱run Lrun lvrun m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Ride c)) (Tₙ := Tend m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach Lrun lvrun fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hprng, -⟩, -⟩
      imodintro
      isplitl [Hbufs]; · iexact Hbufs
      isplitl [Hprng]; · iexists _; iexact Hprng
      iexists ∅; iexact Howes)
    (QY := fun c s => ∀ b ∈ Pipeline.ucRefs τ sig, s.mem (((c : Thread nD τ)).1, b) = W12 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W12 m ρ c) s')
      isplitl [Hbufs] <;> iassumption)
    (hQ := fun s h c => h c)

/-- THE FRAME: every argument array ends holding what it was launched with. Each argument's buffer is unscoped, so
    the run gives its final contents as `W12` there, and `W12` at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c)⟩) (run_main m ρ)

/-- THE RUN, read at the result array and at the arguments: the result buffer ends at the last boundary's contents
    (which `W12_result` identifies as what the eighth launch leaves in its output array), and every argument ends as
    launched. -/
theorem run_value : θ_run defs (onTc (τ := τ) (main (F := F))) ⟨m, fun _ => 0, ρ⟩ (fun r => ∀ c : Dev nD,
      r.2.mem ((c.tc : Thread nD τ).loc main_v99) = W12 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v99 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c)⟩) (run_main m ρ)

end Cert.Kernel.Hand

end
-- ==== Proof.KernelIdeal.Mlp0Runs.lean ====
import proofs.«144771_j36481452212846_1_alg».proof.Proof.Gen.KernelIdeal.Launch
import proofs.«144771_j36481452212846_1_alg».proof.Proof.Gen.KernelIdeal.Skeleton
import proofs.«144771_j36481452212846_1_alg».proof.Proof.Gen.KernelIdeal.Points
import Idealize.ShloMosaic.Lib.Pipeline.FrameBody
import Idealize.ShloMosaic.Lib.Ring
import Idealize.ShloMosaic.Lib.Tactic

/-! # The first statistics pass: what its ten tiles share, and its body in the three ways it runs

The pass walks the node rows in ten tiles of 5000. On each tile it forms the tile's linear
activations `z = relu((h + agg) · W₁ + b₁) · W₂ + b₂`, writes them out, and adds the tile's column
sums `Σ z` and column sums of squares `Σ z²` to two running rows that live from tile to tile. The
running rows are set to zero on the first tile; on the last tile the column mean `Σ z / n` and the
column variance `Σ z² / n − mean²` are formed from them and written out. So the body does one of
three things, told apart by the tile's number alone:

* first tile: zero both running rows, then accumulate;
* a middle tile: accumulate onto what the tile before left;
* last tile: accumulate, then emit mean and variance.

This file fixes the two tests on the tile number and decides where over the ten tiles they hold,
records on which tiles the mean and variance blocks are touched at all, names the buffers the body
is handed, and then runs the body once for each of the three cases: from the inputs' contents (and,
after the first tile, the running rows' contents) to the exact list of pieces each written buffer
ends with. -/

-- deciding membership in a block of 5000 rows walks the long axis one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two tests on the tile number -/

/-- "This is the first tile": the tile number compared with 0, widened to a word and tested against
    zero, exactly as the body computes it before it zeroes the running rows. -/
abbrev cond0_0 (i : grid0.Coords) : Prop := (Scalar.cmpi .ne (Scalar.extui (Scalar.cmpi .eq (BitVec.ofNat 32 (i 0).val) 0#32)) 0#32) = 1#1
/-- Over the ten tiles it holds at tile 0 and nowhere else. -/
theorem hcond0_0 : ∀ t : Fin cfg0.N, cond0_0 (grid0.coords t) ↔ t.val % 10 = 0 :=
  (by decide +kernel : ∀ t : Fin grid0.N, cond0_0 (grid0.coords t) ↔ t.val % 10 = 0)

/-- "This is the last tile": the tile number compared with 9, the test guarding the emission of mean
    and variance. -/
abbrev cond0_1 (i : grid0.Coords) : Prop := k0_cond2 i = 1#1
/-- Over the ten tiles it holds at tile 9 and nowhere else. -/
theorem hcond0_1 : ∀ t : Fin cfg0.N, cond0_1 (grid0.coords t) ↔ t.val % 10 = 9 :=
  (by decide +kernel : ∀ t : Fin grid0.N, cond0_1 (grid0.coords t) ↔ t.val % 10 = 9)

/-! ## On which tiles each block is touched

The six inputs and the activations block are in use on every tile. The mean block and the variance
block are stored into on the last tile only: on every earlier tile the body leaves them alone and
nothing is written back from them. -/

/-- Block 0 is in use on every tile. -/
theorem liveAt0_0 : ∀ t : Fin cfg0.N, cfg0.idle 0 (grid0.coords t) = false := by decide +kernel
/-- Block 1 is in use on every tile. -/
theorem liveAt0_1 : ∀ t : Fin cfg0.N, cfg0.idle 1 (grid0.coords t) = false := by decide +kernel
/-- Block 2 is in use on every tile. -/
theorem liveAt0_2 : ∀ t : Fin cfg0.N, cfg0.idle 2 (grid0.coords t) = false := by decide +kernel
/-- Block 3 is in use on every tile. -/
theorem liveAt0_3 : ∀ t : Fin cfg0.N, cfg0.idle 3 (grid0.coords t) = false := by decide +kernel
/-- Block 4 is in use on every tile. -/
theorem liveAt0_4 : ∀ t : Fin cfg0.N, cfg0.idle 4 (grid0.coords t) = false := by decide +kernel
/-- Block 5 is in use on every tile. -/
theorem liveAt0_5 : ∀ t : Fin cfg0.N, cfg0.idle 5 (grid0.coords t) = false := by decide +kernel
/-- Block 6 is in use on every tile. -/
theorem liveAt0_6 : ∀ t : Fin cfg0.N, cfg0.idle 6 (grid0.coords t) = false := by decide +kernel
/-- On the first tile the mean block is left alone. -/
theorem idleAt0_7_A : ∀ t : Fin cfg0.N, cond0_0 (grid0.coords t) → ¬cond0_1 (grid0.coords t) → cfg0.idle 7 (grid0.coords t) = true := by decide +kernel
/-- On the first tile the mean block is not written back. -/
theorem noFlush0_7_A : ∀ t : Fin cfg0.N, cond0_0 (grid0.coords t) → ¬cond0_1 (grid0.coords t) → (cfg0.win 7).flush t = false := by decide +kernel
/-- On a middle tile the mean block is left alone. -/
theorem idleAt0_7_B : ∀ t : Fin cfg0.N, ¬cond0_0 (grid0.coords t) → ¬cond0_1 (grid0.coords t) → cfg0.idle 7 (grid0.coords t) = true := by decide +kernel
/-- On a middle tile the mean block is not written back. -/
theorem noFlush0_7_B : ∀ t : Fin cfg0.N, ¬cond0_0 (grid0.coords t) → ¬cond0_1 (grid0.coords t) → (cfg0.win 7).flush t = false := by decide +kernel
/-- On the last tile the mean block is stored into. -/
theorem liveAt0_7_C : ∀ t : Fin cfg0.N, ¬cond0_0 (grid0.coords t) → cond0_1 (grid0.coords t) → cfg0.idle 7 (grid0.coords t) = false := by decide +kernel
/-- On the first tile the variance block is left alone. -/
theorem idleAt0_8_A : ∀ t : Fin cfg0.N, cond0_0 (grid0.coords t) → ¬cond0_1 (grid0.coords t) → cfg0.idle 8 (grid0.coords t) = true := by decide +kernel
/-- On the first tile the variance block is not written back. -/
theorem noFlush0_8_A : ∀ t : Fin cfg0.N, cond0_0 (grid0.coords t) → ¬cond0_1 (grid0.coords t) → (cfg0.win 8).flush t = false := by decide +kernel
/-- On a middle tile the variance block is left alone. -/
theorem idleAt0_8_B : ∀ t : Fin cfg0.N, ¬cond0_0 (grid0.coords t) → ¬cond0_1 (grid0.coords t) → cfg0.idle 8 (grid0.coords t) = true := by decide +kernel
/-- On a middle tile the variance block is not written back. -/
theorem noFlush0_8_B : ∀ t : Fin cfg0.N, ¬cond0_0 (grid0.coords t) → ¬cond0_1 (grid0.coords t) → (cfg0.win 8).flush t = false := by decide +kernel
/-- On the last tile the variance block is stored into. -/
theorem liveAt0_8_C : ∀ t : Fin cfg0.N, ¬cond0_0 (grid0.coords t) → cond0_1 (grid0.coords t) → cfg0.idle 8 (grid0.coords t) = false := by decide +kernel

/-! ## The buffers the body is handed -/

/-- A fixed buffer of the activations block's shape, through which the block's contents are read off
    a list of written pieces (which buffer of that shape is chosen makes no difference to what is read). -/
abbrev VO0_6 : View sig .tc .vmem S5000x64 .f32 := (Memref.whole cc0_stg6_0 : Memref sig .tc .vmem S5000x64 .f32).view
/-- The same for the mean block. -/
abbrev VO0_7 : View sig .tc .vmem S1x64 .f32 := (Memref.whole cc0_stg7_0 : Memref sig .tc .vmem S1x64 .f32).view
/-- The same for the variance block. -/
abbrev VO0_8 : View sig .tc .vmem S1x64 .f32 := (Memref.whole cc0_stg8_0 : Memref sig .tc .vmem S1x64 .f32).view

/-- The buffer holding each block on tile `t`, and the fact that it is a whole buffer. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)

/-- The running row of column sums `Σ z`: a whole buffer of the pass's own, kept from tile to tile. -/
abbrev scM0_0 : Memref sig .tc .vmem S1x64 .f32 := Memref.whole cc0_scratch0
/-- The running row of column sums of squares `Σ z²`, likewise. -/
abbrev scM0_1 : Memref sig .tc .vmem S1x64 .f32 := Memref.whole cc0_scratch1
/-- The two running rows as views: what they hold is stated through these. -/
abbrev VS0_0 : View sig .tc .vmem S1x64 .f32 := scM0_0.view
abbrev VS0_1 : View sig .tc .vmem S1x64 .f32 := scM0_1.view

/-- What the pass may use between tiles beside its blocks: the two running rows, each owned whole at
    some contents; every other scoped buffer of the program, kept closed as one conjunct; and the
    random-bit register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
            ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

/-! ## The body on the first tile -/

-- (the run's proof term is long; closing the definition walks all of it)
set_option maxHeartbeats 1000000 in
/-- FIRST TILE (the first-tile test holds, the last-tile test fails). Given the six inputs owned at
    their contents `x0 … x5`, the activations buffer and both running rows at anything, and the mean
    and variance buffers at contents `xi7`, `xi8`, the body ends with the inputs as they were, the
    mean and variance buffers still at `xi7`, `xi8`, and the activations buffer and the two running
    rows each holding a definite list of written pieces (latest first). The three lists are the
    data of this definition: `L6` for the activations, `LS0` for `Σ z` (zero, then zero plus the tile's
    column sums), `LS1` for `Σ z²` likewise. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on a middle tile -/

set_option maxHeartbeats 1000000 in
/-- A MIDDLE TILE (neither test holds). As on the first tile, except that the running rows come in
    owned at the contents `xs0`, `xs1` the tile before left and nothing zeroes them: `LS0` is one
    piece, `xs0` plus the tile's column sums, and `LS1` one piece, `xs1` plus the tile's column sums
    of squares. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on the last tile -/

set_option maxHeartbeats 1000000 in
/-- THE LAST TILE (the first-tile test fails, the last-tile test holds). The running rows come in at
    `xs0`, `xs1`; the mean and variance buffers may hold anything. The body accumulates as on a middle
    tile and then stores the mean, formed from the updated `Σ z`, and the variance, formed from the
    updated `Σ z` and `Σ z²`: beside `L6`, `LS0`, `LS1` there are now the piece lists `L7` of the mean
    buffer and `L8` of the variance buffer. -/
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (L7 : List (View.Piece (Elt F) S1x64 .f32)), Σ' (L8 : List (View.Piece (Elt F) S1x64 .f32)), Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KernelIdeal.Mlp0Dat.lean ====
import proofs.«144771_j36481452212846_1_alg».proof.Proof.KernelIdeal.Mlp0Runs

/-! # The first statistics pass: what every buffer holds, tile by tile

The body's three runs say, for one tile, which pieces each written buffer ends with. Here those
pieces are read back into contents, and the contents are followed along the ten tiles:

* the activations block after tile `t` is what that tile's run wrote;
* the running rows `Σ z` and `Σ z²` after tile `t` are what that tile's run wrote, which on every tile
  but the first was computed from what tile `t − 1` left in them — a recursion on `t`, started by
  the zeroing on tile 0;
* the mean and variance blocks get their contents on tile 9, from the running rows as tile 9
  leaves them; on the earlier tiles they are not touched.

From this the data the pipelined launch asks for are assembled: what each block's array holds on
entry (a parameter `V`, since other passes run before this one), what each block's buffer holds
after the body on each tile, and what is kept between tiles (before the first tile: the running
rows at anything; after tile `t`: the running rows at exactly what tile `t` left). -/

-- deciding membership in a block of 5000 rows walks the long axis one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One tile: the written pieces read back -/

/-! ### First tile -/

/-- On the first tile the pieces written into the activations block reach every entry of it: they are whole-block pieces, and one
    whole block is the block. -/
theorem cover0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (y : S5000x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y

/-- What the first tile leaves in the activations block: its written pieces read back (over contents that, the pieces covering
    everything, are never seen). -/
def out0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) : Vec F S5000x64 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- On the first tile nothing is stored into the mean block and nothing is written back from it; this entry of the record is
    a placeholder that no statement reads. -/
def out0_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) : Vec F S1x64 .f32 :=
  VO0_7.read (Elt F) VO0_7.junk

/-- On the first tile nothing is stored into the variance block and nothing is written back from it; this entry of the record is
    a placeholder that no statement reads. -/
def out0_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) : Vec F S1x64 .f32 :=
  VO0_8.read (Elt F) VO0_8.junk

/-- On the first tile the pieces written into the running row of sums reach every entry of it: they are whole-block pieces, and one
    whole block is the block. -/
theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y

/-- What the first tile leaves in the running row of sums: its written pieces read back (over contents that, the pieces covering
    everything, are never seen). -/
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- On the first tile the pieces written into the running row of sums of squares reach every entry of it: they are whole-block pieces, and one
    whole block is the block. -/
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y

/-- What the first tile leaves in the running row of sums of squares: its written pieces read back (over contents that, the pieces covering
    everything, are never seen). -/
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-! ### A middle tile -/

/-- On a middle tile the pieces written into the activations block reach every entry of it: they are whole-block pieces, and one
    whole block is the block. -/
theorem cover0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What a middle tile leaves in the activations block: its written pieces read back (over contents that, the pieces covering
    everything, are never seen). -/
def out0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S5000x64 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On a middle tile nothing is stored into the mean block and nothing is written back from it; this entry of the record is
    a placeholder that no statement reads. -/
def out0_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VO0_7.read (Elt F) VO0_7.junk

/-- On a middle tile nothing is stored into the variance block and nothing is written back from it; this entry of the record is
    a placeholder that no statement reads. -/
def out0_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VO0_8.read (Elt F) VO0_8.junk

/-- On a middle tile the pieces written into the running row of sums reach every entry of it: they are whole-block pieces, and one
    whole block is the block. -/
theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What a middle tile leaves in the running row of sums: its written pieces read back (over contents that, the pieces covering
    everything, are never seen). -/
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On a middle tile the pieces written into the running row of sums of squares reach every entry of it: they are whole-block pieces, and one
    whole block is the block. -/
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What a middle tile leaves in the running row of sums of squares: its written pieces read back (over contents that, the pieces covering
    everything, are never seen). -/
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-! ### Last tile -/

/-- On the last tile the pieces written into the activations block reach every entry of it: they are whole-block pieces, and one
    whole block is the block. -/
theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What the last tile leaves in the activations block: its written pieces read back (over contents that, the pieces covering
    everything, are never seen). -/
def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S5000x64 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On the last tile the pieces written into the mean block reach every entry of it: they are whole-block pieces, and one
    whole block is the block. -/
theorem cover0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What the last tile leaves in the mean block: its written pieces read back (over contents that, the pieces covering
    everything, are never seen). -/
def out0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On the last tile the pieces written into the variance block reach every entry of it: they are whole-block pieces, and one
    whole block is the block. -/
theorem cover0_C_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What the last tile leaves in the variance block: its written pieces read back (over contents that, the pieces covering
    everything, are never seen). -/
def out0_C_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- On the last tile the pieces written into the running row of sums reach every entry of it: they are whole-block pieces, and one
    whole block is the block. -/
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y

/-- What the last tile leaves in the running row of sums: its written pieces read back (over contents that, the pieces covering
    everything, are never seen). -/
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- On the last tile the pieces written into the running row of sums of squares reach every entry of it: they are whole-block pieces, and one
    whole block is the block. -/
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y

/-- What the last tile leaves in the running row of sums of squares: its written pieces read back (over contents that, the pieces covering
    everything, are never seen). -/
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## The ten tiles -/

-- what every buffer of the core holds when the pass is entered
variable (V : (c : Dev nD) → (b : Ref sig .tc) → Buf (Elt F) ((c : Thread nD τ).loc b))

/-- Block `w` at tile `t`: the part of the block's array, as `V` has it, that the block's index map
    selects there. For the node features and the aggregated messages this is row tile `t`; for the
    two weight matrices and the two bias rows it is the whole array at every `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- THE RECORD after tile `n`: (activations block, mean block, variance block, `Σ z`, `Σ z²`). Tile 0
    runs the first-tile case on that tile's blocks. Tile `n + 1` runs the last-tile case if it is
    tile 9 and the middle-tile case otherwise, on its own blocks and on the two running rows of the
    record after tile `n`. (Ten tiles: a tile after the first is never a multiple of ten, and the
    branches saying otherwise are empty.) -/
def outsAt0 (c : Dev nD) : (n : ℕ) → n < cfg0.N → Vec F S5000x64 .f32 × Vec F S1x64 .f32 × Vec F S1x64 .f32 × Vec F S1x64 .f32 × Vec F S1x64 .f32
  | 0, hn =>
    (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 10 = 0 then
      False.elim (by have hN : n + 1 < 10 := lt_of_lt_of_eq hn (show cfg0.N = 10 from N_0); omega)
    else
      if h1 : (n + 1) % 10 = 9 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)

/-- The record at the first tile. -/
theorem outsAt0_A (c : Dev nD) (t : Fin cfg0.N) (h0 : t.val % 10 = 0) (h1 : ¬t.val % 10 = 9) :
    outsAt0 V c t.val t.isLt =
      (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (by exfalso; have hN : n + 1 < 10 := lt_of_lt_of_eq hn (show cfg0.N = 10 from N_0); (try dsimp only at h0); omega)

/-- The record at a middle tile, over the record of the tile before. -/
theorem outsAt0_B (c : Dev nD) (t : Fin cfg0.N) (h0 : ¬t.val % 10 = 0) (h1 : ¬t.val % 10 = 9) :
    outsAt0 V c t.val t.isLt =
      (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- The record at the last tile, over the record of the tile before. -/
theorem outsAt0_C (c : Dev nD) (t : Fin cfg0.N) (h0 : ¬t.val % 10 = 0) (h1 : t.val % 10 = 9) :
    outsAt0 V c t.val t.isLt =
      (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## What is kept between tiles -/

/-- Before tile `n`. Before the first tile: what any pass of this kind may assume (both running rows
    at anything). Before tile `n + 1`: the running rows owned at exactly the two last entries of the
    record after tile `n`; the other scoped buffers of the program, closed; the random-bit register
    at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
        ∗ Pipeline.scopedRestBut (Ix := Unit) (Name := ℕ) (U := UR sig nD τ) (Lvl := ℕ) (Val := Elt F) spec0 c [cc0_scratch0, cc0_scratch1])
      ∗ (∃ r, prngReg c r))

theorem PhiS0_zero (c : Dev nD) (n : ℕ) (h : n ≤ cfg0.N) (hz : n = 0) : PhiS0 V c n h = Pipeline.ΦA spec0 c := by
  subst hz; rfl

/-- After tile `n`. -/
theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
        ∗ Pipeline.scopedRestBut (Ix := Unit) (Name := ℕ) (U := UR sig nD τ) (Lvl := ℕ) (Val := Elt F) spec0 c [cc0_scratch0, cc0_scratch1])
      ∗ (∃ r, prngReg c r)) := rfl

/-- Before a tile that is not the first: the running rows at what the tile before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
        ∗ Pipeline.scopedRestBut (Ix := Unit) (Name := ℕ) (U := UR sig nD τ) (Lvl := ℕ) (Val := Elt F) spec0 c [cc0_scratch0, cc0_scratch1])
      ∗ (∃ r, prngReg c r)) := by
  cases n with
  | zero => exact absurd rfl hz
  | succ n => rfl

/-! ## The data of the pipelined launch -/

/-- On core `c`: the arrays as the pass finds them (`V`); after the body on tile `t`, each input block's
    buffer still at its block, and the three output blocks' buffers at the first three entries of
    the record; between tiles, `PhiS0`; every share full; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

/-- The arrays of the data are `V`'s: the field projected. -/
theorem A_eq0 (c : Dev nD) (w : Fin cfg0.W) : (dat0 V c).A w = V c (Pipeline.arrRef spec0 w) := by
  dsimp only [dat0]

/-- What is kept before tile `t`, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- Before the first tile: what any pass of this kind may assume. -/
theorem Phi0_first (c : Dev nD) : (dat0 V c).Φ 0 = Pipeline.ΦA spec0 c := by
  rw [show (dat0 V c).Φ 0 = PhiS0 V c 0 (Nat.zero_le _) from rfl, PhiS0_zero V c 0 _ rfl]

/-! What the body leaves, block by block: the data's case split reduced at each literal block. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

end Cert.KernelIdeal.Hand

end
-- ==== Proof.KernelIdeal.Mlp0Obl.lean ====
import proofs.«144771_j36481452212846_1_alg».proof.Proof.KernelIdeal.Mlp0Dat

/-! # The first statistics pass: the body does on every tile what the data say

With the record of what each buffer holds after each tile in hand, it remains to check it against
the body, one tile at a time. On tile `t` the body is handed each block's buffer. An input block's
buffer holds that block whether or not it was fetched on this tile: the weights and biases are
fetched on tile 0 only, but their block never moves, and the body leaves them as it finds them. The
tile's number picks the case (0: first; 1 to 8: middle; 9: last); the running rows come in at
anything on tile 0 and at what tile `t − 1` left afterwards; the case's run then ends with every
buffer holding what the record says, because the pieces it writes cover each written buffer. The
mean and variance buffers, not touched before tile 9, go back as they came. After the last tile,
forgetting what the running rows hold gives back what the pass was entered with. -/

-- deciding membership in a block of 5000 rows walks the long axis one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what every buffer of the core holds when the pass is entered
variable (V : (c : Dev nD) → (b : Ref sig .tc) → Buf (Elt F) ((c : Thread nD τ).loc b))

/-! ## What the body finds in the input blocks

For any data whose array for input block `W` is `V`'s and whose body hands the block's buffer back
holding the block, the buffer holds block `t` on tile `t`, for every `t`: where the block was fetched
this is what the fetch wrote; where it was not, the block's index is the one of the tile before,
and the buffer, left alone, still holds it. None of these blocks is cut short at the array's edge
and none is ever out of use, which settles the side conditions by unfolding. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! The same for the data of this pass. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## One tile -/

/-- What the body is handed on tile `t`: what is kept between tiles, the ledger of owed signals, and
    each block's current buffer, whole, at what it holds before the body. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- What it must hand back: the same, each buffer at what the data say the body leaves there (for a
    block out of use on this tile and not written back: at what it held). -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body on tile `t` takes the one to the other. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 10 = 0
  · by_cases h1 : t.val % 10 = 9
    · exfalso; omega
    ·
      -- first tile
      have hz : t.val = 0 := by omega
      have hc0 : cond0_0 (grid0.coords t) := (hcond0_0 t).mpr h0
      have hc1 : ¬cond0_1 (grid0.coords t) := fun h => h1 ((hcond0_1 t).mp h)
      rw [Dat.leavesExact_idle (dat0 V c) 7 t (idleAt0_7_A t hc0 hc1) (noFlush0_7_A t hc0 hc1)]
      rw [Dat.leavesExact_idle (dat0 V c) 8 t (idleAt0_8_A t hc0 hc1) (noFlush0_8_A t hc0 hc1)]
      rw [outsAt0_A V c t h0 h1]
      unfold out0_A_6 sout0_A_0 sout0_A_1; (try dsimp only)
      rw [PhiS0_castSucc V c t, PhiS0_zero V c _ _ hz, PhiA0_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _)
      isplitl [H7]; · iexists _; iexact H7
      iexists _; iexact H8
  · by_cases h1 : t.val % 10 = 9
    ·
      -- last tile
      have hz : t.val ≠ 0 := by omega
      have hc0 : ¬cond0_0 (grid0.coords t) := fun h => h0 ((hcond0_0 t).mp h)
      have hc1 : cond0_1 (grid0.coords t) := (hcond0_1 t).mpr h1
      rw [show (dat0 V c).leavesExact 7 t = owns (c : Thread nD τ) (ms0_7 t) fullShare ((dat0 V c).after 7 t) from by
        unfold Dat.leavesExact; rw [liveAt0_7_C t hc0 hc1], after0_7]
      rw [show (dat0 V c).leavesExact 8 t = owns (c : Thread nD τ) (ms0_8 t) fullShare ((dat0 V c).after 8 t) from by
        unfold Dat.leavesExact; rw [liveAt0_8_C t hc0 hc1], after0_8]
      rw [outsAt0_C V c t h0 h1]
      unfold out0_C_6 out0_C_7 out0_C_8 sout0_C_0 sout0_C_1; (try dsimp only)
      rw [PhiS0_castSucc V c t, PhiS0_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    ·
      -- a middle tile
      have hz : t.val ≠ 0 := by omega
      have hc0 : ¬cond0_0 (grid0.coords t) := fun h => h0 ((hcond0_0 t).mp h)
      have hc1 : ¬cond0_1 (grid0.coords t) := fun h => h1 ((hcond0_1 t).mp h)
      rw [Dat.leavesExact_idle (dat0 V c) 7 t (idleAt0_7_B t hc0 hc1) (noFlush0_7_B t hc0 hc1)]
      rw [Dat.leavesExact_idle (dat0 V c) 8 t (idleAt0_8_B t hc0 hc1) (noFlush0_8_B t hc0 hc1)]
      rw [outsAt0_B V c t h0 h1]
      unfold out0_B_6 sout0_B_0 sout0_B_1; (try dsimp only)
      rw [PhiS0_castSucc V c t, PhiS0_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The obligation in the form the launch takes it: the conjunction over all nine blocks, spelled
    block by block, is the pair above. -/
theorem body_obligation0 (c : Dev nD) : BodyObligation (dat0 (F := F) V c) (defs₀ (F := F)) Variants.none () Set.univ := fun t => by
  rw [bigSep_W0, bigSep_W0]
  exact sound_body0 V c t

/-! ## Leaving the pass -/

/-- After any tile, forgetting what the two running rows hold gives back what a pass of this kind
    is entered with. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- In particular after the last tile. -/
theorem Phi0_last_ent (c : Dev nD) : (dat0 V c).Φ (Fin.last cfg0.N) ⊢ Pipeline.ΦA spec0 c :=
  Phi0_out V c _ (by rw [Fin.val_last]; have : cfg0.N = 10 := N_0; omega)

end Cert.KernelIdeal.Hand

end
-- ==== Proof.KernelIdeal.Bn1.lean ====
/-
  One region of @main: the batch-norm-and-ReLU pallas_call of a GIN layer (cc1__bn_relu_kernel, with the
  pipeline cfg1 that launches it), on its grid of ten row tiles.

  Everything here is stated at a PARAMETER V: what the TensorCore's buffers hold at the moment the region is
  entered. From V alone we say what each window's block is at each grid point, what the body leaves in the
  output tile (one store of the normalised, scaled, shifted and clamped tile, a closed function of the five
  input blocks), and we discharge the per-point obligation the pipelined launch asks of the body.

  The body belongs to the plainest class of pipeline bodies: it reads its five input tiles through whole-tile
  rectangles, reads (and ignores) what the output tile held, writes the output tile once through a whole-tile
  rectangle, and keeps nothing between grid points. Four of the five inputs (variance, mean, scale, shift: one
  row of 64 each) have a block index that never moves, so the pipeline fetches them only at the first point;
  at later points their staging buffers still hold the same block, which is what the body needs.
-/
import proofs.«144771_j36481452212846_1_alg».proof.Proof.Gen.KernelIdeal.Launch
import proofs.«144771_j36481452212846_1_alg».proof.Proof.Gen.KernelIdeal.Skeleton
import proofs.«144771_j36481452212846_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle of 5000 rows walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what every TensorCore buffer holds when the region is entered
variable (V : (c : Dev nD) → (b : Ref sig .tc) → Buf (Elt F) ((c : Thread nD τ).loc b))

/-! ## Blocks of the windows -/

/-- The block of window w at grid point t: the part of the window's array, as V has it, that the window's index
    map selects at t. For window 0 and window 5 this is row tile t of a 50000x64 array; for windows 1 to 4 it is
    the whole 1x64 row at every t. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body finds in the input windows

  For proof data whose array for window W is V's and whose body hands window W back holding its block, the
  current staging buffer of W holds block t at point t, for every t. Where the pipeline fetched at t this is
  what the fetch wrote; where it did not (windows 1 to 4 after the first point) the block index at t equals the
  one at t-1, so the buffer, left alone by the body, still holds the right block. The windows are never cut
  and never idle, which settles the side conditions by unfolding. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

/-- The whole 5000x64 tile. -/
abbrev r1_0 : Rect S5000x64 := Rect.unit (s := S5000x64) ![0, 0] S5000x64.size inb_S5000x64_S5000x64_0_0
/-- The whole 1x64 row. -/
abbrev r1_1 : Rect S1x64 := Rect.unit (s := S1x64) ![0, 0] S1x64.size inb_S1x64_S1x64_0_0

/-! ## The output tile after the body -/

/-- What the output window's staging buffer holds once the body has run, given the five input blocks
    (x0 the tile of pre-activations, x1 the mean row, x2 the variance row, x3 the scale row, x4 the shift row):
    the body's single store, over the whole tile, of max((x0 - x1) * rsqrt(x2 + eps) * x3 + x4, 0), the rows
    broadcast down the tile. The payload lists the values in the order the body reads them, and the body reads
    the variance row before the mean row; hence x2 stands before x1 below. -/
def out1_5 (x0 : Vec F S5000x64 .f32) (x1 x2 x3 x4 : Vec F S1x64 .f32) : Vec F S5000x64 .f32 :=
  View.canon [⟨r1_0, k1_pay1 (View.ld x0 r1_0) (View.ld x2 r1_1) (View.ld x1 r1_1) (View.ld x3 r1_1) (View.ld x4 r1_1)⟩]

/-- A single whole-tile piece covers the tile: one block of the tile's own size tiles it. -/
theorem cover1_5 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body on its six staging buffers -/

set_option maxHeartbeats 1000000 in
/-- Run on six whole staging buffers, the five inputs reading x0 … x4 and the output holding anything, the body
    ends with the inputs unchanged and the output reading out1_5 x0 … x4. The printed function is a sequence of
    five whole-buffer loads, one more load (of the output buffer, whose value nothing uses), and one whole-buffer
    store; symbolic execution walks it, and the store, covering the tile, leaves the canonical contents of its
    one piece whatever the output held before. -/
theorem sound_kernel1 (c : Dev nD) (E : Set ℕ) (i : grid1.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data of the pipeline -/

/-- The proof data of this region's pipeline (cfg1) on core c. The arrays are what the region finds (V). After the body at point t every
    input window's buffer still holds its block, and the output window's holds out1_5 of the five input blocks.
    The invariant carried from point to point is the plain one (the scoped rest and the generator register,
    neither touched); every share is the full one; no signal is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The arrays of the proof data are V's: the field projected. -/
theorem A_eq1 (c : Dev nD) (w : Fin cfg1.W) : (dat1 V c).A w = V c (Pipeline.arrRef spec1 w) := by
  dsimp only [dat1]

/-! What the body leaves, one window at a time: the case split of the definition reduced at each literal window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! What the body finds in each input window, for this proof data: its block, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The obligation of the body at a grid point -/

/-- What the launch hands the body at point t: the invariant, the ledger of owed signals, and each window's current
    staging buffer, whole, holding what that window holds before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the launch wants back: the same, each buffer now holding what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at point t takes the one to the other. Each input buffer holds its block (before1_W), so the triple
    of the body applies with the blocks for x0 … x4; the invariant and the ledger are neither read nor changed,
    and do not depend on the point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation in the form the launch theorem takes it: the conjunction over all windows, spelled window by
    window, is the pre- and postcondition above. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Mlp2Runs.lean ====
import proofs.«144771_j36481452212846_1_alg».proof.Proof.Gen.KernelIdeal.Launch
import proofs.«144771_j36481452212846_1_alg».proof.Proof.Gen.KernelIdeal.Skeleton
import proofs.«144771_j36481452212846_1_alg».proof.Proof.Gen.KernelIdeal.Points
import Idealize.ShloMosaic.Lib.Pipeline.FrameBody
import Idealize.ShloMosaic.Lib.Ring
import Idealize.ShloMosaic.Lib.Tactic

/-! # The first statistics pass: what its ten tiles share, and its body in the three ways it runs

The pass walks the node rows in ten tiles of 5000. On each tile it forms the tile's linear
activations `z = relu((h + agg) · W₁ + b₁) · W₂ + b₂`, writes them out, and adds the tile's column
sums `Σ z` and column sums of squares `Σ z²` to two running rows that live from tile to tile. The
running rows are set to zero on the first tile; on the last tile the column mean `Σ z / n` and the
column variance `Σ z² / n − mean²` are formed from them and written out. So the body does one of
three things, told apart by the tile's number alone:

* first tile: zero both running rows, then accumulate;
* a middle tile: accumulate onto what the tile before left;
* last tile: accumulate, then emit mean and variance.

This file fixes the two tests on the tile number and decides where over the ten tiles they hold,
records on which tiles the mean and variance blocks are touched at all, names the buffers the body
is handed, and then runs the body once for each of the three cases: from the inputs' contents (and,
after the first tile, the running rows' contents) to the exact list of pieces each written buffer
ends with. -/

-- deciding membership in a block of 5000 rows walks the long axis one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two tests on the tile number -/

/-- "This is the first tile": the tile number compared with 0, widened to a word and tested against
    zero, exactly as the body computes it before it zeroes the running rows. -/
abbrev cond2_0 (i : grid2.Coords) : Prop := (Scalar.cmpi .ne (Scalar.extui (Scalar.cmpi .eq (BitVec.ofNat 32 (i 0).val) 0#32)) 0#32) = 1#1
/-- Over the ten tiles it holds at tile 0 and nowhere else. -/
theorem hcond2_0 : ∀ t : Fin cfg2.N, cond2_0 (grid2.coords t) ↔ t.val % 10 = 0 :=
  (by decide +kernel : ∀ t : Fin grid2.N, cond2_0 (grid2.coords t) ↔ t.val % 10 = 0)

/-- "This is the last tile": the tile number compared with 9, the test guarding the emission of mean
    and variance. -/
abbrev cond2_1 (i : grid2.Coords) : Prop := k2_cond2 i = 1#1
/-- Over the ten tiles it holds at tile 9 and nowhere else. -/
theorem hcond2_1 : ∀ t : Fin cfg2.N, cond2_1 (grid2.coords t) ↔ t.val % 10 = 9 :=
  (by decide +kernel : ∀ t : Fin grid2.N, cond2_1 (grid2.coords t) ↔ t.val % 10 = 9)

/-! ## On which tiles each block is touched

The six inputs and the activations block are in use on every tile. The mean block and the variance
block are stored into on the last tile only: on every earlier tile the body leaves them alone and
nothing is written back from them. -/

/-- Block 0 is in use on every tile. -/
theorem liveAt2_0 : ∀ t : Fin cfg2.N, cfg2.idle 0 (grid2.coords t) = false := by decide +kernel
/-- Block 1 is in use on every tile. -/
theorem liveAt2_1 : ∀ t : Fin cfg2.N, cfg2.idle 1 (grid2.coords t) = false := by decide +kernel
/-- Block 2 is in use on every tile. -/
theorem liveAt2_2 : ∀ t : Fin cfg2.N, cfg2.idle 2 (grid2.coords t) = false := by decide +kernel
/-- Block 3 is in use on every tile. -/
theorem liveAt2_3 : ∀ t : Fin cfg2.N, cfg2.idle 3 (grid2.coords t) = false := by decide +kernel
/-- Block 4 is in use on every tile. -/
theorem liveAt2_4 : ∀ t : Fin cfg2.N, cfg2.idle 4 (grid2.coords t) = false := by decide +kernel
/-- Block 5 is in use on every tile. -/
theorem liveAt2_5 : ∀ t : Fin cfg2.N, cfg2.idle 5 (grid2.coords t) = false := by decide +kernel
/-- Block 6 is in use on every tile. -/
theorem liveAt2_6 : ∀ t : Fin cfg2.N, cfg2.idle 6 (grid2.coords t) = false := by decide +kernel
/-- On the first tile the mean block is left alone. -/
theorem idleAt2_7_A : ∀ t : Fin cfg2.N, cond2_0 (grid2.coords t) → ¬cond2_1 (grid2.coords t) → cfg2.idle 7 (grid2.coords t) = true := by decide +kernel
/-- On the first tile the mean block is not written back. -/
theorem noFlush2_7_A : ∀ t : Fin cfg2.N, cond2_0 (grid2.coords t) → ¬cond2_1 (grid2.coords t) → (cfg2.win 7).flush t = false := by decide +kernel
/-- On a middle tile the mean block is left alone. -/
theorem idleAt2_7_B : ∀ t : Fin cfg2.N, ¬cond2_0 (grid2.coords t) → ¬cond2_1 (grid2.coords t) → cfg2.idle 7 (grid2.coords t) = true := by decide +kernel
/-- On a middle tile the mean block is not written back. -/
theorem noFlush2_7_B : ∀ t : Fin cfg2.N, ¬cond2_0 (grid2.coords t) → ¬cond2_1 (grid2.coords t) → (cfg2.win 7).flush t = false := by decide +kernel
/-- On the last tile the mean block is stored into. -/
theorem liveAt2_7_C : ∀ t : Fin cfg2.N, ¬cond2_0 (grid2.coords t) → cond2_1 (grid2.coords t) → cfg2.idle 7 (grid2.coords t) = false := by decide +kernel
/-- On the first tile the variance block is left alone. -/
theorem idleAt2_8_A : ∀ t : Fin cfg2.N, cond2_0 (grid2.coords t) → ¬cond2_1 (grid2.coords t) → cfg2.idle 8 (grid2.coords t) = true := by decide +kernel
/-- On the first tile the variance block is not written back. -/
theorem noFlush2_8_A : ∀ t : Fin cfg2.N, cond2_0 (grid2.coords t) → ¬cond2_1 (grid2.coords t) → (cfg2.win 8).flush t = false := by decide +kernel
/-- On a middle tile the variance block is left alone. -/
theorem idleAt2_8_B : ∀ t : Fin cfg2.N, ¬cond2_0 (grid2.coords t) → ¬cond2_1 (grid2.coords t) → cfg2.idle 8 (grid2.coords t) = true := by decide +kernel
/-- On a middle tile the variance block is not written back. -/
theorem noFlush2_8_B : ∀ t : Fin cfg2.N, ¬cond2_0 (grid2.coords t) → ¬cond2_1 (grid2.coords t) → (cfg2.win 8).flush t = false := by decide +kernel
/-- On the last tile the variance block is stored into. -/
theorem liveAt2_8_C : ∀ t : Fin cfg2.N, ¬cond2_0 (grid2.coords t) → cond2_1 (grid2.coords t) → cfg2.idle 8 (grid2.coords t) = false := by decide +kernel

/-! ## The buffers the body is handed -/

/-- A fixed buffer of the activations block's shape, through which the block's contents are read off
    a list of written pieces (which buffer of that shape is chosen makes no difference to what is read). -/
abbrev VO2_6 : View sig .tc .vmem S5000x64 .f32 := (Memref.whole cc2_stg6_0 : Memref sig .tc .vmem S5000x64 .f32).view
/-- The same for the mean block. -/
abbrev VO2_7 : View sig .tc .vmem S1x64 .f32 := (Memref.whole cc2_stg7_0 : Memref sig .tc .vmem S1x64 .f32).view
/-- The same for the variance block. -/
abbrev VO2_8 : View sig .tc .vmem S1x64 .f32 := (Memref.whole cc2_stg8_0 : Memref sig .tc .vmem S1x64 .f32).view

/-- The buffer holding each block on tile `t`, and the fact that it is a whole buffer. -/
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x64 .f32 := win2_8.stage (cfg2.slots t 8)
abbrev hs2_8 (t : Fin cfg2.N) : (ms2_8 t).IsWhole := hstage2_8 ((cfg2.slots t 8).cast nbuf2_8)

/-- The running row of column sums `Σ z`: a whole buffer of the pass's own, kept from tile to tile. -/
abbrev scM2_0 : Memref sig .tc .vmem S1x64 .f32 := Memref.whole cc2_scratch0
/-- The running row of column sums of squares `Σ z²`, likewise. -/
abbrev scM2_1 : Memref sig .tc .vmem S1x64 .f32 := Memref.whole cc2_scratch1
/-- The two running rows as views: what they hold is stated through these. -/
abbrev VS2_0 : View sig .tc .vmem S1x64 .f32 := scM2_0.view
abbrev VS2_1 : View sig .tc .vmem S1x64 .f32 := scM2_1.view

/-- What the pass may use between tiles beside its blocks: the two running rows, each owned whole at
    some contents; every other scoped buffer of the program, kept closed as one conjunct; and the
    random-bit register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
            ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

/-! ## The body on the first tile -/

-- (the run's proof term is long; closing the definition walks all of it)
set_option maxHeartbeats 1000000 in
/-- FIRST TILE (the first-tile test holds, the last-tile test fails). Given the six inputs owned at
    their contents `x0 … x5`, the activations buffer and both running rows at anything, and the mean
    and variance buffers at contents `xi7`, `xi8`, the body ends with the inputs as they were, the
    mean and variance buffers still at `xi7`, `xi8`, and the activations buffer and the two running
    rows each holding a definite list of written pieces (latest first). The three lists are the
    data of this definition: `L6` for the activations, `LS0` for `Σ z` (zero, then zero plus the tile's
    column sums), `LS1` for `Σ z²` likewise. -/
noncomputable def kernelRun2_A (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on a middle tile -/

set_option maxHeartbeats 1000000 in
/-- A MIDDLE TILE (neither test holds). As on the first tile, except that the running rows come in
    owned at the contents `xs0`, `xs1` the tile before left and nothing zeroes them: `LS0` is one
    piece, `xs0` plus the tile's column sums, and `LS1` one piece, `xs1` plus the tile's column sums
    of squares. -/
noncomputable def kernelRun2_B (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on the last tile -/

set_option maxHeartbeats 1000000 in
/-- THE LAST TILE (the first-tile test fails, the last-tile test holds). The running rows come in at
    `xs0`, `xs1`; the mean and variance buffers may hold anything. The body accumulates as on a middle
    tile and then stores the mean, formed from the updated `Σ z`, and the variance, formed from the
    updated `Σ z` and `Σ z²`: beside `L6`, `LS0`, `LS1` there are now the piece lists `L7` of the mean
    buffer and `L8` of the variance buffer. -/
noncomputable def kernelRun2_C (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (L7 : List (View.Piece (Elt F) S1x64 .f32)), Σ' (L8 : List (View.Piece (Elt F) S1x64 .f32)), Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KernelIdeal.Mlp2Dat.lean ====
import proofs.«144771_j36481452212846_1_alg».proof.Proof.KernelIdeal.Mlp2Runs

/-! # The first statistics pass: what every buffer holds, tile by tile

The body's three runs say, for one tile, which pieces each written buffer ends with. Here those
pieces are read back into contents, and the contents are followed along the ten tiles:

* the activations block after tile `t` is what that tile's run wrote;
* the running rows `Σ z` and `Σ z²` after tile `t` are what that tile's run wrote, which on every tile
  but the first was computed from what tile `t − 1` left in them — a recursion on `t`, started by
  the zeroing on tile 0;
* the mean and variance blocks get their contents on tile 9, from the running rows as tile 9
  leaves them; on the earlier tiles they are not touched.

From this the data the pipelined launch asks for are assembled: what each block's array holds on
entry (a parameter `V`, since other passes run before this one), what each block's buffer holds
after the body on each tile, and what is kept between tiles (before the first tile: the running
rows at anything; after tile `t`: the running rows at exactly what tile `t` left). -/

-- deciding membership in a block of 5000 rows walks the long axis one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One tile: the written pieces read back -/

/-! ### First tile -/

/-- On the first tile the pieces written into the activations block reach every entry of it: they are whole-block pieces, and one
    whole block is the block. -/
theorem cover2_A_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (y : S5000x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y

/-- What the first tile leaves in the activations block: its written pieces read back (over contents that, the pieces covering
    everything, are never seen). -/
def out2_A_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)

/-- On the first tile nothing is stored into the mean block and nothing is written back from it; this entry of the record is
    a placeholder that no statement reads. -/
def out2_A_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VO2_7.read (Elt F) VO2_7.junk

/-- On the first tile nothing is stored into the variance block and nothing is written back from it; this entry of the record is
    a placeholder that no statement reads. -/
def out2_A_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VO2_8.read (Elt F) VO2_8.junk

/-- On the first tile the pieces written into the running row of sums reach every entry of it: they are whole-block pieces, and one
    whole block is the block. -/
theorem scover2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y

/-- What the first tile leaves in the running row of sums: its written pieces read back (over contents that, the pieces covering
    everything, are never seen). -/
def sout2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- On the first tile the pieces written into the running row of sums of squares reach every entry of it: they are whole-block pieces, and one
    whole block is the block. -/
theorem scover2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y

/-- What the first tile leaves in the running row of sums of squares: its written pieces read back (over contents that, the pieces covering
    everything, are never seen). -/
def sout2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-! ### A middle tile -/

/-- On a middle tile the pieces written into the activations block reach every entry of it: they are whole-block pieces, and one
    whole block is the block. -/
theorem cover2_B_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What a middle tile leaves in the activations block: its written pieces read back (over contents that, the pieces covering
    everything, are never seen). -/
def out2_B_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On a middle tile nothing is stored into the mean block and nothing is written back from it; this entry of the record is
    a placeholder that no statement reads. -/
def out2_B_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO2_7.read (Elt F) VO2_7.junk

/-- On a middle tile nothing is stored into the variance block and nothing is written back from it; this entry of the record is
    a placeholder that no statement reads. -/
def out2_B_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO2_8.read (Elt F) VO2_8.junk

/-- On a middle tile the pieces written into the running row of sums reach every entry of it: they are whole-block pieces, and one
    whole block is the block. -/
theorem scover2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What a middle tile leaves in the running row of sums: its written pieces read back (over contents that, the pieces covering
    everything, are never seen). -/
def sout2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On a middle tile the pieces written into the running row of sums of squares reach every entry of it: they are whole-block pieces, and one
    whole block is the block. -/
theorem scover2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What a middle tile leaves in the running row of sums of squares: its written pieces read back (over contents that, the pieces covering
    everything, are never seen). -/
def sout2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-! ### Last tile -/

/-- On the last tile the pieces written into the activations block reach every entry of it: they are whole-block pieces, and one
    whole block is the block. -/
theorem cover2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What the last tile leaves in the activations block: its written pieces read back (over contents that, the pieces covering
    everything, are never seen). -/
def out2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On the last tile the pieces written into the mean block reach every entry of it: they are whole-block pieces, and one
    whole block is the block. -/
theorem cover2_C_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What the last tile leaves in the mean block: its written pieces read back (over contents that, the pieces covering
    everything, are never seen). -/
def out2_C_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On the last tile the pieces written into the variance block reach every entry of it: they are whole-block pieces, and one
    whole block is the block. -/
theorem cover2_C_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What the last tile leaves in the variance block: its written pieces read back (over contents that, the pieces covering
    everything, are never seen). -/
def out2_C_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- On the last tile the pieces written into the running row of sums reach every entry of it: they are whole-block pieces, and one
    whole block is the block. -/
theorem scover2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y

/-- What the last tile leaves in the running row of sums: its written pieces read back (over contents that, the pieces covering
    everything, are never seen). -/
def sout2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- On the last tile the pieces written into the running row of sums of squares reach every entry of it: they are whole-block pieces, and one
    whole block is the block. -/
theorem scover2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y

/-- What the last tile leaves in the running row of sums of squares: its written pieces read back (over contents that, the pieces covering
    everything, are never seen). -/
def sout2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## The ten tiles -/

-- what every buffer of the core holds when the pass is entered
variable (V : (c : Dev nD) → (b : Ref sig .tc) → Buf (Elt F) ((c : Thread nD τ).loc b))

/-- Block `w` at tile `t`: the part of the block's array, as `V` has it, that the block's index map
    selects there. For the node features and the aggregated messages this is row tile `t`; for the
    two weight matrices and the two bias rows it is the whole array at every `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- THE RECORD after tile `n`: (activations block, mean block, variance block, `Σ z`, `Σ z²`). Tile 0
    runs the first-tile case on that tile's blocks. Tile `n + 1` runs the last-tile case if it is
    tile 9 and the middle-tile case otherwise, on its own blocks and on the two running rows of the
    record after tile `n`. (Ten tiles: a tile after the first is never a multiple of ten, and the
    branches saying otherwise are empty.) -/
def outsAt2 (c : Dev nD) : (n : ℕ) → n < cfg2.N → Vec F S5000x64 .f32 × Vec F S1x64 .f32 × Vec F S1x64 .f32 × Vec F S1x64 .f32 × Vec F S1x64 .f32
  | 0, hn =>
    (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 10 = 0 then
      False.elim (by have hN : n + 1 < 10 := lt_of_lt_of_eq hn (show cfg2.N = 10 from N_2); omega)
    else
      if h1 : (n + 1) % 10 = 9 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

/-- The record at the first tile. -/
theorem outsAt2_A (c : Dev nD) (t : Fin cfg2.N) (h0 : t.val % 10 = 0) (h1 : ¬t.val % 10 = 9) :
    outsAt2 V c t.val t.isLt =
      (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (by exfalso; have hN : n + 1 < 10 := lt_of_lt_of_eq hn (show cfg2.N = 10 from N_2); (try dsimp only at h0); omega)

/-- The record at a middle tile, over the record of the tile before. -/
theorem outsAt2_B (c : Dev nD) (t : Fin cfg2.N) (h0 : ¬t.val % 10 = 0) (h1 : ¬t.val % 10 = 9) :
    outsAt2 V c t.val t.isLt =
      (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- The record at the last tile, over the record of the tile before. -/
theorem outsAt2_C (c : Dev nD) (t : Fin cfg2.N) (h0 : ¬t.val % 10 = 0) (h1 : t.val % 10 = 9) :
    outsAt2 V c t.val t.isLt =
      (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## What is kept between tiles -/

/-- Before tile `n`. Before the first tile: what any pass of this kind may assume (both running rows
    at anything). Before tile `n + 1`: the running rows owned at exactly the two last entries of the
    record after tile `n`; the other scoped buffers of the program, closed; the random-bit register
    at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
        ∗ Pipeline.scopedRestBut (Ix := Unit) (Name := ℕ) (U := UR sig nD τ) (Lvl := ℕ) (Val := Elt F) spec2 c [cc2_scratch0, cc2_scratch1])
      ∗ (∃ r, prngReg c r))

theorem PhiS2_zero (c : Dev nD) (n : ℕ) (h : n ≤ cfg2.N) (hz : n = 0) : PhiS2 V c n h = Pipeline.ΦA spec2 c := by
  subst hz; rfl

/-- After tile `n`. -/
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
        ∗ Pipeline.scopedRestBut (Ix := Unit) (Name := ℕ) (U := UR sig nD τ) (Lvl := ℕ) (Val := Elt F) spec2 c [cc2_scratch0, cc2_scratch1])
      ∗ (∃ r, prngReg c r)) := rfl

/-- Before a tile that is not the first: the running rows at what the tile before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
        ∗ Pipeline.scopedRestBut (Ix := Unit) (Name := ℕ) (U := UR sig nD τ) (Lvl := ℕ) (Val := Elt F) spec2 c [cc2_scratch0, cc2_scratch1])
      ∗ (∃ r, prngReg c r)) := by
  cases n with
  | zero => exact absurd rfl hz
  | succ n => rfl

/-! ## The data of the pipelined launch -/

/-- On core `c`: the arrays as the pass finds them (`V`); after the body on tile `t`, each input block's
    buffer still at its block, and the three output blocks' buffers at the first three entries of
    the record; between tiles, `PhiS2`; every share full; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

/-- The arrays of the data are `V`'s: the field projected. -/
theorem A_eq2 (c : Dev nD) (w : Fin cfg2.W) : (dat2 V c).A w = V c (Pipeline.arrRef spec2 w) := by
  dsimp only [dat2]

/-- What is kept before tile `t`, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- Before the first tile: what any pass of this kind may assume. -/
theorem Phi2_first (c : Dev nD) : (dat2 V c).Φ 0 = Pipeline.ΦA spec2 c := by
  rw [show (dat2 V c).Φ 0 = PhiS2 V c 0 (Nat.zero_le _) from rfl, PhiS2_zero V c 0 _ rfl]

/-! What the body leaves, block by block: the data's case split reduced at each literal block. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]

end Cert.KernelIdeal.Hand

end
-- ==== Proof.KernelIdeal.Mlp2Obl.lean ====
import proofs.«144771_j36481452212846_1_alg».proof.Proof.KernelIdeal.Mlp2Dat

/-! # The first statistics pass: the body does on every tile what the data say

With the record of what each buffer holds after each tile in hand, it remains to check it against
the body, one tile at a time. On tile `t` the body is handed each block's buffer. An input block's
buffer holds that block whether or not it was fetched on this tile: the weights and biases are
fetched on tile 0 only, but their block never moves, and the body leaves them as it finds them. The
tile's number picks the case (0: first; 1 to 8: middle; 9: last); the running rows come in at
anything on tile 0 and at what tile `t − 1` left afterwards; the case's run then ends with every
buffer holding what the record says, because the pieces it writes cover each written buffer. The
mean and variance buffers, not touched before tile 9, go back as they came. After the last tile,
forgetting what the running rows hold gives back what the pass was entered with. -/

-- deciding membership in a block of 5000 rows walks the long axis one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what every buffer of the core holds when the pass is entered
variable (V : (c : Dev nD) → (b : Ref sig .tc) → Buf (Elt F) ((c : Thread nD τ).loc b))

/-! ## What the body finds in the input blocks

For any data whose array for input block `W` is `V`'s and whose body hands the block's buffer back
holding the block, the buffer holds block `t` on tile `t`, for every `t`: where the block was fetched
this is what the fetch wrote; where it was not, the block's index is the one of the tile before,
and the buffer, left alone, still holds it. None of these blocks is cut short at the array's edge
and none is ever out of use, which settles the side conditions by unfolding. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! The same for the data of this pass. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## One tile -/

/-- What the body is handed on tile `t`: what is kept between tiles, the ledger of owed signals, and
    each block's current buffer, whole, at what it holds before the body. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- What it must hand back: the same, each buffer at what the data say the body leaves there (for a
    block out of use on this tile and not written back: at what it held). -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body on tile `t` takes the one to the other. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  by_cases h0 : t.val % 10 = 0
  · by_cases h1 : t.val % 10 = 9
    · exfalso; omega
    ·
      -- first tile
      have hz : t.val = 0 := by omega
      have hc0 : cond2_0 (grid2.coords t) := (hcond2_0 t).mpr h0
      have hc1 : ¬cond2_1 (grid2.coords t) := fun h => h1 ((hcond2_1 t).mp h)
      rw [Dat.leavesExact_idle (dat2 V c) 7 t (idleAt2_7_A t hc0 hc1) (noFlush2_7_A t hc0 hc1)]
      rw [Dat.leavesExact_idle (dat2 V c) 8 t (idleAt2_8_A t hc0 hc1) (noFlush2_8_A t hc0 hc1)]
      rw [outsAt2_A V c t h0 h1]
      unfold out2_A_6 sout2_A_0 sout2_A_1; (try dsimp only)
      rw [PhiS2_castSucc V c t, PhiS2_zero V c _ _ hz, PhiA2_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_A c (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_A_1 c _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_A_6 c _ _ _ _ _ _ _ _ _ _ _ _ _ _ _ _ _ _ _ _ _ _ _ _ _ _ _ _ _ _ _)
      isplitl [H7]; · iexists _; iexact H7
      iexists _; iexact H8
  · by_cases h1 : t.val % 10 = 9
    ·
      -- last tile
      have hz : t.val ≠ 0 := by omega
      have hc0 : ¬cond2_0 (grid2.coords t) := fun h => h0 ((hcond2_0 t).mp h)
      have hc1 : cond2_1 (grid2.coords t) := (hcond2_1 t).mpr h1
      rw [show (dat2 V c).leavesExact 7 t = owns (c : Thread nD τ) (ms2_7 t) fullShare ((dat2 V c).after 7 t) from by
        unfold Dat.leavesExact; rw [liveAt2_7_C t hc0 hc1], after2_7]
      rw [show (dat2 V c).leavesExact 8 t = owns (c : Thread nD τ) (ms2_8 t) fullShare ((dat2 V c).after 8 t) from by
        unfold Dat.leavesExact; rw [liveAt2_8_C t hc0 hc1], after2_8]
      rw [outsAt2_C V c t h0 h1]
      unfold out2_C_6 out2_C_7 out2_C_8 sout2_C_0 sout2_C_1; (try dsimp only)
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _)
    ·
      -- a middle tile
      have hz : t.val ≠ 0 := by omega
      have hc0 : ¬cond2_0 (grid2.coords t) := fun h => h0 ((hcond2_0 t).mp h)
      have hc1 : ¬cond2_1 (grid2.coords t) := fun h => h1 ((hcond2_1 t).mp h)
      rw [Dat.leavesExact_idle (dat2 V c) 7 t (idleAt2_7_B t hc0 hc1) (noFlush2_7_B t hc0 hc1)]
      rw [Dat.leavesExact_idle (dat2 V c) 8 t (idleAt2_8_B t hc0 hc1) (noFlush2_8_B t hc0 hc1)]
      rw [outsAt2_B V c t h0 h1]
      unfold out2_B_6 sout2_B_0 sout2_B_1; (try dsimp only)
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _)
      isplitl [H7]; · iexists _; iexact H7
      iexists _; iexact H8

/-- The obligation in the form the launch takes it: the conjunction over all nine blocks, spelled
    block by block, is the pair above. -/
theorem body_obligation2 (c : Dev nD) : BodyObligation (dat2 (F := F) V c) (defs₀ (F := F)) Variants.none () Set.univ := fun t => by
  rw [bigSep_W2, bigSep_W2]
  exact sound_body2 V c t

/-! ## Leaving the pass -/

/-- After any tile, forgetting what the two running rows hold gives back what a pass of this kind
    is entered with. -/
theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- In particular after the last tile. -/
theorem Phi2_last_ent (c : Dev nD) : (dat2 V c).Φ (Fin.last cfg2.N) ⊢ Pipeline.ΦA spec2 c :=
  Phi2_out V c _ (by rw [Fin.val_last]; have : cfg2.N = 10 := N_2; omega)

end Cert.KernelIdeal.Hand

end
-- ==== Proof.KernelIdeal.Bn3.lean ====
/-
  One region of @main: the batch-norm-and-ReLU pallas_call of a GIN layer (cc3__bn_relu_kernel, with the
  pipeline cfg3 that launches it), on its grid of ten row tiles.

  Everything here is stated at a PARAMETER V: what the TensorCore's buffers hold at the moment the region is
  entered. From V alone we say what each window's block is at each grid point, what the body leaves in the
  output tile (one store of the normalised, scaled, shifted and clamped tile, a closed function of the five
  input blocks), and we discharge the per-point obligation the pipelined launch asks of the body.

  The body belongs to the plainest class of pipeline bodies: it reads its five input tiles through whole-tile
  rectangles, reads (and ignores) what the output tile held, writes the output tile once through a whole-tile
  rectangle, and keeps nothing between grid points. Four of the five inputs (variance, mean, scale, shift: one
  row of 64 each) have a block index that never moves, so the pipeline fetches them only at the first point;
  at later points their staging buffers still hold the same block, which is what the body needs.
-/
import proofs.«144771_j36481452212846_1_alg».proof.Proof.Gen.KernelIdeal.Launch
import proofs.«144771_j36481452212846_1_alg».proof.Proof.Gen.KernelIdeal.Skeleton
import proofs.«144771_j36481452212846_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle of 5000 rows walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what every TensorCore buffer holds when the region is entered
variable (V : (c : Dev nD) → (b : Ref sig .tc) → Buf (Elt F) ((c : Thread nD τ).loc b))

/-! ## Blocks of the windows -/

/-- The block of window w at grid point t: the part of the window's array, as V has it, that the window's index
    map selects at t. For window 0 and window 5 this is row tile t of a 50000x64 array; for windows 1 to 4 it is
    the whole 1x64 row at every t. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What the body finds in the input windows

  For proof data whose array for window W is V's and whose body hands window W back holding its block, the
  current staging buffer of W holds block t at point t, for every t. Where the pipeline fetched at t this is
  what the fetch wrote; where it did not (windows 1 to 4 after the first point) the block index at t equals the
  one at t-1, so the buffer, left alone by the body, still holds the right block. The windows are never cut
  and never idle, which settles the side conditions by unfolding. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes through -/

/-- The whole 5000x64 tile. -/
abbrev r3_0 : Rect S5000x64 := Rect.unit (s := S5000x64) ![0, 0] S5000x64.size inb_S5000x64_S5000x64_0_0
/-- The whole 1x64 row. -/
abbrev r3_1 : Rect S1x64 := Rect.unit (s := S1x64) ![0, 0] S1x64.size inb_S1x64_S1x64_0_0

/-! ## The output tile after the body -/

/-- What the output window's staging buffer holds once the body has run, given the five input blocks
    (x0 the tile of pre-activations, x1 the mean row, x2 the variance row, x3 the scale row, x4 the shift row):
    the body's single store, over the whole tile, of max((x0 - x1) * rsqrt(x2 + eps) * x3 + x4, 0), the rows
    broadcast down the tile. The payload lists the values in the order the body reads them, and the body reads
    the variance row before the mean row; hence x2 stands before x1 below. -/
def out3_5 (x0 : Vec F S5000x64 .f32) (x1 x2 x3 x4 : Vec F S1x64 .f32) : Vec F S5000x64 .f32 :=
  View.canon [⟨r3_0, k3_pay1 (View.ld x0 r3_0) (View.ld x2 r3_1) (View.ld x1 r3_1) (View.ld x3 r3_1) (View.ld x4 r3_1)⟩]

/-- A single whole-tile piece covers the tile: one block of the tile's own size tiles it. -/
theorem cover3_5 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body on its six staging buffers -/

set_option maxHeartbeats 1000000 in
/-- Run on six whole staging buffers, the five inputs reading x0 … x4 and the output holding anything, the body
    ends with the inputs unchanged and the output reading out3_5 x0 … x4. The printed function is a sequence of
    five whole-buffer loads, one more load (of the output buffer, whose value nothing uses), and one whole-buffer
    store; symbolic execution walks it, and the store, covering the tile, leaves the canonical contents of its
    one piece whatever the output held before. -/
theorem sound_kernel3 (c : Dev nD) (E : Set ℕ) (i : grid3.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The proof data of the pipeline -/

/-- The proof data of this region's pipeline (cfg3) on core c. The arrays are what the region finds (V). After the body at point t every
    input window's buffer still holds its block, and the output window's holds out3_5 of the five input blocks.
    The invariant carried from point to point is the plain one (the scoped rest and the generator register,
    neither touched); every share is the full one; no signal is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The arrays of the proof data are V's: the field projected. -/
theorem A_eq3 (c : Dev nD) (w : Fin cfg3.W) : (dat3 V c).A w = V c (Pipeline.arrRef spec3 w) := by
  dsimp only [dat3]

/-! What the body leaves, one window at a time: the case split of the definition reduced at each literal window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-! What the body finds in each input window, for this proof data: its block, at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The obligation of the body at a grid point -/

/-- What the launch hands the body at point t: the invariant, the ledger of owed signals, and each window's current
    staging buffer, whole, holding what that window holds before the body. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What the launch wants back: the same, each buffer now holding what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at point t takes the one to the other. Each input buffer holds its block (before3_W), so the triple
    of the body applies with the blocks for x0 … x4; the invariant and the ledger are neither read nor changed,
    and do not depend on the point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation in the form the launch theorem takes it: the conjunction over all windows, spelled window by
    window, is the pre- and postcondition above. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdeal.Mlp4Runs.lean ====
import proofs.«144771_j36481452212846_1_alg».proof.Proof.Gen.KernelIdeal.Launch
import proofs.«144771_j36481452212846_1_alg».proof.Proof.Gen.KernelIdeal.Skeleton
import proofs.«144771_j36481452212846_1_alg».proof.Proof.Gen.KernelIdeal.Points
import Idealize.ShloMosaic.Lib.Pipeline.FrameBody
import Idealize.ShloMosaic.Lib.Ring
import Idealize.ShloMosaic.Lib.Tactic

/-! # The first statistics pass: what its ten tiles share, and its body in the three ways it runs

The pass walks the node rows in ten tiles of 5000. On each tile it forms the tile's linear
activations `z = relu((h + agg) · W₁ + b₁) · W₂ + b₂`, writes them out, and adds the tile's column
sums `Σ z` and column sums of squares `Σ z²` to two running rows that live from tile to tile. The
running rows are set to zero on the first tile; on the last tile the column mean `Σ z / n` and the
column variance `Σ z² / n − mean²` are formed from them and written out. So the body does one of
three things, told apart by the tile's number alone:

* first tile: zero both running rows, then accumulate;
* a middle tile: accumulate onto what the tile before left;
* last tile: accumulate, then emit mean and variance.

This file fixes the two tests on the tile number and decides where over the ten tiles they hold,
records on which tiles the mean and variance blocks are touched at all, names the buffers the body
is handed, and then runs the body once for each of the three cases: from the inputs' contents (and,
after the first tile, the running rows' contents) to the exact list of pieces each written buffer
ends with. -/

-- deciding membership in a block of 5000 rows walks the long axis one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two tests on the tile number -/

/-- "This is the first tile": the tile number compared with 0, widened to a word and tested against
    zero, exactly as the body computes it before it zeroes the running rows. -/
abbrev cond4_0 (i : grid4.Coords) : Prop := (Scalar.cmpi .ne (Scalar.extui (Scalar.cmpi .eq (BitVec.ofNat 32 (i 0).val) 0#32)) 0#32) = 1#1
/-- Over the ten tiles it holds at tile 0 and nowhere else. -/
theorem hcond4_0 : ∀ t : Fin cfg4.N, cond4_0 (grid4.coords t) ↔ t.val % 10 = 0 :=
  (by decide +kernel : ∀ t : Fin grid4.N, cond4_0 (grid4.coords t) ↔ t.val % 10 = 0)

/-- "This is the last tile": the tile number compared with 9, the test guarding the emission of mean
    and variance. -/
abbrev cond4_1 (i : grid4.Coords) : Prop := k4_cond2 i = 1#1
/-- Over the ten tiles it holds at tile 9 and nowhere else. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## On which tiles each block is touched

The six inputs and the activations block are in use on every tile. The mean block and the variance
block are stored into on the last tile only: on every earlier tile the body leaves them alone and
nothing is written back from them. -/

/-- Block 0 is in use on every tile. -/
theorem liveAt4_0 : ∀ t : Fin cfg4.N, cfg4.idle 0 (grid4.coords t) = false := by decide +kernel
/-- Block 1 is in use on every tile. -/
theorem liveAt4_1 : ∀ t : Fin cfg4.N, cfg4.idle 1 (grid4.coords t) = false := by decide +kernel
/-- Block 2 is in use on every tile. -/
theorem liveAt4_2 : ∀ t : Fin cfg4.N, cfg4.idle 2 (grid4.coords t) = false := by decide +kernel
/-- Block 3 is in use on every tile. -/
theorem liveAt4_3 : ∀ t : Fin cfg4.N, cfg4.idle 3 (grid4.coords t) = false := by decide +kernel
/-- Block 4 is in use on every tile. -/
theorem liveAt4_4 : ∀ t : Fin cfg4.N, cfg4.idle 4 (grid4.coords t) = false := by decide +kernel
/-- Block 5 is in use on every tile. -/
theorem liveAt4_5 : ∀ t : Fin cfg4.N, cfg4.idle 5 (grid4.coords t) = false := by decide +kernel
/-- Block 6 is in use on every tile. -/
theorem liveAt4_6 : ∀ t : Fin cfg4.N, cfg4.idle 6 (grid4.coords t) = false := by decide +kernel
/-- On the first tile the mean block is left alone. -/
theorem idleAt4_7_A : ∀ t : Fin cfg4.N, cond4_0 (grid4.coords t) → ¬cond4_1 (grid4.coords t) → cfg4.idle 7 (grid4.coords t) = true := by decide +kernel
/-- On the first tile the mean block is not written back. -/
theorem noFlush4_7_A : ∀ t : Fin cfg4.N, cond4_0 (grid4.coords t) → ¬cond4_1 (grid4.coords t) → (cfg4.win 7).flush t = false := by decide +kernel
/-- On a middle tile the mean block is left alone. -/
theorem idleAt4_7_B : ∀ t : Fin cfg4.N, ¬cond4_0 (grid4.coords t) → ¬cond4_1 (grid4.coords t) → cfg4.idle 7 (grid4.coords t) = true := by decide +kernel
/-- On a middle tile the mean block is not written back. -/
theorem noFlush4_7_B : ∀ t : Fin cfg4.N, ¬cond4_0 (grid4.coords t) → ¬cond4_1 (grid4.coords t) → (cfg4.win 7).flush t = false := by decide +kernel
/-- On the last tile the mean block is stored into. -/
theorem liveAt4_7_C : ∀ t : Fin cfg4.N, ¬cond4_0 (grid4.coords t) → cond4_1 (grid4.coords t) → cfg4.idle 7 (grid4.coords t) = false := by decide +kernel
/-- On the first tile the variance block is left alone. -/
theorem idleAt4_8_A : ∀ t : Fin cfg4.N, cond4_0 (grid4.coords t) → ¬cond4_1 (grid4.coords t) → cfg4.idle 8 (grid4.coords t) = true := by decide +kernel
/-- On the first tile the variance block is not written back. -/
theorem noFlush4_8_A : ∀ t : Fin cfg4.N, cond4_0 (grid4.coords t) → ¬cond4_1 (grid4.coords t) → (cfg4.win 8).flush t = false := by decide +kernel
/-- On a middle tile the variance block is left alone. -/
theorem idleAt4_8_B : ∀ t : Fin cfg4.N, ¬cond4_0 (grid4.coords t) → ¬cond4_1 (grid4.coords t) → cfg4.idle 8 (grid4.coords t) = true := by decide +kernel
/-- On a middle tile the variance block is not written back. -/
theorem noFlush4_8_B : ∀ t : Fin cfg4.N, ¬cond4_0 (grid4.coords t) → ¬cond4_1 (grid4.coords t) → (cfg4.win 8).flush t = false := by decide +kernel
/-- On the last tile the variance block is stored into. -/
theorem liveAt4_8_C : ∀ t : Fin cfg4.N, ¬cond4_0 (grid4.coords t) → cond4_1 (grid4.coords t) → cfg4.idle 8 (grid4.coords t) = false := by decide +kernel

/-! ## The buffers the body is handed -/

/-- A fixed buffer of the activations block's shape, through which the block's contents are read off
    a list of written pieces (which buffer of that shape is chosen makes no difference to what is read). -/
abbrev VO4_6 : View sig .tc .vmem S5000x64 .f32 := (Memref.whole cc4_stg6_0 : Memref sig .tc .vmem S5000x64 .f32).view
/-- The same for the mean block. -/
abbrev VO4_7 : View sig .tc .vmem S1x64 .f32 := (Memref.whole cc4_stg7_0 : Memref sig .tc .vmem S1x64 .f32).view
/-- The same for the variance block. -/
abbrev VO4_8 : View sig .tc .vmem S1x64 .f32 := (Memref.whole cc4_stg8_0 : Memref sig .tc .vmem S1x64 .f32).view

/-- The buffer holding each block on tile `t`, and the fact that it is a whole buffer. -/
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S5000x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x64 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x64 .f32 := win4_8.stage (cfg4.slots t 8)
abbrev hs4_8 (t : Fin cfg4.N) : (ms4_8 t).IsWhole := hstage4_8 ((cfg4.slots t 8).cast nbuf4_8)

/-- The running row of column sums `Σ z`: a whole buffer of the pass's own, kept from tile to tile. -/
abbrev scM4_0 : Memref sig .tc .vmem S1x64 .f32 := Memref.whole cc4_scratch0
/-- The running row of column sums of squares `Σ z²`, likewise. -/
abbrev scM4_1 : Memref sig .tc .vmem S1x64 .f32 := Memref.whole cc4_scratch1
/-- The two running rows as views: what they hold is stated through these. -/
abbrev VS4_0 : View sig .tc .vmem S1x64 .f32 := scM4_0.view
abbrev VS4_1 : View sig .tc .vmem S1x64 .f32 := scM4_1.view

/-- What the pass may use between tiles beside its blocks: the two running rows, each owned whole at
    some contents; every other scoped buffer of the program, kept closed as one conjunct; and the
    random-bit register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
            ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

/-! ## The body on the first tile -/

-- (the run's proof term is long; closing the definition walks all of it)
set_option maxHeartbeats 1000000 in
/-- FIRST TILE (the first-tile test holds, the last-tile test fails). Given the six inputs owned at
    their contents `x0 … x5`, the activations buffer and both running rows at anything, and the mean
    and variance buffers at contents `xi7`, `xi8`, the body ends with the inputs as they were, the
    mean and variance buffers still at `xi7`, `xi8`, and the activations buffer and the two running
    rows each holding a definite list of written pieces (latest first). The three lists are the
    data of this definition: `L6` for the activations, `LS0` for `Σ z` (zero, then zero plus the tile's
    column sums), `LS1` for `Σ z²` likewise. -/
noncomputable def kernelRun4_A (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on a middle tile -/

set_option maxHeartbeats 1000000 in
/-- A MIDDLE TILE (neither test holds). As on the first tile, except that the running rows come in
    owned at the contents `xs0`, `xs1` the tile before left and nothing zeroes them: `LS0` is one
    piece, `xs0` plus the tile's column sums, and `LS1` one piece, `xs1` plus the tile's column sums
    of squares. -/
noncomputable def kernelRun4_B (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on the last tile -/

set_option maxHeartbeats 1000000 in
/-- THE LAST TILE (the first-tile test fails, the last-tile test holds). The running rows come in at
    `xs0`, `xs1`; the mean and variance buffers may hold anything. The body accumulates as on a middle
    tile and then stores the mean, formed from the updated `Σ z`, and the variance, formed from the
    updated `Σ z` and `Σ z²`: beside `L6`, `LS0`, `LS1` there are now the piece lists `L7` of the mean
    buffer and `L8` of the variance buffer. -/
noncomputable def kernelRun4_C (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (L7 : List (View.Piece (Elt F) S1x64 .f32)), Σ' (L8 : List (View.Piece (Elt F) S1x64 .f32)), Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KernelIdeal.Mlp4Dat.lean ====
import proofs.«144771_j36481452212846_1_alg».proof.Proof.KernelIdeal.Mlp4Runs

/-! # The first statistics pass: what every buffer holds, tile by tile

The body's three runs say, for one tile, which pieces each written buffer ends with. Here those
pieces are read back into contents, and the contents are followed along the ten tiles:

* the activations block after tile `t` is what that tile's run wrote;
* the running rows `Σ z` and `Σ z²` after tile `t` are what that tile's run wrote, which on every tile
  but the first was computed from what tile `t − 1` left in them — a recursion on `t`, started by
  the zeroing on tile 0;
* the mean and variance blocks get their contents on tile 9, from the running rows as tile 9
  leaves them; on the earlier tiles they are not touched.

From this the data the pipelined launch asks for are assembled: what each block's array holds on
entry (a parameter `V`, since other passes run before this one), what each block's buffer holds
after the body on each tile, and what is kept between tiles (before the first tile: the running
rows at anything; after tile `t`: the running rows at exactly what tile `t` left). -/

-- deciding membership in a block of 5000 rows walks the long axis one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One tile: the written pieces read back -/

/-! ### First tile -/

/-- On the first tile the pieces written into the activations block reach every entry of it: they are whole-block pieces, and one
    whole block is the block. -/
theorem cover4_A_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (y : S5000x64.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y

/-- What the first tile leaves in the activations block: its written pieces read back (over contents that, the pieces covering
    everything, are never seen). -/
def out4_A_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1)

/-- On the first tile nothing is stored into the mean block and nothing is written back from it; this entry of the record is
    a placeholder that no statement reads. -/
def out4_A_7 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VO4_7.read (Elt F) VO4_7.junk

/-- On the first tile nothing is stored into the variance block and nothing is written back from it; this entry of the record is
    a placeholder that no statement reads. -/
def out4_A_8 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VO4_8.read (Elt F) VO4_8.junk

/-- On the first tile the pieces written into the running row of sums reach every entry of it: they are whole-block pieces, and one
    whole block is the block. -/
theorem scover4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y

/-- What the first tile leaves in the running row of sums: its written pieces read back (over contents that, the pieces covering
    everything, are never seen). -/
def sout4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- On the first tile the pieces written into the running row of sums of squares reach every entry of it: they are whole-block pieces, and one
    whole block is the block. -/
theorem scover4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y

/-- What the first tile leaves in the running row of sums of squares: its written pieces read back (over contents that, the pieces covering
    everything, are never seen). -/
def sout4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-! ### A middle tile -/

/-- On a middle tile the pieces written into the activations block reach every entry of it: they are whole-block pieces, and one
    whole block is the block. -/
theorem cover4_B_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What a middle tile leaves in the activations block: its written pieces read back (over contents that, the pieces covering
    everything, are never seen). -/
def out4_B_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On a middle tile nothing is stored into the mean block and nothing is written back from it; this entry of the record is
    a placeholder that no statement reads. -/
def out4_B_7 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO4_7.read (Elt F) VO4_7.junk

/-- On a middle tile nothing is stored into the variance block and nothing is written back from it; this entry of the record is
    a placeholder that no statement reads. -/
def out4_B_8 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO4_8.read (Elt F) VO4_8.junk

/-- On a middle tile the pieces written into the running row of sums reach every entry of it: they are whole-block pieces, and one
    whole block is the block. -/
theorem scover4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What a middle tile leaves in the running row of sums: its written pieces read back (over contents that, the pieces covering
    everything, are never seen). -/
def sout4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On a middle tile the pieces written into the running row of sums of squares reach every entry of it: they are whole-block pieces, and one
    whole block is the block. -/
theorem scover4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What a middle tile leaves in the running row of sums of squares: its written pieces read back (over contents that, the pieces covering
    everything, are never seen). -/
def sout4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-! ### Last tile -/

/-- On the last tile the pieces written into the activations block reach every entry of it: they are whole-block pieces, and one
    whole block is the block. -/
theorem cover4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What the last tile leaves in the activations block: its written pieces read back (over contents that, the pieces covering
    everything, are never seen). -/
def out4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On the last tile the pieces written into the mean block reach every entry of it: they are whole-block pieces, and one
    whole block is the block. -/
theorem cover4_C_7 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What the last tile leaves in the mean block: its written pieces read back (over contents that, the pieces covering
    everything, are never seen). -/
def out4_C_7 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On the last tile the pieces written into the variance block reach every entry of it: they are whole-block pieces, and one
    whole block is the block. -/
theorem cover4_C_8 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What the last tile leaves in the variance block: its written pieces read back (over contents that, the pieces covering
    everything, are never seen). -/
def out4_C_8 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO4_8.read (Elt F) (VO4_8.writes (Elt F) VO4_8.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- On the last tile the pieces written into the running row of sums reach every entry of it: they are whole-block pieces, and one
    whole block is the block. -/
theorem scover4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y

/-- What the last tile leaves in the running row of sums: its written pieces read back (over contents that, the pieces covering
    everything, are never seen). -/
def sout4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- On the last tile the pieces written into the running row of sums of squares reach every entry of it: they are whole-block pieces, and one
    whole block is the block. -/
theorem scover4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y

/-- What the last tile leaves in the running row of sums of squares: its written pieces read back (over contents that, the pieces covering
    everything, are never seen). -/
def sout4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## The ten tiles -/

-- what every buffer of the core holds when the pass is entered
variable (V : (c : Dev nD) → (b : Ref sig .tc) → Buf (Elt F) ((c : Thread nD τ).loc b))

/-- Block `w` at tile `t`: the part of the block's array, as `V` has it, that the block's index map
    selects there. For the node features and the aggregated messages this is row tile `t`; for the
    two weight matrices and the two bias rows it is the whole array at every `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- THE RECORD after tile `n`: (activations block, mean block, variance block, `Σ z`, `Σ z²`). Tile 0
    runs the first-tile case on that tile's blocks. Tile `n + 1` runs the last-tile case if it is
    tile 9 and the middle-tile case otherwise, on its own blocks and on the two running rows of the
    record after tile `n`. (Ten tiles: a tile after the first is never a multiple of ten, and the
    branches saying otherwise are empty.) -/
def outsAt4 (c : Dev nD) : (n : ℕ) → n < cfg4.N → Vec F S5000x64 .f32 × Vec F S1x64 .f32 × Vec F S1x64 .f32 × Vec F S1x64 .f32 × Vec F S1x64 .f32
  | 0, hn =>
    (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 10 = 0 then
      False.elim (by have hN : n + 1 < 10 := lt_of_lt_of_eq hn (show cfg4.N = 10 from N_4); omega)
    else
      if h1 : (n + 1) % 10 = 9 then
        (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)
      else
        (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)

/-- The record at the first tile. -/
theorem outsAt4_A (c : Dev nD) (t : Fin cfg4.N) (h0 : t.val % 10 = 0) (h1 : ¬t.val % 10 = 9) :
    outsAt4 V c t.val t.isLt =
      (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (by exfalso; have hN : n + 1 < 10 := lt_of_lt_of_eq hn (show cfg4.N = 10 from N_4); (try dsimp only at h0); omega)

/-- The record at a middle tile, over the record of the tile before. -/
theorem outsAt4_B (c : Dev nD) (t : Fin cfg4.N) (h0 : ¬t.val % 10 = 0) (h1 : ¬t.val % 10 = 9) :
    outsAt4 V c t.val t.isLt =
      (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- The record at the last tile, over the record of the tile before. -/
theorem outsAt4_C (c : Dev nD) (t : Fin cfg4.N) (h0 : ¬t.val % 10 = 0) (h1 : t.val % 10 = 9) :
    outsAt4 V c t.val t.isLt =
      (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## What is kept between tiles -/

/-- Before tile `n`. Before the first tile: what any pass of this kind may assume (both running rows
    at anything). Before tile `n + 1`: the running rows owned at exactly the two last entries of the
    record after tile `n`; the other scoped buffers of the program, closed; the random-bit register
    at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2))
        ∗ Pipeline.scopedRestBut (Ix := Unit) (Name := ℕ) (U := UR sig nD τ) (Lvl := ℕ) (Val := Elt F) spec4 c [cc4_scratch0, cc4_scratch1])
      ∗ (∃ r, prngReg c r))

theorem PhiS4_zero (c : Dev nD) (n : ℕ) (h : n ≤ cfg4.N) (hz : n = 0) : PhiS4 V c n h = Pipeline.ΦA spec4 c := by
  subst hz; rfl

/-- After tile `n`. -/
theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2))
        ∗ Pipeline.scopedRestBut (Ix := Unit) (Name := ℕ) (U := UR sig nD τ) (Lvl := ℕ) (Val := Elt F) spec4 c [cc4_scratch0, cc4_scratch1])
      ∗ (∃ r, prngReg c r)) := rfl

/-- Before a tile that is not the first: the running rows at what the tile before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2))
        ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-! ## The data of the pipelined launch -/

/-- On core `c`: the arrays as the pass finds them (`V`); after the body on tile `t`, each input block's
    buffer still at its block, and the three output blocks' buffers at the first three entries of
    the record; between tiles, `PhiS4`; every share full; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2.1
  Φ t := PhiS4 V c t.val (Nat.le_of_lt_succ t.isLt)
  q _ := fullShare
  owed _ := 0

/-- The arrays of the data are `V`'s: the field projected. -/
theorem A_eq4 (c : Dev nD) (w : Fin cfg4.W) : (dat4 V c).A w = V c (Pipeline.arrRef spec4 w) := by
  dsimp only [dat4]

/-- What is kept before tile `t`, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- Before the first tile: what any pass of this kind may assume. -/
theorem Phi4_first (c : Dev nD) : (dat4 V c).Φ 0 = Pipeline.ΦA spec4 c := by
  rw [show (dat4 V c).Φ 0 = PhiS4 V c 0 (Nat.zero_le _) from rfl, PhiS4_zero V c 0 _ rfl]

/-! What the body leaves, block by block: the data's case split reduced at each literal block. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2.1 := by dsimp only [dat4]

end Cert.KernelIdeal.Hand

end
-- ==== Proof.KernelIdeal.Mlp4Obl.lean ====
import proofs.«144771_j36481452212846_1_alg».proof.Proof.KernelIdeal.Mlp4Dat

/-! # The first statistics pass: the body does on every tile what the data say

With the record of what each buffer holds after each tile in hand, it remains to check it against
the body, one tile at a time. On tile `t` the body is handed each block's buffer. An input block's
buffer holds that block whether or not it was fetched on this tile: the weights and biases are
fetched on tile 0 only, but their block never moves, and the body leaves them as it finds them. The
tile's number picks the case (0: first; 1 to 8: middle; 9: last); the running rows come in at
anything on tile 0 and at what tile `t − 1` left afterwards; the case's run then ends with every
buffer holding what the record says, because the pieces it writes cover each written buffer. The
mean and variance buffers, not touched before tile 9, go back as they came. After the last tile,
forgetting what the running rows hold gives back what the pass was entered with. -/

-- deciding membership in a block of 5000 rows walks the long axis one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what every buffer of the core holds when the pass is entered
variable (V : (c : Dev nD) → (b : Ref sig .tc) → Buf (Elt F) ((c : Thread nD τ).loc b))

/-! ## What the body finds in the input blocks

For any data whose array for input block `W` is `V`'s and whose body hands the block's buffer back
holding the block, the buffer holds block `t` on tile `t`, for every `t`: where the block was fetched
this is what the fetch wrote; where it was not, the block's index is the one of the tile before,
and the buffer, left alone, still holds it. None of these blocks is cut short at the array's edge
and none is ever out of use, which settles the side conditions by unfolding. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! The same for the data of this pass. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## One tile -/

/-- What the body is handed on tile `t`: what is kept between tiles, the ledger of owed signals, and
    each block's current buffer, whole, at what it holds before the body. -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- What it must hand back: the same, each buffer at what the data say the body leaves there (for a
    block out of use on this tile and not written back: at what it held). -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4800000 in
/-- The body on tile `t` takes the one to the other. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  by_cases h0 : t.val % 10 = 0
  · by_cases h1 : t.val % 10 = 9
    · exfalso; omega
    ·
      -- first tile
      have hz : t.val = 0 := by omega
      have hc0 : cond4_0 (grid4.coords t) := (hcond4_0 t).mpr h0
      have hc1 : ¬cond4_1 (grid4.coords t) := fun h => h1 ((hcond4_1 t).mp h)
      rw [Dat.leavesExact_idle (dat4 V c) 7 t (idleAt4_7_A t hc0 hc1) (noFlush4_7_A t hc0 hc1)]
      rw [Dat.leavesExact_idle (dat4 V c) 8 t (idleAt4_8_A t hc0 hc1) (noFlush4_8_A t hc0 hc1)]
      rw [outsAt4_A V c t h0 h1]
      unfold out4_A_6 sout4_A_0 sout4_A_1; (try dsimp only)
      rw [PhiS4_castSucc V c t, PhiS4_zero V c _ _ hz, PhiA4_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_A c (grid4.coords t) _ _ _ _ _ _ _ _ _ _ _ _ _ _ _ _ _ _ _ _ _ _ hc0 hc1 (iblk4 V c 0 t) (iblk4 V c 1 t) (iblk4 V c 2 t) (iblk4 V c 3 t) (iblk4 V c 4 t) (iblk4 V c 5 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_A_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_A_1 c _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_A_6 c _ _ _ _ _ _ _ _ _ _ _ _ _ _ _ _ _ _ _ _ _ _ _ _ _ _ _ _ _ _ _)
      isplitl [H7]; · iexists _; iexact H7
      iexists _; iexact H8
  · by_cases h1 : t.val % 10 = 9
    ·
      -- last tile
      have hz : t.val ≠ 0 := by omega
      have hc0 : ¬cond4_0 (grid4.coords t) := fun h => h0 ((hcond4_0 t).mp h)
      have hc1 : cond4_1 (grid4.coords t) := (hcond4_1 t).mpr h1
      rw [show (dat4 V c).leavesExact 7 t = owns (c : Thread nD τ) (ms4_7 t) fullShare ((dat4 V c).after 7 t) from by
        unfold Dat.leavesExact; rw [liveAt4_7_C t hc0 hc1], after4_7]
      rw [show (dat4 V c).leavesExact 8 t = owns (c : Thread nD τ) (ms4_8 t) fullShare ((dat4 V c).after 8 t) from by
        unfold Dat.leavesExact; rw [liveAt4_8_C t hc0 hc1], after4_8]
      rw [outsAt4_C V c t h0 h1]
      unfold out4_C_6 out4_C_7 out4_C_8 sout4_C_0 sout4_C_1; (try dsimp only)
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_C c (grid4.coords t) _ _ _ _ _ _ _ _ _ _ _ _ _ _ _ _ _ _ _ _ _ _ hc0 hc1 (iblk4 V c 0 t) (iblk4 V c 1 t) (iblk4 V c 2 t) (iblk4 V c 3 t) (iblk4 V c 4 t) (iblk4 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover4_C_8 c _ _ _ _ _ _ _ _ _ _ _ _ _ _ _ _ _ _ _ _ _ _ _ _ _ _ _ _ _ _ _ _ _)
    ·
      -- a middle tile
      have hz : t.val ≠ 0 := by omega
      have hc0 : ¬cond4_0 (grid4.coords t) := fun h => h0 ((hcond4_0 t).mp h)
      have hc1 : ¬cond4_1 (grid4.coords t) := fun h => h1 ((hcond4_1 t).mp h)
      rw [Dat.leavesExact_idle (dat4 V c) 7 t (idleAt4_7_B t hc0 hc1) (noFlush4_7_B t hc0 hc1)]
      rw [Dat.leavesExact_idle (dat4 V c) 8 t (idleAt4_8_B t hc0 hc1) (noFlush4_8_B t hc0 hc1)]
      rw [outsAt4_B V c t h0 h1]
      unfold out4_B_6 sout4_B_0 sout4_B_1; (try dsimp only)
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) _ _ _ _ _ _ _ _ _ _ _ _ _ _ _ _ _ _ _ _ _ _ hc0 hc1 (iblk4 V c 0 t) (iblk4 V c 1 t) (iblk4 V c 2 t) (iblk4 V c 3 t) (iblk4 V c 4 t) (iblk4 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _ _ _ _ _ _ _ _ _)
      isplitl [H7]; · iexists _; iexact H7
      iexists _; iexact H8

/-- The obligation in the form the launch takes it: the conjunction over all nine blocks, spelled
    block by block, is the pair above. -/
theorem body_obligation4 (c : Dev nD) : BodyObligation (dat4 (F := F) V c) (defs₀ (F := F)) Variants.none () Set.univ := fun t => by
  rw [bigSep_W4, bigSep_W4]
  exact sound_body4 V c t

/-! ## Leaving the pass -/

/-- After any tile, forgetting what the two running rows hold gives back what a pass of this kind
    is entered with. -/
theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- In particular after the last tile. -/
theorem Phi4_last_ent (c : Dev nD) : (dat4 V c).Φ (Fin.last cfg4.N) ⊢ Pipeline.ΦA spec4 c :=
  Phi4_out V c _ (by rw [Fin.val_last]; have : cfg4.N = 10 := N_4; omega)

end Cert.KernelIdeal.Hand

end
-- ==== Proof.KernelIdeal.Bn5.lean ====
/-
  One region of @main: the batch-norm-and-ReLU pallas_call of a GIN layer (cc5__bn_relu_kernel, with the
  pipeline cfg5 that launches it), on its grid of ten row tiles.

  Everything here is stated at a PARAMETER V: what the TensorCore's buffers hold at the moment the region is
  entered. From V alone we say what each window's block is at each grid point, what the body leaves in the
  output tile (one store of the normalised, scaled, shifted and clamped tile, a closed function of the five
  input blocks), and we discharge the per-point obligation the pipelined launch asks of the body.

  The body belongs to the plainest class of pipeline bodies: it reads its five input tiles through whole-tile
  rectangles, reads (and ignores) what the output tile held, writes the output tile once through a whole-tile
  rectangle, and keeps nothing between grid points. Four of the five inputs (variance, mean, scale, shift: one
  row of 64 each) have a block index that never moves, so the pipeline fetches them only at the first point;
  at later points their staging buffers still hold the same block, which is what the body needs.
-/
import proofs.«144771_j36481452212846_1_alg».proof.Proof.Gen.KernelIdeal.Launch
import proofs.«144771_j36481452212846_1_alg».proof.Proof.Gen.KernelIdeal.Skeleton
import proofs.«144771_j36481452212846_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle of 5000 rows walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what every TensorCore buffer holds when the region is entered
variable (V : (c : Dev nD) → (b : Ref sig .tc) → Buf (Elt F) ((c : Thread nD τ).loc b))

/-! ## Blocks of the windows -/

/-- The block of window w at grid point t: the part of the window's array, as V has it, that the window's index
    map selects at t. For window 0 and window 5 this is row tile t of a 50000x64 array; for windows 1 to 4 it is
    the whole 1x64 row at every t. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## What the body finds in the input windows

  For proof data whose array for window W is V's and whose body hands window W back holding its block, the
  current staging buffer of W holds block t at point t, for every t. Where the pipeline fetched at t this is
  what the fetch wrote; where it did not (windows 1 to 4 after the first point) the block index at t equals the
  one at t-1, so the buffer, left alone by the body, still holds the right block. The windows are never cut
  and never idle, which settles the side conditions by unfolding. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body reads and writes through -/

/-- The whole 5000x64 tile. -/
abbrev r5_0 : Rect S5000x64 := Rect.unit (s := S5000x64) ![0, 0] S5000x64.size inb_S5000x64_S5000x64_0_0
/-- The whole 1x64 row. -/
abbrev r5_1 : Rect S1x64 := Rect.unit (s := S1x64) ![0, 0] S1x64.size inb_S1x64_S1x64_0_0

/-! ## The output tile after the body -/

/-- What the output window's staging buffer holds once the body has run, given the five input blocks
    (x0 the tile of pre-activations, x1 the mean row, x2 the variance row, x3 the scale row, x4 the shift row):
    the body's single store, over the whole tile, of max((x0 - x1) * rsqrt(x2 + eps) * x3 + x4, 0), the rows
    broadcast down the tile. The payload lists the values in the order the body reads them, and the body reads
    the variance row before the mean row; hence x2 stands before x1 below. -/
def out5_5 (x0 : Vec F S5000x64 .f32) (x1 x2 x3 x4 : Vec F S1x64 .f32) : Vec F S5000x64 .f32 :=
  View.canon [⟨r5_0, k5_pay1 (View.ld x0 r5_0) (View.ld x2 r5_1) (View.ld x1 r5_1) (View.ld x3 r5_1) (View.ld x4 r5_1)⟩]

/-- A single whole-tile piece covers the tile: one block of the tile's own size tiles it. -/
theorem cover5_5 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-! ## The body on its six staging buffers -/

set_option maxHeartbeats 1000000 in
/-- Run on six whole staging buffers, the five inputs reading x0 … x4 and the output holding anything, the body
    ends with the inputs unchanged and the output reading out5_5 x0 … x4. The printed function is a sequence of
    five whole-buffer loads, one more load (of the output buffer, whose value nothing uses), and one whole-buffer
    store; symbolic execution walks it, and the store, covering the tile, leaves the canonical contents of its
    one piece whatever the output held before. -/
theorem sound_kernel5 (c : Dev nD) (E : Set ℕ) (i : grid5.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The proof data of the pipeline -/

/-- The proof data of this region's pipeline (cfg5) on core c. The arrays are what the region finds (V). After the body at point t every
    input window's buffer still holds its block, and the output window's holds out5_5 of the five input blocks.
    The invariant carried from point to point is the plain one (the scoped rest and the generator register,
    neither touched); every share is the full one; no signal is owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The arrays of the proof data are V's: the field projected. -/
theorem A_eq5 (c : Dev nD) (w : Fin cfg5.W) : (dat5 V c).A w = V c (Pipeline.arrRef spec5 w) := by
  dsimp only [dat5]

/-! What the body leaves, one window at a time: the case split of the definition reduced at each literal window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-! What the body finds in each input window, for this proof data: its block, at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The obligation of the body at a grid point -/

/-- What the launch hands the body at point t: the invariant, the ledger of owed signals, and each window's current
    staging buffer, whole, holding what that window holds before the body. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- What the launch wants back: the same, each buffer now holding what the proof data says the body leaves. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at point t takes the one to the other. Each input buffer holds its block (before5_W), so the triple
    of the body applies with the blocks for x0 … x4; the invariant and the ledger are neither read nor changed,
    and do not depend on the point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation in the form the launch theorem takes it: the conjunction over all windows, spelled window by
    window, is the pre- and postcondition above. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KernelIdeal.Mlp6Runs.lean ====
import proofs.«144771_j36481452212846_1_alg».proof.Proof.Gen.KernelIdeal.Launch
import proofs.«144771_j36481452212846_1_alg».proof.Proof.Gen.KernelIdeal.Skeleton
import proofs.«144771_j36481452212846_1_alg».proof.Proof.Gen.KernelIdeal.Points
import Idealize.ShloMosaic.Lib.Pipeline.FrameBody
import Idealize.ShloMosaic.Lib.Ring
import Idealize.ShloMosaic.Lib.Tactic

/-! # The first statistics pass: what its ten tiles share, and its body in the three ways it runs

The pass walks the node rows in ten tiles of 5000. On each tile it forms the tile's linear
activations `z = relu((h + agg) · W₁ + b₁) · W₂ + b₂`, writes them out, and adds the tile's column
sums `Σ z` and column sums of squares `Σ z²` to two running rows that live from tile to tile. The
running rows are set to zero on the first tile; on the last tile the column mean `Σ z / n` and the
column variance `Σ z² / n − mean²` are formed from them and written out. So the body does one of
three things, told apart by the tile's number alone:

* first tile: zero both running rows, then accumulate;
* a middle tile: accumulate onto what the tile before left;
* last tile: accumulate, then emit mean and variance.

This file fixes the two tests on the tile number and decides where over the ten tiles they hold,
records on which tiles the mean and variance blocks are touched at all, names the buffers the body
is handed, and then runs the body once for each of the three cases: from the inputs' contents (and,
after the first tile, the running rows' contents) to the exact list of pieces each written buffer
ends with. -/

-- deciding membership in a block of 5000 rows walks the long axis one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two tests on the tile number -/

/-- "This is the first tile": the tile number compared with 0, widened to a word and tested against
    zero, exactly as the body computes it before it zeroes the running rows. -/
abbrev cond6_0 (i : grid6.Coords) : Prop := (Scalar.cmpi .ne (Scalar.extui (Scalar.cmpi .eq (BitVec.ofNat 32 (i 0).val) 0#32)) 0#32) = 1#1
/-- Over the ten tiles it holds at tile 0 and nowhere else. -/
theorem hcond6_0 : ∀ t : Fin cfg6.N, cond6_0 (grid6.coords t) ↔ t.val % 10 = 0 :=
  (by decide +kernel : ∀ t : Fin grid6.N, cond6_0 (grid6.coords t) ↔ t.val % 10 = 0)

/-- "This is the last tile": the tile number compared with 9, the test guarding the emission of mean
    and variance. -/
abbrev cond6_1 (i : grid6.Coords) : Prop := k6_cond2 i = 1#1
/-- Over the ten tiles it holds at tile 9 and nowhere else. -/
theorem hcond6_1 : ∀ t : Fin cfg6.N, cond6_1 (grid6.coords t) ↔ t.val % 10 = 9 :=
  (by decide +kernel : ∀ t : Fin grid6.N, cond6_1 (grid6.coords t) ↔ t.val % 10 = 9)

/-! ## On which tiles each block is touched

The six inputs and the activations block are in use on every tile. The mean block and the variance
block are stored into on the last tile only: on every earlier tile the body leaves them alone and
nothing is written back from them. -/

/-- Block 0 is in use on every tile. -/
theorem liveAt6_0 : ∀ t : Fin cfg6.N, cfg6.idle 0 (grid6.coords t) = false := by decide +kernel
/-- Block 1 is in use on every tile. -/
theorem liveAt6_1 : ∀ t : Fin cfg6.N, cfg6.idle 1 (grid6.coords t) = false := by decide +kernel
/-- Block 2 is in use on every tile. -/
theorem liveAt6_2 : ∀ t : Fin cfg6.N, cfg6.idle 2 (grid6.coords t) = false := by decide +kernel
/-- Block 3 is in use on every tile. -/
theorem liveAt6_3 : ∀ t : Fin cfg6.N, cfg6.idle 3 (grid6.coords t) = false := by decide +kernel
/-- Block 4 is in use on every tile. -/
theorem liveAt6_4 : ∀ t : Fin cfg6.N, cfg6.idle 4 (grid6.coords t) = false := by decide +kernel
/-- Block 5 is in use on every tile. -/
theorem liveAt6_5 : ∀ t : Fin cfg6.N, cfg6.idle 5 (grid6.coords t) = false := by decide +kernel
/-- Block 6 is in use on every tile. -/
theorem liveAt6_6 : ∀ t : Fin cfg6.N, cfg6.idle 6 (grid6.coords t) = false := by decide +kernel
/-- On the first tile the mean block is left alone. -/
theorem idleAt6_7_A : ∀ t : Fin cfg6.N, cond6_0 (grid6.coords t) → ¬cond6_1 (grid6.coords t) → cfg6.idle 7 (grid6.coords t) = true := by decide +kernel
/-- On the first tile the mean block is not written back. -/
theorem noFlush6_7_A : ∀ t : Fin cfg6.N, cond6_0 (grid6.coords t) → ¬cond6_1 (grid6.coords t) → (cfg6.win 7).flush t = false := by decide +kernel
/-- On a middle tile the mean block is left alone. -/
theorem idleAt6_7_B : ∀ t : Fin cfg6.N, ¬cond6_0 (grid6.coords t) → ¬cond6_1 (grid6.coords t) → cfg6.idle 7 (grid6.coords t) = true := by decide +kernel
/-- On a middle tile the mean block is not written back. -/
theorem noFlush6_7_B : ∀ t : Fin cfg6.N, ¬cond6_0 (grid6.coords t) → ¬cond6_1 (grid6.coords t) → (cfg6.win 7).flush t = false := by decide +kernel
/-- On the last tile the mean block is stored into. -/
theorem liveAt6_7_C : ∀ t : Fin cfg6.N, ¬cond6_0 (grid6.coords t) → cond6_1 (grid6.coords t) → cfg6.idle 7 (grid6.coords t) = false := by decide +kernel
/-- On the first tile the variance block is left alone. -/
theorem idleAt6_8_A : ∀ t : Fin cfg6.N, cond6_0 (grid6.coords t) → ¬cond6_1 (grid6.coords t) → cfg6.idle 8 (grid6.coords t) = true := by decide +kernel
/-- On the first tile the variance block is not written back. -/
theorem noFlush6_8_A : ∀ t : Fin cfg6.N, cond6_0 (grid6.coords t) → ¬cond6_1 (grid6.coords t) → (cfg6.win 8).flush t = false := by decide +kernel
/-- On a middle tile the variance block is left alone. -/
theorem idleAt6_8_B : ∀ t : Fin cfg6.N, ¬cond6_0 (grid6.coords t) → ¬cond6_1 (grid6.coords t) → cfg6.idle 8 (grid6.coords t) = true := by decide +kernel
/-- On a middle tile the variance block is not written back. -/
theorem noFlush6_8_B : ∀ t : Fin cfg6.N, ¬cond6_0 (grid6.coords t) → ¬cond6_1 (grid6.coords t) → (cfg6.win 8).flush t = false := by decide +kernel
/-- On the last tile the variance block is stored into. -/
theorem liveAt6_8_C : ∀ t : Fin cfg6.N, ¬cond6_0 (grid6.coords t) → cond6_1 (grid6.coords t) → cfg6.idle 8 (grid6.coords t) = false := by decide +kernel

/-! ## The buffers the body is handed -/

/-- A fixed buffer of the activations block's shape, through which the block's contents are read off
    a list of written pieces (which buffer of that shape is chosen makes no difference to what is read). -/
abbrev VO6_6 : View sig .tc .vmem S5000x64 .f32 := (Memref.whole cc6_stg6_0 : Memref sig .tc .vmem S5000x64 .f32).view
/-- The same for the mean block. -/
abbrev VO6_7 : View sig .tc .vmem S1x64 .f32 := (Memref.whole cc6_stg7_0 : Memref sig .tc .vmem S1x64 .f32).view
/-- The same for the variance block. -/
abbrev VO6_8 : View sig .tc .vmem S1x64 .f32 := (Memref.whole cc6_stg8_0 : Memref sig .tc .vmem S1x64 .f32).view

/-- The buffer holding each block on tile `t`, and the fact that it is a whole buffer. -/
abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S64x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x64 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S64x64 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x64 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S5000x64 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x64 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1x64 .f32 := win6_8.stage (cfg6.slots t 8)
abbrev hs6_8 (t : Fin cfg6.N) : (ms6_8 t).IsWhole := hstage6_8 ((cfg6.slots t 8).cast nbuf6_8)

/-- The running row of column sums `Σ z`: a whole buffer of the pass's own, kept from tile to tile. -/
abbrev scM6_0 : Memref sig .tc .vmem S1x64 .f32 := Memref.whole cc6_scratch0
/-- The running row of column sums of squares `Σ z²`, likewise. -/
abbrev scM6_1 : Memref sig .tc .vmem S1x64 .f32 := Memref.whole cc6_scratch1
/-- The two running rows as views: what they hold is stated through these. -/
abbrev VS6_0 : View sig .tc .vmem S1x64 .f32 := scM6_0.view
abbrev VS6_1 : View sig .tc .vmem S1x64 .f32 := scM6_1.view

/-- What the pass may use between tiles beside its blocks: the two running rows, each owned whole at
    some contents; every other scoped buffer of the program, kept closed as one conjunct; and the
    random-bit register at some state. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
            ∗ Pipeline.scopedRestBut (Ix := Unit) (Name := ℕ) (U := UR sig nD τ) (Lvl := ℕ) (Val := Elt F) spec6 c [cc6_scratch0, cc6_scratch1])
          ∗ (∃ r, prngReg c r)) := by
  unfold Pipeline.ΦA; rw [scopedRest6_split]; simp only [scM6_0, scM6_1, owns_whole]; try rfl

/-! ## The body on the first tile -/

-- (the run's proof term is long; closing the definition walks all of it)
set_option maxHeartbeats 1000000 in
/-- FIRST TILE (the first-tile test holds, the last-tile test fails). Given the six inputs owned at
    their contents `x0 … x5`, the activations buffer and both running rows at anything, and the mean
    and variance buffers at contents `xi7`, `xi8`, the body ends with the inputs as they were, the
    mean and variance buffers still at `xi7`, `xi8`, and the activations buffer and the two running
    rows each holding a definite list of written pieces (latest first). The three lists are the
    data of this definition: `L6` for the activations, `LS0` for `Σ z` (zero, then zero plus the tile's
    column sums), `LS1` for `Σ z²` likewise. -/
noncomputable def kernelRun6_A (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc6__mlp_stats_kernel_eq_skeleton]; unfold cc6__mlp_stats_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on a middle tile -/

set_option maxHeartbeats 1000000 in
/-- A MIDDLE TILE (neither test holds). As on the first tile, except that the running rows come in
    owned at the contents `xs0`, `xs1` the tile before left and nothing zeroes them: `LS0` is one
    piece, `xs0` plus the tile's column sums, and `LS1` one piece, `xs1` plus the tile's column sums
    of squares. -/
noncomputable def kernelRun6_B (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc6__mlp_stats_kernel_eq_skeleton]; unfold cc6__mlp_stats_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

/-! ## The body on the last tile -/

set_option maxHeartbeats 1000000 in
/-- THE LAST TILE (the first-tile test fails, the last-tile test holds). The running rows come in at
    `xs0`, `xs1`; the mean and variance buffers may hold anything. The body accumulates as on a middle
    tile and then stores the mean, formed from the updated `Σ z`, and the variance, formed from the
    updated `Σ z` and `Σ z²`: beside `L6`, `LS0`, `LS1` there are now the piece lists `L7` of the mean
    buffer and `L8` of the variance buffer. -/
noncomputable def kernelRun6_C (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)), Σ' (L7 : List (View.Piece (Elt F) S1x64 .f32)), Σ' (L8 : List (View.Piece (Elt F) S1x64 .f32)), Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc6__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc6__mlp_stats_kernel_eq_skeleton]; unfold cc6__mlp_stats_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KernelIdeal.Mlp6Dat.lean ====
import proofs.«144771_j36481452212846_1_alg».proof.Proof.KernelIdeal.Mlp6Runs

/-! # The first statistics pass: what every buffer holds, tile by tile

The body's three runs say, for one tile, which pieces each written buffer ends with. Here those
pieces are read back into contents, and the contents are followed along the ten tiles:

* the activations block after tile `t` is what that tile's run wrote;
* the running rows `Σ z` and `Σ z²` after tile `t` are what that tile's run wrote, which on every tile
  but the first was computed from what tile `t − 1` left in them — a recursion on `t`, started by
  the zeroing on tile 0;
* the mean and variance blocks get their contents on tile 9, from the running rows as tile 9
  leaves them; on the earlier tiles they are not touched.

From this the data the pipelined launch asks for are assembled: what each block's array holds on
entry (a parameter `V`, since other passes run before this one), what each block's buffer holds
after the body on each tile, and what is kept between tiles (before the first tile: the running
rows at anything; after tile `t`: the running rows at exactly what tile `t` left). -/

-- deciding membership in a block of 5000 rows walks the long axis one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One tile: the written pieces read back -/

/-! ### First tile -/

/-- On the first tile the pieces written into the activations block reach every entry of it: they are whole-block pieces, and one
    whole block is the block. -/
theorem cover6_A_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (y : S5000x64.Idx) :
    ∃ pc ∈ (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y

/-- What the first tile leaves in the activations block: its written pieces read back (over contents that, the pieces covering
    everything, are never seen). -/
def out6_A_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  VO6_6.read (Elt F) (VO6_6.writes (Elt F) VO6_6.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).1)

/-- On the first tile nothing is stored into the mean block and nothing is written back from it; this entry of the record is
    a placeholder that no statement reads. -/
def out6_A_7 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VO6_7.read (Elt F) VO6_7.junk

/-- On the first tile nothing is stored into the variance block and nothing is written back from it; this entry of the record is
    a placeholder that no statement reads. -/
def out6_A_8 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VO6_8.read (Elt F) VO6_8.junk

/-- On the first tile the pieces written into the running row of sums reach every entry of it: they are whole-block pieces, and one
    whole block is the block. -/
theorem scover6_A_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y

/-- What the first tile leaves in the running row of sums: its written pieces read back (over contents that, the pieces covering
    everything, are never seen). -/
def sout6_A_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS6_0.read (Elt F) (VS6_0.writes (Elt F) VS6_0.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- On the first tile the pieces written into the running row of sums of squares reach every entry of it: they are whole-block pieces, and one
    whole block is the block. -/
theorem scover6_A_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y

/-- What the first tile leaves in the running row of sums of squares: its written pieces read back (over contents that, the pieces covering
    everything, are never seen). -/
def sout6_A_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) : Vec F S1x64 .f32 :=
  VS6_1.read (Elt F) (VS6_1.writes (Elt F) VS6_1.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-! ### A middle tile -/

/-- On a middle tile the pieces written into the activations block reach every entry of it: they are whole-block pieces, and one
    whole block is the block. -/
theorem cover6_B_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What a middle tile leaves in the activations block: its written pieces read back (over contents that, the pieces covering
    everything, are never seen). -/
def out6_B_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO6_6.read (Elt F) (VO6_6.writes (Elt F) VO6_6.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On a middle tile nothing is stored into the mean block and nothing is written back from it; this entry of the record is
    a placeholder that no statement reads. -/
def out6_B_7 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO6_7.read (Elt F) VO6_7.junk

/-- On a middle tile nothing is stored into the variance block and nothing is written back from it; this entry of the record is
    a placeholder that no statement reads. -/
def out6_B_8 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO6_8.read (Elt F) VO6_8.junk

/-- On a middle tile the pieces written into the running row of sums reach every entry of it: they are whole-block pieces, and one
    whole block is the block. -/
theorem scover6_B_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What a middle tile leaves in the running row of sums: its written pieces read back (over contents that, the pieces covering
    everything, are never seen). -/
def sout6_B_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS6_0.read (Elt F) (VS6_0.writes (Elt F) VS6_0.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On a middle tile the pieces written into the running row of sums of squares reach every entry of it: they are whole-block pieces, and one
    whole block is the block. -/
theorem scover6_B_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What a middle tile leaves in the running row of sums of squares: its written pieces read back (over contents that, the pieces covering
    everything, are never seen). -/
def sout6_B_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS6_1.read (Elt F) (VS6_1.writes (Elt F) VS6_1.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-! ### Last tile -/

/-- On the last tile the pieces written into the activations block reach every entry of it: they are whole-block pieces, and one
    whole block is the block. -/
theorem cover6_C_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y

/-- What the last tile leaves in the activations block: its written pieces read back (over contents that, the pieces covering
    everything, are never seen). -/
def out6_C_6 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S5000x64 .f32 :=
  VO6_6.read (Elt F) (VO6_6.writes (Elt F) VO6_6.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- On the last tile the pieces written into the mean block reach every entry of it: they are whole-block pieces, and one
    whole block is the block. -/
theorem cover6_C_7 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

/-- What the last tile leaves in the mean block: its written pieces read back (over contents that, the pieces covering
    everything, are never seen). -/
def out6_C_7 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO6_7.read (Elt F) (VO6_7.writes (Elt F) VO6_7.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- On the last tile the pieces written into the variance block reach every entry of it: they are whole-block pieces, and one
    whole block is the block. -/
theorem cover6_C_8 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What the last tile leaves in the variance block: its written pieces read back (over contents that, the pieces covering
    everything, are never seen). -/
def out6_C_8 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VO6_8.read (Elt F) (VO6_8.writes (Elt F) VO6_8.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- On the last tile the pieces written into the running row of sums reach every entry of it: they are whole-block pieces, and one
    whole block is the block. -/
theorem scover6_C_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y

/-- What the last tile leaves in the running row of sums: its written pieces read back (over contents that, the pieces covering
    everything, are never seen). -/
def sout6_C_0 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS6_0.read (Elt F) (VS6_0.writes (Elt F) VS6_0.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- On the last tile the pieces written into the running row of sums of squares reach every entry of it: they are whole-block pieces, and one
    whole block is the block. -/
theorem scover6_C_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y

/-- What the last tile leaves in the running row of sums of squares: its written pieces read back (over contents that, the pieces covering
    everything, are never seen). -/
def sout6_C_1 (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Vec F S1x64 .f32 :=
  VS6_1.read (Elt F) (VS6_1.writes (Elt F) VS6_1.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## The ten tiles -/

-- what every buffer of the core holds when the pass is entered
variable (V : (c : Dev nD) → (b : Ref sig .tc) → Buf (Elt F) ((c : Thread nD τ).loc b))

/-- Block `w` at tile `t`: the part of the block's array, as `V` has it, that the block's index map
    selects there. For the node features and the aggregated messages this is row tile `t`; for the
    two weight matrices and the two bias rows it is the whole array at every `t`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- THE RECORD after tile `n`: (activations block, mean block, variance block, `Σ z`, `Σ z²`). Tile 0
    runs the first-tile case on that tile's blocks. Tile `n + 1` runs the last-tile case if it is
    tile 9 and the middle-tile case otherwise, on its own blocks and on the two running rows of the
    record after tile `n`. (Ten tiles: a tile after the first is never a multiple of ten, and the
    branches saying otherwise are empty.) -/
def outsAt6 (c : Dev nD) : (n : ℕ) → n < cfg6.N → Vec F S5000x64 .f32 × Vec F S1x64 .f32 × Vec F S1x64 .f32 × Vec F S1x64 .f32 × Vec F S1x64 .f32
  | 0, hn =>
    (out6_A_6 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      out6_A_7 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      out6_A_8 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩))
  | n + 1, hn =>
    if h0 : (n + 1) % 10 = 0 then
      False.elim (by have hN : n + 1 < 10 := lt_of_lt_of_eq hn (show cfg6.N = 10 from N_6); omega)
    else
      if h1 : (n + 1) % 10 = 9 then
        (out6_C_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_C_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_C_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2)
      else
        (out6_B_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_B_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_B_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2)

/-- The record at the first tile. -/
theorem outsAt6_A (c : Dev nD) (t : Fin cfg6.N) (h0 : t.val % 10 = 0) (h1 : ¬t.val % 10 = 9) :
    outsAt6 V c t.val t.isLt =
      (out6_A_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      out6_A_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      out6_A_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t)) := by
  obtain ⟨n, hn⟩ := t
  cases n with
  | zero => exact rfl
  | succ n => exact (by exfalso; have hN : n + 1 < 10 := lt_of_lt_of_eq hn (show cfg6.N = 10 from N_6); (try dsimp only at h0); omega)

/-- The record at a middle tile, over the record of the tile before. -/
theorem outsAt6_B (c : Dev nD) (t : Fin cfg6.N) (h0 : ¬t.val % 10 = 0) (h1 : ¬t.val % 10 = 9) :
    outsAt6 V c t.val t.isLt =
      (out6_B_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- The record at the last tile, over the record of the tile before. -/
theorem outsAt6_C (c : Dev nD) (t : Fin cfg6.N) (h0 : ¬t.val % 10 = 0) (h1 : t.val % 10 = 9) :
    outsAt6 V c t.val t.isLt =
      (out6_C_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_C_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_C_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## What is kept between tiles -/

/-- Before tile `n`. Before the first tile: what any pass of this kind may assume (both running rows
    at anything). Before tile `n + 1`: the running rows owned at exactly the two last entries of the
    record after tile `n`; the other scoped buffers of the program, closed; the random-bit register
    at some state. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.2.1) ∗ owns (c : Thread nD τ) scM6_1 fullShare ((outsAt6 V c n hn).2.2.2.2))
        ∗ Pipeline.scopedRestBut (Ix := Unit) (Name := ℕ) (U := UR sig nD τ) (Lvl := ℕ) (Val := Elt F) spec6 c [cc6_scratch0, cc6_scratch1])
      ∗ (∃ r, prngReg c r))

theorem PhiS6_zero (c : Dev nD) (n : ℕ) (h : n ≤ cfg6.N) (hz : n = 0) : PhiS6 V c n h = Pipeline.ΦA spec6 c := by
  subst hz; rfl

/-- After tile `n`. -/
theorem PhiS6_succ (c : Dev nD) (n : ℕ) (hn : n < cfg6.N) :
    PhiS6 V c (n + 1) hn = iprop(iprop(iprop(owns (c : Thread nD τ) scM6_0 fullShare ((outsAt6 V c n hn).2.2.2.1) ∗ owns (c : Thread nD τ) scM6_1 fullShare ((outsAt6 V c n hn).2.2.2.2))
        ∗ Pipeline.scopedRestBut (Ix := Unit) (Name := ℕ) (U := UR sig nD τ) (Lvl := ℕ) (Val := Elt F) spec6 c [cc6_scratch0, cc6_scratch1])
      ∗ (∃ r, prngReg c r)) := rfl

/-- Before a tile that is not the first: the running rows at what the tile before left. -/
theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.2.1) ∗ owns (c : Thread nD τ) scM6_1 fullShare ((outsAt6 V c (n - 1) (by omega)).2.2.2.2))
        ∗ Pipeline.scopedRestBut (Ix := Unit) (Name := ℕ) (U := UR sig nD τ) (Lvl := ℕ) (Val := Elt F) spec6 c [cc6_scratch0, cc6_scratch1])
      ∗ (∃ r, prngReg c r)) := by
  cases n with
  | zero => exact absurd rfl hz
  | succ n => rfl

/-! ## The data of the pipelined launch -/

/-- On core `c`: the arrays as the pass finds them (`V`); after the body on tile `t`, each input block's
    buffer still at its block, and the three output blocks' buffers at the first three entries of
    the record; between tiles, `PhiS6`; every share full; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => (outsAt6 V c t.val t.isLt).1
    | ⟨7, _⟩ => (outsAt6 V c t.val t.isLt).2.1
    | ⟨8, _⟩ => (outsAt6 V c t.val t.isLt).2.2.1
  Φ t := PhiS6 V c t.val (Nat.le_of_lt_succ t.isLt)
  q _ := fullShare
  owed _ := 0

/-- The arrays of the data are `V`'s: the field projected. -/
theorem A_eq6 (c : Dev nD) (w : Fin cfg6.W) : (dat6 V c).A w = V c (Pipeline.arrRef spec6 w) := by
  dsimp only [dat6]

/-- What is kept before tile `t`, restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-- Before the first tile: what any pass of this kind may assume. -/
theorem Phi6_first (c : Dev nD) : (dat6 V c).Φ 0 = Pipeline.ΦA spec6 c := by
  rw [show (dat6 V c).Φ 0 = PhiS6 V c 0 (Nat.zero_le _) from rfl, PhiS6_zero V c 0 _ rfl]

/-! What the body leaves, block by block: the data's case split reduced at each literal block. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = (outsAt6 V c t.val t.isLt).1 := by dsimp only [dat6]
theorem after6_7 (c : Dev nD) (t : Fin cfg6.N) : (dat6 V c).after 7 t = (outsAt6 V c t.val t.isLt).2.1 := by dsimp only [dat6]
theorem after6_8 (c : Dev nD) (t : Fin cfg6.N) : (dat6 V c).after 8 t = (outsAt6 V c t.val t.isLt).2.2.1 := by dsimp only [dat6]

end Cert.KernelIdeal.Hand

end
-- ==== Proof.KernelIdeal.Mlp6Obl.lean ====
import proofs.«144771_j36481452212846_1_alg».proof.Proof.KernelIdeal.Mlp6Dat

/-! # The first statistics pass: the body does on every tile what the data say

With the record of what each buffer holds after each tile in hand, it remains to check it against
the body, one tile at a time. On tile `t` the body is handed each block's buffer. An input block's
buffer holds that block whether or not it was fetched on this tile: the weights and biases are
fetched on tile 0 only, but their block never moves, and the body leaves them as it finds them. The
tile's number picks the case (0: first; 1 to 8: middle; 9: last); the running rows come in at
anything on tile 0 and at what tile `t − 1` left afterwards; the case's run then ends with every
buffer holding what the record says, because the pieces it writes cover each written buffer. The
mean and variance buffers, not touched before tile 9, go back as they came. After the last tile,
forgetting what the running rows hold gives back what the pass was entered with. -/

-- deciding membership in a block of 5000 rows walks the long axis one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what every buffer of the core holds when the pass is entered
variable (V : (c : Dev nD) → (b : Ref sig .tc) → Buf (Elt F) ((c : Thread nD τ).loc b))

/-! ## What the body finds in the input blocks

For any data whose array for input block `W` is `V`'s and whose body hands the block's buffer back
holding the block, the buffer holds block `t` on tile `t`, for every `t`: where the block was fetched
this is what the fetch wrote; where it was not, the block's index is the one of the tile before,
and the buffer, left alone, still holds it. None of these blocks is cut short at the array's edge
and none is ever out of use, which settles the side conditions by unfolding. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! The same for the data of this pass. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## One tile -/

/-- What the body is handed on tile `t`: what is kept between tiles, the ledger of owed signals, and
    each block's current buffer, whole, at what it holds before the body. -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d)))

/-- What it must hand back: the same, each buffer at what the data say the body leaves there (for a
    block out of use on this tile and not written back: at what it held). -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t)

set_option maxHeartbeats 4800000 in
/-- The body on tile `t` takes the one to the other. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  rw [show (dat6 V c).leavesExact 4 t = owns (c : Thread nD τ) (ms6_4 t) fullShare ((dat6 V c).after 4 t) from by
    unfold Dat.leavesExact; rw [liveAt6_4 t], after6_4]
  rw [show (dat6 V c).leavesExact 5 t = owns (c : Thread nD τ) (ms6_5 t) fullShare ((dat6 V c).after 5 t) from by
    unfold Dat.leavesExact; rw [liveAt6_5 t], after6_5]
  rw [show (dat6 V c).leavesExact 6 t = owns (c : Thread nD τ) (ms6_6 t) fullShare ((dat6 V c).after 6 t) from by
    unfold Dat.leavesExact; rw [liveAt6_6 t], after6_6]
  by_cases h0 : t.val % 10 = 0
  · by_cases h1 : t.val % 10 = 9
    · exfalso; omega
    ·
      -- first tile
      have hz : t.val = 0 := by omega
      have hc0 : cond6_0 (grid6.coords t) := (hcond6_0 t).mpr h0
      have hc1 : ¬cond6_1 (grid6.coords t) := fun h => h1 ((hcond6_1 t).mp h)
      rw [Dat.leavesExact_idle (dat6 V c) 7 t (idleAt6_7_A t hc0 hc1) (noFlush6_7_A t hc0 hc1)]
      rw [Dat.leavesExact_idle (dat6 V c) 8 t (idleAt6_8_A t hc0 hc1) (noFlush6_8_A t hc0 hc1)]
      rw [outsAt6_A V c t h0 h1]
      unfold out6_A_6 sout6_A_0 sout6_A_1; (try dsimp only)
      rw [PhiS6_castSucc V c t, PhiS6_zero V c _ _ hz, PhiA6_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun6_A c (grid6.coords t) _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t)).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_A_0 c _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover6_A_1 c _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_A_6 c _ _ _ _ _ _ _ _ _ _ _ _ _ _ _ _ _ _ _ _ _ _ _ _ _ _ _ _ _ _ _)
      isplitl [H7]; · iexists _; iexact H7
      iexists _; iexact H8
  · by_cases h1 : t.val % 10 = 9
    ·
      -- last tile
      have hz : t.val ≠ 0 := by omega
      have hc0 : ¬cond6_0 (grid6.coords t) := fun h => h0 ((hcond6_0 t).mp h)
      have hc1 : cond6_1 (grid6.coords t) := (hcond6_1 t).mpr h1
      rw [show (dat6 V c).leavesExact 7 t = owns (c : Thread nD τ) (ms6_7 t) fullShare ((dat6 V c).after 7 t) from by
        unfold Dat.leavesExact; rw [liveAt6_7_C t hc0 hc1], after6_7]
      rw [show (dat6 V c).leavesExact 8 t = owns (c : Thread nD τ) (ms6_8 t) fullShare ((dat6 V c).after 8 t) from by
        unfold Dat.leavesExact; rw [liveAt6_8_C t hc0 hc1], after6_8]
      rw [outsAt6_C V c t h0 h1]
      unfold out6_C_6 out6_C_7 out6_C_8 sout6_C_0 sout6_C_1; (try dsimp only)
      rw [PhiS6_castSucc V c t, PhiS6_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun6_C c (grid6.coords t) _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover6_C_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover6_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover6_C_8 c _ _ _ _ _ _ _ _ _ _ _ _ _ _ _ _ _ _ _ _ _ _ _ _ _ _ _ _ _ _ _ _ _)
    ·
      -- a middle tile
      have hz : t.val ≠ 0 := by omega
      have hc0 : ¬cond6_0 (grid6.coords t) := fun h => h0 ((hcond6_0 t).mp h)
      have hc1 : ¬cond6_1 (grid6.coords t) := fun h => h1 ((hcond6_1 t).mp h)
      rw [Dat.leavesExact_idle (dat6 V c) 7 t (idleAt6_7_B t hc0 hc1) (noFlush6_7_B t hc0 hc1)]
      rw [Dat.leavesExact_idle (dat6 V c) 8 t (idleAt6_8_B t hc0 hc1) (noFlush6_8_B t hc0 hc1)]
      rw [outsAt6_B V c t h0 h1]
      unfold out6_B_6 sout6_B_0 sout6_B_1; (try dsimp only)
      rw [PhiS6_castSucc V c t, PhiS6_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun6_B c (grid6.coords t) _ _ _ _ _ _ _ _ _ _ _ _ _ _ _ _ _ _ _ _ _ _ hc0 hc1 (iblk6 V c 0 t) (iblk6 V c 1 t) (iblk6 V c 2 t) (iblk6 V c 3 t) (iblk6 V c 4 t) (iblk6 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover6_B_1 c _ _ _ _ _ _ _ _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_B_6 c _ _ _ _ _ _ _ _ _ _ _ _ _ _ _ _ _ _ _ _ _ _ _ _ _ _ _ _ _ _ _ _ _)
      isplitl [H7]; · iexists _; iexact H7
      iexists _; iexact H8

/-- The obligation in the form the launch takes it: the conjunction over all nine blocks, spelled
    block by block, is the pair above. -/
theorem body_obligation6 (c : Dev nD) : BodyObligation (dat6 (F := F) V c) (defs₀ (F := F)) Variants.none () Set.univ := fun t => by
  rw [bigSep_W6, bigSep_W6]
  exact sound_body6 V c t

/-! ## Leaving the pass -/

/-- After any tile, forgetting what the two running rows hold gives back what a pass of this kind
    is entered with. -/
theorem Phi6_out (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- In particular after the last tile. -/
theorem Phi6_last_ent (c : Dev nD) : (dat6 V c).Φ (Fin.last cfg6.N) ⊢ Pipeline.ΦA spec6 c :=
  Phi6_out V c _ (by rw [Fin.val_last]; have : cfg6.N = 10 := N_6; omega)

end Cert.KernelIdeal.Hand

end
-- ==== Proof.KernelIdeal.Bn7.lean ====
/-
  One region of @main: the batch-norm-and-ReLU pallas_call of a GIN layer (cc7__bn_relu_kernel, with the
  pipeline cfg7 that launches it), on its grid of ten row tiles.

  Everything here is stated at a PARAMETER V: what the TensorCore's buffers hold at the moment the region is
  entered. From V alone we say what each window's block is at each grid point, what the body leaves in the
  output tile (one store of the normalised, scaled, shifted and clamped tile, a closed function of the five
  input blocks), and we discharge the per-point obligation the pipelined launch asks of the body.

  The body belongs to the plainest class of pipeline bodies: it reads its five input tiles through whole-tile
  rectangles, reads (and ignores) what the output tile held, writes the output tile once through a whole-tile
  rectangle, and keeps nothing between grid points. Four of the five inputs (variance, mean, scale, shift: one
  row of 64 each) have a block index that never moves, so the pipeline fetches them only at the first point;
  at later points their staging buffers still hold the same block, which is what the body needs.
-/
import proofs.«144771_j36481452212846_1_alg».proof.Proof.Gen.KernelIdeal.Launch
import proofs.«144771_j36481452212846_1_alg».proof.Proof.Gen.KernelIdeal.Skeleton
import proofs.«144771_j36481452212846_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle of 5000 rows walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what every TensorCore buffer holds when the region is entered
variable (V : (c : Dev nD) → (b : Ref sig .tc) → Buf (Elt F) ((c : Thread nD τ).loc b))

/-! ## Blocks of the windows -/

/-- The block of window w at grid point t: the part of the window's array, as V has it, that the window's index
    map selects at t. For window 0 and window 5 this is row tile t of a 50000x64 array; for windows 1 to 4 it is
    the whole 1x64 row at every t. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## What the body finds in the input windows

  For proof data whose array for window W is V's and whose body hands window W back holding its block, the
  current staging buffer of W holds block t at point t, for every t. Where the pipeline fetched at t this is
  what the fetch wrote; where it did not (windows 1 to 4 after the first point) the block index at t equals the
  one at t-1, so the buffer, left alone by the body, still holds the right block. The windows are never cut
  and never idle, which settles the side conditions by unfolding. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The rectangles the body reads and writes through -/

/-- The whole 5000x64 tile. -/
abbrev r7_0 : Rect S5000x64 := Rect.unit (s := S5000x64) ![0, 0] S5000x64.size inb_S5000x64_S5000x64_0_0
/-- The whole 1x64 row. -/
abbrev r7_1 : Rect S1x64 := Rect.unit (s := S1x64) ![0, 0] S1x64.size inb_S1x64_S1x64_0_0

/-! ## The output tile after the body -/

/-- What the output window's staging buffer holds once the body has run, given the five input blocks
    (x0 the tile of pre-activations, x1 the mean row, x2 the variance row, x3 the scale row, x4 the shift row):
    the body's single store, over the whole tile, of max((x0 - x1) * rsqrt(x2 + eps) * x3 + x4, 0), the rows
    broadcast down the tile. The payload lists the values in the order the body reads them, and the body reads
    the variance row before the mean row; hence x2 stands before x1 below. -/
def out7_5 (x0 : Vec F S5000x64 .f32) (x1 x2 x3 x4 : Vec F S1x64 .f32) : Vec F S5000x64 .f32 :=
  View.canon [⟨r7_0, k7_pay1 (View.ld x0 r7_0) (View.ld x2 r7_1) (View.ld x1 r7_1) (View.ld x3 r7_1) (View.ld x4 r7_1)⟩]

/-- A single whole-tile piece covers the tile: one block of the tile's own size tiles it. -/
theorem cover7_5 (p0 : Vec F S5000x64 .f32) (y : S5000x64.Idx) :
    ∃ pc ∈ ([⟨r7_0, p0⟩] : List (View.Piece (Elt F) S5000x64 .f32)), y ∈ pc.1.set :=
  View.cover_of_tiled [⟨r7_0, p0⟩] S5000x64.size (by rfl) y

/-! ## The body on its six staging buffers -/

set_option maxHeartbeats 1000000 in
/-- Run on six whole staging buffers, the five inputs reading x0 … x4 and the output holding anything, the body
    ends with the inputs unchanged and the output reading out7_5 x0 … x4. The printed function is a sequence of
    five whole-buffer loads, one more load (of the output buffer, whose value nothing uses), and one whole-buffer
    store; symbolic execution walks it, and the store, covering the tile, leaves the canonical contents of its
    one piece whatever the output held before. -/
theorem sound_kernel7 (c : Dev nD) (E : Set ℕ) (i : grid7.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E
          (cc7__bn_relu_kernel i arg1 harg1 arg2 harg2 arg3 harg3 arg4 harg4 arg5 harg5 arg6 harg6) K := by
  simp only [cc7__bn_relu_kernel_eq_skeleton]; unfold cc7__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The proof data of the pipeline -/

/-- The proof data of this region's pipeline (cfg7) on core c. The arrays are what the region finds (V). After the body at point t every
    input window's buffer still holds its block, and the output window's holds out7_5 of the five input blocks.
    The invariant carried from point to point is the plain one (the scoped rest and the generator register,
    neither touched); every share is the full one; no signal is owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The arrays of the proof data are V's: the field projected. -/
theorem A_eq7 (c : Dev nD) (w : Fin cfg7.W) : (dat7 V c).A w = V c (Pipeline.arrRef spec7 w) := by
  dsimp only [dat7]

/-! What the body leaves, one window at a time: the case split of the definition reduced at each literal window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

/-! What the body finds in each input window, for this proof data: its block, at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The obligation of the body at a grid point -/

/-- What the launch hands the body at point t: the invariant, the ledger of owed signals, and each window's current
    staging buffer, whole, holding what that window holds before the body. -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- What the launch wants back: the same, each buffer now holding what the proof data says the body leaves. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at point t takes the one to the other. Each input buffer holds its block (before7_W), so the triple
    of the body applies with the blocks for x0 … x4; the invariant and the ledger are neither read nor changed,
    and do not depend on the point. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _
    (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation in the form the launch theorem takes it: the conjunction over all windows, spelled window by
    window, is the pre- and postcondition above. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KernelIdeal.Segs.lean ====
/-
  The run of @main, from the launch to the return.

  @main is four GIN layers, each a stretch of host operations (the neighbour sum and the slicing of that layer's
  parameters) followed by two pipelined kernel launches: one that applies the layer's two-layer perceptron tile by
  tile while accumulating the column sums and sums of squares of its output, and one that normalises with the
  resulting mean and variance, scales, shifts and clamps at zero. Twelve items in all.

  This module names what every buffer of a core holds at each of the thirteen boundaries between items (a fold
  from the launch memory), shows that no item ever changes an argument array, packages each launch as an item
  entered from one boundary's contents and left at the next one's, and runs the twelve items with the launch
  theorem for programs of several kernel regions. The result: the program terminates without fault and every
  unscoped buffer ends at the last boundary's contents; in particular every argument ends as launched, and the
  result array holds what the eighth launch leaves in it.
-/
import proofs.«144771_j36481452212846_1_alg».proof.Proof.Gen.KernelIdeal.Regions
import proofs.«144771_j36481452212846_1_alg».proof.Proof.KernelIdeal.Mlp0Obl
import proofs.«144771_j36481452212846_1_alg».proof.Proof.KernelIdeal.Bn1
import proofs.«144771_j36481452212846_1_alg».proof.Proof.KernelIdeal.Mlp2Obl
import proofs.«144771_j36481452212846_1_alg».proof.Proof.KernelIdeal.Bn3
import proofs.«144771_j36481452212846_1_alg».proof.Proof.KernelIdeal.Mlp4Obl
import proofs.«144771_j36481452212846_1_alg».proof.Proof.KernelIdeal.Bn5
import proofs.«144771_j36481452212846_1_alg».proof.Proof.KernelIdeal.Mlp6Obl
import proofs.«144771_j36481452212846_1_alg».proof.Proof.KernelIdeal.Bn7
import Idealize.ShloMosaic.Lib.Pipeline.FrameBody
import Idealize.ShloMosaic.Lib.Pipeline.RegionsLoop
import Idealize.ShloMosaic.Lib.Pipeline.FrameSuffix
import Idealize.ShloMosaic.Lib.Tactic

-- deciding that a reference is none of a launch's window arrays, or none of a stretch's thirty results, compares
-- it against each in turn among the program's two hundred references
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The buffer contents at every boundary between two items of @main

@main is twelve items: a host stretch, two kernel regions, and again, four times over (one GIN layer each). We name what
every buffer of a core holds between two items, starting from the launch memory: a host stretch computes its
operations' results; a kernel region rewrites its window arrays and nothing else. -/

/-- What core `c`'s buffers hold at launch. -/
abbrev W0 : Dev nD → Valuation τ sig (Elt F) := fun c b => (s₀ m ρ).mem ((c : Dev nD), b)

/-- After the host stretch `hostOps0`: every buffer the stretch's operations compute holds its value, every other buffer is
    as before. This is what region 0 is entered from. -/
abbrev W1 : Dev nD → Valuation τ sig (Elt F) := fun c => StableHlo.after hostOps0 (W0 m ρ c)
/-- The same contents, read at the TensorCore's references. -/
abbrev V1 : (c : Dev nD) → (b : Ref sig .tc) → Buf (Elt F) ((c : Thread nD τ).loc b) := fun c b => W1 m ρ c b
/-- A buffer none of the stretch's operations writes is unchanged across it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After region 0 (layer 0, the linear-ReLU-linear kernel with its running column sums): each of the region's window arrays holds what
    the pipelined launch leaves there — an input array what it held, an output array its tiles' write-backs folded in
    grid order — and every other buffer is as the region found it. -/
def W2 (c : Dev nD) : Valuation τ sig (Elt F) :=
  Pipeline.withArrays spec0 c (W1 m ρ c) fun w => (dat0 (V1 m ρ) c).arrAt w cfg0.N
/-- At a window array of region 0, the contents after the region are the launch's final contents of that array. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- At any buffer that is no window array of region 0, the region changes nothing. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array is never written: it leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- The same contents, read at the TensorCore's references. -/
abbrev V2 : (c : Dev nD) → (b : Ref sig .tc) → Buf (Elt F) ((c : Thread nD τ).loc b) := fun c b => W2 m ρ c b
/-- The two facts that put region 0's arrays back among all the unscoped buffers at its exit: each array holds the
    launch's final contents, every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1 (layer 0, the normalise-scale-shift-clamp kernel): each of the region's window arrays holds what
    the pipelined launch leaves there — an input array what it held, an output array its tiles' write-backs folded in
    grid order — and every other buffer is as the region found it. -/
def W3 (c : Dev nD) : Valuation τ sig (Elt F) :=
  Pipeline.withArrays spec1 c (W2 m ρ c) fun w => (dat1 (V2 m ρ) c).arrAt w cfg1.N
/-- At a window array of region 1, the contents after the region are the launch's final contents of that array. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- At any buffer that is no window array of region 1, the region changes nothing. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array is never written: it leaves region 1 as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
/-- The same contents, read at the TensorCore's references. -/
abbrev V3 : (c : Dev nD) → (b : Ref sig .tc) → Buf (Elt F) ((c : Thread nD τ).loc b) := fun c b => W3 m ρ c b
/-- The two facts that put region 1's arrays back among all the unscoped buffers at its exit: each array holds the
    launch's final contents, every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host stretch `hostOps2`: every buffer the stretch's operations compute holds its value, every other buffer is
    as before. This is what region 2 is entered from. -/
abbrev W4 : Dev nD → Valuation τ sig (Elt F) := fun c => StableHlo.after hostOps2 (W3 m ρ c)
/-- The same contents, read at the TensorCore's references. -/
abbrev V4 : (c : Dev nD) → (b : Ref sig .tc) → Buf (Elt F) ((c : Thread nD τ).loc b) := fun c b => W4 m ρ c b
/-- A buffer none of the stretch's operations writes is unchanged across it. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

/-- After region 2 (layer 1, the linear-ReLU-linear kernel with its running column sums): each of the region's window arrays holds what
    the pipelined launch leaves there — an input array what it held, an output array its tiles' write-backs folded in
    grid order — and every other buffer is as the region found it. -/
def W5 (c : Dev nD) : Valuation τ sig (Elt F) :=
  Pipeline.withArrays spec2 c (W4 m ρ c) fun w => (dat2 (V4 m ρ) c).arrAt w cfg2.N
/-- At a window array of region 2, the contents after the region are the launch's final contents of that array. -/
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
/-- At any buffer that is no window array of region 2, the region changes nothing. -/
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- An input window's array is never written: it leaves region 2 as it entered. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw _).trans (A_eq2 (V4 m ρ) c w))
/-- The same contents, read at the TensorCore's references. -/
abbrev V5 : (c : Dev nD) → (b : Ref sig .tc) → Buf (Elt F) ((c : Thread nD τ).loc b) := fun c b => W5 m ρ c b
/-- The two facts that put region 2's arrays back among all the unscoped buffers at its exit: each array holds the
    launch's final contents, every other buffer what it held at entry. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After region 3 (layer 1, the normalise-scale-shift-clamp kernel): each of the region's window arrays holds what
    the pipelined launch leaves there — an input array what it held, an output array its tiles' write-backs folded in
    grid order — and every other buffer is as the region found it. -/
def W6 (c : Dev nD) : Valuation τ sig (Elt F) :=
  Pipeline.withArrays spec3 c (W5 m ρ c) fun w => (dat3 (V5 m ρ) c).arrAt w cfg3.N
/-- At a window array of region 3, the contents after the region are the launch's final contents of that array. -/
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
/-- At any buffer that is no window array of region 3, the region changes nothing. -/
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- An input window's array is never written: it leaves region 3 as it entered. -/
theorem W6_in (c : Dev nD) (w : Fin cfg3.W) (hw : (cfg3.win w).isOut = false) :
    W6 m ρ c (Proc.devRef .tc (Pipeline.arrRef spec3 w)) = W5 m ρ c (Proc.devRef .tc (Pipeline.arrRef spec3 w)) :=
  (W6_arr m ρ c w).trans (((dat3 (V5 m ρ) c).arrAt_in w hw _).trans (A_eq3 (V5 m ρ) c w))
/-- The same contents, read at the TensorCore's references. -/
abbrev V6 : (c : Dev nD) → (b : Ref sig .tc) → Buf (Elt F) ((c : Thread nD τ).loc b) := fun c b => W6 m ρ c b
/-- The two facts that put region 3's arrays back among all the unscoped buffers at its exit: each array holds the
    launch's final contents, every other buffer what it held at entry. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After the host stretch `hostOps4`: every buffer the stretch's operations compute holds its value, every other buffer is
    as before. This is what region 4 is entered from. -/
abbrev W7 : Dev nD → Valuation τ sig (Elt F) := fun c => StableHlo.after hostOps4 (W6 m ρ c)
/-- The same contents, read at the TensorCore's references. -/
abbrev V7 : (c : Dev nD) → (b : Ref sig .tc) → Buf (Elt F) ((c : Thread nD τ).loc b) := fun c b => W7 m ρ c b
/-- A buffer none of the stretch's operations writes is unchanged across it. -/
theorem W7_of (c : Dev nD) (r : Ref sig .tc) (h : r ∉ hostOps4_W) :
    W7 m ρ c (Proc.devRef .tc r) = W6 m ρ c (Proc.devRef .tc r) :=
  StableHlo.after_of_writes_sub hostOps4 _ hostOps4_writes h

/-- After region 4 (layer 2, the linear-ReLU-linear kernel with its running column sums): each of the region's window arrays holds what
    the pipelined launch leaves there — an input array what it held, an output array its tiles' write-backs folded in
    grid order — and every other buffer is as the region found it. -/
def W8 (c : Dev nD) : Valuation τ sig (Elt F) :=
  Pipeline.withArrays spec4 c (W7 m ρ c) fun w => (dat4 (V7 m ρ) c).arrAt w cfg4.N
/-- At a window array of region 4, the contents after the region are the launch's final contents of that array. -/
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
/-- At any buffer that is no window array of region 4, the region changes nothing. -/
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- An input window's array is never written: it leaves region 4 as it entered. -/
theorem W8_in (c : Dev nD) (w : Fin cfg4.W) (hw : (cfg4.win w).isOut = false) :
    W8 m ρ c (Proc.devRef .tc (Pipeline.arrRef spec4 w)) = W7 m ρ c (Proc.devRef .tc (Pipeline.arrRef spec4 w)) :=
  (W8_arr m ρ c w).trans (((dat4 (V7 m ρ) c).arrAt_in w hw _).trans (A_eq4 (V7 m ρ) c w))
/-- The same contents, read at the TensorCore's references. -/
abbrev V8 : (c : Dev nD) → (b : Ref sig .tc) → Buf (Elt F) ((c : Thread nD τ).loc b) := fun c b => W8 m ρ c b
/-- The two facts that put region 4's arrays back among all the unscoped buffers at its exit: each array holds the
    launch's final contents, every other buffer what it held at entry. -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After region 5 (layer 2, the normalise-scale-shift-clamp kernel): each of the region's window arrays holds what
    the pipelined launch leaves there — an input array what it held, an output array its tiles' write-backs folded in
    grid order — and every other buffer is as the region found it. -/
def W9 (c : Dev nD) : Valuation τ sig (Elt F) :=
  Pipeline.withArrays spec5 c (W8 m ρ c) fun w => (dat5 (V8 m ρ) c).arrAt w cfg5.N
/-- At a window array of region 5, the contents after the region are the launch's final contents of that array. -/
theorem W9_arr (c : Dev nD) (w : Fin cfg5.W) :
    W9 m ρ c (Proc.devRef .tc (Pipeline.arrRef spec5 w)) = (dat5 (V8 m ρ) c).arrAt w cfg5.N := by
  unfold W9; exact Pipeline.withArrays_arr spec5 launch5.win.arr_inj c _ _ w
/-- At any buffer that is no window array of region 5, the region changes nothing. -/
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
/-- An input window's array is never written: it leaves region 5 as it entered. -/
theorem W9_in (c : Dev nD) (w : Fin cfg5.W) (hw : (cfg5.win w).isOut = false) :
    W9 m ρ c (Proc.devRef .tc (Pipeline.arrRef spec5 w)) = W8 m ρ c (Proc.devRef .tc (Pipeline.arrRef spec5 w)) :=
  (W9_arr m ρ c w).trans (((dat5 (V8 m ρ) c).arrAt_in w hw _).trans (A_eq5 (V8 m ρ) c w))
/-- The same contents, read at the TensorCore's references. -/
abbrev V9 : (c : Dev nD) → (b : Ref sig .tc) → Buf (Elt F) ((c : Thread nD τ).loc b) := fun c b => W9 m ρ c b
/-- The two facts that put region 5's arrays back among all the unscoped buffers at its exit: each array holds the
    launch's final contents, every other buffer what it held at entry. -/
theorem hF5 (c : Dev nD) (w : Fin cfg5.W) : (dat5 (V8 m ρ) c).arrAt w cfg5.N = V9 m ρ c (Pipeline.arrRef spec5 w) :=
  (W9_arr m ρ c w).symm
theorem hrest5 (c : Dev nD) : ∀ b, b ∉ Finset.univ.image (Pipeline.arrRef spec5) → V9 m ρ c b = V8 m ρ c b :=
  fun b hb => W9_of_ne m ρ c b fun w e => hb (Finset.mem_image.mpr ⟨w, Finset.mem_univ _, e⟩)

/-- After the host stretch `hostOps6`: every buffer the stretch's operations compute holds its value, every other buffer is
    as before. This is what region 6 is entered from. -/
abbrev W10 : Dev nD → Valuation τ sig (Elt F) := fun c => StableHlo.after hostOps6 (W9 m ρ c)
/-- The same contents, read at the TensorCore's references. -/
abbrev V10 : (c : Dev nD) → (b : Ref sig .tc) → Buf (Elt F) ((c : Thread nD τ).loc b) := fun c b => W10 m ρ c b
/-- A buffer none of the stretch's operations writes is unchanged across it. -/
theorem W10_of (c : Dev nD) (r : Ref sig .tc) (h : r ∉ hostOps6_W) :
    W10 m ρ c (Proc.devRef .tc r) = W9 m ρ c (Proc.devRef .tc r) :=
  StableHlo.after_of_writes_sub hostOps6 _ hostOps6_writes h

/-- After region 6 (layer 3, the linear-ReLU-linear kernel with its running column sums): each of the region's window arrays holds what
    the pipelined launch leaves there — an input array what it held, an output array its tiles' write-backs folded in
    grid order — and every other buffer is as the region found it. -/
def W11 (c : Dev nD) : Valuation τ sig (Elt F) :=
  Pipeline.withArrays spec6 c (W10 m ρ c) fun w => (dat6 (V10 m ρ) c).arrAt w cfg6.N
/-- At a window array of region 6, the contents after the region are the launch's final contents of that array. -/
theorem W11_arr (c : Dev nD) (w : Fin cfg6.W) :
    W11 m ρ c (Proc.devRef .tc (Pipeline.arrRef spec6 w)) = (dat6 (V10 m ρ) c).arrAt w cfg6.N := by
  unfold W11; exact Pipeline.withArrays_arr spec6 launch6.win.arr_inj c _ _ w
/-- At any buffer that is no window array of region 6, the region changes nothing. -/
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
/-- An input window's array is never written: it leaves region 6 as it entered. -/
theorem W11_in (c : Dev nD) (w : Fin cfg6.W) (hw : (cfg6.win w).isOut = false) :
    W11 m ρ c (Proc.devRef .tc (Pipeline.arrRef spec6 w)) = W10 m ρ c (Proc.devRef .tc (Pipeline.arrRef spec6 w)) :=
  (W11_arr m ρ c w).trans (((dat6 (V10 m ρ) c).arrAt_in w hw _).trans (A_eq6 (V10 m ρ) c w))
/-- The same contents, read at the TensorCore's references. -/
abbrev V11 : (c : Dev nD) → (b : Ref sig .tc) → Buf (Elt F) ((c : Thread nD τ).loc b) := fun c b => W11 m ρ c b
/-- The two facts that put region 6's arrays back among all the unscoped buffers at its exit: each array holds the
    launch's final contents, every other buffer what it held at entry. -/
theorem hF6 (c : Dev nD) (w : Fin cfg6.W) : (dat6 (V10 m ρ) c).arrAt w cfg6.N = V11 m ρ c (Pipeline.arrRef spec6 w) :=
  (W11_arr m ρ c w).symm
theorem hrest6 (c : Dev nD) : ∀ b, b ∉ Finset.univ.image (Pipeline.arrRef spec6) → V11 m ρ c b = V10 m ρ c b :=
  fun b hb => W11_of_ne m ρ c b fun w e => hb (Finset.mem_image.mpr ⟨w, Finset.mem_univ _, e⟩)

/-- After region 7 (layer 3, the normalise-scale-shift-clamp kernel): each of the region's window arrays holds what
    the pipelined launch leaves there — an input array what it held, an output array its tiles' write-backs folded in
    grid order — and every other buffer is as the region found it. -/
def W12 (c : Dev nD) : Valuation τ sig (Elt F) :=
  Pipeline.withArrays spec7 c (W11 m ρ c) fun w => (dat7 (V11 m ρ) c).arrAt w cfg7.N
/-- At a window array of region 7, the contents after the region are the launch's final contents of that array. -/
theorem W12_arr (c : Dev nD) (w : Fin cfg7.W) :
    W12 m ρ c (Proc.devRef .tc (Pipeline.arrRef spec7 w)) = (dat7 (V11 m ρ) c).arrAt w cfg7.N := by
  unfold W12; exact Pipeline.withArrays_arr spec7 launch7.win.arr_inj c _ _ w
/-- At any buffer that is no window array of region 7, the region changes nothing. -/
theorem W12_of_ne (c : Dev nD) (b : Ref sig .tc) (hb : ∀ w, Pipeline.arrRef spec7 w ≠ b) :
    W12 m ρ c (Proc.devRef .tc b) = W11 m ρ c (Proc.devRef .tc b) := by
  unfold W12; exact Pipeline.withArrays_of_ne spec7 c _ _ b hb
/-- An input window's array is never written: it leaves region 7 as it entered. -/
theorem W12_in (c : Dev nD) (w : Fin cfg7.W) (hw : (cfg7.win w).isOut = false) :
    W12 m ρ c (Proc.devRef .tc (Pipeline.arrRef spec7 w)) = W11 m ρ c (Proc.devRef .tc (Pipeline.arrRef spec7 w)) :=
  (W12_arr m ρ c w).trans (((dat7 (V11 m ρ) c).arrAt_in w hw _).trans (A_eq7 (V11 m ρ) c w))
/-- The same contents, read at the TensorCore's references. -/
abbrev V12 : (c : Dev nD) → (b : Ref sig .tc) → Buf (Elt F) ((c : Thread nD τ).loc b) := fun c b => W12 m ρ c b
/-- The two facts that put region 7's arrays back among all the unscoped buffers at its exit: each array holds the
    launch's final contents, every other buffer what it held at entry. -/
theorem hF7 (c : Dev nD) (w : Fin cfg7.W) : (dat7 (V11 m ρ) c).arrAt w cfg7.N = V12 m ρ c (Pipeline.arrRef spec7 w) :=
  (W12_arr m ρ c w).symm
theorem hrest7 (c : Dev nD) : ∀ b, b ∉ Finset.univ.image (Pipeline.arrRef spec7) → V12 m ρ c b = V11 m ρ c b :=
  fun b hb => W12_of_ne m ρ c b fun w e => hb (Finset.mem_image.mpr ⟨w, Finset.mem_univ _, e⟩)

/-! ## The arguments end as launched

No host operation writes an argument array, and no region has one as an output window: region 0 reads three of them
(the node features and the first layer's two weight matrices) through input windows, which are never written; every
other region's windows are arrays the program itself computed. So the contents of an argument's buffer walk back
unchanged through all twelve items to the launch memory. -/

/-- A buffer that none of the three later host stretches writes and that is no window array of regions 1 to 7
    holds at the end what it held when region 0 was left. -/
theorem W12_eq_W2 (c : Dev nD) (r : Ref sig .tc)
    (h2 : r ∉ hostOps2_W) (h4 : r ∉ hostOps4_W) (h6 : r ∉ hostOps6_W)
    (n1 : ∀ w, Pipeline.arrRef spec1 w ≠ r) (n2 : ∀ w, Pipeline.arrRef spec2 w ≠ r) (n3 : ∀ w, Pipeline.arrRef spec3 w ≠ r)
    (n4 : ∀ w, Pipeline.arrRef spec4 w ≠ r) (n5 : ∀ w, Pipeline.arrRef spec5 w ≠ r) (n6 : ∀ w, Pipeline.arrRef spec6 w ≠ r)
    (n7 : ∀ w, Pipeline.arrRef spec7 w ≠ r) :
    W12 m ρ c (Proc.devRef .tc r) = W2 m ρ c (Proc.devRef .tc r) :=
  (W12_of_ne m ρ c r n7).trans <| (W11_of_ne m ρ c r n6).trans <| (W10_of m ρ c r h6).trans <|
  (W9_of_ne m ρ c r n5).trans <| (W8_of_ne m ρ c r n4).trans <| (W7_of m ρ c r h4).trans <|
  (W6_of_ne m ρ c r n3).trans <| (W5_of_ne m ρ c r n2).trans <| (W4_of m ρ c r h2).trans <|
  (W3_of_ne m ρ c r n1)

/-- `main_arg0` is read by region 0 through its input window 0 and by nothing else. -/
theorem W12_main_arg0 (c : Dev nD) : W12 m ρ c (Proc.devRef .tc main_arg0) = m ((c : Thread nD τ).loc main_arg0) :=
  (W12_eq_W2 m ρ c main_arg0 (by decide) (by decide) (by decide) (by decide) (by decide) (by decide) (by decide) (by decide)
    (by decide) (by decide)).trans <| (W2_in m ρ c 0 rfl).trans <| (W1_of m ρ c main_arg0 (by decide)).trans rfl

/-- `main_arg1` is no window array of any region and no host operation's result. -/
theorem W12_main_arg1 (c : Dev nD) : W12 m ρ c (Proc.devRef .tc main_arg1) = m ((c : Thread nD τ).loc main_arg1) :=
  (W12_eq_W2 m ρ c main_arg1 (by decide) (by decide) (by decide) (by decide) (by decide) (by decide) (by decide) (by decide)
    (by decide) (by decide)).trans <| (W2_of_ne m ρ c main_arg1 (by decide)).trans <| (W1_of m ρ c main_arg1 (by decide)).trans rfl

/-- `main_arg2` is no window array of any region and no host operation's result. -/
theorem W12_main_arg2 (c : Dev nD) : W12 m ρ c (Proc.devRef .tc main_arg2) = m ((c : Thread nD τ).loc main_arg2) :=
  (W12_eq_W2 m ρ c main_arg2 (by decide) (by decide) (by decide) (by decide) (by decide) (by decide) (by decide) (by decide)
    (by decide) (by decide)).trans <| (W2_of_ne m ρ c main_arg2 (by decide)).trans <| (W1_of m ρ c main_arg2 (by decide)).trans rfl

/-- `main_arg3` is read by region 0 through its input window 2 and by nothing else. -/
theorem W12_main_arg3 (c : Dev nD) : W12 m ρ c (Proc.devRef .tc main_arg3) = m ((c : Thread nD τ).loc main_arg3) :=
  (W12_eq_W2 m ρ c main_arg3 (by decide) (by decide) (by decide) (by decide) (by decide) (by decide) (by decide) (by decide)
    (by decide) (by decide)).trans <| (W2_in m ρ c 2 rfl).trans <| (W1_of m ρ c main_arg3 (by decide)).trans rfl

/-- `main_arg4` is no window array of any region and no host operation's result. -/
theorem W12_main_arg4 (c : Dev nD) : W12 m ρ c (Proc.devRef .tc main_arg4) = m ((c : Thread nD τ).loc main_arg4) :=
  (W12_eq_W2 m ρ c main_arg4 (by decide) (by decide) (by decide) (by decide) (by decide) (by decide) (by decide) (by decide)
    (by decide) (by decide)).trans <| (W2_of_ne m ρ c main_arg4 (by decide)).trans <| (W1_of m ρ c main_arg4 (by decide)).trans rfl

/-- `main_arg5` is read by region 0 through its input window 4 and by nothing else. -/
theorem W12_main_arg5 (c : Dev nD) : W12 m ρ c (Proc.devRef .tc main_arg5) = m ((c : Thread nD τ).loc main_arg5) :=
  (W12_eq_W2 m ρ c main_arg5 (by decide) (by decide) (by decide) (by decide) (by decide) (by decide) (by decide) (by decide)
    (by decide) (by decide)).trans <| (W2_in m ρ c 4 rfl).trans <| (W1_of m ρ c main_arg5 (by decide)).trans rfl

/-- `main_arg6` is no window array of any region and no host operation's result. -/
theorem W12_main_arg6 (c : Dev nD) : W12 m ρ c (Proc.devRef .tc main_arg6) = m ((c : Thread nD τ).loc main_arg6) :=
  (W12_eq_W2 m ρ c main_arg6 (by decide) (by decide) (by decide) (by decide) (by decide) (by decide) (by decide) (by decide)
    (by decide) (by decide)).trans <| (W2_of_ne m ρ c main_arg6 (by decide)).trans <| (W1_of m ρ c main_arg6 (by decide)).trans rfl

/-- `main_arg7` is no window array of any region and no host operation's result. -/
theorem W12_main_arg7 (c : Dev nD) : W12 m ρ c (Proc.devRef .tc main_arg7) = m ((c : Thread nD τ).loc main_arg7) :=
  (W12_eq_W2 m ρ c main_arg7 (by decide) (by decide) (by decide) (by decide) (by decide) (by decide) (by decide) (by decide)
    (by decide) (by decide)).trans <| (W2_of_ne m ρ c main_arg7 (by decide)).trans <| (W1_of m ρ c main_arg7 (by decide)).trans rfl

/-- `main_arg8` is no window array of any region and no host operation's result. -/
theorem W12_main_arg8 (c : Dev nD) : W12 m ρ c (Proc.devRef .tc main_arg8) = m ((c : Thread nD τ).loc main_arg8) :=
  (W12_eq_W2 m ρ c main_arg8 (by decide) (by decide) (by decide) (by decide) (by decide) (by decide) (by decide) (by decide)
    (by decide) (by decide)).trans <| (W2_of_ne m ρ c main_arg8 (by decide)).trans <| (W1_of m ρ c main_arg8 (by decide)).trans rfl

/-- `main_arg9` is no window array of any region and no host operation's result. -/
theorem W12_main_arg9 (c : Dev nD) : W12 m ρ c (Proc.devRef .tc main_arg9) = m ((c : Thread nD τ).loc main_arg9) :=
  (W12_eq_W2 m ρ c main_arg9 (by decide) (by decide) (by decide) (by decide) (by decide) (by decide) (by decide) (by decide)
    (by decide) (by decide)).trans <| (W2_of_ne m ρ c main_arg9 (by decide)).trans <| (W1_of m ρ c main_arg9 (by decide)).trans rfl

/-- `main_arg10` is no window array of any region and no host operation's result. -/
theorem W12_main_arg10 (c : Dev nD) : W12 m ρ c (Proc.devRef .tc main_arg10) = m ((c : Thread nD τ).loc main_arg10) :=
  (W12_eq_W2 m ρ c main_arg10 (by decide) (by decide) (by decide) (by decide) (by decide) (by decide) (by decide) (by decide)
    (by decide) (by decide)).trans <| (W2_of_ne m ρ c main_arg10 (by decide)).trans <| (W1_of m ρ c main_arg10 (by decide)).trans rfl

/-- `main_arg11` is no window array of any region and no host operation's result. -/
theorem W12_main_arg11 (c : Dev nD) : W12 m ρ c (Proc.devRef .tc main_arg11) = m ((c : Thread nD τ).loc main_arg11) :=
  (W12_eq_W2 m ρ c main_arg11 (by decide) (by decide) (by decide) (by decide) (by decide) (by decide) (by decide) (by decide)
    (by decide) (by decide)).trans <| (W2_of_ne m ρ c main_arg11 (by decide)).trans <| (W1_of m ρ c main_arg11 (by decide)).trans rfl

/-- `main_arg12` is no window array of any region and no host operation's result. -/
theorem W12_main_arg12 (c : Dev nD) : W12 m ρ c (Proc.devRef .tc main_arg12) = m ((c : Thread nD τ).loc main_arg12) :=
  (W12_eq_W2 m ρ c main_arg12 (by decide) (by decide) (by decide) (by decide) (by decide) (by decide) (by decide) (by decide)
    (by decide) (by decide)).trans <| (W2_of_ne m ρ c main_arg12 (by decide)).trans <| (W1_of m ρ c main_arg12 (by decide)).trans rfl

/-- `main_arg13` is no window array of any region and no host operation's result. -/
theorem W12_main_arg13 (c : Dev nD) : W12 m ρ c (Proc.devRef .tc main_arg13) = m ((c : Thread nD τ).loc main_arg13) :=
  (W12_eq_W2 m ρ c main_arg13 (by decide) (by decide) (by decide) (by decide) (by decide) (by decide) (by decide) (by decide)
    (by decide) (by decide)).trans <| (W2_of_ne m ρ c main_arg13 (by decide)).trans <| (W1_of m ρ c main_arg13 (by decide)).trans rfl

/-- `main_arg14` is no window array of any region and no host operation's result. -/
theorem W12_main_arg14 (c : Dev nD) : W12 m ρ c (Proc.devRef .tc main_arg14) = m ((c : Thread nD τ).loc main_arg14) :=
  (W12_eq_W2 m ρ c main_arg14 (by decide) (by decide) (by decide) (by decide) (by decide) (by decide) (by decide) (by decide)
    (by decide) (by decide)).trans <| (W2_of_ne m ρ c main_arg14 (by decide)).trans <| (W1_of m ρ c main_arg14 (by decide)).trans rfl

/-- The program's result is region 7's output array, at what that launch leaves in it. -/
theorem W12_result (c : Dev nD) : W12 m ρ c (Proc.devRef .tc main_v99) = (dat7 (V11 m ρ) c).arrAt 5 cfg7.N :=
  W12_arr m ρ c 5

/-! # The proof data of all eight launches, and what a core holds between two items -/

/-- Each launch's proof data, taken at the contents its region is entered from. A literal case split on the launch's
    number, so that at a numeral it reduces to that launch's own data. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V7 m ρ) c
  | ⟨5, _⟩ => fun c => dat5 (V8 m ρ) c
  | ⟨6, _⟩ => fun c => dat6 (V10 m ρ) c
  | ⟨7, _⟩ => fun c => dat7 (V11 m ρ) c

/-- No variant is in play, and no core owes another anything: no level is assigned. -/
abbrev 𝒱run : Variants := Variants.none
abbrev Lrun : GSem nD τ sig → Finset Unit := fun _ => ∅
abbrev lvrun : GSem nD τ sig → Unit → ℕ := fun _ _ => 0
/-- What a core carries beside its buffers through every item: its generator register at some state (a region's
    invariant takes it in and hands it back) and the fact that it owes nothing. -/
abbrev Ride (c : Dev nD) : sProp 𝕄 := iprop((∃ r, prngReg c r) ∗ ∃ W, owes (c : Thread nD τ) (0 : CellTallies nD τ sig Unit) W)
/-- A host stretch as an item of the run: from every unscoped buffer at `W` it reaches every unscoped buffer at the
    stretch's results over `W`, the rest of the core's state riding along untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱run Lrun lvrun :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
/-- A TensorCore reference that is not scoped is one of the buffers the run tracks. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the "owes nothing" (the launch theorem wants that stated beside it): every unscoped buffer
    at the final contents, the generator register at some state. -/
abbrev Tend (c : Dev nD) : sProp 𝕄 := iprop(StableHlo.held (c : Thread nD τ) (Pipeline.ucRefs τ sig) (W12 m ρ c) ∗ ∃ r, prngReg c r)

/-! # The eight launches as items of the run -/

-- applying a library lemma stated over the family's configuration at an index needs unification to unfold plain
-- definitions inside a metavariable's type
set_option backward.isDefEq.respectTransparency.types false in
/-- REGION 0 (layer 0, the linear-ReLU-linear kernel with its running column sums) as an item of the run: entered with every unscoped
    buffer at `W1`, left with every unscoped buffer at `W2` (what the next item is entered from). At entry the region's
    window arrays are taken out of the unscoped buffers, the rest bypasses the region; the two scratch rows of running sums ride in the invariant with the generator register — cleared at the first
    grid point, so at entry they may hold anything, and left at whatever the last point made of them —
    nothing is owed before or after; the kernel has no semaphore of its own. At exit the arrays, now at the
    launch's final contents, are put back among the bypassing buffers. -/
def reg0 : Pipeline.RegionSeg (pcfgs (F := F)) adm (pdats m ρ) () defs₀ 𝒱run Lrun lvrun 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ Lrun lvrun 0 fun _ _ => rfl
  pre c := iprop(StableHlo.held (c : Thread nD τ) (Pipeline.ucRefs τ sig) (W1 m ρ c) ∗ Ride c)
  post c := iprop(StableHlo.held (c : Thread nD τ) (Pipeline.ucRefs τ sig) (W2 m ρ c) ∗ Ride c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 0 c).Φ 0 = Pipeline.ΦA spec0 c from Phi0_first (V1 m ρ) c]; unfold Pipeline.ΦA
    iintro ⟨Hprng, -, Hscoped⟩
    isplitl [Hscoped]; · iexact Hscoped
    iexact Hprng
  hout c := by
    rw [Pipeline.ownSems0_none]
    refine (show (pdats m ρ 0 c).Φ (Fin.last _) ⊢ Pipeline.ΦA spec0 c from Phi0_last_ent (V1 m ρ) c).trans ?_
    unfold Pipeline.ΦA
    iintro ⟨Hscoped, Hprng⟩
    isplitl [Hprng]; · iexact Hprng
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

-- applying a library lemma stated over the family's configuration at an index needs unification to unfold plain
-- definitions inside a metavariable's type
set_option backward.isDefEq.respectTransparency.types false in
/-- REGION 1 (layer 0, the normalise-scale-shift-clamp kernel) as an item of the run: entered with every unscoped
    buffer at `W2`, left with every unscoped buffer at `W3` (what the next item is entered from). At entry the region's
    window arrays are taken out of the unscoped buffers, the rest bypasses the region; the generator register rides in the invariant and comes back —
    nothing is owed before or after; the kernel has no semaphore of its own. At exit the arrays, now at the
    launch's final contents, are put back among the bypassing buffers. -/
def reg1 : Pipeline.RegionSeg (pcfgs (F := F)) adm (pdats m ρ) () defs₀ 𝒱run Lrun lvrun 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ Lrun lvrun 1 fun _ _ => rfl
  pre c := iprop(StableHlo.held (c : Thread nD τ) (Pipeline.ucRefs τ sig) (W2 m ρ c) ∗ Ride c)
  post c := iprop(StableHlo.held (c : Thread nD τ) (Pipeline.ucRefs τ sig) (W3 m ρ c) ∗ Ride c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 1 c).Φ 0 = Pipeline.ΦA spec1 c from rfl]; unfold Pipeline.ΦA
    iintro ⟨Hprng, -, Hscoped⟩
    isplitl [Hscoped]; · iexact Hscoped
    iexact Hprng
  hout c := by
    rw [Pipeline.ownSems0_none, show (pdats m ρ 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

-- applying a library lemma stated over the family's configuration at an index needs unification to unfold plain
-- definitions inside a metavariable's type
set_option backward.isDefEq.respectTransparency.types false in
/-- REGION 2 (layer 1, the linear-ReLU-linear kernel with its running column sums) as an item of the run: entered with every unscoped
    buffer at `W4`, left with every unscoped buffer at `W5` (what the next item is entered from). At entry the region's
    window arrays are taken out of the unscoped buffers, the rest bypasses the region; the two scratch rows of running sums ride in the invariant with the generator register — cleared at the first
    grid point, so at entry they may hold anything, and left at whatever the last point made of them —
    nothing is owed before or after; the kernel has no semaphore of its own. At exit the arrays, now at the
    launch's final contents, are put back among the bypassing buffers. -/
def reg2 : Pipeline.RegionSeg (pcfgs (F := F)) adm (pdats m ρ) () defs₀ 𝒱run Lrun lvrun 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ Lrun lvrun 2 fun _ _ => rfl
  pre c := iprop(StableHlo.held (c : Thread nD τ) (Pipeline.ucRefs τ sig) (W4 m ρ c) ∗ Ride c)
  post c := iprop(StableHlo.held (c : Thread nD τ) (Pipeline.ucRefs τ sig) (W5 m ρ c) ∗ Ride c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 2 c).Φ 0 = Pipeline.ΦA spec2 c from Phi2_first (V4 m ρ) c]; unfold Pipeline.ΦA
    iintro ⟨Hprng, -, Hscoped⟩
    isplitl [Hscoped]; · iexact Hscoped
    iexact Hprng
  hout c := by
    rw [Pipeline.ownSems0_none]
    refine (show (pdats m ρ 2 c).Φ (Fin.last _) ⊢ Pipeline.ΦA spec2 c from Phi2_last_ent (V4 m ρ) c).trans ?_
    unfold Pipeline.ΦA
    iintro ⟨Hscoped, Hprng⟩
    isplitl [Hprng]; · iexact Hprng
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

-- applying a library lemma stated over the family's configuration at an index needs unification to unfold plain
-- definitions inside a metavariable's type
set_option backward.isDefEq.respectTransparency.types false in
/-- REGION 3 (layer 1, the normalise-scale-shift-clamp kernel) as an item of the run: entered with every unscoped
    buffer at `W5`, left with every unscoped buffer at `W6` (what the next item is entered from). At entry the region's
    window arrays are taken out of the unscoped buffers, the rest bypasses the region; the generator register rides in the invariant and comes back —
    nothing is owed before or after; the kernel has no semaphore of its own. At exit the arrays, now at the
    launch's final contents, are put back among the bypassing buffers. -/
def reg3 : Pipeline.RegionSeg (pcfgs (F := F)) adm (pdats m ρ) () defs₀ 𝒱run Lrun lvrun 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ Lrun lvrun 3 fun _ _ => rfl
  pre c := iprop(StableHlo.held (c : Thread nD τ) (Pipeline.ucRefs τ sig) (W5 m ρ c) ∗ Ride c)
  post c := iprop(StableHlo.held (c : Thread nD τ) (Pipeline.ucRefs τ sig) (W6 m ρ c) ∗ Ride c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 3 c).Φ 0 = Pipeline.ΦA spec3 c from rfl]; unfold Pipeline.ΦA
    iintro ⟨Hprng, -, Hscoped⟩
    isplitl [Hscoped]; · iexact Hscoped
    iexact Hprng
  hout c := by
    rw [Pipeline.ownSems0_none, show (pdats m ρ 3 c).Φ (Fin.last _) = Pipeline.ΦA spec3 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

-- applying a library lemma stated over the family's configuration at an index needs unification to unfold plain
-- definitions inside a metavariable's type
set_option backward.isDefEq.respectTransparency.types false in
/-- REGION 4 (layer 2, the linear-ReLU-linear kernel with its running column sums) as an item of the run: entered with every unscoped
    buffer at `W7`, left with every unscoped buffer at `W8` (what the next item is entered from). At entry the region's
    window arrays are taken out of the unscoped buffers, the rest bypasses the region; the two scratch rows of running sums ride in the invariant with the generator register — cleared at the first
    grid point, so at entry they may hold anything, and left at whatever the last point made of them —
    nothing is owed before or after; the kernel has no semaphore of its own. At exit the arrays, now at the
    launch's final contents, are put back among the bypassing buffers. -/
def reg4 : Pipeline.RegionSeg (pcfgs (F := F)) adm (pdats m ρ) () defs₀ 𝒱run Lrun lvrun 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ Lrun lvrun 4 fun _ _ => rfl
  pre c := iprop(StableHlo.held (c : Thread nD τ) (Pipeline.ucRefs τ sig) (W7 m ρ c) ∗ Ride c)
  post c := iprop(StableHlo.held (c : Thread nD τ) (Pipeline.ucRefs τ sig) (W8 m ρ c) ∗ Ride c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 4 c).Φ 0 = Pipeline.ΦA spec4 c from Phi4_first (V7 m ρ) c]; unfold Pipeline.ΦA
    iintro ⟨Hprng, -, Hscoped⟩
    isplitl [Hscoped]; · iexact Hscoped
    iexact Hprng
  hout c := by
    rw [Pipeline.ownSems0_none]
    refine (show (pdats m ρ 4 c).Φ (Fin.last _) ⊢ Pipeline.ΦA spec4 c from Phi4_last_ent (V7 m ρ) c).trans ?_
    unfold Pipeline.ΦA
    iintro ⟨Hscoped, Hprng⟩
    isplitl [Hprng]; · iexact Hprng
    isplitr; · iempintro
    iexact Hscoped
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

-- applying a library lemma stated over the family's configuration at an index needs unification to unfold plain
-- definitions inside a metavariable's type
set_option backward.isDefEq.respectTransparency.types false in
/-- REGION 5 (layer 2, the normalise-scale-shift-clamp kernel) as an item of the run: entered with every unscoped
    buffer at `W8`, left with every unscoped buffer at `W9` (what the next item is entered from). At entry the region's
    window arrays are taken out of the unscoped buffers, the rest bypasses the region; the generator register rides in the invariant and comes back —
    nothing is owed before or after; the kernel has no semaphore of its own. At exit the arrays, now at the
    launch's final contents, are put back among the bypassing buffers. -/
def reg5 : Pipeline.RegionSeg (pcfgs (F := F)) adm (pdats m ρ) () defs₀ 𝒱run Lrun lvrun 5 where
  win := launch5.win.to₀
  block_pos := launch5.block_pos
  stage_whole := launch5.stage_whole
  K := PEmpty
  osem k := k.elim
  ho := Pipeline.OwnSemFacts.none _
  hbody c := (body_obligation5 (V8 m ρ) c).loose
  hwaits := Pipeline.hwaits_of_owed_zero _ _ _ _ Lrun lvrun 5 fun _ _ => rfl
  pre c := iprop(StableHlo.held (c : Thread nD τ) (Pipeline.ucRefs τ sig) (W8 m ρ c) ∗ Ride c)
  post c := iprop(StableHlo.held (c : Thread nD τ) (Pipeline.ucRefs τ sig) (W9 m ρ c) ∗ Ride c)
  X c := iprop(∃ r, prngReg c r)
  Y c := iprop(∃ r, prngReg c r)
  Z c := Pipeline.unscopedRest (Ix := Unit) (Name := ℕ) (U := UR sig nD τ) (Lvl := ℕ) spec5 c (V8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V8 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 5 c).Φ 0 = Pipeline.ΦA spec5 c from rfl]; unfold Pipeline.ΦA
    iintro ⟨Hprng, -, Hscoped⟩
    isplitl [Hscoped]; · iexact Hscoped
    iexact Hprng
  hout c := by
    rw [Pipeline.ownSems0_none, show (pdats m ρ 5 c).Φ (Fin.last _) = Pipeline.ΦA spec5 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V8 m ρ c) (V9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

-- applying a library lemma stated over the family's configuration at an index needs unification to unfold plain
-- definitions inside a metavariable's type
set_option backward.isDefEq.respectTransparency.types false in
/-- REGION 6 (layer 3, the linear-ReLU-linear kernel with its running column sums) as an item of the run: entered with every unscoped
    buffer at `W10`, left with every unscoped buffer at `W11` (what the next item is entered from). At entry the region's
    window arrays are taken out of the unscoped buffers, the rest bypasses the region; the two scratch rows of running sums ride in the invariant with the generator register — cleared at the first
    grid point, so at entry they may hold anything, and left at whatever the last point made of them —
    nothing is owed before or after; the kernel has no semaphore of its own. At exit the arrays, now at the
    launch's final contents, are put back among the bypassing buffers. -/
def reg6 : Pipeline.RegionSeg (pcfgs (F := F)) adm (pdats m ρ) () defs₀ 𝒱run Lrun lvrun 6 where
  win := launch6.win.to₀
  block_pos := launch6.block_pos
  stage_whole := launch6.stage_whole
  K := PEmpty
  osem k := k.elim
  ho := Pipeline.OwnSemFacts.none _
  hbody c := (body_obligation6 (V10 m ρ) c).loose
  hwaits := Pipeline.hwaits_of_owed_zero _ _ _ _ Lrun lvrun 6 fun _ _ => rfl
  pre c := iprop(StableHlo.held (c : Thread nD τ) (Pipeline.ucRefs τ sig) (W10 m ρ c) ∗ Ride c)
  post c := iprop(StableHlo.held (c : Thread nD τ) (Pipeline.ucRefs τ sig) (W11 m ρ c) ∗ Ride c)
  X c := iprop(∃ r, prngReg c r)
  Y c := iprop(∃ r, prngReg c r)
  Z c := Pipeline.unscopedRest (Ix := Unit) (Name := ℕ) (U := UR sig nD τ) (Lvl := ℕ) spec6 c (V10 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V10 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 6 c).Φ 0 = Pipeline.ΦA spec6 c from Phi6_first (V10 m ρ) c]; unfold Pipeline.ΦA
    iintro ⟨Hprng, -, Hscoped⟩
    isplitl [Hscoped]; · iexact Hscoped
    iexact Hprng
  hout c := by
    rw [Pipeline.ownSems0_none]
    refine (show (pdats m ρ 6 c).Φ (Fin.last _) ⊢ Pipeline.ΦA spec6 c from Phi6_last_ent (V10 m ρ) c).trans ?_
    unfold Pipeline.ΦA
    iintro ⟨Hscoped, Hprng⟩
    isplitl [Hprng]; · iexact Hprng
    isplitr; · iempintro
    iexact Hscoped
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V10 m ρ c) (V11 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%T, -, HO⟩; iexists T; iexact HO

-- applying a library lemma stated over the family's configuration at an index needs unification to unfold plain
-- definitions inside a metavariable's type
set_option backward.isDefEq.respectTransparency.types false in
/-- REGION 7 (layer 3, the normalise-scale-shift-clamp kernel) as an item of the run: entered with every unscoped
    buffer at `W11`, left with every unscoped buffer at `W12` (what the launch reads at the end). At entry the region's
    window arrays are taken out of the unscoped buffers, the rest bypasses the region; the generator register rides in the invariant and comes back —
    nothing is owed before or after; the kernel has no semaphore of its own. At exit the arrays, now at the
    launch's final contents, are put back among the bypassing buffers. -/
def reg7 : Pipeline.RegionSeg (pcfgs (F := F)) adm (pdats m ρ) () defs₀ 𝒱run Lrun lvrun 7 where
  win := launch7.win.to₀
  block_pos := launch7.block_pos
  stage_whole := launch7.stage_whole
  K := PEmpty
  osem k := k.elim
  ho := Pipeline.OwnSemFacts.none _
  hbody c := (body_obligation7 (V11 m ρ) c).loose
  hwaits := Pipeline.hwaits_of_owed_zero _ _ _ _ Lrun lvrun 7 fun _ _ => rfl
  pre c := iprop(StableHlo.held (c : Thread nD τ) (Pipeline.ucRefs τ sig) (W11 m ρ c) ∗ Ride c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V11 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V11 m ρ c) fun _ => rfl
    rw [Pipeline.unscopedBufs_held] at hsplit
    iintro ⟨⟨Hbufs, Hprng, Howes⟩, -, -⟩
    ihave H := hsplit $$ Hbufs
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hprng]; · iexact Hprng
    iexact Hrest
  hin c := by
    rw [show (pdats m ρ 7 c).Φ 0 = Pipeline.ΦA spec7 c from rfl]; unfold Pipeline.ΦA
    iintro ⟨Hprng, -, Hscoped⟩
    isplitl [Hscoped]; · iexact Hscoped
    iexact Hprng
  hout c := by
    rw [Pipeline.ownSems0_none, show (pdats m ρ 7 c).Φ (Fin.last _) = Pipeline.ΦA spec7 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V11 m ρ c) (V12 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%T, -, HO⟩; iexists T; iexact HO

/-! # @main as its twelve items, and the launch -/

/-- @main's items in order: per GIN layer a host stretch (entered from the boundary's contents) and the layer's two
    kernel regions. -/
abbrev segs : List (Pipeline.Seg (pcfgs (F := F)) adm (pdats m ρ) () defs₀ 𝒱run Lrun lvrun) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .host (hseg hostOps4 hostOps4_sub hostOps4_fresh (W6 m ρ)),
    .region (reg4 m ρ),
    .region (reg5 m ρ),
    .host (hseg hostOps6 hostOps6_sub hostOps6_fresh (W9 m ρ)),
    .region (reg6 m ρ),
    .region (reg7 m ρ) ]

/-- The items' own programs, in order, are exactly the chain @main was shown to be. -/
theorem segs_progs : (segs m ρ).map Pipeline.Seg.prog = [
      StableHlo.seq hostOps0,
      Prog.lift (.customCall (Pipeline.entry 0) ()),
      Prog.lift (.customCall (Pipeline.entry 1) ()),
      StableHlo.seq hostOps2,
      Prog.lift (.customCall (Pipeline.entry 2) ()),
      Prog.lift (.customCall (Pipeline.entry 3) ()),
      StableHlo.seq hostOps4,
      Prog.lift (.customCall (Pipeline.entry 4) ()),
      Prog.lift (.customCall (Pipeline.entry 5) ()),
      StableHlo.seq hostOps6,
      Prog.lift (.customCall (Pipeline.entry 6) ()),
      Prog.lift (.customCall (Pipeline.entry 7) ()) ] := rfl

/-- @main IS the run of its items. -/
theorem main_run (c : Dev nD) : main (F := F) c = Pipeline.Seg.run (segs m ρ) := by
  rw [main_chain c, Pipeline.Seg.run_eq_chain, segs_progs]

-- the launch theorem's implicit arguments are found by unifying its conclusion with ours, which takes unfolding plain
-- definitions in a metavariable's type
set_option backward.isDefEq.respectTransparency.types false in
/-- THE RUN. From any launch memory with zero counters, every weakly fair execution of @main on the TensorCores
    terminates without fault, and in every final state each unscoped buffer of each core holds the last boundary's
    contents `W12`: the twelve items chain state to state (each is entered from exactly what the one before left), the
    first state is what the launch deals, and the last is read against the final memory. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W12 m ρ c b) :=
  Pipeline.θ_run_regions_kit (pcfgs (F := F)) adm (pdats m ρ) () cellOf_inj emb₁ defs₀ 𝒱run Lrun lvrun m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Ride c)) (Tₙ := Tend m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach Lrun lvrun fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hprng, -⟩, -⟩
      imodintro
      isplitl [Hbufs]; · iexact Hbufs
      isplitl [Hprng]; · iexists _; iexact Hprng
      iexists ∅; iexact Howes)
    (QY := fun c s => ∀ b ∈ Pipeline.ucRefs τ sig, s.mem (((c : Thread nD τ)).1, b) = W12 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W12 m ρ c) s')
      isplitl [Hbufs] <;> iassumption)
    (hQ := fun s h c => h c)

/-- THE FRAME: every argument array ends holding what it was launched with. Each argument's buffer is unscoped, so
    the run gives its final contents as `W12` there, and `W12` at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c)⟩) (run_main m ρ)

/-- THE RUN, read at the result array and at the arguments: the result buffer ends at the last boundary's contents
    (which `W12_result` identifies as what the eighth launch leaves in its output array), and every argument ends as
    launched. -/
theorem run_value : θ_run defs (onTc (τ := τ) (main (F := F))) ⟨m, fun _ => 0, ρ⟩ (fun r => ∀ c : Dev nD,
      r.2.mem ((c.tc : Thread nD τ).loc main_v99) = W12 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v99 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c)⟩) (run_main m ρ)

end Cert.KernelIdeal.Hand

end
-- ==== Proof.Ref.Ops.lean ====
/- The reference program's host operations as lists, in @main's order: every call replaced by the callee's
   operations over that call's buffers, cut into seven pieces at the ends of the printed windows and at the
   operations that write a layer's output. Only the lists and, per list, the tuple naming each operation's
   arity for the buffers-are-TensorCore-references side condition. -/
import proofs.«144771_j36481452212846_1_alg».proof.ReferenceIdeal
import proofs.«144771_j36481452212846_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Piece 0: 72 operations of window main_part0, ending at the write of main_v39. -/
abbrev seg0 : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg1 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg1 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v7 (broadcastInDim S50000x128 ![] bcast_S_S50000x128 : (⟨S_, .f32⟩ : BufTy).Contents (Elt F) → (⟨S50000x128, .f32⟩ : BufTy).Contents (Elt F)),
    unary main_arg2 main_v8 (broadcastInDim S800000x1 ![0] bcast_S800000_S800000x1_0 : (⟨S800000, .i32⟩ : BufTy).Contents (Elt F) → (⟨S800000x1, .i32⟩ : BufTy).Contents (Elt F)),
    ternary main_v7 main_v8 main_v6 main_v9 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v9 main_v10 (addf : (⟨S50000x128, .f32⟩ : BufTy).Contents (Elt F) → (⟨S50000x128, .f32⟩ : BufTy).Contents (Elt F) → (⟨S50000x128, .f32⟩ : BufTy).Contents (Elt F)),
    binary main_v10 main_arg3 main_v11 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v12 (broadcastInDim S1x64 ![1] bcast_S64_S1x64_1 : (⟨S64, .f32⟩ : BufTy).Contents (Elt F) → (⟨S1x64, .f32⟩ : BufTy).Contents (Elt F)),
    unary main_v12 main_v13 (broadcastInDim S50000x64 ![0, 1] bcast_S1x64_S50000x64_0_1 : (⟨S1x64, .f32⟩ : BufTy).Contents (Elt F) → (⟨S50000x64, .f32⟩ : BufTy).Contents (Elt F)),
    binary main_v11 main_v13 main_v14 (addf : (⟨S50000x64, .f32⟩ : BufTy).Contents (Elt F) → (⟨S50000x64, .f32⟩ : BufTy).Contents (Elt F) → (⟨S50000x64, .f32⟩ : BufTy).Contents (Elt F)),
    nullary main_call0_cst (constant S_ .f32 0x00000000#32),
    unary main_call0_cst main_call0_v0 ((broadcastInDim S50000x64 ![] bcast_S_S50000x64) : (⟨S_, .f32⟩ : BufTy).Contents (Elt F) → (⟨S50000x64, .f32⟩ : BufTy).Contents (Elt F)),
    binary main_v14 main_call0_v0 main_v15 (maximumf : (⟨S50000x64, .f32⟩ : BufTy).Contents (Elt F) → (⟨S50000x64, .f32⟩ : BufTy).Contents (Elt F) → (⟨S50000x64, .f32⟩ : BufTy).Contents (Elt F)),
    binary main_v15 main_arg5 main_v16 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v17 (broadcastInDim S1x64 ![1] bcast_S64_S1x64_1 : (⟨S64, .f32⟩ : BufTy).Contents (Elt F) → (⟨S1x64, .f32⟩ : BufTy).Contents (Elt F)),
    unary main_v17 main_v18 (broadcastInDim S50000x64 ![0, 1] bcast_S1x64_S50000x64_0_1 : (⟨S1x64, .f32⟩ : BufTy).Contents (Elt F) → (⟨S50000x64, .f32⟩ : BufTy).Contents (Elt F)),
    binary main_v16 main_v18 main_v19 (addf : (⟨S50000x64, .f32⟩ : BufTy).Contents (Elt F) → (⟨S50000x64, .f32⟩ : BufTy).Contents (Elt F) → (⟨S50000x64, .f32⟩ : BufTy).Contents (Elt F)),
    nullary main_cst_1 (constant S_ .f32 0x00000000#32),
    binary main_v19 main_cst_1 main_v20 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_2 (constant S_ .f32 0x47435000#32),
    unary main_cst_2 main_v21 (broadcastInDim S64 ![] bcast_S_S64 : (⟨S_, .f32⟩ : BufTy).Contents (Elt F) → (⟨S64, .f32⟩ : BufTy).Contents (Elt F)),
    binary main_v20 main_v21 main_v22 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    nullary main_call1_cst (constant S_ .f32 0x00000000#32),
    binary main_v19 main_call1_cst main_call1_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call1_v0 main_call1_v1 ((broadcastInDim S1x64 ![1] bcast_S64_S1x64_1) : (⟨S64, .f32⟩ : BufTy).Contents (Elt F) → (⟨S1x64, .f32⟩ : BufTy).Contents (Elt F)),
    nullary main_call1_cst_0 (constant S_ .f32 0x47435000#32),
    unary main_call1_cst_0 main_call1_v2 ((broadcastInDim S1x64 ![] bcast_S_S1x64) : (⟨S_, .f32⟩ : BufTy).Contents (Elt F) → (⟨S1x64, .f32⟩ : BufTy).Contents (Elt F)),
    binary main_call1_v1 main_call1_v2 main_call1_v3 (Host.divf : (⟨S1x64, .f32⟩ : BufTy).Contents (Elt F) → (⟨S1x64, .f32⟩ : BufTy).Contents (Elt F) → (⟨S1x64, .f32⟩ : BufTy).Contents (Elt F)),
    unary main_call1_v3 main_call1_v4 ((broadcastInDim S50000x64 ![0, 1] bcast_S1x64_S50000x64_0_1) : (⟨S1x64, .f32⟩ : BufTy).Contents (Elt F) → (⟨S50000x64, .f32⟩ : BufTy).Contents (Elt F)),
    binary main_v19 main_call1_v4 main_call1_v5 (subf : (⟨S50000x64, .f32⟩ : BufTy).Contents (Elt F) → (⟨S50000x64, .f32⟩ : BufTy).Contents (Elt F) → (⟨S50000x64, .f32⟩ : BufTy).Contents (Elt F)),
    binary main_call1_v5 main_call1_v5 main_call1_v6 (mulf : (⟨S50000x64, .f32⟩ : BufTy).Contents (Elt F) → (⟨S50000x64, .f32⟩ : BufTy).Contents (Elt F) → (⟨S50000x64, .f32⟩ : BufTy).Contents (Elt F)),
    unary main_c_3 main_call1_v7 ((sitofp .f32) : (⟨S_, .i32⟩ : BufTy).Contents (Elt F) → (⟨S_, .f32⟩ : BufTy).Contents (Elt F)),
    nullary main_call1_cst_1 (constant S_ .f32 0x47435000#32),
    binary main_call1_cst_1 main_call1_v7 main_call1_v8 (subf : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call1_v8 main_call1_v10 ((broadcastInDim S64 ![] bcast_S_S64) : (⟨S_, .f32⟩ : BufTy).Contents (Elt F) → (⟨S64, .f32⟩ : BufTy).Contents (Elt F)),
    binary main_call1_v9 main_call1_v10 main_call1_v11 (Host.divf : (⟨S64, .f32⟩ : BufTy).Contents (Elt F) → (⟨S64, .f32⟩ : BufTy).Contents (Elt F) → (⟨S64, .f32⟩ : BufTy).Contents (Elt F)),
    nullary main_call1_cst_3 (constant S_ .f32 0x00000000#32),
    binary main_call1_v8 main_call1_cst_3 main_call1_v12 ((cmpf .ogt) : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 (id : (⟨S_, .f32⟩ : BufTy).Contents (Elt F) → (⟨S_, .f32⟩ : BufTy).Contents (Elt F)),
    unary main_call1_call0_v0 main_call1_call0_v1 ((broadcastInDim S64 ![] bcast_S_S64) : (⟨S_, .f32⟩ : BufTy).Contents (Elt F) → (⟨S64, .f32⟩ : BufTy).Contents (Elt F)),
    ternary main_call1_v12 main_call1_v11 main_call1_call0_v1 main_v23 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v22 main_v24 (broadcastInDim S1x64 ![1] bcast_S64_S1x64_1 : (⟨S64, .f32⟩ : BufTy).Contents (Elt F) → (⟨S1x64, .f32⟩ : BufTy).Contents (Elt F)),
    unary main_v24 main_v25 (broadcastInDim S50000x64 ![0, 1] bcast_S1x64_S50000x64_0_1 : (⟨S1x64, .f32⟩ : BufTy).Contents (Elt F) → (⟨S50000x64, .f32⟩ : BufTy).Contents (Elt F)),
    binary main_v19 main_v25 main_v26 (subf : (⟨S50000x64, .f32⟩ : BufTy).Contents (Elt F) → (⟨S50000x64, .f32⟩ : BufTy).Contents (Elt F) → (⟨S50000x64, .f32⟩ : BufTy).Contents (Elt F)),
    nullary main_cst_4 (constant S_ .f32 0x3727C5AC#32),
    unary main_cst_4 main_v27 (broadcastInDim S64 ![] bcast_S_S64 : (⟨S_, .f32⟩ : BufTy).Contents (Elt F) → (⟨S64, .f32⟩ : BufTy).Contents (Elt F)),
    binary main_v23 main_v27 main_v28 (addf : (⟨S64, .f32⟩ : BufTy).Contents (Elt F) → (⟨S64, .f32⟩ : BufTy).Contents (Elt F) → (⟨S64, .f32⟩ : BufTy).Contents (Elt F)),
    unary main_v28 main_v29 (Host.rsqrt : (⟨S64, .f32⟩ : BufTy).Contents (Elt F) → (⟨S64, .f32⟩ : BufTy).Contents (Elt F)),
    unary main_v29 main_v30 (broadcastInDim S1x64 ![1] bcast_S64_S1x64_1 : (⟨S64, .f32⟩ : BufTy).Contents (Elt F) → (⟨S1x64, .f32⟩ : BufTy).Contents (Elt F)),
    unary main_v30 main_v31 (broadcastInDim S50000x64 ![0, 1] bcast_S1x64_S50000x64_0_1 : (⟨S1x64, .f32⟩ : BufTy).Contents (Elt F) → (⟨S50000x64, .f32⟩ : BufTy).Contents (Elt F)),
    binary main_v26 main_v31 main_v32 (mulf : (⟨S50000x64, .f32⟩ : BufTy).Contents (Elt F) → (⟨S50000x64, .f32⟩ : BufTy).Contents (Elt F) → (⟨S50000x64, .f32⟩ : BufTy).Contents (Elt F)),
    unary main_arg7 main_v33 (broadcastInDim S1x64 ![1] bcast_S64_S1x64_1 : (⟨S64, .f32⟩ : BufTy).Contents (Elt F) → (⟨S1x64, .f32⟩ : BufTy).Contents (Elt F)),
    unary main_v33 main_v34 (broadcastInDim S50000x64 ![0, 1] bcast_S1x64_S50000x64_0_1 : (⟨S1x64, .f32⟩ : BufTy).Contents (Elt F) → (⟨S50000x64, .f32⟩ : BufTy).Contents (Elt F)),
    binary main_v32 main_v34 main_v35 (mulf : (⟨S50000x64, .f32⟩ : BufTy).Contents (Elt F) → (⟨S50000x64, .f32⟩ : BufTy).Contents (Elt F) → (⟨S50000x64, .f32⟩ : BufTy).Contents (Elt F)),
    unary main_arg8 main_v36 (broadcastInDim S1x64 ![1] bcast_S64_S1x64_1 : (⟨S64, .f32⟩ : BufTy).Contents (Elt F) → (⟨S1x64, .f32⟩ : BufTy).Contents (Elt F)),
    unary main_v36 main_v37 (broadcastInDim S50000x64 ![0, 1] bcast_S1x64_S50000x64_0_1 : (⟨S1x64, .f32⟩ : BufTy).Contents (Elt F) → (⟨S50000x64, .f32⟩ : BufTy).Contents (Elt F)),
    binary main_v35 main_v37 main_v38 (addf : (⟨S50000x64, .f32⟩ : BufTy).Contents (Elt F) → (⟨S50000x64, .f32⟩ : BufTy).Contents (Elt F) → (⟨S50000x64, .f32⟩ : BufTy).Contents (Elt F)),
    nullary main_call2_cst (constant S_ .f32 0x00000000#32),
    unary main_call2_cst main_call2_v0 ((broadcastInDim S50000x64 ![] bcast_S_S50000x64) : (⟨S_, .f32⟩ : BufTy).Contents (Elt F) → (⟨S50000x64, .f32⟩ : BufTy).Contents (Elt F)),
    binary main_v38 main_call2_v0 main_v39 (maximumf : (⟨S50000x64, .f32⟩ : BufTy).Contents (Elt F) → (⟨S50000x64, .f32⟩ : BufTy).Contents (Elt F) → (⟨S50000x64, .f32⟩ : BufTy).Contents (Elt F)) ]

set_option maxRecDepth 8192 in
theorem seg0_sub : (seg0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers piece 0 writes, in order. -/
abbrev seg0_W : List (Ref sig .tc) := [main_c, main_v0, main_v1, main_c_0, main_v2, main_v3, main_v4, main_v5, main_v6, main_cst, main_v7, main_v8, main_v9, main_v10, main_v11, main_v12, main_v13, main_v14, main_call0_cst, main_call0_v0, main_v15, main_v16, main_v17, main_v18, main_v19, main_cst_1, main_v20, main_cst_2, main_v21, main_v22, main_c_3, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v23, main_v24, main_v25, main_v26, main_cst_4, main_v27, main_v28, main_v29, main_v30, main_v31, main_v32, main_v33, main_v34, main_v35, main_v36, main_v37, main_v38, main_call2_cst, main_call2_v0, main_v39]

/-- Piece 1: 13 operations of window main_part0, ending at the write of main_c_5. -/
abbrev seg1 : List (HloOp τ sig (Elt F)) :=
  [ unary main_arg9 main_v40 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v40 main_v41 rfl shapeCasts_S1x64x64_S64x64,
    unary main_arg10 main_v42 ((extractStridedSlice S1x64 ![0, 0] · slices_S3x64_S1x64_0_0) : (⟨S3x64, .f32⟩ : BufTy).Contents (Elt F) → (⟨S1x64, .f32⟩ : BufTy).Contents (Elt F)),
    reshape main_v42 main_v43 rfl shapeCasts_S1x64_S64,
    unary main_arg11 main_v44 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v44 main_v45 rfl shapeCasts_S1x64x64_S64x64,
    unary main_arg12 main_v46 ((extractStridedSlice S1x64 ![0, 0] · slices_S3x64_S1x64_0_0) : (⟨S3x64, .f32⟩ : BufTy).Contents (Elt F) → (⟨S1x64, .f32⟩ : BufTy).Contents (Elt F)),
    reshape main_v46 main_v47 rfl shapeCasts_S1x64_S64,
    unary main_arg13 main_v48 ((extractStridedSlice S1x64 ![0, 0] · slices_S3x64_S1x64_0_0) : (⟨S3x64, .f32⟩ : BufTy).Contents (Elt F) → (⟨S1x64, .f32⟩ : BufTy).Contents (Elt F)),
    reshape main_v48 main_v49 rfl shapeCasts_S1x64_S64,
    unary main_arg14 main_v50 ((extractStridedSlice S1x64 ![0, 0] · slices_S3x64_S1x64_0_0) : (⟨S3x64, .f32⟩ : BufTy).Contents (Elt F) → (⟨S1x64, .f32⟩ : BufTy).Contents (Elt F)),
    reshape main_v50 main_v51 rfl shapeCasts_S1x64_S64,
    nullary main_c_5 (constantI S_ 32 0#32) ]

set_option maxRecDepth 8192 in
theorem seg1_sub : (seg1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub ..⟩

/-- The buffers piece 1 writes, in order. -/
abbrev seg1_W : List (Ref sig .tc) := [main_v40, main_v41, main_v42, main_v43, main_v44, main_v45, main_v46, main_v47, main_v48, main_v49, main_v50, main_v51, main_c_5]

/-- Piece 2: 71 operations of window main_part1, ending at the write of main_v91. -/
abbrev seg2 : List (HloOp τ sig (Elt F)) :=
  [ unary main_c_5 main_v52 (broadcastInDim S800000 ![] bcast_S_S800000 : (⟨S_, .i32⟩ : BufTy).Contents (Elt F) → (⟨S800000, .i32⟩ : BufTy).Contents (Elt F)),
    binary main_arg1 main_v52 main_v53 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v54 (broadcastInDim S800000 ![] bcast_S_S800000 : (⟨S_, .i32⟩ : BufTy).Contents (Elt F) → (⟨S800000, .i32⟩ : BufTy).Contents (Elt F)),
    binary main_arg1 main_v54 main_v55 (addi : (⟨S800000, .i32⟩ : BufTy).Contents (Elt F) → (⟨S800000, .i32⟩ : BufTy).Contents (Elt F) → (⟨S800000, .i32⟩ : BufTy).Contents (Elt F)),
    ternary main_v53 main_v55 main_arg1 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v56 main_v57 (broadcastInDim S800000x1 ![0] bcast_S800000_S800000x1_0 : (⟨S800000, .i32⟩ : BufTy).Contents (Elt F) → (⟨S800000x1, .i32⟩ : BufTy).Contents (Elt F)),
    binary main_v39 main_v57 main_v58 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_7 (constant S_ .f32 0x00000000#32),
    unary main_cst_7 main_v59 (broadcastInDim S50000x64 ![] bcast_S_S50000x64 : (⟨S_, .f32⟩ : BufTy).Contents (Elt F) → (⟨S50000x64, .f32⟩ : BufTy).Contents (Elt F)),
    unary main_arg2 main_v60 (broadcastInDim S800000x1 ![0] bcast_S800000_S800000x1_0 : (⟨S800000, .i32⟩ : BufTy).Contents (Elt F) → (⟨S800000x1, .i32⟩ : BufTy).Contents (Elt F)),
    ternary main_v59 main_v60 main_v58 main_v61 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v39 main_v61 main_v62 (addf : (⟨S50000x64, .f32⟩ : BufTy).Contents (Elt F) → (⟨S50000x64, .f32⟩ : BufTy).Contents (Elt F) → (⟨S50000x64, .f32⟩ : BufTy).Contents (Elt F)),
    binary main_v62 main_v41 main_v63 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v43 main_v64 (broadcastInDim S1x64 ![1] bcast_S64_S1x64_1 : (⟨S64, .f32⟩ : BufTy).Contents (Elt F) → (⟨S1x64, .f32⟩ : BufTy).Contents (Elt F)),
    unary main_v64 main_v65 (broadcastInDim S50000x64 ![0, 1] bcast_S1x64_S50000x64_0_1 : (⟨S1x64, .f32⟩ : BufTy).Contents (Elt F) → (⟨S50000x64, .f32⟩ : BufTy).Contents (Elt F)),
    binary main_v63 main_v65 main_v66 (addf : (⟨S50000x64, .f32⟩ : BufTy).Contents (Elt F) → (⟨S50000x64, .f32⟩ : BufTy).Contents (Elt F) → (⟨S50000x64, .f32⟩ : BufTy).Contents (Elt F)),
    nullary main_call3_cst (constant S_ .f32 0x00000000#32),
    unary main_call3_cst main_call3_v0 ((broadcastInDim S50000x64 ![] bcast_S_S50000x64) : (⟨S_, .f32⟩ : BufTy).Contents (Elt F) → (⟨S50000x64, .f32⟩ : BufTy).Contents (Elt F)),
    binary main_v66 main_call3_v0 main_v67 (maximumf : (⟨S50000x64, .f32⟩ : BufTy).Contents (Elt F) → (⟨S50000x64, .f32⟩ : BufTy).Contents (Elt F) → (⟨S50000x64, .f32⟩ : BufTy).Contents (Elt F)),
    binary main_v67 main_v45 main_v68 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v47 main_v69 (broadcastInDim S1x64 ![1] bcast_S64_S1x64_1 : (⟨S64, .f32⟩ : BufTy).Contents (Elt F) → (⟨S1x64, .f32⟩ : BufTy).Contents (Elt F)),
    unary main_v69 main_v70 (broadcastInDim S50000x64 ![0, 1] bcast_S1x64_S50000x64_0_1 : (⟨S1x64, .f32⟩ : BufTy).Contents (Elt F) → (⟨S50000x64, .f32⟩ : BufTy).Contents (Elt F)),
    binary main_v68 main_v70 main_v71 (addf : (⟨S50000x64, .f32⟩ : BufTy).Contents (Elt F) → (⟨S50000x64, .f32⟩ : BufTy).Contents (Elt F) → (⟨S50000x64, .f32⟩ : BufTy).Contents (Elt F)),
    nullary main_cst_8 (constant S_ .f32 0x00000000#32),
    binary main_v71 main_cst_8 main_v72 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_9 (constant S_ .f32 0x47435000#32),
    unary main_cst_9 main_v73 (broadcastInDim S64 ![] bcast_S_S64 : (⟨S_, .f32⟩ : BufTy).Contents (Elt F) → (⟨S64, .f32⟩ : BufTy).Contents (Elt F)),
    binary main_v72 main_v73 main_v74 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    nullary main_call4_cst (constant S_ .f32 0x00000000#32),
    binary main_v71 main_call4_cst main_call4_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call4_v0 main_call4_v1 ((broadcastInDim S1x64 ![1] bcast_S64_S1x64_1) : (⟨S64, .f32⟩ : BufTy).Contents (Elt F) → (⟨S1x64, .f32⟩ : BufTy).Contents (Elt F)),
    nullary main_call4_cst_0 (constant S_ .f32 0x47435000#32),
    unary main_call4_cst_0 main_call4_v2 ((broadcastInDim S1x64 ![] bcast_S_S1x64) : (⟨S_, .f32⟩ : BufTy).Contents (Elt F) → (⟨S1x64, .f32⟩ : BufTy).Contents (Elt F)),
    binary main_call4_v1 main_call4_v2 main_call4_v3 (Host.divf : (⟨S1x64, .f32⟩ : BufTy).Contents (Elt F) → (⟨S1x64, .f32⟩ : BufTy).Contents (Elt F) → (⟨S1x64, .f32⟩ : BufTy).Contents (Elt F)),
    unary main_call4_v3 main_call4_v4 ((broadcastInDim S50000x64 ![0, 1] bcast_S1x64_S50000x64_0_1) : (⟨S1x64, .f32⟩ : BufTy).Contents (Elt F) → (⟨S50000x64, .f32⟩ : BufTy).Contents (Elt F)),
    binary main_v71 main_call4_v4 main_call4_v5 (subf : (⟨S50000x64, .f32⟩ : BufTy).Contents (Elt F) → (⟨S50000x64, .f32⟩ : BufTy).Contents (Elt F) → (⟨S50000x64, .f32⟩ : BufTy).Contents (Elt F)),
    binary main_call4_v5 main_call4_v5 main_call4_v6 (mulf : (⟨S50000x64, .f32⟩ : BufTy).Contents (Elt F) → (⟨S50000x64, .f32⟩ : BufTy).Contents (Elt F) → (⟨S50000x64, .f32⟩ : BufTy).Contents (Elt F)),
    unary main_c_10 main_call4_v7 ((sitofp .f32) : (⟨S_, .i32⟩ : BufTy).Contents (Elt F) → (⟨S_, .f32⟩ : BufTy).Contents (Elt F)),
    nullary main_call4_cst_1 (constant S_ .f32 0x47435000#32),
    binary main_call4_cst_1 main_call4_v7 main_call4_v8 (subf : (⟨S_, .f32⟩ : BufTy).Contents (Elt F) → (⟨S_, .f32⟩ : BufTy).Contents (Elt F) → (⟨S_, .f32⟩ : BufTy).Contents (Elt F)),
    nullary main_call4_cst_2 (constant S_ .f32 0x00000000#32),
    binary main_call4_v6 main_call4_cst_2 main_call4_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call4_v8 main_call4_v10 ((broadcastInDim S64 ![] bcast_S_S64) : (⟨S_, .f32⟩ : BufTy).Contents (Elt F) → (⟨S64, .f32⟩ : BufTy).Contents (Elt F)),
    binary main_call4_v9 main_call4_v10 main_call4_v11 (Host.divf : (⟨S64, .f32⟩ : BufTy).Contents (Elt F) → (⟨S64, .f32⟩ : BufTy).Contents (Elt F) → (⟨S64, .f32⟩ : BufTy).Contents (Elt F)),
    nullary main_call4_cst_3 (constant S_ .f32 0x00000000#32),
    binary main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)),
    nullary main_call4_cst_4 (constant S_ .f32 0x7FC00000#32),
    unary main_call4_cst_4 main_call4_call0_v0 (id : (⟨S_, .f32⟩ : BufTy).Contents (Elt F) → (⟨S_, .f32⟩ : BufTy).Contents (Elt F)),
    unary main_call4_call0_v0 main_call4_call0_v1 ((broadcastInDim S64 ![] bcast_S_S64) : (⟨S_, .f32⟩ : BufTy).Contents (Elt F) → (⟨S64, .f32⟩ : BufTy).Contents (Elt F)),
    ternary main_call4_v12 main_call4_v11 main_call4_call0_v1 main_v75 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v74 main_v76 (broadcastInDim S1x64 ![1] bcast_S64_S1x64_1 : (⟨S64, .f32⟩ : BufTy).Contents (Elt F) → (⟨S1x64, .f32⟩ : BufTy).Contents (Elt F)),
    unary main_v76 main_v77 (broadcastInDim S50000x64 ![0, 1] bcast_S1x64_S50000x64_0_1 : (⟨S1x64, .f32⟩ : BufTy).Contents (Elt F) → (⟨S50000x64, .f32⟩ : BufTy).Contents (Elt F)),
    binary main_v71 main_v77 main_v78 (subf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x3727C5AC#32),
    unary main_cst_11 main_v79 (broadcastInDim S64 ![] bcast_S_S64 : (⟨S_, .f32⟩ : BufTy).Contents (Elt F) → (⟨S64, .f32⟩ : BufTy).Contents (Elt F)),
    binary main_v75 main_v79 main_v80 (addf : (⟨S64, .f32⟩ : BufTy).Contents (Elt F) → (⟨S64, .f32⟩ : BufTy).Contents (Elt F) → (⟨S64, .f32⟩ : BufTy).Contents (Elt F)),
    unary main_v80 main_v81 (Host.rsqrt : (⟨S64, .f32⟩ : BufTy).Contents (Elt F) → (⟨S64, .f32⟩ : BufTy).Contents (Elt F)),
    unary main_v81 main_v82 (broadcastInDim S1x64 ![1] bcast_S64_S1x64_1 : (⟨S64, .f32⟩ : BufTy).Contents (Elt F) → (⟨S1x64, .f32⟩ : BufTy).Contents (Elt F)),
    unary main_v82 main_v83 (broadcastInDim S50000x64 ![0, 1] bcast_S1x64_S50000x64_0_1 : (⟨S1x64, .f32⟩ : BufTy).Contents (Elt F) → (⟨S50000x64, .f32⟩ : BufTy).Contents (Elt F)),
    binary main_v78 main_v83 main_v84 (mulf : (⟨S50000x64, .f32⟩ : BufTy).Contents (Elt F) → (⟨S50000x64, .f32⟩ : BufTy).Contents (Elt F) → (⟨S50000x64, .f32⟩ : BufTy).Contents (Elt F)),
    unary main_v49 main_v85 (broadcastInDim S1x64 ![1] bcast_S64_S1x64_1 : (⟨S64, .f32⟩ : BufTy).Contents (Elt F) → (⟨S1x64, .f32⟩ : BufTy).Contents (Elt F)),
    unary main_v85 main_v86 (broadcastInDim S50000x64 ![0, 1] bcast_S1x64_S50000x64_0_1 : (⟨S1x64, .f32⟩ : BufTy).Contents (Elt F) → (⟨S50000x64, .f32⟩ : BufTy).Contents (Elt F)),
    binary main_v84 main_v86 main_v87 (mulf : (⟨S50000x64, .f32⟩ : BufTy).Contents (Elt F) → (⟨S50000x64, .f32⟩ : BufTy).Contents (Elt F) → (⟨S50000x64, .f32⟩ : BufTy).Contents (Elt F)),
    unary main_v51 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)),
    nullary main_call5_cst (constant S_ .f32 0x00000000#32),
    unary main_call5_cst main_call5_v0 ((broadcastInDim S50000x64 ![] bcast_S_S50000x64) : (⟨S_, .f32⟩ : BufTy).Contents (Elt F) → (⟨S50000x64, .f32⟩ : BufTy).Contents (Elt F)),
    binary main_v90 main_call5_v0 main_v91 (maximumf : (⟨S50000x64, .f32⟩ : BufTy).Contents (Elt F) → (⟨S50000x64, .f32⟩ : BufTy).Contents (Elt F) → (⟨S50000x64, .f32⟩ : BufTy).Contents (Elt F)) ]

set_option maxRecDepth 8192 in
theorem seg2_sub : (seg2 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers piece 2 writes, in order. -/
abbrev seg2_W : List (Ref sig .tc) := [main_v52, main_v53, main_c_6, main_v54, main_v55, main_v56, main_v57, main_v58, main_cst_7, main_v59, main_v60, main_v61, main_v62, main_v63, main_v64, main_v65, main_v66, main_call3_cst, main_call3_v0, main_v67, main_v68, main_v69, main_v70, main_v71, main_cst_8, main_v72, main_cst_9, main_v73, main_v74, main_c_10, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v75, main_v76, main_v77, main_v78, main_cst_11, main_v79, main_v80, main_v81, main_v82, main_v83, main_v84, main_v85, main_v86, main_v87, main_v88, main_v89, main_v90, main_call5_cst, main_call5_v0, main_v91]

/-- Piece 3: 14 operations of window main_part1, ending at the write of main_v104. -/
abbrev seg3 : List (HloOp τ sig (Elt F)) :=
  [ unary main_arg9 main_v92 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v92 main_v93 rfl shapeCasts_S1x64x64_S64x64,
    unary main_arg10 main_v94 ((extractStridedSlice S1x64 ![1, 0] · slices_S3x64_S1x64_1_0) : (⟨S3x64, .f32⟩ : BufTy).Contents (Elt F) → (⟨S1x64, .f32⟩ : BufTy).Contents (Elt F)),
    reshape main_v94 main_v95 rfl shapeCasts_S1x64_S64,
    unary main_arg11 main_v96 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v96 main_v97 rfl shapeCasts_S1x64x64_S64x64,
    unary main_arg12 main_v98 ((extractStridedSlice S1x64 ![1, 0] · slices_S3x64_S1x64_1_0) : (⟨S3x64, .f32⟩ : BufTy).Contents (Elt F) → (⟨S1x64, .f32⟩ : BufTy).Contents (Elt F)),
    reshape main_v98 main_v99 rfl shapeCasts_S1x64_S64,
    unary main_arg13 main_v100 ((extractStridedSlice S1x64 ![1, 0] · slices_S3x64_S1x64_1_0) : (⟨S3x64, .f32⟩ : BufTy).Contents (Elt F) → (⟨S1x64, .f32⟩ : BufTy).Contents (Elt F)),
    reshape main_v100 main_v101 rfl shapeCasts_S1x64_S64,
    unary main_arg14 main_v102 ((extractStridedSlice S1x64 ![1, 0] · slices_S3x64_S1x64_1_0) : (⟨S3x64, .f32⟩ : BufTy).Contents (Elt F) → (⟨S1x64, .f32⟩ : BufTy).Contents (Elt F)),
    reshape main_v102 main_v103 rfl shapeCasts_S1x64_S64,
    nullary main_c_12 (constantI S_ 32 0#32),
    unary main_c_12 main_v104 (broadcastInDim S800000 ![] bcast_S_S800000 : (⟨S_, .i32⟩ : BufTy).Contents (Elt F) → (⟨S800000, .i32⟩ : BufTy).Contents (Elt F)) ]

set_option maxRecDepth 8192 in
theorem seg3_sub : (seg3 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub ..⟩

/-- The buffers piece 3 writes, in order. -/
abbrev seg3_W : List (Ref sig .tc) := [main_v92, main_v93, main_v94, main_v95, main_v96, main_v97, main_v98, main_v99, main_v100, main_v101, main_v102, main_v103, main_c_12, main_v104]

/-- Piece 4: 70 operations of window main_part2, ending at the write of main_v143. -/
abbrev seg4 : List (HloOp τ sig (Elt F)) :=
  [ binary main_arg1 main_v104 main_v105 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v106 (broadcastInDim S800000 ![] bcast_S_S800000 : (⟨S_, .i32⟩ : BufTy).Contents (Elt F) → (⟨S800000, .i32⟩ : BufTy).Contents (Elt F)),
    binary main_arg1 main_v106 main_v107 (addi : (⟨S800000, .i32⟩ : BufTy).Contents (Elt F) → (⟨S800000, .i32⟩ : BufTy).Contents (Elt F) → (⟨S800000, .i32⟩ : BufTy).Contents (Elt F)),
    ternary main_v105 main_v107 main_arg1 main_v108 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v108 main_v109 (broadcastInDim S800000x1 ![0] bcast_S800000_S800000x1_0 : (⟨S800000, .i32⟩ : BufTy).Contents (Elt F) → (⟨S800000x1, .i32⟩ : BufTy).Contents (Elt F)),
    binary main_v91 main_v109 main_v110 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_14 (constant S_ .f32 0x00000000#32),
    unary main_cst_14 main_v111 (broadcastInDim S50000x64 ![] bcast_S_S50000x64 : (⟨S_, .f32⟩ : BufTy).Contents (Elt F) → (⟨S50000x64, .f32⟩ : BufTy).Contents (Elt F)),
    unary main_arg2 main_v112 (broadcastInDim S800000x1 ![0] bcast_S800000_S800000x1_0 : (⟨S800000, .i32⟩ : BufTy).Contents (Elt F) → (⟨S800000x1, .i32⟩ : BufTy).Contents (Elt F)),
    ternary main_v111 main_v112 main_v110 main_v113 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v91 main_v113 main_v114 (addf : (⟨S50000x64, .f32⟩ : BufTy).Contents (Elt F) → (⟨S50000x64, .f32⟩ : BufTy).Contents (Elt F) → (⟨S50000x64, .f32⟩ : BufTy).Contents (Elt F)),
    binary main_v114 main_v93 main_v115 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v95 main_v116 (broadcastInDim S1x64 ![1] bcast_S64_S1x64_1 : (⟨S64, .f32⟩ : BufTy).Contents (Elt F) → (⟨S1x64, .f32⟩ : BufTy).Contents (Elt F)),
    unary main_v116 main_v117 (broadcastInDim S50000x64 ![0, 1] bcast_S1x64_S50000x64_0_1 : (⟨S1x64, .f32⟩ : BufTy).Contents (Elt F) → (⟨S50000x64, .f32⟩ : BufTy).Contents (Elt F)),
    binary main_v115 main_v117 main_v118 (addf : (⟨S50000x64, .f32⟩ : BufTy).Contents (Elt F) → (⟨S50000x64, .f32⟩ : BufTy).Contents (Elt F) → (⟨S50000x64, .f32⟩ : BufTy).Contents (Elt F)),
    nullary main_call6_cst (constant S_ .f32 0x00000000#32),
    unary main_call6_cst main_call6_v0 ((broadcastInDim S50000x64 ![] bcast_S_S50000x64) : (⟨S_, .f32⟩ : BufTy).Contents (Elt F) → (⟨S50000x64, .f32⟩ : BufTy).Contents (Elt F)),
    binary main_v118 main_call6_v0 main_v119 (maximumf : (⟨S50000x64, .f32⟩ : BufTy).Contents (Elt F) → (⟨S50000x64, .f32⟩ : BufTy).Contents (Elt F) → (⟨S50000x64, .f32⟩ : BufTy).Contents (Elt F)),
    binary main_v119 main_v97 main_v120 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v99 main_v121 (broadcastInDim S1x64 ![1] bcast_S64_S1x64_1 : (⟨S64, .f32⟩ : BufTy).Contents (Elt F) → (⟨S1x64, .f32⟩ : BufTy).Contents (Elt F)),
    unary main_v121 main_v122 (broadcastInDim S50000x64 ![0, 1] bcast_S1x64_S50000x64_0_1 : (⟨S1x64, .f32⟩ : BufTy).Contents (Elt F) → (⟨S50000x64, .f32⟩ : BufTy).Contents (Elt F)),
    binary main_v120 main_v122 main_v123 (addf : (⟨S50000x64, .f32⟩ : BufTy).Contents (Elt F) → (⟨S50000x64, .f32⟩ : BufTy).Contents (Elt F) → (⟨S50000x64, .f32⟩ : BufTy).Contents (Elt F)),
    nullary main_cst_15 (constant S_ .f32 0x00000000#32),
    binary main_v123 main_cst_15 main_v124 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_16 (constant S_ .f32 0x47435000#32),
    unary main_cst_16 main_v125 (broadcastInDim S64 ![] bcast_S_S64 : (⟨S_, .f32⟩ : BufTy).Contents (Elt F) → (⟨S64, .f32⟩ : BufTy).Contents (Elt F)),
    binary main_v124 main_v125 main_v126 (Host.divf : (⟨S64, .f32⟩ : BufTy).Contents (Elt F) → (⟨S64, .f32⟩ : BufTy).Contents (Elt F) → (⟨S64, .f32⟩ : BufTy).Contents (Elt F)),
    nullary main_c_17 (constantI S_ 32 0#32),
    nullary main_call7_cst (constant S_ .f32 0x00000000#32),
    binary main_v123 main_call7_cst main_call7_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call7_v0 main_call7_v1 ((broadcastInDim S1x64 ![1] bcast_S64_S1x64_1) : (⟨S64, .f32⟩ : BufTy).Contents (Elt F) → (⟨S1x64, .f32⟩ : BufTy).Contents (Elt F)),
    nullary main_call7_cst_0 (constant S_ .f32 0x47435000#32),
    unary main_call7_cst_0 main_call7_v2 ((broadcastInDim S1x64 ![] bcast_S_S1x64) : (⟨S_, .f32⟩ : BufTy).Contents (Elt F) → (⟨S1x64, .f32⟩ : BufTy).Contents (Elt F)),
    binary main_call7_v1 main_call7_v2 main_call7_v3 (Host.divf : (⟨S1x64, .f32⟩ : BufTy).Contents (Elt F) → (⟨S1x64, .f32⟩ : BufTy).Contents (Elt F) → (⟨S1x64, .f32⟩ : BufTy).Contents (Elt F)),
    unary main_call7_v3 main_call7_v4 ((broadcastInDim S50000x64 ![0, 1] bcast_S1x64_S50000x64_0_1) : (⟨S1x64, .f32⟩ : BufTy).Contents (Elt F) → (⟨S50000x64, .f32⟩ : BufTy).Contents (Elt F)),
    binary main_v123 main_call7_v4 main_call7_v5 (subf : (⟨S50000x64, .f32⟩ : BufTy).Contents (Elt F) → (⟨S50000x64, .f32⟩ : BufTy).Contents (Elt F) → (⟨S50000x64, .f32⟩ : BufTy).Contents (Elt F)),
    binary main_call7_v5 main_call7_v5 main_call7_v6 (mulf : (⟨S50000x64, .f32⟩ : BufTy).Contents (Elt F) → (⟨S50000x64, .f32⟩ : BufTy).Contents (Elt F) → (⟨S50000x64, .f32⟩ : BufTy).Contents (Elt F)),
    unary main_c_17 main_call7_v7 ((sitofp .f32) : (⟨S_, .i32⟩ : BufTy).Contents (Elt F) → (⟨S_, .f32⟩ : BufTy).Contents (Elt F)),
    nullary main_call7_cst_1 (constant S_ .f32 0x47435000#32),
    binary main_call7_cst_1 main_call7_v7 main_call7_v8 (subf : (⟨S_, .f32⟩ : BufTy).Contents (Elt F) → (⟨S_, .f32⟩ : BufTy).Contents (Elt F) → (⟨S_, .f32⟩ : BufTy).Contents (Elt F)),
    nullary main_call7_cst_2 (constant S_ .f32 0x00000000#32),
    binary main_call7_v6 main_call7_cst_2 main_call7_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call7_v8 main_call7_v10 ((broadcastInDim S64 ![] bcast_S_S64) : (⟨S_, .f32⟩ : BufTy).Contents (Elt F) → (⟨S64, .f32⟩ : BufTy).Contents (Elt F)),
    binary main_call7_v9 main_call7_v10 main_call7_v11 (Host.divf : (⟨S64, .f32⟩ : BufTy).Contents (Elt F) → (⟨S64, .f32⟩ : BufTy).Contents (Elt F) → (⟨S64, .f32⟩ : BufTy).Contents (Elt F)),
    nullary main_call7_cst_3 (constant S_ .f32 0x00000000#32),
    binary main_call7_v8 main_call7_cst_3 main_call7_v12 ((cmpf .ogt) : (⟨S_, .f32⟩ : BufTy).Contents (Elt F) → (⟨S_, .f32⟩ : BufTy).Contents (Elt F) → (⟨S_, .i1⟩ : BufTy).Contents (Elt F)),
    nullary main_call7_cst_4 (constant S_ .f32 0x7FC00000#32),
    unary main_call7_cst_4 main_call7_call0_v0 (id : (⟨S_, .f32⟩ : BufTy).Contents (Elt F) → (⟨S_, .f32⟩ : BufTy).Contents (Elt F)),
    unary main_call7_call0_v0 main_call7_call0_v1 ((broadcastInDim S64 ![] bcast_S_S64) : (⟨S_, .f32⟩ : BufTy).Contents (Elt F) → (⟨S64, .f32⟩ : BufTy).Contents (Elt F)),
    ternary main_call7_v12 main_call7_v11 main_call7_call0_v1 main_v127 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v126 main_v128 (broadcastInDim S1x64 ![1] bcast_S64_S1x64_1 : (⟨S64, .f32⟩ : BufTy).Contents (Elt F) → (⟨S1x64, .f32⟩ : BufTy).Contents (Elt F)),
    unary main_v128 main_v129 (broadcastInDim S50000x64 ![0, 1] bcast_S1x64_S50000x64_0_1 : (⟨S1x64, .f32⟩ : BufTy).Contents (Elt F) → (⟨S50000x64, .f32⟩ : BufTy).Contents (Elt F)),
    binary main_v123 main_v129 main_v130 (subf : (⟨S50000x64, .f32⟩ : BufTy).Contents (Elt F) → (⟨S50000x64, .f32⟩ : BufTy).Contents (Elt F) → (⟨S50000x64, .f32⟩ : BufTy).Contents (Elt F)),
    nullary main_cst_18 (constant S_ .f32 0x3727C5AC#32),
    unary main_cst_18 main_v131 (broadcastInDim S64 ![] bcast_S_S64 : (⟨S_, .f32⟩ : BufTy).Contents (Elt F) → (⟨S64, .f32⟩ : BufTy).Contents (Elt F)),
    binary main_v127 main_v131 main_v132 (addf : (⟨S64, .f32⟩ : BufTy).Contents (Elt F) → (⟨S64, .f32⟩ : BufTy).Contents (Elt F) → (⟨S64, .f32⟩ : BufTy).Contents (Elt F)),
    unary main_v132 main_v133 (Host.rsqrt : (⟨S64, .f32⟩ : BufTy).Contents (Elt F) → (⟨S64, .f32⟩ : BufTy).Contents (Elt F)),
    unary main_v133 main_v134 (broadcastInDim S1x64 ![1] bcast_S64_S1x64_1 : (⟨S64, .f32⟩ : BufTy).Contents (Elt F) → (⟨S1x64, .f32⟩ : BufTy).Contents (Elt F)),
    unary main_v134 main_v135 (broadcastInDim S50000x64 ![0, 1] bcast_S1x64_S50000x64_0_1 : (⟨S1x64, .f32⟩ : BufTy).Contents (Elt F) → (⟨S50000x64, .f32⟩ : BufTy).Contents (Elt F)),
    binary main_v130 main_v135 main_v136 (mulf : (⟨S50000x64, .f32⟩ : BufTy).Contents (Elt F) → (⟨S50000x64, .f32⟩ : BufTy).Contents (Elt F) → (⟨S50000x64, .f32⟩ : BufTy).Contents (Elt F)),
    unary main_v101 main_v137 (broadcastInDim S1x64 ![1] bcast_S64_S1x64_1 : (⟨S64, .f32⟩ : BufTy).Contents (Elt F) → (⟨S1x64, .f32⟩ : BufTy).Contents (Elt F)),
    unary main_v137 main_v138 (broadcastInDim S50000x64 ![0, 1] bcast_S1x64_S50000x64_0_1 : (⟨S1x64, .f32⟩ : BufTy).Contents (Elt F) → (⟨S50000x64, .f32⟩ : BufTy).Contents (Elt F)),
    binary main_v136 main_v138 main_v139 (mulf : (⟨S50000x64, .f32⟩ : BufTy).Contents (Elt F) → (⟨S50000x64, .f32⟩ : BufTy).Contents (Elt F) → (⟨S50000x64, .f32⟩ : BufTy).Contents (Elt F)),
    unary main_v103 main_v140 (broadcastInDim S1x64 ![1] bcast_S64_S1x64_1 : (⟨S64, .f32⟩ : BufTy).Contents (Elt F) → (⟨S1x64, .f32⟩ : BufTy).Contents (Elt F)),
    unary main_v140 main_v141 (broadcastInDim S50000x64 ![0, 1] bcast_S1x64_S50000x64_0_1 : (⟨S1x64, .f32⟩ : BufTy).Contents (Elt F) → (⟨S50000x64, .f32⟩ : BufTy).Contents (Elt F)),
    binary main_v139 main_v141 main_v142 (addf : (⟨S50000x64, .f32⟩ : BufTy).Contents (Elt F) → (⟨S50000x64, .f32⟩ : BufTy).Contents (Elt F) → (⟨S50000x64, .f32⟩ : BufTy).Contents (Elt F)),
    nullary main_call8_cst (constant S_ .f32 0x00000000#32),
    unary main_call8_cst main_call8_v0 ((broadcastInDim S50000x64 ![] bcast_S_S50000x64) : (⟨S_, .f32⟩ : BufTy).Contents (Elt F) → (⟨S50000x64, .f32⟩ : BufTy).Contents (Elt F)),
    binary main_v142 main_call8_v0 main_v143 (maximumf : (⟨S50000x64, .f32⟩ : BufTy).Contents (Elt F) → (⟨S50000x64, .f32⟩ : BufTy).Contents (Elt F) → (⟨S50000x64, .f32⟩ : BufTy).Contents (Elt F)) ]

set_option maxRecDepth 8192 in
theorem seg4_sub : (seg4 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers piece 4 writes, in order. -/
abbrev seg4_W : List (Ref sig .tc) := [main_v105, main_c_13, main_v106, main_v107, main_v108, main_v109, main_v110, main_cst_14, main_v111, main_v112, main_v113, main_v114, main_v115, main_v116, main_v117, main_v118, main_call6_cst, main_call6_v0, main_v119, main_v120, main_v121, main_v122, main_v123, main_cst_15, main_v124, main_cst_16, main_v125, main_v126, main_c_17, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v127, main_v128, main_v129, main_v130, main_cst_18, main_v131, main_v132, main_v133, main_v134, main_v135, main_v136, main_v137, main_v138, main_v139, main_v140, main_v141, main_v142, main_call8_cst, main_call8_v0, main_v143]

/-- Piece 5: 15 operations of window main_part2, ending at the write of main_v157. -/
abbrev seg5 : List (HloOp τ sig (Elt F)) :=
  [ unary main_arg9 main_v144 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v144 main_v145 rfl shapeCasts_S1x64x64_S64x64,
    unary main_arg10 main_v146 ((extractStridedSlice S1x64 ![2, 0] · slices_S3x64_S1x64_2_0) : (⟨S3x64, .f32⟩ : BufTy).Contents (Elt F) → (⟨S1x64, .f32⟩ : BufTy).Contents (Elt F)),
    reshape main_v146 main_v147 rfl shapeCasts_S1x64_S64,
    unary main_arg11 main_v148 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v148 main_v149 rfl shapeCasts_S1x64x64_S64x64,
    unary main_arg12 main_v150 ((extractStridedSlice S1x64 ![2, 0] · slices_S3x64_S1x64_2_0) : (⟨S3x64, .f32⟩ : BufTy).Contents (Elt F) → (⟨S1x64, .f32⟩ : BufTy).Contents (Elt F)),
    reshape main_v150 main_v151 rfl shapeCasts_S1x64_S64,
    unary main_arg13 main_v152 ((extractStridedSlice S1x64 ![2, 0] · slices_S3x64_S1x64_2_0) : (⟨S3x64, .f32⟩ : BufTy).Contents (Elt F) → (⟨S1x64, .f32⟩ : BufTy).Contents (Elt F)),
    reshape main_v152 main_v153 rfl shapeCasts_S1x64_S64,
    unary main_arg14 main_v154 ((extractStridedSlice S1x64 ![2, 0] · slices_S3x64_S1x64_2_0) : (⟨S3x64, .f32⟩ : BufTy).Contents (Elt F) → (⟨S1x64, .f32⟩ : BufTy).Contents (Elt F)),
    reshape main_v154 main_v155 rfl shapeCasts_S1x64_S64,
    nullary main_c_19 (constantI S_ 32 0#32),
    unary main_c_19 main_v156 (broadcastInDim S800000 ![] bcast_S_S800000 : (⟨S_, .i32⟩ : BufTy).Contents (Elt F) → (⟨S800000, .i32⟩ : BufTy).Contents (Elt F)),
    binary main_arg1 main_v156 main_v157 (cmpi .slt : (⟨S800000, .i32⟩ : BufTy).Contents (Elt F) → (⟨S800000, .i32⟩ : BufTy).Contents (Elt F) → (⟨S800000, .i1⟩ : BufTy).Contents (Elt F)) ]

set_option maxRecDepth 8192 in
theorem seg5_sub : (seg5 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub ..⟩

/-- The buffers piece 5 writes, in order. -/
abbrev seg5_W : List (Ref sig .tc) := [main_v144, main_v145, main_v146, main_v147, main_v148, main_v149, main_v150, main_v151, main_v152, main_v153, main_v154, main_v155, main_c_19, main_v156, main_v157]

/-- Piece 6: 69 operations of window main_part3, ending at the write of main_v195. -/
abbrev seg6 : List (HloOp τ sig (Elt F)) :=
  [ nullary main_c_20 (constantI S_ 32 50000#32),
    unary main_c_20 main_v158 (broadcastInDim S800000 ![] bcast_S_S800000 : (⟨S_, .i32⟩ : BufTy).Contents (Elt F) → (⟨S800000, .i32⟩ : BufTy).Contents (Elt F)),
    binary main_arg1 main_v158 main_v159 (addi : (⟨S800000, .i32⟩ : BufTy).Contents (Elt F) → (⟨S800000, .i32⟩ : BufTy).Contents (Elt F) → (⟨S800000, .i32⟩ : BufTy).Contents (Elt F)),
    ternary main_v157 main_v159 main_arg1 main_v160 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v160 main_v161 (broadcastInDim S800000x1 ![0] bcast_S800000_S800000x1_0 : (⟨S800000, .i32⟩ : BufTy).Contents (Elt F) → (⟨S800000x1, .i32⟩ : BufTy).Contents (Elt F)),
    binary main_v143 main_v161 main_v162 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_21 (constant S_ .f32 0x00000000#32),
    unary main_cst_21 main_v163 (broadcastInDim S50000x64 ![] bcast_S_S50000x64 : (⟨S_, .f32⟩ : BufTy).Contents (Elt F) → (⟨S50000x64, .f32⟩ : BufTy).Contents (Elt F)),
    unary main_arg2 main_v164 (broadcastInDim S800000x1 ![0] bcast_S800000_S800000x1_0 : (⟨S800000, .i32⟩ : BufTy).Contents (Elt F) → (⟨S800000x1, .i32⟩ : BufTy).Contents (Elt F)),
    ternary main_v163 main_v164 main_v162 main_v165 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v143 main_v165 main_v166 (addf : (⟨S50000x64, .f32⟩ : BufTy).Contents (Elt F) → (⟨S50000x64, .f32⟩ : BufTy).Contents (Elt F) → (⟨S50000x64, .f32⟩ : BufTy).Contents (Elt F)),
    binary main_v166 main_v145 main_v167 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v147 main_v168 (broadcastInDim S1x64 ![1] bcast_S64_S1x64_1 : (⟨S64, .f32⟩ : BufTy).Contents (Elt F) → (⟨S1x64, .f32⟩ : BufTy).Contents (Elt F)),
    unary main_v168 main_v169 (broadcastInDim S50000x64 ![0, 1] bcast_S1x64_S50000x64_0_1 : (⟨S1x64, .f32⟩ : BufTy).Contents (Elt F) → (⟨S50000x64, .f32⟩ : BufTy).Contents (Elt F)),
    binary main_v167 main_v169 main_v170 (addf : (⟨S50000x64, .f32⟩ : BufTy).Contents (Elt F) → (⟨S50000x64, .f32⟩ : BufTy).Contents (Elt F) → (⟨S50000x64, .f32⟩ : BufTy).Contents (Elt F)),
    nullary main_call9_cst (constant S_ .f32 0x00000000#32),
    unary main_call9_cst main_call9_v0 ((broadcastInDim S50000x64 ![] bcast_S_S50000x64) : (⟨S_, .f32⟩ : BufTy).Contents (Elt F) → (⟨S50000x64, .f32⟩ : BufTy).Contents (Elt F)),
    binary main_v170 main_call9_v0 main_v171 (maximumf : (⟨S50000x64, .f32⟩ : BufTy).Contents (Elt F) → (⟨S50000x64, .f32⟩ : BufTy).Contents (Elt F) → (⟨S50000x64, .f32⟩ : BufTy).Contents (Elt F)),
    binary main_v171 main_v149 main_v172 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v151 main_v173 (broadcastInDim S1x64 ![1] bcast_S64_S1x64_1 : (⟨S64, .f32⟩ : BufTy).Contents (Elt F) → (⟨S1x64, .f32⟩ : BufTy).Contents (Elt F)),
    unary main_v173 main_v174 (broadcastInDim S50000x64 ![0, 1] bcast_S1x64_S50000x64_0_1 : (⟨S1x64, .f32⟩ : BufTy).Contents (Elt F) → (⟨S50000x64, .f32⟩ : BufTy).Contents (Elt F)),
    binary main_v172 main_v174 main_v175 (addf : (⟨S50000x64, .f32⟩ : BufTy).Contents (Elt F) → (⟨S50000x64, .f32⟩ : BufTy).Contents (Elt F) → (⟨S50000x64, .f32⟩ : BufTy).Contents (Elt F)),
    nullary main_cst_22 (constant S_ .f32 0x00000000#32),
    binary main_v175 main_cst_22 main_v176 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_23 (constant S_ .f32 0x47435000#32),
    unary main_cst_23 main_v177 (broadcastInDim S64 ![] bcast_S_S64 : (⟨S_, .f32⟩ : BufTy).Contents (Elt F) → (⟨S64, .f32⟩ : BufTy).Contents (Elt F)),
    binary main_v176 main_v177 main_v178 (Host.divf : (⟨S64, .f32⟩ : BufTy).Contents (Elt F) → (⟨S64, .f32⟩ : BufTy).Contents (Elt F) → (⟨S64, .f32⟩ : BufTy).Contents (Elt F)),
    nullary main_c_24 (constantI S_ 32 0#32),
    nullary main_call10_cst (constant S_ .f32 0x00000000#32),
    binary main_v175 main_call10_cst main_call10_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call10_v0 main_call10_v1 ((broadcastInDim S1x64 ![1] bcast_S64_S1x64_1) : (⟨S64, .f32⟩ : BufTy).Contents (Elt F) → (⟨S1x64, .f32⟩ : BufTy).Contents (Elt F)),
    nullary main_call10_cst_0 (constant S_ .f32 0x47435000#32),
    unary main_call10_cst_0 main_call10_v2 ((broadcastInDim S1x64 ![] bcast_S_S1x64) : (⟨S_, .f32⟩ : BufTy).Contents (Elt F) → (⟨S1x64, .f32⟩ : BufTy).Contents (Elt F)),
    binary main_call10_v1 main_call10_v2 main_call10_v3 (Host.divf : (⟨S1x64, .f32⟩ : BufTy).Contents (Elt F) → (⟨S1x64, .f32⟩ : BufTy).Contents (Elt F) → (⟨S1x64, .f32⟩ : BufTy).Contents (Elt F)),
    unary main_call10_v3 main_call10_v4 ((broadcastInDim S50000x64 ![0, 1] bcast_S1x64_S50000x64_0_1) : (⟨S1x64, .f32⟩ : BufTy).Contents (Elt F) → (⟨S50000x64, .f32⟩ : BufTy).Contents (Elt F)),
    binary main_v175 main_call10_v4 main_call10_v5 (subf : (⟨S50000x64, .f32⟩ : BufTy).Contents (Elt F) → (⟨S50000x64, .f32⟩ : BufTy).Contents (Elt F) → (⟨S50000x64, .f32⟩ : BufTy).Contents (Elt F)),
    binary main_call10_v5 main_call10_v5 main_call10_v6 (mulf : (⟨S50000x64, .f32⟩ : BufTy).Contents (Elt F) → (⟨S50000x64, .f32⟩ : BufTy).Contents (Elt F) → (⟨S50000x64, .f32⟩ : BufTy).Contents (Elt F)),
    unary main_c_24 main_call10_v7 ((sitofp .f32) : (⟨S_, .i32⟩ : BufTy).Contents (Elt F) → (⟨S_, .f32⟩ : BufTy).Contents (Elt F)),
    nullary main_call10_cst_1 (constant S_ .f32 0x47435000#32),
    binary main_call10_cst_1 main_call10_v7 main_call10_v8 (subf : (⟨S_, .f32⟩ : BufTy).Contents (Elt F) → (⟨S_, .f32⟩ : BufTy).Contents (Elt F) → (⟨S_, .f32⟩ : BufTy).Contents (Elt F)),
    nullary main_call10_cst_2 (constant S_ .f32 0x00000000#32),
    binary main_call10_v6 main_call10_cst_2 main_call10_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call10_v8 main_call10_v10 ((broadcastInDim S64 ![] bcast_S_S64) : (⟨S_, .f32⟩ : BufTy).Contents (Elt F) → (⟨S64, .f32⟩ : BufTy).Contents (Elt F)),
    binary main_call10_v9 main_call10_v10 main_call10_v11 (Host.divf : (⟨S64, .f32⟩ : BufTy).Contents (Elt F) → (⟨S64, .f32⟩ : BufTy).Contents (Elt F) → (⟨S64, .f32⟩ : BufTy).Contents (Elt F)),
    nullary main_call10_cst_3 (constant S_ .f32 0x00000000#32),
    binary main_call10_v8 main_call10_cst_3 main_call10_v12 ((cmpf .ogt) : (⟨S_, .f32⟩ : BufTy).Contents (Elt F) → (⟨S_, .f32⟩ : BufTy).Contents (Elt F) → (⟨S_, .i1⟩ : BufTy).Contents (Elt F)),
    nullary main_call10_cst_4 (constant S_ .f32 0x7FC00000#32),
    unary main_call10_cst_4 main_call10_call0_v0 (id : (⟨S_, .f32⟩ : BufTy).Contents (Elt F) → (⟨S_, .f32⟩ : BufTy).Contents (Elt F)),
    unary main_call10_call0_v0 main_call10_call0_v1 ((broadcastInDim S64 ![] bcast_S_S64) : (⟨S_, .f32⟩ : BufTy).Contents (Elt F) → (⟨S64, .f32⟩ : BufTy).Contents (Elt F)),
    ternary main_call10_v12 main_call10_v11 main_call10_call0_v1 main_v179 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v178 main_v180 (broadcastInDim S1x64 ![1] bcast_S64_S1x64_1 : (⟨S64, .f32⟩ : BufTy).Contents (Elt F) → (⟨S1x64, .f32⟩ : BufTy).Contents (Elt F)),
    unary main_v180 main_v181 (broadcastInDim S50000x64 ![0, 1] bcast_S1x64_S50000x64_0_1 : (⟨S1x64, .f32⟩ : BufTy).Contents (Elt F) → (⟨S50000x64, .f32⟩ : BufTy).Contents (Elt F)),
    binary main_v175 main_v181 main_v182 (subf : (⟨S50000x64, .f32⟩ : BufTy).Contents (Elt F) → (⟨S50000x64, .f32⟩ : BufTy).Contents (Elt F) → (⟨S50000x64, .f32⟩ : BufTy).Contents (Elt F)),
    nullary main_cst_25 (constant S_ .f32 0x3727C5AC#32),
    unary main_cst_25 main_v183 (broadcastInDim S64 ![] bcast_S_S64 : (⟨S_, .f32⟩ : BufTy).Contents (Elt F) → (⟨S64, .f32⟩ : BufTy).Contents (Elt F)),
    binary main_v179 main_v183 main_v184 (addf : (⟨S64, .f32⟩ : BufTy).Contents (Elt F) → (⟨S64, .f32⟩ : BufTy).Contents (Elt F) → (⟨S64, .f32⟩ : BufTy).Contents (Elt F)),
    unary main_v184 main_v185 (Host.rsqrt : (⟨S64, .f32⟩ : BufTy).Contents (Elt F) → (⟨S64, .f32⟩ : BufTy).Contents (Elt F)),
    unary main_v185 main_v186 (broadcastInDim S1x64 ![1] bcast_S64_S1x64_1 : (⟨S64, .f32⟩ : BufTy).Contents (Elt F) → (⟨S1x64, .f32⟩ : BufTy).Contents (Elt F)),
    unary main_v186 main_v187 (broadcastInDim S50000x64 ![0, 1] bcast_S1x64_S50000x64_0_1 : (⟨S1x64, .f32⟩ : BufTy).Contents (Elt F) → (⟨S50000x64, .f32⟩ : BufTy).Contents (Elt F)),
    binary main_v182 main_v187 main_v188 (mulf : (⟨S50000x64, .f32⟩ : BufTy).Contents (Elt F) → (⟨S50000x64, .f32⟩ : BufTy).Contents (Elt F) → (⟨S50000x64, .f32⟩ : BufTy).Contents (Elt F)),
    unary main_v153 main_v189 (broadcastInDim S1x64 ![1] bcast_S64_S1x64_1 : (⟨S64, .f32⟩ : BufTy).Contents (Elt F) → (⟨S1x64, .f32⟩ : BufTy).Contents (Elt F)),
    unary main_v189 main_v190 (broadcastInDim S50000x64 ![0, 1] bcast_S1x64_S50000x64_0_1 : (⟨S1x64, .f32⟩ : BufTy).Contents (Elt F) → (⟨S50000x64, .f32⟩ : BufTy).Contents (Elt F)),
    binary main_v188 main_v190 main_v191 (mulf : (⟨S50000x64, .f32⟩ : BufTy).Contents (Elt F) → (⟨S50000x64, .f32⟩ : BufTy).Contents (Elt F) → (⟨S50000x64, .f32⟩ : BufTy).Contents (Elt F)),
    unary main_v155 main_v192 (broadcastInDim S1x64 ![1] bcast_S64_S1x64_1 : (⟨S64, .f32⟩ : BufTy).Contents (Elt F) → (⟨S1x64, .f32⟩ : BufTy).Contents (Elt F)),
    unary main_v192 main_v193 (broadcastInDim S50000x64 ![0, 1] bcast_S1x64_S50000x64_0_1 : (⟨S1x64, .f32⟩ : BufTy).Contents (Elt F) → (⟨S50000x64, .f32⟩ : BufTy).Contents (Elt F)),
    binary main_v191 main_v193 main_v194 (addf : (⟨S50000x64, .f32⟩ : BufTy).Contents (Elt F) → (⟨S50000x64, .f32⟩ : BufTy).Contents (Elt F) → (⟨S50000x64, .f32⟩ : BufTy).Contents (Elt F)),
    nullary main_call11_cst (constant S_ .f32 0x00000000#32),
    unary main_call11_cst main_call11_v0 ((broadcastInDim S50000x64 ![] bcast_S_S50000x64) : (⟨S_, .f32⟩ : BufTy).Contents (Elt F) → (⟨S50000x64, .f32⟩ : BufTy).Contents (Elt F)),
    binary main_v194 main_call11_v0 main_v195 (maximumf : (⟨S50000x64, .f32⟩ : BufTy).Contents (Elt F) → (⟨S50000x64, .f32⟩ : BufTy).Contents (Elt F) → (⟨S50000x64, .f32⟩ : BufTy).Contents (Elt F)) ]

set_option maxRecDepth 8192 in
theorem seg6_sub : (seg6 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers piece 6 writes, in order. -/
abbrev seg6_W : List (Ref sig .tc) := [main_c_20, main_v158, main_v159, main_v160, main_v161, main_v162, main_cst_21, main_v163, main_v164, main_v165, main_v166, main_v167, main_v168, main_v169, main_v170, main_call9_cst, main_call9_v0, main_v171, main_v172, main_v173, main_v174, main_v175, main_cst_22, main_v176, main_cst_23, main_v177, main_v178, main_c_24, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v179, main_v180, main_v181, main_v182, main_cst_25, main_v183, main_v184, main_v185, main_v186, main_v187, main_v188, main_v189, main_v190, main_v191, main_v192, main_v193, main_v194, main_call11_cst, main_call11_v0, main_v195]

end Cert.ReferenceIdeal.Hand

end
-- ==== Proof.Ref.Layers.lean ====
/-
  The reference network as pure functions of its inputs, one GIN layer at a time.

  A layer takes the node table h (50000 rows) and the edge lists src, dst (800000 edges) and computes
    agg  = Σ over edges e with dst e = v of h[src e]            (gather the source rows, then scatter-add them at dst)
    z    = relu ((h + agg) · W1 + b1) · W2 + b2                 (the two-layer perceptron, row by row)
    out  = relu ((z − mean z) · rsqrt (var z + ε) · γ + β)      (batch normalisation over the 50000 rows, per column)
  where mean z is the column sum divided by 50000 and var z the column sum of squared deviations from that mean,
  divided by 50000 − 0 (no degrees-of-freedom correction; the quotient is selected only if 50000 − 0 > 0, else NaN).
  Layer 0 reads 128 columns and its own parameters; layers 1, 2, 3 read 64 columns and the slices 0, 1, 2 of
  the stacked parameters. Every term below is spelt operation for operation as the program computes it.
-/
import proofs.«144771_j36481452212846_1_alg».proof.ReferenceIdeal
import proofs.«144771_j36481452212846_1_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

/-- A table of 32-bit floats of shape s. -/
abbrev Tf (F : FTy → Type) (s : Shape) : Type := (⟨s, .f32⟩ : BufTy).Contents (Elt F)
/-- A table of 32-bit integers of shape s. -/
abbrev Ti (F : FTy → Type) (s : Shape) : Type := (⟨s, .i32⟩ : BufTy).Contents (Elt F)

/-- The zero scalar, the row count 50000 as a float, and the batch-norm ε. -/
abbrev zero32 : Tf F S_ := constant S_ .f32 0x00000000#32
abbrev rows32 : Tf F S_ := constant S_ .f32 0x47435000#32
abbrev eps32 : Tf F S_ := constant S_ .f32 0x3727C5AC#32

/-- Index normalisation: a negative source index i stands for i + 50000. -/
def wrapIdx (src : Ti F S800000) : Ti F S800000 :=
  select (cmpi .slt src (broadcastInDim S800000 ![] bcast_S_S800000 (constantI S_ 32 0#32)))
    (addi src (broadcastInDim S800000 ![] bcast_S_S800000 (constantI S_ 32 50000#32))) src

/-- The neighbour sum over 128 columns: row v is the sum of h[src e] over the edges e with dst e = v. -/
def agg128 (h : Tf F S50000x128) (src dst : Ti F S800000) : Tf F S50000x128 :=
  Host.scatterAdd scatter_S50000x128_S800000x1_S800000x128_1_0_0_1
    (broadcastInDim S50000x128 ![] bcast_S_S50000x128 zero32)
    (broadcastInDim S800000x1 ![0] bcast_S800000_S800000x1_0 dst)
    (Host.gather gather_S50000x128_S800000x1_S800000x128_1_0_n_n_0_1_1128 h
      (broadcastInDim S800000x1 ![0] bcast_S800000_S800000x1_0 (wrapIdx src)))

/-- The neighbour sum over 64 columns. -/
def agg64 (h : Tf F S50000x64) (src dst : Ti F S800000) : Tf F S50000x64 :=
  Host.scatterAdd scatter_S50000x64_S800000x1_S800000x64_1_0_0_1
    (broadcastInDim S50000x64 ![] bcast_S_S50000x64 zero32)
    (broadcastInDim S800000x1 ![0] bcast_S800000_S800000x1_0 dst)
    (Host.gather gather_S50000x64_S800000x1_S800000x64_1_0_n_n_0_1_164 h
      (broadcastInDim S800000x1 ![0] bcast_S800000_S800000x1_0 (wrapIdx src)))

/-- A row vector repeated down the 50000 rows. -/
def rowsOf (b : Tf F S64) : Tf F S50000x64 :=
  broadcastInDim S50000x64 ![0, 1] bcast_S1x64_S50000x64_0_1 (broadcastInDim S1x64 ![1] bcast_S64_S1x64_1 b)

/-- max(x, 0), entry by entry. -/
def relu (x : Tf F S50000x64) : Tf F S50000x64 :=
  maximumf x (broadcastInDim S50000x64 ![] bcast_S_S50000x64 zero32)

/-- x · W + b for a 128-column x. -/
def lin128 (x : Tf F S50000x128) (W : Tf F S128x64) (b : Tf F S64) : Tf F S50000x64 :=
  addf (Host.dotGeneral dot_S50000x128_S128x64_S50000x64_1_0_0_1_n_n none x W) (rowsOf b)

/-- x · W + b for a 64-column x. -/
def lin64 (x : Tf F S50000x64) (W : Tf F S64x64) (b : Tf F S64) : Tf F S50000x64 :=
  addf (Host.dotGeneral dot_S50000x64_S64x64_S50000x64_1_0_0_1_n_n none x W) (rowsOf b)

/-- The column sums of z. -/
def colSum (z : Tf F S50000x64) : Tf F S64 :=
  Host.reduceAdd z zero32 reducesTo_S50000x64_S64_d0 h_S_

/-- The column means: the column sums over 50000. -/
def colMean (z : Tf F S50000x64) : Tf F S64 :=
  Host.divf (colSum z) (broadcastInDim S64 ![] bcast_S_S64 rows32)

/-- The divisor of the variance: 50000 minus the correction 0 (as the program computes it, from the integer 0). -/
def varDen : Tf F S_ := subf rows32 (sitofp .f32 (constantI S_ 32 0#32))

/-- The column variances: the mean there is taken through a 1×64 row; the sum of squared deviations is divided by
    the divisor above where that is positive, and is NaN otherwise. -/
def colVar (z : Tf F S50000x64) : Tf F S64 :=
  select (broadcastInDim S64 ![] bcast_S_S64 (cmpf .ogt (varDen (F := F)) zero32))
    (Host.divf
      (colSum
        (mulf
          (subf z (broadcastInDim S50000x64 ![0, 1] bcast_S1x64_S50000x64_0_1
            (Host.divf (broadcastInDim S1x64 ![1] bcast_S64_S1x64_1 (colSum z))
              (broadcastInDim S1x64 ![] bcast_S_S1x64 rows32))))
          (subf z (broadcastInDim S50000x64 ![0, 1] bcast_S1x64_S50000x64_0_1
            (Host.divf (broadcastInDim S1x64 ![1] bcast_S64_S1x64_1 (colSum z))
              (broadcastInDim S1x64 ![] bcast_S_S1x64 rows32))))))
      (broadcastInDim S64 ![] bcast_S_S64 varDen))
    (broadcastInDim S64 ![] bcast_S_S64 (id (constant S_ .f32 0x7FC00000#32)))

/-- Batch normalisation over the rows: (z − mean) · rsqrt (var + ε) · γ + β. -/
def batchNorm (z : Tf F S50000x64) (g be : Tf F S64) : Tf F S50000x64 :=
  addf
    (mulf
      (mulf (subf z (rowsOf (colMean z)))
        (rowsOf (Host.rsqrt (addf (colVar z) (broadcastInDim S64 ![] bcast_S_S64 eps32)))))
      (rowsOf g))
    (rowsOf be)

/-- Layer 0: 128 input columns, its own parameters. -/
def layer0 (h : Tf F S50000x128) (src dst : Ti F S800000) (W1 : Tf F S128x64) (b1 : Tf F S64) (W2 : Tf F S64x64)
    (b2 g be : Tf F S64) : Tf F S50000x64 :=
  relu (batchNorm (lin64 (relu (lin128 (addf h (agg128 h src dst)) W1 b1)) W2 b2) g be)

/-- A layer on 64 input columns, over its parameters. -/
def layerS (h : Tf F S50000x64) (src dst : Ti F S800000) (W1 : Tf F S64x64) (b1 : Tf F S64) (W2 : Tf F S64x64)
    (b2 g be : Tf F S64) : Tf F S50000x64 :=
  relu (batchNorm (lin64 (relu (lin64 (addf h (agg64 h src dst)) W1 b1)) W2 b2) g be)

/-- Matrix k of a stack of three 64×64 matrices. -/
def mat0 (Ws : Tf F S3x64x64) : Tf F S64x64 :=
  shapeCast S64x64 (extractStridedSlice S1x64x64 ![0, 0, 0] Ws slices_S3x64x64_S1x64x64_0_0_0) shapeCasts_S1x64x64_S64x64
def mat1 (Ws : Tf F S3x64x64) : Tf F S64x64 :=
  shapeCast S64x64 (extractStridedSlice S1x64x64 ![1, 0, 0] Ws slices_S3x64x64_S1x64x64_1_0_0) shapeCasts_S1x64x64_S64x64
def mat2 (Ws : Tf F S3x64x64) : Tf F S64x64 :=
  shapeCast S64x64 (extractStridedSlice S1x64x64 ![2, 0, 0] Ws slices_S3x64x64_S1x64x64_2_0_0) shapeCasts_S1x64x64_S64x64

/-- Row k of a stack of three 64-vectors. -/
def row0 (bs : Tf F S3x64) : Tf F S64 :=
  shapeCast S64 (extractStridedSlice S1x64 ![0, 0] bs slices_S3x64_S1x64_0_0) shapeCasts_S1x64_S64
def row1 (bs : Tf F S3x64) : Tf F S64 :=
  shapeCast S64 (extractStridedSlice S1x64 ![1, 0] bs slices_S3x64_S1x64_1_0) shapeCasts_S1x64_S64
def row2 (bs : Tf F S3x64) : Tf F S64 :=
  shapeCast S64 (extractStridedSlice S1x64 ![2, 0] bs slices_S3x64_S1x64_2_0) shapeCasts_S1x64_S64

/-- Layers 1, 2, 3: slice 0, 1, 2 of the stacked parameters. -/
def layer1 (h : Tf F S50000x64) (src dst : Ti F S800000) (W1s : Tf F S3x64x64) (b1s : Tf F S3x64) (W2s : Tf F S3x64x64)
    (b2s gs bes : Tf F S3x64) : Tf F S50000x64 :=
  layerS h src dst (mat0 W1s) (row0 b1s) (mat0 W2s) (row0 b2s) (row0 gs) (row0 bes)
def layer2 (h : Tf F S50000x64) (src dst : Ti F S800000) (W1s : Tf F S3x64x64) (b1s : Tf F S3x64) (W2s : Tf F S3x64x64)
    (b2s gs bes : Tf F S3x64) : Tf F S50000x64 :=
  layerS h src dst (mat1 W1s) (row1 b1s) (mat1 W2s) (row1 b2s) (row1 gs) (row1 bes)
def layer3 (h : Tf F S50000x64) (src dst : Ti F S800000) (W1s : Tf F S3x64x64) (b1s : Tf F S3x64) (W2s : Tf F S3x64x64)
    (b2s gs bes : Tf F S3x64) : Tf F S50000x64 :=
  layerS h src dst (mat2 W1s) (row2 b1s) (mat2 W2s) (row2 b2s) (row2 gs) (row2 bes)

end Cert.ReferenceIdeal.Hand

end
-- ==== Proof.Ref.Run.lean ====
/-
  The reference program's run, read back as the four layers.

  @main is a straight line of 324 host operations once each call is replaced by the callee's operations over that
  call's own buffers (the lists of Ops.lean; every buffer is written once). A straight line started from a memory
  with zero counters terminates, and each buffer then holds the fold of the operations' results over the launch
  contents. The fold is read one layer at a time: a layer's operations read only the previous layer's output and
  @main's arguments, and write the layer's output, so from ANY contents U the output buffer after the layer's
  operations is the layer's pure function (Layers.lean) of U at those buffers; no operation writes an argument,
  so the arguments keep their launch contents through every layer. Chaining the four gives the network.
-/
import proofs.«144771_j36481452212846_1_alg».proof.Proof.Ref.Ops
import proofs.«144771_j36481452212846_1_alg».proof.Proof.Ref.Layers
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The program is the straight line -/

/-- @main's operations in order: the seven pieces. -/
abbrev ops : List (HloOp τ sig (Elt F)) := seg0 ++ (seg1 ++ (seg2 ++ (seg3 ++ (seg4 ++ (seg5 ++ seg6)))))

-- each window is its two pieces run in order: the calls unfold to their bodies, the records to their fields, and
-- sequencing is associative on these concrete programs, all by computation
set_option maxRecDepth 8192 in
theorem main_part0_eq (c : Dev nD) : main_part0 (F := F) c = seq (seg0 ++ seg1) := rfl
set_option maxRecDepth 8192 in
theorem main_part1_eq (c : Dev nD) : main_part1 (F := F) c = seq (seg2 ++ seg3) := rfl
set_option maxRecDepth 8192 in
theorem main_part2_eq (c : Dev nD) : main_part2 (F := F) c = seq (seg4 ++ seg5) := rfl
set_option maxRecDepth 8192 in
theorem main_part3_eq (c : Dev nD) : main_part3 (F := F) c = seq seg6 := rfl

/-- @main runs its four windows in order, which is the whole line: a concatenation runs as its parts in sequence. -/
theorem main_eq (c : Dev nD) : main (F := F) c = seq ops := by
  simp only [main, main_part0_eq, main_part1_eq, main_part2_eq, main_part3_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: piece by piece. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp seg0_sub op h, List.forall_iff_forall_mem.mp seg1_sub op h,
      List.forall_iff_forall_mem.mp seg2_sub op h, List.forall_iff_forall_mem.mp seg3_sub op h,
      List.forall_iff_forall_mem.mp seg4_sub op h, List.forall_iff_forall_mem.mp seg5_sub op h,
      List.forall_iff_forall_mem.mp seg6_sub op h]

/-- Walks a literal list's membership: every operation of it determines its results (none allocates). -/
macro "fresh_walk" : tactic =>
  `(tactic| (intro _ h; (repeat (cases h with | head => rfl | tail _ h => ?_)); exact nomatch h))

set_option maxRecDepth 8192 in
theorem seg0_fresh : ∀ op ∈ (seg0 : List (HloOp τ sig (Elt F))), op.fresh = ∅ := by fresh_walk
set_option maxRecDepth 8192 in
theorem seg1_fresh : ∀ op ∈ (seg1 : List (HloOp τ sig (Elt F))), op.fresh = ∅ := by fresh_walk
set_option maxRecDepth 8192 in
theorem seg2_fresh : ∀ op ∈ (seg2 : List (HloOp τ sig (Elt F))), op.fresh = ∅ := by fresh_walk
set_option maxRecDepth 8192 in
theorem seg3_fresh : ∀ op ∈ (seg3 : List (HloOp τ sig (Elt F))), op.fresh = ∅ := by fresh_walk
set_option maxRecDepth 8192 in
theorem seg4_fresh : ∀ op ∈ (seg4 : List (HloOp τ sig (Elt F))), op.fresh = ∅ := by fresh_walk
set_option maxRecDepth 8192 in
theorem seg5_fresh : ∀ op ∈ (seg5 : List (HloOp τ sig (Elt F))), op.fresh = ∅ := by fresh_walk
set_option maxRecDepth 8192 in
theorem seg6_fresh : ∀ op ∈ (seg6 : List (HloOp τ sig (Elt F))), op.fresh = ∅ := by fresh_walk

theorem ops_fresh : ∀ op ∈ (ops : List (HloOp τ sig (Elt F))), op.fresh = ∅ := fun op h => by
  simp only [ops, List.mem_append] at h
  rcases h with h | h | h | h | h | h | h
  exacts [seg0_fresh op h, seg1_fresh op h, seg2_fresh op h, seg3_fresh op h, seg4_fresh op h, seg5_fresh op h,
    seg6_fresh op h]

/-! ## What a piece leaves alone -/

/-- One operation's written buffer is on the piece's list (the buffer is a literal; the list is searched). -/
macro "writes_one" : tactic =>
  `(tactic| (simp only [nullary_writes, unary_writes, binary_writes, ternary_writes, reshape_writes,
      Finset.singleton_subset_iff, List.mem_toFinset]; exact List.mem_map_of_mem (by decide)))
/-- The same for every operation of a literal list. -/
macro "writes_walk" : tactic =>
  `(tactic| (simp only [List.Forall]; (repeat' apply And.intro) <;> writes_one))

set_option maxRecDepth 8192 in
theorem seg0_writes : (seg0 : List (HloOp τ sig (Elt F))).Forall fun op => op.writes ⊆ (seg0_W.map (Proc.devRef (τ := τ) .tc)).toFinset := by writes_walk
set_option maxRecDepth 8192 in
theorem seg1_writes : (seg1 : List (HloOp τ sig (Elt F))).Forall fun op => op.writes ⊆ (seg1_W.map (Proc.devRef (τ := τ) .tc)).toFinset := by writes_walk
set_option maxRecDepth 8192 in
theorem seg2_writes : (seg2 : List (HloOp τ sig (Elt F))).Forall fun op => op.writes ⊆ (seg2_W.map (Proc.devRef (τ := τ) .tc)).toFinset := by writes_walk
set_option maxRecDepth 8192 in
theorem seg3_writes : (seg3 : List (HloOp τ sig (Elt F))).Forall fun op => op.writes ⊆ (seg3_W.map (Proc.devRef (τ := τ) .tc)).toFinset := by writes_walk
set_option maxRecDepth 8192 in
theorem seg4_writes : (seg4 : List (HloOp τ sig (Elt F))).Forall fun op => op.writes ⊆ (seg4_W.map (Proc.devRef (τ := τ) .tc)).toFinset := by writes_walk
set_option maxRecDepth 8192 in
theorem seg5_writes : (seg5 : List (HloOp τ sig (Elt F))).Forall fun op => op.writes ⊆ (seg5_W.map (Proc.devRef (τ := τ) .tc)).toFinset := by writes_walk
set_option maxRecDepth 8192 in
theorem seg6_writes : (seg6 : List (HloOp τ sig (Elt F))).Forall fun op => op.writes ⊆ (seg6_W.map (Proc.devRef (τ := τ) .tc)).toFinset := by writes_walk

/-- The buffers no operation of @main writes: its arguments. -/
def IsArg (r : Ref sig .tc) : Prop :=
  r ∉ seg0_W ∧ r ∉ seg1_W ∧ r ∉ seg2_W ∧ r ∉ seg3_W ∧ r ∉ seg4_W ∧ r ∉ seg5_W ∧ r ∉ seg6_W

instance (r : Ref sig .tc) : Decidable (IsArg r) := by unfold IsArg; infer_instance

/-! ## The layers' operations -/

/-- Layer 0 is piece 0; layer k + 1 is the tail of a window (its parameters' slices) and the head of the next. -/
def lay1 : List (HloOp τ sig (Elt F)) := seg1 ++ seg2
def lay2 : List (HloOp τ sig (Elt F)) := seg3 ++ seg4
def lay3 : List (HloOp τ sig (Elt F)) := seg5 ++ seg6

theorem after_ops (V : Valuation τ sig (Elt F)) :
    after ops V = after lay3 (after lay2 (after lay1 (after seg0 V))) := by
  simp only [ops, lay1, lay2, lay3, after_append]

theorem seg0_keep (V : Valuation τ sig (Elt F)) {r : Ref sig .tc} (h : IsArg r) :
    after seg0 V (Proc.devRef .tc r) = V (Proc.devRef .tc r) :=
  after_of_writes_sub seg0 V seg0_writes h.1
theorem lay1_keep (V : Valuation τ sig (Elt F)) {r : Ref sig .tc} (h : IsArg r) :
    after lay1 V (Proc.devRef .tc r) = V (Proc.devRef .tc r) := by
  rw [lay1, after_append, after_of_writes_sub seg2 _ seg2_writes h.2.2.1, after_of_writes_sub seg1 V seg1_writes h.2.1]
theorem lay2_keep (V : Valuation τ sig (Elt F)) {r : Ref sig .tc} (h : IsArg r) :
    after lay2 V (Proc.devRef .tc r) = V (Proc.devRef .tc r) := by
  rw [lay2, after_append, after_of_writes_sub seg4 _ seg4_writes h.2.2.2.2.1, after_of_writes_sub seg3 V seg3_writes h.2.2.2.1]
theorem lay3_keep (V : Valuation τ sig (Elt F)) {r : Ref sig .tc} (h : IsArg r) :
    after lay3 V (Proc.devRef .tc r) = V (Proc.devRef .tc r) := by
  rw [lay3, after_append, after_of_writes_sub seg6 _ seg6_writes h.2.2.2.2.2.2, after_of_writes_sub seg5 V seg5_writes h.2.2.2.2.2.1]

/-- An argument keeps its launch contents through the whole line. -/
theorem ops_keep (V : Valuation τ sig (Elt F)) {r : Ref sig .tc} (h : IsArg r) :
    after ops V (Proc.devRef .tc r) = V (Proc.devRef .tc r) := by
  rw [after_ops, lay3_keep _ h, lay2_keep _ h, lay1_keep _ h, seg0_keep _ h]

/-! ## Each layer's output, from any contents -/

set_option maxRecDepth 8192 in
set_option maxHeartbeats 4000000 in
/-- After layer 0's operations its output buffer holds layer 0 of the arguments' contents: each operation's result at
    its own buffer is its function of its operands' buffers, and every other buffer is untouched by it. -/
theorem lay0_out (V : Valuation τ sig (Elt F)) :
    after seg0 V (Proc.devRef .tc main_v39) = layer0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  simp only [seg0]
  after_results_simp
  rfl

set_option maxRecDepth 8192 in
set_option maxHeartbeats 4000000 in
theorem lay1_out (V : Valuation τ sig (Elt F)) :
    after lay1 V (Proc.devRef .tc main_v91) = layer1 (V (Proc.devRef .tc main_v39)) (V (Proc.devRef .tc main_arg1)) (V (Proc.devRef .tc main_arg2)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [lay1, seg1, seg2, List.cons_append, List.nil_append]
  after_results_simp
  rfl

set_option maxRecDepth 8192 in
set_option maxHeartbeats 4000000 in
theorem lay2_out (V : Valuation τ sig (Elt F)) :
    after lay2 V (Proc.devRef .tc main_v143) = layer2 (V (Proc.devRef .tc main_v91)) (V (Proc.devRef .tc main_arg1)) (V (Proc.devRef .tc main_arg2)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [lay2, seg3, seg4, List.cons_append, List.nil_append]
  after_results_simp
  rfl

set_option maxRecDepth 8192 in
set_option maxHeartbeats 4000000 in
theorem lay3_out (V : Valuation τ sig (Elt F)) :
    after lay3 V (Proc.devRef .tc main_v195) = layer3 (V (Proc.devRef .tc main_v143)) (V (Proc.devRef .tc main_arg1)) (V (Proc.devRef .tc main_arg2)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [lay3, seg5, seg6, List.cons_append, List.nil_append]
  after_results_simp
  rfl

/-- The network's output buffer after the whole line: the four layers chained, the arguments read at the start. -/
theorem ops_out (V : Valuation τ sig (Elt F)) :
    after ops V (Proc.devRef .tc main_v195)
      = layer3 (layer2 (layer1 (layer0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)))
        (V (Proc.devRef .tc main_arg1)) (V (Proc.devRef .tc main_arg2)) (V (Proc.devRef .tc main_arg9)) (V (Proc.devRef .tc main_arg10)) (V (Proc.devRef .tc main_arg11)) (V (Proc.devRef .tc main_arg12)) (V (Proc.devRef .tc main_arg13)) (V (Proc.devRef .tc main_arg14)))
        (V (Proc.devRef .tc main_arg1)) (V (Proc.devRef .tc main_arg2)) (V (Proc.devRef .tc main_arg9)) (V (Proc.devRef .tc main_arg10)) (V (Proc.devRef .tc main_arg11)) (V (Proc.devRef .tc main_arg12)) (V (Proc.devRef .tc main_arg13)) (V (Proc.devRef .tc main_arg14)))
        (V (Proc.devRef .tc main_arg1)) (V (Proc.devRef .tc main_arg2)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  have k : ∀ r : Ref sig .tc, IsArg r → (after lay2 (after lay1 (after seg0 V)) (Proc.devRef .tc r) = V (Proc.devRef .tc r)
      ∧ after lay1 (after seg0 V) (Proc.devRef .tc r) = V (Proc.devRef .tc r)
      ∧ after seg0 V (Proc.devRef .tc r) = V (Proc.devRef .tc r)) := fun r h =>
    ⟨by rw [lay2_keep _ h, lay1_keep _ h, seg0_keep _ h], by rw [lay1_keep _ h, seg0_keep _ h], seg0_keep _ h⟩
  rw [after_ops, lay3_out, lay2_out, lay1_out, lay0_out,
    (k main_arg1 (by decide)).1, (k main_arg2 (by decide)).1, (k main_arg9 (by decide)).1, (k main_arg10 (by decide)).1,
    (k main_arg11 (by decide)).1, (k main_arg12 (by decide)).1, (k main_arg13 (by decide)).1, (k main_arg14 (by decide)).1,
    (k main_arg1 (by decide)).2.1, (k main_arg2 (by decide)).2.1, (k main_arg9 (by decide)).2.1, (k main_arg10 (by decide)).2.1,
    (k main_arg11 (by decide)).2.1, (k main_arg12 (by decide)).2.1, (k main_arg13 (by decide)).2.1, (k main_arg14 (by decide)).2.1,
    (k main_arg1 (by decide)).2.2, (k main_arg2 (by decide)).2.2, (k main_arg9 (by decide)).2.2, (k main_arg10 (by decide)).2.2,
    (k main_arg11 (by decide)).2.2, (k main_arg12 (by decide)).2.2, (k main_arg13 (by decide)).2.2, (k main_arg14 (by decide)).2.2]

/-! ## The run -/

/-- On every device, for any float values, from any memory with zero counters: every weakly fair execution of @main
    terminates with the result buffer at the four layers chained over the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v195)
        = layer3 (layer2 (layer1 (layer0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
        (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))
        (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))
        (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
      ⟨(h c main_v195).trans (ops_out (launchContents m c)),
        (h c main_arg0).trans (ops_keep (launchContents m c) (by decide)),
        (h c main_arg1).trans (ops_keep (launchContents m c) (by decide)),
        (h c main_arg2).trans (ops_keep (launchContents m c) (by decide)),
        (h c main_arg3).trans (ops_keep (launchContents m c) (by decide)),
        (h c main_arg4).trans (ops_keep (launchContents m c) (by decide)),
        (h c main_arg5).trans (ops_keep (launchContents m c) (by decide)),
        (h c main_arg6).trans (ops_keep (launchContents m c) (by decide)),
        (h c main_arg7).trans (ops_keep (launchContents m c) (by decide)),
        (h c main_arg8).trans (ops_keep (launchContents m c) (by decide)),
        (h c main_arg9).trans (ops_keep (launchContents m c) (by decide)),
        (h c main_arg10).trans (ops_keep (launchContents m c) (by decide)),
        (h c main_arg11).trans (ops_keep (launchContents m c) (by decide)),
        (h c main_arg12).trans (ops_keep (launchContents m c) (by decide)),
        (h c main_arg13).trans (ops_keep (launchContents m c) (by decide)),
        (h c main_arg14).trans (ops_keep (launchContents m c) (by decide))⟩)
    (run_seq scopedRefs_eq scopedSems_eq defs main (fun _ => ops) main_eq (fun _ => ops_sub) m ρ (fun _ => ops_fresh))

end Cert.ReferenceIdeal.Hand

end
-- ==== Proof.Math.Stats.lean ====
/-
  One batch-normalised layer, as algebra on the extended reals.

  A layer forms a matrix z of 50000 rows and 64 columns and then, column by column, the mean
  m = (∑ᵢ zᵢ) · κ and a variance, with κ = 1/50000, and rescales
  out = max ((z - m) · rsqrt (v + ε) · γ + β) 0.
  Two arrangements of the statistics are compared here.
  * TILED: the rows come in ten tiles of 5000; a running total starts from 0, takes each tile's
    sum in turn, and the same for the squares; then m = s · κ and v = q · κ - m · m.
  * DIRECT: m' = (0 + ∑ᵢ zᵢ) / 50000 and v' = (0 + ∑ᵢ (zᵢ - m') · (zᵢ - m')) / (50000 - 0),
    with the extended reals' division.
  On the extended reals addition is a commutative monoid, so the regrouping of the sums needs
  nothing (sum_tiles, runTotal_eq_sum); the product does NOT distribute over sums at ±∞, so
  E[z²] - E[z]² = E[(z - E z)²] is proved for REAL entries (variance_identity), which is also
  where the value is seen to be a nonnegative real (variance_nonneg_real) and so stays away from
  the corners of rsqrt. "Is a real" (IsReal) is closed under every operation a layer uses
  (IsReal.add … IsReal.rsqrt_add_eps, layer_out_isReal), so a layer with real inputs has real
  outputs and the next layer may use the identity again.
-/
import Idealize.ShloMosaic.PureOps.Ideal
import Idealize.ShloMosaic.PureOps.Ideal.Laws
import Mathlib.Data.EReal.Operations
import Mathlib.Data.EReal.Inv
import Mathlib.Data.Fintype.BigOperators
import Mathlib.Logic.Equiv.Fin.Basic
import Mathlib.Algebra.BigOperators.Ring.Finset
import Mathlib.Analysis.SpecialFunctions.Sqrt
import Mathlib.Tactic.Ring
import Mathlib.Tactic.FieldSimp
import Mathlib.Tactic.Positivity
import Mathlib.Tactic.NormNum

noncomputable section

namespace Cert.Math

open Idealize.ShloMosaic
open scoped BigOperators

/-! ## Reals inside the extended reals -/

/-- x is (the image of) a real number: neither infinity. -/
abbrev IsReal (x : EReal) : Prop := ∃ r : ℝ, x = (r : EReal)

/-- x is a nonnegative real number. -/
abbrev IsNonnegReal (x : EReal) : Prop := ∃ r : ℝ, 0 ≤ r ∧ x = (r : EReal)

theorem IsNonnegReal.isReal {x : EReal} (h : IsNonnegReal x) : IsReal x :=
  let ⟨r, _, e⟩ := h; ⟨r, e⟩

theorem isReal_coe (r : ℝ) : IsReal (r : EReal) := ⟨r, rfl⟩

theorem isReal_zero : IsReal (0 : EReal) := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases max_choice x y with h | h <;> rw [h] <;> assumption

theorem IsReal.sum {ι : Type*} (s : Finset ι) {f : ι → EReal} (hf : ∀ i ∈ s, IsReal (f i)) :
    IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- The coercion leaves a finite sum. -/
theorem coe_sum {ι : Type*} (s : Finset ι) (x : ι → ℝ) :
    ((∑ i ∈ s, x i : ℝ) : EReal) = ∑ i ∈ s, (x i : EReal) := by
  classical
  induction s using Finset.induction_on with
  | empty => simp
  | insert a s ha ih => rw [Finset.sum_insert ha, Finset.sum_insert ha, EReal.coe_add, ih]

/-! ## The constants -/

/-- The reciprocal of the row count. -/
abbrev invN : EReal := ((1 / 50000 : ℝ) : EReal)

/-- The word of 50000.0 denotes the real 50000. -/
theorem ofBits_50000 : Ideal.ofBits .f32 0x47435000#32 = ((50000 : ℝ) : EReal) := by
  simp [Ideal.ofBits, Ideal.ieee, -EReal.coe_mul]; norm_num

/-- The word of the variance's guard ε (1e-5 rounded to a float) denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-- The integer zero converts to the real zero. -/
theorem sitofp_zero : (((0#32 : BitVec 32).toInt : ℝ) : EReal) = 0 := by simp

/-- The direct variance's divisor 50000 - 0 is 50000. -/
theorem count_sub_zero :
    Ideal.ofBits .f32 0x47435000#32 - (((0#32 : BitVec 32).toInt : ℝ) : EReal) = ((50000 : ℝ) : EReal) := by
  rw [sitofp_zero, sub_zero, ofBits_50000]

/-- … and it is above zero, which is what the direct variance tests before dividing. -/
theorem count_pos :
    Ideal.cmp .ogt (Ideal.ofBits .f32 0x47435000#32 - (((0#32 : BitVec 32).toInt : ℝ) : EReal))
      (Ideal.ofBits .f32 0x00000000#32) = 1#1 := by
  rw [count_sub_zero, Ideal.ofBits_zero_f32]
  have : (0 : EReal) < ((50000 : ℝ) : EReal) := by exact_mod_cast (by norm_num : (0 : ℝ) < 50000)
  simp [Ideal.cmp, this]

/-- Division by the row count is the product with its reciprocal, at the infinities too. -/
theorem div_count (x : EReal) : Ideal.div x (Ideal.ofBits .f32 0x47435000#32) = x * invN := by
  rw [ofBits_50000, Ideal.div_coe (by norm_num : (50000 : ℝ) ≠ 0)]

theorem div_count_sub_zero (x : EReal) :
    Ideal.div x (Ideal.ofBits .f32 0x47435000#32 - (((0#32 : BitVec 32).toInt : ℝ) : EReal)) = x * invN := by
  rw [count_sub_zero, Ideal.div_coe (by norm_num : (50000 : ℝ) ≠ 0)]

/-! ## Regrouping the rows into ten tiles -/

/-- Summing tile by tile is summing over all rows: any enumeration row t r of the rows as
    5000 · t + r will do. Addition on the extended reals is a commutative monoid, so no
    finiteness is asked. -/
theorem sum_tiles_of {M : Type*} [AddCommMonoid M] (f : Fin 50000 → M) (row : Fin 10 → Fin 5000 → Fin 50000)
    (hrow : ∀ t r, (row t r).val = 5000 * t.val + r.val) :
    (∑ t : Fin 10, ∑ r : Fin 5000, f (row t r)) = ∑ i, f i := by
  rw [← Fintype.sum_prod_type' (fun t r => f (row t r))]
  refine Fintype.sum_equiv (finProdFinEquiv (m := 10) (n := 5000)) _ _ fun p => ?_
  congr 1
  apply Fin.ext
  rw [hrow]
  simp [finProdFinEquiv]
  omega

theorem sum_tiles {M : Type*} [AddCommMonoid M] (f : Fin 50000 → M) :
    (∑ t : Fin 10, ∑ r : Fin 5000, f ⟨5000 * t.val + r.val, by omega⟩) = ∑ i, f i :=
  sum_tiles_of f (fun t r => ⟨5000 * t.val + r.val, by omega⟩) fun _ _ => rfl

/-- The running total: it starts as 0 plus the first tile's sum and takes one tile's sum a step. -/
def runTotal {M : Type*} [AddCommMonoid M] (S : ℕ → M) : ℕ → M
  | 0 => 0 + S 0
  | n + 1 => runTotal S n + S (n + 1)

theorem runTotal_eq_sum {M : Type*} [AddCommMonoid M] (S : ℕ → M) (n : ℕ) :
    runTotal S n = ∑ t ∈ Finset.range (n + 1), S t := by
  induction n with
  | zero => simp [runTotal]
  | succ n ih => rw [runTotal, ih, Finset.sum_range_succ _ (n + 1)]

/-- The same for any sequence of totals that obeys the two rules. -/
theorem total_eq_sum {M : Type*} [AddCommMonoid M] (S acc : ℕ → M) (h0 : acc 0 = 0 + S 0)
    (hs : ∀ n, acc (n + 1) = acc n + S (n + 1)) (n : ℕ) : acc n = ∑ t ∈ Finset.range (n + 1), S t := by
  induction n with
  | zero => simp [h0]
  | succ n ih => rw [hs, ih, Finset.sum_range_succ _ (n + 1)]

/-- After the tenth tile the total is the sum over the ten tiles. -/
theorem total_ten {M : Type*} [AddCommMonoid M] (S : Fin 10 → M) (acc : ℕ → M)
    (h0 : acc 0 = 0 + S 0) (hs : ∀ n (h : n + 1 < 10), acc (n + 1) = acc n + S ⟨n + 1, h⟩) :
    acc 9 = ∑ t, S t := by
  have key : ∀ n (h : n < 10), acc n = ∑ t ∈ Finset.range (n + 1), (if h' : t < 10 then S ⟨t, h'⟩ else 0) := by
    intro n
    induction n with
    | zero => intro _; simp [h0]
    | succ n ih =>
      intro h
      rw [hs n h, ih (by omega), Finset.sum_range_succ _ (n + 1), dif_pos h]
  rw [key 9 (by norm_num), ← Fin.sum_univ_eq_sum_range (fun t => if h' : t < 10 then S ⟨t, h'⟩ else 0) 10]
  exact Finset.sum_congr rfl fun t _ => by simp

/-! ## The variance identity -/

section Variance

variable {ι : Type*} [Fintype ι]

/-- Over the reals: the mean of the squares less the square of the mean is the mean of the squared
    deviations. -/
theorem real_variance (x : ι → ℝ) (n : ℝ) (hn : (Fintype.card ι : ℝ) = n) (hn0 : n ≠ 0) :
    (∑ i, x i * x i) * (1 / n) - ((∑ i, x i) * (1 / n)) * ((∑ i, x i) * (1 / n))
      = (∑ i, (x i - (∑ i, x i) * (1 / n)) * (x i - (∑ i, x i) * (1 / n))) * (1 / n) := by
  have h : ∀ m : ℝ, ∑ i, (x i - m) * (x i - m) = (∑ i, x i * x i) - 2 * m * (∑ i, x i) + n * (m * m) := by
    intro m
    have : ∀ i, (x i - m) * (x i - m) = x i * x i - 2 * m * x i + m * m := fun i => by ring
    simp only [this, Finset.sum_add_distrib, Finset.sum_sub_distrib, ← Finset.mul_sum, Finset.sum_const,
      Finset.card_univ, nsmul_eq_mul, hn]
    ring
  rw [h]
  field_simp
  ring

/-- THE VARIANCE IDENTITY on the extended reals, for real entries and 50000 of them:
    q · κ - (s · κ) · (s · κ) = (∑ᵢ (zᵢ - s · κ) · (zᵢ - s · κ)) · κ with s = ∑ᵢ zᵢ, q = ∑ᵢ zᵢ · zᵢ. -/
theorem variance_identity (z : ι → EReal) (hz : ∀ i, IsReal (z i)) (hcard : Fintype.card ι = 50000) :
    (∑ i, z i * z i) * invN - ((∑ i, z i) * invN) * ((∑ i, z i) * invN)
      = (∑ i, (z i - (∑ i, z i) * invN) * (z i - (∑ i, z i) * invN)) * invN := by
  choose x hx using hz
  have hfun : z = fun i => (x i : EReal) := funext hx
  subst hfun
  have hn : (Fintype.card ι : ℝ) = 50000 := by rw [hcard]; norm_num
  have hr := real_variance x 50000 hn (by norm_num)
  simp only [invN, ← EReal.coe_mul, ← coe_sum, ← EReal.coe_sub]
  exact congrArg _ hr

/-- The common value is a nonnegative real. -/
theorem variance_nonneg_real (z : ι → EReal) (hz : ∀ i, IsReal (z i)) :
    IsNonnegReal ((∑ i, (z i - (∑ i, z i) * invN) * (z i - (∑ i, z i) * invN)) * invN) := by
  choose x hx using hz
  have hfun : z = fun i => (x i : EReal) := funext hx
  subst hfun
  refine ⟨(∑ i, (x i - (∑ i, x i) * (1 / 50000)) * (x i - (∑ i, x i) * (1 / 50000))) * (1 / 50000), ?_, ?_⟩
  · exact mul_nonneg (Finset.sum_nonneg fun i _ => mul_self_nonneg _) (by norm_num)
  · simp only [invN, ← EReal.coe_mul, ← coe_sum, ← EReal.coe_sub]

end Variance

/-! ## rsqrt of a guarded variance, and the layer's output -/

/-- rsqrt of a nonnegative real plus the guard ε is a real: the argument is a positive real. -/
theorem IsReal.rsqrt_add_eps {v : EReal} (hv : IsNonnegReal v) :
    IsReal (Ideal.rsqrt (v + Ideal.ofBits .f32 0x3727C5AC#32)) := by
  obtain ⟨r, hr, rfl⟩ := hv
  obtain ⟨e, he, hε⟩ := ofBits_eps
  rw [hε, ← EReal.coe_add, Ideal.rsqrt_coe]
  have hpos : 0 < r + e := by positivity
  rw [if_neg (not_lt.mpr hpos.le), if_neg hpos.ne']
  exact ⟨_, rfl⟩

/-- The layer's output at one entry is a real when the entry, the mean, the scale and the shift
    are, and the variance is a nonnegative real. -/
theorem layer_out_isReal {z m v γ β : EReal} (hz : IsReal z) (hm : IsReal m) (hv : IsNonnegReal v)
    (hγ : IsReal γ) (hβ : IsReal β) :
    IsReal (max ((z - m) * Ideal.rsqrt (v + Ideal.ofBits .f32 0x3727C5AC#32) * γ + β)
      (Ideal.ofBits .f32 0x00000000#32)) := by
  rw [Ideal.ofBits_zero_f32]
  exact ((((hz.sub hm).mul (IsReal.rsqrt_add_eps hv)).mul hγ).add hβ).max isReal_zero

/-- The batch-norm line: equal statistics give equal outputs. -/
theorem layer_out_congr {z m m' v v' γ β : EReal} (hm : m = m') (hv : v = v') :
    max ((z - m) * Ideal.rsqrt (v + Ideal.ofBits .f32 0x3727C5AC#32) * γ + β) (Ideal.ofBits .f32 0x00000000#32)
      = max ((z - m') * Ideal.rsqrt (v' + Ideal.ofBits .f32 0x3727C5AC#32) * γ + β)
          (Ideal.ofBits .f32 0x00000000#32) := by
  rw [hm, hv]

/-! ## The two arrangements joined -/

/-- The tiled total: a running total that starts from 0, takes the first tile's sum and then one
    tile's sum a step, holds after the tenth tile the sum over all rows. -/
theorem tiled_total {M : Type*} [AddCommMonoid M] (f : Fin 50000 → M) (row : Fin 10 → Fin 5000 → Fin 50000)
    (hrow : ∀ t r, (row t r).val = 5000 * t.val + r.val) (acc : ℕ → M)
    (h0 : acc 0 = 0 + ∑ r : Fin 5000, f (row 0 r))
    (hs : ∀ n (h : n + 1 < 10), acc (n + 1) = acc n + ∑ r : Fin 5000, f (row ⟨n + 1, h⟩ r)) :
    acc 9 = ∑ i, f i :=
  (total_ten (fun t => ∑ r : Fin 5000, f (row t r)) acc h0 hs).trans (sum_tiles_of f row hrow)

section Joined

variable {ι : Type*} [Fintype ι]

/-- The direct mean, a sum from the zero word divided by the count's word, is the sum times the
    reciprocal of the count: the tiled mean. -/
theorem mean_direct (z : ι → EReal) :
    Ideal.div (Ideal.ofBits .f32 0x00000000#32 + ∑ i, z i) (Ideal.ofBits .f32 0x47435000#32)
      = (∑ i, z i) * invN := by
  rw [div_count, Ideal.ofBits_zero_f32, zero_add]

/-- The direct variance as it is computed — the test that the divisor 50000 - 0 is above zero, the
    quotient of the summed squared deviations from the direct mean, and the not-a-number word on
    the branch that is not taken — is the tiled variance, for real entries and 50000 of them. -/
theorem var_direct (z : ι → EReal) (hz : ∀ i, IsReal (z i)) (hcard : Fintype.card ι = 50000) :
    Scalar.select
        (Ideal.cmp .ogt (Ideal.ofBits .f32 0x47435000#32 - (((0#32 : BitVec 32).toInt : ℝ) : EReal))
          (Ideal.ofBits .f32 0x00000000#32))
        (Ideal.div
          (Ideal.ofBits .f32 0x00000000#32
            + ∑ i, (z i - Ideal.div (Ideal.ofBits .f32 0x00000000#32 + ∑ i, z i) (Ideal.ofBits .f32 0x47435000#32))
                * (z i - Ideal.div (Ideal.ofBits .f32 0x00000000#32 + ∑ i, z i) (Ideal.ofBits .f32 0x47435000#32)))
          (Ideal.ofBits .f32 0x47435000#32 - (((0#32 : BitVec 32).toInt : ℝ) : EReal)))
        (Ideal.ofBits .f32 0x7FC00000#32)
      = (∑ i, z i * z i) * invN - ((∑ i, z i) * invN) * ((∑ i, z i) * invN) := by
  rw [count_pos, Scalar.select, if_pos (show (1#1 : BitVec 1) = 1 from rfl), div_count_sub_zero, mean_direct, Ideal.ofBits_zero_f32, zero_add]
  exact (variance_identity z hz hcard).symm

/-- The mean of real entries is a real. -/
theorem mean_isReal (z : ι → EReal) (hz : ∀ i, IsReal (z i)) : IsReal ((∑ i, z i) * invN) :=
  (IsReal.sum _ fun i _ => hz i).mul (isReal_coe _)

/-- The tiled variance of 50000 real entries is a nonnegative real. -/
theorem var_tiled_nonneg_real (z : ι → EReal) (hz : ∀ i, IsReal (z i)) (hcard : Fintype.card ι = 50000) :
    IsNonnegReal ((∑ i, z i * z i) * invN - ((∑ i, z i) * invN) * ((∑ i, z i) * invN)) := by
  rw [variance_identity z hz hcard]
  exact variance_nonneg_real z hz

end Joined

/-! ## The tiled statistics as they are accumulated, joined to the direct ones

The tiled side keeps two running totals over the ten tiles: of the tile sums S t = ∑ᵣ z (row t r) and
of the tile sums of squares Q t = ∑ᵣ z (row t r) · z (row t r), each started from the zero word, and
multiplies them by a constant κ' whose value is 1/50000. -/

/-- The direct mean of a column. -/
abbrev meanDirect {ι : Type*} [Fintype ι] (z : ι → EReal) : EReal :=
  Ideal.div (Ideal.ofBits .f32 0x00000000#32 + ∑ i, z i) (Ideal.ofBits .f32 0x47435000#32)

/-- The direct variance of a column, as it is computed. -/
abbrev varDirect {ι : Type*} [Fintype ι] (z : ι → EReal) : EReal :=
  Scalar.select
    (Ideal.cmp .ogt (Ideal.ofBits .f32 0x47435000#32 - (((0#32 : BitVec 32).toInt : ℝ) : EReal))
      (Ideal.ofBits .f32 0x00000000#32))
    (Ideal.div (Ideal.ofBits .f32 0x00000000#32 + ∑ i, (z i - meanDirect z) * (z i - meanDirect z))
      (Ideal.ofBits .f32 0x47435000#32 - (((0#32 : BitVec 32).toInt : ℝ) : EReal)))
    (Ideal.ofBits .f32 0x7FC00000#32)

section Accumulated

variable (z : Fin 50000 → EReal) (row : Fin 10 → Fin 5000 → Fin 50000)
  (hrow : ∀ t r, (row t r).val = 5000 * t.val + r.val)

include hrow in
/-- The running total of the tile sums, started from the zero word, ends at the column's sum. -/
theorem acc_sum (S : Fin 10 → EReal) (hS : ∀ t, S t = ∑ r : Fin 5000, z (row t r)) (acc : ℕ → EReal)
    (h0 : acc 0 = Ideal.ofBits .f32 0x00000000#32 + S 0)
    (hs : ∀ n (h : n + 1 < 10), acc (n + 1) = acc n + S ⟨n + 1, h⟩) : acc 9 = ∑ i, z i := by
  rw [Ideal.ofBits_zero_f32] at h0
  rw [total_ten S acc h0 hs]
  simp only [hS]
  exact sum_tiles_of z row hrow

include hrow in
/-- The running total of the tile sums of squares ends at the column's sum of squares. -/
theorem acc_sumsq (Q : Fin 10 → EReal) (hQ : ∀ t, Q t = ∑ r : Fin 5000, z (row t r) * z (row t r)) (acc : ℕ → EReal)
    (h0 : acc 0 = Ideal.ofBits .f32 0x00000000#32 + Q 0)
    (hs : ∀ n (h : n + 1 < 10), acc (n + 1) = acc n + Q ⟨n + 1, h⟩) : acc 9 = ∑ i, z i * z i :=
  acc_sum (fun i => z i * z i) row hrow Q hQ acc h0 hs

include hrow in
/-- The tiled mean is the direct mean. -/
theorem mean_tiled_eq_direct (S : Fin 10 → EReal) (hS : ∀ t, S t = ∑ r : Fin 5000, z (row t r)) (accS : ℕ → EReal)
    (h0 : accS 0 = Ideal.ofBits .f32 0x00000000#32 + S 0)
    (hs : ∀ n (h : n + 1 < 10), accS (n + 1) = accS n + S ⟨n + 1, h⟩) (κ' : EReal) (hκ : κ' = invN) :
    accS 9 * κ' = meanDirect z := by
  rw [acc_sum z row hrow S hS accS h0 hs, hκ, meanDirect, mean_direct]

include hrow in
/-- The tiled variance is the direct variance, for real entries. -/
theorem var_tiled_eq_direct (hz : ∀ i, IsReal (z i))
    (S : Fin 10 → EReal) (hS : ∀ t, S t = ∑ r : Fin 5000, z (row t r)) (accS : ℕ → EReal)
    (hS0 : accS 0 = Ideal.ofBits .f32 0x00000000#32 + S 0)
    (hSs : ∀ n (h : n + 1 < 10), accS (n + 1) = accS n + S ⟨n + 1, h⟩)
    (Q : Fin 10 → EReal) (hQ : ∀ t, Q t = ∑ r : Fin 5000, z (row t r) * z (row t r)) (accQ : ℕ → EReal)
    (hQ0 : accQ 0 = Ideal.ofBits .f32 0x00000000#32 + Q 0)
    (hQs : ∀ n (h : n + 1 < 10), accQ (n + 1) = accQ n + Q ⟨n + 1, h⟩) (κ' : EReal) (hκ : κ' = invN) :
    accQ 9 * κ' - (accS 9 * κ') * (accS 9 * κ') = varDirect z := by
  rw [acc_sum z row hrow S hS accS hS0 hSs, acc_sumsq z row hrow Q hQ accQ hQ0 hQs, hκ]
  exact (var_direct z hz (by simp)).symm

include hrow in
/-- One entry of the layer's output: the tiled statistics give what the direct ones give. -/
theorem layer_out_tiled_eq_direct (hz : ∀ i, IsReal (z i))
    (S : Fin 10 → EReal) (hS : ∀ t, S t = ∑ r : Fin 5000, z (row t r)) (accS : ℕ → EReal)
    (hS0 : accS 0 = Ideal.ofBits .f32 0x00000000#32 + S 0)
    (hSs : ∀ n (h : n + 1 < 10), accS (n + 1) = accS n + S ⟨n + 1, h⟩)
    (Q : Fin 10 → EReal) (hQ : ∀ t, Q t = ∑ r : Fin 5000, z (row t r) * z (row t r)) (accQ : ℕ → EReal)
    (hQ0 : accQ 0 = Ideal.ofBits .f32 0x00000000#32 + Q 0)
    (hQs : ∀ n (h : n + 1 < 10), accQ (n + 1) = accQ n + Q ⟨n + 1, h⟩) (κ' : EReal) (hκ : κ' = invN)
    (x γ β : EReal) :
    max ((x - accS 9 * κ')
          * Ideal.rsqrt (accQ 9 * κ' - (accS 9 * κ') * (accS 9 * κ') + Ideal.ofBits .f32 0x3727C5AC#32) * γ + β)
        (Ideal.ofBits .f32 0x00000000#32)
      = max ((x - meanDirect z) * Ideal.rsqrt (varDirect z + Ideal.ofBits .f32 0x3727C5AC#32) * γ + β)
          (Ideal.ofBits .f32 0x00000000#32) :=
  layer_out_congr (mean_tiled_eq_direct z row hrow S hS accS hS0 hSs κ' hκ)
    (var_tiled_eq_direct z row hrow hz S hS accS hS0 hSs Q hQ accQ hQ0 hQs κ' hκ)

/-- The direct statistics of real entries: the mean is a real, the variance a nonnegative real. -/
theorem meanDirect_isReal (hz : ∀ i, IsReal (z i)) : IsReal (meanDirect z) := by
  rw [meanDirect, mean_direct]; exact mean_isReal z hz

theorem varDirect_nonneg_real (hz : ∀ i, IsReal (z i)) : IsNonnegReal (varDirect z) := by
  rw [varDirect, var_direct z hz (by simp)]; exact var_tiled_nonneg_real z hz (by simp)

end Accumulated

/-! ## More closure: the zero word, a contraction, a rectifier -/

theorem isReal_ofBits_zero : IsReal (Ideal.ofBits .f32 0x00000000#32) := by
  rw [Ideal.ofBits_zero_f32]; exact isReal_zero

/-- A row of a matrix product into an accumulator: real when the accumulator and all factors are. -/
theorem IsReal.add_sum_mul {κ : Type*} [Fintype κ] {acc : EReal} {a b : κ → EReal} (hacc : IsReal acc)
    (ha : ∀ k, IsReal (a k)) (hb : ∀ k, IsReal (b k)) : IsReal (acc + ∑ k, a k * b k) :=
  hacc.add (IsReal.sum _ fun k _ => (ha k).mul (hb k))

/-- The rectifier max x 0 of a real is a real (the zero as its word). -/
theorem isReal_relu {x : EReal} (hx : IsReal x) : IsReal (max x (Ideal.ofBits .f32 0x00000000#32)) :=
  hx.max isReal_ofBits_zero

end Cert.Math

end
-- ==== Proof.Math.Spec.lean ====
/-
  One GIN layer as a function of plain arrays of extended reals, index by index.

  A layer takes the node features `x` (already the sum of a node's own row and its neighbours' aggregate), two affine
  maps with a clamp at zero between them, and then normalises every column by that column's mean and variance over all
  50000 rows before a last scale, shift and clamp.  The mean and the variance are written here in the form in which
  a whole-column reduction states them (`meanDirect`, `varDirect`: a sum over all rows divided by the row count, the
  variance taken of the centred entries); the tiled form — ten partial sums of 5000 rows each, accumulated one after the
  other, the variance as mean of squares minus squared mean — is joined to it in `Stats`.
-/
import proofs.«144771_j36481452212846_1_alg».proof.Proof.Math.Stats

noncomputable section

namespace Cert.Math

open Idealize.ShloMosaic

/-- The zero word of the 32-bit float format, as the extended real it denotes. -/
abbrev zeroW : EReal := Ideal.ofBits .f32 0x00000000#32
/-- The stabiliser added to a variance before the inverse square root, as the word both programs carry. -/
abbrev epsW : EReal := Ideal.ofBits .f32 0x3727C5AC#32

variable {D : ℕ}

/-- The hidden activation of row `r`, unit `k`: the first affine map, clamped at zero. -/
def hidden (x : Fin 50000 → Fin D → EReal) (W1 : Fin D → Fin 64 → EReal) (b1 : Fin 64 → EReal)
    (r : Fin 50000) (k : Fin 64) : EReal :=
  max ((∑ l, x r l * W1 l k) + b1 k) zeroW

/-- The second affine map of the hidden activations: the entry the statistics are taken of. -/
def preNorm (x : Fin 50000 → Fin D → EReal) (W1 : Fin D → Fin 64 → EReal) (b1 : Fin 64 → EReal)
    (W2 : Fin 64 → Fin 64 → EReal) (b2 : Fin 64 → EReal) (r : Fin 50000) (j : Fin 64) : EReal :=
  (∑ k, hidden x W1 b1 r k * W2 k j) + b2 j

/-- Column `j` normalised by its mean and variance over all rows, scaled, shifted and clamped at zero. -/
def normalised (z : Fin 50000 → Fin 64 → EReal) (g be : Fin 64 → EReal) (r : Fin 50000) (j : Fin 64) : EReal :=
  max ((z r j - meanDirect (fun i => z i j)) * Ideal.rsqrt (varDirect (fun i => z i j) + epsW) * g j + be j) zeroW

/-- One whole layer. -/
def layerOut (x : Fin 50000 → Fin D → EReal) (W1 : Fin D → Fin 64 → EReal) (b1 : Fin 64 → EReal)
    (W2 : Fin 64 → Fin 64 → EReal) (b2 g be : Fin 64 → EReal) : Fin 50000 → Fin 64 → EReal :=
  normalised (preNorm x W1 b1 W2 b2) g be

/-- An entry before the normalisation is a real number when every input entry is. -/
theorem preNorm_isReal {x : Fin 50000 → Fin D → EReal} {W1 : Fin D → Fin 64 → EReal} {b1 : Fin 64 → EReal}
    {W2 : Fin 64 → Fin 64 → EReal} {b2 : Fin 64 → EReal}
    (hx : ∀ r l, IsReal (x r l)) (hW1 : ∀ l k, IsReal (W1 l k)) (hb1 : ∀ k, IsReal (b1 k))
    (hW2 : ∀ k j, IsReal (W2 k j)) (hb2 : ∀ j, IsReal (b2 j)) (r : Fin 50000) (j : Fin 64) :
    IsReal (preNorm x W1 b1 W2 b2 r j) := by
  unfold preNorm hidden
  refine IsReal.add (IsReal.sum _ fun k _ => IsReal.mul (isReal_relu (IsReal.add (IsReal.sum _ fun l _ => IsReal.mul (hx r l) (hW1 l k)) (hb1 k))) (hW2 k j)) (hb2 j)

/-- A layer's output entry is a real number when the entries before the normalisation and the scale and shift are. -/
theorem normalised_isReal {z : Fin 50000 → Fin 64 → EReal} {g be : Fin 64 → EReal}
    (hz : ∀ r j, IsReal (z r j)) (hg : ∀ j, IsReal (g j)) (hbe : ∀ j, IsReal (be j)) (r : Fin 50000) (j : Fin 64) :
    IsReal (normalised z g be r j) :=
  layer_out_isReal (hz r j) (meanDirect_isReal _ fun i => hz i j) (varDirect_nonneg_real _ fun i => hz i j) (hg j) (hbe j)

end Cert.Math

end
-- ==== Proof.KernelIdeal.Zlin.lean ====
/-
  One layer's linear activations as ONE function of whole arrays, and the rows of a tile.

  From the node features x0 and the aggregated messages x1 (50000 rows, D columns each), the two
  weight matrices x2 (D by 64) and x4 (64 by 64) and the two bias rows x3, x5 (1 by 64), the entry
  (R, j) of the linear activations is
      z R j = (∑ k, max ((∑ l, (x0 R l + x1 R l) · x2 l k) + x3 k) 0 · x4 k j) + x5 j,
  which is the specification's preNorm of those arrays read by coordinates. The 50000 rows are
  walked in ten tiles of 5000: row r of tile t is row 5000 · t + r.
-/
import proofs.«144771_j36481452212846_1_alg».proof.Proof.Math.Spec
import Idealize.ShloMosaic.Lib.ValueIdx

noncomputable section

open scoped BigOperators

namespace Cert.KernelIdeal.HandVal

open Idealize.ShloMosaic Idealize.ShloMosaic.ValueIdx Cert.Math

/-- The linear activations of a layer whose inputs have D columns, as a 50000 by 64 array. -/
def zlin {D : ℕ} (x0 x1 : Vec Ideal ⟨2, ![50000, D]⟩ .f32) (x2 : Vec Ideal ⟨2, ![D, 64]⟩ .f32)
    (x3 : Vec Ideal ⟨2, ![1, 64]⟩ .f32) (x4 : Vec Ideal ⟨2, ![64, 64]⟩ .f32) (x5 : Vec Ideal ⟨2, ![1, 64]⟩ .f32) :
    Vec Ideal ⟨2, ![50000, 64]⟩ .f32 :=
  fun i => preNorm (fun R l => x0 (ix2 R l) + x1 (ix2 R l)) (fun l k => x2 (ix2 l k)) (fun k => x3 (ix2 0 k))
    (fun k j => x4 (ix2 k j)) (fun j => x5 (ix2 0 j)) (i 0) (i 1)

/-- … read at row R and column j. -/
theorem zlin_apply {D : ℕ} (x0 x1 : Vec Ideal ⟨2, ![50000, D]⟩ .f32) (x2 : Vec Ideal ⟨2, ![D, 64]⟩ .f32)
    (x3 : Vec Ideal ⟨2, ![1, 64]⟩ .f32) (x4 : Vec Ideal ⟨2, ![64, 64]⟩ .f32) (x5 : Vec Ideal ⟨2, ![1, 64]⟩ .f32)
    (R : Fin 50000) (j : Fin 64) :
    zlin x0 x1 x2 x3 x4 x5 (ix2 R j)
      = preNorm (fun R l => x0 (ix2 R l) + x1 (ix2 R l)) (fun l k => x2 (ix2 l k)) (fun k => x3 (ix2 0 k))
          (fun k j => x4 (ix2 k j)) (fun j => x5 (ix2 0 j)) R j := rfl

/-- … written out: the two products with the clamp between them. -/
theorem zlin_apply_sum {D : ℕ} (x0 x1 : Vec Ideal ⟨2, ![50000, D]⟩ .f32) (x2 : Vec Ideal ⟨2, ![D, 64]⟩ .f32)
    (x3 : Vec Ideal ⟨2, ![1, 64]⟩ .f32) (x4 : Vec Ideal ⟨2, ![64, 64]⟩ .f32) (x5 : Vec Ideal ⟨2, ![1, 64]⟩ .f32)
    (R : Fin 50000) (j : Fin 64) :
    zlin x0 x1 x2 x3 x4 x5 (ix2 R j)
      = (∑ k : Fin 64, max ((∑ l : Fin D, (x0 (ix2 R l) + x1 (ix2 R l)) * x2 (ix2 l k)) + x3 (ix2 0 k))
            (Ideal.ofBits .f32 0x00000000#32) * x4 (ix2 k j)) + x5 (ix2 0 j) := rfl

/-- The activations are reals when every entry of the six arrays is. -/
theorem zlin_isReal {D : ℕ} (x0 x1 : Vec Ideal ⟨2, ![50000, D]⟩ .f32) (x2 : Vec Ideal ⟨2, ![D, 64]⟩ .f32)
    (x3 : Vec Ideal ⟨2, ![1, 64]⟩ .f32) (x4 : Vec Ideal ⟨2, ![64, 64]⟩ .f32) (x5 : Vec Ideal ⟨2, ![1, 64]⟩ .f32)
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (R : Fin 50000) (j : Fin 64) :
    IsReal (zlin x0 x1 x2 x3 x4 x5 (ix2 R j)) :=
  preNorm_isReal (fun R l => (h0 (ix2 R l)).add (h1 (ix2 R l))) (fun l k => h2 (ix2 l k)) (fun k => h3 (ix2 0 k))
    (fun k j => h4 (ix2 k j)) (fun j => h5 (ix2 0 j)) R j

/-- Row r of tile t among the 50000 rows. -/
def rowOf (t : Fin 10) (r : Fin 5000) : Fin 50000 := ⟨5000 * t.val + r.val, by omega⟩

theorem rowOf_val (t : Fin 10) (r : Fin 5000) : (rowOf t r).val = 5000 * t.val + r.val := rfl

end Cert.KernelIdeal.HandVal

end
-- ==== Proof.Math.BnSpec.lean ====
/-
  The batch-norm-and-ReLU layer as one function of whole arrays, index by index, over the extended reals.

  Given a 50000x64 array z of pre-activations and four 1x64 rows (mean, variance, scale, shift), the layer's
  result at row r and column j is

      max( ((z(r,j) - mean(0,j)) * rsqrt(var(0,j) + eps)) * scale(0,j) + shift(0,j), 0 ),

  eps and 0 being the values two fixed 32-bit patterns denote. Nothing here mentions a program: this is the
  specification both sides are read against.
-/
import Idealize.ShloMosaic.PureOps.Ideal
import Idealize.ShloMosaic.Lib.ValueIdx

noncomputable section

namespace Cert.Math

open Idealize.ShloMosaic Idealize.ShloMosaic.ValueIdx

/-- One element of the layer: normalise by mean and variance, scale, shift, clamp below at zero. The small
    constant under the root and the zero of the clamp are kept as the bit patterns they are written with. -/
def bnElt (z m v g b : EReal) : EReal :=
  max (((z - m) * Ideal.rsqrt (v + Ideal.ofBits .f32 0x3727C5AC#32)) * g + b) (Ideal.ofBits .f32 0x00000000#32)

/-- The whole layer: every element of z treated by bnElt with the four statistics of its column. -/
def bnArr (z : (⟨2, ![50000, 64]⟩ : Shape).Idx → EReal) (mean var gamma beta : (⟨2, ![1, 64]⟩ : Shape).Idx → EReal) :
    (⟨2, ![50000, 64]⟩ : Shape).Idx → EReal :=
  fun i => bnElt (z i) (mean (ix2 (0 : Fin 1) (i 1 : Fin 64))) (var (ix2 (0 : Fin 1) (i 1 : Fin 64)))
    (gamma (ix2 (0 : Fin 1) (i 1 : Fin 64))) (beta (ix2 (0 : Fin 1) (i 1 : Fin 64)))

/-- The layer read at row r and column j. -/
theorem bnArr_apply (z : (⟨2, ![50000, 64]⟩ : Shape).Idx → EReal) (mean var gamma beta : (⟨2, ![1, 64]⟩ : Shape).Idx → EReal)
    (r : Fin 50000) (j : Fin 64) :
    bnArr z mean var gamma beta (ix2 r j)
      = max (((z (ix2 r j) - mean (ix2 (0 : Fin 1) j)) * Ideal.rsqrt (var (ix2 (0 : Fin 1) j) + Ideal.ofBits .f32 0x3727C5AC#32))
            * gamma (ix2 (0 : Fin 1) j) + beta (ix2 (0 : Fin 1) j)) (Ideal.ofBits .f32 0x00000000#32) := rfl

end Cert.Math

end
-- ==== Proof.KernelIdeal.KVal.Layer.lean ====
/-
  One layer, joined index by index.

  The normalising kernel's result at row r and column j is the clamp of ((z − mean) · rsqrt (var + ε)) · γ + β read off
  five arrays. When the array z is the linear activations of six input arrays, the mean row their column means over
  all 50000 rows and the variance row their column variances (the latter for real activations), that entry is the
  specification's layer output of the six arrays and the scale and shift rows; and it is a real number when every
  input entry is. Nothing here mentions a program.
-/
import proofs.«144771_j36481452212846_1_alg».proof.Proof.KernelIdeal.Zlin
import proofs.«144771_j36481452212846_1_alg».proof.Proof.Math.BnSpec

noncomputable section

namespace Cert.KernelIdeal.HandVal

open Idealize.ShloMosaic Idealize.ShloMosaic.ValueIdx Cert.Math

variable {D : ℕ}

/-- The normalised entry of the linear activations of six arrays, with their own column statistics, is the layer
    output of those arrays; and it is real when the arrays' entries are. -/
theorem layer_join (X0 X1 : Vec Ideal ⟨2, ![50000, D]⟩ .f32) (X2 : Vec Ideal ⟨2, ![D, 64]⟩ .f32)
    (X3 : Vec Ideal ⟨2, ![1, 64]⟩ .f32) (X4 : Vec Ideal ⟨2, ![64, 64]⟩ .f32) (X5 : Vec Ideal ⟨2, ![1, 64]⟩ .f32)
    (Z : Vec Ideal ⟨2, ![50000, 64]⟩ .f32) (Mn Vr Gm Bt : Vec Ideal ⟨2, ![1, 64]⟩ .f32)
    (hZ : Z = zlin X0 X1 X2 X3 X4 X5)
    (hMn : ∀ j : Fin 64, Mn (ix2 0 j) = meanDirect (fun i : Fin 50000 => zlin X0 X1 X2 X3 X4 X5 (ix2 i j)))
    (hVr : (∀ (i : Fin 50000) (j : Fin 64), IsReal (zlin X0 X1 X2 X3 X4 X5 (ix2 i j))) →
      ∀ j : Fin 64, Vr (ix2 0 j) = varDirect (fun i : Fin 50000 => zlin X0 X1 X2 X3 X4 X5 (ix2 i j)))
    (r0 : ∀ i, IsReal (X0 i)) (r1 : ∀ i, IsReal (X1 i)) (r2 : ∀ i, IsReal (X2 i)) (r3 : ∀ i, IsReal (X3 i))
    (r4 : ∀ i, IsReal (X4 i)) (r5 : ∀ i, IsReal (X5 i)) (rG : ∀ i, IsReal (Gm i)) (rB : ∀ i, IsReal (Bt i))
    (r : Fin 50000) (j : Fin 64) :
    bnArr Z Mn Vr Gm Bt (ix2 r j)
        = layerOut (fun r l => X0 (ix2 r l) + X1 (ix2 r l)) (fun l k => X2 (ix2 l k)) (fun k => X3 (ix2 0 k))
            (fun k j => X4 (ix2 k j)) (fun j => X5 (ix2 0 j)) (fun j => Gm (ix2 0 j)) (fun j => Bt (ix2 0 j)) r j
      ∧ IsReal (bnArr Z Mn Vr Gm Bt (ix2 r j)) := by
  have hz : ∀ (i : Fin 50000) (j : Fin 64), IsReal (zlin X0 X1 X2 X3 X4 X5 (ix2 i j)) :=
    zlin_isReal X0 X1 X2 X3 X4 X5 r0 r1 r2 r3 r4 r5
  have e : bnArr Z Mn Vr Gm Bt (ix2 r j)
      = layerOut (fun r l => X0 (ix2 r l) + X1 (ix2 r l)) (fun l k => X2 (ix2 l k)) (fun k => X3 (ix2 0 k))
          (fun k j => X4 (ix2 k j)) (fun j => X5 (ix2 0 j)) (fun j => Gm (ix2 0 j)) (fun j => Bt (ix2 0 j)) r j := by
    rw [bnArr_apply, hZ, hMn j, hVr hz j]
    rfl
  refine ⟨e, ?_⟩
  rw [e]
  exact normalised_isReal (fun r j => hz r j) (fun j => rG (ix2 0 j)) (fun j => rB (ix2 0 j)) r j

/-- The same for whole arrays: two 50000 × 64 arrays agree when they agree at every row and column. -/
theorem ext_ix2 {n0 n1 : ℕ} {α : Type} {f g : (⟨2, ![n0, n1]⟩ : Shape).Idx → α}
    (h : ∀ (r : Fin n0) (j : Fin n1), f (ix2 r j) = g (ix2 r j)) : f = g := by
  funext i
  rw [eq_ix2 i]
  exact h _ _

/-- Every entry of an array is real when every entry by coordinates is. -/
theorem real_ix2 {n0 n1 : ℕ} {f : (⟨2, ![n0, n1]⟩ : Shape).Idx → EReal}
    (h : ∀ (r : Fin n0) (j : Fin n1), IsReal (f (ix2 r j))) (i : (⟨2, ![n0, n1]⟩ : Shape).Idx) : IsReal (f i) := by
  rw [eq_ix2 i]
  exact h _ _

/-- A 1 × 64 row read through a 64-vector is real when the vector is. -/
theorem real_row {f : (⟨2, ![1, 64]⟩ : Shape).Idx → EReal} {b : (⟨1, ![64]⟩ : Shape).Idx → EReal}
    (hb : ∀ i, IsReal (b i)) (h : ∀ j : Fin 64, f (ix2 0 j) = b (ix1 j)) (i : (⟨2, ![1, 64]⟩ : Shape).Idx) :
    IsReal (f i) := by
  have hi : i = @ix2 1 64 0 (i 1) :=
    (eq_ix2 i).trans (congrArg (fun a : Fin 1 => @ix2 1 64 a (i 1)) (Subsingleton.elim (α := Fin 1) (i 0) 0))
  have e : f i = b (ix1 (i 1)) := (congrArg f hi).trans (h (i 1))
  rw [e]
  exact hb _

end Cert.KernelIdeal.HandVal

end
-- ==== Proof.Ref.LayerIdx.lean ====
/-
  The reference's layers read entry by entry.

  A layer of the reference network is a composition of whole-table operations: a sum of the node table with its
  neighbour aggregate, two matrix products each followed by a row of biases (a clamp at zero between them), and a
  normalisation of every column by that column's mean and variance over the 50000 rows, scaled, shifted and clamped.
  Here each of those operations is read at one entry:
    * a row vector laid down the rows gives back its own entry j at (r, j);
    * a matrix product at (r, j) is the sum over the contracted coordinate k of left (r, k) · right (k, j) — the
      contraction has one axis, so its index set is that coordinate's range;
    * a column sum at j is the zero word plus the sum over the rows i of the entry (i, j);
    * the column mean is that sum over the word of 50000.0, and the column variance is a select — on the divisor
      50000 − 0 being above zero — between the summed squared deviations over that divisor and the not-a-number word,
      the deviations being taken from a second copy of the mean that goes through a one-row matrix.
  Composed, an entry of a layer is the entry of `Cert.Math.layerOut`, the layer written as a function of plain arrays of
  extended reals with the statistics in their whole-column form. The neighbour aggregate is carried along as a table
  and never opened. Last, matrix m of a stack of three at (k, j) is the stack at (m, k, j), and row m of a stack of
  three vectors at j is the stack at (m, j): a slice of one leading index followed by dropping that unit axis.
-/
import proofs.«144771_j36481452212846_1_alg».proof.Proof.Ref.Layers
import proofs.«144771_j36481452212846_1_alg».proof.Proof.Math.Spec
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

namespace Cert.ReferenceIdeal.HandVal

open Cert.ReferenceIdeal Cert.ReferenceIdeal.Gen Cert.ReferenceIdeal.Hand Idealize.ShloMosaic Idealize.ShloMosaic.ValueIdx
open scoped BigOperators

/-! ## Rows, clamps and column sums -/

/-- A row vector repeated down the rows reads, at row r and column j, the vector's entry j. -/
theorem rowsOf_apply (b : Tf Ideal S64) (r : Fin 50000) (j : Fin 64) :
    rowsOf (F := Ideal) b (ix2 r j) = b (ix1 j) := by
  unfold rowsOf
  rw [broadcastInDim_oneRow_apply]
  exact broadcastInDim_apply _ _ b _ (ix1 j) (fun a => by match a with | ⟨0, _⟩ => rfl)

/-- The clamp at zero, entry by entry. -/
theorem relu_apply (x : Tf Ideal S50000x64) (i : S50000x64.Idx) :
    relu (F := Ideal) x i = max (x i) (Ideal.ofBits .f32 0x00000000#32) := rfl

/-- The column sum at column j: the zero word plus the sum down the rows. -/
theorem colSum_apply (z : Tf Ideal S50000x64) (j : Fin 64) :
    colSum (F := Ideal) z (ix1 j) = Ideal.ofBits .f32 0x00000000#32 + ∑ i : Fin 50000, z (ix2 i j) := by
  unfold colSum
  rw [hostReduceAdd_apply, Ideal.hostReduceAdd_single reducesTo_S50000x64_S64_d0 (by decide)]
  refine congrArg (_ + ·) (Finset.sum_congr rfl fun k _ => ?_)
  exact congrArg z (funext fun a => Fin.ext (by match a with | ⟨0, _⟩ => rfl | ⟨1, _⟩ => rfl))

/-! ## The two matrix products

Each product contracts the left operand's columns against the right operand's rows. The operand indices at a result
entry (r, j) and a contraction position q are (r, q) and (q, j); the four coordinate facts are stated apart, one per
operand axis. -/

theorem lhs128_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide),
    dif_pos (show (0 : Fin S50000x128.rank) ∈ dot_S50000x128_S128x64_S50000x64_1_0_0_1_n_n.lhsNonContracting by decide)]
  rfl
theorem lhs128_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem rhs128_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem rhs128_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide),
    dif_pos (show (1 : Fin S128x64.rank) ∈ dot_S50000x128_S128x64_S50000x64_1_0_0_1_n_n.rhsNonContracting by decide)]
  rfl

/-- The 128-column product at (r, j): the sum over l of x (r, l) · W (l, j). -/
theorem dot128_apply (x : FVec Ideal S50000x128 .f32) (W : FVec Ideal S128x64 .f32) (r : Fin 50000) (j : Fin 64) :
    Host.dotGeneral (F := Ideal) (φ₁ := .f32) (φ₂ := .f32) dot_S50000x128_S128x64_S50000x64_1_0_0_1_n_n none x W (ix2 r j)
      = ∑ l : Fin 128, x (ix2 r l) * W (ix2 l j) := by
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 r j)
      ((contrEquiv1 dot_S50000x128_S128x64_S50000x64_1_0_0_1_n_n 128 rfl rfl).symm k) = ix2 r k :=
    funext fun a => Fin.ext (by
      match a with
      | ⟨0, _⟩ => exact lhs128_0 _ _
      | ⟨1, _⟩ => exact (lhs128_1 _ _).trans hk)
  have er : dot_S50000x128_S128x64_S50000x64_1_0_0_1_n_n.rhsIdx (ix2 r j)
      ((contrEquiv1 dot_S50000x128_S128x64_S50000x64_1_0_0_1_n_n 128 rfl rfl).symm k) = ix2 k j :=
    funext fun a => Fin.ext (by
      match a with
      | ⟨0, _⟩ => exact (rhs128_0 _ _).trans hk
      | ⟨1, _⟩ => exact rhs128_1 _ _)
  rw [el, er]

theorem lhs64_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide),
    dif_pos (show (0 : Fin S50000x64.rank) ∈ dot_S50000x64_S64x64_S50000x64_1_0_0_1_n_n.lhsNonContracting by decide)]
  rfl
theorem lhs64_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem rhs64_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem rhs64_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide),
    dif_pos (show (1 : Fin S64x64.rank) ∈ dot_S50000x64_S64x64_S50000x64_1_0_0_1_n_n.rhsNonContracting by decide)]
  rfl

/-- The 64-column product at (r, j): the sum over k of x (r, k) · W (k, j). -/
theorem dot64_apply (x : FVec Ideal S50000x64 .f32) (W : FVec Ideal S64x64 .f32) (r : Fin 50000) (j : Fin 64) :
    Host.dotGeneral (F := Ideal) (φ₁ := .f32) (φ₂ := .f32) dot_S50000x64_S64x64_S50000x64_1_0_0_1_n_n none x W (ix2 r j)
      = ∑ k : Fin 64, x (ix2 r k) * W (ix2 k j) := by
  simp only [Host.dotGeneral]
  rw [Ideal.dotGeneral_apply, ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 r j)
      ((contrEquiv1 dot_S50000x64_S64x64_S50000x64_1_0_0_1_n_n 64 rfl rfl).symm k) = ix2 r k :=
    funext fun a => Fin.ext (by
      match a with
      | ⟨0, _⟩ => exact lhs64_0 _ _
      | ⟨1, _⟩ => exact (lhs64_1 _ _).trans hk)
  have er : dot_S50000x64_S64x64_S50000x64_1_0_0_1_n_n.rhsIdx (ix2 r j)
      ((contrEquiv1 dot_S50000x64_S64x64_S50000x64_1_0_0_1_n_n 64 rfl rfl).symm k) = ix2 k j :=
    funext fun a => Fin.ext (by
      match a with
      | ⟨0, _⟩ => exact (rhs64_0 _ _).trans hk
      | ⟨1, _⟩ => exact rhs64_1 _ _)
  rw [el, er]

/-! ## The affine maps -/

/-- x · W + b over 128 columns, at (r, j). -/
theorem lin128_apply (x : Tf Ideal S50000x128) (W : Tf Ideal S128x64) (b : Tf Ideal S64) (r : Fin 50000) (j : Fin 64) :
    lin128 (F := Ideal) x W b (ix2 r j) = (∑ l : Fin 128, x (ix2 r l) * W (ix2 l j)) + b (ix1 j) := by
  unfold lin128
  rw [addf_apply, dot128_apply, rowsOf_apply]

/-- x · W + b over 64 columns, at (r, j). -/
theorem lin64_apply (x : Tf Ideal S50000x64) (W : Tf Ideal S64x64) (b : Tf Ideal S64) (r : Fin 50000) (j : Fin 64) :
    lin64 (F := Ideal) x W b (ix2 r j) = (∑ k : Fin 64, x (ix2 r k) * W (ix2 k j)) + b (ix1 j) := by
  unfold lin64
  rw [addf_apply, dot64_apply, rowsOf_apply]

/-! ## The column statistics

The variance does not take the column means from the mean's own table: it divides the column sums again, through a
one-row matrix laid down the rows. That table and the three small ones the variance selects between are named here, so
that the variance is visibly a select between a quotient and the not-a-number word. -/

/-- The column mean at column j is the direct mean of that column. -/
theorem colMean_apply (z : Tf Ideal S50000x64) (j : Fin 64) :
    colMean (F := Ideal) z (ix1 j) = Cert.Math.meanDirect (fun i : Fin 50000 => z (ix2 i j)) := by
  unfold colMean
  rw [hostDivf_apply, colSum_apply]
  rfl

/-- The column means laid along every row, as the variance computes them. -/
def meanTab (z : Tf Ideal S50000x64) : Tf Ideal S50000x64 :=
  broadcastInDim S50000x64 ![0, 1] bcast_S1x64_S50000x64_0_1
    (Host.divf (F := Ideal) (φ := .f32) (broadcastInDim S1x64 ![1] bcast_S64_S1x64_1 (colSum (F := Ideal) z))
      (broadcastInDim S1x64 ![] bcast_S_S1x64 (rows32 (F := Ideal))))

/-- That table at (r, j) is the direct mean of column j. -/
theorem meanTab_apply (z : Tf Ideal S50000x64) (r : Fin 50000) (j : Fin 64) :
    meanTab z (ix2 r j) = Cert.Math.meanDirect (fun i : Fin 50000 => z (ix2 i j)) := by
  unfold meanTab
  rw [broadcastInDim_oneRow_apply, hostDivf_apply,
    broadcastInDim_apply _ bcast_S64_S1x64_1 (colSum (F := Ideal) z) _ (ix1 j) (fun a => by match a with | ⟨0, _⟩ => rfl),
    colSum_apply]
  rfl

/-- The test "the divisor 50000 − 0 is above zero", along the 64 columns. -/
def posTab : IVec S64 1 := broadcastInDim S64 ![] bcast_S_S64 (cmpf (F := Ideal) (s := S_) (φ := .f32) .ogt (varDen (F := Ideal)) (zero32 (F := Ideal)))
/-- The divisor 50000 − 0, along the 64 columns. -/
def denTab : Tf Ideal S64 := broadcastInDim S64 ![] bcast_S_S64 (varDen (F := Ideal))
/-- The not-a-number word, along the 64 columns. -/
def nanTab : Tf Ideal S64 := broadcastInDim S64 ![] bcast_S_S64 (id (constant (F := Ideal) S_ .f32 0x7FC00000#32))

theorem posTab_apply (j : S64.Idx) :
    posTab j = Ideal.cmp .ogt (Ideal.ofBits .f32 0x47435000#32 - (((0#32 : BitVec 32).toInt : ℝ) : EReal))
      (Ideal.ofBits .f32 0x00000000#32) := rfl
theorem denTab_apply (j : S64.Idx) :
    denTab j = Ideal.ofBits .f32 0x47435000#32 - (((0#32 : BitVec 32).toInt : ℝ) : EReal) := rfl
theorem nanTab_apply (j : S64.Idx) : nanTab j = Ideal.ofBits .f32 0x7FC00000#32 := rfl

/-- The variance over the named tables: where the divisor is positive, the column sums of the squared deviations over
    the divisor; elsewhere the not-a-number word. -/
theorem colVar_eq (z : Tf Ideal S50000x64) :
    colVar (F := Ideal) z
      = select posTab
          (Host.divf (F := Ideal) (φ := .f32) (colSum (F := Ideal) (mulf (F := Ideal) (s := S50000x64) (φ := .f32) (subf (F := Ideal) (s := S50000x64) (φ := .f32) z (meanTab z)) (subf (F := Ideal) (s := S50000x64) (φ := .f32) z (meanTab z)))) denTab)
          nanTab := rfl

/-- The column variance at column j is the direct variance of that column. -/
theorem colVar_apply (z : Tf Ideal S50000x64) (j : Fin 64) :
    colVar (F := Ideal) z (ix1 j) = Cert.Math.varDirect (fun i : Fin 50000 => z (ix2 i j)) := by
  rw [colVar_eq, select_apply, hostDivf_apply, colSum_apply, posTab_apply, denTab_apply, nanTab_apply]
  have hdev : ∀ i : Fin 50000, mulf (F := Ideal) (s := S50000x64) (φ := .f32) (subf (F := Ideal) (s := S50000x64) (φ := .f32) z (meanTab z)) (subf (F := Ideal) (s := S50000x64) (φ := .f32) z (meanTab z)) (ix2 i j)
      = (z (ix2 i j) - Cert.Math.meanDirect (fun i : Fin 50000 => z (ix2 i j)))
          * (z (ix2 i j) - Cert.Math.meanDirect (fun i : Fin 50000 => z (ix2 i j))) := fun i => by
    rw [mulf_apply, subf_apply, meanTab_apply]
  rw [Finset.sum_congr rfl (fun i _ => hdev i)]

/-! ## The normalisation -/

/-- The reciprocal standard deviations of the 64 columns. -/
def invStd (z : Tf Ideal S50000x64) : Tf Ideal S64 :=
  Host.rsqrt (F := Ideal) (φ := .f32) (addf (F := Ideal) (s := S64) (φ := .f32) (colVar (F := Ideal) z) (broadcastInDim S64 ![] bcast_S_S64 (eps32 (F := Ideal))))

/-- At column j: rsqrt of the direct variance plus the stabiliser. -/
theorem invStd_apply (z : Tf Ideal S50000x64) (j : Fin 64) :
    invStd z (ix1 j)
      = Ideal.rsqrt (Cert.Math.varDirect (fun i : Fin 50000 => z (ix2 i j)) + Ideal.ofBits .f32 0x3727C5AC#32) := by
  show Ideal.rsqrt (colVar (F := Ideal) z (ix1 j) + Ideal.ofBits .f32 0x3727C5AC#32) = _
  rw [colVar_apply]

/-- The normalisation over the named table. -/
theorem batchNorm_eq (z : Tf Ideal S50000x64) (g be : Tf Ideal S64) :
    batchNorm (F := Ideal) z g be
      = addf (F := Ideal) (s := S50000x64) (φ := .f32) (mulf (F := Ideal) (s := S50000x64) (φ := .f32) (mulf (F := Ideal) (s := S50000x64) (φ := .f32) (subf (F := Ideal) (s := S50000x64) (φ := .f32) z (rowsOf (colMean z))) (rowsOf (invStd z))) (rowsOf g)) (rowsOf be) := rfl

/-- The normalised entry at (r, j), before the last clamp. -/
theorem batchNorm_apply (z : Tf Ideal S50000x64) (g be : Tf Ideal S64) (r : Fin 50000) (j : Fin 64) :
    batchNorm (F := Ideal) z g be (ix2 r j)
      = (z (ix2 r j) - Cert.Math.meanDirect (fun i : Fin 50000 => z (ix2 i j)))
          * Ideal.rsqrt (Cert.Math.varDirect (fun i : Fin 50000 => z (ix2 i j)) + Ideal.ofBits .f32 0x3727C5AC#32)
          * g (ix1 j) + be (ix1 j) := by
  rw [batchNorm_eq, addf_apply, mulf_apply, mulf_apply, subf_apply, rowsOf_apply, rowsOf_apply, rowsOf_apply, rowsOf_apply,
    colMean_apply, invStd_apply]

/-- Normalising and clamping a table whose entries are known: the specification's normalised entry. -/
theorem normalised_of (Z : Tf Ideal S50000x64) (g be : Tf Ideal S64) (zf : Fin 50000 → Fin 64 → EReal)
    (hZ : ∀ i j, Z (ix2 i j) = zf i j) (r : Fin 50000) (j : Fin 64) :
    relu (F := Ideal) (batchNorm (F := Ideal) Z g be) (ix2 r j)
      = Cert.Math.normalised zf (fun j => g (ix1 j)) (fun j => be (ix1 j)) r j := by
  rw [relu_apply, batchNorm_apply]
  have hcol : (fun i : Fin 50000 => Z (ix2 i j)) = fun i => zf i j := funext fun i => hZ i j
  rw [hcol, hZ r j]
  rfl

/-! ## A whole layer is the specification -/

/-- The entry before the normalisation, layer 0: the specification's two affine maps over h plus its neighbour sum. -/
theorem pre0_apply (h : Tf Ideal S50000x128) (src dst : Ti Ideal S800000) (W1 : Tf Ideal S128x64) (b1 : Tf Ideal S64)
    (W2 : Tf Ideal S64x64) (b2 : Tf Ideal S64) (r : Fin 50000) (j : Fin 64) :
    lin64 (F := Ideal) (relu (lin128 (addf h (agg128 h src dst)) W1 b1)) W2 b2 (ix2 r j)
      = Cert.Math.preNorm (fun r l => h (ix2 r l) + agg128 (F := Ideal) h src dst (ix2 r l)) (fun l k => W1 (ix2 l k))
          (fun k => b1 (ix1 k)) (fun k j => W2 (ix2 k j)) (fun j => b2 (ix1 j)) r j := by
  unfold Cert.Math.preNorm Cert.Math.hidden
  rw [lin64_apply]
  refine congrArg (· + b2 (ix1 j)) (Finset.sum_congr rfl fun k _ => ?_)
  rw [relu_apply, lin128_apply]
  refine congrArg (fun t => max (t + b1 (ix1 k)) Cert.Math.zeroW * W2 (ix2 k j)) (Finset.sum_congr rfl fun l _ => ?_)
  rw [addf_apply]

/-- The same for a 64-column layer. -/
theorem preS_apply (h : Tf Ideal S50000x64) (src dst : Ti Ideal S800000) (W1 : Tf Ideal S64x64) (b1 : Tf Ideal S64)
    (W2 : Tf Ideal S64x64) (b2 : Tf Ideal S64) (r : Fin 50000) (j : Fin 64) :
    lin64 (F := Ideal) (relu (lin64 (addf h (agg64 h src dst)) W1 b1)) W2 b2 (ix2 r j)
      = Cert.Math.preNorm (fun r l => h (ix2 r l) + agg64 (F := Ideal) h src dst (ix2 r l)) (fun l k => W1 (ix2 l k))
          (fun k => b1 (ix1 k)) (fun k j => W2 (ix2 k j)) (fun j => b2 (ix1 j)) r j := by
  unfold Cert.Math.preNorm Cert.Math.hidden
  rw [lin64_apply]
  refine congrArg (· + b2 (ix1 j)) (Finset.sum_congr rfl fun k _ => ?_)
  rw [relu_apply, lin64_apply]
  refine congrArg (fun t => max (t + b1 (ix1 k)) Cert.Math.zeroW * W2 (ix2 k j)) (Finset.sum_congr rfl fun l _ => ?_)
  rw [addf_apply]

/-- LAYER 0 AT AN ENTRY is the specification's layer of plain arrays. -/
theorem layer0_apply (h : Tf Ideal S50000x128) (src dst : Ti Ideal S800000) (W1 : Tf Ideal S128x64) (b1 : Tf Ideal S64)
    (W2 : Tf Ideal S64x64) (b2 g be : Tf Ideal S64) (r : Fin 50000) (j : Fin 64) :
    layer0 (F := Ideal) h src dst W1 b1 W2 b2 g be (ix2 r j)
      = Cert.Math.layerOut (fun r l => h (ix2 r l) + agg128 (F := Ideal) h src dst (ix2 r l)) (fun l k => W1 (ix2 l k))
          (fun k => b1 (ix1 k)) (fun k j => W2 (ix2 k j)) (fun j => b2 (ix1 j)) (fun j => g (ix1 j)) (fun j => be (ix1 j)) r j := by
  unfold layer0
  exact normalised_of _ g be _ (fun i j => pre0_apply h src dst W1 b1 W2 b2 i j) r j

/-- A 64-COLUMN LAYER AT AN ENTRY is the specification's layer of plain arrays. -/
theorem layerS_apply (h : Tf Ideal S50000x64) (src dst : Ti Ideal S800000) (W1 : Tf Ideal S64x64) (b1 : Tf Ideal S64)
    (W2 : Tf Ideal S64x64) (b2 g be : Tf Ideal S64) (r : Fin 50000) (j : Fin 64) :
    layerS (F := Ideal) h src dst W1 b1 W2 b2 g be (ix2 r j)
      = Cert.Math.layerOut (fun r l => h (ix2 r l) + agg64 (F := Ideal) h src dst (ix2 r l)) (fun l k => W1 (ix2 l k))
          (fun k => b1 (ix1 k)) (fun k j => W2 (ix2 k j)) (fun j => b2 (ix1 j)) (fun j => g (ix1 j)) (fun j => be (ix1 j)) r j := by
  unfold layerS
  exact normalised_of _ g be _ (fun i j => preS_apply h src dst W1 b1 W2 b2 i j) r j

/-! ## The stacked parameters, slice by slice -/

/-- Matrix 0 of the stack at (k, j). -/
theorem mat0_apply (Ws : Tf Ideal S3x64x64) (k j : Fin 64) : mat0 (F := Ideal) Ws (ix2 k j) = Ws (ix3 (0 : Fin 3) k j) := by
  unfold mat0
  rw [shapeCast_1ab_ab_apply]
  exact extractStridedSlice_apply _ Ws _ _ (ix3 (0 : Fin 3) k j) (fun a => by
    match a with
    | ⟨0, _⟩ => rfl
    | ⟨1, _⟩ => exact (Nat.zero_add _).symm
    | ⟨2, _⟩ => exact (Nat.zero_add _).symm)
/-- Matrix 1 of the stack at (k, j). -/
theorem mat1_apply (Ws : Tf Ideal S3x64x64) (k j : Fin 64) : mat1 (F := Ideal) Ws (ix2 k j) = Ws (ix3 (1 : Fin 3) k j) := by
  unfold mat1
  rw [shapeCast_1ab_ab_apply]
  exact extractStridedSlice_apply _ Ws _ _ (ix3 (1 : Fin 3) k j) (fun a => by
    match a with
    | ⟨0, _⟩ => rfl
    | ⟨1, _⟩ => exact (Nat.zero_add _).symm
    | ⟨2, _⟩ => exact (Nat.zero_add _).symm)
/-- Matrix 2 of the stack at (k, j). -/
theorem mat2_apply (Ws : Tf Ideal S3x64x64) (k j : Fin 64) : mat2 (F := Ideal) Ws (ix2 k j) = Ws (ix3 (2 : Fin 3) k j) := by
  unfold mat2
  rw [shapeCast_1ab_ab_apply]
  exact extractStridedSlice_apply _ Ws _ _ (ix3 (2 : Fin 3) k j) (fun a => by
    match a with
    | ⟨0, _⟩ => rfl
    | ⟨1, _⟩ => exact (Nat.zero_add _).symm
    | ⟨2, _⟩ => exact (Nat.zero_add _).symm)

/-- Row 0 of the stack at j. -/
theorem row0_apply (bs : Tf Ideal S3x64) (j : Fin 64) : row0 (F := Ideal) bs (ix1 j) = bs (ix2 (0 : Fin 3) j) := by
  unfold row0
  rw [shapeCast_1a_a_apply]
  exact extractStridedSlice_apply _ bs _ _ (ix2 (0 : Fin 3) j) (fun a => by
    match a with
    | ⟨0, _⟩ => rfl
    | ⟨1, _⟩ => exact (Nat.zero_add _).symm)
/-- Row 1 of the stack at j. -/
theorem row1_apply (bs : Tf Ideal S3x64) (j : Fin 64) : row1 (F := Ideal) bs (ix1 j) = bs (ix2 (1 : Fin 3) j) := by
  unfold row1
  rw [shapeCast_1a_a_apply]
  exact extractStridedSlice_apply _ bs _ _ (ix2 (1 : Fin 3) j) (fun a => by
    match a with
    | ⟨0, _⟩ => rfl
    | ⟨1, _⟩ => exact (Nat.zero_add _).symm)
/-- Row 2 of the stack at j. -/
theorem row2_apply (bs : Tf Ideal S3x64) (j : Fin 64) : row2 (F := Ideal) bs (ix1 j) = bs (ix2 (2 : Fin 3) j) := by
  unfold row2
  rw [shapeCast_1a_a_apply]
  exact extractStridedSlice_apply _ bs _ _ (ix2 (2 : Fin 3) j) (fun a => by
    match a with
    | ⟨0, _⟩ => rfl
    | ⟨1, _⟩ => exact (Nat.zero_add _).symm)

end Cert.ReferenceIdeal.HandVal

end
-- ==== Proof.KernelIdeal.KVal.Arrays.lean ====
/-
  One layer, array against array.

  The kernel side hands over, for a layer, the normalising kernel's output array as a function of five arrays, the
  linear kernel's three outputs as functions of six, and what those six and the scale and shift rows hold: the
  layer's input table, its neighbour sums, and the parameters (a bias, a scale or a shift as a 1 × 64 row). The
  reference side states the same layer as one function of the input table, the edge lists and the parameters. Read
  at a row and a column, both are the specification's layer output of the same plain arrays, so the two arrays are
  equal; and the output's entries are real when the inputs' are, which is what the next layer's variance needs.
-/
import proofs.«144771_j36481452212846_1_alg».proof.Proof.KernelIdeal.KVal.Layer
import proofs.«144771_j36481452212846_1_alg».proof.Proof.Ref.LayerIdx

noncomputable section

namespace Cert.KernelIdeal.HandVal

open Idealize.ShloMosaic Idealize.ShloMosaic.ValueIdx Cert.Math

/-- Layer 0 (128 input columns): the kernel side's output array is the reference's layer 0. -/
theorem layer0_arrays
    (H : Vec Ideal ⟨2, ![50000, 128]⟩ .f32) (src dst : IVec ⟨1, ![800000]⟩ 32)
    (W1 : Vec Ideal ⟨2, ![128, 64]⟩ .f32) (b1 : Vec Ideal ⟨1, ![64]⟩ .f32) (W2 : Vec Ideal ⟨2, ![64, 64]⟩ .f32)
    (b2 g be : Vec Ideal ⟨1, ![64]⟩ .f32)
    (X0 X1 : Vec Ideal ⟨2, ![50000, 128]⟩ .f32) (X2 : Vec Ideal ⟨2, ![128, 64]⟩ .f32)
    (X3 : Vec Ideal ⟨2, ![1, 64]⟩ .f32) (X4 : Vec Ideal ⟨2, ![64, 64]⟩ .f32) (X5 : Vec Ideal ⟨2, ![1, 64]⟩ .f32)
    (Z Out : Vec Ideal ⟨2, ![50000, 64]⟩ .f32) (Mn Vr Gm Bt : Vec Ideal ⟨2, ![1, 64]⟩ .f32)
    (hOut : Out = bnArr Z Mn Vr Gm Bt)
    (hZ : Z = zlin X0 X1 X2 X3 X4 X5)
    (hMn : ∀ j : Fin 64, Mn (ix2 0 j) = meanDirect (fun i : Fin 50000 => zlin X0 X1 X2 X3 X4 X5 (ix2 i j)))
    (hVr : (∀ (i : Fin 50000) (j : Fin 64), IsReal (zlin X0 X1 X2 X3 X4 X5 (ix2 i j))) →
      ∀ j : Fin 64, Vr (ix2 0 j) = varDirect (fun i : Fin 50000 => zlin X0 X1 X2 X3 X4 X5 (ix2 i j)))
    (hX0 : X0 = H) (hX1 : X1 = Cert.ReferenceIdeal.Hand.agg128 (F := Ideal) H src dst)
    (hX2 : X2 = W1) (hX3 : ∀ j : Fin 64, X3 (ix2 0 j) = b1 (ix1 j)) (hX4 : X4 = W2)
    (hX5 : ∀ j : Fin 64, X5 (ix2 0 j) = b2 (ix1 j))
    (hGm : ∀ j : Fin 64, Gm (ix2 0 j) = g (ix1 j)) (hBt : ∀ j : Fin 64, Bt (ix2 0 j) = be (ix1 j))
    (rH : ∀ i, IsReal (H i)) (rX1 : ∀ i, IsReal (X1 i)) (rW1 : ∀ i, IsReal (W1 i)) (rb1 : ∀ i, IsReal (b1 i))
    (rW2 : ∀ i, IsReal (W2 i)) (rb2 : ∀ i, IsReal (b2 i)) (rg : ∀ i, IsReal (g i)) (rbe : ∀ i, IsReal (be i)) :
    Out = Cert.ReferenceIdeal.Hand.layer0 (F := Ideal) H src dst W1 b1 W2 b2 g be ∧ ∀ i, IsReal (Out i) := by
  have key := fun r j => layer_join X0 X1 X2 X3 X4 X5 Z Mn Vr Gm Bt hZ hMn hVr (hX0 ▸ rH) rX1 (hX2 ▸ rW1)
    (real_row rb1 hX3) (hX4 ▸ rW2) (real_row rb2 hX5) (real_row rg hGm) (real_row rbe hBt) r j
  refine ⟨ext_ix2 fun r j => ?_, real_ix2 fun r j => hOut ▸ (key r j).2⟩
  have e3 : (fun k : Fin 64 => X3 (ix2 0 k)) = fun k => b1 (ix1 k) := funext hX3
  have e5 : (fun k : Fin 64 => X5 (ix2 0 k)) = fun k => b2 (ix1 k) := funext hX5
  have eG : (fun k : Fin 64 => Gm (ix2 0 k)) = fun k => g (ix1 k) := funext hGm
  have eB : (fun k : Fin 64 => Bt (ix2 0 k)) = fun k => be (ix1 k) := funext hBt
  rw [hOut, (key r j).1, Cert.ReferenceIdeal.HandVal.layer0_apply, e3, e5, eG, eB, hX0, hX1, hX2, hX4]

/-- A later layer (64 input columns): the kernel side's output array is the reference's layer over the same
    parameters. -/
theorem layerS_arrays
    (H : Vec Ideal ⟨2, ![50000, 64]⟩ .f32) (src dst : IVec ⟨1, ![800000]⟩ 32)
    (W1 : Vec Ideal ⟨2, ![64, 64]⟩ .f32) (b1 : Vec Ideal ⟨1, ![64]⟩ .f32) (W2 : Vec Ideal ⟨2, ![64, 64]⟩ .f32)
    (b2 g be : Vec Ideal ⟨1, ![64]⟩ .f32)
    (X0 X1 : Vec Ideal ⟨2, ![50000, 64]⟩ .f32) (X2 : Vec Ideal ⟨2, ![64, 64]⟩ .f32)
    (X3 : Vec Ideal ⟨2, ![1, 64]⟩ .f32) (X4 : Vec Ideal ⟨2, ![64, 64]⟩ .f32) (X5 : Vec Ideal ⟨2, ![1, 64]⟩ .f32)
    (Z Out : Vec Ideal ⟨2, ![50000, 64]⟩ .f32) (Mn Vr Gm Bt : Vec Ideal ⟨2, ![1, 64]⟩ .f32)
    (hOut : Out = bnArr Z Mn Vr Gm Bt)
    (hZ : Z = zlin X0 X1 X2 X3 X4 X5)
    (hMn : ∀ j : Fin 64, Mn (ix2 0 j) = meanDirect (fun i : Fin 50000 => zlin X0 X1 X2 X3 X4 X5 (ix2 i j)))
    (hVr : (∀ (i : Fin 50000) (j : Fin 64), IsReal (zlin X0 X1 X2 X3 X4 X5 (ix2 i j))) →
      ∀ j : Fin 64, Vr (ix2 0 j) = varDirect (fun i : Fin 50000 => zlin X0 X1 X2 X3 X4 X5 (ix2 i j)))
    (hX0 : X0 = H) (hX1 : X1 = Cert.ReferenceIdeal.Hand.agg64 (F := Ideal) H src dst)
    (hX2 : ∀ l k : Fin 64, X2 (ix2 l k) = W1 (ix2 l k)) (hX3 : ∀ j : Fin 64, X3 (ix2 0 j) = b1 (ix1 j))
    (hX4 : ∀ l k : Fin 64, X4 (ix2 l k) = W2 (ix2 l k)) (hX5 : ∀ j : Fin 64, X5 (ix2 0 j) = b2 (ix1 j))
    (hGm : ∀ j : Fin 64, Gm (ix2 0 j) = g (ix1 j)) (hBt : ∀ j : Fin 64, Bt (ix2 0 j) = be (ix1 j))
    (rH : ∀ i, IsReal (H i)) (rX1 : ∀ i, IsReal (X1 i)) (rW1 : ∀ i, IsReal (W1 i)) (rb1 : ∀ i, IsReal (b1 i))
    (rW2 : ∀ i, IsReal (W2 i)) (rb2 : ∀ i, IsReal (b2 i)) (rg : ∀ i, IsReal (g i)) (rbe : ∀ i, IsReal (be i)) :
    Out = Cert.ReferenceIdeal.Hand.layerS (F := Ideal) H src dst W1 b1 W2 b2 g be ∧ ∀ i, IsReal (Out i) := by
  have e2' : X2 = W1 := ext_ix2 hX2
  have e4' : X4 = W2 := ext_ix2 hX4
  have key := fun r j => layer_join X0 X1 X2 X3 X4 X5 Z Mn Vr Gm Bt hZ hMn hVr (hX0 ▸ rH) rX1 (e2' ▸ rW1)
    (real_row rb1 hX3) (e4' ▸ rW2) (real_row rb2 hX5) (real_row rg hGm) (real_row rbe hBt) r j
  refine ⟨ext_ix2 fun r j => ?_, real_ix2 fun r j => hOut ▸ (key r j).2⟩
  have e3 : (fun k : Fin 64 => X3 (ix2 0 k)) = fun k => b1 (ix1 k) := funext hX3
  have e5 : (fun k : Fin 64 => X5 (ix2 0 k)) = fun k => b2 (ix1 k) := funext hX5
  have eG : (fun k : Fin 64 => Gm (ix2 0 k)) = fun k => g (ix1 k) := funext hGm
  have eB : (fun k : Fin 64 => Bt (ix2 0 k)) = fun k => be (ix1 k) := funext hBt
  rw [hOut, (key r j).1, Cert.ReferenceIdeal.HandVal.layerS_apply, e3, e5, eG, eB, hX0, hX1, e2', e4']

end Cert.KernelIdeal.HandVal

end
-- ==== Proof.KernelIdeal.Bn1Val.lean ====
/-
  The output array of the batch-norm-and-ReLU region, in closed form, over the extended reals.

  The region runs its body at ten grid points; point t reads row tile t of the pre-activations and the four
  statistic rows, and writes row tile t of the output array. Here we show that once all ten points have written
  back, the output array IS the whole-array function bnArr of the five input arrays as the region found them (V):
  at row r and column j, max(((z(r,j) - mean(0,j)) * rsqrt(var(0,j) + eps)) * scale(0,j) + shift(0,j), 0).

  The steps: the tile the body leaves, read at one element, is bnElt of the element of the pre-activation tile and
  the four statistics of its column (the payload is a tree of pointwise operations and row broadcasts); the
  pre-activation block and the output block at point t sit at the same place of their arrays (row 5000 t + p), and
  each statistic row's one block is its whole array; so what point t writes back is its block of bnArr; the ten
  blocks cover every row (row r belongs to point r / 5000); hence the array ends as bnArr.
-/
import proofs.«144771_j36481452212846_1_alg».proof.Proof.KernelIdeal.Bn1
import proofs.«144771_j36481452212846_1_alg».proof.Proof.Math.BnSpec
import Idealize.ShloMosaic.Lib.Pipeline.Value
import Idealize.ShloMosaic.Lib.ValueIdx
import Idealize.ShloMosaic.Lib.ValueLayout

set_option maxRecDepth 16384

noncomputable section

namespace Cert.KernelIdeal.HandVal

open Cert.KernelIdeal Cert.KernelIdeal.Gen Cert.KernelIdeal.Hand Cert.Math
open Idealize.ShloMosaic Idealize.ShloMosaic.TcCoe Idealize.SL.Sem
open Idealize.ShloMosaic.Pipeline (Dat)
open Idealize.ShloMosaic.ValueIdx

/-- The zero offsets of a whole-buffer rectangle, spelt as a function. -/
private theorem zeros : (![0, 0] : Fin 2 → Nat) = fun _ => 0 :=
  funext fun a => by match a with | ⟨0, _⟩ => rfl | ⟨1, _⟩ => rfl

/-- The reciprocal square root of a vector, read at an index, is that of the element. -/
private theorem rsqrt_at {s : Shape} {φ : FTy} (a : FVec Ideal s φ) (i : s.Idx) : rsqrt a i = Ideal.rsqrt (a i) := rfl

/-! ## The tile the body leaves, element by element -/

/-- Row p, column q of the output tile, from the five input blocks: the element of the pre-activation tile there,
    treated with the four statistics of column q. The body's one store covers the tile, so the tile is the
    payload; the payload is a tree of pointwise operations over the tile and the four rows broadcast down it. -/
theorem out1_5_apply (x0 : Vec Ideal S5000x64 .f32) (x1 x2 x3 x4 : Vec Ideal S1x64 .f32) (p : Fin 5000) (q : Fin 64) :
    out1_5 x0 x1 x2 x3 x4 (ix2 p q)
      = bnElt (x0 (ix2 p q)) (x1 (ix2 (0 : Fin 1) q)) (x2 (ix2 (0 : Fin 1) q)) (x3 (ix2 (0 : Fin 1) q)) (x4 (ix2 (0 : Fin 1) q)) := by
  unfold out1_5
  rw [View.canon_unit_zero zeros]
  simp only [View.ld_unit_zero (S := S5000x64) zeros, View.ld_unit_zero (S := S1x64) zeros]
  unfold k1_pay1 bnElt
  simp only [maximumf_apply, addf_apply, mulf_apply, subf_apply, broadcast_apply, shapeCast_self, broadcastTo_1b_ab_apply, rsqrt_at]
  rfl

variable (V : (c : Dev nD) → (b : Ref sig .tc) → Buf (Elt Ideal) ((c : Thread nD τ).loc b))

/-! ## Where the windows' blocks sit -/

/-- The block indices over the grid, decided point by point: the pre-activation window and the output window are
    both at row tile t, column tile 0; the four rows are at block (0, 0) throughout. -/
theorem idxFacts1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- A row tile of the grid lies inside the array: ten tiles of 5000 rows. -/
theorem row_lt1 (t : Fin cfg1.N) (p : Fin 5000) : t.val * 5000 + p.val < 50000 := by
  have ht : t.val < cfg1.N := t.isLt
  have hN : cfg1.N = 10 := N_1
  have hp : p.val < 5000 := p.isLt
  omega

/-- The pre-activation block at point t, read at row p and column q, is the array at row 5000 t + p. -/
theorem iblk1_0_at (c : Dev nD) (t : Fin cfg1.N) (p : Fin 5000) (q : Fin 64) :
    iblk1 V c 0 t (ix2 p q) = V c (Pipeline.arrRef spec1 0) (ix2 (⟨t.val * 5000 + p.val, row_lt1 t p⟩ : Fin 50000) q) := by
  obtain ⟨e0, e1, -⟩ := idxFacts1 t
  show V c (Pipeline.arrRef spec1 0) (((cfg1.win 0).blk t).view.emb (ix2 p q)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * q.val = q.val; omega

/-- Each of the four rows is its own whole array: its one block, at (0, 0), read at column q is the array there. -/
theorem iblk1_1_row (c : Dev nD) (t : Fin cfg1.N) (q : Fin 64) :
    iblk1 V c 1 t (ix2 (0 : Fin 1) q) = V c (Pipeline.arrRef spec1 1) (ix2 (0 : Fin 1) q) := by
  obtain ⟨-, -, -, -, e0, e1, -⟩ := idxFacts1 t
  show V c (Pipeline.arrRef spec1 1) (((cfg1.win 1).blk t).view.emb (ix2 (0 : Fin 1) q)) = _
  refine congrArg _ (funext fun a => Fin.ext ?_)
  match a with
  | ⟨0, _⟩ => show win1_1.index t (0 : Fin 2) * 1 + 1 * 0 = 0; omega
  | ⟨1, _⟩ => show win1_1.index t (1 : Fin 2) * 64 + 1 * q.val = q.val; omega
theorem iblk1_2_row (c : Dev nD) (t : Fin cfg1.N) (q : Fin 64) :
    iblk1 V c 2 t (ix2 (0 : Fin 1) q) = V c (Pipeline.arrRef spec1 2) (ix2 (0 : Fin 1) q) := by
  obtain ⟨-, -, -, -, -, -, e0, e1, -⟩ := idxFacts1 t
  show V c (Pipeline.arrRef spec1 2) (((cfg1.win 2).blk t).view.emb (ix2 (0 : Fin 1) q)) = _
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega
theorem iblk1_3_row (c : Dev nD) (t : Fin cfg1.N) (q : Fin 64) :
    iblk1 V c 3 t (ix2 (0 : Fin 1) q) = V c (Pipeline.arrRef spec1 3) (ix2 (0 : Fin 1) q) := by
  obtain ⟨-, -, -, -, -, -, -, -, e0, e1, -⟩ := idxFacts1 t
  show V c (Pipeline.arrRef spec1 3) (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega
theorem iblk1_4_row (c : Dev nD) (t : Fin cfg1.N) (q : Fin 64) :
    iblk1 V c 4 t (ix2 (0 : Fin 1) q) = V c (Pipeline.arrRef spec1 4) (ix2 (0 : Fin 1) q) := by
  obtain ⟨-, -, -, -, -, -, -, -, -, -, e0, e1⟩ := idxFacts1 t
  show V c (Pipeline.arrRef spec1 4) (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- Where row p, column q of the output block at point t sits in the output array: row 5000 t + p, column q. -/
theorem emb1_5_at (t : Fin cfg1.N) (p : Fin 5000) (q : Fin 64) :
    ((cfg1.win 5).blk t).view.emb (ix2 p q) = (ix2 (⟨t.val * 5000 + p.val, row_lt1 t p⟩ : Fin 50000) q : S50000x64.Idx) := by
  obtain ⟨-, -, e0, e1, -⟩ := idxFacts1 t
  refine funext fun a => Fin.ext ?_
  match a with
  | ⟨0, _⟩ => show win1_5.index t (0 : Fin 2) * 5000 + 1 * p.val = t.val * 5000 + p.val; omega
  | ⟨1, _⟩ => show win1_5.index t (1 : Fin 2) * 64 + 1 * q.val = q.val; omega

/-! ## What a grid point writes back -/

/-- The output tile of point t at row p and column q is bnArr of the five arrays at row 5000 t + p, column q. -/
theorem tile1_5_at (c : Dev nD) (t : Fin cfg1.N) (p : Fin 5000) (q : Fin 64) :
    out1_5 (iblk1 V c 0 t) (iblk1 V c 1 t) (iblk1 V c 2 t) (iblk1 V c 3 t) (iblk1 V c 4 t) (ix2 p q)
      = bnArr (V c (Pipeline.arrRef spec1 0)) (V c (Pipeline.arrRef spec1 1)) (V c (Pipeline.arrRef spec1 2))
          (V c (Pipeline.arrRef spec1 3)) (V c (Pipeline.arrRef spec1 4)) (ix2 (⟨t.val * 5000 + p.val, row_lt1 t p⟩ : Fin 50000) q) :=
  (out1_5_apply (iblk1 V c 0 t) (iblk1 V c 1 t) (iblk1 V c 2 t) (iblk1 V c 3 t) (iblk1 V c 4 t) p q).trans
    (congr (congr (congr (congr (congrArg bnElt (iblk1_0_at V c t p q)) (iblk1_1_row V c t q)) (iblk1_2_row V c t q))
      (iblk1_3_row V c t q)) (iblk1_4_row V c t q))

/-- Point t writes back row tile t of bnArr of the five arrays as the region finds them. -/
theorem flushed1_5_eq (c : Dev nD) (t : Fin cfg1.N) :
    (dat1 (F := Ideal) V c).flushed 5 t = ((cfg1.win 5).blk t).view.read (Elt Ideal)
      (bnArr (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  funext j
  obtain ⟨p, q, rfl⟩ : ∃ (p : Fin 5000) (q : Fin 64), j = ix2 p q := ⟨j 0, j 1, eq_ix2 j⟩
  show out1_5 (iblk1 V c 0 t) (iblk1 V c 1 t) (iblk1 V c 2 t) (iblk1 V c 3 t) (iblk1 V c 4 t) (ix2 p q)
    = bnArr (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb (ix2 p q))
  exact (tile1_5_at V c t p q).trans (congrArg _ (emb1_5_at t p q).symm)

/-! ## The ten tiles fill the array -/

/-- An index of the output array lies in point t's block exactly when each coordinate lies in the block's range. -/
theorem memBlk1_5 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole (Pipeline.arrRef spec1 5)).slice (win1_5.rect t)).set ↔ _
  rw [View.set_slice_whole, Rect.mem_set_unit]
  exact Iff.rfl

/-- Every index of the output array is written back by some point: row r by point r / 5000. -/
theorem covered1_5 (i : S50000x64.Idx) :
    ∃ t : Fin cfg1.N, (cfg1.win 5).flush t = true ∧ i ∈ ((cfg1.win 5).blk t).view.set := by
  have hi0 : (i 0).val < 50000 := idx2_lt0 i
  have hi1 : (i 1).val < 64 := idx2_lt1 i
  have hN : cfg1.N = 10 := N_1
  have ht : (i 0).val / 5000 < cfg1.N := by rw [hN]; omega
  obtain ⟨-, -, e50, e51, -⟩ := idxFacts1 ⟨(i 0).val / 5000, ht⟩
  refine ⟨⟨(i 0).val / 5000, ht⟩, flush1_5 _, ?_⟩
  rw [memBlk1_5]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    rw [e51]; omega

/-! ## The output array after the region -/

/-- After all ten points have written back, the output array is bnArr of the five input arrays as the region
    found them. -/
theorem final1_5 (c : Dev nD) :
    (dat1 (F := Ideal) V c).arrAt 5 cfg1.N
      = bnArr (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => flushed1_5_eq V c t) covered1_5

end Cert.KernelIdeal.HandVal

end
-- ==== Proof.KernelIdeal.Mlp0Piece.lean ====
/-
  The first statistics pass, one tile at a time: what each written buffer holds, as arithmetic.

  A tile's run leaves in each buffer it writes a list of stored pieces. Every store of this body
  covers its whole buffer, so what a buffer ends holding is the payload of the last store into it;
  and where the body loads a buffer back after storing into it (the running rows after they are
  zeroed on the first tile, and after they are updated on the last), the load reads that stored
  payload. Read this way:
    the activations block holds the tile's activations z (the two affine maps with the clamp between);
    the running row of sums holds (what it held, or zero on the first tile) + column sums of z;
    the running row of sums of squares holds the same for z · z;
    on the last tile the mean block holds sums · 1/n and the variance block sumsq · 1/n - mean · mean.
-/
import proofs.«144771_j36481452212846_1_alg».proof.Proof.KernelIdeal.Mlp0Dat
import Idealize.ShloMosaic.Lib.Pipeline.Value
import Idealize.ShloMosaic.Lib.Tactic

-- the buffers' rectangles of 5000 rows are compared one coordinate at a time
set_option maxRecDepth 16384

noncomputable section

namespace Cert.KernelIdeal.HandVal.Reg0

open Cert.KernelIdeal Cert.KernelIdeal.Gen Cert.KernelIdeal.Hand
open Idealize.ShloMosaic Idealize.ShloMosaic.TcCoe Idealize.ShloMosaic.Tactic Idealize.SL.Sem

variable {F : FTy → Type} [FloatOps F] [Named F]

/-- The zero offsets of a whole-buffer access, as the constant function. -/
theorem hz2 : (![0, 0] : Fin 2 → Nat) = fun _ => 0 := funext fun a => by fin_cases a <;> rfl

/-- First tile: the activations block holds the tile's activations, the one piece stored into it. -/
theorem out0_A_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) :
    out0_A_6 c i arg1 harg1 arg2 harg2 arg3 harg3 arg4 harg4 arg5 harg5 arg6 harg6 arg7 harg7 arg8 harg8 arg9 harg9 arg10 harg10 arg11 harg11 hc0 hc1 x0 x1 x2 x3 x4 x5 = k0_pay4 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x64) hz2, View.ld_unit_zero (S := S1x64) hz2, View.ld_unit_zero (S := S64x64) hz2]

/-- First tile: the running row of sums was zeroed, read back, and holds zero plus the tile's column sums. -/
theorem sout0_A_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 = k0_pay7 x0 x1 x2 x3 x4 x5 (k0_pay5 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x64) hz2, View.ld_unit_zero (S := S1x64) hz2, View.ld_unit_zero (S := S64x64) hz2]

/-- First tile: the running row of sums of squares, likewise from zero. -/
theorem sout0_A_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 = k0_pay1 (k0_pay4 x0 x1 x2 x3 x4 x5) (k0_pay6 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x64) hz2, View.ld_unit_zero (S := S1x64) hz2, View.ld_unit_zero (S := S64x64) hz2]

/-- A middle tile: the activations block holds the tile's activations. -/
theorem out0_B_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) :
    out0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay4 x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x64) hz2, View.ld_unit_zero (S := S1x64) hz2, View.ld_unit_zero (S := S64x64) hz2]

/-- A middle tile: the running row of sums holds what it held plus the tile's column sums. -/
theorem sout0_B_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay7 x0 x1 x2 x3 x4 x5 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x64) hz2, View.ld_unit_zero (S := S1x64) hz2, View.ld_unit_zero (S := S64x64) hz2]

/-- A middle tile: the running row of sums of squares, likewise. -/
theorem sout0_B_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay4 x0 x1 x2 x3 x4 x5) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x64) hz2, View.ld_unit_zero (S := S1x64) hz2, View.ld_unit_zero (S := S64x64) hz2]

/-- Last tile: the activations block holds the tile's activations. -/
theorem out0_C_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay4 x0 x1 x2 x3 x4 x5 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x64) hz2, View.ld_unit_zero (S := S1x64) hz2, View.ld_unit_zero (S := S64x64) hz2]

/-- Last tile: the mean block holds the updated running row of sums, read back, times the reciprocal of the row count. -/
theorem out0_C_7_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay7 x0 x1 x2 x3 x4 x5 xs0) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x64) hz2, View.ld_unit_zero (S := S1x64) hz2, View.ld_unit_zero (S := S64x64) hz2]

/-- Last tile: the variance block holds the updated sums of squares times that reciprocal, less the mean's square. -/
theorem out0_C_8_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay3 (k0_pay7 x0 x1 x2 x3 x4 x5 xs0) (k0_pay1 (k0_pay4 x0 x1 x2 x3 x4 x5) xs1) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz2, View.readCov_unit_zero (S := S1x64) _ hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x64) hz2, View.ld_unit_zero (S := S1x64) hz2, View.ld_unit_zero (S := S64x64) hz2]

/-- Last tile: the running row of sums holds what it held plus the tile's column sums. -/
theorem sout0_C_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay7 x0 x1 x2 x3 x4 x5 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x64) hz2, View.ld_unit_zero (S := S1x64) hz2, View.ld_unit_zero (S := S64x64) hz2]

/-- Last tile: the running row of sums of squares, likewise. -/
theorem sout0_C_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x128 .f32) (x1 : Vec F S5000x128 .f32) (x2 : Vec F S128x64 .f32) (x3 : Vec F S1x64 .f32) (x4 : Vec F S64x64 .f32) (x5 : Vec F S1x64 .f32) (xs0 : Vec F S1x64 .f32) (xs1 : Vec F S1x64 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay4 x0 x1 x2 x3 x4 x5) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x64) hz2, View.ld_unit_zero (S := S1x64) hz2, View.ld_unit_zero (S := S64x64) hz2]

end Cert.KernelIdeal.HandVal.Reg0

end
-- ==== Proof.KernelIdeal.Pay0Idx.lean ====
/-
  The statistics kernel's tile arithmetic, read one element at a time on the extended reals.

  One tile holds 5000 rows. With x and a the tile's two 5000 × 128 inputs, W₁ (128 × 64), b₁, W₂ (64 × 64) and b₂
  the layer's weights, the tile's value is
      z r j = (∑ k, max ((∑ l, (x r l + a r l) · W₁ l k) + b₁ k) 0 · W₂ k j) + b₂ j,
  the running column totals take  s j ↦ s j + (0 + ∑ r, z r j)  and  q j ↦ q j + (0 + ∑ r, z r j · z r j),
  both start from the zero row, and the last step forms  m j = s j · (1/50000)  and
  v j = q j · (1/50000) - m j · m j.
  Here each of those named terms is opened at an index written by its coordinates: the narrowing to sixteen
  bits before a product is the identity on the extended reals, a product into a zero accumulator is the plain
  sum over the contracted coordinate, a sum over the rows is the sum over the row coordinate, a cast between
  equal shapes is the identity, the cast [64] → [1, 64] forgets the unit coordinate, and a row broadcast over
  the tile reads the row. The zero of a clamp or of a sum's start is kept as the word it is written with.
-/
import proofs.«144771_j36481452212846_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandVal

open Cert.KernelIdeal Cert.KernelIdeal.Gen Idealize.ShloMosaic Idealize.ShloMosaic.ValueIdx

namespace Reg0

/-! ## The first product: 5000 × 128 by 128 × 64, contracted over the 128 -/

/-- The left operand's row coordinate is the result's row coordinate … -/
theorem first_lhs_0 (j : S5000x64.Idx) (q : dot_S5000x128_S128x64_S5000x64_1_0_0_1_n_n.contr.Idx) :
    (dot_S5000x128_S128x64_S5000x64_1_0_0_1_n_n.lhsIdx j q 0).val = (j 0).val := rfl
/-- … its column coordinate the contracted one … -/
theorem first_lhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  DotDims.lhsIdx_val_of_single _ rfl j q
/-- … the right operand's row coordinate the contracted one … -/
theorem first_rhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  DotDims.rhsIdx_val_of_single _ rfl j q
/-- … and its column coordinate the result's column coordinate. -/
theorem first_rhs_1 (j : S5000x64.Idx) (q : dot_S5000x128_S128x64_S5000x64_1_0_0_1_n_n.contr.Idx) :
    (dot_S5000x128_S128x64_S5000x64_1_0_0_1_n_n.rhsIdx j q 1).val = (j 1).val := rfl

/-- Into the zero accumulator the first product at (r, k) is the sum over l of A r l · B l k. -/
theorem first_matmul_apply {φ₁ φ₂ : FTy} (A : FVec Ideal S5000x128 φ₁) (B : FVec Ideal S128x64 φ₂)
    (r : Fin 5000) (k : Fin 64) :
    matmul dot_S5000x128_S128x64_S5000x64_1_0_0_1_n_n none A B (constant (F := Ideal) S5000x64 .f32 0x00000000#32) (ix2 r k)
      = ∑ l : Fin 128, A (ix2 r l) * B (ix2 l k) := by
  refine (Ideal.matmul_constant_zero_apply dot_S5000x128_S128x64_S5000x64_1_0_0_1_n_n none A B (ix2 r k)).trans ?_
  rw [← Equiv.sum_comp (contrEquiv1 dot_S5000x128_S128x64_S5000x64_1_0_0_1_n_n 128 rfl rfl).symm]
  refine Finset.sum_congr rfl fun l _ => ?_
  have hL : dot_S5000x128_S128x64_S5000x64_1_0_0_1_n_n.lhsIdx (ix2 r k)
      ((contrEquiv1 dot_S5000x128_S128x64_S5000x64_1_0_0_1_n_n 128 rfl rfl).symm l) = ix2 r l := by
    funext a; refine Fin.ext ?_
    match a with
    | ⟨0, _⟩ => exact first_lhs_0 _ _
    | ⟨1, _⟩ => exact (first_lhs_1 _ _).trans (contrEquiv1_symm_val _ 128 rfl rfl l)
  have hR : dot_S5000x128_S128x64_S5000x64_1_0_0_1_n_n.rhsIdx (ix2 r k)
      ((contrEquiv1 dot_S5000x128_S128x64_S5000x64_1_0_0_1_n_n 128 rfl rfl).symm l) = ix2 l k := by
    funext a; refine Fin.ext ?_
    match a with
    | ⟨0, _⟩ => exact (first_rhs_0 _ _).trans (contrEquiv1_symm_val _ 128 rfl rfl l)
    | ⟨1, _⟩ => exact first_rhs_1 _ _
  rw [hL, hR]

/-! ## The second product: 5000 × 64 by 64 × 64, contracted over the first 64 -/

/-- The left operand's row coordinate is the result's row coordinate … -/
theorem second_lhs_0 (j : S5000x64.Idx) (q : dot_S5000x64_S64x64_S5000x64_1_0_0_1_n_n.contr.Idx) :
    (dot_S5000x64_S64x64_S5000x64_1_0_0_1_n_n.lhsIdx j q 0).val = (j 0).val := rfl
/-- … its column coordinate the contracted one … -/
theorem second_lhs_1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  DotDims.lhsIdx_val_of_single _ rfl j q
/-- … the right operand's row coordinate the contracted one … -/
theorem second_rhs_0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  DotDims.rhsIdx_val_of_single _ rfl j q
/-- … and its column coordinate the result's column coordinate. -/
theorem second_rhs_1 (j : S5000x64.Idx) (q : dot_S5000x64_S64x64_S5000x64_1_0_0_1_n_n.contr.Idx) :
    (dot_S5000x64_S64x64_S5000x64_1_0_0_1_n_n.rhsIdx j q 1).val = (j 1).val := rfl

/-- Into the zero accumulator the second product at (r, j) is the sum over k of A r k · B k j. -/
theorem second_matmul_apply {φ₁ φ₂ : FTy} (A : FVec Ideal S5000x64 φ₁) (B : FVec Ideal S64x64 φ₂)
    (r : Fin 5000) (j : Fin 64) :
    matmul dot_S5000x64_S64x64_S5000x64_1_0_0_1_n_n none A B (constant (F := Ideal) S5000x64 .f32 0x00000000#32) (ix2 r j)
      = ∑ k : Fin 64, A (ix2 r k) * B (ix2 k j) := by
  refine (Ideal.matmul_constant_zero_apply dot_S5000x64_S64x64_S5000x64_1_0_0_1_n_n none A B (ix2 r j)).trans ?_
  rw [← Equiv.sum_comp (contrEquiv1 dot_S5000x64_S64x64_S5000x64_1_0_0_1_n_n 64 rfl rfl).symm]
  refine Finset.sum_congr rfl fun k _ => ?_
  have hL : dot_S5000x64_S64x64_S5000x64_1_0_0_1_n_n.lhsIdx (ix2 r j)
      ((contrEquiv1 dot_S5000x64_S64x64_S5000x64_1_0_0_1_n_n 64 rfl rfl).symm k) = ix2 r k := by
    funext a; refine Fin.ext ?_
    match a with
    | ⟨0, _⟩ => exact second_lhs_0 _ _
    | ⟨1, _⟩ => exact (second_lhs_1 _ _).trans (contrEquiv1_symm_val _ 64 rfl rfl k)
  have hR : dot_S5000x64_S64x64_S5000x64_1_0_0_1_n_n.rhsIdx (ix2 r j)
      ((contrEquiv1 dot_S5000x64_S64x64_S5000x64_1_0_0_1_n_n 64 rfl rfl).symm k) = ix2 k j := by
    funext a; refine Fin.ext ?_
    match a with
    | ⟨0, _⟩ => exact (second_rhs_0 _ _).trans (contrEquiv1_symm_val _ 64 rfl rfl k)
    | ⟨1, _⟩ => exact second_rhs_1 _ _
  rw [hL, hR]

/-! ## The sum over a tile's rows, and the cast that gives it back its unit row coordinate -/

/-- The row sum of a 5000 × 64 tile, cast to one row of 64, at column j: the sum over the 5000 rows. -/
theorem colsum_S5000x64_apply (X : FVec Ideal S5000x64 .f32) (hφ : FKind.Formats .f32)
    (hacc : (0x00000000#32 : BitVec 32) = 0x00000000#32) (u : Fin 1) (j : Fin 64) :
    shapeCast S1x64 (multiReduction (F := Ideal) .add [0] S64 X 0x00000000#32 reduces_S5000x64_S64 hφ hacc)
        shapeCasts_S64_S1x64 (ix2 u j)
      = ∑ r : Fin 5000, X (ix2 r j) := by
  refine (shapeCast_a_1a_apply _ shapeCasts_S64_S1x64 u j).trans ?_
  refine (Ideal.multiReduction_add_single X 0x00000000#32 reduces_S5000x64_S64 hφ hacc (ix1 j)).trans ?_
  refine Finset.sum_congr rfl fun r _ => congrArg X ?_
  funext a; refine Fin.ext ?_
  match a with
  | ⟨0, _⟩ => rfl
  | ⟨1, _⟩ => rfl

/-! ## The named terms at an index -/

/-- The tile's value at row r and column j. -/
theorem pay4_apply (v0 v1 : Vec Ideal S5000x128 .f32) (v5 : Vec Ideal S128x64 .f32) (v8 : Vec Ideal S1x64 .f32)
    (v15 : Vec Ideal S64x64 .f32) (v18 : Vec Ideal S1x64 .f32) (r : Fin 5000) (j : Fin 64) :
    k0_pay4 (F := Ideal) v0 v1 v5 v8 v15 v18 (ix2 r j)
      = (∑ k : Fin 64, max ((∑ l : Fin 128, (v0 (ix2 r l) + v1 (ix2 r l)) * v5 (ix2 l k)) + v8 (ix2 0 k))
            (Ideal.ofBits .f32 0x00000000#32) * v15 (ix2 k j)) + v18 (ix2 0 j) := by
  unfold k0_pay4
  simp only [addf_apply, maximumf_apply, truncf_apply, broadcast_apply, shapeCast_self, broadcastTo_1b_ab_apply,
    second_matmul_apply, first_matmul_apply]
  rfl

/-- The running column total after one more tile, at column j: the carried total plus the tile's column sum. -/
theorem pay7_apply (v0 v1 : Vec Ideal S5000x128 .f32) (v5 : Vec Ideal S128x64 .f32) (v8 : Vec Ideal S1x64 .f32)
    (v15 : Vec Ideal S64x64 .f32) (v18 : Vec Ideal S1x64 .f32) (v26 : Vec Ideal S1x64 .f32) (j : Fin 64) :
    k0_pay7 (F := Ideal) v0 v1 v5 v8 v15 v18 v26 (ix2 0 j)
      = v26 (ix2 0 j) + (Ideal.ofBits .f32 0x00000000#32 + ∑ r : Fin 5000, k0_pay4 (F := Ideal) v0 v1 v5 v8 v15 v18 (ix2 r j)) := by
  unfold k0_pay7
  simp only [addf_apply, shapeCast_self]
  refine congrArg (v26 (ix2 0 j) + ·) ?_
  refine (colsum_S5000x64_apply _ _ _ 0 j).trans ?_
  simp only [Ideal.ofBits_zero_f32, zero_add]

/-- The running total of squares after one more tile, at column j. -/
theorem pay1_apply (v21 : Vec Ideal S5000x64 .f32) (v33 : Vec Ideal S1x64 .f32) (j : Fin 64) :
    k0_pay1 (F := Ideal) v21 v33 (ix2 0 j)
      = v33 (ix2 0 j) + (Ideal.ofBits .f32 0x00000000#32 + ∑ r : Fin 5000, v21 (ix2 r j) * v21 (ix2 r j)) := by
  unfold k0_pay1
  simp only [addf_apply, shapeCast_self]
  refine congrArg (v33 (ix2 0 j) + ·) ?_
  refine (colsum_S5000x64_apply _ _ _ 0 j).trans ?_
  simp only [mulf_apply, Ideal.ofBits_zero_f32, zero_add]

/-- The row the totals start from is zero at every column … -/
theorem pay5_apply (j : Fin 64) : k0_pay5 (F := Ideal) (ix2 0 j) = Ideal.ofBits .f32 0x00000000#32 := by
  unfold k0_pay5
  simp only [shapeCast_self, broadcast_apply]
  rfl

/-- … and so is the one the totals of squares start from. -/
theorem pay6_apply (j : Fin 64) : k0_pay6 (F := Ideal) (ix2 0 j) = Ideal.ofBits .f32 0x00000000#32 := by
  unfold k0_pay6
  simp only [shapeCast_self, broadcast_apply]
  rfl

/-- The constant the totals are scaled by is the rational 1/50000. -/
theorem inv_n : Named.named (F := Ideal) Cert.KernelIdeal.κ "inv_50000" (φ := .f32) 0x37A7C5AC#32 = ((1 / 50000 : ℝ) : EReal) :=
  IdealRules.named_const.ideal_named_scalar _ _ _ _ rfl

/-- The mean at column j: the total times 1/50000. -/
theorem pay2_apply (v44 : Vec Ideal S1x64 .f32) (j : Fin 64) :
    k0_pay2 (F := Ideal) v44 (ix2 0 j) = v44 (ix2 0 j) * ((1 / 50000 : ℝ) : EReal) := by
  unfold k0_pay2
  simp only [mulf_apply, broadcast_apply, inv_n]

/-- The variance at column j: the total of squares times 1/50000, less the mean's square. -/
theorem pay3_apply (v44 v47 : Vec Ideal S1x64 .f32) (j : Fin 64) :
    k0_pay3 (F := Ideal) v44 v47 (ix2 0 j)
      = v47 (ix2 0 j) * ((1 / 50000 : ℝ) : EReal)
        - (v44 (ix2 0 j) * ((1 / 50000 : ℝ) : EReal)) * (v44 (ix2 0 j) * ((1 / 50000 : ℝ) : EReal)) := by
  unfold k0_pay3
  simp only [subf_apply, mulf_apply, broadcast_apply, inv_n, pay2_apply]

end Reg0

end Cert.KernelIdeal.HandVal

end
-- ==== Proof.KernelIdeal.Mlp0Inv.lean ====
/-
  The first statistics pass: its three output arrays in closed form, on the extended reals.

  Ten tiles of 5000 rows are walked. Each writes its block of the linear activations, so the
  activations array ends as ONE function of the argument arrays, the specification's preNorm, row by
  row. The two running rows start from zero and take one tile's column sums (of z, of z · z) a
  step; after the tenth they hold, by the regrouping of a sum over 50000 rows into ten of 5000,
  the column sums over all rows, and the mean and variance formed from them on the last tile are,
  by the variance identity for real entries, the direct mean and the direct variance of the column.
-/
import proofs.«144771_j36481452212846_1_alg».proof.Proof.KernelIdeal.Mlp0Piece
import proofs.«144771_j36481452212846_1_alg».proof.Proof.KernelIdeal.Pay0Idx
import proofs.«144771_j36481452212846_1_alg».proof.Proof.KernelIdeal.Zlin
import Idealize.ShloMosaic.Lib.Pipeline.Value
import Idealize.ShloMosaic.Lib.Tactic
import Idealize.ShloMosaic.Lib.ValueIdx

-- the blocks' rectangles of 5000 rows are compared one coordinate at a time
set_option maxRecDepth 16384

noncomputable section

open scoped BigOperators

namespace Cert.KernelIdeal.HandVal.Reg0

open Cert.KernelIdeal Cert.KernelIdeal.Gen Cert.KernelIdeal.Hand Cert.KernelIdeal.HandVal
open Idealize.ShloMosaic Idealize.ShloMosaic.TcCoe Idealize.ShloMosaic.Tactic Idealize.ShloMosaic.ValueIdx Idealize.SL.Sem
open Idealize.ShloMosaic.Pipeline (Dat)
open Cert.Math

/-! ## Arrays and blocks at their literal types -/

variable (V : (c : Dev nD) → (b : Ref sig .tc) → Buf (Elt Ideal) ((c : Thread nD τ).loc b))

/-- The six argument arrays of the pass, as it finds them. -/
abbrev X0 (c : Dev nD) : Vec Ideal S50000x128 .f32 := V c (Pipeline.arrRef spec0 0)
abbrev X1 (c : Dev nD) : Vec Ideal S50000x128 .f32 := V c (Pipeline.arrRef spec0 1)
abbrev X2 (c : Dev nD) : Vec Ideal S128x64 .f32 := V c (Pipeline.arrRef spec0 2)
abbrev X3 (c : Dev nD) : Vec Ideal S1x64 .f32 := V c (Pipeline.arrRef spec0 3)
abbrev X4 (c : Dev nD) : Vec Ideal S64x64 .f32 := V c (Pipeline.arrRef spec0 4)
abbrev X5 (c : Dev nD) : Vec Ideal S1x64 .f32 := V c (Pipeline.arrRef spec0 5)

/-- The linear activations of the whole graph, from those arrays. -/
abbrev zlin0 (c : Dev nD) : Vec Ideal S50000x64 .f32 := zlin (X0 V c) (X1 V c) (X2 V c) (X3 V c) (X4 V c) (X5 V c)

/-- The six blocks tile t reads. -/
abbrev B0 (c : Dev nD) (t : Fin cfg0.N) : Vec Ideal S5000x128 .f32 := iblk0 V c 0 t
abbrev B1 (c : Dev nD) (t : Fin cfg0.N) : Vec Ideal S5000x128 .f32 := iblk0 V c 1 t
abbrev B2 (c : Dev nD) (t : Fin cfg0.N) : Vec Ideal S128x64 .f32 := iblk0 V c 2 t
abbrev B3 (c : Dev nD) (t : Fin cfg0.N) : Vec Ideal S1x64 .f32 := iblk0 V c 3 t
abbrev B4 (c : Dev nD) (t : Fin cfg0.N) : Vec Ideal S64x64 .f32 := iblk0 V c 4 t
abbrev B5 (c : Dev nD) (t : Fin cfg0.N) : Vec Ideal S1x64 .f32 := iblk0 V c 5 t

/-- Tile t's linear activations. -/
abbrev tile (c : Dev nD) (t : Fin cfg0.N) : FVec Ideal S5000x64 .f32 :=
  k0_pay4 (F := Ideal) (B0 V c t) (B1 V c t) (B2 V c t) (B3 V c t) (B4 V c t) (B5 V c t)

/-- The running row of column sums after tile n: the zero row plus tile 0's column sums, then one
    tile's column sums more at each step. -/
def sumAt (c : Dev nD) : (n : ℕ) → n < cfg0.N → Vec Ideal S1x64 .f32
  | 0, h => k0_pay7 (F := Ideal) (B0 V c ⟨0, h⟩) (B1 V c ⟨0, h⟩) (B2 V c ⟨0, h⟩) (B3 V c ⟨0, h⟩) (B4 V c ⟨0, h⟩) (B5 V c ⟨0, h⟩) (k0_pay5 (F := Ideal))
  | n + 1, h => k0_pay7 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩)
      (sumAt c n (Nat.lt_of_succ_lt h))

/-- The running row of column sums of squares after tile n, likewise. -/
def sqAt (c : Dev nD) : (n : ℕ) → n < cfg0.N → Vec Ideal S1x64 .f32
  | 0, h => k0_pay1 (F := Ideal) (tile V c ⟨0, h⟩) (k0_pay6 (F := Ideal))
  | n + 1, h => k0_pay1 (F := Ideal) (tile V c ⟨n + 1, h⟩) (sqAt c n (Nat.lt_of_succ_lt h))

/-! ## The record along the ten tiles -/

/-- After tile n the activations block holds tile n's activations and the two running rows hold
    the running sums: by induction on the tile, each tile's case read through its pieces. -/
theorem outsAt_eq (c : Dev nD) : ∀ (n : ℕ) (h : n < cfg0.N),
    (outsAt0 V c n h).1 = tile V c ⟨n, h⟩ ∧ (outsAt0 V c n h).2.2.2.1 = sumAt V c n h
      ∧ (outsAt0 V c n h).2.2.2.2 = sqAt V c n h
  | 0, h => by
    have h1 : ¬(⟨0, h⟩ : Fin cfg0.N).val % 10 = 9 := by show ¬(0 % 10 = 9); decide
    rw [outsAt0_A V c ⟨0, h⟩ rfl h1]
    dsimp only
    exact ⟨out0_A_6_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) scM0_1 (Memref.isWhole_whole _) ((hcond0_0 ⟨0, h⟩).mpr rfl) (fun hh => h1 ((hcond0_1 ⟨0, h⟩).mp hh)) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩),
      sout0_A_0_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) scM0_1 (Memref.isWhole_whole _) ((hcond0_0 ⟨0, h⟩).mpr rfl) (fun hh => h1 ((hcond0_1 ⟨0, h⟩).mp hh)) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩),
      sout0_A_1_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) scM0_1 (Memref.isWhole_whole _) ((hcond0_0 ⟨0, h⟩).mpr rfl) (fun hh => h1 ((hcond0_1 ⟨0, h⟩).mp hh)) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩)⟩
  | n + 1, h => by
    have hN : n + 1 < 10 := lt_of_lt_of_eq h (show cfg0.N = 10 from N_0)
    obtain ⟨-, ihS, ihQ⟩ := outsAt_eq c n (Nat.lt_of_succ_lt h)
    have h0 : ¬(⟨n + 1, h⟩ : Fin cfg0.N).val % 10 = 0 := by dsimp only; omega
    by_cases h1 : (⟨n + 1, h⟩ : Fin cfg0.N).val % 10 = 9
    · rw [outsAt0_C V c ⟨n + 1, h⟩ h0 h1]
      dsimp only
      refine ⟨out0_C_6_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.2.2.1 (outsAt0 V c n (Nat.lt_of_succ_lt h)).2.2.2.2, ?_, ?_⟩
      · refine (sout0_C_0_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.2.2.1 (outsAt0 V c n (Nat.lt_of_succ_lt h)).2.2.2.2).trans ?_
        exact congrArg (k0_pay7 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩)) ihS
      · refine (sout0_C_1_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.2.2.1 (outsAt0 V c n (Nat.lt_of_succ_lt h)).2.2.2.2).trans ?_
        exact congrArg (k0_pay1 (F := Ideal) (tile V c ⟨n + 1, h⟩)) ihQ
    · rw [outsAt0_B V c ⟨n + 1, h⟩ h0 h1]
      dsimp only
      refine ⟨out0_B_6_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.2.2.1 (outsAt0 V c n (Nat.lt_of_succ_lt h)).2.2.2.2, ?_, ?_⟩
      · refine (sout0_B_0_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.2.2.1 (outsAt0 V c n (Nat.lt_of_succ_lt h)).2.2.2.2).trans ?_
        exact congrArg (k0_pay7 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩)) ihS
      · refine (sout0_B_1_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.2.2.1 (outsAt0 V c n (Nat.lt_of_succ_lt h)).2.2.2.2).trans ?_
        exact congrArg (k0_pay1 (F := Ideal) (tile V c ⟨n + 1, h⟩)) ihQ

/-! ## Blocks read off the arrays -/

/-- A tile's number as a number below ten. -/
abbrev t10 (t : Fin cfg0.N) : Fin 10 := ⟨t.val, lt_of_lt_of_eq t.isLt (show cfg0.N = 10 from N_0)⟩

/-- Where the blocks sit, decided over the ten tiles: the two row-tiled inputs and the activations
    at block (t, 0); the weights, the biases, the mean and the variance at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row r of tile t's block of node features is row 5000 t + r of the array. -/
theorem B0_apply (c : Dev nD) (t : Fin cfg0.N) (r : Fin 5000) (l : Fin 128) :
    B0 V c t (ix2 r l) = X0 V c (ix2 (rowOf (t10 t) r) l) := by
  have e := idx0 t
  show ((cfg0.win 0).blk t).view.read (Elt Ideal) (V c (Pipeline.arrRef spec0 0)) (ix2 r l)
    = V c (Pipeline.arrRef spec0 0) (ix2 (rowOf (t10 t) r) l)
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * r.val = 5000 * t.val + r.val; rw [e.1]; omega
  | ⟨1, _⟩ => show win0_0.index t (1 : Fin 2) * 128 + 1 * l.val = l.val; rw [e.2.1]; omega

/-- The same for the aggregated messages. -/
theorem B1_apply (c : Dev nD) (t : Fin cfg0.N) (r : Fin 5000) (l : Fin 128) :
    B1 V c t (ix2 r l) = X1 V c (ix2 (rowOf (t10 t) r) l) := by
  have e := idx0 t
  show ((cfg0.win 1).blk t).view.read (Elt Ideal) (V c (Pipeline.arrRef spec0 1)) (ix2 r l)
    = V c (Pipeline.arrRef spec0 1) (ix2 (rowOf (t10 t) r) l)
  rw [View.read_apply]
  show V c (Pipeline.arrRef spec0 1) _ = V c (Pipeline.arrRef spec0 1) _
  congr 1
  funext a
  apply Fin.ext
  match a with
  | ⟨0, _⟩ => show win0_1.index t (0 : Fin 2) * 5000 + 1 * r.val = 5000 * t.val + r.val; rw [e.2.2.1]; omega
  | ⟨1, _⟩ => show win0_1.index t (1 : Fin 2) * 128 + 1 * l.val = l.val; rw [e.2.2.2.1]; omega

/-- The first weight matrix's block is the matrix, on every tile. -/
theorem B2_apply (c : Dev nD) (t : Fin cfg0.N) (r : Fin 128) (l : Fin 64) :
    B2 V c t (ix2 r l) = X2 V c (ix2 r l) := by
  have e := idx0 t
  show ((cfg0.win 2).blk t).view.read (Elt Ideal) (V c (Pipeline.arrRef spec0 2)) (ix2 r l)
    = V c (Pipeline.arrRef spec0 2) (ix2 r l)
  rw [View.read_apply]
  show V c (Pipeline.arrRef spec0 2) _ = V c (Pipeline.arrRef spec0 2) _
  congr 1
  funext a
  apply Fin.ext
  match a with
  | ⟨0, _⟩ => show win0_2.index t (0 : Fin 2) * 128 + 1 * r.val = r.val; rw [e.2.2.2.2.1]; omega
  | ⟨1, _⟩ => show win0_2.index t (1 : Fin 2) * 64 + 1 * l.val = l.val; rw [e.2.2.2.2.2.1]; omega

/-- The first bias row's block is the row. -/
theorem B3_apply (c : Dev nD) (t : Fin cfg0.N) (r : Fin 1) (l : Fin 64) :
    B3 V c t (ix2 r l) = X3 V c (ix2 r l) := by
  have e := idx0 t
  show ((cfg0.win 3).blk t).view.read (Elt Ideal) (V c (Pipeline.arrRef spec0 3)) (ix2 r l)
    = V c (Pipeline.arrRef spec0 3) (ix2 r l)
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * r.val = r.val; rw [e.2.2.2.2.2.2.1]; omega
  | ⟨1, _⟩ => show win0_3.index t (1 : Fin 2) * 64 + 1 * l.val = l.val; rw [e.2.2.2.2.2.2.2.1]; omega

/-- The second weight matrix's block is the matrix. -/
theorem B4_apply (c : Dev nD) (t : Fin cfg0.N) (r : Fin 64) (l : Fin 64) :
    B4 V c t (ix2 r l) = X4 V c (ix2 r l) := by
  have e := idx0 t
  show ((cfg0.win 4).blk t).view.read (Elt Ideal) (V c (Pipeline.arrRef spec0 4)) (ix2 r l)
    = V c (Pipeline.arrRef spec0 4) (ix2 r l)
  rw [View.read_apply]
  show V c (Pipeline.arrRef spec0 4) _ = V c (Pipeline.arrRef spec0 4) _
  congr 1
  funext a
  apply Fin.ext
  match a with
  | ⟨0, _⟩ => show win0_4.index t (0 : Fin 2) * 64 + 1 * r.val = r.val; rw [e.2.2.2.2.2.2.2.2.1]; omega
  | ⟨1, _⟩ => show win0_4.index t (1 : Fin 2) * 64 + 1 * l.val = l.val; rw [e.2.2.2.2.2.2.2.2.2.1]; omega

/-- The second bias row's block is the row. -/
theorem B5_apply (c : Dev nD) (t : Fin cfg0.N) (r : Fin 1) (l : Fin 64) :
    B5 V c t (ix2 r l) = X5 V c (ix2 r l) := by
  have e := idx0 t
  show ((cfg0.win 5).blk t).view.read (Elt Ideal) (V c (Pipeline.arrRef spec0 5)) (ix2 r l)
    = V c (Pipeline.arrRef spec0 5) (ix2 r l)
  rw [View.read_apply]
  show V c (Pipeline.arrRef spec0 5) _ = V c (Pipeline.arrRef spec0 5) _
  congr 1
  funext a
  apply Fin.ext
  match a with
  | ⟨0, _⟩ => show win0_5.index t (0 : Fin 2) * 1 + 1 * r.val = r.val; rw [e.2.2.2.2.2.2.2.2.2.2.1]; omega
  | ⟨1, _⟩ => show win0_5.index t (1 : Fin 2) * 64 + 1 * l.val = l.val; rw [e.2.2.2.2.2.2.2.2.2.2.2.1]; omega

/-- Tile t's activations at (r, j) are the whole graph's activations at row 5000 t + r. -/
theorem tile_apply (c : Dev nD) (t : Fin cfg0.N) (r : Fin 5000) (j : Fin 64) :
    tile V c t (ix2 r j) = zlin0 V c (ix2 (rowOf (t10 t) r) j) := by
  refine (pay4_apply (B0 V c t) (B1 V c t) (B2 V c t) (B3 V c t) (B4 V c t) (B5 V c t) r j).trans ?_
  refine Eq.trans ?_ (zlin_apply_sum (X0 V c) (X1 V c) (X2 V c) (X3 V c) (X4 V c) (X5 V c) (rowOf (t10 t) r) j).symm
  simp only [B0_apply, B1_apply, B2_apply, B3_apply, B4_apply, B5_apply]

/-! ## The running rows at a column -/

/-- Column j of the running row of sums after tile 0. -/
theorem sumAt_zero_apply (c : Dev nD) (h : 0 < cfg0.N) (j : Fin 64) :
    sumAt V c 0 h (ix2 0 j)
      = Ideal.ofBits .f32 0x00000000#32
        + (Ideal.ofBits .f32 0x00000000#32 + ∑ r : Fin 5000, tile V c ⟨0, h⟩ (ix2 r j)) :=
  (pay7_apply (B0 V c ⟨0, h⟩) (B1 V c ⟨0, h⟩) (B2 V c ⟨0, h⟩) (B3 V c ⟨0, h⟩) (B4 V c ⟨0, h⟩) (B5 V c ⟨0, h⟩)
    (k0_pay5 (F := Ideal)) j).trans (by rw [pay5_apply])

/-- … and after tile n + 1: what tile n left plus tile n + 1's column sum. -/
theorem sumAt_succ_apply (c : Dev nD) (n : ℕ) (h : n + 1 < cfg0.N) (j : Fin 64) :
    sumAt V c (n + 1) h (ix2 0 j)
      = sumAt V c n (Nat.lt_of_succ_lt h) (ix2 0 j)
        + (Ideal.ofBits .f32 0x00000000#32 + ∑ r : Fin 5000, tile V c ⟨n + 1, h⟩ (ix2 r j)) :=
  pay7_apply (B0 V c ⟨n + 1, h⟩) (B1 V c ⟨n + 1, h⟩) (B2 V c ⟨n + 1, h⟩) (B3 V c ⟨n + 1, h⟩) (B4 V c ⟨n + 1, h⟩)
    (B5 V c ⟨n + 1, h⟩) (sumAt V c n (Nat.lt_of_succ_lt h)) j

/-- Column j of the running row of sums of squares after tile 0. -/
theorem sqAt_zero_apply (c : Dev nD) (h : 0 < cfg0.N) (j : Fin 64) :
    sqAt V c 0 h (ix2 0 j)
      = Ideal.ofBits .f32 0x00000000#32
        + (Ideal.ofBits .f32 0x00000000#32
            + ∑ r : Fin 5000, tile V c ⟨0, h⟩ (ix2 r j) * tile V c ⟨0, h⟩ (ix2 r j)) :=
  (pay1_apply (tile V c ⟨0, h⟩) (k0_pay6 (F := Ideal)) j).trans (by rw [pay6_apply])

/-- … and after tile n + 1. -/
theorem sqAt_succ_apply (c : Dev nD) (n : ℕ) (h : n + 1 < cfg0.N) (j : Fin 64) :
    sqAt V c (n + 1) h (ix2 0 j)
      = sqAt V c n (Nat.lt_of_succ_lt h) (ix2 0 j)
        + (Ideal.ofBits .f32 0x00000000#32
            + ∑ r : Fin 5000, tile V c ⟨n + 1, h⟩ (ix2 r j) * tile V c ⟨n + 1, h⟩ (ix2 r j)) :=
  pay1_apply (tile V c ⟨n + 1, h⟩) (sqAt V c n (Nat.lt_of_succ_lt h)) j

/-! ## The running rows are the ten-tile totals of a column -/

section Column

variable (c : Dev nD) (j : Fin 64)

/-- Column j of the whole graph's activations. -/
abbrev col : Fin 50000 → EReal := fun R => zlin0 V c (ix2 R j)

/-- Tile t's column sum as the kernel forms it: from the zero word. -/
abbrev tsum (t : Fin 10) : EReal := Ideal.ofBits .f32 0x00000000#32 + ∑ r : Fin 5000, col V c j (rowOf t r)
/-- Tile t's column sum of squares, likewise. -/
abbrev tsq (t : Fin 10) : EReal :=
  Ideal.ofBits .f32 0x00000000#32 + ∑ r : Fin 5000, col V c j (rowOf t r) * col V c j (rowOf t r)

theorem tsum_eq (t : Fin 10) : tsum V c j t = ∑ r : Fin 5000, col V c j (rowOf t r) := by
  rw [tsum, Ideal.ofBits_zero_f32, zero_add]
theorem tsq_eq (t : Fin 10) : tsq V c j t = ∑ r : Fin 5000, col V c j (rowOf t r) * col V c j (rowOf t r) := by
  rw [tsq, Ideal.ofBits_zero_f32, zero_add]

/-- The running sum of column j after tile n (zero past the last tile). -/
def accS (n : ℕ) : EReal := if h : n < cfg0.N then sumAt V c n h (ix2 0 j) else 0
/-- The running sum of squares of column j after tile n. -/
def accQ (n : ℕ) : EReal := if h : n < cfg0.N then sqAt V c n h (ix2 0 j) else 0

theorem accS_zero : accS V c j 0 = Ideal.ofBits .f32 0x00000000#32 + tsum V c j 0 := by
  have h : 0 < cfg0.N := by rw [show cfg0.N = 10 from N_0]; decide
  rw [accS, dif_pos h, sumAt_zero_apply]
  simp only [tile_apply] <;> rfl

theorem accS_succ (n : ℕ) (h10 : n + 1 < 10) : accS V c j (n + 1) = accS V c j n + tsum V c j ⟨n + 1, h10⟩ := by
  have h : n + 1 < cfg0.N := by rw [show cfg0.N = 10 from N_0]; exact h10
  rw [accS, accS, dif_pos h, dif_pos (Nat.lt_of_succ_lt h), sumAt_succ_apply]
  simp only [tile_apply] <;> rfl

theorem accQ_zero : accQ V c j 0 = Ideal.ofBits .f32 0x00000000#32 + tsq V c j 0 := by
  have h : 0 < cfg0.N := by rw [show cfg0.N = 10 from N_0]; decide
  rw [accQ, dif_pos h, sqAt_zero_apply]
  simp only [tile_apply] <;> rfl

theorem accQ_succ (n : ℕ) (h10 : n + 1 < 10) : accQ V c j (n + 1) = accQ V c j n + tsq V c j ⟨n + 1, h10⟩ := by
  have h : n + 1 < cfg0.N := by rw [show cfg0.N = 10 from N_0]; exact h10
  rw [accQ, accQ, dif_pos h, dif_pos (Nat.lt_of_succ_lt h), sqAt_succ_apply]
  simp only [tile_apply] <;> rfl

/-- The mean the last tile forms is the direct mean of the column. -/
theorem mean_at9 (h : 9 < cfg0.N) :
    sumAt V c 9 h (ix2 0 j) * ((1 / 50000 : ℝ) : EReal) = meanDirect (col V c j) := by
  have e := mean_tiled_eq_direct (col V c j) rowOf rowOf_val (tsum V c j) (tsum_eq V c j) (accS V c j)
    (accS_zero V c j) (accS_succ V c j) ((1 / 50000 : ℝ) : EReal) rfl
  rwa [accS, dif_pos h] at e

/-- The variance the last tile forms is the direct variance of the column, when its entries are reals. -/
theorem var_at9 (h : 9 < cfg0.N) (hz : ∀ R, IsReal (col V c j R)) :
    sqAt V c 9 h (ix2 0 j) * ((1 / 50000 : ℝ) : EReal)
        - (sumAt V c 9 h (ix2 0 j) * ((1 / 50000 : ℝ) : EReal)) * (sumAt V c 9 h (ix2 0 j) * ((1 / 50000 : ℝ) : EReal))
      = varDirect (col V c j) := by
  have e := var_tiled_eq_direct (col V c j) rowOf rowOf_val hz (tsum V c j) (tsum_eq V c j) (accS V c j)
    (accS_zero V c j) (accS_succ V c j) (tsq V c j) (tsq_eq V c j) (accQ V c j) (accQ_zero V c j) (accQ_succ V c j)
    ((1 / 50000 : ℝ) : EReal) rfl
  rwa [accS, accQ, dif_pos h, dif_pos h] at e

end Column

/-! ## The three output arrays after the pass -/

/-- Every tile's block of activations has the full 5000 rows and 64 columns. -/
theorem xsize0_6 : ∀ t : Fin cfg0.N, win0_6.xsize (grid0.coords t) (0 : Fin 2) = 5000 ∧ win0_6.xsize (grid0.coords t) (1 : Fin 2) = 64 :=
  (by decide +kernel : ∀ t : Fin grid0.N, _)

/-- What tile t writes back of the activations is its block of the whole graph's activations. -/
theorem flushed0_6 (c : Dev nD) (t : Fin cfg0.N) (hf : (cfg0.win 6).flush t = true) :
    (dat0 V c).flushed 6 t = ((cfg0.win 6).blk t).view.read (Elt Ideal) (zlin0 V c) := by
  have e := idx0 t
  show (cfg0.win 6).cut (grid0.coords t) ((dat0 V c).after 6 t) = _
  rw [after0_6, (outsAt_eq V c t.val t.isLt).1]
  funext y
  obtain ⟨r, j, rfl⟩ : ∃ (r : Fin 5000) (j : Fin 64), y = ix2 r j := ⟨y 0, y 1, eq_ix2 y⟩
  show tile V c t (ix2 r j) = zlin0 V c (((cfg0.win 6).blk t).view.emb (ix2 r j))
  rw [tile_apply]
  congr 1
  funext a
  apply Fin.ext
  match a with
  | ⟨0, _⟩ => show 5000 * t.val + r.val = win0_6.index t (0 : Fin 2) * 5000 + 1 * r.val; rw [e.2.2.2.2.2.2.2.2.2.2.2.2.1]; omega
  | ⟨1, _⟩ => show j.val = win0_6.index t (1 : Fin 2) * 64 + 1 * j.val; rw [e.2.2.2.2.2.2.2.2.2.2.2.2.2.1]; omega

/-- THE ACTIVATIONS ARRAY after the pass: the whole graph's linear activations. Row R lies in the
    block of tile R / 5000. -/
theorem final6 (c : Dev nD) : (dat0 V c).arrAt 6 cfg0.N = zlin0 V c :=
  (dat0 V c).arrAt_eq_of_cover 6 (zlin0 V c) (flushed0_6 V c) fun i => by
    have hi0 : (i 0).val < 50000 := (i 0).isLt
    have hi1 : (i 1).val < 64 := (i 1).isLt
    have hN : cfg0.N = 10 := N_0
    have hq : (i 0).val / 5000 < cfg0.N := by rw [hN]; omega
    refine ⟨⟨(i 0).val / 5000, hq⟩, flush0_6 _, ?_⟩
    have e := idx0 ⟨(i 0).val / 5000, hq⟩
    have x := xsize0_6 ⟨(i 0).val / 5000, hq⟩
    show i ∈ ((View.whole main_v14_0).slice (win0_6.rect ⟨(i 0).val / 5000, hq⟩)).set
    rw [View.set_slice_whole, Rect.mem_set_unit]
    intro a
    match a with
    | ⟨0, _⟩ =>
      show win0_6.index ⟨(i 0).val / 5000, hq⟩ (0 : Fin 2) * win0_6.size (0 : Fin 2) ≤ (i 0 : Nat)
        ∧ (i 0 : Nat) < win0_6.index ⟨(i 0).val / 5000, hq⟩ (0 : Fin 2) * win0_6.size (0 : Fin 2) + win0_6.xsize (grid0.coords ⟨(i 0).val / 5000, hq⟩) (0 : Fin 2)
      rw [e.2.2.2.2.2.2.2.2.2.2.2.2.1, x.1, show win0_6.size (0 : Fin 2) = 5000 from rfl]
      dsimp only
      omega
    | ⟨1, _⟩ =>
      show win0_6.index ⟨(i 0).val / 5000, hq⟩ (1 : Fin 2) * win0_6.size (1 : Fin 2) ≤ (i 1 : Nat)
        ∧ (i 1 : Nat) < win0_6.index ⟨(i 0).val / 5000, hq⟩ (1 : Fin 2) * win0_6.size (1 : Fin 2) + win0_6.xsize (grid0.coords ⟨(i 0).val / 5000, hq⟩) (1 : Fin 2)
      rw [e.2.2.2.2.2.2.2.2.2.2.2.2.2.1, x.2, show win0_6.size (1 : Fin 2) = 64 from rfl]
      omega

/-- The one tile that writes the mean and the variance back is the last. -/
theorem t_eq_nine (t : Fin cfg0.N) (h : t.val % 10 = 9) : t.val = 9 := by
  have := lt_of_lt_of_eq t.isLt (show cfg0.N = 10 from N_0); omega

/-- On the last tile the mean block holds the updated running row of sums times 1/50000, and the
    variance block the updated sums of squares times 1/50000 less that mean's square. -/
theorem outs78_eq (c : Dev nD) (n : ℕ) (h : n + 1 < cfg0.N) (h1 : (⟨n + 1, h⟩ : Fin cfg0.N).val % 10 = 9) :
    (outsAt0 V c (n + 1) h).2.1 = k0_pay2 (F := Ideal) (sumAt V c (n + 1) h)
      ∧ (outsAt0 V c (n + 1) h).2.2.1 = k0_pay3 (F := Ideal) (sumAt V c (n + 1) h) (sqAt V c (n + 1) h) := by
  have hN : n + 1 < 10 := lt_of_lt_of_eq h (show cfg0.N = 10 from N_0)
  obtain ⟨-, ihS, ihQ⟩ := outsAt_eq V c n (Nat.lt_of_succ_lt h)
  have h0 : ¬(⟨n + 1, h⟩ : Fin cfg0.N).val % 10 = 0 := by dsimp only; omega
  rw [outsAt0_C V c ⟨n + 1, h⟩ h0 h1]
  dsimp only
  refine ⟨?_, ?_⟩
  · refine (out0_C_7_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.2.2.1 (outsAt0 V c n (Nat.lt_of_succ_lt h)).2.2.2.2).trans ?_
    exact congrArg (fun s => k0_pay2 (F := Ideal) (k0_pay7 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩) s)) ihS
  · refine (out0_C_8_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.2.2.1 (outsAt0 V c n (Nat.lt_of_succ_lt h)).2.2.2.2).trans ?_
    exact congrArg₂ (fun s q => k0_pay3 (F := Ideal) (k0_pay7 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩) s) (k0_pay1 (F := Ideal) (tile V c ⟨n + 1, h⟩) q)) ihS ihQ

/-- After the tenth tile: the mean block … -/
theorem out7_at9 (c : Dev nD) (h : 9 < cfg0.N) :
    (outsAt0 V c 9 h).2.1 = k0_pay2 (F := Ideal) (sumAt V c 9 h) :=
  (outs78_eq V c 8 h rfl).1

/-- … and the variance block. -/
theorem out8_at9 (c : Dev nD) (h : 9 < cfg0.N) :
    (outsAt0 V c 9 h).2.2.1 = k0_pay3 (F := Ideal) (sumAt V c 9 h) (sqAt V c 9 h) :=
  (outs78_eq V c 8 h rfl).2

end Cert.KernelIdeal.HandVal.Reg0

end
-- ==== Proof.KernelIdeal.Mlp0Val.lean ====
/-
  The first statistics pass: the mean and the variance arrays it leaves, on the extended reals.

  Both are one row of 64 columns, stored on the last tile only and written back once. The last
  tile forms them from the two running rows, which by then hold the column sums of the linear
  activations and of their squares over all 50000 rows; so column j of the mean array is the direct
  mean of column j of the activations, and, the activations being reals, column j of the variance
  array is the direct variance of that column.
-/
import proofs.«144771_j36481452212846_1_alg».proof.Proof.KernelIdeal.Mlp0Inv
import Idealize.ShloMosaic.Lib.Pipeline.Value
import Idealize.ShloMosaic.Lib.Tactic
import Idealize.ShloMosaic.Lib.ValueIdx

-- the blocks' rectangles of 5000 rows are compared one coordinate at a time
set_option maxRecDepth 16384

noncomputable section

open scoped BigOperators

namespace Cert.KernelIdeal.HandVal.Reg0

open Cert.KernelIdeal Cert.KernelIdeal.Gen Cert.KernelIdeal.Hand Cert.KernelIdeal.HandVal
open Idealize.ShloMosaic Idealize.ShloMosaic.TcCoe Idealize.ShloMosaic.Tactic Idealize.ShloMosaic.ValueIdx Idealize.SL.Sem
open Idealize.ShloMosaic.Pipeline (Dat)
open Cert.Math

variable (V : (c : Dev nD) → (b : Ref sig .tc) → Buf (Elt Ideal) ((c : Thread nD τ).loc b))

/-- The mean array the pass leaves: every column's direct mean. -/
abbrev meanArr (c : Dev nD) : Vec Ideal S1x64 .f32 := fun i => meanDirect (col V c (i 1))
/-- The variance array the pass leaves: every column's direct variance. -/
abbrev varArr (c : Dev nD) : Vec Ideal S1x64 .f32 := fun i => varDirect (col V c (i 1))

/-- What the last tile writes back of the mean is the mean array: its one block is the array. -/
theorem flushed0_7 (c : Dev nD) (t : Fin cfg0.N) (hf : (cfg0.win 7).flush t = true) :
    (dat0 V c).flushed 7 t = ((cfg0.win 7).blk t).view.read (Elt Ideal) (meanArr V c) := by
  have e := idx0 t
  have h9 : t.val = 9 := t_eq_nine t ((flush0_7 t).mp hf)
  obtain ⟨n, hn⟩ := t
  dsimp only at h9
  subst h9
  show (cfg0.win 7).cut (grid0.coords ⟨9, hn⟩) ((dat0 V c).after 7 ⟨9, hn⟩) = _
  rw [after0_7, out7_at9 V c hn]
  funext y
  obtain ⟨u, j, rfl⟩ : ∃ (u : Fin 1) (j : Fin 64), y = ix2 u j := ⟨y 0, y 1, eq_ix2 y⟩
  obtain rfl : u = 0 := Subsingleton.elim _ _
  have hemb : ((cfg0.win 7).blk ⟨9, hn⟩).view.emb (ix2 (0 : Fin 1) j) = ix2 (0 : Fin 1) j := by
    funext a
    apply Fin.ext
    match a with
    | ⟨0, _⟩ => show win0_7.index ⟨9, hn⟩ (0 : Fin 2) * 1 + 1 * 0 = 0; rw [e.2.2.2.2.2.2.2.2.2.2.2.2.2.2.1]
    | ⟨1, _⟩ => show win0_7.index ⟨9, hn⟩ (1 : Fin 2) * 64 + 1 * j.val = j.val; rw [e.2.2.2.2.2.2.2.2.2.2.2.2.2.2.2.1]; omega
  show k0_pay2 (F := Ideal) (sumAt V c 9 hn) (ix2 0 j) = meanArr V c (((cfg0.win 7).blk ⟨9, hn⟩).view.emb (ix2 (0 : Fin 1) j))
  rw [hemb, pay2_apply]
  exact mean_at9 V c j hn

/-- The same for the variance, when the activations are reals. -/
theorem flushed0_8 (c : Dev nD) (hz : ∀ R j, IsReal (zlin0 V c (ix2 R j))) (t : Fin cfg0.N) (hf : (cfg0.win 8).flush t = true) :
    (dat0 V c).flushed 8 t = ((cfg0.win 8).blk t).view.read (Elt Ideal) (varArr V c) := by
  have e := idx0 t
  have h9 : t.val = 9 := t_eq_nine t ((flush0_8 t).mp hf)
  obtain ⟨n, hn⟩ := t
  dsimp only at h9
  subst h9
  show (cfg0.win 8).cut (grid0.coords ⟨9, hn⟩) ((dat0 V c).after 8 ⟨9, hn⟩) = _
  rw [after0_8, out8_at9 V c hn]
  funext y
  obtain ⟨u, j, rfl⟩ : ∃ (u : Fin 1) (j : Fin 64), y = ix2 u j := ⟨y 0, y 1, eq_ix2 y⟩
  obtain rfl : u = 0 := Subsingleton.elim _ _
  have hemb : ((cfg0.win 8).blk ⟨9, hn⟩).view.emb (ix2 (0 : Fin 1) j) = ix2 (0 : Fin 1) j := by
    funext a
    apply Fin.ext
    match a with
    | ⟨0, _⟩ => show win0_8.index ⟨9, hn⟩ (0 : Fin 2) * 1 + 1 * 0 = 0; rw [e.2.2.2.2.2.2.2.2.2.2.2.2.2.2.2.2.1]
    | ⟨1, _⟩ => show win0_8.index ⟨9, hn⟩ (1 : Fin 2) * 64 + 1 * j.val = j.val; rw [e.2.2.2.2.2.2.2.2.2.2.2.2.2.2.2.2.2]; omega
  show k0_pay3 (F := Ideal) (sumAt V c 9 hn) (sqAt V c 9 hn) (ix2 0 j) = varArr V c (((cfg0.win 8).blk ⟨9, hn⟩).view.emb (ix2 (0 : Fin 1) j))
  rw [hemb, pay3_apply]
  exact var_at9 V c j hn fun R => hz R j

/-- The last tile's block of a one-row array is the array: every index lies in it. -/
theorem cover0_7 (i : S1x64.Idx) : ∃ t : Fin cfg0.N, (cfg0.win 7).flush t = true ∧ i ∈ ((cfg0.win 7).blk t).view.set :=
  ⟨t0_9, (flush0_7 t0_9).mpr rfl, by
    show i ∈ ((View.whole main_v14_1).slice (win0_7.rect t0_9)).set
    rw [View.set_slice_whole, Rect.mem_set_unit]
    intro a
    have h0 : (i 0 : Nat) < 1 := (i 0).isLt
    have h1 : (i 1 : Nat) < 64 := (i 1).isLt
    match a with
    | ⟨0, _⟩ => show win0_7.index t0_9 0 * win0_7.size 0 ≤ (i 0 : Nat) ∧ (i 0 : Nat) < win0_7.index t0_9 0 * win0_7.size 0 + win0_7.xsize (grid0.coords t0_9) 0
                rw [show win0_7.index t0_9 0 * win0_7.size 0 = 0 from by decide +kernel, show win0_7.xsize (grid0.coords t0_9) 0 = 1 from by decide +kernel]; omega
    | ⟨1, _⟩ => show win0_7.index t0_9 1 * win0_7.size 1 ≤ (i 1 : Nat) ∧ (i 1 : Nat) < win0_7.index t0_9 1 * win0_7.size 1 + win0_7.xsize (grid0.coords t0_9) 1
                rw [show win0_7.index t0_9 1 * win0_7.size 1 = 0 from by decide +kernel, show win0_7.xsize (grid0.coords t0_9) 1 = 64 from by decide +kernel]; omega⟩

theorem cover0_8 (i : S1x64.Idx) : ∃ t : Fin cfg0.N, (cfg0.win 8).flush t = true ∧ i ∈ ((cfg0.win 8).blk t).view.set :=
  ⟨t0_9, (flush0_8 t0_9).mpr rfl, by
    show i ∈ ((View.whole main_v14_2).slice (win0_8.rect t0_9)).set
    rw [View.set_slice_whole, Rect.mem_set_unit]
    intro a
    have h0 : (i 0 : Nat) < 1 := (i 0).isLt
    have h1 : (i 1 : Nat) < 64 := (i 1).isLt
    match a with
    | ⟨0, _⟩ => show win0_8.index t0_9 0 * win0_8.size 0 ≤ (i 0 : Nat) ∧ (i 0 : Nat) < win0_8.index t0_9 0 * win0_8.size 0 + win0_8.xsize (grid0.coords t0_9) 0
                rw [show win0_8.index t0_9 0 * win0_8.size 0 = 0 from by decide +kernel, show win0_8.xsize (grid0.coords t0_9) 0 = 1 from by decide +kernel]; omega
    | ⟨1, _⟩ => show win0_8.index t0_9 1 * win0_8.size 1 ≤ (i 1 : Nat) ∧ (i 1 : Nat) < win0_8.index t0_9 1 * win0_8.size 1 + win0_8.xsize (grid0.coords t0_9) 1
                rw [show win0_8.index t0_9 1 * win0_8.size 1 = 0 from by decide +kernel, show win0_8.xsize (grid0.coords t0_9) 1 = 64 from by decide +kernel]; omega⟩

/-- THE MEAN ARRAY after the pass. -/
theorem final7_arr (c : Dev nD) : (dat0 V c).arrAt 7 cfg0.N = meanArr V c :=
  (dat0 V c).arrAt_eq_of_cover 7 (meanArr V c) (flushed0_7 V c) cover0_7

/-- … at column j: the direct mean of column j of the activations. -/
theorem final7 (c : Dev nD) (j : Fin 64) :
    (dat0 V c).arrAt 7 cfg0.N (ix2 0 j) = meanDirect (fun i : Fin 50000 => zlin0 V c (ix2 i j)) :=
  congrFun (final7_arr V c) (ix2 0 j)

/-- THE VARIANCE ARRAY after the pass, when the activations are reals. -/
theorem final8_arr (c : Dev nD) (hz : ∀ R j, IsReal (zlin0 V c (ix2 R j))) : (dat0 V c).arrAt 8 cfg0.N = varArr V c :=
  (dat0 V c).arrAt_eq_of_cover 8 (varArr V c) (flushed0_8 V c hz) cover0_8

/-- … at column j: the direct variance of column j of the activations. -/
theorem final8 (c : Dev nD) (hz : ∀ R j, IsReal (zlin0 V c (ix2 R j))) (j : Fin 64) :
    (dat0 V c).arrAt 8 cfg0.N (ix2 0 j) = varDirect (fun i : Fin 50000 => zlin0 V c (ix2 i j)) :=
  congrFun (final8_arr V c hz) (ix2 0 j)

end Cert.KernelIdeal.HandVal.Reg0

end
-- ==== Proof.Math.Agg.lean ====
/-
  The neighbour aggregation of one graph layer, stated once as a pure function of the node
  features and the two edge lists, at the ideal (extended-real) values.

  For node features `h : [50000, w]`, edge sources `src : [800000]` and edge targets
  `dst : [800000]` the aggregate is  agg[v, c] = Σ_{e : dst[e] = v} h[src[e], c] :  every edge
  carries its source row to its target row, and rows arriving at one node are added.  It is written
  here as one fixed composition of elementary array operations, so that two programs that apply
  these operations to the same arrays mean literally this term:

    1. a negative source index counts from the end:  src' = if src < 0 then src + 50000 else src;
    2. src' becomes a column of one-element index vectors, and row src'[e] of h is taken for
       every edge e (a gather of whole rows, indices clamped into the table);
    3. dst becomes such a column too, and the taken rows are added into an all-zero
       [50000, w] table at rows dst[e] (a scatter with an additive body; a target outside the
       table contributes nothing).

  The shape relations those operations ask for (a scalar broadcasts to the edge list and to the
  node table, the edge list to a one-column matrix, the take and the add have well-formed dimension
  numbers) are statements about literal shapes; they are collected in a `Prop`-valued class, so
  that whoever owns proofs of them supplies an instance, and any two instances give the same term.
-/
import Idealize.ShloMosaic.PureOps.Ideal
import Idealize.ShloMosaic.PureOps.Ideal.Laws

noncomputable section

namespace Cert.Math

open Idealize.ShloMosaic

/-! ## Shapes -/

/-- A scalar. -/
abbrev Sc : Shape := ⟨0, ![]⟩
/-- One entry per edge. -/
abbrev SE : Shape := ⟨1, ![800000]⟩
/-- One one-element index vector per edge. -/
abbrev SE1 : Shape := ⟨2, ![800000, 1]⟩
/-- The node table: 50000 rows of `w` features. -/
abbrev SN (w : ℕ) : Shape := ⟨2, ![50000, w]⟩
/-- One row of `w` features per edge. -/
abbrev SEw (w : ℕ) : Shape := ⟨2, ![800000, w]⟩

/-! ## The shape relations the operations ask for -/

/-- The five relations between the literal shapes above that the aggregation's operations take as
    evidence. All are propositions, so the aggregate does not depend on which proofs are given. -/
class AggFacts (w : ℕ) : Prop where
  /-- a scalar fills the edge list -/
  scalar_to_edges : Sc.BroadcastsInDim SE (![] : Fin 0 → Fin SE.rank)
  /-- the edge list is the first axis of the one-column index matrix -/
  edges_to_column : SE.BroadcastsInDim SE1 (![0] : Fin 1 → Fin SE1.rank)
  /-- a scalar fills the node table -/
  scalar_to_nodes : Sc.BroadcastsInDim (SN w) (![] : Fin 0 → Fin (SN w).rank)
  /-- taking whole rows of the node table, one per index vector -/
  take_wf : GatherDims.WF (SN w) SE1 (SEw w) [1] [0] [] [0] [] 1 ![1, w]
  /-- adding whole rows into the node table, one per index vector -/
  add_wf : ScatterDims.WF (SN w) SE1 (SEw w) [1] [0] [0] 1

variable (w : ℕ) [AggFacts w]

/-- Row-taking: the result's axis 1 is the row's offset, the table's axis 0 is indexed (and
    collapsed) by the one-element index vector on the index matrix's axis 1, slices are `1 × w`. -/
def takeRows : GatherDims (SN w) SE1 (SEw w) where
  offsetDims := [1]
  collapsedSliceDims := [0]
  operandBatchingDims := []
  startIndicesBatchingDims := []
  startIndexMap := [0]
  indexVectorDim := 1
  sliceSizes := ![1, w]
  wf := AggFacts.take_wf

/-- Row-adding: the update's axis 1 is the window (a whole row), the table's axis 0 is the
    inserted one, addressed by the one-element index vector on the index matrix's axis 1. -/
def addRows : ScatterDims (SN w) SE1 (SEw w) where
  updateWindowDims := [1]
  insertedWindowDims := [0]
  scatterDimsToOperandDims := [0]
  indexVectorDim := 1
  wf := AggFacts.add_wf

/-! ## The aggregate -/

/-- `agg w h src dst` : the sum, into each node's row, of the rows of `h` at the sources of the edges
    that point at that node — as the composition of array operations described at the head of this
    file, innermost first: wrap negative sources, make them a column, take rows, and add them into
    zeros at the column of targets. -/
def agg (h : FVec Ideal (SN w) .f32) (src dst : IVec SE 32) : FVec Ideal (SN w) .f32 :=
  Host.scatterAdd (F := Ideal) (addRows w)
    (broadcastInDim (SN w) ![] (AggFacts.scalar_to_nodes (w := w)) (constant (F := Ideal) Sc .f32 0x00000000#32))
    (broadcastInDim SE1 ![0] (AggFacts.edges_to_column (w := w)) dst)
    (Host.gather (takeRows w) h
      (broadcastInDim SE1 ![0] (AggFacts.edges_to_column (w := w))
        (select
          (cmpi .slt src (broadcastInDim SE ![] (AggFacts.scalar_to_edges (w := w)) (constantI Sc 32 0#32)))
          (addi src (broadcastInDim SE ![] (AggFacts.scalar_to_edges (w := w)) (constantI Sc 32 50000#32)))
          src)))

/-- The aggregate over 128 features (the first layer's input width). -/
abbrev agg128 [AggFacts 128] (h : FVec Ideal (SN 128) .f32) (src dst : IVec SE 32) : FVec Ideal (SN 128) .f32 :=
  agg 128 h src dst

/-- The aggregate over 64 features (every later layer's input width). -/
abbrev agg64 [AggFacts 64] (h : FVec Ideal (SN 64) .f32) (src dst : IVec SE 32) : FVec Ideal (SN 64) .f32 :=
  agg 64 h src dst

/-! ## The aggregate of real features is real

Each entry of the aggregate is `0` plus a finite sum of entries of `h` (those of the rows taken for
the edges that land on this node); a finite sum of reals is a real, so no infinity can appear. -/

/-- A finite sum of extended reals each of which is a real number is a real number. -/
theorem sum_real {ι : Type} (s : Finset ι) (f : ι → EReal) (hf : ∀ j ∈ s, ∃ r : ℝ, f j = (r : EReal)) :
    ∃ r : ℝ, ∑ j ∈ s, f j = (r : EReal) :=
  Finset.sum_induction f (fun x => ∃ r : ℝ, x = (r : EReal))
    (by rintro _ _ ⟨a, rfl⟩ ⟨b, rfl⟩; exact ⟨a + b, (EReal.coe_add a b).symm⟩)
    ⟨0, EReal.coe_zero.symm⟩ hf

/-- Adding real updates into a real table gives a real table: every entry is the table's entry plus the
    sum of the updates that land on it. -/
theorem scatterAdd_real {s si u : Shape} {n : ℕ} (d : ScatterDims s si u) (x : FVec Ideal s .f32) (idx : IVec si n)
    (upd : FVec Ideal u .f32) (hx : ∀ i, ∃ r : ℝ, x i = (r : EReal)) (hu : ∀ j, ∃ r : ℝ, upd j = (r : EReal)) :
    ∀ i, ∃ r : ℝ, Host.scatterAdd (F := Ideal) d x idx upd i = (r : EReal) := by
  intro i
  obtain ⟨a, ha⟩ := hx i
  obtain ⟨b, hb⟩ := sum_real (Finset.univ.filter fun j => d.resultIdx? j idx = some i) upd (fun j _ => hu j)
  refine ⟨a + b, ?_⟩
  show x i + ∑ j ∈ Finset.univ.filter (fun j => d.resultIdx? j idx = some i), upd j = ((a + b : ℝ) : EReal)
  rw [ha, hb, EReal.coe_add]

/-- The all-zero table is real. -/
theorem zeros_real (w : ℕ) [AggFacts w] (i : (SN w).Idx) : ∃ r : ℝ,
    broadcastInDim (SN w) ![] (AggFacts.scalar_to_nodes (w := w)) (constant (F := Ideal) Sc .f32 0x00000000#32) i = (r : EReal) :=
  ⟨0, Ideal.ofBits_zero_f32.trans EReal.coe_zero.symm⟩

/-- If every feature is a real number then so is every entry of the aggregate. -/
theorem agg_real (h : FVec Ideal (SN w) .f32) (src dst : IVec SE 32)
    (hh : ∀ i, ∃ r : ℝ, h i = (r : EReal)) : ∀ i, ∃ r : ℝ, agg w h src dst i = (r : EReal) :=
  scatterAdd_real (addRows w) _ _ _ (zeros_real w) (fun _ => hh _)

end Cert.Math
-- ==== Proof.KernelIdeal.HostVals.lean ====
/-
  What the host computes between the device regions, at the ideal values.

  The network has four layers. Before a layer's two device regions run, the host prepares that
  layer's operands from the program's arguments and from the previous layer's output:

    • the neighbour aggregate of the layer's input features (`Cert.Math.agg`: for every node the sum
      of the feature rows at the sources of the edges that point at it);
    • the layer's two bias vectors and its scale and shift vectors as one-row matrices `[1, 64]`;
    • for layers 1, 2, 3, whose parameters are stored stacked (`[3, 64, 64]` and `[3, 64]`), the
      layer's own weight matrices and vectors cut out of the stacks at the layer's index.

  Each lemma below says, for an ARBITRARY valuation `W` of the buffers before the stretch, what one
  buffer holds after it: the aggregate as the function `agg` applied to `W` at the buffers the stretch
  reads, the small operands entry by entry:  a one-row matrix `[1, 64]` made from a vector `b` holds `b j` at
  `(0, j)`;  the matrix cut out of a stack `S` at layer `i` holds `S (i, k, j)` at `(k, j)`;  the
  one-row matrix made from row `i` of a stack `T` of vectors holds `T (i, j)` at `(0, j)`.
  The aggregate is left as the function `agg` applied to the buffers read: nothing here looks inside it.
-/
import proofs.«144771_j36481452212846_1_alg».proof.Proof.Gen.KernelIdeal.Launch
import proofs.«144771_j36481452212846_1_alg».proof.Proof.Math.Agg
import Idealize.ShloMosaic.Lib.StableHlo.Run
import Idealize.ShloMosaic.Lib.ValueIdx
import Idealize.ShloMosaic.Lib.ValueLayout
import Idealize.ShloMosaic.Lib.Pipeline.Value

set_option maxRecDepth 1404

noncomputable section

namespace Cert.KernelIdeal.HandVal

open Idealize.ShloMosaic Idealize.ShloMosaic.TcCoe Idealize.ShloMosaic.ValueIdx
open Cert.KernelIdeal Cert.KernelIdeal.Gen Cert.Math

/-! ## The shape relations of the aggregate, from this program's own facts -/

instance aggFacts128 : AggFacts 128 where
  scalar_to_edges := Facts₀.bcast_S_S800000
  edges_to_column := Facts₀.bcast_S800000_S800000x1_0
  scalar_to_nodes := Facts₀.bcast_S_S50000x128
  take_wf := Facts₀.gather_S50000x128_S800000x1_S800000x128_1_0_n_n_0_1_1128_wf
  add_wf := Facts₀.scatter_S50000x128_S800000x1_S800000x128_1_0_0_1_wf

instance aggFacts64 : AggFacts 64 where
  scalar_to_edges := Facts₀.bcast_S_S800000
  edges_to_column := Facts₀.bcast_S800000_S800000x1_0
  scalar_to_nodes := Facts₀.bcast_S_S50000x64
  take_wf := Facts₀.gather_S50000x64_S800000x1_S800000x64_1_0_n_n_0_1_164_wf
  add_wf := Facts₀.scatter_S50000x64_S800000x1_S800000x64_1_0_0_1_wf

/-! ## Two layout chains read at an index -/

/-- The matrix of layer `i` out of a stack of three: the `[1, 64, 64]` block at offset `(o, 0, 0)`,
    read as a `[64, 64]` matrix, holds at `(k, j)` the stack's entry `(i, k, j)` when `i = o`. -/
theorem stackMat_apply (o : ℕ) (X : S3x64x64.Idx → EReal) (h : S3x64x64.Slices ![o, 0, 0] S1x64x64)
    (hc : S1x64x64.ShapeCasts S64x64) (i : Fin 3) (hi : i.val = o) (k j : Fin 64) :
    shapeCast S64x64 (extractStridedSlice S1x64x64 ![o, 0, 0] X h) hc (ix2 k j) = X (ix3 i k j) := by
  refine (shapeCast_1ab_ab_apply _ hc k j).trans ?_
  exact extractStridedSlice_apply _ _ h _ _ (fun a => by
    match a with
    | ⟨0, _⟩ => show i.val = o + 0; omega
    | ⟨1, _⟩ => exact (Nat.zero_add _).symm
    | ⟨2, _⟩ => exact (Nat.zero_add _).symm)

/-- The vector of layer `i` out of a stack of three: the `[1, 64]` block at offset `(o, 0)`, flattened to
    `[64]` and made a one-row matrix again, holds at `(u, j)` the stack's entry `(i, j)` when `i = o`. -/
theorem stackRow_apply (o : ℕ) (X : S3x64.Idx → EReal) (h : S3x64.Slices ![o, 0] S1x64)
    (hc : S1x64.ShapeCasts S64) (hc' : S64.ShapeCasts S1x64) (i : Fin 3) (hi : i.val = o) (u : Fin 1) (j : Fin 64) :
    shapeCast S1x64 (shapeCast S64 (extractStridedSlice S1x64 ![o, 0] X h) hc) hc' (ix2 u j) = X (ix2 i j) := by
  refine (shapeCast_a_1a_apply _ hc' u j).trans ?_
  refine (shapeCast_1a_a_apply _ hc j).trans ?_
  exact slice2_axis0_apply o X h (0 : Fin 1) j i (by show i.val = o + 0; omega)

variable (W : Valuation τ sig (Elt Ideal))

/-! ## Before layer 0 (regions 0 and 1): from the arguments themselves -/

/-- The aggregate of the input features. -/
theorem after0_agg : StableHlo.after (hostOps0 (F := Ideal)) W (Proc.devRef .tc main_v9) =
    agg128 (W (Proc.devRef .tc main_arg0)) (W (Proc.devRef .tc main_arg1)) (W (Proc.devRef .tc main_arg2)) := by
  show StableHlo.after hostOps0 W (Proc.devRef .tc main_v9) = _
  after_results
  rfl

/-- The first bias as a one-row matrix. -/
theorem after0_b1r_apply (u : Fin 1) (j : Fin 64) :
    (StableHlo.after (hostOps0 (F := Ideal)) W (Proc.devRef .tc main_v10) : S1x64.Idx → EReal) (ix2 u j) =
      (W (Proc.devRef .tc main_arg4) : S64.Idx → EReal) (ix1 j) := by
  show StableHlo.after hostOps0 W (Proc.devRef .tc main_v10) (ix2 u j) = _
  after_results
  exact shapeCast_a_1a_apply _ _ u j

/-- The second bias as a one-row matrix. -/
theorem after0_b2r_apply (u : Fin 1) (j : Fin 64) :
    (StableHlo.after (hostOps0 (F := Ideal)) W (Proc.devRef .tc main_v11) : S1x64.Idx → EReal) (ix2 u j) =
      (W (Proc.devRef .tc main_arg6) : S64.Idx → EReal) (ix1 j) := by
  show StableHlo.after hostOps0 W (Proc.devRef .tc main_v11) (ix2 u j) = _
  after_results
  exact shapeCast_a_1a_apply _ _ u j

/-- The scale as a one-row matrix. -/
theorem after0_gr_apply (u : Fin 1) (j : Fin 64) :
    (StableHlo.after (hostOps0 (F := Ideal)) W (Proc.devRef .tc main_v12) : S1x64.Idx → EReal) (ix2 u j) =
      (W (Proc.devRef .tc main_arg7) : S64.Idx → EReal) (ix1 j) := by
  show StableHlo.after hostOps0 W (Proc.devRef .tc main_v12) (ix2 u j) = _
  after_results
  exact shapeCast_a_1a_apply _ _ u j

/-- The shift as a one-row matrix. -/
theorem after0_ber_apply (u : Fin 1) (j : Fin 64) :
    (StableHlo.after (hostOps0 (F := Ideal)) W (Proc.devRef .tc main_v13) : S1x64.Idx → EReal) (ix2 u j) =
      (W (Proc.devRef .tc main_arg8) : S64.Idx → EReal) (ix1 j) := by
  show StableHlo.after hostOps0 W (Proc.devRef .tc main_v13) (ix2 u j) = _
  after_results
  exact shapeCast_a_1a_apply _ _ u j

/-! ## Before layer 1 (regions 2 and 3): index 0 of the stacked parameters -/

/-- The aggregate of layer 0's output. -/
theorem after2_agg : StableHlo.after (hostOps2 (F := Ideal)) W (Proc.devRef .tc main_v37) =
    agg64 (W (Proc.devRef .tc main_v15)) (W (Proc.devRef .tc main_arg1)) (W (Proc.devRef .tc main_arg2)) := by
  show StableHlo.after hostOps2 W (Proc.devRef .tc main_v37) = _
  after_results_simp
  rfl

/-- The first weight matrix. -/
theorem after2_W1_apply (k j : Fin 64) :
    (StableHlo.after (hostOps2 (F := Ideal)) W (Proc.devRef .tc main_v17) : S64x64.Idx → EReal) (ix2 k j) =
      (W (Proc.devRef .tc main_arg9) : S3x64x64.Idx → EReal) (ix3 (0 : Fin 3) k j) := by
  show StableHlo.after hostOps2 W (Proc.devRef .tc main_v17) (ix2 k j) = _
  after_results
  exact stackMat_apply 0 _ _ _ 0 rfl k j

/-- The first bias as a one-row matrix. -/
theorem after2_b1r_apply (u : Fin 1) (j : Fin 64) :
    (StableHlo.after (hostOps2 (F := Ideal)) W (Proc.devRef .tc main_v38) : S1x64.Idx → EReal) (ix2 u j) =
      (W (Proc.devRef .tc main_arg10) : S3x64.Idx → EReal) (ix2 (0 : Fin 3) j) := by
  show StableHlo.after hostOps2 W (Proc.devRef .tc main_v38) (ix2 u j) = _
  after_results
  exact stackRow_apply 0 _ _ _ _ 0 rfl u j

/-- The second weight matrix. -/
theorem after2_W2_apply (k j : Fin 64) :
    (StableHlo.after (hostOps2 (F := Ideal)) W (Proc.devRef .tc main_v21) : S64x64.Idx → EReal) (ix2 k j) =
      (W (Proc.devRef .tc main_arg11) : S3x64x64.Idx → EReal) (ix3 (0 : Fin 3) k j) := by
  show StableHlo.after hostOps2 W (Proc.devRef .tc main_v21) (ix2 k j) = _
  after_results
  exact stackMat_apply 0 _ _ _ 0 rfl k j

/-- The second bias as a one-row matrix. -/
theorem after2_b2r_apply (u : Fin 1) (j : Fin 64) :
    (StableHlo.after (hostOps2 (F := Ideal)) W (Proc.devRef .tc main_v39) : S1x64.Idx → EReal) (ix2 u j) =
      (W (Proc.devRef .tc main_arg12) : S3x64.Idx → EReal) (ix2 (0 : Fin 3) j) := by
  show StableHlo.after hostOps2 W (Proc.devRef .tc main_v39) (ix2 u j) = _
  after_results
  exact stackRow_apply 0 _ _ _ _ 0 rfl u j

/-- The scale as a one-row matrix. -/
theorem after2_gr_apply (u : Fin 1) (j : Fin 64) :
    (StableHlo.after (hostOps2 (F := Ideal)) W (Proc.devRef .tc main_v40) : S1x64.Idx → EReal) (ix2 u j) =
      (W (Proc.devRef .tc main_arg13) : S3x64.Idx → EReal) (ix2 (0 : Fin 3) j) := by
  show StableHlo.after hostOps2 W (Proc.devRef .tc main_v40) (ix2 u j) = _
  after_results
  exact stackRow_apply 0 _ _ _ _ 0 rfl u j

/-- The shift as a one-row matrix. -/
theorem after2_ber_apply (u : Fin 1) (j : Fin 64) :
    (StableHlo.after (hostOps2 (F := Ideal)) W (Proc.devRef .tc main_v41) : S1x64.Idx → EReal) (ix2 u j) =
      (W (Proc.devRef .tc main_arg14) : S3x64.Idx → EReal) (ix2 (0 : Fin 3) j) := by
  show StableHlo.after hostOps2 W (Proc.devRef .tc main_v41) (ix2 u j) = _
  after_results
  exact stackRow_apply 0 _ _ _ _ 0 rfl u j

/-! ## Before layer 2 (regions 4 and 5): index 1 of the stacked parameters -/

/-- The aggregate of layer 1's output. -/
theorem after4_agg : StableHlo.after (hostOps4 (F := Ideal)) W (Proc.devRef .tc main_v65) =
    agg64 (W (Proc.devRef .tc main_v43)) (W (Proc.devRef .tc main_arg1)) (W (Proc.devRef .tc main_arg2)) := by
  show StableHlo.after hostOps4 W (Proc.devRef .tc main_v65) = _
  after_results_simp
  rfl

/-- The first weight matrix. -/
theorem after4_W1_apply (k j : Fin 64) :
    (StableHlo.after (hostOps4 (F := Ideal)) W (Proc.devRef .tc main_v45) : S64x64.Idx → EReal) (ix2 k j) =
      (W (Proc.devRef .tc main_arg9) : S3x64x64.Idx → EReal) (ix3 (1 : Fin 3) k j) := by
  show StableHlo.after hostOps4 W (Proc.devRef .tc main_v45) (ix2 k j) = _
  after_results
  exact stackMat_apply 1 _ _ _ 1 rfl k j

/-- The first bias as a one-row matrix. -/
theorem after4_b1r_apply (u : Fin 1) (j : Fin 64) :
    (StableHlo.after (hostOps4 (F := Ideal)) W (Proc.devRef .tc main_v66) : S1x64.Idx → EReal) (ix2 u j) =
      (W (Proc.devRef .tc main_arg10) : S3x64.Idx → EReal) (ix2 (1 : Fin 3) j) := by
  show StableHlo.after hostOps4 W (Proc.devRef .tc main_v66) (ix2 u j) = _
  after_results
  exact stackRow_apply 1 _ _ _ _ 1 rfl u j

/-- The second weight matrix. -/
theorem after4_W2_apply (k j : Fin 64) :
    (StableHlo.after (hostOps4 (F := Ideal)) W (Proc.devRef .tc main_v49) : S64x64.Idx → EReal) (ix2 k j) =
      (W (Proc.devRef .tc main_arg11) : S3x64x64.Idx → EReal) (ix3 (1 : Fin 3) k j) := by
  show StableHlo.after hostOps4 W (Proc.devRef .tc main_v49) (ix2 k j) = _
  after_results
  exact stackMat_apply 1 _ _ _ 1 rfl k j

/-- The second bias as a one-row matrix. -/
theorem after4_b2r_apply (u : Fin 1) (j : Fin 64) :
    (StableHlo.after (hostOps4 (F := Ideal)) W (Proc.devRef .tc main_v67) : S1x64.Idx → EReal) (ix2 u j) =
      (W (Proc.devRef .tc main_arg12) : S3x64.Idx → EReal) (ix2 (1 : Fin 3) j) := by
  show StableHlo.after hostOps4 W (Proc.devRef .tc main_v67) (ix2 u j) = _
  after_results
  exact stackRow_apply 1 _ _ _ _ 1 rfl u j

/-- The scale as a one-row matrix. -/
theorem after4_gr_apply (u : Fin 1) (j : Fin 64) :
    (StableHlo.after (hostOps4 (F := Ideal)) W (Proc.devRef .tc main_v68) : S1x64.Idx → EReal) (ix2 u j) =
      (W (Proc.devRef .tc main_arg13) : S3x64.Idx → EReal) (ix2 (1 : Fin 3) j) := by
  show StableHlo.after hostOps4 W (Proc.devRef .tc main_v68) (ix2 u j) = _
  after_results
  exact stackRow_apply 1 _ _ _ _ 1 rfl u j

/-- The shift as a one-row matrix. -/
theorem after4_ber_apply (u : Fin 1) (j : Fin 64) :
    (StableHlo.after (hostOps4 (F := Ideal)) W (Proc.devRef .tc main_v69) : S1x64.Idx → EReal) (ix2 u j) =
      (W (Proc.devRef .tc main_arg14) : S3x64.Idx → EReal) (ix2 (1 : Fin 3) j) := by
  show StableHlo.after hostOps4 W (Proc.devRef .tc main_v69) (ix2 u j) = _
  after_results
  exact stackRow_apply 1 _ _ _ _ 1 rfl u j

/-! ## Before layer 3 (regions 6 and 7): index 2 of the stacked parameters -/

/-- The aggregate of layer 2's output. -/
theorem after6_agg : StableHlo.after (hostOps6 (F := Ideal)) W (Proc.devRef .tc main_v93) =
    agg64 (W (Proc.devRef .tc main_v71)) (W (Proc.devRef .tc main_arg1)) (W (Proc.devRef .tc main_arg2)) := by
  show StableHlo.after hostOps6 W (Proc.devRef .tc main_v93) = _
  after_results_simp
  rfl

/-- The first weight matrix. -/
theorem after6_W1_apply (k j : Fin 64) :
    (StableHlo.after (hostOps6 (F := Ideal)) W (Proc.devRef .tc main_v73) : S64x64.Idx → EReal) (ix2 k j) =
      (W (Proc.devRef .tc main_arg9) : S3x64x64.Idx → EReal) (ix3 (2 : Fin 3) k j) := by
  show StableHlo.after hostOps6 W (Proc.devRef .tc main_v73) (ix2 k j) = _
  after_results
  exact stackMat_apply 2 _ _ _ 2 rfl k j

/-- The first bias as a one-row matrix. -/
theorem after6_b1r_apply (u : Fin 1) (j : Fin 64) :
    (StableHlo.after (hostOps6 (F := Ideal)) W (Proc.devRef .tc main_v94) : S1x64.Idx → EReal) (ix2 u j) =
      (W (Proc.devRef .tc main_arg10) : S3x64.Idx → EReal) (ix2 (2 : Fin 3) j) := by
  show StableHlo.after hostOps6 W (Proc.devRef .tc main_v94) (ix2 u j) = _
  after_results
  exact stackRow_apply 2 _ _ _ _ 2 rfl u j

/-- The second weight matrix. -/
theorem after6_W2_apply (k j : Fin 64) :
    (StableHlo.after (hostOps6 (F := Ideal)) W (Proc.devRef .tc main_v77) : S64x64.Idx → EReal) (ix2 k j) =
      (W (Proc.devRef .tc main_arg11) : S3x64x64.Idx → EReal) (ix3 (2 : Fin 3) k j) := by
  show StableHlo.after hostOps6 W (Proc.devRef .tc main_v77) (ix2 k j) = _
  after_results
  exact stackMat_apply 2 _ _ _ 2 rfl k j

/-- The second bias as a one-row matrix. -/
theorem after6_b2r_apply (u : Fin 1) (j : Fin 64) :
    (StableHlo.after (hostOps6 (F := Ideal)) W (Proc.devRef .tc main_v95) : S1x64.Idx → EReal) (ix2 u j) =
      (W (Proc.devRef .tc main_arg12) : S3x64.Idx → EReal) (ix2 (2 : Fin 3) j) := by
  show StableHlo.after hostOps6 W (Proc.devRef .tc main_v95) (ix2 u j) = _
  after_results
  exact stackRow_apply 2 _ _ _ _ 2 rfl u j

/-- The scale as a one-row matrix. -/
theorem after6_gr_apply (u : Fin 1) (j : Fin 64) :
    (StableHlo.after (hostOps6 (F := Ideal)) W (Proc.devRef .tc main_v96) : S1x64.Idx → EReal) (ix2 u j) =
      (W (Proc.devRef .tc main_arg13) : S3x64.Idx → EReal) (ix2 (2 : Fin 3) j) := by
  show StableHlo.after hostOps6 W (Proc.devRef .tc main_v96) (ix2 u j) = _
  after_results
  exact stackRow_apply 2 _ _ _ _ 2 rfl u j

/-- The shift as a one-row matrix. -/
theorem after6_ber_apply (u : Fin 1) (j : Fin 64) :
    (StableHlo.after (hostOps6 (F := Ideal)) W (Proc.devRef .tc main_v97) : S1x64.Idx → EReal) (ix2 u j) =
      (W (Proc.devRef .tc main_arg14) : S3x64.Idx → EReal) (ix2 (2 : Fin 3) j) := by
  show StableHlo.after hostOps6 W (Proc.devRef .tc main_v97) (ix2 u j) = _
  after_results
  exact stackRow_apply 2 _ _ _ _ 2 rfl u j

end Cert.KernelIdeal.HandVal
-- ==== Proof.KernelIdeal.PreReal.lean ====
/-
  From the precondition to "every entry of every float argument is a real".

  The precondition states that a conjunction of thirteen tests is true: for each float argument
  array, that every entry's absolute value lies strictly below +∞. On the extended reals the
  absolute value of x is max x (-x), which is +∞ exactly at the two infinities; so a true test
  leaves only the real numbers.
-/
import proofs.«144771_j36481452212846_1_alg».proof.Defs
import proofs.«144771_j36481452212846_1_alg».proof.Proof.Gen.Pre_finite_inputs
import proofs.«144771_j36481452212846_1_alg».proof.Proof.Math.Stats
import Idealize.ShloMosaic.Lib.ReduceAll
import Idealize.ShloMosaic.Lib.ValueIdx

noncomputable section

namespace Cert.KernelIdeal.HandVal

open Idealize.ShloMosaic Idealize.SL.Sem Cert.Math

/-- The shape of rank zero has one index. -/
instance subsingleton_scalar_idx : Subsingleton (Cert.Pre_finite_inputs.S_).Idx :=
  ⟨fun a b => funext fun d => d.elim0⟩

/-- An extended real whose absolute value is strictly below +∞ is a real number. -/
theorem isReal_of_abs_lt_top (x : EReal)
    (h : FloatOps.cmpf (F := Ideal) (φ := .f32) .olt (FloatOps.hostAbsf x) (FloatOps.ofBits .f32 0x7F800000#32) = 1#1) :
    IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x using EReal.rec with
  | bot => simp [Ideal.cmp] at h'
  | top => simp [Ideal.cmp] at h'
  | coe r => exact ⟨r, rfl⟩

/-- One argument's test: if "all entries have absolute value below +∞" came out true, every entry
    is a real. -/
theorem real_of_all_finite {s : Shape} {axes : List (Fin s.rank)} (x : FVec Ideal s .f32)
    (hb : (Cert.Pre_finite_inputs.S_).BroadcastsInDim s (![] : Fin 0 → Fin s.rank))
    (hr : s.ReducesTo axes Cert.Pre_finite_inputs.S_) (hu : 0 < (Cert.Pre_finite_inputs.S_).numel)
    (e : Host.reduce IntOp.andi
          (cmpf .olt (Host.absf x)
            (broadcastInDim s ![] hb (constant Cert.Pre_finite_inputs.S_ .f32 0x7F800000#32)))
          (constantI Cert.Pre_finite_inputs.S_ 1 1#1) hr hu ValueIdx.ix0 = 1#1)
    (i : s.Idx) : IsReal (x i) :=
  isReal_of_abs_lt_top (x i) (Host.reduce_andi_all _ _ hr hu _ e i)

variable [hPre : Cert.Pre_finite_inputs.Facts]

/-- Under the precondition every entry of each of the thirteen float arguments is a real. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : (Cert.KernelIdeal.S50000x128).Idx, IsReal (m ((c.tc : Thread Cert.KernelIdeal.nD Cert.KernelIdeal.τ).loc Cert.KernelIdeal.main_arg0) i))
      ∧ (∀ i : (Cert.KernelIdeal.S128x64).Idx, IsReal (m ((c.tc : Thread Cert.KernelIdeal.nD Cert.KernelIdeal.τ).loc Cert.KernelIdeal.main_arg3) i))
      ∧ (∀ i : (Cert.KernelIdeal.S64).Idx, IsReal (m ((c.tc : Thread Cert.KernelIdeal.nD Cert.KernelIdeal.τ).loc Cert.KernelIdeal.main_arg4) i))
      ∧ (∀ i : (Cert.KernelIdeal.S64x64).Idx, IsReal (m ((c.tc : Thread Cert.KernelIdeal.nD Cert.KernelIdeal.τ).loc Cert.KernelIdeal.main_arg5) i))
      ∧ (∀ i : (Cert.KernelIdeal.S64).Idx, IsReal (m ((c.tc : Thread Cert.KernelIdeal.nD Cert.KernelIdeal.τ).loc Cert.KernelIdeal.main_arg6) i))
      ∧ (∀ i : (Cert.KernelIdeal.S64).Idx, IsReal (m ((c.tc : Thread Cert.KernelIdeal.nD Cert.KernelIdeal.τ).loc Cert.KernelIdeal.main_arg7) i))
      ∧ (∀ i : (Cert.KernelIdeal.S64).Idx, IsReal (m ((c.tc : Thread Cert.KernelIdeal.nD Cert.KernelIdeal.τ).loc Cert.KernelIdeal.main_arg8) i))
      ∧ (∀ i : (Cert.KernelIdeal.S3x64x64).Idx, IsReal (m ((c.tc : Thread Cert.KernelIdeal.nD Cert.KernelIdeal.τ).loc Cert.KernelIdeal.main_arg9) i))
      ∧ (∀ i : (Cert.KernelIdeal.S3x64).Idx, IsReal (m ((c.tc : Thread Cert.KernelIdeal.nD Cert.KernelIdeal.τ).loc Cert.KernelIdeal.main_arg10) i))
      ∧ (∀ i : (Cert.KernelIdeal.S3x64x64).Idx, IsReal (m ((c.tc : Thread Cert.KernelIdeal.nD Cert.KernelIdeal.τ).loc Cert.KernelIdeal.main_arg11) i))
      ∧ (∀ i : (Cert.KernelIdeal.S3x64).Idx, IsReal (m ((c.tc : Thread Cert.KernelIdeal.nD Cert.KernelIdeal.τ).loc Cert.KernelIdeal.main_arg12) i))
      ∧ (∀ i : (Cert.KernelIdeal.S3x64).Idx, IsReal (m ((c.tc : Thread Cert.KernelIdeal.nD Cert.KernelIdeal.τ).loc Cert.KernelIdeal.main_arg13) i))
      ∧ (∀ i : (Cert.KernelIdeal.S3x64).Idx, IsReal (m ((c.tc : Thread Cert.KernelIdeal.nD Cert.KernelIdeal.τ).loc Cert.KernelIdeal.main_arg14) i)) := by
  have h0 := congrFun (h c) ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨⟨⟨e0, e3⟩, e4⟩, e5⟩, e6⟩, e7⟩, e8⟩, e9⟩, e10⟩, e11⟩, e12⟩, e13⟩, e14⟩ := h0
  exact ⟨fun i => real_of_all_finite _ _ _ _ e0 i,
    fun i => real_of_all_finite _ _ _ _ e3 i,
    fun i => real_of_all_finite _ _ _ _ e4 i,
    fun i => real_of_all_finite _ _ _ _ e5 i,
    fun i => real_of_all_finite _ _ _ _ e6 i,
    fun i => real_of_all_finite _ _ _ _ e7 i,
    fun i => real_of_all_finite _ _ _ _ e8 i,
    fun i => real_of_all_finite _ _ _ _ e9 i,
    fun i => real_of_all_finite _ _ _ _ e10 i,
    fun i => real_of_all_finite _ _ _ _ e11 i,
    fun i => real_of_all_finite _ _ _ _ e12 i,
    fun i => real_of_all_finite _ _ _ _ e13 i,
    fun i => real_of_all_finite _ _ _ _ e14 i⟩

/-- Every entry of argument 0 is a real. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) (i : (Cert.KernelIdeal.S50000x128).Idx) :
    IsReal (m ((c.tc : Thread Cert.KernelIdeal.nD Cert.KernelIdeal.τ).loc Cert.KernelIdeal.main_arg0) i) :=
  (real_of_pre m h c).1 i

/-- Every entry of argument 3 is a real. -/
theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) (i : (Cert.KernelIdeal.S128x64).Idx) :
    IsReal (m ((c.tc : Thread Cert.KernelIdeal.nD Cert.KernelIdeal.τ).loc Cert.KernelIdeal.main_arg3) i) :=
  (real_of_pre m h c).2.1 i

/-- Every entry of argument 4 is a real. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) (i : (Cert.KernelIdeal.S64).Idx) :
    IsReal (m ((c.tc : Thread Cert.KernelIdeal.nD Cert.KernelIdeal.τ).loc Cert.KernelIdeal.main_arg4) i) :=
  (real_of_pre m h c).2.2.1 i

/-- Every entry of argument 5 is a real. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) (i : (Cert.KernelIdeal.S64x64).Idx) :
    IsReal (m ((c.tc : Thread Cert.KernelIdeal.nD Cert.KernelIdeal.τ).loc Cert.KernelIdeal.main_arg5) i) :=
  (real_of_pre m h c).2.2.2.1 i

/-- Every entry of argument 6 is a real. -/
theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) (i : (Cert.KernelIdeal.S64).Idx) :
    IsReal (m ((c.tc : Thread Cert.KernelIdeal.nD Cert.KernelIdeal.τ).loc Cert.KernelIdeal.main_arg6) i) :=
  (real_of_pre m h c).2.2.2.2.1 i

/-- Every entry of argument 7 is a real. -/
theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) (i : (Cert.KernelIdeal.S64).Idx) :
    IsReal (m ((c.tc : Thread Cert.KernelIdeal.nD Cert.KernelIdeal.τ).loc Cert.KernelIdeal.main_arg7) i) :=
  (real_of_pre m h c).2.2.2.2.2.1 i

/-- Every entry of argument 8 is a real. -/
theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) (i : (Cert.KernelIdeal.S64).Idx) :
    IsReal (m ((c.tc : Thread Cert.KernelIdeal.nD Cert.KernelIdeal.τ).loc Cert.KernelIdeal.main_arg8) i) :=
  (real_of_pre m h c).2.2.2.2.2.2.1 i

/-- Every entry of argument 9 is a real. -/
theorem real_arg9 (m : (ℓ : Loc Cert.KernelIdeal.nD Cert.KernelIdeal.τ Cert.KernelIdeal.sig) → Buf (Elt Ideal) ℓ)
    (h : Cert.Pre_KernelIdeal m) (c : Dev Cert.KernelIdeal.nD) (i : (Cert.KernelIdeal.S3x64x64).Idx) :
    IsReal (m ((c.tc : Thread Cert.KernelIdeal.nD Cert.KernelIdeal.τ).loc Cert.KernelIdeal.main_arg9) i) :=
  (real_of_pre m h c).2.2.2.2.2.2.2.1 i

/-- Every entry of argument 10 is a real. -/
theorem real_arg10 (m : (ℓ : Loc Cert.KernelIdeal.nD Cert.KernelIdeal.τ Cert.KernelIdeal.sig) → Buf (Elt Ideal) ℓ)
    (h : Cert.Pre_KernelIdeal m) (c : Dev Cert.KernelIdeal.nD) (i : (Cert.KernelIdeal.S3x64).Idx) :
    IsReal (m ((c.tc : Thread Cert.KernelIdeal.nD Cert.KernelIdeal.τ).loc Cert.KernelIdeal.main_arg10) i) :=
  (real_of_pre m h c).2.2.2.2.2.2.2.2.1 i

/-- Every entry of argument 11 is a real. -/
theorem real_arg11 (m : (ℓ : Loc Cert.KernelIdeal.nD Cert.KernelIdeal.τ Cert.KernelIdeal.sig) → Buf (Elt Ideal) ℓ)
    (h : Cert.Pre_KernelIdeal m) (c : Dev Cert.KernelIdeal.nD) (i : (Cert.KernelIdeal.S3x64x64).Idx) :
    IsReal (m ((c.tc : Thread Cert.KernelIdeal.nD Cert.KernelIdeal.τ).loc Cert.KernelIdeal.main_arg11) i) :=
  (real_of_pre m h c).2.2.2.2.2.2.2.2.2.1 i

/-- Every entry of argument 12 is a real. -/
theorem real_arg12 (m : (ℓ : Loc Cert.KernelIdeal.nD Cert.KernelIdeal.τ Cert.KernelIdeal.sig) → Buf (Elt Ideal) ℓ)
    (h : Cert.Pre_KernelIdeal m) (c : Dev Cert.KernelIdeal.nD) (i : (Cert.KernelIdeal.S3x64).Idx) :
    IsReal (m ((c.tc : Thread Cert.KernelIdeal.nD Cert.KernelIdeal.τ).loc Cert.KernelIdeal.main_arg12) i) :=
  (real_of_pre m h c).2.2.2.2.2.2.2.2.2.2.1 i

/-- Every entry of argument 13 is a real. -/
theorem real_arg13 (m : (ℓ : Loc Cert.KernelIdeal.nD Cert.KernelIdeal.τ Cert.KernelIdeal.sig) → Buf (Elt Ideal) ℓ)
    (h : Cert.Pre_KernelIdeal m) (c : Dev Cert.KernelIdeal.nD) (i : (Cert.KernelIdeal.S3x64).Idx) :
    IsReal (m ((c.tc : Thread Cert.KernelIdeal.nD Cert.KernelIdeal.τ).loc Cert.KernelIdeal.main_arg13) i) :=
  (real_of_pre m h c).2.2.2.2.2.2.2.2.2.2.2.1 i

/-- Every entry of argument 14 is a real. -/
theorem real_arg14 (m : (ℓ : Loc Cert.KernelIdeal.nD Cert.KernelIdeal.τ Cert.KernelIdeal.sig) → Buf (Elt Ideal) ℓ)
    (h : Cert.Pre_KernelIdeal m) (c : Dev Cert.KernelIdeal.nD) (i : (Cert.KernelIdeal.S3x64).Idx) :
    IsReal (m ((c.tc : Thread Cert.KernelIdeal.nD Cert.KernelIdeal.τ).loc Cert.KernelIdeal.main_arg14) i) :=
  (real_of_pre m h c).2.2.2.2.2.2.2.2.2.2.2.2 i

end Cert.KernelIdeal.HandVal

end
-- ==== Proof.Ref.AggEq.lean ====
/-
  The reference's neighbour sum is the aggregate.

  The reference forms, for every node, the sum of the feature rows at the sources of the edges that point at it: a
  negative source index is first moved up by the row count, the sources become a column of one-element index vectors,
  the rows they name are taken, and the taken rows are added into a table of zeros at the rows the targets name. The
  aggregate `Cert.Math.agg` is that same composition written once over its own names for the same literal shapes, with
  the five shape relations the operations ask for gathered in a class. Here the reference program's own relations are
  given as that class's instances, at 128 and at 64 features, and the reference's neighbour sum is then the aggregate as
  one term — nothing is computed, the two spellings unfold to the same operations on the same arrays. With that the two
  layer theorems are stated once more over the aggregate.
-/
import proofs.«144771_j36481452212846_1_alg».proof.Proof.Ref.Layers
import proofs.«144771_j36481452212846_1_alg».proof.Proof.Ref.LayerIdx
import proofs.«144771_j36481452212846_1_alg».proof.Proof.Math.Agg

noncomputable section

namespace Cert.ReferenceIdeal.HandVal

open Cert.ReferenceIdeal Cert.ReferenceIdeal.Gen Cert.ReferenceIdeal.Hand Idealize.ShloMosaic Idealize.ShloMosaic.ValueIdx

/-! ## The reference program's shape relations are the aggregate's -/

/-- Over 128 features: the program's own five relations, by name. -/
instance aggFacts128 [Cert.ReferenceIdeal.Facts₀] : Cert.Math.AggFacts 128 where
  scalar_to_edges := Facts₀.bcast_S_S800000
  edges_to_column := Facts₀.bcast_S800000_S800000x1_0
  scalar_to_nodes := Facts₀.bcast_S_S50000x128
  take_wf := Facts₀.gather_S50000x128_S800000x1_S800000x128_1_0_n_n_0_1_1128_wf
  add_wf := Facts₀.scatter_S50000x128_S800000x1_S800000x128_1_0_0_1_wf

/-- Over 64 features. -/
instance aggFacts64 [Cert.ReferenceIdeal.Facts₀] : Cert.Math.AggFacts 64 where
  scalar_to_edges := Facts₀.bcast_S_S800000
  edges_to_column := Facts₀.bcast_S800000_S800000x1_0
  scalar_to_nodes := Facts₀.bcast_S_S50000x64
  take_wf := Facts₀.gather_S50000x64_S800000x1_S800000x64_1_0_n_n_0_1_164_wf
  add_wf := Facts₀.scatter_S50000x64_S800000x1_S800000x64_1_0_0_1_wf

/-! ## The reference's neighbour sum is the aggregate -/

/-- Over 128 features the reference wraps, takes and adds exactly as the aggregate is written: the two are one term. -/
theorem agg128_eq (h : Tf Ideal S50000x128) (src dst : Ti Ideal S800000) :
    Cert.ReferenceIdeal.Hand.agg128 (F := Ideal) h src dst = Cert.Math.agg 128 h src dst := rfl

/-- Over 64 features likewise. -/
theorem agg64_eq (h : Tf Ideal S50000x64) (src dst : Ti Ideal S800000) :
    Cert.ReferenceIdeal.Hand.agg64 (F := Ideal) h src dst = Cert.Math.agg 64 h src dst := rfl

/-! ## The layers over the aggregate

The two layer theorems once more, with the reference's neighbour sum written as the aggregate. -/

/-- Layer 0 at an entry, over the aggregate of 128 features. -/
theorem layer0_apply' (h : Tf Ideal S50000x128) (src dst : Ti Ideal S800000) (W1 : Tf Ideal S128x64) (b1 : Tf Ideal S64)
    (W2 : Tf Ideal S64x64) (b2 g be : Tf Ideal S64) (r : Fin 50000) (j : Fin 64) :
    layer0 (F := Ideal) h src dst W1 b1 W2 b2 g be (ix2 r j)
      = Cert.Math.layerOut (fun r l => h (ix2 r l) + Cert.Math.agg 128 h src dst (ix2 r l)) (fun l k => W1 (ix2 l k))
          (fun k => b1 (ix1 k)) (fun k j => W2 (ix2 k j)) (fun j => b2 (ix1 j)) (fun j => g (ix1 j)) (fun j => be (ix1 j)) r j := by
  rw [← agg128_eq]
  exact layer0_apply h src dst W1 b1 W2 b2 g be r j

/-- A 64-column layer at an entry, over the aggregate of 64 features. -/
theorem layerS_apply' (h : Tf Ideal S50000x64) (src dst : Ti Ideal S800000) (W1 : Tf Ideal S64x64) (b1 : Tf Ideal S64)
    (W2 : Tf Ideal S64x64) (b2 g be : Tf Ideal S64) (r : Fin 50000) (j : Fin 64) :
    layerS (F := Ideal) h src dst W1 b1 W2 b2 g be (ix2 r j)
      = Cert.Math.layerOut (fun r l => h (ix2 r l) + Cert.Math.agg 64 h src dst (ix2 r l)) (fun l k => W1 (ix2 l k))
          (fun k => b1 (ix1 k)) (fun k j => W2 (ix2 k j)) (fun j => b2 (ix1 j)) (fun j => g (ix1 j)) (fun j => be (ix1 j)) r j := by
  rw [← agg64_eq]
  exact layerS_apply h src dst W1 b1 W2 b2 g be r j

end Cert.ReferenceIdeal.HandVal

end
-- ==== Proof.KernelIdeal.KVal.Base.lean ====
/-
  Layer 0 of the idealized kernel, and the arguments between the layers.

  @main is four times the same three items: a host stretch that prepares a layer's operands (the neighbour sums of
  the layer's input table, the parameters as the shapes the kernels read), the linear kernel (its output array and
  the column means and variances of that array), and the normalising kernel. Following the buffer contents through
  a layer's three items: the normalising kernel's output is the normalisation of five arrays; three of them are the
  linear kernel's outputs, which are the linear activations of six arrays and their column statistics; and the six
  arrays and the two remaining rows are, through the host stretch, the layer's input table, its neighbour sums and
  the layer's parameters. That is the reference's layer of the same input and parameters (array against array, in
  Arrays.lean), and the layer's output is real because its inputs are. An argument is written by nothing, so it is
  read everywhere at its launch contents.
-/
import proofs.«144771_j36481452212846_1_alg».proof.Proof.KernelIdeal.Segs
import proofs.«144771_j36481452212846_1_alg».proof.Proof.KernelIdeal.KVal.Arrays
import proofs.«144771_j36481452212846_1_alg».proof.Proof.KernelIdeal.Bn1Val
import proofs.«144771_j36481452212846_1_alg».proof.Proof.KernelIdeal.Mlp0Val
import proofs.«144771_j36481452212846_1_alg».proof.Proof.KernelIdeal.HostVals
import proofs.«144771_j36481452212846_1_alg».proof.Proof.KernelIdeal.PreReal
import proofs.«144771_j36481452212846_1_alg».proof.Proof.Ref.AggEq

noncomputable section

namespace Cert.KernelIdeal.HandVal

open Cert.KernelIdeal Cert.KernelIdeal.Gen Cert.KernelIdeal.Hand Cert.Math
open Idealize.ShloMosaic Idealize.ShloMosaic.TcCoe Idealize.ShloMosaic.ValueIdx Idealize.SL.Sem
open Cert.ReferenceIdeal.HandVal (agg128_eq agg64_eq mat0_apply mat1_apply mat2_apply row0_apply row1_apply row2_apply)

variable (m : (ℓ : Loc nD τ sig) → Buf (Elt Ideal) ℓ) (ρ : Dev nD → PrngReg)

/-- Every entry of a vector is real when every entry by its coordinate is. -/
theorem real_ix1 {n : ℕ} {f : (⟨1, ![n]⟩ : Shape).Idx → EReal} (h : ∀ j : Fin n, IsReal (f (ix1 j)))
    (i : (⟨1, ![n]⟩ : Shape).Idx) : IsReal (f i) := by
  rw [eq_ix1 i]
  exact h _

/-! ## A buffer nothing writes, read between the layers -/

/-- Through layer 0's three items a buffer that none of them writes holds its launch contents. -/
theorem W3_arg (c : Dev nD) (r : Ref sig .tc) (h0 : r ∉ hostOps0_W) (n0 : ∀ w, Pipeline.arrRef spec0 w ≠ r)
    (n1 : ∀ w, Pipeline.arrRef spec1 w ≠ r) :
    W3 (F := Ideal) m ρ c (Proc.devRef .tc r) = m ((c.tc : Thread nD τ).loc r) :=
  (W3_of_ne m ρ c r n1).trans <| (W2_of_ne m ρ c r n0).trans <| (W1_of m ρ c r h0).trans rfl

/-- Through layer 1's three items a buffer that none of them writes is unchanged. -/
theorem W6_W3 (c : Dev nD) (r : Ref sig .tc) (h2 : r ∉ hostOps2_W) (n2 : ∀ w, Pipeline.arrRef spec2 w ≠ r)
    (n3 : ∀ w, Pipeline.arrRef spec3 w ≠ r) :
    W6 (F := Ideal) m ρ c (Proc.devRef .tc r) = W3 m ρ c (Proc.devRef .tc r) :=
  (W6_of_ne m ρ c r n3).trans <| (W5_of_ne m ρ c r n2).trans (W4_of m ρ c r h2)

/-- Through layer 2's three items likewise. -/
theorem W9_W6 (c : Dev nD) (r : Ref sig .tc) (h4 : r ∉ hostOps4_W) (n4 : ∀ w, Pipeline.arrRef spec4 w ≠ r)
    (n5 : ∀ w, Pipeline.arrRef spec5 w ≠ r) :
    W9 (F := Ideal) m ρ c (Proc.devRef .tc r) = W6 m ρ c (Proc.devRef .tc r) :=
  (W9_of_ne m ρ c r n5).trans <| (W8_of_ne m ρ c r n4).trans (W7_of m ρ c r h4)

/-- The edge lists and the stacked parameters at the start of layer 1. -/
theorem W3_args (c : Dev nD) :
    W3 (F := Ideal) m ρ c (Proc.devRef .tc main_arg1) = (m ((c.tc : Thread nD τ).loc main_arg1))
    ∧ W3 (F := Ideal) m ρ c (Proc.devRef .tc main_arg2) = (m ((c.tc : Thread nD τ).loc main_arg2))
    ∧ W3 (F := Ideal) m ρ c (Proc.devRef .tc main_arg9) = (m ((c.tc : Thread nD τ).loc main_arg9))
    ∧ W3 (F := Ideal) m ρ c (Proc.devRef .tc main_arg10) = (m ((c.tc : Thread nD τ).loc main_arg10))
    ∧ W3 (F := Ideal) m ρ c (Proc.devRef .tc main_arg11) = (m ((c.tc : Thread nD τ).loc main_arg11))
    ∧ W3 (F := Ideal) m ρ c (Proc.devRef .tc main_arg12) = (m ((c.tc : Thread nD τ).loc main_arg12))
    ∧ W3 (F := Ideal) m ρ c (Proc.devRef .tc main_arg13) = (m ((c.tc : Thread nD τ).loc main_arg13))
    ∧ W3 (F := Ideal) m ρ c (Proc.devRef .tc main_arg14) = (m ((c.tc : Thread nD τ).loc main_arg14)) :=
  ⟨W3_arg m ρ c main_arg1 (by decide) (by decide) (by decide), W3_arg m ρ c main_arg2 (by decide) (by decide) (by decide),
    W3_arg m ρ c main_arg9 (by decide) (by decide) (by decide), W3_arg m ρ c main_arg10 (by decide) (by decide) (by decide),
    W3_arg m ρ c main_arg11 (by decide) (by decide) (by decide), W3_arg m ρ c main_arg12 (by decide) (by decide) (by decide),
    W3_arg m ρ c main_arg13 (by decide) (by decide) (by decide), W3_arg m ρ c main_arg14 (by decide) (by decide) (by decide)⟩

/-- The same at the start of layer 2. -/
theorem W6_args (c : Dev nD) :
    W6 (F := Ideal) m ρ c (Proc.devRef .tc main_arg1) = (m ((c.tc : Thread nD τ).loc main_arg1))
    ∧ W6 (F := Ideal) m ρ c (Proc.devRef .tc main_arg2) = (m ((c.tc : Thread nD τ).loc main_arg2))
    ∧ W6 (F := Ideal) m ρ c (Proc.devRef .tc main_arg9) = (m ((c.tc : Thread nD τ).loc main_arg9))
    ∧ W6 (F := Ideal) m ρ c (Proc.devRef .tc main_arg10) = (m ((c.tc : Thread nD τ).loc main_arg10))
    ∧ W6 (F := Ideal) m ρ c (Proc.devRef .tc main_arg11) = (m ((c.tc : Thread nD τ).loc main_arg11))
    ∧ W6 (F := Ideal) m ρ c (Proc.devRef .tc main_arg12) = (m ((c.tc : Thread nD τ).loc main_arg12))
    ∧ W6 (F := Ideal) m ρ c (Proc.devRef .tc main_arg13) = (m ((c.tc : Thread nD τ).loc main_arg13))
    ∧ W6 (F := Ideal) m ρ c (Proc.devRef .tc main_arg14) = (m ((c.tc : Thread nD τ).loc main_arg14)) := by
  obtain ⟨a1, a2, a9, a10, a11, a12, a13, a14⟩ := W3_args m ρ c
  exact ⟨(W6_W3 m ρ c main_arg1 (by decide) (by decide) (by decide)).trans a1,
    (W6_W3 m ρ c main_arg2 (by decide) (by decide) (by decide)).trans a2,
    (W6_W3 m ρ c main_arg9 (by decide) (by decide) (by decide)).trans a9,
    (W6_W3 m ρ c main_arg10 (by decide) (by decide) (by decide)).trans a10,
    (W6_W3 m ρ c main_arg11 (by decide) (by decide) (by decide)).trans a11,
    (W6_W3 m ρ c main_arg12 (by decide) (by decide) (by decide)).trans a12,
    (W6_W3 m ρ c main_arg13 (by decide) (by decide) (by decide)).trans a13,
    (W6_W3 m ρ c main_arg14 (by decide) (by decide) (by decide)).trans a14⟩

/-- The same at the start of layer 3. -/
theorem W9_args (c : Dev nD) :
    W9 (F := Ideal) m ρ c (Proc.devRef .tc main_arg1) = (m ((c.tc : Thread nD τ).loc main_arg1))
    ∧ W9 (F := Ideal) m ρ c (Proc.devRef .tc main_arg2) = (m ((c.tc : Thread nD τ).loc main_arg2))
    ∧ W9 (F := Ideal) m ρ c (Proc.devRef .tc main_arg9) = (m ((c.tc : Thread nD τ).loc main_arg9))
    ∧ W9 (F := Ideal) m ρ c (Proc.devRef .tc main_arg10) = (m ((c.tc : Thread nD τ).loc main_arg10))
    ∧ W9 (F := Ideal) m ρ c (Proc.devRef .tc main_arg11) = (m ((c.tc : Thread nD τ).loc main_arg11))
    ∧ W9 (F := Ideal) m ρ c (Proc.devRef .tc main_arg12) = (m ((c.tc : Thread nD τ).loc main_arg12))
    ∧ W9 (F := Ideal) m ρ c (Proc.devRef .tc main_arg13) = (m ((c.tc : Thread nD τ).loc main_arg13))
    ∧ W9 (F := Ideal) m ρ c (Proc.devRef .tc main_arg14) = (m ((c.tc : Thread nD τ).loc main_arg14)) := by
  obtain ⟨a1, a2, a9, a10, a11, a12, a13, a14⟩ := W6_args m ρ c
  exact ⟨(W9_W6 m ρ c main_arg1 (by decide) (by decide) (by decide)).trans a1,
    (W9_W6 m ρ c main_arg2 (by decide) (by decide) (by decide)).trans a2,
    (W9_W6 m ρ c main_arg9 (by decide) (by decide) (by decide)).trans a9,
    (W9_W6 m ρ c main_arg10 (by decide) (by decide) (by decide)).trans a10,
    (W9_W6 m ρ c main_arg11 (by decide) (by decide) (by decide)).trans a11,
    (W9_W6 m ρ c main_arg12 (by decide) (by decide) (by decide)).trans a12,
    (W9_W6 m ρ c main_arg13 (by decide) (by decide) (by decide)).trans a13,
    (W9_W6 m ρ c main_arg14 (by decide) (by decide) (by decide)).trans a14⟩

/-! ## Layer 0 -/

/-- After regions 0 and 1 the buffer main_v15 holds the reference's layer 0 of the arguments, and its entries are
    real. -/
theorem out0 (hpre : Cert.Pre_KernelIdeal m) (c : Dev nD) :
    (W3 (F := Ideal) m ρ c (Proc.devRef .tc main_v15) : S50000x64.Idx → EReal)
        = Cert.ReferenceIdeal.Hand.layer0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ ∀ i, IsReal ((W3 (F := Ideal) m ρ c (Proc.devRef .tc main_v15) : S50000x64.Idx → EReal) i) := by
  have x0 : W1 (F := Ideal) m ρ c (Proc.devRef .tc main_arg0) = (m ((c.tc : Thread nD τ).loc main_arg0)) := (W1_of m ρ c main_arg0 (by decide)).trans rfl
  have x1 : W1 (F := Ideal) m ρ c (Proc.devRef .tc main_v9) = Cert.Math.agg 128 (m ((c.tc : Thread nD τ).loc main_arg0)) (m ((c.tc : Thread nD τ).loc main_arg1)) (m ((c.tc : Thread nD τ).loc main_arg2)) :=
    after0_agg (W0 m ρ c)
  exact layer0_arrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (X0 := W1 m ρ c (Proc.devRef .tc main_arg0)) (X1 := W1 m ρ c (Proc.devRef .tc main_v9))
    (X2 := W1 m ρ c (Proc.devRef .tc main_arg3)) (X3 := W1 m ρ c (Proc.devRef .tc main_v10))
    (X4 := W1 m ρ c (Proc.devRef .tc main_arg5)) (X5 := W1 m ρ c (Proc.devRef .tc main_v11))
    (Z := W2 m ρ c (Proc.devRef .tc main_v14_0)) (Out := W3 m ρ c (Proc.devRef .tc main_v15))
    (Mn := W2 m ρ c (Proc.devRef .tc main_v14_1)) (Vr := W2 m ρ c (Proc.devRef .tc main_v14_2))
    (Gm := W2 m ρ c (Proc.devRef .tc main_v12)) (Bt := W2 m ρ c (Proc.devRef .tc main_v13))
    ((W3_arr m ρ c 5).trans (final1_5 (V2 m ρ) c))
    ((W2_arr m ρ c 6).trans (Reg0.final6 (V1 m ρ) c))
    (fun j => (congrFun (W2_arr m ρ c 7) _).trans (Reg0.final7 (V1 m ρ) c j))
    (fun hz j => (congrFun (W2_arr m ρ c 8) _).trans (Reg0.final8 (V1 m ρ) c hz j))
    x0 (x1.trans (agg128_eq _ _ _).symm)
    ((W1_of m ρ c main_arg3 (by decide)).trans rfl)
    (fun j => after0_b1r_apply (W0 m ρ c) 0 j)
    ((W1_of m ρ c main_arg5 (by decide)).trans rfl)
    (fun j => after0_b2r_apply (W0 m ρ c) 0 j)
    (fun j => (congrFun (W2_of_ne m ρ c main_v12 (by decide)) _).trans (after0_gr_apply (W0 m ρ c) 0 j))
    (fun j => (congrFun (W2_of_ne m ρ c main_v13 (by decide)) _).trans (after0_ber_apply (W0 m ρ c) 0 j))
    (real_arg0 m hpre c) (fun i => by rw [x1]; exact Cert.Math.agg_real 128 _ _ _ (real_arg0 m hpre c) i)
    (real_arg3 m hpre c) (real_arg4 m hpre c) (real_arg5 m hpre c) (real_arg6 m hpre c) (real_arg7 m hpre c)
    (real_arg8 m hpre c)

end Cert.KernelIdeal.HandVal

end
-- ==== Proof.KernelIdeal.Bn3Val.lean ====
/-
  The output array of the batch-norm-and-ReLU region, in closed form, over the extended reals.

  The region runs its body at ten grid points; point t reads row tile t of the pre-activations and the four
  statistic rows, and writes row tile t of the output array. Here we show that once all ten points have written
  back, the output array IS the whole-array function bnArr of the five input arrays as the region found them (V):
  at row r and column j, max(((z(r,j) - mean(0,j)) * rsqrt(var(0,j) + eps)) * scale(0,j) + shift(0,j), 0).

  The steps: the tile the body leaves, read at one element, is bnElt of the element of the pre-activation tile and
  the four statistics of its column (the payload is a tree of pointwise operations and row broadcasts); the
  pre-activation block and the output block at point t sit at the same place of their arrays (row 5000 t + p), and
  each statistic row's one block is its whole array; so what point t writes back is its block of bnArr; the ten
  blocks cover every row (row r belongs to point r / 5000); hence the array ends as bnArr.
-/
import proofs.«144771_j36481452212846_1_alg».proof.Proof.KernelIdeal.Bn3
import proofs.«144771_j36481452212846_1_alg».proof.Proof.Math.BnSpec
import Idealize.ShloMosaic.Lib.Pipeline.Value
import Idealize.ShloMosaic.Lib.ValueIdx
import Idealize.ShloMosaic.Lib.ValueLayout

set_option maxRecDepth 16384

noncomputable section

namespace Cert.KernelIdeal.HandVal

open Cert.KernelIdeal Cert.KernelIdeal.Gen Cert.KernelIdeal.Hand Cert.Math
open Idealize.ShloMosaic Idealize.ShloMosaic.TcCoe Idealize.SL.Sem
open Idealize.ShloMosaic.Pipeline (Dat)
open Idealize.ShloMosaic.ValueIdx

/-- The zero offsets of a whole-buffer rectangle, spelt as a function. -/
private theorem zeros : (![0, 0] : Fin 2 → Nat) = fun _ => 0 :=
  funext fun a => by match a with | ⟨0, _⟩ => rfl | ⟨1, _⟩ => rfl

/-- The reciprocal square root of a vector, read at an index, is that of the element. -/
private theorem rsqrt_at {s : Shape} {φ : FTy} (a : FVec Ideal s φ) (i : s.Idx) : rsqrt a i = Ideal.rsqrt (a i) := rfl

/-! ## The tile the body leaves, element by element -/

/-- Row p, column q of the output tile, from the five input blocks: the element of the pre-activation tile there,
    treated with the four statistics of column q. The body's one store covers the tile, so the tile is the
    payload; the payload is a tree of pointwise operations over the tile and the four rows broadcast down it. -/
theorem out3_5_apply (x0 : Vec Ideal S5000x64 .f32) (x1 x2 x3 x4 : Vec Ideal S1x64 .f32) (p : Fin 5000) (q : Fin 64) :
    out3_5 x0 x1 x2 x3 x4 (ix2 p q)
      = bnElt (x0 (ix2 p q)) (x1 (ix2 (0 : Fin 1) q)) (x2 (ix2 (0 : Fin 1) q)) (x3 (ix2 (0 : Fin 1) q)) (x4 (ix2 (0 : Fin 1) q)) := by
  unfold out3_5
  rw [View.canon_unit_zero zeros]
  simp only [View.ld_unit_zero (S := S5000x64) zeros, View.ld_unit_zero (S := S1x64) zeros]
  unfold k3_pay1 bnElt
  simp only [maximumf_apply, addf_apply, mulf_apply, subf_apply, broadcast_apply, shapeCast_self, broadcastTo_1b_ab_apply, rsqrt_at]
  rfl

variable (V : (c : Dev nD) → (b : Ref sig .tc) → Buf (Elt Ideal) ((c : Thread nD τ).loc b))

/-! ## Where the windows' blocks sit -/

/-- The block indices over the grid, decided point by point: the pre-activation window and the output window are
    both at row tile t, column tile 0; the four rows are at block (0, 0) throughout. -/
theorem idxFacts3 : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- A row tile of the grid lies inside the array: ten tiles of 5000 rows. -/
theorem row_lt3 (t : Fin cfg3.N) (p : Fin 5000) : t.val * 5000 + p.val < 50000 := by
  have ht : t.val < cfg3.N := t.isLt
  have hN : cfg3.N = 10 := N_3
  have hp : p.val < 5000 := p.isLt
  omega

/-- The pre-activation block at point t, read at row p and column q, is the array at row 5000 t + p. -/
theorem iblk3_0_at (c : Dev nD) (t : Fin cfg3.N) (p : Fin 5000) (q : Fin 64) :
    iblk3 V c 0 t (ix2 p q) = V c (Pipeline.arrRef spec3 0) (ix2 (⟨t.val * 5000 + p.val, row_lt3 t p⟩ : Fin 50000) q) := by
  obtain ⟨e0, e1, -⟩ := idxFacts3 t
  show V c (Pipeline.arrRef spec3 0) (((cfg3.win 0).blk t).view.emb (ix2 p q)) = _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 64 + 1 * q.val = q.val; omega

/-- Each of the four rows is its own whole array: its one block, at (0, 0), read at column q is the array there. -/
theorem iblk3_1_row (c : Dev nD) (t : Fin cfg3.N) (q : Fin 64) :
    iblk3 V c 1 t (ix2 (0 : Fin 1) q) = V c (Pipeline.arrRef spec3 1) (ix2 (0 : Fin 1) q) := by
  obtain ⟨-, -, -, -, e0, e1, -⟩ := idxFacts3 t
  show V c (Pipeline.arrRef spec3 1) (((cfg3.win 1).blk t).view.emb (ix2 (0 : Fin 1) q)) = _
  refine congrArg _ (funext fun a => Fin.ext ?_)
  match a with
  | ⟨0, _⟩ => show win3_1.index t (0 : Fin 2) * 1 + 1 * 0 = 0; omega
  | ⟨1, _⟩ => show win3_1.index t (1 : Fin 2) * 64 + 1 * q.val = q.val; omega
theorem iblk3_2_row (c : Dev nD) (t : Fin cfg3.N) (q : Fin 64) :
    iblk3 V c 2 t (ix2 (0 : Fin 1) q) = V c (Pipeline.arrRef spec3 2) (ix2 (0 : Fin 1) q) := by
  obtain ⟨-, -, -, -, -, -, e0, e1, -⟩ := idxFacts3 t
  show V c (Pipeline.arrRef spec3 2) (((cfg3.win 2).blk t).view.emb (ix2 (0 : Fin 1) q)) = _
  refine congrArg _ (funext fun a => Fin.ext ?_)
  match a with
  | ⟨0, _⟩ => show win3_2.index t (0 : Fin 2) * 1 + 1 * 0 = 0; omega
  | ⟨1, _⟩ => show win3_2.index t (1 : Fin 2) * 64 + 1 * q.val = q.val; omega
theorem iblk3_3_row (c : Dev nD) (t : Fin cfg3.N) (q : Fin 64) :
    iblk3 V c 3 t (ix2 (0 : Fin 1) q) = V c (Pipeline.arrRef spec3 3) (ix2 (0 : Fin 1) q) := by
  obtain ⟨-, -, -, -, -, -, -, -, e0, e1, -⟩ := idxFacts3 t
  show V c (Pipeline.arrRef spec3 3) (((cfg3.win 3).blk t).view.emb (ix2 (0 : Fin 1) q)) = _
  refine congrArg _ (funext fun a => Fin.ext ?_)
  match a with
  | ⟨0, _⟩ => show win3_3.index t (0 : Fin 2) * 1 + 1 * 0 = 0; omega
  | ⟨1, _⟩ => show win3_3.index t (1 : Fin 2) * 64 + 1 * q.val = q.val; omega
theorem iblk3_4_row (c : Dev nD) (t : Fin cfg3.N) (q : Fin 64) :
    iblk3 V c 4 t (ix2 (0 : Fin 1) q) = V c (Pipeline.arrRef spec3 4) (ix2 (0 : Fin 1) q) := by
  obtain ⟨-, -, -, -, -, -, -, -, -, -, e0, e1⟩ := idxFacts3 t
  show V c (Pipeline.arrRef spec3 4) (((cfg3.win 4).blk t).view.emb (ix2 (0 : Fin 1) q)) = _
  refine congrArg _ (funext fun a => Fin.ext ?_)
  match a with
  | ⟨0, _⟩ => show win3_4.index t (0 : Fin 2) * 1 + 1 * 0 = 0; omega
  | ⟨1, _⟩ => show win3_4.index t (1 : Fin 2) * 64 + 1 * q.val = q.val; omega

/-- Where row p, column q of the output block at point t sits in the output array: row 5000 t + p, column q. -/
theorem emb3_5_at (t : Fin cfg3.N) (p : Fin 5000) (q : Fin 64) :
    ((cfg3.win 5).blk t).view.emb (ix2 p q) = (ix2 (⟨t.val * 5000 + p.val, row_lt3 t p⟩ : Fin 50000) q : S50000x64.Idx) := by
  obtain ⟨-, -, e0, e1, -⟩ := idxFacts3 t
  refine funext fun a => Fin.ext ?_
  match a with
  | ⟨0, _⟩ => show win3_5.index t (0 : Fin 2) * 5000 + 1 * p.val = t.val * 5000 + p.val; omega
  | ⟨1, _⟩ => show win3_5.index t (1 : Fin 2) * 64 + 1 * q.val = q.val; omega

/-! ## What a grid point writes back -/

/-- The output tile of point t at row p and column q is bnArr of the five arrays at row 5000 t + p, column q. -/
theorem tile3_5_at (c : Dev nD) (t : Fin cfg3.N) (p : Fin 5000) (q : Fin 64) :
    out3_5 (iblk3 V c 0 t) (iblk3 V c 1 t) (iblk3 V c 2 t) (iblk3 V c 3 t) (iblk3 V c 4 t) (ix2 p q)
      = bnArr (V c (Pipeline.arrRef spec3 0)) (V c (Pipeline.arrRef spec3 1)) (V c (Pipeline.arrRef spec3 2))
          (V c (Pipeline.arrRef spec3 3)) (V c (Pipeline.arrRef spec3 4)) (ix2 (⟨t.val * 5000 + p.val, row_lt3 t p⟩ : Fin 50000) q) :=
  (out3_5_apply (iblk3 V c 0 t) (iblk3 V c 1 t) (iblk3 V c 2 t) (iblk3 V c 3 t) (iblk3 V c 4 t) p q).trans
    (congr (congr (congr (congr (congrArg bnElt (iblk3_0_at V c t p q)) (iblk3_1_row V c t q)) (iblk3_2_row V c t q))
      (iblk3_3_row V c t q)) (iblk3_4_row V c t q))

/-- Point t writes back row tile t of bnArr of the five arrays as the region finds them. -/
theorem flushed3_5_eq (c : Dev nD) (t : Fin cfg3.N) :
    (dat3 (F := Ideal) V c).flushed 5 t = ((cfg3.win 5).blk t).view.read (Elt Ideal)
      (bnArr (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  funext j
  obtain ⟨p, q, rfl⟩ : ∃ (p : Fin 5000) (q : Fin 64), j = ix2 p q := ⟨j 0, j 1, eq_ix2 j⟩
  show out3_5 (iblk3 V c 0 t) (iblk3 V c 1 t) (iblk3 V c 2 t) (iblk3 V c 3 t) (iblk3 V c 4 t) (ix2 p q)
    = bnArr (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb (ix2 p q))
  exact (tile3_5_at V c t p q).trans (congrArg _ (emb3_5_at t p q).symm)

/-! ## The ten tiles fill the array -/

/-- An index of the output array lies in point t's block exactly when each coordinate lies in the block's range. -/
theorem memBlk3_5 (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole (Pipeline.arrRef spec3 5)).slice (win3_5.rect t)).set ↔ _
  rw [View.set_slice_whole, Rect.mem_set_unit]
  exact Iff.rfl

/-- Every index of the output array is written back by some point: row r by point r / 5000. -/
theorem covered3_5 (i : S50000x64.Idx) :
    ∃ t : Fin cfg3.N, (cfg3.win 5).flush t = true ∧ i ∈ ((cfg3.win 5).blk t).view.set := by
  have hi0 : (i 0).val < 50000 := idx2_lt0 i
  have hi1 : (i 1).val < 64 := idx2_lt1 i
  have hN : cfg3.N = 10 := N_3
  have ht : (i 0).val / 5000 < cfg3.N := by rw [hN]; omega
  obtain ⟨-, -, e50, e51, -⟩ := idxFacts3 ⟨(i 0).val / 5000, ht⟩
  refine ⟨⟨(i 0).val / 5000, ht⟩, flush3_5 _, ?_⟩
  rw [memBlk3_5]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, ht⟩ (1 : Fin 2) * 64 ≤ (i 1).val
      ∧ (i 1).val < win3_5.index ⟨(i 0).val / 5000, ht⟩ (1 : Fin 2) * 64 + 64
    rw [e51]; omega

/-! ## The output array after the region -/

/-- After all ten points have written back, the output array is bnArr of the five input arrays as the region
    found them. -/
theorem final3_5 (c : Dev nD) :
    (dat3 (F := Ideal) V c).arrAt 5 cfg3.N
      = bnArr (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 _ (fun t _ => flushed3_5_eq V c t) covered3_5

end Cert.KernelIdeal.HandVal

end
-- ==== Proof.KernelIdeal.Mlp2Piece.lean ====
/-
  The first statistics pass, one tile at a time: what each written buffer holds, as arithmetic.

  A tile's run leaves in each buffer it writes a list of stored pieces. Every store of this body
  covers its whole buffer, so what a buffer ends holding is the payload of the last store into it;
  and where the body loads a buffer back after storing into it (the running rows after they are
  zeroed on the first tile, and after they are updated on the last), the load reads that stored
  payload. Read this way:
    the activations block holds the tile's activations z (the two affine maps with the clamp between);
    the running row of sums holds (what it held, or zero on the first tile) + column sums of z;
    the running row of sums of squares holds the same for z · z;
    on the last tile the mean block holds sums · 1/n and the variance block sumsq · 1/n - mean · mean.
-/
import proofs.«144771_j36481452212846_1_alg».proof.Proof.KernelIdeal.Mlp2Dat
import Idealize.ShloMosaic.Lib.Pipeline.Value
import Idealize.ShloMosaic.Lib.Tactic

-- the buffers' rectangles of 5000 rows are compared one coordinate at a time
set_option maxRecDepth 16384

noncomputable section

namespace Cert.KernelIdeal.HandVal.Reg2

open Cert.KernelIdeal Cert.KernelIdeal.Gen Cert.KernelIdeal.Hand
open Idealize.ShloMosaic Idealize.ShloMosaic.TcCoe Idealize.ShloMosaic.Tactic Idealize.SL.Sem

variable {F : FTy → Type} [FloatOps F] [Named F]

/-- The zero offsets of a whole-buffer access, as the constant function. -/
theorem hz2 : (![0, 0] : Fin 2 → Nat) = fun _ => 0 := funext fun a => by fin_cases a <;> rfl

/-- On its way to the running row of sums the updated row passes through a cast between equal shapes:
    the cast changes nothing. -/
theorem pay1_cast (v : FVec F S1x64 .f32) : k2_pay1 v = v := by
  unfold k2_pay1
  exact shapeCast_self _ _

/-- First tile: the activations block holds the tile's activations, the one piece stored into it. -/
theorem out2_A_6_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) :
    out2_A_6 c i arg1 harg1 arg2 harg2 arg3 harg3 arg4 harg4 arg5 harg5 arg6 harg6 arg7 harg7 arg8 harg8 arg9 harg9 arg10 harg10 arg11 harg11 hc0 hc1 x0 x1 x2 x3 x4 x5 = k2_pay5 x0 x1 x2 x3 x4 x5 := by
  unfold out2_A_6
  rw [View.read_writes_eq_canon _ _ _ (cover2_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- First tile: the running row of sums was zeroed, read back, and holds zero plus the tile's column sums. -/
theorem sout2_A_0_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) :
    sout2_A_0 c i arg1 harg1 arg2 harg2 arg3 harg3 arg4 harg4 arg5 harg5 arg6 harg6 arg7 harg7 arg8 harg8 arg9 harg9 arg10 harg10 arg11 harg11 hc0 hc1 x0 x1 x2 x3 x4 x5 = k2_pay8 x0 x1 x2 x3 x4 x5 (k2_pay6 (F := F)) := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- First tile: the running row of sums of squares, likewise from zero. -/
theorem sout2_A_1_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) :
    sout2_A_1 c i arg1 harg1 arg2 harg2 arg3 harg3 arg4 harg4 arg5 harg5 arg6 harg6 arg7 harg7 arg8 harg8 arg9 harg9 arg10 harg10 arg11 harg11 hc0 hc1 x0 x1 x2 x3 x4 x5 = k2_pay2 (k2_pay5 x0 x1 x2 x3 x4 x5) (k2_pay7 (F := F)) := by
  unfold sout2_A_1
  rw [View.read_writes_eq_canon _ _ _ (scover2_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- A middle tile: the activations block holds the tile's activations. -/
theorem out2_B_6_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out2_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x0 x1 x2 x3 x4 x5 := by
  unfold out2_B_6
  rw [View.read_writes_eq_canon _ _ _ (cover2_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- A middle tile: the running row of sums holds what it held plus the tile's column sums. -/
theorem sout2_B_0_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout2_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay8 x0 x1 x2 x3 x4 x5 xs0 := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- A middle tile: the running row of sums of squares, likewise. -/
theorem sout2_B_1_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout2_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay5 x0 x1 x2 x3 x4 x5) xs1 := by
  unfold sout2_B_1
  rw [View.read_writes_eq_canon _ _ _ (scover2_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- Last tile: the activations block holds the tile's activations. -/
theorem out2_C_6_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out2_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x0 x1 x2 x3 x4 x5 := by
  unfold out2_C_6
  rw [View.read_writes_eq_canon _ _ _ (cover2_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- Last tile: the mean block holds the updated running row of sums, read back, times the reciprocal of the row count. -/
theorem out2_C_7_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out2_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay3 (k2_pay8 x0 x1 x2 x3 x4 x5 xs0) := by
  unfold out2_C_7
  rw [View.read_writes_eq_canon _ _ _ (cover2_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  sl_unfold_words
  rw [View.canon_unit_zero hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- Last tile: the variance block holds the updated sums of squares times that reciprocal, less the mean's square. -/
theorem out2_C_8_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out2_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay4 (k2_pay8 x0 x1 x2 x3 x4 x5 xs0) (k2_pay2 (k2_pay5 x0 x1 x2 x3 x4 x5) xs1) := by
  unfold out2_C_8
  rw [View.read_writes_eq_canon _ _ _ (cover2_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  sl_unfold_words
  rw [View.canon_unit_zero hz2, View.readCov_unit_zero (S := S1x64) _ hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- Last tile: the running row of sums holds what it held plus the tile's column sums. -/
theorem sout2_C_0_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout2_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay8 x0 x1 x2 x3 x4 x5 xs0 := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- Last tile: the running row of sums of squares, likewise. -/
theorem sout2_C_1_eq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout2_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay5 x0 x1 x2 x3 x4 x5) xs1 := by
  unfold sout2_C_1
  rw [View.read_writes_eq_canon _ _ _ (scover2_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

end Cert.KernelIdeal.HandVal.Reg2

end
-- ==== Proof.KernelIdeal.Pay2Idx.lean ====
/-
  The statistics kernel of a later layer (inputs 64 wide), its tile arithmetic read one element at a time on the
  extended reals.

  One tile holds 5000 rows. With x and a the tile's two 5000 × 64 inputs, W₁ and W₂ (64 × 64), b₁ and b₂ the
  layer's weights, the tile's value is
      z r j = (∑ k, max ((∑ l, (x r l + a r l) · W₁ l k) + b₁ k) 0 · W₂ k j) + b₂ j,
  the running column totals take  s j ↦ s j + (0 + ∑ r, z r j)  and  q j ↦ q j + (0 + ∑ r, z r j · z r j),
  both start from the zero row, the total s is stored through a cast that changes nothing, and the last step
  forms  m j = s j · (1/50000)  and  v j = q j · (1/50000) - m j · m j.
  Each of those named terms is opened here at an index written by its coordinates: the narrowing to sixteen bits
  before a product is the identity on the extended reals, a product into a zero accumulator is the plain sum
  over the contracted coordinate, a sum over the rows is the sum over the row coordinate, a cast between equal
  shapes is the identity, the cast [64] → [1, 64] forgets the unit coordinate, and a row broadcast over the tile
  reads the row. The zero of a clamp or of a sum's start is kept as the word it is written with. Both products
  have one shape here, 5000 × 64 by 64 × 64; the lemma about it is given under the first product's name and
  again under the second's.
-/
import proofs.«144771_j36481452212846_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandVal

open Cert.KernelIdeal Cert.KernelIdeal.Gen Idealize.ShloMosaic Idealize.ShloMosaic.ValueIdx

namespace Reg2

/-! ## The product: 5000 × 64 by 64 × 64, contracted over the first 64 -/

/-- The left operand's row coordinate is the result's row coordinate … -/
theorem first_lhs_0 (j : S5000x64.Idx) (q : dot_S5000x64_S64x64_S5000x64_1_0_0_1_n_n.contr.Idx) :
    (dot_S5000x64_S64x64_S5000x64_1_0_0_1_n_n.lhsIdx j q 0).val = (j 0).val := rfl
/-- … its column coordinate the contracted one … -/
theorem first_lhs_1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  DotDims.lhsIdx_val_of_single _ rfl j q
/-- … the right operand's row coordinate the contracted one … -/
theorem first_rhs_0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  DotDims.rhsIdx_val_of_single _ rfl j q
/-- … and its column coordinate the result's column coordinate. -/
theorem first_rhs_1 (j : S5000x64.Idx) (q : dot_S5000x64_S64x64_S5000x64_1_0_0_1_n_n.contr.Idx) :
    (dot_S5000x64_S64x64_S5000x64_1_0_0_1_n_n.rhsIdx j q 1).val = (j 1).val := rfl

/-- Into the zero accumulator the product at (r, k) is the sum over l of A r l · B l k. -/
theorem first_matmul_apply {φ₁ φ₂ : FTy} (A : FVec Ideal S5000x64 φ₁) (B : FVec Ideal S64x64 φ₂)
    (r : Fin 5000) (k : Fin 64) :
    matmul dot_S5000x64_S64x64_S5000x64_1_0_0_1_n_n none A B (constant (F := Ideal) S5000x64 .f32 0x00000000#32) (ix2 r k)
      = ∑ l : Fin 64, A (ix2 r l) * B (ix2 l k) := by
  refine (Ideal.matmul_constant_zero_apply dot_S5000x64_S64x64_S5000x64_1_0_0_1_n_n none A B (ix2 r k)).trans ?_
  rw [← Equiv.sum_comp (contrEquiv1 dot_S5000x64_S64x64_S5000x64_1_0_0_1_n_n 64 rfl rfl).symm]
  refine Finset.sum_congr rfl fun l _ => ?_
  have hL : dot_S5000x64_S64x64_S5000x64_1_0_0_1_n_n.lhsIdx (ix2 r k)
      ((contrEquiv1 dot_S5000x64_S64x64_S5000x64_1_0_0_1_n_n 64 rfl rfl).symm l) = ix2 r l := by
    funext a; refine Fin.ext ?_
    match a with
    | ⟨0, _⟩ => exact first_lhs_0 _ _
    | ⟨1, _⟩ => exact (first_lhs_1 _ _).trans (contrEquiv1_symm_val _ 64 rfl rfl l)
  have hR : dot_S5000x64_S64x64_S5000x64_1_0_0_1_n_n.rhsIdx (ix2 r k)
      ((contrEquiv1 dot_S5000x64_S64x64_S5000x64_1_0_0_1_n_n 64 rfl rfl).symm l) = ix2 l k := by
    funext a; refine Fin.ext ?_
    match a with
    | ⟨0, _⟩ => exact (first_rhs_0 _ _).trans (contrEquiv1_symm_val _ 64 rfl rfl l)
    | ⟨1, _⟩ => exact first_rhs_1 _ _
  rw [hL, hR]

/-! ## The same, under the second product's name -/

/-- The left operand's row coordinate is the result's row coordinate … -/
theorem second_lhs_0 (j : S5000x64.Idx) (q : dot_S5000x64_S64x64_S5000x64_1_0_0_1_n_n.contr.Idx) :
    (dot_S5000x64_S64x64_S5000x64_1_0_0_1_n_n.lhsIdx j q 0).val = (j 0).val := first_lhs_0 j q
/-- … its column coordinate the contracted one … -/
theorem second_lhs_1 (j : S5000x64.Idx) (q : dot_S5000x64_S64x64_S5000x64_1_0_0_1_n_n.contr.Idx) :
    (dot_S5000x64_S64x64_S5000x64_1_0_0_1_n_n.lhsIdx j q 1).val = (q ⟨0, by decide⟩).val := first_lhs_1 j q
/-- … the right operand's row coordinate the contracted one … -/
theorem second_rhs_0 (j : S5000x64.Idx) (q : dot_S5000x64_S64x64_S5000x64_1_0_0_1_n_n.contr.Idx) :
    (dot_S5000x64_S64x64_S5000x64_1_0_0_1_n_n.rhsIdx j q 0).val = (q ⟨0, by decide⟩).val := first_rhs_0 j q
/-- … and its column coordinate the result's column coordinate. -/
theorem second_rhs_1 (j : S5000x64.Idx) (q : dot_S5000x64_S64x64_S5000x64_1_0_0_1_n_n.contr.Idx) :
    (dot_S5000x64_S64x64_S5000x64_1_0_0_1_n_n.rhsIdx j q 1).val = (j 1).val := first_rhs_1 j q

/-- Into the zero accumulator the product at (r, j) is the sum over k of A r k · B k j. -/
theorem second_matmul_apply {φ₁ φ₂ : FTy} (A : FVec Ideal S5000x64 φ₁) (B : FVec Ideal S64x64 φ₂)
    (r : Fin 5000) (j : Fin 64) :
    matmul dot_S5000x64_S64x64_S5000x64_1_0_0_1_n_n none A B (constant (F := Ideal) S5000x64 .f32 0x00000000#32) (ix2 r j)
      = ∑ k : Fin 64, A (ix2 r k) * B (ix2 k j) := first_matmul_apply A B r j

/-! ## The sum over a tile's rows, and the cast that gives it back its unit row coordinate -/

/-- The row sum of a 5000 × 64 tile, cast to one row of 64, at column j: the sum over the 5000 rows. -/
theorem colsum_S5000x64_apply (X : FVec Ideal S5000x64 .f32) (hφ : FKind.Formats .f32)
    (hacc : (0x00000000#32 : BitVec 32) = 0x00000000#32) (u : Fin 1) (j : Fin 64) :
    shapeCast S1x64 (multiReduction (F := Ideal) .add [0] S64 X 0x00000000#32 reduces_S5000x64_S64 hφ hacc)
        shapeCasts_S64_S1x64 (ix2 u j)
      = ∑ r : Fin 5000, X (ix2 r j) := by
  refine (shapeCast_a_1a_apply _ shapeCasts_S64_S1x64 u j).trans ?_
  refine (Ideal.multiReduction_add_single X 0x00000000#32 reduces_S5000x64_S64 hφ hacc (ix1 j)).trans ?_
  refine Finset.sum_congr rfl fun r _ => congrArg X ?_
  funext a; refine Fin.ext ?_
  match a with
  | ⟨0, _⟩ => rfl
  | ⟨1, _⟩ => rfl

/-! ## The named terms at an index -/

/-- The column total is stored as it is: the cast on its way keeps the shape. -/
theorem pay1_eq (v32 : FVec Ideal S1x64 .f32) : k2_pay1 (F := Ideal) v32 = v32 := by
  unfold k2_pay1
  exact shapeCast_self _ _

/-- The same at column j. -/
theorem pay1_apply (v32 : FVec Ideal S1x64 .f32) (j : Fin 64) : k2_pay1 (F := Ideal) v32 (ix2 0 j) = v32 (ix2 0 j) :=
  congrFun (pay1_eq v32) _

/-- The running total of squares after one more tile, at column j. -/
theorem pay2_apply (v24 : Vec Ideal S5000x64 .f32) (v36 : Vec Ideal S1x64 .f32) (j : Fin 64) :
    k2_pay2 (F := Ideal) v24 v36 (ix2 0 j)
      = v36 (ix2 0 j) + (Ideal.ofBits .f32 0x00000000#32 + ∑ r : Fin 5000, v24 (ix2 r j) * v24 (ix2 r j)) := by
  unfold k2_pay2
  simp only [addf_apply, shapeCast_self]
  refine congrArg (v36 (ix2 0 j) + ·) ?_
  refine (colsum_S5000x64_apply _ _ _ 0 j).trans ?_
  simp only [mulf_apply, Ideal.ofBits_zero_f32, zero_add]

/-- The constant the totals are scaled by is the rational 1/50000. -/
theorem inv_n : Named.named (F := Ideal) Cert.KernelIdeal.κ "inv_50000" (φ := .f32) 0x37A7C5AC#32 = ((1 / 50000 : ℝ) : EReal) :=
  IdealRules.named_const.ideal_named_scalar _ _ _ _ rfl

/-- The mean at column j: the total times 1/50000. -/
theorem pay3_apply (v47 : Vec Ideal S1x64 .f32) (j : Fin 64) :
    k2_pay3 (F := Ideal) v47 (ix2 0 j) = v47 (ix2 0 j) * ((1 / 50000 : ℝ) : EReal) := by
  unfold k2_pay3
  simp only [mulf_apply, broadcast_apply, inv_n]

/-- The variance at column j: the total of squares times 1/50000, less the mean's square. -/
theorem pay4_apply (v47 v50 : Vec Ideal S1x64 .f32) (j : Fin 64) :
    k2_pay4 (F := Ideal) v47 v50 (ix2 0 j)
      = v50 (ix2 0 j) * ((1 / 50000 : ℝ) : EReal)
        - (v47 (ix2 0 j) * ((1 / 50000 : ℝ) : EReal)) * (v47 (ix2 0 j) * ((1 / 50000 : ℝ) : EReal)) := by
  unfold k2_pay4
  simp only [subf_apply, mulf_apply, broadcast_apply, inv_n, pay3_apply]

/-- The tile's value at row r and column j. -/
theorem pay5_apply (v0 v2 : Vec Ideal S5000x64 .f32) (v6 : Vec Ideal S64x64 .f32) (v10 : Vec Ideal S1x64 .f32)
    (v17 : Vec Ideal S64x64 .f32) (v21 : Vec Ideal S1x64 .f32) (r : Fin 5000) (j : Fin 64) :
    k2_pay5 (F := Ideal) v0 v2 v6 v10 v17 v21 (ix2 r j)
      = (∑ k : Fin 64, max ((∑ l : Fin 64, (v0 (ix2 r l) + v2 (ix2 r l)) * v6 (ix2 l k)) + v10 (ix2 0 k))
            (Ideal.ofBits .f32 0x00000000#32) * v17 (ix2 k j)) + v21 (ix2 0 j) := by
  unfold k2_pay5
  simp only [addf_apply, maximumf_apply, truncf_apply, broadcast_apply, shapeCast_self, broadcastTo_1b_ab_apply,
    first_matmul_apply]
  rfl

/-- The row the totals start from is zero at every column … -/
theorem pay6_apply (j : Fin 64) : k2_pay6 (F := Ideal) (ix2 0 j) = Ideal.ofBits .f32 0x00000000#32 := by
  unfold k2_pay6
  simp only [shapeCast_self, broadcast_apply]
  rfl

/-- … and so is the one the totals of squares start from. -/
theorem pay7_apply (j : Fin 64) : k2_pay7 (F := Ideal) (ix2 0 j) = Ideal.ofBits .f32 0x00000000#32 := by
  unfold k2_pay7
  simp only [shapeCast_self, broadcast_apply]
  rfl

/-- The running column total after one more tile, at column j: the carried total plus the tile's column sum. -/
theorem pay8_apply (v0 v2 : Vec Ideal S5000x64 .f32) (v6 : Vec Ideal S64x64 .f32) (v10 : Vec Ideal S1x64 .f32)
    (v17 : Vec Ideal S64x64 .f32) (v21 : Vec Ideal S1x64 .f32) (v29 : Vec Ideal S1x64 .f32) (j : Fin 64) :
    k2_pay8 (F := Ideal) v0 v2 v6 v10 v17 v21 v29 (ix2 0 j)
      = v29 (ix2 0 j) + (Ideal.ofBits .f32 0x00000000#32 + ∑ r : Fin 5000, k2_pay5 (F := Ideal) v0 v2 v6 v10 v17 v21 (ix2 r j)) := by
  unfold k2_pay8
  simp only [addf_apply]
  refine congrArg (v29 (ix2 0 j) + ·) ?_
  refine (colsum_S5000x64_apply _ _ _ 0 j).trans ?_
  simp only [Ideal.ofBits_zero_f32, zero_add]

end Reg2

end Cert.KernelIdeal.HandVal

end
-- ==== Proof.KernelIdeal.Mlp2Inv.lean ====
/-
  The first statistics pass: its three output arrays in closed form, on the extended reals.

  Ten tiles of 5000 rows are walked. Each writes its block of the linear activations, so the
  activations array ends as ONE function of the argument arrays, the specification's preNorm, row by
  row. The two running rows start from zero and take one tile's column sums (of z, of z · z) a
  step; after the tenth they hold, by the regrouping of a sum over 50000 rows into ten of 5000,
  the column sums over all rows, and the mean and variance formed from them on the last tile are,
  by the variance identity for real entries, the direct mean and the direct variance of the column.
-/
import proofs.«144771_j36481452212846_1_alg».proof.Proof.KernelIdeal.Mlp2Piece
import proofs.«144771_j36481452212846_1_alg».proof.Proof.KernelIdeal.Pay2Idx
import proofs.«144771_j36481452212846_1_alg».proof.Proof.KernelIdeal.Zlin
import Idealize.ShloMosaic.Lib.Pipeline.Value
import Idealize.ShloMosaic.Lib.Tactic
import Idealize.ShloMosaic.Lib.ValueIdx

-- the blocks' rectangles of 5000 rows are compared one coordinate at a time
set_option maxRecDepth 16384

noncomputable section

open scoped BigOperators

namespace Cert.KernelIdeal.HandVal.Reg2

open Cert.KernelIdeal Cert.KernelIdeal.Gen Cert.KernelIdeal.Hand Cert.KernelIdeal.HandVal
open Idealize.ShloMosaic Idealize.ShloMosaic.TcCoe Idealize.ShloMosaic.Tactic Idealize.ShloMosaic.ValueIdx Idealize.SL.Sem
open Idealize.ShloMosaic.Pipeline (Dat)
open Cert.Math

/-! ## Arrays and blocks at their literal types -/

variable (V : (c : Dev nD) → (b : Ref sig .tc) → Buf (Elt Ideal) ((c : Thread nD τ).loc b))

/-- The six argument arrays of the pass, as it finds them. -/
abbrev X0 (c : Dev nD) : Vec Ideal S50000x64 .f32 := V c (Pipeline.arrRef spec2 0)
abbrev X1 (c : Dev nD) : Vec Ideal S50000x64 .f32 := V c (Pipeline.arrRef spec2 1)
abbrev X2 (c : Dev nD) : Vec Ideal S64x64 .f32 := V c (Pipeline.arrRef spec2 2)
abbrev X3 (c : Dev nD) : Vec Ideal S1x64 .f32 := V c (Pipeline.arrRef spec2 3)
abbrev X4 (c : Dev nD) : Vec Ideal S64x64 .f32 := V c (Pipeline.arrRef spec2 4)
abbrev X5 (c : Dev nD) : Vec Ideal S1x64 .f32 := V c (Pipeline.arrRef spec2 5)

/-- The linear activations of the whole graph, from those arrays. -/
abbrev zlin2 (c : Dev nD) : Vec Ideal S50000x64 .f32 := zlin (X0 V c) (X1 V c) (X2 V c) (X3 V c) (X4 V c) (X5 V c)

/-- The six blocks tile t reads. -/
abbrev B0 (c : Dev nD) (t : Fin cfg2.N) : Vec Ideal S5000x64 .f32 := iblk2 V c 0 t
abbrev B1 (c : Dev nD) (t : Fin cfg2.N) : Vec Ideal S5000x64 .f32 := iblk2 V c 1 t
abbrev B2 (c : Dev nD) (t : Fin cfg2.N) : Vec Ideal S64x64 .f32 := iblk2 V c 2 t
abbrev B3 (c : Dev nD) (t : Fin cfg2.N) : Vec Ideal S1x64 .f32 := iblk2 V c 3 t
abbrev B4 (c : Dev nD) (t : Fin cfg2.N) : Vec Ideal S64x64 .f32 := iblk2 V c 4 t
abbrev B5 (c : Dev nD) (t : Fin cfg2.N) : Vec Ideal S1x64 .f32 := iblk2 V c 5 t

/-- Tile t's linear activations. -/
abbrev tile (c : Dev nD) (t : Fin cfg2.N) : FVec Ideal S5000x64 .f32 :=
  k2_pay5 (F := Ideal) (B0 V c t) (B1 V c t) (B2 V c t) (B3 V c t) (B4 V c t) (B5 V c t)

/-- The running row of column sums after tile n: the zero row plus tile 0's column sums, then one
    tile's column sums more at each step. -/
def sumAt (c : Dev nD) : (n : ℕ) → n < cfg2.N → Vec Ideal S1x64 .f32
  | 0, h => k2_pay8 (F := Ideal) (B0 V c ⟨0, h⟩) (B1 V c ⟨0, h⟩) (B2 V c ⟨0, h⟩) (B3 V c ⟨0, h⟩) (B4 V c ⟨0, h⟩) (B5 V c ⟨0, h⟩) (k2_pay6 (F := Ideal))
  | n + 1, h => k2_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩)
      (sumAt c n (Nat.lt_of_succ_lt h))

/-- The running row of column sums of squares after tile n, likewise. -/
def sqAt (c : Dev nD) : (n : ℕ) → n < cfg2.N → Vec Ideal S1x64 .f32
  | 0, h => k2_pay2 (F := Ideal) (tile V c ⟨0, h⟩) (k2_pay7 (F := Ideal))
  | n + 1, h => k2_pay2 (F := Ideal) (tile V c ⟨n + 1, h⟩) (sqAt c n (Nat.lt_of_succ_lt h))

/-! ## The record along the ten tiles -/

/-- After tile n the activations block holds tile n's activations and the two running rows hold
    the running sums: by induction on the tile, each tile's case read through its pieces. -/
theorem outsAt_eq (c : Dev nD) : ∀ (n : ℕ) (h : n < cfg2.N),
    (outsAt2 V c n h).1 = tile V c ⟨n, h⟩ ∧ (outsAt2 V c n h).2.2.2.1 = sumAt V c n h
      ∧ (outsAt2 V c n h).2.2.2.2 = sqAt V c n h
  | 0, h => by
    have h1 : ¬(⟨0, h⟩ : Fin cfg2.N).val % 10 = 9 := by show ¬(0 % 10 = 9); decide
    rw [outsAt2_A V c ⟨0, h⟩ rfl h1]
    dsimp only
    exact ⟨out2_A_6_eq (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) (ms2_8 ⟨0, h⟩) (hs2_8 ⟨0, h⟩) scM2_0 (Memref.isWhole_whole _) scM2_1 (Memref.isWhole_whole _) ((hcond2_0 ⟨0, h⟩).mpr rfl) (fun hh => h1 ((hcond2_1 ⟨0, h⟩).mp hh)) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩),
      sout2_A_0_eq (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) (ms2_8 ⟨0, h⟩) (hs2_8 ⟨0, h⟩) scM2_0 (Memref.isWhole_whole _) scM2_1 (Memref.isWhole_whole _) ((hcond2_0 ⟨0, h⟩).mpr rfl) (fun hh => h1 ((hcond2_1 ⟨0, h⟩).mp hh)) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩),
      sout2_A_1_eq (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) (ms2_8 ⟨0, h⟩) (hs2_8 ⟨0, h⟩) scM2_0 (Memref.isWhole_whole _) scM2_1 (Memref.isWhole_whole _) ((hcond2_0 ⟨0, h⟩).mpr rfl) (fun hh => h1 ((hcond2_1 ⟨0, h⟩).mp hh)) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩)⟩
  | n + 1, h => by
    have hN : n + 1 < 10 := lt_of_lt_of_eq h (show cfg2.N = 10 from N_2)
    obtain ⟨-, ihS, ihQ⟩ := outsAt_eq c n (Nat.lt_of_succ_lt h)
    have h0 : ¬(⟨n + 1, h⟩ : Fin cfg2.N).val % 10 = 0 := by dsimp only; omega
    by_cases h1 : (⟨n + 1, h⟩ : Fin cfg2.N).val % 10 = 9
    · rw [outsAt2_C V c ⟨n + 1, h⟩ h0 h1]
      dsimp only
      refine ⟨out2_C_6_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) scM2_0 (Memref.isWhole_whole _) scM2_1 (Memref.isWhole_whole _) (fun hh => h0 ((hcond2_0 ⟨n + 1, h⟩).mp hh)) ((hcond2_1 ⟨n + 1, h⟩).mpr h1) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.2.2.1 (outsAt2 V c n (Nat.lt_of_succ_lt h)).2.2.2.2, ?_, ?_⟩
      · refine (sout2_C_0_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) scM2_0 (Memref.isWhole_whole _) scM2_1 (Memref.isWhole_whole _) (fun hh => h0 ((hcond2_0 ⟨n + 1, h⟩).mp hh)) ((hcond2_1 ⟨n + 1, h⟩).mpr h1) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.2.2.1 (outsAt2 V c n (Nat.lt_of_succ_lt h)).2.2.2.2).trans ?_
        exact congrArg (k2_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩)) ihS
      · refine (sout2_C_1_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) scM2_0 (Memref.isWhole_whole _) scM2_1 (Memref.isWhole_whole _) (fun hh => h0 ((hcond2_0 ⟨n + 1, h⟩).mp hh)) ((hcond2_1 ⟨n + 1, h⟩).mpr h1) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.2.2.1 (outsAt2 V c n (Nat.lt_of_succ_lt h)).2.2.2.2).trans ?_
        exact congrArg (k2_pay2 (F := Ideal) (tile V c ⟨n + 1, h⟩)) ihQ
    · rw [outsAt2_B V c ⟨n + 1, h⟩ h0 h1]
      dsimp only
      refine ⟨out2_B_6_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) scM2_0 (Memref.isWhole_whole _) scM2_1 (Memref.isWhole_whole _) (fun hh => h0 ((hcond2_0 ⟨n + 1, h⟩).mp hh)) (fun hh => h1 ((hcond2_1 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.2.2.1 (outsAt2 V c n (Nat.lt_of_succ_lt h)).2.2.2.2, ?_, ?_⟩
      · refine (sout2_B_0_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) scM2_0 (Memref.isWhole_whole _) scM2_1 (Memref.isWhole_whole _) (fun hh => h0 ((hcond2_0 ⟨n + 1, h⟩).mp hh)) (fun hh => h1 ((hcond2_1 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.2.2.1 (outsAt2 V c n (Nat.lt_of_succ_lt h)).2.2.2.2).trans ?_
        exact congrArg (k2_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩)) ihS
      · refine (sout2_B_1_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) scM2_0 (Memref.isWhole_whole _) scM2_1 (Memref.isWhole_whole _) (fun hh => h0 ((hcond2_0 ⟨n + 1, h⟩).mp hh)) (fun hh => h1 ((hcond2_1 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.2.2.1 (outsAt2 V c n (Nat.lt_of_succ_lt h)).2.2.2.2).trans ?_
        exact congrArg (k2_pay2 (F := Ideal) (tile V c ⟨n + 1, h⟩)) ihQ

/-! ## Blocks read off the arrays -/

/-- A tile's number as a number below ten. -/
abbrev t10 (t : Fin cfg2.N) : Fin 10 := ⟨t.val, lt_of_lt_of_eq t.isLt (show cfg2.N = 10 from N_2)⟩

/-- Where the blocks sit, decided over the ten tiles: the two row-tiled inputs and the activations
    at block (t, 0); the weights, the biases, the mean and the variance at block (0, 0). -/
theorem idx0 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Row r of tile t's block of node features is row 5000 t + r of the array. -/
theorem B0_apply (c : Dev nD) (t : Fin cfg2.N) (r : Fin 5000) (l : Fin 64) :
    B0 V c t (ix2 r l) = X0 V c (ix2 (rowOf (t10 t) r) l) := by
  have e := idx0 t
  show ((cfg2.win 0).blk t).view.read (Elt Ideal) (V c (Pipeline.arrRef spec2 0)) (ix2 r l)
    = V c (Pipeline.arrRef spec2 0) (ix2 (rowOf (t10 t) r) l)
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * r.val = 5000 * t.val + r.val; rw [e.1]; omega
  | ⟨1, _⟩ => show win2_0.index t (1 : Fin 2) * 64 + 1 * l.val = l.val; rw [e.2.1]; omega

/-- The same for the aggregated messages. -/
theorem B1_apply (c : Dev nD) (t : Fin cfg2.N) (r : Fin 5000) (l : Fin 64) :
    B1 V c t (ix2 r l) = X1 V c (ix2 (rowOf (t10 t) r) l) := by
  have e := idx0 t
  show ((cfg2.win 1).blk t).view.read (Elt Ideal) (V c (Pipeline.arrRef spec2 1)) (ix2 r l)
    = V c (Pipeline.arrRef spec2 1) (ix2 (rowOf (t10 t) r) l)
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * r.val = 5000 * t.val + r.val; rw [e.2.2.1]; omega
  | ⟨1, _⟩ => show win2_1.index t (1 : Fin 2) * 64 + 1 * l.val = l.val; rw [e.2.2.2.1]; omega

/-- The first weight matrix's block is the matrix, on every tile. -/
theorem B2_apply (c : Dev nD) (t : Fin cfg2.N) (r : Fin 64) (l : Fin 64) :
    B2 V c t (ix2 r l) = X2 V c (ix2 r l) := by
  have e := idx0 t
  show ((cfg2.win 2).blk t).view.read (Elt Ideal) (V c (Pipeline.arrRef spec2 2)) (ix2 r l)
    = V c (Pipeline.arrRef spec2 2) (ix2 r l)
  rw [View.read_apply]
  show V c (Pipeline.arrRef spec2 2) _ = V c (Pipeline.arrRef spec2 2) _
  congr 1
  funext a
  apply Fin.ext
  match a with
  | ⟨0, _⟩ => show win2_2.index t (0 : Fin 2) * 64 + 1 * r.val = r.val; rw [e.2.2.2.2.1]; omega
  | ⟨1, _⟩ => show win2_2.index t (1 : Fin 2) * 64 + 1 * l.val = l.val; rw [e.2.2.2.2.2.1]; omega

/-- The first bias row's block is the row. -/
theorem B3_apply (c : Dev nD) (t : Fin cfg2.N) (r : Fin 1) (l : Fin 64) :
    B3 V c t (ix2 r l) = X3 V c (ix2 r l) := by
  have e := idx0 t
  show ((cfg2.win 3).blk t).view.read (Elt Ideal) (V c (Pipeline.arrRef spec2 3)) (ix2 r l)
    = V c (Pipeline.arrRef spec2 3) (ix2 r l)
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * r.val = r.val; rw [e.2.2.2.2.2.2.1]; omega
  | ⟨1, _⟩ => show win2_3.index t (1 : Fin 2) * 64 + 1 * l.val = l.val; rw [e.2.2.2.2.2.2.2.1]; omega

/-- The second weight matrix's block is the matrix. -/
theorem B4_apply (c : Dev nD) (t : Fin cfg2.N) (r : Fin 64) (l : Fin 64) :
    B4 V c t (ix2 r l) = X4 V c (ix2 r l) := by
  have e := idx0 t
  show ((cfg2.win 4).blk t).view.read (Elt Ideal) (V c (Pipeline.arrRef spec2 4)) (ix2 r l)
    = V c (Pipeline.arrRef spec2 4) (ix2 r l)
  rw [View.read_apply]
  show V c (Pipeline.arrRef spec2 4) _ = V c (Pipeline.arrRef spec2 4) _
  congr 1
  funext a
  apply Fin.ext
  match a with
  | ⟨0, _⟩ => show win2_4.index t (0 : Fin 2) * 64 + 1 * r.val = r.val; rw [e.2.2.2.2.2.2.2.2.1]; omega
  | ⟨1, _⟩ => show win2_4.index t (1 : Fin 2) * 64 + 1 * l.val = l.val; rw [e.2.2.2.2.2.2.2.2.2.1]; omega

/-- The second bias row's block is the row. -/
theorem B5_apply (c : Dev nD) (t : Fin cfg2.N) (r : Fin 1) (l : Fin 64) :
    B5 V c t (ix2 r l) = X5 V c (ix2 r l) := by
  have e := idx0 t
  show ((cfg2.win 5).blk t).view.read (Elt Ideal) (V c (Pipeline.arrRef spec2 5)) (ix2 r l)
    = V c (Pipeline.arrRef spec2 5) (ix2 r l)
  rw [View.read_apply]
  show V c (Pipeline.arrRef spec2 5) _ = V c (Pipeline.arrRef spec2 5) _
  congr 1
  funext a
  apply Fin.ext
  match a with
  | ⟨0, _⟩ => show win2_5.index t (0 : Fin 2) * 1 + 1 * r.val = r.val; rw [e.2.2.2.2.2.2.2.2.2.2.1]; omega
  | ⟨1, _⟩ => show win2_5.index t (1 : Fin 2) * 64 + 1 * l.val = l.val; rw [e.2.2.2.2.2.2.2.2.2.2.2.1]; omega

/-- Tile t's activations at (r, j) are the whole graph's activations at row 5000 t + r. -/
theorem tile_apply (c : Dev nD) (t : Fin cfg2.N) (r : Fin 5000) (j : Fin 64) :
    tile V c t (ix2 r j) = zlin2 V c (ix2 (rowOf (t10 t) r) j) := by
  refine (pay5_apply (B0 V c t) (B1 V c t) (B2 V c t) (B3 V c t) (B4 V c t) (B5 V c t) r j).trans ?_
  refine Eq.trans ?_ (zlin_apply_sum (X0 V c) (X1 V c) (X2 V c) (X3 V c) (X4 V c) (X5 V c) (rowOf (t10 t) r) j).symm
  simp only [B0_apply, B1_apply, B2_apply, B3_apply, B4_apply, B5_apply]

/-! ## The running rows at a column -/

/-- Column j of the running row of sums after tile 0. -/
theorem sumAt_zero_apply (c : Dev nD) (h : 0 < cfg2.N) (j : Fin 64) :
    sumAt V c 0 h (ix2 0 j)
      = Ideal.ofBits .f32 0x00000000#32
        + (Ideal.ofBits .f32 0x00000000#32 + ∑ r : Fin 5000, tile V c ⟨0, h⟩ (ix2 r j)) :=
  (pay8_apply (B0 V c ⟨0, h⟩) (B1 V c ⟨0, h⟩) (B2 V c ⟨0, h⟩) (B3 V c ⟨0, h⟩) (B4 V c ⟨0, h⟩) (B5 V c ⟨0, h⟩)
    (k2_pay6 (F := Ideal)) j).trans (by rw [pay6_apply])

/-- … and after tile n + 1: what tile n left plus tile n + 1's column sum. -/
theorem sumAt_succ_apply (c : Dev nD) (n : ℕ) (h : n + 1 < cfg2.N) (j : Fin 64) :
    sumAt V c (n + 1) h (ix2 0 j)
      = sumAt V c n (Nat.lt_of_succ_lt h) (ix2 0 j)
        + (Ideal.ofBits .f32 0x00000000#32 + ∑ r : Fin 5000, tile V c ⟨n + 1, h⟩ (ix2 r j)) :=
  pay8_apply (B0 V c ⟨n + 1, h⟩) (B1 V c ⟨n + 1, h⟩) (B2 V c ⟨n + 1, h⟩) (B3 V c ⟨n + 1, h⟩) (B4 V c ⟨n + 1, h⟩)
    (B5 V c ⟨n + 1, h⟩) (sumAt V c n (Nat.lt_of_succ_lt h)) j

/-- Column j of the running row of sums of squares after tile 0. -/
theorem sqAt_zero_apply (c : Dev nD) (h : 0 < cfg2.N) (j : Fin 64) :
    sqAt V c 0 h (ix2 0 j)
      = Ideal.ofBits .f32 0x00000000#32
        + (Ideal.ofBits .f32 0x00000000#32
            + ∑ r : Fin 5000, tile V c ⟨0, h⟩ (ix2 r j) * tile V c ⟨0, h⟩ (ix2 r j)) :=
  (pay2_apply (tile V c ⟨0, h⟩) (k2_pay7 (F := Ideal)) j).trans (by rw [pay7_apply])

/-- … and after tile n + 1. -/
theorem sqAt_succ_apply (c : Dev nD) (n : ℕ) (h : n + 1 < cfg2.N) (j : Fin 64) :
    sqAt V c (n + 1) h (ix2 0 j)
      = sqAt V c n (Nat.lt_of_succ_lt h) (ix2 0 j)
        + (Ideal.ofBits .f32 0x00000000#32
            + ∑ r : Fin 5000, tile V c ⟨n + 1, h⟩ (ix2 r j) * tile V c ⟨n + 1, h⟩ (ix2 r j)) :=
  pay2_apply (tile V c ⟨n + 1, h⟩) (sqAt V c n (Nat.lt_of_succ_lt h)) j

/-! ## The running rows are the ten-tile totals of a column -/

section Column

variable (c : Dev nD) (j : Fin 64)

/-- Column j of the whole graph's activations. -/
abbrev col : Fin 50000 → EReal := fun R => zlin2 V c (ix2 R j)

/-- Tile t's column sum as the kernel forms it: from the zero word. -/
abbrev tsum (t : Fin 10) : EReal := Ideal.ofBits .f32 0x00000000#32 + ∑ r : Fin 5000, col V c j (rowOf t r)
/-- Tile t's column sum of squares, likewise. -/
abbrev tsq (t : Fin 10) : EReal :=
  Ideal.ofBits .f32 0x00000000#32 + ∑ r : Fin 5000, col V c j (rowOf t r) * col V c j (rowOf t r)

theorem tsum_eq (t : Fin 10) : tsum V c j t = ∑ r : Fin 5000, col V c j (rowOf t r) := by
  rw [tsum, Ideal.ofBits_zero_f32, zero_add]
theorem tsq_eq (t : Fin 10) : tsq V c j t = ∑ r : Fin 5000, col V c j (rowOf t r) * col V c j (rowOf t r) := by
  rw [tsq, Ideal.ofBits_zero_f32, zero_add]

/-- The running sum of column j after tile n (zero past the last tile). -/
def accS (n : ℕ) : EReal := if h : n < cfg2.N then sumAt V c n h (ix2 0 j) else 0
/-- The running sum of squares of column j after tile n. -/
def accQ (n : ℕ) : EReal := if h : n < cfg2.N then sqAt V c n h (ix2 0 j) else 0

theorem accS_zero : accS V c j 0 = Ideal.ofBits .f32 0x00000000#32 + tsum V c j 0 := by
  have h : 0 < cfg2.N := by rw [show cfg2.N = 10 from N_2]; decide
  rw [accS, dif_pos h, sumAt_zero_apply]
  simp only [tile_apply] <;> rfl

theorem accS_succ (n : ℕ) (h10 : n + 1 < 10) : accS V c j (n + 1) = accS V c j n + tsum V c j ⟨n + 1, h10⟩ := by
  have h : n + 1 < cfg2.N := by rw [show cfg2.N = 10 from N_2]; exact h10
  rw [accS, accS, dif_pos h, dif_pos (Nat.lt_of_succ_lt h), sumAt_succ_apply]
  simp only [tile_apply] <;> rfl

theorem accQ_zero : accQ V c j 0 = Ideal.ofBits .f32 0x00000000#32 + tsq V c j 0 := by
  have h : 0 < cfg2.N := by rw [show cfg2.N = 10 from N_2]; decide
  rw [accQ, dif_pos h, sqAt_zero_apply]
  simp only [tile_apply] <;> rfl

theorem accQ_succ (n : ℕ) (h10 : n + 1 < 10) : accQ V c j (n + 1) = accQ V c j n + tsq V c j ⟨n + 1, h10⟩ := by
  have h : n + 1 < cfg2.N := by rw [show cfg2.N = 10 from N_2]; exact h10
  rw [accQ, accQ, dif_pos h, dif_pos (Nat.lt_of_succ_lt h), sqAt_succ_apply]
  simp only [tile_apply] <;> rfl

/-- The mean the last tile forms is the direct mean of the column. -/
theorem mean_at9 (h : 9 < cfg2.N) :
    sumAt V c 9 h (ix2 0 j) * ((1 / 50000 : ℝ) : EReal) = meanDirect (col V c j) := by
  have e := mean_tiled_eq_direct (col V c j) rowOf rowOf_val (tsum V c j) (tsum_eq V c j) (accS V c j)
    (accS_zero V c j) (accS_succ V c j) ((1 / 50000 : ℝ) : EReal) rfl
  rwa [accS, dif_pos h] at e

/-- The variance the last tile forms is the direct variance of the column, when its entries are reals. -/
theorem var_at9 (h : 9 < cfg2.N) (hz : ∀ R, IsReal (col V c j R)) :
    sqAt V c 9 h (ix2 0 j) * ((1 / 50000 : ℝ) : EReal)
        - (sumAt V c 9 h (ix2 0 j) * ((1 / 50000 : ℝ) : EReal)) * (sumAt V c 9 h (ix2 0 j) * ((1 / 50000 : ℝ) : EReal))
      = varDirect (col V c j) := by
  have e := var_tiled_eq_direct (col V c j) rowOf rowOf_val hz (tsum V c j) (tsum_eq V c j) (accS V c j)
    (accS_zero V c j) (accS_succ V c j) (tsq V c j) (tsq_eq V c j) (accQ V c j) (accQ_zero V c j) (accQ_succ V c j)
    ((1 / 50000 : ℝ) : EReal) rfl
  rwa [accS, accQ, dif_pos h, dif_pos h] at e

end Column

/-! ## The three output arrays after the pass -/

/-- Every tile's block of activations has the full 5000 rows and 64 columns. -/
theorem xsize0_6 : ∀ t : Fin cfg2.N, win2_6.xsize (grid2.coords t) (0 : Fin 2) = 5000 ∧ win2_6.xsize (grid2.coords t) (1 : Fin 2) = 64 :=
  (by decide +kernel : ∀ t : Fin grid2.N, _)

/-- What tile t writes back of the activations is its block of the whole graph's activations. -/
theorem flushed2_6 (c : Dev nD) (t : Fin cfg2.N) (hf : (cfg2.win 6).flush t = true) :
    (dat2 V c).flushed 6 t = ((cfg2.win 6).blk t).view.read (Elt Ideal) (zlin2 V c) := by
  have e := idx0 t
  show (cfg2.win 6).cut (grid2.coords t) ((dat2 V c).after 6 t) = _
  rw [after2_6, (outsAt_eq V c t.val t.isLt).1]
  funext y
  obtain ⟨r, j, rfl⟩ : ∃ (r : Fin 5000) (j : Fin 64), y = ix2 r j := ⟨y 0, y 1, eq_ix2 y⟩
  show tile V c t (ix2 r j) = zlin2 V c (((cfg2.win 6).blk t).view.emb (ix2 r j))
  rw [tile_apply]
  congr 1
  funext a
  apply Fin.ext
  match a with
  | ⟨0, _⟩ => show 5000 * t.val + r.val = win2_6.index t (0 : Fin 2) * 5000 + 1 * r.val; rw [e.2.2.2.2.2.2.2.2.2.2.2.2.1]; omega
  | ⟨1, _⟩ => show j.val = win2_6.index t (1 : Fin 2) * 64 + 1 * j.val; rw [e.2.2.2.2.2.2.2.2.2.2.2.2.2.1]; omega

/-- THE ACTIVATIONS ARRAY after the pass: the whole graph's linear activations. Row R lies in the
    block of tile R / 5000. -/
theorem final6 (c : Dev nD) : (dat2 V c).arrAt 6 cfg2.N = zlin2 V c :=
  (dat2 V c).arrAt_eq_of_cover 6 (zlin2 V c) (flushed2_6 V c) fun i => by
    have hi0 : (i 0).val < 50000 := (i 0).isLt
    have hi1 : (i 1).val < 64 := (i 1).isLt
    have hN : cfg2.N = 10 := N_2
    have hq : (i 0).val / 5000 < cfg2.N := by rw [hN]; omega
    refine ⟨⟨(i 0).val / 5000, hq⟩, flush2_6 _, ?_⟩
    have e := idx0 ⟨(i 0).val / 5000, hq⟩
    have x := xsize0_6 ⟨(i 0).val / 5000, hq⟩
    show i ∈ ((View.whole main_v42_0).slice (win2_6.rect ⟨(i 0).val / 5000, hq⟩)).set
    rw [View.set_slice_whole, Rect.mem_set_unit]
    intro a
    match a with
    | ⟨0, _⟩ =>
      show win2_6.index ⟨(i 0).val / 5000, hq⟩ (0 : Fin 2) * win2_6.size (0 : Fin 2) ≤ (i 0 : Nat)
        ∧ (i 0 : Nat) < win2_6.index ⟨(i 0).val / 5000, hq⟩ (0 : Fin 2) * win2_6.size (0 : Fin 2) + win2_6.xsize (grid2.coords ⟨(i 0).val / 5000, hq⟩) (0 : Fin 2)
      rw [e.2.2.2.2.2.2.2.2.2.2.2.2.1, x.1, show win2_6.size (0 : Fin 2) = 5000 from rfl]
      dsimp only
      omega
    | ⟨1, _⟩ =>
      show win2_6.index ⟨(i 0).val / 5000, hq⟩ (1 : Fin 2) * win2_6.size (1 : Fin 2) ≤ (i 1 : Nat)
        ∧ (i 1 : Nat) < win2_6.index ⟨(i 0).val / 5000, hq⟩ (1 : Fin 2) * win2_6.size (1 : Fin 2) + win2_6.xsize (grid2.coords ⟨(i 0).val / 5000, hq⟩) (1 : Fin 2)
      rw [e.2.2.2.2.2.2.2.2.2.2.2.2.2.1, x.2, show win2_6.size (1 : Fin 2) = 64 from rfl]
      omega

/-- The one tile that writes the mean and the variance back is the last. -/
theorem t_eq_nine (t : Fin cfg2.N) (h : t.val % 10 = 9) : t.val = 9 := by
  have := lt_of_lt_of_eq t.isLt (show cfg2.N = 10 from N_2); omega

/-- On the last tile the mean block holds the updated running row of sums times 1/50000, and the
    variance block the updated sums of squares times 1/50000 less that mean's square. -/
theorem outs78_eq (c : Dev nD) (n : ℕ) (h : n + 1 < cfg2.N) (h1 : (⟨n + 1, h⟩ : Fin cfg2.N).val % 10 = 9) :
    (outsAt2 V c (n + 1) h).2.1 = k2_pay3 (F := Ideal) (sumAt V c (n + 1) h)
      ∧ (outsAt2 V c (n + 1) h).2.2.1 = k2_pay4 (F := Ideal) (sumAt V c (n + 1) h) (sqAt V c (n + 1) h) := by
  have hN : n + 1 < 10 := lt_of_lt_of_eq h (show cfg2.N = 10 from N_2)
  obtain ⟨-, ihS, ihQ⟩ := outsAt_eq V c n (Nat.lt_of_succ_lt h)
  have h0 : ¬(⟨n + 1, h⟩ : Fin cfg2.N).val % 10 = 0 := by dsimp only; omega
  rw [outsAt2_C V c ⟨n + 1, h⟩ h0 h1]
  dsimp only
  refine ⟨?_, ?_⟩
  · refine (out2_C_7_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) scM2_0 (Memref.isWhole_whole _) scM2_1 (Memref.isWhole_whole _) (fun hh => h0 ((hcond2_0 ⟨n + 1, h⟩).mp hh)) ((hcond2_1 ⟨n + 1, h⟩).mpr h1) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.2.2.1 (outsAt2 V c n (Nat.lt_of_succ_lt h)).2.2.2.2).trans ?_
    exact congrArg (fun s => k2_pay3 (F := Ideal) (k2_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩) s)) ihS
  · refine (out2_C_8_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) scM2_0 (Memref.isWhole_whole _) scM2_1 (Memref.isWhole_whole _) (fun hh => h0 ((hcond2_0 ⟨n + 1, h⟩).mp hh)) ((hcond2_1 ⟨n + 1, h⟩).mpr h1) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.2.2.1 (outsAt2 V c n (Nat.lt_of_succ_lt h)).2.2.2.2).trans ?_
    exact congrArg₂ (fun s q => k2_pay4 (F := Ideal) (k2_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩) s) (k2_pay2 (F := Ideal) (tile V c ⟨n + 1, h⟩) q)) ihS ihQ

/-- After the tenth tile: the mean block … -/
theorem out7_at9 (c : Dev nD) (h : 9 < cfg2.N) :
    (outsAt2 V c 9 h).2.1 = k2_pay3 (F := Ideal) (sumAt V c 9 h) :=
  (outs78_eq V c 8 h rfl).1

/-- … and the variance block. -/
theorem out8_at9 (c : Dev nD) (h : 9 < cfg2.N) :
    (outsAt2 V c 9 h).2.2.1 = k2_pay4 (F := Ideal) (sumAt V c 9 h) (sqAt V c 9 h) :=
  (outs78_eq V c 8 h rfl).2

end Cert.KernelIdeal.HandVal.Reg2

end
-- ==== Proof.KernelIdeal.Mlp2Val.lean ====
/-
  The first statistics pass: the mean and the variance arrays it leaves, on the extended reals.

  Both are one row of 64 columns, stored on the last tile only and written back once. The last
  tile forms them from the two running rows, which by then hold the column sums of the linear
  activations and of their squares over all 50000 rows; so column j of the mean array is the direct
  mean of column j of the activations, and, the activations being reals, column j of the variance
  array is the direct variance of that column.
-/
import proofs.«144771_j36481452212846_1_alg».proof.Proof.KernelIdeal.Mlp2Inv
import Idealize.ShloMosaic.Lib.Pipeline.Value
import Idealize.ShloMosaic.Lib.Tactic
import Idealize.ShloMosaic.Lib.ValueIdx

-- the blocks' rectangles of 5000 rows are compared one coordinate at a time
set_option maxRecDepth 16384

noncomputable section

open scoped BigOperators

namespace Cert.KernelIdeal.HandVal.Reg2

open Cert.KernelIdeal Cert.KernelIdeal.Gen Cert.KernelIdeal.Hand Cert.KernelIdeal.HandVal
open Idealize.ShloMosaic Idealize.ShloMosaic.TcCoe Idealize.ShloMosaic.Tactic Idealize.ShloMosaic.ValueIdx Idealize.SL.Sem
open Idealize.ShloMosaic.Pipeline (Dat)
open Cert.Math

variable (V : (c : Dev nD) → (b : Ref sig .tc) → Buf (Elt Ideal) ((c : Thread nD τ).loc b))

/-- The mean array the pass leaves: every column's direct mean. -/
abbrev meanArr (c : Dev nD) : Vec Ideal S1x64 .f32 := fun i => meanDirect (col V c (i 1))
/-- The variance array the pass leaves: every column's direct variance. -/
abbrev varArr (c : Dev nD) : Vec Ideal S1x64 .f32 := fun i => varDirect (col V c (i 1))

/-- What the last tile writes back of the mean is the mean array: its one block is the array. -/
theorem flushed2_7 (c : Dev nD) (t : Fin cfg2.N) (hf : (cfg2.win 7).flush t = true) :
    (dat2 V c).flushed 7 t = ((cfg2.win 7).blk t).view.read (Elt Ideal) (meanArr V c) := by
  have e := idx0 t
  have h9 : t.val = 9 := t_eq_nine t ((flush2_7 t).mp hf)
  obtain ⟨n, hn⟩ := t
  dsimp only at h9
  subst h9
  show (cfg2.win 7).cut (grid2.coords ⟨9, hn⟩) ((dat2 V c).after 7 ⟨9, hn⟩) = _
  rw [after2_7, out7_at9 V c hn]
  funext y
  obtain ⟨u, j, rfl⟩ : ∃ (u : Fin 1) (j : Fin 64), y = ix2 u j := ⟨y 0, y 1, eq_ix2 y⟩
  obtain rfl : u = 0 := Subsingleton.elim _ _
  have hemb : ((cfg2.win 7).blk ⟨9, hn⟩).view.emb (ix2 (0 : Fin 1) j) = ix2 (0 : Fin 1) j := by
    funext a
    apply Fin.ext
    match a with
    | ⟨0, _⟩ => show win2_7.index ⟨9, hn⟩ (0 : Fin 2) * 1 + 1 * 0 = 0; rw [e.2.2.2.2.2.2.2.2.2.2.2.2.2.2.1]
    | ⟨1, _⟩ => show win2_7.index ⟨9, hn⟩ (1 : Fin 2) * 64 + 1 * j.val = j.val; rw [e.2.2.2.2.2.2.2.2.2.2.2.2.2.2.2.1]; omega
  show k2_pay3 (F := Ideal) (sumAt V c 9 hn) (ix2 0 j) = meanArr V c (((cfg2.win 7).blk ⟨9, hn⟩).view.emb (ix2 (0 : Fin 1) j))
  rw [hemb, pay3_apply]
  exact mean_at9 V c j hn

/-- The same for the variance, when the activations are reals. -/
theorem flushed2_8 (c : Dev nD) (hz : ∀ R j, IsReal (zlin2 V c (ix2 R j))) (t : Fin cfg2.N) (hf : (cfg2.win 8).flush t = true) :
    (dat2 V c).flushed 8 t = ((cfg2.win 8).blk t).view.read (Elt Ideal) (varArr V c) := by
  have e := idx0 t
  have h9 : t.val = 9 := t_eq_nine t ((flush2_8 t).mp hf)
  obtain ⟨n, hn⟩ := t
  dsimp only at h9
  subst h9
  show (cfg2.win 8).cut (grid2.coords ⟨9, hn⟩) ((dat2 V c).after 8 ⟨9, hn⟩) = _
  rw [after2_8, out8_at9 V c hn]
  funext y
  obtain ⟨u, j, rfl⟩ : ∃ (u : Fin 1) (j : Fin 64), y = ix2 u j := ⟨y 0, y 1, eq_ix2 y⟩
  obtain rfl : u = 0 := Subsingleton.elim _ _
  have hemb : ((cfg2.win 8).blk ⟨9, hn⟩).view.emb (ix2 (0 : Fin 1) j) = ix2 (0 : Fin 1) j := by
    funext a
    apply Fin.ext
    match a with
    | ⟨0, _⟩ => show win2_8.index ⟨9, hn⟩ (0 : Fin 2) * 1 + 1 * 0 = 0; rw [e.2.2.2.2.2.2.2.2.2.2.2.2.2.2.2.2.1]
    | ⟨1, _⟩ => show win2_8.index ⟨9, hn⟩ (1 : Fin 2) * 64 + 1 * j.val = j.val; rw [e.2.2.2.2.2.2.2.2.2.2.2.2.2.2.2.2.2]; omega
  show k2_pay4 (F := Ideal) (sumAt V c 9 hn) (sqAt V c 9 hn) (ix2 0 j) = varArr V c (((cfg2.win 8).blk ⟨9, hn⟩).view.emb (ix2 (0 : Fin 1) j))
  rw [hemb, pay4_apply]
  exact var_at9 V c j hn fun R => hz R j

/-- The last tile's block of a one-row array is the array: every index lies in it. -/
theorem cover2_7 (i : S1x64.Idx) : ∃ t : Fin cfg2.N, (cfg2.win 7).flush t = true ∧ i ∈ ((cfg2.win 7).blk t).view.set :=
  ⟨t2_9, (flush2_7 t2_9).mpr rfl, by
    show i ∈ ((View.whole main_v42_1).slice (win2_7.rect t2_9)).set
    rw [View.set_slice_whole, Rect.mem_set_unit]
    intro a
    have h0 : (i 0 : Nat) < 1 := (i 0).isLt
    have h1 : (i 1 : Nat) < 64 := (i 1).isLt
    match a with
    | ⟨0, _⟩ => show win2_7.index t2_9 0 * win2_7.size 0 ≤ (i 0 : Nat) ∧ (i 0 : Nat) < win2_7.index t2_9 0 * win2_7.size 0 + win2_7.xsize (grid2.coords t2_9) 0
                rw [show win2_7.index t2_9 0 * win2_7.size 0 = 0 from by decide +kernel, show win2_7.xsize (grid2.coords t2_9) 0 = 1 from by decide +kernel]; omega
    | ⟨1, _⟩ => show win2_7.index t2_9 1 * win2_7.size 1 ≤ (i 1 : Nat) ∧ (i 1 : Nat) < win2_7.index t2_9 1 * win2_7.size 1 + win2_7.xsize (grid2.coords t2_9) 1
                rw [show win2_7.index t2_9 1 * win2_7.size 1 = 0 from by decide +kernel, show win2_7.xsize (grid2.coords t2_9) 1 = 64 from by decide +kernel]; omega⟩

theorem cover2_8 (i : S1x64.Idx) : ∃ t : Fin cfg2.N, (cfg2.win 8).flush t = true ∧ i ∈ ((cfg2.win 8).blk t).view.set :=
  ⟨t2_9, (flush2_8 t2_9).mpr rfl, by
    show i ∈ ((View.whole main_v42_2).slice (win2_8.rect t2_9)).set
    rw [View.set_slice_whole, Rect.mem_set_unit]
    intro a
    have h0 : (i 0 : Nat) < 1 := (i 0).isLt
    have h1 : (i 1 : Nat) < 64 := (i 1).isLt
    match a with
    | ⟨0, _⟩ => show win2_8.index t2_9 0 * win2_8.size 0 ≤ (i 0 : Nat) ∧ (i 0 : Nat) < win2_8.index t2_9 0 * win2_8.size 0 + win2_8.xsize (grid2.coords t2_9) 0
                rw [show win2_8.index t2_9 0 * win2_8.size 0 = 0 from by decide +kernel, show win2_8.xsize (grid2.coords t2_9) 0 = 1 from by decide +kernel]; omega
    | ⟨1, _⟩ => show win2_8.index t2_9 1 * win2_8.size 1 ≤ (i 1 : Nat) ∧ (i 1 : Nat) < win2_8.index t2_9 1 * win2_8.size 1 + win2_8.xsize (grid2.coords t2_9) 1
                rw [show win2_8.index t2_9 1 * win2_8.size 1 = 0 from by decide +kernel, show win2_8.xsize (grid2.coords t2_9) 1 = 64 from by decide +kernel]; omega⟩

/-- THE MEAN ARRAY after the pass. -/
theorem final7_arr (c : Dev nD) : (dat2 V c).arrAt 7 cfg2.N = meanArr V c :=
  (dat2 V c).arrAt_eq_of_cover 7 (meanArr V c) (flushed2_7 V c) cover2_7

/-- … at column j: the direct mean of column j of the activations. -/
theorem final7 (c : Dev nD) (j : Fin 64) :
    (dat2 V c).arrAt 7 cfg2.N (ix2 0 j) = meanDirect (fun i : Fin 50000 => zlin2 V c (ix2 i j)) :=
  congrFun (final7_arr V c) (ix2 0 j)

/-- THE VARIANCE ARRAY after the pass, when the activations are reals. -/
theorem final8_arr (c : Dev nD) (hz : ∀ R j, IsReal (zlin2 V c (ix2 R j))) : (dat2 V c).arrAt 8 cfg2.N = varArr V c :=
  (dat2 V c).arrAt_eq_of_cover 8 (varArr V c) (flushed2_8 V c hz) cover2_8

/-- … at column j: the direct variance of column j of the activations. -/
theorem final8 (c : Dev nD) (hz : ∀ R j, IsReal (zlin2 V c (ix2 R j))) (j : Fin 64) :
    (dat2 V c).arrAt 8 cfg2.N (ix2 0 j) = varDirect (fun i : Fin 50000 => zlin2 V c (ix2 i j)) :=
  congrFun (final8_arr V c hz) (ix2 0 j)

end Cert.KernelIdeal.HandVal.Reg2

end
-- ==== Proof.KernelIdeal.KVal.L1.lean ====
/-
  Layer 1 of the idealized kernel: regions 2 and 3 after the host stretch that slices index 0 of the stacked
  parameters and sums the neighbours of layer 0's output. The argument is layer 0's (Base.lean), with the previous
  layer's output buffer in the place of the node features and each parameter read through its slice.
-/
import proofs.«144771_j36481452212846_1_alg».proof.Proof.KernelIdeal.KVal.Base
import proofs.«144771_j36481452212846_1_alg».proof.Proof.KernelIdeal.Bn3Val
import proofs.«144771_j36481452212846_1_alg».proof.Proof.KernelIdeal.Mlp2Val

noncomputable section

namespace Cert.KernelIdeal.HandVal

open Cert.KernelIdeal Cert.KernelIdeal.Gen Cert.KernelIdeal.Hand Cert.Math
open Idealize.ShloMosaic Idealize.ShloMosaic.TcCoe Idealize.ShloMosaic.ValueIdx Idealize.SL.Sem
open Cert.ReferenceIdeal.HandVal (agg128_eq agg64_eq mat0_apply mat1_apply mat2_apply row0_apply row1_apply row2_apply)

variable (m : (ℓ : Loc nD τ sig) → Buf (Elt Ideal) ℓ) (ρ : Dev nD → PrngReg)

/-- After regions 2 and 3 the buffer main_v43 holds the reference's layer 1 of what main_v15 held and the
    arguments, with real entries when main_v15's are. -/
theorem out1 (hpre : Cert.Pre_KernelIdeal m) (c : Dev nD)
    (rH : ∀ i, IsReal ((W3 (F := Ideal) m ρ c (Proc.devRef .tc main_v15) : S50000x64.Idx → EReal) i)) :
    (W6 (F := Ideal) m ρ c (Proc.devRef .tc main_v43) : S50000x64.Idx → EReal)
        = Cert.ReferenceIdeal.Hand.layer1 (F := Ideal) (W3 m ρ c (Proc.devRef .tc main_v15))
            (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ ∀ i, IsReal ((W6 (F := Ideal) m ρ c (Proc.devRef .tc main_v43) : S50000x64.Idx → EReal) i) := by
  obtain ⟨a1, a2, a9, a10, a11, a12, a13, a14⟩ := W3_args m ρ c
  have x1 : W4 (F := Ideal) m ρ c (Proc.devRef .tc main_v37)
      = Cert.Math.agg 64 (W3 m ρ c (Proc.devRef .tc main_v15)) (m ((c.tc : Thread nD τ).loc main_arg1)) (m ((c.tc : Thread nD τ).loc main_arg2)) := by
    rw [← a1, ← a2]; exact after2_agg (W3 m ρ c)
  exact layerS_arrays (W3 m ρ c (Proc.devRef .tc main_v15)) (m ((c.tc : Thread nD τ).loc main_arg1)) (m ((c.tc : Thread nD τ).loc main_arg2))
    (Cert.ReferenceIdeal.Hand.mat0 (m ((c.tc : Thread nD τ).loc main_arg9))) (Cert.ReferenceIdeal.Hand.row0 (m ((c.tc : Thread nD τ).loc main_arg10)))
    (Cert.ReferenceIdeal.Hand.mat0 (m ((c.tc : Thread nD τ).loc main_arg11))) (Cert.ReferenceIdeal.Hand.row0 (m ((c.tc : Thread nD τ).loc main_arg12)))
    (Cert.ReferenceIdeal.Hand.row0 (m ((c.tc : Thread nD τ).loc main_arg13))) (Cert.ReferenceIdeal.Hand.row0 (m ((c.tc : Thread nD τ).loc main_arg14)))
    (X0 := W4 m ρ c (Proc.devRef .tc main_v15)) (X1 := W4 m ρ c (Proc.devRef .tc main_v37))
    (X2 := W4 m ρ c (Proc.devRef .tc main_v17)) (X3 := W4 m ρ c (Proc.devRef .tc main_v38))
    (X4 := W4 m ρ c (Proc.devRef .tc main_v21)) (X5 := W4 m ρ c (Proc.devRef .tc main_v39))
    (Z := W5 m ρ c (Proc.devRef .tc main_v42_0)) (Out := W6 m ρ c (Proc.devRef .tc main_v43))
    (Mn := W5 m ρ c (Proc.devRef .tc main_v42_1)) (Vr := W5 m ρ c (Proc.devRef .tc main_v42_2))
    (Gm := W5 m ρ c (Proc.devRef .tc main_v40)) (Bt := W5 m ρ c (Proc.devRef .tc main_v41))
    ((W6_arr m ρ c 5).trans (final3_5 (V5 m ρ) c))
    ((W5_arr m ρ c 6).trans (Reg2.final6 (V4 m ρ) c))
    (fun j => (congrFun (W5_arr m ρ c 7) _).trans (Reg2.final7 (V4 m ρ) c j))
    (fun hz j => (congrFun (W5_arr m ρ c 8) _).trans (Reg2.final8 (V4 m ρ) c hz j))
    (W4_of m ρ c main_v15 (by decide)) (x1.trans (agg64_eq _ _ _).symm)
    (fun l k => (after2_W1_apply (W3 m ρ c) l k).trans (by rw [a9]; exact (mat0_apply _ l k).symm))
    (fun j => (after2_b1r_apply (W3 m ρ c) 0 j).trans (by rw [a10]; exact (row0_apply _ j).symm))
    (fun l k => (after2_W2_apply (W3 m ρ c) l k).trans (by rw [a11]; exact (mat0_apply _ l k).symm))
    (fun j => (after2_b2r_apply (W3 m ρ c) 0 j).trans (by rw [a12]; exact (row0_apply _ j).symm))
    (fun j => (congrFun (W5_of_ne m ρ c main_v40 (by decide)) _).trans
      ((after2_gr_apply (W3 m ρ c) 0 j).trans (by rw [a13]; exact (row0_apply _ j).symm)))
    (fun j => (congrFun (W5_of_ne m ρ c main_v41 (by decide)) _).trans
      ((after2_ber_apply (W3 m ρ c) 0 j).trans (by rw [a14]; exact (row0_apply _ j).symm)))
    rH (fun i => by rw [x1]; exact Cert.Math.agg_real 64 _ _ _ rH i)
    (real_ix2 fun l k => by rw [mat0_apply]; exact real_arg9 m hpre c _)
    (real_ix1 fun j => by rw [row0_apply]; exact real_arg10 m hpre c _)
    (real_ix2 fun l k => by rw [mat0_apply]; exact real_arg11 m hpre c _)
    (real_ix1 fun j => by rw [row0_apply]; exact real_arg12 m hpre c _)
    (real_ix1 fun j => by rw [row0_apply]; exact real_arg13 m hpre c _)
    (real_ix1 fun j => by rw [row0_apply]; exact real_arg14 m hpre c _)

end Cert.KernelIdeal.HandVal

end
-- ==== Proof.KernelIdeal.Bn5Val.lean ====
/-
  The output array of the batch-norm-and-ReLU region, in closed form, over the extended reals.

  The region runs its body at ten grid points; point t reads row tile t of the pre-activations and the four
  statistic rows, and writes row tile t of the output array. Here we show that once all ten points have written
  back, the output array IS the whole-array function bnArr of the five input arrays as the region found them (V):
  at row r and column j, max(((z(r,j) - mean(0,j)) * rsqrt(var(0,j) + eps)) * scale(0,j) + shift(0,j), 0).

  The steps: the tile the body leaves, read at one element, is bnElt of the element of the pre-activation tile and
  the four statistics of its column (the payload is a tree of pointwise operations and row broadcasts); the
  pre-activation block and the output block at point t sit at the same place of their arrays (row 5000 t + p), and
  each statistic row's one block is its whole array; so what point t writes back is its block of bnArr; the ten
  blocks cover every row (row r belongs to point r / 5000); hence the array ends as bnArr.
-/
import proofs.«144771_j36481452212846_1_alg».proof.Proof.KernelIdeal.Bn5
import proofs.«144771_j36481452212846_1_alg».proof.Proof.Math.BnSpec
import Idealize.ShloMosaic.Lib.Pipeline.Value
import Idealize.ShloMosaic.Lib.ValueIdx
import Idealize.ShloMosaic.Lib.ValueLayout

set_option maxRecDepth 16384

noncomputable section

namespace Cert.KernelIdeal.HandVal

open Cert.KernelIdeal Cert.KernelIdeal.Gen Cert.KernelIdeal.Hand Cert.Math
open Idealize.ShloMosaic Idealize.ShloMosaic.TcCoe Idealize.SL.Sem
open Idealize.ShloMosaic.Pipeline (Dat)
open Idealize.ShloMosaic.ValueIdx

/-- The zero offsets of a whole-buffer rectangle, spelt as a function. -/
private theorem zeros : (![0, 0] : Fin 2 → Nat) = fun _ => 0 :=
  funext fun a => by match a with | ⟨0, _⟩ => rfl | ⟨1, _⟩ => rfl

/-- The reciprocal square root of a vector, read at an index, is that of the element. -/
private theorem rsqrt_at {s : Shape} {φ : FTy} (a : FVec Ideal s φ) (i : s.Idx) : rsqrt a i = Ideal.rsqrt (a i) := rfl

/-! ## The tile the body leaves, element by element -/

/-- Row p, column q of the output tile, from the five input blocks: the element of the pre-activation tile there,
    treated with the four statistics of column q. The body's one store covers the tile, so the tile is the
    payload; the payload is a tree of pointwise operations over the tile and the four rows broadcast down it. -/
theorem out5_5_apply (x0 : Vec Ideal S5000x64 .f32) (x1 x2 x3 x4 : Vec Ideal S1x64 .f32) (p : Fin 5000) (q : Fin 64) :
    out5_5 x0 x1 x2 x3 x4 (ix2 p q)
      = bnElt (x0 (ix2 p q)) (x1 (ix2 (0 : Fin 1) q)) (x2 (ix2 (0 : Fin 1) q)) (x3 (ix2 (0 : Fin 1) q)) (x4 (ix2 (0 : Fin 1) q)) := by
  unfold out5_5
  rw [View.canon_unit_zero zeros]
  simp only [View.ld_unit_zero (S := S5000x64) zeros, View.ld_unit_zero (S := S1x64) zeros]
  unfold k5_pay1 bnElt
  simp only [maximumf_apply, addf_apply, mulf_apply, subf_apply, broadcast_apply, shapeCast_self, broadcastTo_1b_ab_apply, rsqrt_at]
  rfl

variable (V : (c : Dev nD) → (b : Ref sig .tc) → Buf (Elt Ideal) ((c : Thread nD τ).loc b))

/-! ## Where the windows' blocks sit -/

/-- The block indices over the grid, decided point by point: the pre-activation window and the output window are
    both at row tile t, column tile 0; the four rows are at block (0, 0) throughout. -/
theorem idxFacts5 : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- A row tile of the grid lies inside the array: ten tiles of 5000 rows. -/
theorem row_lt5 (t : Fin cfg5.N) (p : Fin 5000) : t.val * 5000 + p.val < 50000 := by
  have ht : t.val < cfg5.N := t.isLt
  have hN : cfg5.N = 10 := N_5
  have hp : p.val < 5000 := p.isLt
  omega

/-- The pre-activation block at point t, read at row p and column q, is the array at row 5000 t + p. -/
theorem iblk5_0_at (c : Dev nD) (t : Fin cfg5.N) (p : Fin 5000) (q : Fin 64) :
    iblk5 V c 0 t (ix2 p q) = V c (Pipeline.arrRef spec5 0) (ix2 (⟨t.val * 5000 + p.val, row_lt5 t p⟩ : Fin 50000) q) := by
  obtain ⟨e0, e1, -⟩ := idxFacts5 t
  show V c (Pipeline.arrRef spec5 0) (((cfg5.win 0).blk t).view.emb (ix2 p q)) = _
  refine congrArg _ (funext fun a => Fin.ext ?_)
  match a with
  | ⟨0, _⟩ => show win5_0.index t (0 : Fin 2) * 5000 + 1 * p.val = t.val * 5000 + p.val; omega
  | ⟨1, _⟩ => show win5_0.index t (1 : Fin 2) * 64 + 1 * q.val = q.val; omega

/-- Each of the four rows is its own whole array: its one block, at (0, 0), read at column q is the array there. -/
theorem iblk5_1_row (c : Dev nD) (t : Fin cfg5.N) (q : Fin 64) :
    iblk5 V c 1 t (ix2 (0 : Fin 1) q) = V c (Pipeline.arrRef spec5 1) (ix2 (0 : Fin 1) q) := by
  obtain ⟨-, -, -, -, e0, e1, -⟩ := idxFacts5 t
  show V c (Pipeline.arrRef spec5 1) (((cfg5.win 1).blk t).view.emb (ix2 (0 : Fin 1) q)) = _
  refine congrArg _ (funext fun a => Fin.ext ?_)
  match a with
  | ⟨0, _⟩ => show win5_1.index t (0 : Fin 2) * 1 + 1 * 0 = 0; omega
  | ⟨1, _⟩ => show win5_1.index t (1 : Fin 2) * 64 + 1 * q.val = q.val; omega
theorem iblk5_2_row (c : Dev nD) (t : Fin cfg5.N) (q : Fin 64) :
    iblk5 V c 2 t (ix2 (0 : Fin 1) q) = V c (Pipeline.arrRef spec5 2) (ix2 (0 : Fin 1) q) := by
  obtain ⟨-, -, -, -, -, -, e0, e1, -⟩ := idxFacts5 t
  show V c (Pipeline.arrRef spec5 2) (((cfg5.win 2).blk t).view.emb (ix2 (0 : Fin 1) q)) = _
  refine congrArg _ (funext fun a => Fin.ext ?_)
  match a with
  | ⟨0, _⟩ => show win5_2.index t (0 : Fin 2) * 1 + 1 * 0 = 0; omega
  | ⟨1, _⟩ => show win5_2.index t (1 : Fin 2) * 64 + 1 * q.val = q.val; omega
theorem iblk5_3_row (c : Dev nD) (t : Fin cfg5.N) (q : Fin 64) :
    iblk5 V c 3 t (ix2 (0 : Fin 1) q) = V c (Pipeline.arrRef spec5 3) (ix2 (0 : Fin 1) q) := by
  obtain ⟨-, -, -, -, -, -, -, -, e0, e1, -⟩ := idxFacts5 t
  show V c (Pipeline.arrRef spec5 3) (((cfg5.win 3).blk t).view.emb (ix2 (0 : Fin 1) q)) = _
  refine congrArg _ (funext fun a => Fin.ext ?_)
  match a with
  | ⟨0, _⟩ => show win5_3.index t (0 : Fin 2) * 1 + 1 * 0 = 0; omega
  | ⟨1, _⟩ => show win5_3.index t (1 : Fin 2) * 64 + 1 * q.val = q.val; omega
theorem iblk5_4_row (c : Dev nD) (t : Fin cfg5.N) (q : Fin 64) :
    iblk5 V c 4 t (ix2 (0 : Fin 1) q) = V c (Pipeline.arrRef spec5 4) (ix2 (0 : Fin 1) q) := by
  obtain ⟨-, -, -, -, -, -, -, -, -, -, e0, e1⟩ := idxFacts5 t
  show V c (Pipeline.arrRef spec5 4) (((cfg5.win 4).blk t).view.emb (ix2 (0 : Fin 1) q)) = _
  refine congrArg _ (funext fun a => Fin.ext ?_)
  match a with
  | ⟨0, _⟩ => show win5_4.index t (0 : Fin 2) * 1 + 1 * 0 = 0; omega
  | ⟨1, _⟩ => show win5_4.index t (1 : Fin 2) * 64 + 1 * q.val = q.val; omega

/-- Where row p, column q of the output block at point t sits in the output array: row 5000 t + p, column q. -/
theorem emb5_5_at (t : Fin cfg5.N) (p : Fin 5000) (q : Fin 64) :
    ((cfg5.win 5).blk t).view.emb (ix2 p q) = (ix2 (⟨t.val * 5000 + p.val, row_lt5 t p⟩ : Fin 50000) q : S50000x64.Idx) := by
  obtain ⟨-, -, e0, e1, -⟩ := idxFacts5 t
  refine funext fun a => Fin.ext ?_
  match a with
  | ⟨0, _⟩ => show win5_5.index t (0 : Fin 2) * 5000 + 1 * p.val = t.val * 5000 + p.val; omega
  | ⟨1, _⟩ => show win5_5.index t (1 : Fin 2) * 64 + 1 * q.val = q.val; omega

/-! ## What a grid point writes back -/

/-- The output tile of point t at row p and column q is bnArr of the five arrays at row 5000 t + p, column q. -/
theorem tile5_5_at (c : Dev nD) (t : Fin cfg5.N) (p : Fin 5000) (q : Fin 64) :
    out5_5 (iblk5 V c 0 t) (iblk5 V c 1 t) (iblk5 V c 2 t) (iblk5 V c 3 t) (iblk5 V c 4 t) (ix2 p q)
      = bnArr (V c (Pipeline.arrRef spec5 0)) (V c (Pipeline.arrRef spec5 1)) (V c (Pipeline.arrRef spec5 2))
          (V c (Pipeline.arrRef spec5 3)) (V c (Pipeline.arrRef spec5 4)) (ix2 (⟨t.val * 5000 + p.val, row_lt5 t p⟩ : Fin 50000) q) :=
  (out5_5_apply (iblk5 V c 0 t) (iblk5 V c 1 t) (iblk5 V c 2 t) (iblk5 V c 3 t) (iblk5 V c 4 t) p q).trans
    (congr (congr (congr (congr (congrArg bnElt (iblk5_0_at V c t p q)) (iblk5_1_row V c t q)) (iblk5_2_row V c t q))
      (iblk5_3_row V c t q)) (iblk5_4_row V c t q))

/-- Point t writes back row tile t of bnArr of the five arrays as the region finds them. -/
theorem flushed5_5_eq (c : Dev nD) (t : Fin cfg5.N) :
    (dat5 (F := Ideal) V c).flushed 5 t = ((cfg5.win 5).blk t).view.read (Elt Ideal)
      (bnArr (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  funext j
  obtain ⟨p, q, rfl⟩ : ∃ (p : Fin 5000) (q : Fin 64), j = ix2 p q := ⟨j 0, j 1, eq_ix2 j⟩
  show out5_5 (iblk5 V c 0 t) (iblk5 V c 1 t) (iblk5 V c 2 t) (iblk5 V c 3 t) (iblk5 V c 4 t) (ix2 p q)
    = bnArr (V c (Pipeline.arrRef spec5 0)) (V c (Pipeline.arrRef spec5 1)) (V c (Pipeline.arrRef spec5 2))
        (V c (Pipeline.arrRef spec5 3)) (V c (Pipeline.arrRef spec5 4)) (((cfg5.win 5).blk t).view.emb (ix2 p q))
  exact (tile5_5_at V c t p q).trans (congrArg _ (emb5_5_at t p q).symm)

/-! ## The ten tiles fill the array -/

/-- An index of the output array lies in point t's block exactly when each coordinate lies in the block's range. -/
theorem memBlk5_5 (t : Fin cfg5.N) (i : S50000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole (Pipeline.arrRef spec5 5)).slice (win5_5.rect t)).set ↔ _
  rw [View.set_slice_whole, Rect.mem_set_unit]
  exact Iff.rfl

/-- Every index of the output array is written back by some point: row r by point r / 5000. -/
theorem covered5_5 (i : S50000x64.Idx) :
    ∃ t : Fin cfg5.N, (cfg5.win 5).flush t = true ∧ i ∈ ((cfg5.win 5).blk t).view.set := by
  have hi0 : (i 0).val < 50000 := idx2_lt0 i
  have hi1 : (i 1).val < 64 := idx2_lt1 i
  have hN : cfg5.N = 10 := N_5
  have ht : (i 0).val / 5000 < cfg5.N := by rw [hN]; omega
  obtain ⟨-, -, e50, e51, -⟩ := idxFacts5 ⟨(i 0).val / 5000, ht⟩
  refine ⟨⟨(i 0).val / 5000, ht⟩, flush5_5 _, ?_⟩
  rw [memBlk5_5]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win5_5.index ⟨(i 0).val / 5000, ht⟩ (1 : Fin 2) * 64 ≤ (i 1).val
      ∧ (i 1).val < win5_5.index ⟨(i 0).val / 5000, ht⟩ (1 : Fin 2) * 64 + 64
    rw [e51]; omega

/-! ## The output array after the region -/

/-- After all ten points have written back, the output array is bnArr of the five input arrays as the region
    found them. -/
theorem final5_5 (c : Dev nD) :
    (dat5 (F := Ideal) V c).arrAt 5 cfg5.N
      = bnArr (V c (Pipeline.arrRef spec5 0)) (V c (Pipeline.arrRef spec5 1)) (V c (Pipeline.arrRef spec5 2))
          (V c (Pipeline.arrRef spec5 3)) (V c (Pipeline.arrRef spec5 4)) :=
  (dat5 V c).arrAt_eq_of_cover 5 _ (fun t _ => flushed5_5_eq V c t) covered5_5

end Cert.KernelIdeal.HandVal

end
-- ==== Proof.KernelIdeal.Mlp4Piece.lean ====
/-
  The first statistics pass, one tile at a time: what each written buffer holds, as arithmetic.

  A tile's run leaves in each buffer it writes a list of stored pieces. Every store of this body
  covers its whole buffer, so what a buffer ends holding is the payload of the last store into it;
  and where the body loads a buffer back after storing into it (the running rows after they are
  zeroed on the first tile, and after they are updated on the last), the load reads that stored
  payload. Read this way:
    the activations block holds the tile's activations z (the two affine maps with the clamp between);
    the running row of sums holds (what it held, or zero on the first tile) + column sums of z;
    the running row of sums of squares holds the same for z · z;
    on the last tile the mean block holds sums · 1/n and the variance block sumsq · 1/n - mean · mean.
-/
import proofs.«144771_j36481452212846_1_alg».proof.Proof.KernelIdeal.Mlp4Dat
import Idealize.ShloMosaic.Lib.Pipeline.Value
import Idealize.ShloMosaic.Lib.Tactic

-- the buffers' rectangles of 5000 rows are compared one coordinate at a time
set_option maxRecDepth 16384

noncomputable section

namespace Cert.KernelIdeal.HandVal.Reg4

open Cert.KernelIdeal Cert.KernelIdeal.Gen Cert.KernelIdeal.Hand
open Idealize.ShloMosaic Idealize.ShloMosaic.TcCoe Idealize.ShloMosaic.Tactic Idealize.SL.Sem

variable {F : FTy → Type} [FloatOps F] [Named F]

/-- The zero offsets of a whole-buffer access, as the constant function. -/
theorem hz2 : (![0, 0] : Fin 2 → Nat) = fun _ => 0 := funext fun a => by fin_cases a <;> rfl

/-- On its way to the running row of sums the updated row passes through a cast between equal shapes:
    the cast changes nothing. -/
theorem pay1_cast (v : FVec F S1x64 .f32) : k4_pay1 v = v := by
  unfold k4_pay1
  exact shapeCast_self _ _

/-- First tile: the activations block holds the tile's activations, the one piece stored into it. -/
theorem out4_A_6_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) :
    out4_A_6 c i arg1 harg1 arg2 harg2 arg3 harg3 arg4 harg4 arg5 harg5 arg6 harg6 arg7 harg7 arg8 harg8 arg9 harg9 arg10 harg10 arg11 harg11 hc0 hc1 x0 x1 x2 x3 x4 x5 = k4_pay5 x0 x1 x2 x3 x4 x5 := by
  unfold out4_A_6
  rw [View.read_writes_eq_canon _ _ _ (cover4_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun4_A
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- First tile: the running row of sums was zeroed, read back, and holds zero plus the tile's column sums. -/
theorem sout4_A_0_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) :
    sout4_A_0 c i arg1 harg1 arg2 harg2 arg3 harg3 arg4 harg4 arg5 harg5 arg6 harg6 arg7 harg7 arg8 harg8 arg9 harg9 arg10 harg10 arg11 harg11 hc0 hc1 x0 x1 x2 x3 x4 x5 = k4_pay8 x0 x1 x2 x3 x4 x5 (k4_pay6 (F := F)) := by
  unfold sout4_A_0
  rw [View.read_writes_eq_canon _ _ _ (scover4_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun4_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- First tile: the running row of sums of squares, likewise from zero. -/
theorem sout4_A_1_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) :
    sout4_A_1 c i arg1 harg1 arg2 harg2 arg3 harg3 arg4 harg4 arg5 harg5 arg6 harg6 arg7 harg7 arg8 harg8 arg9 harg9 arg10 harg10 arg11 harg11 hc0 hc1 x0 x1 x2 x3 x4 x5 = k4_pay2 (k4_pay5 x0 x1 x2 x3 x4 x5) (k4_pay7 (F := F)) := by
  unfold sout4_A_1
  rw [View.read_writes_eq_canon _ _ _ (scover4_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun4_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- A middle tile: the activations block holds the tile's activations. -/
theorem out4_B_6_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out4_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay5 x0 x1 x2 x3 x4 x5 := by
  unfold out4_B_6
  rw [View.read_writes_eq_canon _ _ _ (cover4_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_B
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- A middle tile: the running row of sums holds what it held plus the tile's column sums. -/
theorem sout4_B_0_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout4_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay8 x0 x1 x2 x3 x4 x5 xs0 := by
  unfold sout4_B_0
  rw [View.read_writes_eq_canon _ _ _ (scover4_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_B
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- A middle tile: the running row of sums of squares, likewise. -/
theorem sout4_B_1_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout4_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay2 (k4_pay5 x0 x1 x2 x3 x4 x5) xs1 := by
  unfold sout4_B_1
  rw [View.read_writes_eq_canon _ _ _ (scover4_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_B
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- Last tile: the activations block holds the tile's activations. -/
theorem out4_C_6_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out4_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay5 x0 x1 x2 x3 x4 x5 := by
  unfold out4_C_6
  rw [View.read_writes_eq_canon _ _ _ (cover4_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_C
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- Last tile: the mean block holds the updated running row of sums, read back, times the reciprocal of the row count. -/
theorem out4_C_7_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out4_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay3 (k4_pay8 x0 x1 x2 x3 x4 x5 xs0) := by
  unfold out4_C_7
  rw [View.read_writes_eq_canon _ _ _ (cover4_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_C
  dsimp only
  sl_unfold_words
  rw [View.canon_unit_zero hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- Last tile: the variance block holds the updated sums of squares times that reciprocal, less the mean's square. -/
theorem out4_C_8_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out4_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay4 (k4_pay8 x0 x1 x2 x3 x4 x5 xs0) (k4_pay2 (k4_pay5 x0 x1 x2 x3 x4 x5) xs1) := by
  unfold out4_C_8
  rw [View.read_writes_eq_canon _ _ _ (cover4_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_C
  dsimp only
  sl_unfold_words
  rw [View.canon_unit_zero hz2, View.readCov_unit_zero (S := S1x64) _ hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- Last tile: the running row of sums holds what it held plus the tile's column sums. -/
theorem sout4_C_0_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout4_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay8 x0 x1 x2 x3 x4 x5 xs0 := by
  unfold sout4_C_0
  rw [View.read_writes_eq_canon _ _ _ (scover4_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_C
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- Last tile: the running row of sums of squares, likewise. -/
theorem sout4_C_1_eq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout4_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay2 (k4_pay5 x0 x1 x2 x3 x4 x5) xs1 := by
  unfold sout4_C_1
  rw [View.read_writes_eq_canon _ _ _ (scover4_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_C
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

end Cert.KernelIdeal.HandVal.Reg4

end
-- ==== Proof.KernelIdeal.Pay4Idx.lean ====
/-
  The statistics kernel of a later layer (inputs 64 wide), its tile arithmetic read one element at a time on the
  extended reals.

  One tile holds 5000 rows. With x and a the tile's two 5000 × 64 inputs, W₁ and W₂ (64 × 64), b₁ and b₂ the
  layer's weights, the tile's value is
      z r j = (∑ k, max ((∑ l, (x r l + a r l) · W₁ l k) + b₁ k) 0 · W₂ k j) + b₂ j,
  the running column totals take  s j ↦ s j + (0 + ∑ r, z r j)  and  q j ↦ q j + (0 + ∑ r, z r j · z r j),
  both start from the zero row, the total s is stored through a cast that changes nothing, and the last step
  forms  m j = s j · (1/50000)  and  v j = q j · (1/50000) - m j · m j.
  Each of those named terms is opened here at an index written by its coordinates: the narrowing to sixteen bits
  before a product is the identity on the extended reals, a product into a zero accumulator is the plain sum
  over the contracted coordinate, a sum over the rows is the sum over the row coordinate, a cast between equal
  shapes is the identity, the cast [64] → [1, 64] forgets the unit coordinate, and a row broadcast over the tile
  reads the row. The zero of a clamp or of a sum's start is kept as the word it is written with. Both products
  have one shape here, 5000 × 64 by 64 × 64; the lemma about it is given under the first product's name and
  again under the second's.
-/
import proofs.«144771_j36481452212846_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandVal

open Cert.KernelIdeal Cert.KernelIdeal.Gen Idealize.ShloMosaic Idealize.ShloMosaic.ValueIdx

namespace Reg4

/-! ## The product: 5000 × 64 by 64 × 64, contracted over the first 64 -/

/-- The left operand's row coordinate is the result's row coordinate … -/
theorem first_lhs_0 (j : S5000x64.Idx) (q : dot_S5000x64_S64x64_S5000x64_1_0_0_1_n_n.contr.Idx) :
    (dot_S5000x64_S64x64_S5000x64_1_0_0_1_n_n.lhsIdx j q 0).val = (j 0).val := rfl
/-- … its column coordinate the contracted one … -/
theorem first_lhs_1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  DotDims.lhsIdx_val_of_single _ rfl j q
/-- … the right operand's row coordinate the contracted one … -/
theorem first_rhs_0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  DotDims.rhsIdx_val_of_single _ rfl j q
/-- … and its column coordinate the result's column coordinate. -/
theorem first_rhs_1 (j : S5000x64.Idx) (q : dot_S5000x64_S64x64_S5000x64_1_0_0_1_n_n.contr.Idx) :
    (dot_S5000x64_S64x64_S5000x64_1_0_0_1_n_n.rhsIdx j q 1).val = (j 1).val := rfl

/-- Into the zero accumulator the product at (r, k) is the sum over l of A r l · B l k. -/
theorem first_matmul_apply {φ₁ φ₂ : FTy} (A : FVec Ideal S5000x64 φ₁) (B : FVec Ideal S64x64 φ₂)
    (r : Fin 5000) (k : Fin 64) :
    matmul dot_S5000x64_S64x64_S5000x64_1_0_0_1_n_n none A B (constant (F := Ideal) S5000x64 .f32 0x00000000#32) (ix2 r k)
      = ∑ l : Fin 64, A (ix2 r l) * B (ix2 l k) := by
  refine (Ideal.matmul_constant_zero_apply dot_S5000x64_S64x64_S5000x64_1_0_0_1_n_n none A B (ix2 r k)).trans ?_
  rw [← Equiv.sum_comp (contrEquiv1 dot_S5000x64_S64x64_S5000x64_1_0_0_1_n_n 64 rfl rfl).symm]
  refine Finset.sum_congr rfl fun l _ => ?_
  have hL : dot_S5000x64_S64x64_S5000x64_1_0_0_1_n_n.lhsIdx (ix2 r k)
      ((contrEquiv1 dot_S5000x64_S64x64_S5000x64_1_0_0_1_n_n 64 rfl rfl).symm l) = ix2 r l := by
    funext a; refine Fin.ext ?_
    match a with
    | ⟨0, _⟩ => exact first_lhs_0 _ _
    | ⟨1, _⟩ => exact (first_lhs_1 _ _).trans (contrEquiv1_symm_val _ 64 rfl rfl l)
  have hR : dot_S5000x64_S64x64_S5000x64_1_0_0_1_n_n.rhsIdx (ix2 r k)
      ((contrEquiv1 dot_S5000x64_S64x64_S5000x64_1_0_0_1_n_n 64 rfl rfl).symm l) = ix2 l k := by
    funext a; refine Fin.ext ?_
    match a with
    | ⟨0, _⟩ => exact (first_rhs_0 _ _).trans (contrEquiv1_symm_val _ 64 rfl rfl l)
    | ⟨1, _⟩ => exact first_rhs_1 _ _
  rw [hL, hR]

/-! ## The same, under the second product's name -/

/-- The left operand's row coordinate is the result's row coordinate … -/
theorem second_lhs_0 (j : S5000x64.Idx) (q : dot_S5000x64_S64x64_S5000x64_1_0_0_1_n_n.contr.Idx) :
    (dot_S5000x64_S64x64_S5000x64_1_0_0_1_n_n.lhsIdx j q 0).val = (j 0).val := first_lhs_0 j q
/-- … its column coordinate the contracted one … -/
theorem second_lhs_1 (j : S5000x64.Idx) (q : dot_S5000x64_S64x64_S5000x64_1_0_0_1_n_n.contr.Idx) :
    (dot_S5000x64_S64x64_S5000x64_1_0_0_1_n_n.lhsIdx j q 1).val = (q ⟨0, by decide⟩).val := first_lhs_1 j q
/-- … the right operand's row coordinate the contracted one … -/
theorem second_rhs_0 (j : S5000x64.Idx) (q : dot_S5000x64_S64x64_S5000x64_1_0_0_1_n_n.contr.Idx) :
    (dot_S5000x64_S64x64_S5000x64_1_0_0_1_n_n.rhsIdx j q 0).val = (q ⟨0, by decide⟩).val := first_rhs_0 j q
/-- … and its column coordinate the result's column coordinate. -/
theorem second_rhs_1 (j : S5000x64.Idx) (q : dot_S5000x64_S64x64_S5000x64_1_0_0_1_n_n.contr.Idx) :
    (dot_S5000x64_S64x64_S5000x64_1_0_0_1_n_n.rhsIdx j q 1).val = (j 1).val := first_rhs_1 j q

/-- Into the zero accumulator the product at (r, j) is the sum over k of A r k · B k j. -/
theorem second_matmul_apply {φ₁ φ₂ : FTy} (A : FVec Ideal S5000x64 φ₁) (B : FVec Ideal S64x64 φ₂)
    (r : Fin 5000) (j : Fin 64) :
    matmul dot_S5000x64_S64x64_S5000x64_1_0_0_1_n_n none A B (constant (F := Ideal) S5000x64 .f32 0x00000000#32) (ix2 r j)
      = ∑ k : Fin 64, A (ix2 r k) * B (ix2 k j) := first_matmul_apply A B r j

/-! ## The sum over a tile's rows, and the cast that gives it back its unit row coordinate -/

/-- The row sum of a 5000 × 64 tile, cast to one row of 64, at column j: the sum over the 5000 rows. -/
theorem colsum_S5000x64_apply (X : FVec Ideal S5000x64 .f32) (hφ : FKind.Formats .f32)
    (hacc : (0x00000000#32 : BitVec 32) = 0x00000000#32) (u : Fin 1) (j : Fin 64) :
    shapeCast S1x64 (multiReduction (F := Ideal) .add [0] S64 X 0x00000000#32 reduces_S5000x64_S64 hφ hacc)
        shapeCasts_S64_S1x64 (ix2 u j)
      = ∑ r : Fin 5000, X (ix2 r j) := by
  refine (shapeCast_a_1a_apply _ shapeCasts_S64_S1x64 u j).trans ?_
  refine (Ideal.multiReduction_add_single X 0x00000000#32 reduces_S5000x64_S64 hφ hacc (ix1 j)).trans ?_
  refine Finset.sum_congr rfl fun r _ => congrArg X ?_
  funext a; refine Fin.ext ?_
  match a with
  | ⟨0, _⟩ => rfl
  | ⟨1, _⟩ => rfl

/-! ## The named terms at an index -/

/-- The column total is stored as it is: the cast on its way keeps the shape. -/
theorem pay1_eq (v32 : FVec Ideal S1x64 .f32) : k4_pay1 (F := Ideal) v32 = v32 := by
  unfold k4_pay1
  exact shapeCast_self _ _

/-- The same at column j. -/
theorem pay1_apply (v32 : FVec Ideal S1x64 .f32) (j : Fin 64) : k4_pay1 (F := Ideal) v32 (ix2 0 j) = v32 (ix2 0 j) :=
  congrFun (pay1_eq v32) _

/-- The running total of squares after one more tile, at column j. -/
theorem pay2_apply (v24 : Vec Ideal S5000x64 .f32) (v36 : Vec Ideal S1x64 .f32) (j : Fin 64) :
    k4_pay2 (F := Ideal) v24 v36 (ix2 0 j)
      = v36 (ix2 0 j) + (Ideal.ofBits .f32 0x00000000#32 + ∑ r : Fin 5000, v24 (ix2 r j) * v24 (ix2 r j)) := by
  unfold k4_pay2
  simp only [addf_apply, shapeCast_self]
  refine congrArg (v36 (ix2 0 j) + ·) ?_
  refine (colsum_S5000x64_apply _ _ _ 0 j).trans ?_
  simp only [mulf_apply, Ideal.ofBits_zero_f32, zero_add]

/-- The constant the totals are scaled by is the rational 1/50000. -/
theorem inv_n : Named.named (F := Ideal) Cert.KernelIdeal.κ "inv_50000" (φ := .f32) 0x37A7C5AC#32 = ((1 / 50000 : ℝ) : EReal) :=
  IdealRules.named_const.ideal_named_scalar _ _ _ _ rfl

/-- The mean at column j: the total times 1/50000. -/
theorem pay3_apply (v47 : Vec Ideal S1x64 .f32) (j : Fin 64) :
    k4_pay3 (F := Ideal) v47 (ix2 0 j) = v47 (ix2 0 j) * ((1 / 50000 : ℝ) : EReal) := by
  unfold k4_pay3
  simp only [mulf_apply, broadcast_apply, inv_n]

/-- The variance at column j: the total of squares times 1/50000, less the mean's square. -/
theorem pay4_apply (v47 v50 : Vec Ideal S1x64 .f32) (j : Fin 64) :
    k4_pay4 (F := Ideal) v47 v50 (ix2 0 j)
      = v50 (ix2 0 j) * ((1 / 50000 : ℝ) : EReal)
        - (v47 (ix2 0 j) * ((1 / 50000 : ℝ) : EReal)) * (v47 (ix2 0 j) * ((1 / 50000 : ℝ) : EReal)) := by
  unfold k4_pay4
  simp only [subf_apply, mulf_apply, broadcast_apply, inv_n, pay3_apply]

/-- The tile's value at row r and column j. -/
theorem pay5_apply (v0 v2 : Vec Ideal S5000x64 .f32) (v6 : Vec Ideal S64x64 .f32) (v10 : Vec Ideal S1x64 .f32)
    (v17 : Vec Ideal S64x64 .f32) (v21 : Vec Ideal S1x64 .f32) (r : Fin 5000) (j : Fin 64) :
    k4_pay5 (F := Ideal) v0 v2 v6 v10 v17 v21 (ix2 r j)
      = (∑ k : Fin 64, max ((∑ l : Fin 64, (v0 (ix2 r l) + v2 (ix2 r l)) * v6 (ix2 l k)) + v10 (ix2 0 k))
            (Ideal.ofBits .f32 0x00000000#32) * v17 (ix2 k j)) + v21 (ix2 0 j) := by
  unfold k4_pay5
  simp only [addf_apply, maximumf_apply, truncf_apply, broadcast_apply, shapeCast_self, broadcastTo_1b_ab_apply,
    first_matmul_apply]
  rfl

/-- The row the totals start from is zero at every column … -/
theorem pay6_apply (j : Fin 64) : k4_pay6 (F := Ideal) (ix2 0 j) = Ideal.ofBits .f32 0x00000000#32 := by
  unfold k4_pay6
  simp only [shapeCast_self, broadcast_apply]
  rfl

/-- … and so is the one the totals of squares start from. -/
theorem pay7_apply (j : Fin 64) : k4_pay7 (F := Ideal) (ix2 0 j) = Ideal.ofBits .f32 0x00000000#32 := by
  unfold k4_pay7
  simp only [shapeCast_self, broadcast_apply]
  rfl

/-- The running column total after one more tile, at column j: the carried total plus the tile's column sum. -/
theorem pay8_apply (v0 v2 : Vec Ideal S5000x64 .f32) (v6 : Vec Ideal S64x64 .f32) (v10 : Vec Ideal S1x64 .f32)
    (v17 : Vec Ideal S64x64 .f32) (v21 : Vec Ideal S1x64 .f32) (v29 : Vec Ideal S1x64 .f32) (j : Fin 64) :
    k4_pay8 (F := Ideal) v0 v2 v6 v10 v17 v21 v29 (ix2 0 j)
      = v29 (ix2 0 j) + (Ideal.ofBits .f32 0x00000000#32 + ∑ r : Fin 5000, k4_pay5 (F := Ideal) v0 v2 v6 v10 v17 v21 (ix2 r j)) := by
  unfold k4_pay8
  simp only [addf_apply]
  refine congrArg (v29 (ix2 0 j) + ·) ?_
  refine (colsum_S5000x64_apply _ _ _ 0 j).trans ?_
  simp only [Ideal.ofBits_zero_f32, zero_add]

end Reg4

end Cert.KernelIdeal.HandVal

end
-- ==== Proof.KernelIdeal.Mlp4Inv.lean ====
/-
  The first statistics pass: its three output arrays in closed form, on the extended reals.

  Ten tiles of 5000 rows are walked. Each writes its block of the linear activations, so the
  activations array ends as ONE function of the argument arrays, the specification's preNorm, row by
  row. The two running rows start from zero and take one tile's column sums (of z, of z · z) a
  step; after the tenth they hold, by the regrouping of a sum over 50000 rows into ten of 5000,
  the column sums over all rows, and the mean and variance formed from them on the last tile are,
  by the variance identity for real entries, the direct mean and the direct variance of the column.
-/
import proofs.«144771_j36481452212846_1_alg».proof.Proof.KernelIdeal.Mlp4Piece
import proofs.«144771_j36481452212846_1_alg».proof.Proof.KernelIdeal.Pay4Idx
import proofs.«144771_j36481452212846_1_alg».proof.Proof.KernelIdeal.Zlin
import Idealize.ShloMosaic.Lib.Pipeline.Value
import Idealize.ShloMosaic.Lib.Tactic
import Idealize.ShloMosaic.Lib.ValueIdx

-- the blocks' rectangles of 5000 rows are compared one coordinate at a time
set_option maxRecDepth 16384

noncomputable section

open scoped BigOperators

namespace Cert.KernelIdeal.HandVal.Reg4

open Cert.KernelIdeal Cert.KernelIdeal.Gen Cert.KernelIdeal.Hand Cert.KernelIdeal.HandVal
open Idealize.ShloMosaic Idealize.ShloMosaic.TcCoe Idealize.ShloMosaic.Tactic Idealize.ShloMosaic.ValueIdx Idealize.SL.Sem
open Idealize.ShloMosaic.Pipeline (Dat)
open Cert.Math

/-! ## Arrays and blocks at their literal types -/

variable (V : (c : Dev nD) → (b : Ref sig .tc) → Buf (Elt Ideal) ((c : Thread nD τ).loc b))

/-- The six argument arrays of the pass, as it finds them. -/
abbrev X0 (c : Dev nD) : Vec Ideal S50000x64 .f32 := V c (Pipeline.arrRef spec4 0)
abbrev X1 (c : Dev nD) : Vec Ideal S50000x64 .f32 := V c (Pipeline.arrRef spec4 1)
abbrev X2 (c : Dev nD) : Vec Ideal S64x64 .f32 := V c (Pipeline.arrRef spec4 2)
abbrev X3 (c : Dev nD) : Vec Ideal S1x64 .f32 := V c (Pipeline.arrRef spec4 3)
abbrev X4 (c : Dev nD) : Vec Ideal S64x64 .f32 := V c (Pipeline.arrRef spec4 4)
abbrev X5 (c : Dev nD) : Vec Ideal S1x64 .f32 := V c (Pipeline.arrRef spec4 5)

/-- The linear activations of the whole graph, from those arrays. -/
abbrev zlin4 (c : Dev nD) : Vec Ideal S50000x64 .f32 := zlin (X0 V c) (X1 V c) (X2 V c) (X3 V c) (X4 V c) (X5 V c)

/-- The six blocks tile t reads. -/
abbrev B0 (c : Dev nD) (t : Fin cfg4.N) : Vec Ideal S5000x64 .f32 := iblk4 V c 0 t
abbrev B1 (c : Dev nD) (t : Fin cfg4.N) : Vec Ideal S5000x64 .f32 := iblk4 V c 1 t
abbrev B2 (c : Dev nD) (t : Fin cfg4.N) : Vec Ideal S64x64 .f32 := iblk4 V c 2 t
abbrev B3 (c : Dev nD) (t : Fin cfg4.N) : Vec Ideal S1x64 .f32 := iblk4 V c 3 t
abbrev B4 (c : Dev nD) (t : Fin cfg4.N) : Vec Ideal S64x64 .f32 := iblk4 V c 4 t
abbrev B5 (c : Dev nD) (t : Fin cfg4.N) : Vec Ideal S1x64 .f32 := iblk4 V c 5 t

/-- Tile t's linear activations. -/
abbrev tile (c : Dev nD) (t : Fin cfg4.N) : FVec Ideal S5000x64 .f32 :=
  k4_pay5 (F := Ideal) (B0 V c t) (B1 V c t) (B2 V c t) (B3 V c t) (B4 V c t) (B5 V c t)

/-- The running row of column sums after tile n: the zero row plus tile 0's column sums, then one
    tile's column sums more at each step. -/
def sumAt (c : Dev nD) : (n : ℕ) → n < cfg4.N → Vec Ideal S1x64 .f32
  | 0, h => k4_pay8 (F := Ideal) (B0 V c ⟨0, h⟩) (B1 V c ⟨0, h⟩) (B2 V c ⟨0, h⟩) (B3 V c ⟨0, h⟩) (B4 V c ⟨0, h⟩) (B5 V c ⟨0, h⟩) (k4_pay6 (F := Ideal))
  | n + 1, h => k4_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩)
      (sumAt c n (Nat.lt_of_succ_lt h))

/-- The running row of column sums of squares after tile n, likewise. -/
def sqAt (c : Dev nD) : (n : ℕ) → n < cfg4.N → Vec Ideal S1x64 .f32
  | 0, h => k4_pay2 (F := Ideal) (tile V c ⟨0, h⟩) (k4_pay7 (F := Ideal))
  | n + 1, h => k4_pay2 (F := Ideal) (tile V c ⟨n + 1, h⟩) (sqAt c n (Nat.lt_of_succ_lt h))

/-! ## The record along the ten tiles -/

/-- After tile n the activations block holds tile n's activations and the two running rows hold
    the running sums: by induction on the tile, each tile's case read through its pieces. -/
theorem outsAt_eq (c : Dev nD) : ∀ (n : ℕ) (h : n < cfg4.N),
    (outsAt4 V c n h).1 = tile V c ⟨n, h⟩ ∧ (outsAt4 V c n h).2.2.2.1 = sumAt V c n h
      ∧ (outsAt4 V c n h).2.2.2.2 = sqAt V c n h
  | 0, h => by
    have h1 : ¬(⟨0, h⟩ : Fin cfg4.N).val % 10 = 9 := by show ¬(0 % 10 = 9); decide
    rw [outsAt4_A V c ⟨0, h⟩ rfl h1]
    dsimp only
    exact ⟨out4_A_6_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) (ms4_7 ⟨0, h⟩) (hs4_7 ⟨0, h⟩) (ms4_8 ⟨0, h⟩) (hs4_8 ⟨0, h⟩) scM4_0 (Memref.isWhole_whole _) scM4_1 (Memref.isWhole_whole _) ((hcond4_0 ⟨0, h⟩).mpr rfl) (fun hh => h1 ((hcond4_1 ⟨0, h⟩).mp hh)) (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩),
      sout4_A_0_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) (ms4_7 ⟨0, h⟩) (hs4_7 ⟨0, h⟩) (ms4_8 ⟨0, h⟩) (hs4_8 ⟨0, h⟩) scM4_0 (Memref.isWhole_whole _) scM4_1 (Memref.isWhole_whole _) ((hcond4_0 ⟨0, h⟩).mpr rfl) (fun hh => h1 ((hcond4_1 ⟨0, h⟩).mp hh)) (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩),
      sout4_A_1_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) (ms4_7 ⟨0, h⟩) (hs4_7 ⟨0, h⟩) (ms4_8 ⟨0, h⟩) (hs4_8 ⟨0, h⟩) scM4_0 (Memref.isWhole_whole _) scM4_1 (Memref.isWhole_whole _) ((hcond4_0 ⟨0, h⟩).mpr rfl) (fun hh => h1 ((hcond4_1 ⟨0, h⟩).mp hh)) (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩)⟩
  | n + 1, h => by
    have hN : n + 1 < 10 := lt_of_lt_of_eq h (show cfg4.N = 10 from N_4)
    obtain ⟨-, ihS, ihQ⟩ := outsAt_eq c n (Nat.lt_of_succ_lt h)
    have h0 : ¬(⟨n + 1, h⟩ : Fin cfg4.N).val % 10 = 0 := by dsimp only; omega
    by_cases h1 : (⟨n + 1, h⟩ : Fin cfg4.N).val % 10 = 9
    · rw [outsAt4_C V c ⟨n + 1, h⟩ h0 h1]
      dsimp only
      refine ⟨out4_C_6_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) scM4_0 (Memref.isWhole_whole _) scM4_1 (Memref.isWhole_whole _) (fun hh => h0 ((hcond4_0 ⟨n + 1, h⟩).mp hh)) ((hcond4_1 ⟨n + 1, h⟩).mpr h1) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.2.2.1 (outsAt4 V c n (Nat.lt_of_succ_lt h)).2.2.2.2, ?_, ?_⟩
      · refine (sout4_C_0_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) scM4_0 (Memref.isWhole_whole _) scM4_1 (Memref.isWhole_whole _) (fun hh => h0 ((hcond4_0 ⟨n + 1, h⟩).mp hh)) ((hcond4_1 ⟨n + 1, h⟩).mpr h1) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.2.2.1 (outsAt4 V c n (Nat.lt_of_succ_lt h)).2.2.2.2).trans ?_
        exact congrArg (k4_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩)) ihS
      · refine (sout4_C_1_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) scM4_0 (Memref.isWhole_whole _) scM4_1 (Memref.isWhole_whole _) (fun hh => h0 ((hcond4_0 ⟨n + 1, h⟩).mp hh)) ((hcond4_1 ⟨n + 1, h⟩).mpr h1) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.2.2.1 (outsAt4 V c n (Nat.lt_of_succ_lt h)).2.2.2.2).trans ?_
        exact congrArg (k4_pay2 (F := Ideal) (tile V c ⟨n + 1, h⟩)) ihQ
    · rw [outsAt4_B V c ⟨n + 1, h⟩ h0 h1]
      dsimp only
      refine ⟨out4_B_6_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) scM4_0 (Memref.isWhole_whole _) scM4_1 (Memref.isWhole_whole _) (fun hh => h0 ((hcond4_0 ⟨n + 1, h⟩).mp hh)) (fun hh => h1 ((hcond4_1 ⟨n + 1, h⟩).mp hh)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.2.2.1 (outsAt4 V c n (Nat.lt_of_succ_lt h)).2.2.2.2, ?_, ?_⟩
      · refine (sout4_B_0_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) scM4_0 (Memref.isWhole_whole _) scM4_1 (Memref.isWhole_whole _) (fun hh => h0 ((hcond4_0 ⟨n + 1, h⟩).mp hh)) (fun hh => h1 ((hcond4_1 ⟨n + 1, h⟩).mp hh)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.2.2.1 (outsAt4 V c n (Nat.lt_of_succ_lt h)).2.2.2.2).trans ?_
        exact congrArg (k4_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩)) ihS
      · refine (sout4_B_1_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) scM4_0 (Memref.isWhole_whole _) scM4_1 (Memref.isWhole_whole _) (fun hh => h0 ((hcond4_0 ⟨n + 1, h⟩).mp hh)) (fun hh => h1 ((hcond4_1 ⟨n + 1, h⟩).mp hh)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.2.2.1 (outsAt4 V c n (Nat.lt_of_succ_lt h)).2.2.2.2).trans ?_
        exact congrArg (k4_pay2 (F := Ideal) (tile V c ⟨n + 1, h⟩)) ihQ

/-! ## Blocks read off the arrays -/

/-- A tile's number as a number below ten. -/
abbrev t10 (t : Fin cfg4.N) : Fin 10 := ⟨t.val, lt_of_lt_of_eq t.isLt (show cfg4.N = 10 from N_4)⟩

/-- Where the blocks sit, decided over the ten tiles: the two row-tiled inputs and the activations
    at block (t, 0); the weights, the biases, the mean and the variance at block (0, 0). -/
theorem idx0 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- Row r of tile t's block of node features is row 5000 t + r of the array. -/
theorem B0_apply (c : Dev nD) (t : Fin cfg4.N) (r : Fin 5000) (l : Fin 64) :
    B0 V c t (ix2 r l) = X0 V c (ix2 (rowOf (t10 t) r) l) := by
  have e := idx0 t
  show ((cfg4.win 0).blk t).view.read (Elt Ideal) (V c (Pipeline.arrRef spec4 0)) (ix2 r l)
    = V c (Pipeline.arrRef spec4 0) (ix2 (rowOf (t10 t) r) l)
  rw [View.read_apply]
  show V c (Pipeline.arrRef spec4 0) _ = V c (Pipeline.arrRef spec4 0) _
  congr 1
  funext a
  apply Fin.ext
  match a with
  | ⟨0, _⟩ => show win4_0.index t (0 : Fin 2) * 5000 + 1 * r.val = 5000 * t.val + r.val; rw [e.1]; omega
  | ⟨1, _⟩ => show win4_0.index t (1 : Fin 2) * 64 + 1 * l.val = l.val; rw [e.2.1]; omega

/-- The same for the aggregated messages. -/
theorem B1_apply (c : Dev nD) (t : Fin cfg4.N) (r : Fin 5000) (l : Fin 64) :
    B1 V c t (ix2 r l) = X1 V c (ix2 (rowOf (t10 t) r) l) := by
  have e := idx0 t
  show ((cfg4.win 1).blk t).view.read (Elt Ideal) (V c (Pipeline.arrRef spec4 1)) (ix2 r l)
    = V c (Pipeline.arrRef spec4 1) (ix2 (rowOf (t10 t) r) l)
  rw [View.read_apply]
  show V c (Pipeline.arrRef spec4 1) _ = V c (Pipeline.arrRef spec4 1) _
  congr 1
  funext a
  apply Fin.ext
  match a with
  | ⟨0, _⟩ => show win4_1.index t (0 : Fin 2) * 5000 + 1 * r.val = 5000 * t.val + r.val; rw [e.2.2.1]; omega
  | ⟨1, _⟩ => show win4_1.index t (1 : Fin 2) * 64 + 1 * l.val = l.val; rw [e.2.2.2.1]; omega

/-- The first weight matrix's block is the matrix, on every tile. -/
theorem B2_apply (c : Dev nD) (t : Fin cfg4.N) (r : Fin 64) (l : Fin 64) :
    B2 V c t (ix2 r l) = X2 V c (ix2 r l) := by
  have e := idx0 t
  show ((cfg4.win 2).blk t).view.read (Elt Ideal) (V c (Pipeline.arrRef spec4 2)) (ix2 r l)
    = V c (Pipeline.arrRef spec4 2) (ix2 r l)
  rw [View.read_apply]
  show V c (Pipeline.arrRef spec4 2) _ = V c (Pipeline.arrRef spec4 2) _
  congr 1
  funext a
  apply Fin.ext
  match a with
  | ⟨0, _⟩ => show win4_2.index t (0 : Fin 2) * 64 + 1 * r.val = r.val; rw [e.2.2.2.2.1]; omega
  | ⟨1, _⟩ => show win4_2.index t (1 : Fin 2) * 64 + 1 * l.val = l.val; rw [e.2.2.2.2.2.1]; omega

/-- The first bias row's block is the row. -/
theorem B3_apply (c : Dev nD) (t : Fin cfg4.N) (r : Fin 1) (l : Fin 64) :
    B3 V c t (ix2 r l) = X3 V c (ix2 r l) := by
  have e := idx0 t
  show ((cfg4.win 3).blk t).view.read (Elt Ideal) (V c (Pipeline.arrRef spec4 3)) (ix2 r l)
    = V c (Pipeline.arrRef spec4 3) (ix2 r l)
  rw [View.read_apply]
  show V c (Pipeline.arrRef spec4 3) _ = V c (Pipeline.arrRef spec4 3) _
  congr 1
  funext a
  apply Fin.ext
  match a with
  | ⟨0, _⟩ => show win4_3.index t (0 : Fin 2) * 1 + 1 * r.val = r.val; rw [e.2.2.2.2.2.2.1]; omega
  | ⟨1, _⟩ => show win4_3.index t (1 : Fin 2) * 64 + 1 * l.val = l.val; rw [e.2.2.2.2.2.2.2.1]; omega

/-- The second weight matrix's block is the matrix. -/
theorem B4_apply (c : Dev nD) (t : Fin cfg4.N) (r : Fin 64) (l : Fin 64) :
    B4 V c t (ix2 r l) = X4 V c (ix2 r l) := by
  have e := idx0 t
  show ((cfg4.win 4).blk t).view.read (Elt Ideal) (V c (Pipeline.arrRef spec4 4)) (ix2 r l)
    = V c (Pipeline.arrRef spec4 4) (ix2 r l)
  rw [View.read_apply]
  show V c (Pipeline.arrRef spec4 4) _ = V c (Pipeline.arrRef spec4 4) _
  congr 1
  funext a
  apply Fin.ext
  match a with
  | ⟨0, _⟩ => show win4_4.index t (0 : Fin 2) * 64 + 1 * r.val = r.val; rw [e.2.2.2.2.2.2.2.2.1]; omega
  | ⟨1, _⟩ => show win4_4.index t (1 : Fin 2) * 64 + 1 * l.val = l.val; rw [e.2.2.2.2.2.2.2.2.2.1]; omega

/-- The second bias row's block is the row. -/
theorem B5_apply (c : Dev nD) (t : Fin cfg4.N) (r : Fin 1) (l : Fin 64) :
    B5 V c t (ix2 r l) = X5 V c (ix2 r l) := by
  have e := idx0 t
  show ((cfg4.win 5).blk t).view.read (Elt Ideal) (V c (Pipeline.arrRef spec4 5)) (ix2 r l)
    = V c (Pipeline.arrRef spec4 5) (ix2 r l)
  rw [View.read_apply]
  show V c (Pipeline.arrRef spec4 5) _ = V c (Pipeline.arrRef spec4 5) _
  congr 1
  funext a
  apply Fin.ext
  match a with
  | ⟨0, _⟩ => show win4_5.index t (0 : Fin 2) * 1 + 1 * r.val = r.val; rw [e.2.2.2.2.2.2.2.2.2.2.1]; omega
  | ⟨1, _⟩ => show win4_5.index t (1 : Fin 2) * 64 + 1 * l.val = l.val; rw [e.2.2.2.2.2.2.2.2.2.2.2.1]; omega

/-- Tile t's activations at (r, j) are the whole graph's activations at row 5000 t + r. -/
theorem tile_apply (c : Dev nD) (t : Fin cfg4.N) (r : Fin 5000) (j : Fin 64) :
    tile V c t (ix2 r j) = zlin4 V c (ix2 (rowOf (t10 t) r) j) := by
  refine (pay5_apply (B0 V c t) (B1 V c t) (B2 V c t) (B3 V c t) (B4 V c t) (B5 V c t) r j).trans ?_
  refine Eq.trans ?_ (zlin_apply_sum (X0 V c) (X1 V c) (X2 V c) (X3 V c) (X4 V c) (X5 V c) (rowOf (t10 t) r) j).symm
  simp only [B0_apply, B1_apply, B2_apply, B3_apply, B4_apply, B5_apply]

/-! ## The running rows at a column -/

/-- Column j of the running row of sums after tile 0. -/
theorem sumAt_zero_apply (c : Dev nD) (h : 0 < cfg4.N) (j : Fin 64) :
    sumAt V c 0 h (ix2 0 j)
      = Ideal.ofBits .f32 0x00000000#32
        + (Ideal.ofBits .f32 0x00000000#32 + ∑ r : Fin 5000, tile V c ⟨0, h⟩ (ix2 r j)) :=
  (pay8_apply (B0 V c ⟨0, h⟩) (B1 V c ⟨0, h⟩) (B2 V c ⟨0, h⟩) (B3 V c ⟨0, h⟩) (B4 V c ⟨0, h⟩) (B5 V c ⟨0, h⟩)
    (k4_pay6 (F := Ideal)) j).trans (by rw [pay6_apply])

/-- … and after tile n + 1: what tile n left plus tile n + 1's column sum. -/
theorem sumAt_succ_apply (c : Dev nD) (n : ℕ) (h : n + 1 < cfg4.N) (j : Fin 64) :
    sumAt V c (n + 1) h (ix2 0 j)
      = sumAt V c n (Nat.lt_of_succ_lt h) (ix2 0 j)
        + (Ideal.ofBits .f32 0x00000000#32 + ∑ r : Fin 5000, tile V c ⟨n + 1, h⟩ (ix2 r j)) :=
  pay8_apply (B0 V c ⟨n + 1, h⟩) (B1 V c ⟨n + 1, h⟩) (B2 V c ⟨n + 1, h⟩) (B3 V c ⟨n + 1, h⟩) (B4 V c ⟨n + 1, h⟩)
    (B5 V c ⟨n + 1, h⟩) (sumAt V c n (Nat.lt_of_succ_lt h)) j

/-- Column j of the running row of sums of squares after tile 0. -/
theorem sqAt_zero_apply (c : Dev nD) (h : 0 < cfg4.N) (j : Fin 64) :
    sqAt V c 0 h (ix2 0 j)
      = Ideal.ofBits .f32 0x00000000#32
        + (Ideal.ofBits .f32 0x00000000#32
            + ∑ r : Fin 5000, tile V c ⟨0, h⟩ (ix2 r j) * tile V c ⟨0, h⟩ (ix2 r j)) :=
  (pay2_apply (tile V c ⟨0, h⟩) (k4_pay7 (F := Ideal)) j).trans (by rw [pay7_apply])

/-- … and after tile n + 1. -/
theorem sqAt_succ_apply (c : Dev nD) (n : ℕ) (h : n + 1 < cfg4.N) (j : Fin 64) :
    sqAt V c (n + 1) h (ix2 0 j)
      = sqAt V c n (Nat.lt_of_succ_lt h) (ix2 0 j)
        + (Ideal.ofBits .f32 0x00000000#32
            + ∑ r : Fin 5000, tile V c ⟨n + 1, h⟩ (ix2 r j) * tile V c ⟨n + 1, h⟩ (ix2 r j)) :=
  pay2_apply (tile V c ⟨n + 1, h⟩) (sqAt V c n (Nat.lt_of_succ_lt h)) j

/-! ## The running rows are the ten-tile totals of a column -/

section Column

variable (c : Dev nD) (j : Fin 64)

/-- Column j of the whole graph's activations. -/
abbrev col : Fin 50000 → EReal := fun R => zlin4 V c (ix2 R j)

/-- Tile t's column sum as the kernel forms it: from the zero word. -/
abbrev tsum (t : Fin 10) : EReal := Ideal.ofBits .f32 0x00000000#32 + ∑ r : Fin 5000, col V c j (rowOf t r)
/-- Tile t's column sum of squares, likewise. -/
abbrev tsq (t : Fin 10) : EReal :=
  Ideal.ofBits .f32 0x00000000#32 + ∑ r : Fin 5000, col V c j (rowOf t r) * col V c j (rowOf t r)

theorem tsum_eq (t : Fin 10) : tsum V c j t = ∑ r : Fin 5000, col V c j (rowOf t r) := by
  rw [tsum, Ideal.ofBits_zero_f32, zero_add]
theorem tsq_eq (t : Fin 10) : tsq V c j t = ∑ r : Fin 5000, col V c j (rowOf t r) * col V c j (rowOf t r) := by
  rw [tsq, Ideal.ofBits_zero_f32, zero_add]

/-- The running sum of column j after tile n (zero past the last tile). -/
def accS (n : ℕ) : EReal := if h : n < cfg4.N then sumAt V c n h (ix2 0 j) else 0
/-- The running sum of squares of column j after tile n. -/
def accQ (n : ℕ) : EReal := if h : n < cfg4.N then sqAt V c n h (ix2 0 j) else 0

theorem accS_zero : accS V c j 0 = Ideal.ofBits .f32 0x00000000#32 + tsum V c j 0 := by
  have h : 0 < cfg4.N := by rw [show cfg4.N = 10 from N_4]; decide
  rw [accS, dif_pos h, sumAt_zero_apply]
  simp only [tile_apply] <;> rfl

theorem accS_succ (n : ℕ) (h10 : n + 1 < 10) : accS V c j (n + 1) = accS V c j n + tsum V c j ⟨n + 1, h10⟩ := by
  have h : n + 1 < cfg4.N := by rw [show cfg4.N = 10 from N_4]; exact h10
  rw [accS, accS, dif_pos h, dif_pos (Nat.lt_of_succ_lt h), sumAt_succ_apply]
  simp only [tile_apply] <;> rfl

theorem accQ_zero : accQ V c j 0 = Ideal.ofBits .f32 0x00000000#32 + tsq V c j 0 := by
  have h : 0 < cfg4.N := by rw [show cfg4.N = 10 from N_4]; decide
  rw [accQ, dif_pos h, sqAt_zero_apply]
  simp only [tile_apply] <;> rfl

theorem accQ_succ (n : ℕ) (h10 : n + 1 < 10) : accQ V c j (n + 1) = accQ V c j n + tsq V c j ⟨n + 1, h10⟩ := by
  have h : n + 1 < cfg4.N := by rw [show cfg4.N = 10 from N_4]; exact h10
  rw [accQ, accQ, dif_pos h, dif_pos (Nat.lt_of_succ_lt h), sqAt_succ_apply]
  simp only [tile_apply] <;> rfl

/-- The mean the last tile forms is the direct mean of the column. -/
theorem mean_at9 (h : 9 < cfg4.N) :
    sumAt V c 9 h (ix2 0 j) * ((1 / 50000 : ℝ) : EReal) = meanDirect (col V c j) := by
  have e := mean_tiled_eq_direct (col V c j) rowOf rowOf_val (tsum V c j) (tsum_eq V c j) (accS V c j)
    (accS_zero V c j) (accS_succ V c j) ((1 / 50000 : ℝ) : EReal) rfl
  rwa [accS, dif_pos h] at e

/-- The variance the last tile forms is the direct variance of the column, when its entries are reals. -/
theorem var_at9 (h : 9 < cfg4.N) (hz : ∀ R, IsReal (col V c j R)) :
    sqAt V c 9 h (ix2 0 j) * ((1 / 50000 : ℝ) : EReal)
        - (sumAt V c 9 h (ix2 0 j) * ((1 / 50000 : ℝ) : EReal)) * (sumAt V c 9 h (ix2 0 j) * ((1 / 50000 : ℝ) : EReal))
      = varDirect (col V c j) := by
  have e := var_tiled_eq_direct (col V c j) rowOf rowOf_val hz (tsum V c j) (tsum_eq V c j) (accS V c j)
    (accS_zero V c j) (accS_succ V c j) (tsq V c j) (tsq_eq V c j) (accQ V c j) (accQ_zero V c j) (accQ_succ V c j)
    ((1 / 50000 : ℝ) : EReal) rfl
  rwa [accS, accQ, dif_pos h, dif_pos h] at e

end Column

/-! ## The three output arrays after the pass -/

/-- Every tile's block of activations has the full 5000 rows and 64 columns. -/
theorem xsize0_6 : ∀ t : Fin cfg4.N, win4_6.xsize (grid4.coords t) (0 : Fin 2) = 5000 ∧ win4_6.xsize (grid4.coords t) (1 : Fin 2) = 64 :=
  (by decide +kernel : ∀ t : Fin grid4.N, _)

/-- What tile t writes back of the activations is its block of the whole graph's activations. -/
theorem flushed4_6 (c : Dev nD) (t : Fin cfg4.N) (hf : (cfg4.win 6).flush t = true) :
    (dat4 V c).flushed 6 t = ((cfg4.win 6).blk t).view.read (Elt Ideal) (zlin4 V c) := by
  have e := idx0 t
  show (cfg4.win 6).cut (grid4.coords t) ((dat4 V c).after 6 t) = _
  rw [after4_6, (outsAt_eq V c t.val t.isLt).1]
  funext y
  obtain ⟨r, j, rfl⟩ : ∃ (r : Fin 5000) (j : Fin 64), y = ix2 r j := ⟨y 0, y 1, eq_ix2 y⟩
  show tile V c t (ix2 r j) = zlin4 V c (((cfg4.win 6).blk t).view.emb (ix2 r j))
  rw [tile_apply]
  congr 1
  funext a
  apply Fin.ext
  match a with
  | ⟨0, _⟩ => show 5000 * t.val + r.val = win4_6.index t (0 : Fin 2) * 5000 + 1 * r.val; rw [e.2.2.2.2.2.2.2.2.2.2.2.2.1]; omega
  | ⟨1, _⟩ => show j.val = win4_6.index t (1 : Fin 2) * 64 + 1 * j.val; rw [e.2.2.2.2.2.2.2.2.2.2.2.2.2.1]; omega

/-- THE ACTIVATIONS ARRAY after the pass: the whole graph's linear activations. Row R lies in the
    block of tile R / 5000. -/
theorem final6 (c : Dev nD) : (dat4 V c).arrAt 6 cfg4.N = zlin4 V c :=
  (dat4 V c).arrAt_eq_of_cover 6 (zlin4 V c) (flushed4_6 V c) fun i => by
    have hi0 : (i 0).val < 50000 := (i 0).isLt
    have hi1 : (i 1).val < 64 := (i 1).isLt
    have hN : cfg4.N = 10 := N_4
    have hq : (i 0).val / 5000 < cfg4.N := by rw [hN]; omega
    refine ⟨⟨(i 0).val / 5000, hq⟩, flush4_6 _, ?_⟩
    have e := idx0 ⟨(i 0).val / 5000, hq⟩
    have x := xsize0_6 ⟨(i 0).val / 5000, hq⟩
    show i ∈ ((View.whole main_v70_0).slice (win4_6.rect ⟨(i 0).val / 5000, hq⟩)).set
    rw [View.set_slice_whole, Rect.mem_set_unit]
    intro a
    match a with
    | ⟨0, _⟩ =>
      show win4_6.index ⟨(i 0).val / 5000, hq⟩ (0 : Fin 2) * win4_6.size (0 : Fin 2) ≤ (i 0 : Nat)
        ∧ (i 0 : Nat) < win4_6.index ⟨(i 0).val / 5000, hq⟩ (0 : Fin 2) * win4_6.size (0 : Fin 2) + win4_6.xsize (grid4.coords ⟨(i 0).val / 5000, hq⟩) (0 : Fin 2)
      rw [e.2.2.2.2.2.2.2.2.2.2.2.2.1, x.1, show win4_6.size (0 : Fin 2) = 5000 from rfl]
      dsimp only
      omega
    | ⟨1, _⟩ =>
      show win4_6.index ⟨(i 0).val / 5000, hq⟩ (1 : Fin 2) * win4_6.size (1 : Fin 2) ≤ (i 1 : Nat)
        ∧ (i 1 : Nat) < win4_6.index ⟨(i 0).val / 5000, hq⟩ (1 : Fin 2) * win4_6.size (1 : Fin 2) + win4_6.xsize (grid4.coords ⟨(i 0).val / 5000, hq⟩) (1 : Fin 2)
      rw [e.2.2.2.2.2.2.2.2.2.2.2.2.2.1, x.2, show win4_6.size (1 : Fin 2) = 64 from rfl]
      omega

/-- The one tile that writes the mean and the variance back is the last. -/
theorem t_eq_nine (t : Fin cfg4.N) (h : t.val % 10 = 9) : t.val = 9 := by
  have := lt_of_lt_of_eq t.isLt (show cfg4.N = 10 from N_4); omega

/-- On the last tile the mean block holds the updated running row of sums times 1/50000, and the
    variance block the updated sums of squares times 1/50000 less that mean's square. -/
theorem outs78_eq (c : Dev nD) (n : ℕ) (h : n + 1 < cfg4.N) (h1 : (⟨n + 1, h⟩ : Fin cfg4.N).val % 10 = 9) :
    (outsAt4 V c (n + 1) h).2.1 = k4_pay3 (F := Ideal) (sumAt V c (n + 1) h)
      ∧ (outsAt4 V c (n + 1) h).2.2.1 = k4_pay4 (F := Ideal) (sumAt V c (n + 1) h) (sqAt V c (n + 1) h) := by
  have hN : n + 1 < 10 := lt_of_lt_of_eq h (show cfg4.N = 10 from N_4)
  obtain ⟨-, ihS, ihQ⟩ := outsAt_eq V c n (Nat.lt_of_succ_lt h)
  have h0 : ¬(⟨n + 1, h⟩ : Fin cfg4.N).val % 10 = 0 := by dsimp only; omega
  rw [outsAt4_C V c ⟨n + 1, h⟩ h0 h1]
  dsimp only
  refine ⟨?_, ?_⟩
  · refine (out4_C_7_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) scM4_0 (Memref.isWhole_whole _) scM4_1 (Memref.isWhole_whole _) (fun hh => h0 ((hcond4_0 ⟨n + 1, h⟩).mp hh)) ((hcond4_1 ⟨n + 1, h⟩).mpr h1) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.2.2.1 (outsAt4 V c n (Nat.lt_of_succ_lt h)).2.2.2.2).trans ?_
    exact congrArg (fun s => k4_pay3 (F := Ideal) (k4_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩) s)) ihS
  · refine (out4_C_8_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) scM4_0 (Memref.isWhole_whole _) scM4_1 (Memref.isWhole_whole _) (fun hh => h0 ((hcond4_0 ⟨n + 1, h⟩).mp hh)) ((hcond4_1 ⟨n + 1, h⟩).mpr h1) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.2.2.1 (outsAt4 V c n (Nat.lt_of_succ_lt h)).2.2.2.2).trans ?_
    exact congrArg₂ (fun s q => k4_pay4 (F := Ideal) (k4_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩) s) (k4_pay2 (F := Ideal) (tile V c ⟨n + 1, h⟩) q)) ihS ihQ

/-- After the tenth tile: the mean block … -/
theorem out7_at9 (c : Dev nD) (h : 9 < cfg4.N) :
    (outsAt4 V c 9 h).2.1 = k4_pay3 (F := Ideal) (sumAt V c 9 h) :=
  (outs78_eq V c 8 h rfl).1

/-- … and the variance block. -/
theorem out8_at9 (c : Dev nD) (h : 9 < cfg4.N) :
    (outsAt4 V c 9 h).2.2.1 = k4_pay4 (F := Ideal) (sumAt V c 9 h) (sqAt V c 9 h) :=
  (outs78_eq V c 8 h rfl).2

end Cert.KernelIdeal.HandVal.Reg4

end
-- ==== Proof.KernelIdeal.Mlp4Val.lean ====
/-
  The first statistics pass: the mean and the variance arrays it leaves, on the extended reals.

  Both are one row of 64 columns, stored on the last tile only and written back once. The last
  tile forms them from the two running rows, which by then hold the column sums of the linear
  activations and of their squares over all 50000 rows; so column j of the mean array is the direct
  mean of column j of the activations, and, the activations being reals, column j of the variance
  array is the direct variance of that column.
-/
import proofs.«144771_j36481452212846_1_alg».proof.Proof.KernelIdeal.Mlp4Inv
import Idealize.ShloMosaic.Lib.Pipeline.Value
import Idealize.ShloMosaic.Lib.Tactic
import Idealize.ShloMosaic.Lib.ValueIdx

-- the blocks' rectangles of 5000 rows are compared one coordinate at a time
set_option maxRecDepth 16384

noncomputable section

open scoped BigOperators

namespace Cert.KernelIdeal.HandVal.Reg4

open Cert.KernelIdeal Cert.KernelIdeal.Gen Cert.KernelIdeal.Hand Cert.KernelIdeal.HandVal
open Idealize.ShloMosaic Idealize.ShloMosaic.TcCoe Idealize.ShloMosaic.Tactic Idealize.ShloMosaic.ValueIdx Idealize.SL.Sem
open Idealize.ShloMosaic.Pipeline (Dat)
open Cert.Math

variable (V : (c : Dev nD) → (b : Ref sig .tc) → Buf (Elt Ideal) ((c : Thread nD τ).loc b))

/-- The mean array the pass leaves: every column's direct mean. -/
abbrev meanArr (c : Dev nD) : Vec Ideal S1x64 .f32 := fun i => meanDirect (col V c (i 1))
/-- The variance array the pass leaves: every column's direct variance. -/
abbrev varArr (c : Dev nD) : Vec Ideal S1x64 .f32 := fun i => varDirect (col V c (i 1))

/-- What the last tile writes back of the mean is the mean array: its one block is the array. -/
theorem flushed4_7 (c : Dev nD) (t : Fin cfg4.N) (hf : (cfg4.win 7).flush t = true) :
    (dat4 V c).flushed 7 t = ((cfg4.win 7).blk t).view.read (Elt Ideal) (meanArr V c) := by
  have e := idx0 t
  have h9 : t.val = 9 := t_eq_nine t ((flush4_7 t).mp hf)
  obtain ⟨n, hn⟩ := t
  dsimp only at h9
  subst h9
  show (cfg4.win 7).cut (grid4.coords ⟨9, hn⟩) ((dat4 V c).after 7 ⟨9, hn⟩) = _
  rw [after4_7, out7_at9 V c hn]
  funext y
  obtain ⟨u, j, rfl⟩ : ∃ (u : Fin 1) (j : Fin 64), y = ix2 u j := ⟨y 0, y 1, eq_ix2 y⟩
  obtain rfl : u = 0 := Subsingleton.elim _ _
  have hemb : ((cfg4.win 7).blk ⟨9, hn⟩).view.emb (ix2 (0 : Fin 1) j) = ix2 (0 : Fin 1) j := by
    funext a
    apply Fin.ext
    match a with
    | ⟨0, _⟩ => show win4_7.index ⟨9, hn⟩ (0 : Fin 2) * 1 + 1 * 0 = 0; rw [e.2.2.2.2.2.2.2.2.2.2.2.2.2.2.1]
    | ⟨1, _⟩ => show win4_7.index ⟨9, hn⟩ (1 : Fin 2) * 64 + 1 * j.val = j.val; rw [e.2.2.2.2.2.2.2.2.2.2.2.2.2.2.2.1]; omega
  show k4_pay3 (F := Ideal) (sumAt V c 9 hn) (ix2 0 j) = meanArr V c (((cfg4.win 7).blk ⟨9, hn⟩).view.emb (ix2 (0 : Fin 1) j))
  rw [hemb, pay3_apply]
  exact mean_at9 V c j hn

/-- The same for the variance, when the activations are reals. -/
theorem flushed4_8 (c : Dev nD) (hz : ∀ R j, IsReal (zlin4 V c (ix2 R j))) (t : Fin cfg4.N) (hf : (cfg4.win 8).flush t = true) :
    (dat4 V c).flushed 8 t = ((cfg4.win 8).blk t).view.read (Elt Ideal) (varArr V c) := by
  have e := idx0 t
  have h9 : t.val = 9 := t_eq_nine t ((flush4_8 t).mp hf)
  obtain ⟨n, hn⟩ := t
  dsimp only at h9
  subst h9
  show (cfg4.win 8).cut (grid4.coords ⟨9, hn⟩) ((dat4 V c).after 8 ⟨9, hn⟩) = _
  rw [after4_8, out8_at9 V c hn]
  funext y
  obtain ⟨u, j, rfl⟩ : ∃ (u : Fin 1) (j : Fin 64), y = ix2 u j := ⟨y 0, y 1, eq_ix2 y⟩
  obtain rfl : u = 0 := Subsingleton.elim _ _
  have hemb : ((cfg4.win 8).blk ⟨9, hn⟩).view.emb (ix2 (0 : Fin 1) j) = ix2 (0 : Fin 1) j := by
    funext a
    apply Fin.ext
    match a with
    | ⟨0, _⟩ => show win4_8.index ⟨9, hn⟩ (0 : Fin 2) * 1 + 1 * 0 = 0; rw [e.2.2.2.2.2.2.2.2.2.2.2.2.2.2.2.2.1]
    | ⟨1, _⟩ => show win4_8.index ⟨9, hn⟩ (1 : Fin 2) * 64 + 1 * j.val = j.val; rw [e.2.2.2.2.2.2.2.2.2.2.2.2.2.2.2.2.2]; omega
  show k4_pay4 (F := Ideal) (sumAt V c 9 hn) (sqAt V c 9 hn) (ix2 0 j) = varArr V c (((cfg4.win 8).blk ⟨9, hn⟩).view.emb (ix2 (0 : Fin 1) j))
  rw [hemb, pay4_apply]
  exact var_at9 V c j hn fun R => hz R j

/-- The last tile's block of a one-row array is the array: every index lies in it. -/
theorem cover4_7 (i : S1x64.Idx) : ∃ t : Fin cfg4.N, (cfg4.win 7).flush t = true ∧ i ∈ ((cfg4.win 7).blk t).view.set :=
  ⟨t4_9, (flush4_7 t4_9).mpr rfl, by
    show i ∈ ((View.whole main_v70_1).slice (win4_7.rect t4_9)).set
    rw [View.set_slice_whole, Rect.mem_set_unit]
    intro a
    have h0 : (i 0 : Nat) < 1 := (i 0).isLt
    have h1 : (i 1 : Nat) < 64 := (i 1).isLt
    match a with
    | ⟨0, _⟩ => show win4_7.index t4_9 0 * win4_7.size 0 ≤ (i 0 : Nat) ∧ (i 0 : Nat) < win4_7.index t4_9 0 * win4_7.size 0 + win4_7.xsize (grid4.coords t4_9) 0
                rw [show win4_7.index t4_9 0 * win4_7.size 0 = 0 from by decide +kernel, show win4_7.xsize (grid4.coords t4_9) 0 = 1 from by decide +kernel]; omega
    | ⟨1, _⟩ => show win4_7.index t4_9 1 * win4_7.size 1 ≤ (i 1 : Nat) ∧ (i 1 : Nat) < win4_7.index t4_9 1 * win4_7.size 1 + win4_7.xsize (grid4.coords t4_9) 1
                rw [show win4_7.index t4_9 1 * win4_7.size 1 = 0 from by decide +kernel, show win4_7.xsize (grid4.coords t4_9) 1 = 64 from by decide +kernel]; omega⟩

theorem cover4_8 (i : S1x64.Idx) : ∃ t : Fin cfg4.N, (cfg4.win 8).flush t = true ∧ i ∈ ((cfg4.win 8).blk t).view.set :=
  ⟨t4_9, (flush4_8 t4_9).mpr rfl, by
    show i ∈ ((View.whole main_v70_2).slice (win4_8.rect t4_9)).set
    rw [View.set_slice_whole, Rect.mem_set_unit]
    intro a
    have h0 : (i 0 : Nat) < 1 := (i 0).isLt
    have h1 : (i 1 : Nat) < 64 := (i 1).isLt
    match a with
    | ⟨0, _⟩ => show win4_8.index t4_9 0 * win4_8.size 0 ≤ (i 0 : Nat) ∧ (i 0 : Nat) < win4_8.index t4_9 0 * win4_8.size 0 + win4_8.xsize (grid4.coords t4_9) 0
                rw [show win4_8.index t4_9 0 * win4_8.size 0 = 0 from by decide +kernel, show win4_8.xsize (grid4.coords t4_9) 0 = 1 from by decide +kernel]; omega
    | ⟨1, _⟩ => show win4_8.index t4_9 1 * win4_8.size 1 ≤ (i 1 : Nat) ∧ (i 1 : Nat) < win4_8.index t4_9 1 * win4_8.size 1 + win4_8.xsize (grid4.coords t4_9) 1
                rw [show win4_8.index t4_9 1 * win4_8.size 1 = 0 from by decide +kernel, show win4_8.xsize (grid4.coords t4_9) 1 = 64 from by decide +kernel]; omega⟩

/-- THE MEAN ARRAY after the pass. -/
theorem final7_arr (c : Dev nD) : (dat4 V c).arrAt 7 cfg4.N = meanArr V c :=
  (dat4 V c).arrAt_eq_of_cover 7 (meanArr V c) (flushed4_7 V c) cover4_7

/-- … at column j: the direct mean of column j of the activations. -/
theorem final7 (c : Dev nD) (j : Fin 64) :
    (dat4 V c).arrAt 7 cfg4.N (ix2 0 j) = meanDirect (fun i : Fin 50000 => zlin4 V c (ix2 i j)) :=
  congrFun (final7_arr V c) (ix2 0 j)

/-- THE VARIANCE ARRAY after the pass, when the activations are reals. -/
theorem final8_arr (c : Dev nD) (hz : ∀ R j, IsReal (zlin4 V c (ix2 R j))) : (dat4 V c).arrAt 8 cfg4.N = varArr V c :=
  (dat4 V c).arrAt_eq_of_cover 8 (varArr V c) (flushed4_8 V c hz) cover4_8

/-- … at column j: the direct variance of column j of the activations. -/
theorem final8 (c : Dev nD) (hz : ∀ R j, IsReal (zlin4 V c (ix2 R j))) (j : Fin 64) :
    (dat4 V c).arrAt 8 cfg4.N (ix2 0 j) = varDirect (fun i : Fin 50000 => zlin4 V c (ix2 i j)) :=
  congrFun (final8_arr V c hz) (ix2 0 j)

end Cert.KernelIdeal.HandVal.Reg4

end
-- ==== Proof.KernelIdeal.KVal.L2.lean ====
/-
  Layer 2 of the idealized kernel: regions 4 and 5 after the host stretch that slices index 1 of the stacked
  parameters and sums the neighbours of layer 1's output. The argument is layer 0's (Base.lean), with the previous
  layer's output buffer in the place of the node features and each parameter read through its slice.
-/
import proofs.«144771_j36481452212846_1_alg».proof.Proof.KernelIdeal.KVal.Base
import proofs.«144771_j36481452212846_1_alg».proof.Proof.KernelIdeal.Bn5Val
import proofs.«144771_j36481452212846_1_alg».proof.Proof.KernelIdeal.Mlp4Val

noncomputable section

namespace Cert.KernelIdeal.HandVal

open Cert.KernelIdeal Cert.KernelIdeal.Gen Cert.KernelIdeal.Hand Cert.Math
open Idealize.ShloMosaic Idealize.ShloMosaic.TcCoe Idealize.ShloMosaic.ValueIdx Idealize.SL.Sem
open Cert.ReferenceIdeal.HandVal (agg128_eq agg64_eq mat0_apply mat1_apply mat2_apply row0_apply row1_apply row2_apply)

variable (m : (ℓ : Loc nD τ sig) → Buf (Elt Ideal) ℓ) (ρ : Dev nD → PrngReg)

/-- After regions 4 and 5 the buffer main_v71 holds the reference's layer 2 of what main_v43 held and the
    arguments, with real entries when main_v43's are. -/
theorem out2 (hpre : Cert.Pre_KernelIdeal m) (c : Dev nD)
    (rH : ∀ i, IsReal ((W6 (F := Ideal) m ρ c (Proc.devRef .tc main_v43) : S50000x64.Idx → EReal) i)) :
    (W9 (F := Ideal) m ρ c (Proc.devRef .tc main_v71) : S50000x64.Idx → EReal)
        = Cert.ReferenceIdeal.Hand.layer2 (F := Ideal) (W6 m ρ c (Proc.devRef .tc main_v43))
            (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ ∀ i, IsReal ((W9 (F := Ideal) m ρ c (Proc.devRef .tc main_v71) : S50000x64.Idx → EReal) i) := by
  obtain ⟨a1, a2, a9, a10, a11, a12, a13, a14⟩ := W6_args m ρ c
  have x1 : W7 (F := Ideal) m ρ c (Proc.devRef .tc main_v65)
      = Cert.Math.agg 64 (W6 m ρ c (Proc.devRef .tc main_v43)) (m ((c.tc : Thread nD τ).loc main_arg1)) (m ((c.tc : Thread nD τ).loc main_arg2)) := by
    rw [← a1, ← a2]; exact after4_agg (W6 m ρ c)
  exact layerS_arrays (W6 m ρ c (Proc.devRef .tc main_v43)) (m ((c.tc : Thread nD τ).loc main_arg1)) (m ((c.tc : Thread nD τ).loc main_arg2))
    (Cert.ReferenceIdeal.Hand.mat1 (m ((c.tc : Thread nD τ).loc main_arg9))) (Cert.ReferenceIdeal.Hand.row1 (m ((c.tc : Thread nD τ).loc main_arg10)))
    (Cert.ReferenceIdeal.Hand.mat1 (m ((c.tc : Thread nD τ).loc main_arg11))) (Cert.ReferenceIdeal.Hand.row1 (m ((c.tc : Thread nD τ).loc main_arg12)))
    (Cert.ReferenceIdeal.Hand.row1 (m ((c.tc : Thread nD τ).loc main_arg13))) (Cert.ReferenceIdeal.Hand.row1 (m ((c.tc : Thread nD τ).loc main_arg14)))
    (X0 := W7 m ρ c (Proc.devRef .tc main_v43)) (X1 := W7 m ρ c (Proc.devRef .tc main_v65))
    (X2 := W7 m ρ c (Proc.devRef .tc main_v45)) (X3 := W7 m ρ c (Proc.devRef .tc main_v66))
    (X4 := W7 m ρ c (Proc.devRef .tc main_v49)) (X5 := W7 m ρ c (Proc.devRef .tc main_v67))
    (Z := W8 m ρ c (Proc.devRef .tc main_v70_0)) (Out := W9 m ρ c (Proc.devRef .tc main_v71))
    (Mn := W8 m ρ c (Proc.devRef .tc main_v70_1)) (Vr := W8 m ρ c (Proc.devRef .tc main_v70_2))
    (Gm := W8 m ρ c (Proc.devRef .tc main_v68)) (Bt := W8 m ρ c (Proc.devRef .tc main_v69))
    ((W9_arr m ρ c 5).trans (final5_5 (V8 m ρ) c))
    ((W8_arr m ρ c 6).trans (Reg4.final6 (V7 m ρ) c))
    (fun j => (congrFun (W8_arr m ρ c 7) _).trans (Reg4.final7 (V7 m ρ) c j))
    (fun hz j => (congrFun (W8_arr m ρ c 8) _).trans (Reg4.final8 (V7 m ρ) c hz j))
    (W7_of m ρ c main_v43 (by decide)) (x1.trans (agg64_eq _ _ _).symm)
    (fun l k => (after4_W1_apply (W6 m ρ c) l k).trans (by rw [a9]; exact (mat1_apply _ l k).symm))
    (fun j => (after4_b1r_apply (W6 m ρ c) 0 j).trans (by rw [a10]; exact (row1_apply _ j).symm))
    (fun l k => (after4_W2_apply (W6 m ρ c) l k).trans (by rw [a11]; exact (mat1_apply _ l k).symm))
    (fun j => (after4_b2r_apply (W6 m ρ c) 0 j).trans (by rw [a12]; exact (row1_apply _ j).symm))
    (fun j => (congrFun (W8_of_ne m ρ c main_v68 (by decide)) _).trans
      ((after4_gr_apply (W6 m ρ c) 0 j).trans (by rw [a13]; exact (row1_apply _ j).symm)))
    (fun j => (congrFun (W8_of_ne m ρ c main_v69 (by decide)) _).trans
      ((after4_ber_apply (W6 m ρ c) 0 j).trans (by rw [a14]; exact (row1_apply _ j).symm)))
    rH (fun i => by rw [x1]; exact Cert.Math.agg_real 64 _ _ _ rH i)
    (real_ix2 fun l k => by rw [mat1_apply]; exact real_arg9 m hpre c _)
    (real_ix1 fun j => by rw [row1_apply]; exact real_arg10 m hpre c _)
    (real_ix2 fun l k => by rw [mat1_apply]; exact real_arg11 m hpre c _)
    (real_ix1 fun j => by rw [row1_apply]; exact real_arg12 m hpre c _)
    (real_ix1 fun j => by rw [row1_apply]; exact real_arg13 m hpre c _)
    (real_ix1 fun j => by rw [row1_apply]; exact real_arg14 m hpre c _)

end Cert.KernelIdeal.HandVal

end
-- ==== Proof.KernelIdeal.Bn7Val.lean ====
/-
  The output array of the batch-norm-and-ReLU region, in closed form, over the extended reals.

  The region runs its body at ten grid points; point t reads row tile t of the pre-activations and the four
  statistic rows, and writes row tile t of the output array. Here we show that once all ten points have written
  back, the output array IS the whole-array function bnArr of the five input arrays as the region found them (V):
  at row r and column j, max(((z(r,j) - mean(0,j)) * rsqrt(var(0,j) + eps)) * scale(0,j) + shift(0,j), 0).

  The steps: the tile the body leaves, read at one element, is bnElt of the element of the pre-activation tile and
  the four statistics of its column (the payload is a tree of pointwise operations and row broadcasts); the
  pre-activation block and the output block at point t sit at the same place of their arrays (row 5000 t + p), and
  each statistic row's one block is its whole array; so what point t writes back is its block of bnArr; the ten
  blocks cover every row (row r belongs to point r / 5000); hence the array ends as bnArr.
-/
import proofs.«144771_j36481452212846_1_alg».proof.Proof.KernelIdeal.Bn7
import proofs.«144771_j36481452212846_1_alg».proof.Proof.Math.BnSpec
import Idealize.ShloMosaic.Lib.Pipeline.Value
import Idealize.ShloMosaic.Lib.ValueIdx
import Idealize.ShloMosaic.Lib.ValueLayout

set_option maxRecDepth 16384

noncomputable section

namespace Cert.KernelIdeal.HandVal

open Cert.KernelIdeal Cert.KernelIdeal.Gen Cert.KernelIdeal.Hand Cert.Math
open Idealize.ShloMosaic Idealize.ShloMosaic.TcCoe Idealize.SL.Sem
open Idealize.ShloMosaic.Pipeline (Dat)
open Idealize.ShloMosaic.ValueIdx

/-- The zero offsets of a whole-buffer rectangle, spelt as a function. -/
private theorem zeros : (![0, 0] : Fin 2 → Nat) = fun _ => 0 :=
  funext fun a => by match a with | ⟨0, _⟩ => rfl | ⟨1, _⟩ => rfl

/-- The reciprocal square root of a vector, read at an index, is that of the element. -/
private theorem rsqrt_at {s : Shape} {φ : FTy} (a : FVec Ideal s φ) (i : s.Idx) : rsqrt a i = Ideal.rsqrt (a i) := rfl

/-! ## The tile the body leaves, element by element -/

/-- Row p, column q of the output tile, from the five input blocks: the element of the pre-activation tile there,
    treated with the four statistics of column q. The body's one store covers the tile, so the tile is the
    payload; the payload is a tree of pointwise operations over the tile and the four rows broadcast down it. -/
theorem out7_5_apply (x0 : Vec Ideal S5000x64 .f32) (x1 x2 x3 x4 : Vec Ideal S1x64 .f32) (p : Fin 5000) (q : Fin 64) :
    out7_5 x0 x1 x2 x3 x4 (ix2 p q)
      = bnElt (x0 (ix2 p q)) (x1 (ix2 (0 : Fin 1) q)) (x2 (ix2 (0 : Fin 1) q)) (x3 (ix2 (0 : Fin 1) q)) (x4 (ix2 (0 : Fin 1) q)) := by
  unfold out7_5
  rw [View.canon_unit_zero zeros]
  simp only [View.ld_unit_zero (S := S5000x64) zeros, View.ld_unit_zero (S := S1x64) zeros]
  unfold k7_pay1 bnElt
  simp only [maximumf_apply, addf_apply, mulf_apply, subf_apply, broadcast_apply, shapeCast_self, broadcastTo_1b_ab_apply, rsqrt_at]
  rfl

variable (V : (c : Dev nD) → (b : Ref sig .tc) → Buf (Elt Ideal) ((c : Thread nD τ).loc b))

/-! ## Where the windows' blocks sit -/

/-- The block indices over the grid, decided point by point: the pre-activation window and the output window are
    both at row tile t, column tile 0; the four rows are at block (0, 0) throughout. -/
theorem idxFacts7 : ∀ t : Fin cfg7.N,
    win7_0.index t (0 : Fin 2) = t.val ∧ win7_0.index t (1 : Fin 2) = 0
    ∧ win7_5.index t (0 : Fin 2) = t.val ∧ win7_5.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- A row tile of the grid lies inside the array: ten tiles of 5000 rows. -/
theorem row_lt7 (t : Fin cfg7.N) (p : Fin 5000) : t.val * 5000 + p.val < 50000 := by
  have ht : t.val < cfg7.N := t.isLt
  have hN : cfg7.N = 10 := N_7
  have hp : p.val < 5000 := p.isLt
  omega

/-- The pre-activation block at point t, read at row p and column q, is the array at row 5000 t + p. -/
theorem iblk7_0_at (c : Dev nD) (t : Fin cfg7.N) (p : Fin 5000) (q : Fin 64) :
    iblk7 V c 0 t (ix2 p q) = V c (Pipeline.arrRef spec7 0) (ix2 (⟨t.val * 5000 + p.val, row_lt7 t p⟩ : Fin 50000) q) := by
  obtain ⟨e0, e1, -⟩ := idxFacts7 t
  show V c (Pipeline.arrRef spec7 0) (((cfg7.win 0).blk t).view.emb (ix2 p q)) = _
  refine congrArg _ (funext fun a => Fin.ext ?_)
  match a with
  | ⟨0, _⟩ => show win7_0.index t (0 : Fin 2) * 5000 + 1 * p.val = t.val * 5000 + p.val; omega
  | ⟨1, _⟩ => show win7_0.index t (1 : Fin 2) * 64 + 1 * q.val = q.val; omega

/-- Each of the four rows is its own whole array: its one block, at (0, 0), read at column q is the array there. -/
theorem iblk7_1_row (c : Dev nD) (t : Fin cfg7.N) (q : Fin 64) :
    iblk7 V c 1 t (ix2 (0 : Fin 1) q) = V c (Pipeline.arrRef spec7 1) (ix2 (0 : Fin 1) q) := by
  obtain ⟨-, -, -, -, e0, e1, -⟩ := idxFacts7 t
  show V c (Pipeline.arrRef spec7 1) (((cfg7.win 1).blk t).view.emb (ix2 (0 : Fin 1) q)) = _
  refine congrArg _ (funext fun a => Fin.ext ?_)
  match a with
  | ⟨0, _⟩ => show win7_1.index t (0 : Fin 2) * 1 + 1 * 0 = 0; omega
  | ⟨1, _⟩ => show win7_1.index t (1 : Fin 2) * 64 + 1 * q.val = q.val; omega
theorem iblk7_2_row (c : Dev nD) (t : Fin cfg7.N) (q : Fin 64) :
    iblk7 V c 2 t (ix2 (0 : Fin 1) q) = V c (Pipeline.arrRef spec7 2) (ix2 (0 : Fin 1) q) := by
  obtain ⟨-, -, -, -, -, -, e0, e1, -⟩ := idxFacts7 t
  show V c (Pipeline.arrRef spec7 2) (((cfg7.win 2).blk t).view.emb (ix2 (0 : Fin 1) q)) = _
  refine congrArg _ (funext fun a => Fin.ext ?_)
  match a with
  | ⟨0, _⟩ => show win7_2.index t (0 : Fin 2) * 1 + 1 * 0 = 0; omega
  | ⟨1, _⟩ => show win7_2.index t (1 : Fin 2) * 64 + 1 * q.val = q.val; omega
theorem iblk7_3_row (c : Dev nD) (t : Fin cfg7.N) (q : Fin 64) :
    iblk7 V c 3 t (ix2 (0 : Fin 1) q) = V c (Pipeline.arrRef spec7 3) (ix2 (0 : Fin 1) q) := by
  obtain ⟨-, -, -, -, -, -, -, -, e0, e1, -⟩ := idxFacts7 t
  show V c (Pipeline.arrRef spec7 3) (((cfg7.win 3).blk t).view.emb (ix2 (0 : Fin 1) q)) = _
  refine congrArg _ (funext fun a => Fin.ext ?_)
  match a with
  | ⟨0, _⟩ => show win7_3.index t (0 : Fin 2) * 1 + 1 * 0 = 0; omega
  | ⟨1, _⟩ => show win7_3.index t (1 : Fin 2) * 64 + 1 * q.val = q.val; omega
theorem iblk7_4_row (c : Dev nD) (t : Fin cfg7.N) (q : Fin 64) :
    iblk7 V c 4 t (ix2 (0 : Fin 1) q) = V c (Pipeline.arrRef spec7 4) (ix2 (0 : Fin 1) q) := by
  obtain ⟨-, -, -, -, -, -, -, -, -, -, e0, e1⟩ := idxFacts7 t
  show V c (Pipeline.arrRef spec7 4) (((cfg7.win 4).blk t).view.emb (ix2 (0 : Fin 1) q)) = _
  refine congrArg _ (funext fun a => Fin.ext ?_)
  match a with
  | ⟨0, _⟩ => show win7_4.index t (0 : Fin 2) * 1 + 1 * 0 = 0; omega
  | ⟨1, _⟩ => show win7_4.index t (1 : Fin 2) * 64 + 1 * q.val = q.val; omega

/-- Where row p, column q of the output block at point t sits in the output array: row 5000 t + p, column q. -/
theorem emb7_5_at (t : Fin cfg7.N) (p : Fin 5000) (q : Fin 64) :
    ((cfg7.win 5).blk t).view.emb (ix2 p q) = (ix2 (⟨t.val * 5000 + p.val, row_lt7 t p⟩ : Fin 50000) q : S50000x64.Idx) := by
  obtain ⟨-, -, e0, e1, -⟩ := idxFacts7 t
  refine funext fun a => Fin.ext ?_
  match a with
  | ⟨0, _⟩ => show win7_5.index t (0 : Fin 2) * 5000 + 1 * p.val = t.val * 5000 + p.val; omega
  | ⟨1, _⟩ => show win7_5.index t (1 : Fin 2) * 64 + 1 * q.val = q.val; omega

/-! ## What a grid point writes back -/

/-- The output tile of point t at row p and column q is bnArr of the five arrays at row 5000 t + p, column q. -/
theorem tile7_5_at (c : Dev nD) (t : Fin cfg7.N) (p : Fin 5000) (q : Fin 64) :
    out7_5 (iblk7 V c 0 t) (iblk7 V c 1 t) (iblk7 V c 2 t) (iblk7 V c 3 t) (iblk7 V c 4 t) (ix2 p q)
      = bnArr (V c (Pipeline.arrRef spec7 0)) (V c (Pipeline.arrRef spec7 1)) (V c (Pipeline.arrRef spec7 2))
          (V c (Pipeline.arrRef spec7 3)) (V c (Pipeline.arrRef spec7 4)) (ix2 (⟨t.val * 5000 + p.val, row_lt7 t p⟩ : Fin 50000) q) :=
  (out7_5_apply (iblk7 V c 0 t) (iblk7 V c 1 t) (iblk7 V c 2 t) (iblk7 V c 3 t) (iblk7 V c 4 t) p q).trans
    (congr (congr (congr (congr (congrArg bnElt (iblk7_0_at V c t p q)) (iblk7_1_row V c t q)) (iblk7_2_row V c t q))
      (iblk7_3_row V c t q)) (iblk7_4_row V c t q))

/-- Point t writes back row tile t of bnArr of the five arrays as the region finds them. -/
theorem flushed7_5_eq (c : Dev nD) (t : Fin cfg7.N) :
    (dat7 (F := Ideal) V c).flushed 5 t = ((cfg7.win 5).blk t).view.read (Elt Ideal)
      (bnArr (V c (Pipeline.arrRef spec7 0)) (V c (Pipeline.arrRef spec7 1)) (V c (Pipeline.arrRef spec7 2))
        (V c (Pipeline.arrRef spec7 3)) (V c (Pipeline.arrRef spec7 4))) := by
  show (cfg7.win 5).cut (grid7.coords t) ((dat7 V c).after 5 t) = _
  rw [after7_5]
  funext j
  obtain ⟨p, q, rfl⟩ : ∃ (p : Fin 5000) (q : Fin 64), j = ix2 p q := ⟨j 0, j 1, eq_ix2 j⟩
  show out7_5 (iblk7 V c 0 t) (iblk7 V c 1 t) (iblk7 V c 2 t) (iblk7 V c 3 t) (iblk7 V c 4 t) (ix2 p q)
    = bnArr (V c (Pipeline.arrRef spec7 0)) (V c (Pipeline.arrRef spec7 1)) (V c (Pipeline.arrRef spec7 2))
        (V c (Pipeline.arrRef spec7 3)) (V c (Pipeline.arrRef spec7 4)) (((cfg7.win 5).blk t).view.emb (ix2 p q))
  exact (tile7_5_at V c t p q).trans (congrArg _ (emb7_5_at t p q).symm)

/-! ## The ten tiles fill the array -/

/-- An index of the output array lies in point t's block exactly when each coordinate lies in the block's range. -/
theorem memBlk7_5 (t : Fin cfg7.N) (i : S50000x64.Idx) :
    i ∈ ((cfg7.win 5).blk t).view.set ↔ ∀ a : Fin 2, win7_5.index t a * S5000x64.size a ≤ (i a).val ∧ (i a).val < win7_5.index t a * S5000x64.size a + S5000x64.size a := by
  show i ∈ ((View.whole (Pipeline.arrRef spec7 5)).slice (win7_5.rect t)).set ↔ _
  rw [View.set_slice_whole, Rect.mem_set_unit]
  exact Iff.rfl

/-- Every index of the output array is written back by some point: row r by point r / 5000. -/
theorem covered7_5 (i : S50000x64.Idx) :
    ∃ t : Fin cfg7.N, (cfg7.win 5).flush t = true ∧ i ∈ ((cfg7.win 5).blk t).view.set := by
  have hi0 : (i 0).val < 50000 := idx2_lt0 i
  have hi1 : (i 1).val < 64 := idx2_lt1 i
  have hN : cfg7.N = 10 := N_7
  have ht : (i 0).val / 5000 < cfg7.N := by rw [hN]; omega
  obtain ⟨-, -, e50, e51, -⟩ := idxFacts7 ⟨(i 0).val / 5000, ht⟩
  refine ⟨⟨(i 0).val / 5000, ht⟩, flush7_5 _, ?_⟩
  rw [memBlk7_5]
  intro a
  match a with
  | ⟨0, _⟩ =>
    show win7_5.index ⟨(i 0).val / 5000, ht⟩ (0 : Fin 2) * 5000 ≤ (i 0).val
      ∧ (i 0).val < win7_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win7_5.index ⟨(i 0).val / 5000, ht⟩ (1 : Fin 2) * 64 ≤ (i 1).val
      ∧ (i 1).val < win7_5.index ⟨(i 0).val / 5000, ht⟩ (1 : Fin 2) * 64 + 64
    rw [e51]; omega

/-! ## The output array after the region -/

/-- After all ten points have written back, the output array is bnArr of the five input arrays as the region
    found them. -/
theorem final7_5 (c : Dev nD) :
    (dat7 (F := Ideal) V c).arrAt 5 cfg7.N
      = bnArr (V c (Pipeline.arrRef spec7 0)) (V c (Pipeline.arrRef spec7 1)) (V c (Pipeline.arrRef spec7 2))
          (V c (Pipeline.arrRef spec7 3)) (V c (Pipeline.arrRef spec7 4)) :=
  (dat7 V c).arrAt_eq_of_cover 5 _ (fun t _ => flushed7_5_eq V c t) covered7_5

end Cert.KernelIdeal.HandVal

end
-- ==== Proof.KernelIdeal.Mlp6Piece.lean ====
/-
  The first statistics pass, one tile at a time: what each written buffer holds, as arithmetic.

  A tile's run leaves in each buffer it writes a list of stored pieces. Every store of this body
  covers its whole buffer, so what a buffer ends holding is the payload of the last store into it;
  and where the body loads a buffer back after storing into it (the running rows after they are
  zeroed on the first tile, and after they are updated on the last), the load reads that stored
  payload. Read this way:
    the activations block holds the tile's activations z (the two affine maps with the clamp between);
    the running row of sums holds (what it held, or zero on the first tile) + column sums of z;
    the running row of sums of squares holds the same for z · z;
    on the last tile the mean block holds sums · 1/n and the variance block sumsq · 1/n - mean · mean.
-/
import proofs.«144771_j36481452212846_1_alg».proof.Proof.KernelIdeal.Mlp6Dat
import Idealize.ShloMosaic.Lib.Pipeline.Value
import Idealize.ShloMosaic.Lib.Tactic

-- the buffers' rectangles of 5000 rows are compared one coordinate at a time
set_option maxRecDepth 16384

noncomputable section

namespace Cert.KernelIdeal.HandVal.Reg6

open Cert.KernelIdeal Cert.KernelIdeal.Gen Cert.KernelIdeal.Hand
open Idealize.ShloMosaic Idealize.ShloMosaic.TcCoe Idealize.ShloMosaic.Tactic Idealize.SL.Sem

variable {F : FTy → Type} [FloatOps F] [Named F]

/-- The zero offsets of a whole-buffer access, as the constant function. -/
theorem hz2 : (![0, 0] : Fin 2 → Nat) = fun _ => 0 := funext fun a => by fin_cases a <;> rfl

/-- On its way to the running row of sums the updated row passes through a cast between equal shapes:
    the cast changes nothing. -/
theorem pay1_cast (v : FVec F S1x64 .f32) : k6_pay1 v = v := by
  unfold k6_pay1
  exact shapeCast_self _ _

/-- First tile: the activations block holds the tile's activations, the one piece stored into it. -/
theorem out6_A_6_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) :
    out6_A_6 c i arg1 harg1 arg2 harg2 arg3 harg3 arg4 harg4 arg5 harg5 arg6 harg6 arg7 harg7 arg8 harg8 arg9 harg9 arg10 harg10 arg11 harg11 hc0 hc1 x0 x1 x2 x3 x4 x5 = k6_pay5 x0 x1 x2 x3 x4 x5 := by
  unfold out6_A_6
  rw [View.read_writes_eq_canon _ _ _ (cover6_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun6_A
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- First tile: the running row of sums was zeroed, read back, and holds zero plus the tile's column sums. -/
theorem sout6_A_0_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) :
    sout6_A_0 c i arg1 harg1 arg2 harg2 arg3 harg3 arg4 harg4 arg5 harg5 arg6 harg6 arg7 harg7 arg8 harg8 arg9 harg9 arg10 harg10 arg11 harg11 hc0 hc1 x0 x1 x2 x3 x4 x5 = k6_pay8 x0 x1 x2 x3 x4 x5 (k6_pay6 (F := F)) := by
  unfold sout6_A_0
  rw [View.read_writes_eq_canon _ _ _ (scover6_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun6_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- First tile: the running row of sums of squares, likewise from zero. -/
theorem sout6_A_1_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) :
    sout6_A_1 c i arg1 harg1 arg2 harg2 arg3 harg3 arg4 harg4 arg5 harg5 arg6 harg6 arg7 harg7 arg8 harg8 arg9 harg9 arg10 harg10 arg11 harg11 hc0 hc1 x0 x1 x2 x3 x4 x5 = k6_pay2 (k6_pay5 x0 x1 x2 x3 x4 x5) (k6_pay7 (F := F)) := by
  unfold sout6_A_1
  rw [View.read_writes_eq_canon _ _ _ (scover6_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun6_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- A middle tile: the activations block holds the tile's activations. -/
theorem out6_B_6_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out6_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay5 x0 x1 x2 x3 x4 x5 := by
  unfold out6_B_6
  rw [View.read_writes_eq_canon _ _ _ (cover6_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun6_B
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- A middle tile: the running row of sums holds what it held plus the tile's column sums. -/
theorem sout6_B_0_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout6_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay8 x0 x1 x2 x3 x4 x5 xs0 := by
  unfold sout6_B_0
  rw [View.read_writes_eq_canon _ _ _ (scover6_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun6_B
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- A middle tile: the running row of sums of squares, likewise. -/
theorem sout6_B_1_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : ¬cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout6_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay2 (k6_pay5 x0 x1 x2 x3 x4 x5) xs1 := by
  unfold sout6_B_1
  rw [View.read_writes_eq_canon _ _ _ (scover6_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun6_B
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- Last tile: the activations block holds the tile's activations. -/
theorem out6_C_6_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out6_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay5 x0 x1 x2 x3 x4 x5 := by
  unfold out6_C_6
  rw [View.read_writes_eq_canon _ _ _ (cover6_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun6_C
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

/-- Last tile: the mean block holds the updated running row of sums, read back, times the reciprocal of the row count. -/
theorem out6_C_7_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out6_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay3 (k6_pay8 x0 x1 x2 x3 x4 x5 xs0) := by
  unfold out6_C_7
  rw [View.read_writes_eq_canon _ _ _ (cover6_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun6_C
  dsimp only
  sl_unfold_words
  rw [View.canon_unit_zero hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- Last tile: the variance block holds the updated sums of squares times that reciprocal, less the mean's square. -/
theorem out6_C_8_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    out6_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay4 (k6_pay8 x0 x1 x2 x3 x4 x5 xs0) (k6_pay2 (k6_pay5 x0 x1 x2 x3 x4 x5) xs1) := by
  unfold out6_C_8
  rw [View.read_writes_eq_canon _ _ _ (cover6_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun6_C
  dsimp only
  sl_unfold_words
  rw [View.canon_unit_zero hz2, View.readCov_unit_zero (S := S1x64) _ hz2, View.readCov_unit_zero (S := S1x64) _ hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- Last tile: the running row of sums holds what it held plus the tile's column sums. -/
theorem sout6_C_0_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout6_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay8 x0 x1 x2 x3 x4 x5 xs0 := by
  unfold sout6_C_0
  rw [View.read_writes_eq_canon _ _ _ (scover6_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun6_C
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2, pay1_cast]

/-- Last tile: the running row of sums of squares, likewise. -/
theorem sout6_C_1_eq (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond6_0 i) (hc1 : cond6_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    sout6_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay2 (k6_pay5 x0 x1 x2 x3 x4 x5) xs1 := by
  unfold sout6_C_1
  rw [View.read_writes_eq_canon _ _ _ (scover6_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun6_C
  dsimp only
  sl_unfold_words
  rw [View.canon_unit_zero hz2]
  simp only [View.readAt_eq_ld, harg1.read_unread, harg2.read_unread, harg3.read_unread, harg4.read_unread, harg5.read_unread, harg6.read_unread, harg10.read_unread, harg11.read_unread, View.ld_unit_zero (S := S5000x64) hz2, View.ld_unit_zero (S := S64x64) hz2, View.ld_unit_zero (S := S1x64) hz2, View.ld_unit_zero (S := S64x64) hz2]

end Cert.KernelIdeal.HandVal.Reg6

end
-- ==== Proof.KernelIdeal.Pay6Idx.lean ====
/-
  The statistics kernel of a later layer (inputs 64 wide), its tile arithmetic read one element at a time on the
  extended reals.

  One tile holds 5000 rows. With x and a the tile's two 5000 × 64 inputs, W₁ and W₂ (64 × 64), b₁ and b₂ the
  layer's weights, the tile's value is
      z r j = (∑ k, max ((∑ l, (x r l + a r l) · W₁ l k) + b₁ k) 0 · W₂ k j) + b₂ j,
  the running column totals take  s j ↦ s j + (0 + ∑ r, z r j)  and  q j ↦ q j + (0 + ∑ r, z r j · z r j),
  both start from the zero row, the total s is stored through a cast that changes nothing, and the last step
  forms  m j = s j · (1/50000)  and  v j = q j · (1/50000) - m j · m j.
  Each of those named terms is opened here at an index written by its coordinates: the narrowing to sixteen bits
  before a product is the identity on the extended reals, a product into a zero accumulator is the plain sum
  over the contracted coordinate, a sum over the rows is the sum over the row coordinate, a cast between equal
  shapes is the identity, the cast [64] → [1, 64] forgets the unit coordinate, and a row broadcast over the tile
  reads the row. The zero of a clamp or of a sum's start is kept as the word it is written with. Both products
  have one shape here, 5000 × 64 by 64 × 64; the lemma about it is given under the first product's name and
  again under the second's.
-/
import proofs.«144771_j36481452212846_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandVal

open Cert.KernelIdeal Cert.KernelIdeal.Gen Idealize.ShloMosaic Idealize.ShloMosaic.ValueIdx

namespace Reg6

/-! ## The product: 5000 × 64 by 64 × 64, contracted over the first 64 -/

/-- The left operand's row coordinate is the result's row coordinate … -/
theorem first_lhs_0 (j : S5000x64.Idx) (q : dot_S5000x64_S64x64_S5000x64_1_0_0_1_n_n.contr.Idx) :
    (dot_S5000x64_S64x64_S5000x64_1_0_0_1_n_n.lhsIdx j q 0).val = (j 0).val := rfl
/-- … its column coordinate the contracted one … -/
theorem first_lhs_1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  DotDims.lhsIdx_val_of_single _ rfl j q
/-- … the right operand's row coordinate the contracted one … -/
theorem first_rhs_0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  DotDims.rhsIdx_val_of_single _ rfl j q
/-- … and its column coordinate the result's column coordinate. -/
theorem first_rhs_1 (j : S5000x64.Idx) (q : dot_S5000x64_S64x64_S5000x64_1_0_0_1_n_n.contr.Idx) :
    (dot_S5000x64_S64x64_S5000x64_1_0_0_1_n_n.rhsIdx j q 1).val = (j 1).val := rfl

/-- Into the zero accumulator the product at (r, k) is the sum over l of A r l · B l k. -/
theorem first_matmul_apply {φ₁ φ₂ : FTy} (A : FVec Ideal S5000x64 φ₁) (B : FVec Ideal S64x64 φ₂)
    (r : Fin 5000) (k : Fin 64) :
    matmul dot_S5000x64_S64x64_S5000x64_1_0_0_1_n_n none A B (constant (F := Ideal) S5000x64 .f32 0x00000000#32) (ix2 r k)
      = ∑ l : Fin 64, A (ix2 r l) * B (ix2 l k) := by
  refine (Ideal.matmul_constant_zero_apply dot_S5000x64_S64x64_S5000x64_1_0_0_1_n_n none A B (ix2 r k)).trans ?_
  rw [← Equiv.sum_comp (contrEquiv1 dot_S5000x64_S64x64_S5000x64_1_0_0_1_n_n 64 rfl rfl).symm]
  refine Finset.sum_congr rfl fun l _ => ?_
  have hL : dot_S5000x64_S64x64_S5000x64_1_0_0_1_n_n.lhsIdx (ix2 r k)
      ((contrEquiv1 dot_S5000x64_S64x64_S5000x64_1_0_0_1_n_n 64 rfl rfl).symm l) = ix2 r l := by
    funext a; refine Fin.ext ?_
    match a with
    | ⟨0, _⟩ => exact first_lhs_0 _ _
    | ⟨1, _⟩ => exact (first_lhs_1 _ _).trans (contrEquiv1_symm_val _ 64 rfl rfl l)
  have hR : dot_S5000x64_S64x64_S5000x64_1_0_0_1_n_n.rhsIdx (ix2 r k)
      ((contrEquiv1 dot_S5000x64_S64x64_S5000x64_1_0_0_1_n_n 64 rfl rfl).symm l) = ix2 l k := by
    funext a; refine Fin.ext ?_
    match a with
    | ⟨0, _⟩ => exact (first_rhs_0 _ _).trans (contrEquiv1_symm_val _ 64 rfl rfl l)
    | ⟨1, _⟩ => exact first_rhs_1 _ _
  rw [hL, hR]

/-! ## The same, under the second product's name -/

/-- The left operand's row coordinate is the result's row coordinate … -/
theorem second_lhs_0 (j : S5000x64.Idx) (q : dot_S5000x64_S64x64_S5000x64_1_0_0_1_n_n.contr.Idx) :
    (dot_S5000x64_S64x64_S5000x64_1_0_0_1_n_n.lhsIdx j q 0).val = (j 0).val := first_lhs_0 j q
/-- … its column coordinate the contracted one … -/
theorem second_lhs_1 (j : S5000x64.Idx) (q : dot_S5000x64_S64x64_S5000x64_1_0_0_1_n_n.contr.Idx) :
    (dot_S5000x64_S64x64_S5000x64_1_0_0_1_n_n.lhsIdx j q 1).val = (q ⟨0, by decide⟩).val := first_lhs_1 j q
/-- … the right operand's row coordinate the contracted one … -/
theorem second_rhs_0 (j : S5000x64.Idx) (q : dot_S5000x64_S64x64_S5000x64_1_0_0_1_n_n.contr.Idx) :
    (dot_S5000x64_S64x64_S5000x64_1_0_0_1_n_n.rhsIdx j q 0).val = (q ⟨0, by decide⟩).val := first_rhs_0 j q
/-- … and its column coordinate the result's column coordinate. -/
theorem second_rhs_1 (j : S5000x64.Idx) (q : dot_S5000x64_S64x64_S5000x64_1_0_0_1_n_n.contr.Idx) :
    (dot_S5000x64_S64x64_S5000x64_1_0_0_1_n_n.rhsIdx j q 1).val = (j 1).val := first_rhs_1 j q

/-- Into the zero accumulator the product at (r, j) is the sum over k of A r k · B k j. -/
theorem second_matmul_apply {φ₁ φ₂ : FTy} (A : FVec Ideal S5000x64 φ₁) (B : FVec Ideal S64x64 φ₂)
    (r : Fin 5000) (j : Fin 64) :
    matmul dot_S5000x64_S64x64_S5000x64_1_0_0_1_n_n none A B (constant (F := Ideal) S5000x64 .f32 0x00000000#32) (ix2 r j)
      = ∑ k : Fin 64, A (ix2 r k) * B (ix2 k j) := first_matmul_apply A B r j

/-! ## The sum over a tile's rows, and the cast that gives it back its unit row coordinate -/

/-- The row sum of a 5000 × 64 tile, cast to one row of 64, at column j: the sum over the 5000 rows. -/
theorem colsum_S5000x64_apply (X : FVec Ideal S5000x64 .f32) (hφ : FKind.Formats .f32)
    (hacc : (0x00000000#32 : BitVec 32) = 0x00000000#32) (u : Fin 1) (j : Fin 64) :
    shapeCast S1x64 (multiReduction (F := Ideal) .add [0] S64 X 0x00000000#32 reduces_S5000x64_S64 hφ hacc)
        shapeCasts_S64_S1x64 (ix2 u j)
      = ∑ r : Fin 5000, X (ix2 r j) := by
  refine (shapeCast_a_1a_apply _ shapeCasts_S64_S1x64 u j).trans ?_
  refine (Ideal.multiReduction_add_single X 0x00000000#32 reduces_S5000x64_S64 hφ hacc (ix1 j)).trans ?_
  refine Finset.sum_congr rfl fun r _ => congrArg X ?_
  funext a; refine Fin.ext ?_
  match a with
  | ⟨0, _⟩ => rfl
  | ⟨1, _⟩ => rfl

/-! ## The named terms at an index -/

/-- The column total is stored as it is: the cast on its way keeps the shape. -/
theorem pay1_eq (v32 : FVec Ideal S1x64 .f32) : k6_pay1 (F := Ideal) v32 = v32 := by
  unfold k6_pay1
  exact shapeCast_self _ _

/-- The same at column j. -/
theorem pay1_apply (v32 : FVec Ideal S1x64 .f32) (j : Fin 64) : k6_pay1 (F := Ideal) v32 (ix2 0 j) = v32 (ix2 0 j) :=
  congrFun (pay1_eq v32) _

/-- The running total of squares after one more tile, at column j. -/
theorem pay2_apply (v24 : Vec Ideal S5000x64 .f32) (v36 : Vec Ideal S1x64 .f32) (j : Fin 64) :
    k6_pay2 (F := Ideal) v24 v36 (ix2 0 j)
      = v36 (ix2 0 j) + (Ideal.ofBits .f32 0x00000000#32 + ∑ r : Fin 5000, v24 (ix2 r j) * v24 (ix2 r j)) := by
  unfold k6_pay2
  simp only [addf_apply, shapeCast_self]
  refine congrArg (v36 (ix2 0 j) + ·) ?_
  refine (colsum_S5000x64_apply _ _ _ 0 j).trans ?_
  simp only [mulf_apply, Ideal.ofBits_zero_f32, zero_add]

/-- The constant the totals are scaled by is the rational 1/50000. -/
theorem inv_n : Named.named (F := Ideal) Cert.KernelIdeal.κ "inv_50000" (φ := .f32) 0x37A7C5AC#32 = ((1 / 50000 : ℝ) : EReal) :=
  IdealRules.named_const.ideal_named_scalar _ _ _ _ rfl

/-- The mean at column j: the total times 1/50000. -/
theorem pay3_apply (v47 : Vec Ideal S1x64 .f32) (j : Fin 64) :
    k6_pay3 (F := Ideal) v47 (ix2 0 j) = v47 (ix2 0 j) * ((1 / 50000 : ℝ) : EReal) := by
  unfold k6_pay3
  simp only [mulf_apply, broadcast_apply, inv_n]

/-- The variance at column j: the total of squares times 1/50000, less the mean's square. -/
theorem pay4_apply (v47 v50 : Vec Ideal S1x64 .f32) (j : Fin 64) :
    k6_pay4 (F := Ideal) v47 v50 (ix2 0 j)
      = v50 (ix2 0 j) * ((1 / 50000 : ℝ) : EReal)
        - (v47 (ix2 0 j) * ((1 / 50000 : ℝ) : EReal)) * (v47 (ix2 0 j) * ((1 / 50000 : ℝ) : EReal)) := by
  unfold k6_pay4
  simp only [subf_apply, mulf_apply, broadcast_apply, inv_n, pay3_apply]

/-- The tile's value at row r and column j. -/
theorem pay5_apply (v0 v2 : Vec Ideal S5000x64 .f32) (v6 : Vec Ideal S64x64 .f32) (v10 : Vec Ideal S1x64 .f32)
    (v17 : Vec Ideal S64x64 .f32) (v21 : Vec Ideal S1x64 .f32) (r : Fin 5000) (j : Fin 64) :
    k6_pay5 (F := Ideal) v0 v2 v6 v10 v17 v21 (ix2 r j)
      = (∑ k : Fin 64, max ((∑ l : Fin 64, (v0 (ix2 r l) + v2 (ix2 r l)) * v6 (ix2 l k)) + v10 (ix2 0 k))
            (Ideal.ofBits .f32 0x00000000#32) * v17 (ix2 k j)) + v21 (ix2 0 j) := by
  unfold k6_pay5
  simp only [addf_apply, maximumf_apply, truncf_apply, broadcast_apply, shapeCast_self, broadcastTo_1b_ab_apply,
    first_matmul_apply]
  rfl

/-- The row the totals start from is zero at every column … -/
theorem pay6_apply (j : Fin 64) : k6_pay6 (F := Ideal) (ix2 0 j) = Ideal.ofBits .f32 0x00000000#32 := by
  unfold k6_pay6
  simp only [shapeCast_self, broadcast_apply]
  rfl

/-- … and so is the one the totals of squares start from. -/
theorem pay7_apply (j : Fin 64) : k6_pay7 (F := Ideal) (ix2 0 j) = Ideal.ofBits .f32 0x00000000#32 := by
  unfold k6_pay7
  simp only [shapeCast_self, broadcast_apply]
  rfl

/-- The running column total after one more tile, at column j: the carried total plus the tile's column sum. -/
theorem pay8_apply (v0 v2 : Vec Ideal S5000x64 .f32) (v6 : Vec Ideal S64x64 .f32) (v10 : Vec Ideal S1x64 .f32)
    (v17 : Vec Ideal S64x64 .f32) (v21 : Vec Ideal S1x64 .f32) (v29 : Vec Ideal S1x64 .f32) (j : Fin 64) :
    k6_pay8 (F := Ideal) v0 v2 v6 v10 v17 v21 v29 (ix2 0 j)
      = v29 (ix2 0 j) + (Ideal.ofBits .f32 0x00000000#32 + ∑ r : Fin 5000, k6_pay5 (F := Ideal) v0 v2 v6 v10 v17 v21 (ix2 r j)) := by
  unfold k6_pay8
  simp only [addf_apply]
  refine congrArg (v29 (ix2 0 j) + ·) ?_
  refine (colsum_S5000x64_apply _ _ _ 0 j).trans ?_
  simp only [Ideal.ofBits_zero_f32, zero_add]

end Reg6

end Cert.KernelIdeal.HandVal

end
-- ==== Proof.KernelIdeal.Mlp6Inv.lean ====
/-
  The first statistics pass: its three output arrays in closed form, on the extended reals.

  Ten tiles of 5000 rows are walked. Each writes its block of the linear activations, so the
  activations array ends as ONE function of the argument arrays, the specification's preNorm, row by
  row. The two running rows start from zero and take one tile's column sums (of z, of z · z) a
  step; after the tenth they hold, by the regrouping of a sum over 50000 rows into ten of 5000,
  the column sums over all rows, and the mean and variance formed from them on the last tile are,
  by the variance identity for real entries, the direct mean and the direct variance of the column.
-/
import proofs.«144771_j36481452212846_1_alg».proof.Proof.KernelIdeal.Mlp6Piece
import proofs.«144771_j36481452212846_1_alg».proof.Proof.KernelIdeal.Pay6Idx
import proofs.«144771_j36481452212846_1_alg».proof.Proof.KernelIdeal.Zlin
import Idealize.ShloMosaic.Lib.Pipeline.Value
import Idealize.ShloMosaic.Lib.Tactic
import Idealize.ShloMosaic.Lib.ValueIdx

-- the blocks' rectangles of 5000 rows are compared one coordinate at a time
set_option maxRecDepth 16384

noncomputable section

open scoped BigOperators

namespace Cert.KernelIdeal.HandVal.Reg6

open Cert.KernelIdeal Cert.KernelIdeal.Gen Cert.KernelIdeal.Hand Cert.KernelIdeal.HandVal
open Idealize.ShloMosaic Idealize.ShloMosaic.TcCoe Idealize.ShloMosaic.Tactic Idealize.ShloMosaic.ValueIdx Idealize.SL.Sem
open Idealize.ShloMosaic.Pipeline (Dat)
open Cert.Math

/-! ## Arrays and blocks at their literal types -/

variable (V : (c : Dev nD) → (b : Ref sig .tc) → Buf (Elt Ideal) ((c : Thread nD τ).loc b))

/-- The six argument arrays of the pass, as it finds them. -/
abbrev X0 (c : Dev nD) : Vec Ideal S50000x64 .f32 := V c (Pipeline.arrRef spec6 0)
abbrev X1 (c : Dev nD) : Vec Ideal S50000x64 .f32 := V c (Pipeline.arrRef spec6 1)
abbrev X2 (c : Dev nD) : Vec Ideal S64x64 .f32 := V c (Pipeline.arrRef spec6 2)
abbrev X3 (c : Dev nD) : Vec Ideal S1x64 .f32 := V c (Pipeline.arrRef spec6 3)
abbrev X4 (c : Dev nD) : Vec Ideal S64x64 .f32 := V c (Pipeline.arrRef spec6 4)
abbrev X5 (c : Dev nD) : Vec Ideal S1x64 .f32 := V c (Pipeline.arrRef spec6 5)

/-- The linear activations of the whole graph, from those arrays. -/
abbrev zlin6 (c : Dev nD) : Vec Ideal S50000x64 .f32 := zlin (X0 V c) (X1 V c) (X2 V c) (X3 V c) (X4 V c) (X5 V c)

/-- The six blocks tile t reads. -/
abbrev B0 (c : Dev nD) (t : Fin cfg6.N) : Vec Ideal S5000x64 .f32 := iblk6 V c 0 t
abbrev B1 (c : Dev nD) (t : Fin cfg6.N) : Vec Ideal S5000x64 .f32 := iblk6 V c 1 t
abbrev B2 (c : Dev nD) (t : Fin cfg6.N) : Vec Ideal S64x64 .f32 := iblk6 V c 2 t
abbrev B3 (c : Dev nD) (t : Fin cfg6.N) : Vec Ideal S1x64 .f32 := iblk6 V c 3 t
abbrev B4 (c : Dev nD) (t : Fin cfg6.N) : Vec Ideal S64x64 .f32 := iblk6 V c 4 t
abbrev B5 (c : Dev nD) (t : Fin cfg6.N) : Vec Ideal S1x64 .f32 := iblk6 V c 5 t

/-- Tile t's linear activations. -/
abbrev tile (c : Dev nD) (t : Fin cfg6.N) : FVec Ideal S5000x64 .f32 :=
  k6_pay5 (F := Ideal) (B0 V c t) (B1 V c t) (B2 V c t) (B3 V c t) (B4 V c t) (B5 V c t)

/-- The running row of column sums after tile n: the zero row plus tile 0's column sums, then one
    tile's column sums more at each step. -/
def sumAt (c : Dev nD) : (n : ℕ) → n < cfg6.N → Vec Ideal S1x64 .f32
  | 0, h => k6_pay8 (F := Ideal) (B0 V c ⟨0, h⟩) (B1 V c ⟨0, h⟩) (B2 V c ⟨0, h⟩) (B3 V c ⟨0, h⟩) (B4 V c ⟨0, h⟩) (B5 V c ⟨0, h⟩) (k6_pay6 (F := Ideal))
  | n + 1, h => k6_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩)
      (sumAt c n (Nat.lt_of_succ_lt h))

/-- The running row of column sums of squares after tile n, likewise. -/
def sqAt (c : Dev nD) : (n : ℕ) → n < cfg6.N → Vec Ideal S1x64 .f32
  | 0, h => k6_pay2 (F := Ideal) (tile V c ⟨0, h⟩) (k6_pay7 (F := Ideal))
  | n + 1, h => k6_pay2 (F := Ideal) (tile V c ⟨n + 1, h⟩) (sqAt c n (Nat.lt_of_succ_lt h))

/-! ## The record along the ten tiles -/

/-- After tile n the activations block holds tile n's activations and the two running rows hold
    the running sums: by induction on the tile, each tile's case read through its pieces. -/
theorem outsAt_eq (c : Dev nD) : ∀ (n : ℕ) (h : n < cfg6.N),
    (outsAt6 V c n h).1 = tile V c ⟨n, h⟩ ∧ (outsAt6 V c n h).2.2.2.1 = sumAt V c n h
      ∧ (outsAt6 V c n h).2.2.2.2 = sqAt V c n h
  | 0, h => by
    have h1 : ¬(⟨0, h⟩ : Fin cfg6.N).val % 10 = 9 := by show ¬(0 % 10 = 9); decide
    rw [outsAt6_A V c ⟨0, h⟩ rfl h1]
    dsimp only
    exact ⟨out6_A_6_eq (F := Ideal) c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) (ms6_5 ⟨0, h⟩) (hs6_5 ⟨0, h⟩) (ms6_6 ⟨0, h⟩) (hs6_6 ⟨0, h⟩) (ms6_7 ⟨0, h⟩) (hs6_7 ⟨0, h⟩) (ms6_8 ⟨0, h⟩) (hs6_8 ⟨0, h⟩) scM6_0 (Memref.isWhole_whole _) scM6_1 (Memref.isWhole_whole _) ((hcond6_0 ⟨0, h⟩).mpr rfl) (fun hh => h1 ((hcond6_1 ⟨0, h⟩).mp hh)) (iblk6 V c 0 ⟨0, h⟩) (iblk6 V c 1 ⟨0, h⟩) (iblk6 V c 2 ⟨0, h⟩) (iblk6 V c 3 ⟨0, h⟩) (iblk6 V c 4 ⟨0, h⟩) (iblk6 V c 5 ⟨0, h⟩),
      sout6_A_0_eq (F := Ideal) c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) (ms6_5 ⟨0, h⟩) (hs6_5 ⟨0, h⟩) (ms6_6 ⟨0, h⟩) (hs6_6 ⟨0, h⟩) (ms6_7 ⟨0, h⟩) (hs6_7 ⟨0, h⟩) (ms6_8 ⟨0, h⟩) (hs6_8 ⟨0, h⟩) scM6_0 (Memref.isWhole_whole _) scM6_1 (Memref.isWhole_whole _) ((hcond6_0 ⟨0, h⟩).mpr rfl) (fun hh => h1 ((hcond6_1 ⟨0, h⟩).mp hh)) (iblk6 V c 0 ⟨0, h⟩) (iblk6 V c 1 ⟨0, h⟩) (iblk6 V c 2 ⟨0, h⟩) (iblk6 V c 3 ⟨0, h⟩) (iblk6 V c 4 ⟨0, h⟩) (iblk6 V c 5 ⟨0, h⟩),
      sout6_A_1_eq (F := Ideal) c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) (ms6_5 ⟨0, h⟩) (hs6_5 ⟨0, h⟩) (ms6_6 ⟨0, h⟩) (hs6_6 ⟨0, h⟩) (ms6_7 ⟨0, h⟩) (hs6_7 ⟨0, h⟩) (ms6_8 ⟨0, h⟩) (hs6_8 ⟨0, h⟩) scM6_0 (Memref.isWhole_whole _) scM6_1 (Memref.isWhole_whole _) ((hcond6_0 ⟨0, h⟩).mpr rfl) (fun hh => h1 ((hcond6_1 ⟨0, h⟩).mp hh)) (iblk6 V c 0 ⟨0, h⟩) (iblk6 V c 1 ⟨0, h⟩) (iblk6 V c 2 ⟨0, h⟩) (iblk6 V c 3 ⟨0, h⟩) (iblk6 V c 4 ⟨0, h⟩) (iblk6 V c 5 ⟨0, h⟩)⟩
  | n + 1, h => by
    have hN : n + 1 < 10 := lt_of_lt_of_eq h (show cfg6.N = 10 from N_6)
    obtain ⟨-, ihS, ihQ⟩ := outsAt_eq c n (Nat.lt_of_succ_lt h)
    have h0 : ¬(⟨n + 1, h⟩ : Fin cfg6.N).val % 10 = 0 := by dsimp only; omega
    by_cases h1 : (⟨n + 1, h⟩ : Fin cfg6.N).val % 10 = 9
    · rw [outsAt6_C V c ⟨n + 1, h⟩ h0 h1]
      dsimp only
      refine ⟨out6_C_6_eq (F := Ideal) c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (ms6_7 ⟨n + 1, h⟩) (hs6_7 ⟨n + 1, h⟩) (ms6_8 ⟨n + 1, h⟩) (hs6_8 ⟨n + 1, h⟩) scM6_0 (Memref.isWhole_whole _) scM6_1 (Memref.isWhole_whole _) (fun hh => h0 ((hcond6_0 ⟨n + 1, h⟩).mp hh)) ((hcond6_1 ⟨n + 1, h⟩).mpr h1) (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) (iblk6 V c 5 ⟨n + 1, h⟩) (outsAt6 V c n (Nat.lt_of_succ_lt h)).2.2.2.1 (outsAt6 V c n (Nat.lt_of_succ_lt h)).2.2.2.2, ?_, ?_⟩
      · refine (sout6_C_0_eq (F := Ideal) c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (ms6_7 ⟨n + 1, h⟩) (hs6_7 ⟨n + 1, h⟩) (ms6_8 ⟨n + 1, h⟩) (hs6_8 ⟨n + 1, h⟩) scM6_0 (Memref.isWhole_whole _) scM6_1 (Memref.isWhole_whole _) (fun hh => h0 ((hcond6_0 ⟨n + 1, h⟩).mp hh)) ((hcond6_1 ⟨n + 1, h⟩).mpr h1) (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) (iblk6 V c 5 ⟨n + 1, h⟩) (outsAt6 V c n (Nat.lt_of_succ_lt h)).2.2.2.1 (outsAt6 V c n (Nat.lt_of_succ_lt h)).2.2.2.2).trans ?_
        exact congrArg (k6_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩)) ihS
      · refine (sout6_C_1_eq (F := Ideal) c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (ms6_7 ⟨n + 1, h⟩) (hs6_7 ⟨n + 1, h⟩) (ms6_8 ⟨n + 1, h⟩) (hs6_8 ⟨n + 1, h⟩) scM6_0 (Memref.isWhole_whole _) scM6_1 (Memref.isWhole_whole _) (fun hh => h0 ((hcond6_0 ⟨n + 1, h⟩).mp hh)) ((hcond6_1 ⟨n + 1, h⟩).mpr h1) (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) (iblk6 V c 5 ⟨n + 1, h⟩) (outsAt6 V c n (Nat.lt_of_succ_lt h)).2.2.2.1 (outsAt6 V c n (Nat.lt_of_succ_lt h)).2.2.2.2).trans ?_
        exact congrArg (k6_pay2 (F := Ideal) (tile V c ⟨n + 1, h⟩)) ihQ
    · rw [outsAt6_B V c ⟨n + 1, h⟩ h0 h1]
      dsimp only
      refine ⟨out6_B_6_eq (F := Ideal) c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (ms6_7 ⟨n + 1, h⟩) (hs6_7 ⟨n + 1, h⟩) (ms6_8 ⟨n + 1, h⟩) (hs6_8 ⟨n + 1, h⟩) scM6_0 (Memref.isWhole_whole _) scM6_1 (Memref.isWhole_whole _) (fun hh => h0 ((hcond6_0 ⟨n + 1, h⟩).mp hh)) (fun hh => h1 ((hcond6_1 ⟨n + 1, h⟩).mp hh)) (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) (iblk6 V c 5 ⟨n + 1, h⟩) (outsAt6 V c n (Nat.lt_of_succ_lt h)).2.2.2.1 (outsAt6 V c n (Nat.lt_of_succ_lt h)).2.2.2.2, ?_, ?_⟩
      · refine (sout6_B_0_eq (F := Ideal) c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (ms6_7 ⟨n + 1, h⟩) (hs6_7 ⟨n + 1, h⟩) (ms6_8 ⟨n + 1, h⟩) (hs6_8 ⟨n + 1, h⟩) scM6_0 (Memref.isWhole_whole _) scM6_1 (Memref.isWhole_whole _) (fun hh => h0 ((hcond6_0 ⟨n + 1, h⟩).mp hh)) (fun hh => h1 ((hcond6_1 ⟨n + 1, h⟩).mp hh)) (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) (iblk6 V c 5 ⟨n + 1, h⟩) (outsAt6 V c n (Nat.lt_of_succ_lt h)).2.2.2.1 (outsAt6 V c n (Nat.lt_of_succ_lt h)).2.2.2.2).trans ?_
        exact congrArg (k6_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩)) ihS
      · refine (sout6_B_1_eq (F := Ideal) c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (ms6_7 ⟨n + 1, h⟩) (hs6_7 ⟨n + 1, h⟩) (ms6_8 ⟨n + 1, h⟩) (hs6_8 ⟨n + 1, h⟩) scM6_0 (Memref.isWhole_whole _) scM6_1 (Memref.isWhole_whole _) (fun hh => h0 ((hcond6_0 ⟨n + 1, h⟩).mp hh)) (fun hh => h1 ((hcond6_1 ⟨n + 1, h⟩).mp hh)) (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) (iblk6 V c 5 ⟨n + 1, h⟩) (outsAt6 V c n (Nat.lt_of_succ_lt h)).2.2.2.1 (outsAt6 V c n (Nat.lt_of_succ_lt h)).2.2.2.2).trans ?_
        exact congrArg (k6_pay2 (F := Ideal) (tile V c ⟨n + 1, h⟩)) ihQ

/-! ## Blocks read off the arrays -/

/-- A tile's number as a number below ten. -/
abbrev t10 (t : Fin cfg6.N) : Fin 10 := ⟨t.val, lt_of_lt_of_eq t.isLt (show cfg6.N = 10 from N_6)⟩

/-- Where the blocks sit, decided over the ten tiles: the two row-tiled inputs and the activations
    at block (t, 0); the weights, the biases, the mean and the variance at block (0, 0). -/
theorem idx0 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0 :=
  (by decide +kernel : ∀ t : Fin grid6.N, _)

/-- Row r of tile t's block of node features is row 5000 t + r of the array. -/
theorem B0_apply (c : Dev nD) (t : Fin cfg6.N) (r : Fin 5000) (l : Fin 64) :
    B0 V c t (ix2 r l) = X0 V c (ix2 (rowOf (t10 t) r) l) := by
  have e := idx0 t
  show ((cfg6.win 0).blk t).view.read (Elt Ideal) (V c (Pipeline.arrRef spec6 0)) (ix2 r l)
    = V c (Pipeline.arrRef spec6 0) (ix2 (rowOf (t10 t) r) l)
  rw [View.read_apply]
  show V c (Pipeline.arrRef spec6 0) _ = V c (Pipeline.arrRef spec6 0) _
  congr 1
  funext a
  apply Fin.ext
  match a with
  | ⟨0, _⟩ => show win6_0.index t (0 : Fin 2) * 5000 + 1 * r.val = 5000 * t.val + r.val; rw [e.1]; omega
  | ⟨1, _⟩ => show win6_0.index t (1 : Fin 2) * 64 + 1 * l.val = l.val; rw [e.2.1]; omega

/-- The same for the aggregated messages. -/
theorem B1_apply (c : Dev nD) (t : Fin cfg6.N) (r : Fin 5000) (l : Fin 64) :
    B1 V c t (ix2 r l) = X1 V c (ix2 (rowOf (t10 t) r) l) := by
  have e := idx0 t
  show ((cfg6.win 1).blk t).view.read (Elt Ideal) (V c (Pipeline.arrRef spec6 1)) (ix2 r l)
    = V c (Pipeline.arrRef spec6 1) (ix2 (rowOf (t10 t) r) l)
  rw [View.read_apply]
  show V c (Pipeline.arrRef spec6 1) _ = V c (Pipeline.arrRef spec6 1) _
  congr 1
  funext a
  apply Fin.ext
  match a with
  | ⟨0, _⟩ => show win6_1.index t (0 : Fin 2) * 5000 + 1 * r.val = 5000 * t.val + r.val; rw [e.2.2.1]; omega
  | ⟨1, _⟩ => show win6_1.index t (1 : Fin 2) * 64 + 1 * l.val = l.val; rw [e.2.2.2.1]; omega

/-- The first weight matrix's block is the matrix, on every tile. -/
theorem B2_apply (c : Dev nD) (t : Fin cfg6.N) (r : Fin 64) (l : Fin 64) :
    B2 V c t (ix2 r l) = X2 V c (ix2 r l) := by
  have e := idx0 t
  show ((cfg6.win 2).blk t).view.read (Elt Ideal) (V c (Pipeline.arrRef spec6 2)) (ix2 r l)
    = V c (Pipeline.arrRef spec6 2) (ix2 r l)
  rw [View.read_apply]
  show V c (Pipeline.arrRef spec6 2) _ = V c (Pipeline.arrRef spec6 2) _
  congr 1
  funext a
  apply Fin.ext
  match a with
  | ⟨0, _⟩ => show win6_2.index t (0 : Fin 2) * 64 + 1 * r.val = r.val; rw [e.2.2.2.2.1]; omega
  | ⟨1, _⟩ => show win6_2.index t (1 : Fin 2) * 64 + 1 * l.val = l.val; rw [e.2.2.2.2.2.1]; omega

/-- The first bias row's block is the row. -/
theorem B3_apply (c : Dev nD) (t : Fin cfg6.N) (r : Fin 1) (l : Fin 64) :
    B3 V c t (ix2 r l) = X3 V c (ix2 r l) := by
  have e := idx0 t
  show ((cfg6.win 3).blk t).view.read (Elt Ideal) (V c (Pipeline.arrRef spec6 3)) (ix2 r l)
    = V c (Pipeline.arrRef spec6 3) (ix2 r l)
  rw [View.read_apply]
  show V c (Pipeline.arrRef spec6 3) _ = V c (Pipeline.arrRef spec6 3) _
  congr 1
  funext a
  apply Fin.ext
  match a with
  | ⟨0, _⟩ => show win6_3.index t (0 : Fin 2) * 1 + 1 * r.val = r.val; rw [e.2.2.2.2.2.2.1]; omega
  | ⟨1, _⟩ => show win6_3.index t (1 : Fin 2) * 64 + 1 * l.val = l.val; rw [e.2.2.2.2.2.2.2.1]; omega

/-- The second weight matrix's block is the matrix. -/
theorem B4_apply (c : Dev nD) (t : Fin cfg6.N) (r : Fin 64) (l : Fin 64) :
    B4 V c t (ix2 r l) = X4 V c (ix2 r l) := by
  have e := idx0 t
  show ((cfg6.win 4).blk t).view.read (Elt Ideal) (V c (Pipeline.arrRef spec6 4)) (ix2 r l)
    = V c (Pipeline.arrRef spec6 4) (ix2 r l)
  rw [View.read_apply]
  show V c (Pipeline.arrRef spec6 4) _ = V c (Pipeline.arrRef spec6 4) _
  congr 1
  funext a
  apply Fin.ext
  match a with
  | ⟨0, _⟩ => show win6_4.index t (0 : Fin 2) * 64 + 1 * r.val = r.val; rw [e.2.2.2.2.2.2.2.2.1]; omega
  | ⟨1, _⟩ => show win6_4.index t (1 : Fin 2) * 64 + 1 * l.val = l.val; rw [e.2.2.2.2.2.2.2.2.2.1]; omega

/-- The second bias row's block is the row. -/
theorem B5_apply (c : Dev nD) (t : Fin cfg6.N) (r : Fin 1) (l : Fin 64) :
    B5 V c t (ix2 r l) = X5 V c (ix2 r l) := by
  have e := idx0 t
  show ((cfg6.win 5).blk t).view.read (Elt Ideal) (V c (Pipeline.arrRef spec6 5)) (ix2 r l)
    = V c (Pipeline.arrRef spec6 5) (ix2 r l)
  rw [View.read_apply]
  show V c (Pipeline.arrRef spec6 5) _ = V c (Pipeline.arrRef spec6 5) _
  congr 1
  funext a
  apply Fin.ext
  match a with
  | ⟨0, _⟩ => show win6_5.index t (0 : Fin 2) * 1 + 1 * r.val = r.val; rw [e.2.2.2.2.2.2.2.2.2.2.1]; omega
  | ⟨1, _⟩ => show win6_5.index t (1 : Fin 2) * 64 + 1 * l.val = l.val; rw [e.2.2.2.2.2.2.2.2.2.2.2.1]; omega

/-- Tile t's activations at (r, j) are the whole graph's activations at row 5000 t + r. -/
theorem tile_apply (c : Dev nD) (t : Fin cfg6.N) (r : Fin 5000) (j : Fin 64) :
    tile V c t (ix2 r j) = zlin6 V c (ix2 (rowOf (t10 t) r) j) := by
  refine (pay5_apply (B0 V c t) (B1 V c t) (B2 V c t) (B3 V c t) (B4 V c t) (B5 V c t) r j).trans ?_
  refine Eq.trans ?_ (zlin_apply_sum (X0 V c) (X1 V c) (X2 V c) (X3 V c) (X4 V c) (X5 V c) (rowOf (t10 t) r) j).symm
  simp only [B0_apply, B1_apply, B2_apply, B3_apply, B4_apply, B5_apply]

/-! ## The running rows at a column -/

/-- Column j of the running row of sums after tile 0. -/
theorem sumAt_zero_apply (c : Dev nD) (h : 0 < cfg6.N) (j : Fin 64) :
    sumAt V c 0 h (ix2 0 j)
      = Ideal.ofBits .f32 0x00000000#32
        + (Ideal.ofBits .f32 0x00000000#32 + ∑ r : Fin 5000, tile V c ⟨0, h⟩ (ix2 r j)) :=
  (pay8_apply (B0 V c ⟨0, h⟩) (B1 V c ⟨0, h⟩) (B2 V c ⟨0, h⟩) (B3 V c ⟨0, h⟩) (B4 V c ⟨0, h⟩) (B5 V c ⟨0, h⟩)
    (k6_pay6 (F := Ideal)) j).trans (by rw [pay6_apply])

/-- … and after tile n + 1: what tile n left plus tile n + 1's column sum. -/
theorem sumAt_succ_apply (c : Dev nD) (n : ℕ) (h : n + 1 < cfg6.N) (j : Fin 64) :
    sumAt V c (n + 1) h (ix2 0 j)
      = sumAt V c n (Nat.lt_of_succ_lt h) (ix2 0 j)
        + (Ideal.ofBits .f32 0x00000000#32 + ∑ r : Fin 5000, tile V c ⟨n + 1, h⟩ (ix2 r j)) :=
  pay8_apply (B0 V c ⟨n + 1, h⟩) (B1 V c ⟨n + 1, h⟩) (B2 V c ⟨n + 1, h⟩) (B3 V c ⟨n + 1, h⟩) (B4 V c ⟨n + 1, h⟩)
    (B5 V c ⟨n + 1, h⟩) (sumAt V c n (Nat.lt_of_succ_lt h)) j

/-- Column j of the running row of sums of squares after tile 0. -/
theorem sqAt_zero_apply (c : Dev nD) (h : 0 < cfg6.N) (j : Fin 64) :
    sqAt V c 0 h (ix2 0 j)
      = Ideal.ofBits .f32 0x00000000#32
        + (Ideal.ofBits .f32 0x00000000#32
            + ∑ r : Fin 5000, tile V c ⟨0, h⟩ (ix2 r j) * tile V c ⟨0, h⟩ (ix2 r j)) :=
  (pay2_apply (tile V c ⟨0, h⟩) (k6_pay7 (F := Ideal)) j).trans (by rw [pay7_apply])

/-- … and after tile n + 1. -/
theorem sqAt_succ_apply (c : Dev nD) (n : ℕ) (h : n + 1 < cfg6.N) (j : Fin 64) :
    sqAt V c (n + 1) h (ix2 0 j)
      = sqAt V c n (Nat.lt_of_succ_lt h) (ix2 0 j)
        + (Ideal.ofBits .f32 0x00000000#32
            + ∑ r : Fin 5000, tile V c ⟨n + 1, h⟩ (ix2 r j) * tile V c ⟨n + 1, h⟩ (ix2 r j)) :=
  pay2_apply (tile V c ⟨n + 1, h⟩) (sqAt V c n (Nat.lt_of_succ_lt h)) j

/-! ## The running rows are the ten-tile totals of a column -/

section Column

variable (c : Dev nD) (j : Fin 64)

/-- Column j of the whole graph's activations. -/
abbrev col : Fin 50000 → EReal := fun R => zlin6 V c (ix2 R j)

/-- Tile t's column sum as the kernel forms it: from the zero word. -/
abbrev tsum (t : Fin 10) : EReal := Ideal.ofBits .f32 0x00000000#32 + ∑ r : Fin 5000, col V c j (rowOf t r)
/-- Tile t's column sum of squares, likewise. -/
abbrev tsq (t : Fin 10) : EReal :=
  Ideal.ofBits .f32 0x00000000#32 + ∑ r : Fin 5000, col V c j (rowOf t r) * col V c j (rowOf t r)

theorem tsum_eq (t : Fin 10) : tsum V c j t = ∑ r : Fin 5000, col V c j (rowOf t r) := by
  rw [tsum, Ideal.ofBits_zero_f32, zero_add]
theorem tsq_eq (t : Fin 10) : tsq V c j t = ∑ r : Fin 5000, col V c j (rowOf t r) * col V c j (rowOf t r) := by
  rw [tsq, Ideal.ofBits_zero_f32, zero_add]

/-- The running sum of column j after tile n (zero past the last tile). -/
def accS (n : ℕ) : EReal := if h : n < cfg6.N then sumAt V c n h (ix2 0 j) else 0
/-- The running sum of squares of column j after tile n. -/
def accQ (n : ℕ) : EReal := if h : n < cfg6.N then sqAt V c n h (ix2 0 j) else 0

theorem accS_zero : accS V c j 0 = Ideal.ofBits .f32 0x00000000#32 + tsum V c j 0 := by
  have h : 0 < cfg6.N := by rw [show cfg6.N = 10 from N_6]; decide
  rw [accS, dif_pos h, sumAt_zero_apply]
  simp only [tile_apply] <;> rfl

theorem accS_succ (n : ℕ) (h10 : n + 1 < 10) : accS V c j (n + 1) = accS V c j n + tsum V c j ⟨n + 1, h10⟩ := by
  have h : n + 1 < cfg6.N := by rw [show cfg6.N = 10 from N_6]; exact h10
  rw [accS, accS, dif_pos h, dif_pos (Nat.lt_of_succ_lt h), sumAt_succ_apply]
  simp only [tile_apply] <;> rfl

theorem accQ_zero : accQ V c j 0 = Ideal.ofBits .f32 0x00000000#32 + tsq V c j 0 := by
  have h : 0 < cfg6.N := by rw [show cfg6.N = 10 from N_6]; decide
  rw [accQ, dif_pos h, sqAt_zero_apply]
  simp only [tile_apply] <;> rfl

theorem accQ_succ (n : ℕ) (h10 : n + 1 < 10) : accQ V c j (n + 1) = accQ V c j n + tsq V c j ⟨n + 1, h10⟩ := by
  have h : n + 1 < cfg6.N := by rw [show cfg6.N = 10 from N_6]; exact h10
  rw [accQ, accQ, dif_pos h, dif_pos (Nat.lt_of_succ_lt h), sqAt_succ_apply]
  simp only [tile_apply] <;> rfl

/-- The mean the last tile forms is the direct mean of the column. -/
theorem mean_at9 (h : 9 < cfg6.N) :
    sumAt V c 9 h (ix2 0 j) * ((1 / 50000 : ℝ) : EReal) = meanDirect (col V c j) := by
  have e := mean_tiled_eq_direct (col V c j) rowOf rowOf_val (tsum V c j) (tsum_eq V c j) (accS V c j)
    (accS_zero V c j) (accS_succ V c j) ((1 / 50000 : ℝ) : EReal) rfl
  rwa [accS, dif_pos h] at e

/-- The variance the last tile forms is the direct variance of the column, when its entries are reals. -/
theorem var_at9 (h : 9 < cfg6.N) (hz : ∀ R, IsReal (col V c j R)) :
    sqAt V c 9 h (ix2 0 j) * ((1 / 50000 : ℝ) : EReal)
        - (sumAt V c 9 h (ix2 0 j) * ((1 / 50000 : ℝ) : EReal)) * (sumAt V c 9 h (ix2 0 j) * ((1 / 50000 : ℝ) : EReal))
      = varDirect (col V c j) := by
  have e := var_tiled_eq_direct (col V c j) rowOf rowOf_val hz (tsum V c j) (tsum_eq V c j) (accS V c j)
    (accS_zero V c j) (accS_succ V c j) (tsq V c j) (tsq_eq V c j) (accQ V c j) (accQ_zero V c j) (accQ_succ V c j)
    ((1 / 50000 : ℝ) : EReal) rfl
  rwa [accS, accQ, dif_pos h, dif_pos h] at e

end Column

/-! ## The three output arrays after the pass -/

/-- Every tile's block of activations has the full 5000 rows and 64 columns. -/
theorem xsize0_6 : ∀ t : Fin cfg6.N, win6_6.xsize (grid6.coords t) (0 : Fin 2) = 5000 ∧ win6_6.xsize (grid6.coords t) (1 : Fin 2) = 64 :=
  (by decide +kernel : ∀ t : Fin grid6.N, _)

/-- What tile t writes back of the activations is its block of the whole graph's activations. -/
theorem flushed6_6 (c : Dev nD) (t : Fin cfg6.N) (hf : (cfg6.win 6).flush t = true) :
    (dat6 V c).flushed 6 t = ((cfg6.win 6).blk t).view.read (Elt Ideal) (zlin6 V c) := by
  have e := idx0 t
  show (cfg6.win 6).cut (grid6.coords t) ((dat6 V c).after 6 t) = _
  rw [after6_6, (outsAt_eq V c t.val t.isLt).1]
  funext y
  obtain ⟨r, j, rfl⟩ : ∃ (r : Fin 5000) (j : Fin 64), y = ix2 r j := ⟨y 0, y 1, eq_ix2 y⟩
  show tile V c t (ix2 r j) = zlin6 V c (((cfg6.win 6).blk t).view.emb (ix2 r j))
  rw [tile_apply]
  congr 1
  funext a
  apply Fin.ext
  match a with
  | ⟨0, _⟩ => show 5000 * t.val + r.val = win6_6.index t (0 : Fin 2) * 5000 + 1 * r.val; rw [e.2.2.2.2.2.2.2.2.2.2.2.2.1]; omega
  | ⟨1, _⟩ => show j.val = win6_6.index t (1 : Fin 2) * 64 + 1 * j.val; rw [e.2.2.2.2.2.2.2.2.2.2.2.2.2.1]; omega

/-- THE ACTIVATIONS ARRAY after the pass: the whole graph's linear activations. Row R lies in the
    block of tile R / 5000. -/
theorem final6 (c : Dev nD) : (dat6 V c).arrAt 6 cfg6.N = zlin6 V c :=
  (dat6 V c).arrAt_eq_of_cover 6 (zlin6 V c) (flushed6_6 V c) fun i => by
    have hi0 : (i 0).val < 50000 := (i 0).isLt
    have hi1 : (i 1).val < 64 := (i 1).isLt
    have hN : cfg6.N = 10 := N_6
    have hq : (i 0).val / 5000 < cfg6.N := by rw [hN]; omega
    refine ⟨⟨(i 0).val / 5000, hq⟩, flush6_6 _, ?_⟩
    have e := idx0 ⟨(i 0).val / 5000, hq⟩
    have x := xsize0_6 ⟨(i 0).val / 5000, hq⟩
    show i ∈ ((View.whole main_v98_0).slice (win6_6.rect ⟨(i 0).val / 5000, hq⟩)).set
    rw [View.set_slice_whole, Rect.mem_set_unit]
    intro a
    match a with
    | ⟨0, _⟩ =>
      show win6_6.index ⟨(i 0).val / 5000, hq⟩ (0 : Fin 2) * win6_6.size (0 : Fin 2) ≤ (i 0 : Nat)
        ∧ (i 0 : Nat) < win6_6.index ⟨(i 0).val / 5000, hq⟩ (0 : Fin 2) * win6_6.size (0 : Fin 2) + win6_6.xsize (grid6.coords ⟨(i 0).val / 5000, hq⟩) (0 : Fin 2)
      rw [e.2.2.2.2.2.2.2.2.2.2.2.2.1, x.1, show win6_6.size (0 : Fin 2) = 5000 from rfl]
      dsimp only
      omega
    | ⟨1, _⟩ =>
      show win6_6.index ⟨(i 0).val / 5000, hq⟩ (1 : Fin 2) * win6_6.size (1 : Fin 2) ≤ (i 1 : Nat)
        ∧ (i 1 : Nat) < win6_6.index ⟨(i 0).val / 5000, hq⟩ (1 : Fin 2) * win6_6.size (1 : Fin 2) + win6_6.xsize (grid6.coords ⟨(i 0).val / 5000, hq⟩) (1 : Fin 2)
      rw [e.2.2.2.2.2.2.2.2.2.2.2.2.2.1, x.2, show win6_6.size (1 : Fin 2) = 64 from rfl]
      omega

/-- The one tile that writes the mean and the variance back is the last. -/
theorem t_eq_nine (t : Fin cfg6.N) (h : t.val % 10 = 9) : t.val = 9 := by
  have := lt_of_lt_of_eq t.isLt (show cfg6.N = 10 from N_6); omega

/-- On the last tile the mean block holds the updated running row of sums times 1/50000, and the
    variance block the updated sums of squares times 1/50000 less that mean's square. -/
theorem outs78_eq (c : Dev nD) (n : ℕ) (h : n + 1 < cfg6.N) (h1 : (⟨n + 1, h⟩ : Fin cfg6.N).val % 10 = 9) :
    (outsAt6 V c (n + 1) h).2.1 = k6_pay3 (F := Ideal) (sumAt V c (n + 1) h)
      ∧ (outsAt6 V c (n + 1) h).2.2.1 = k6_pay4 (F := Ideal) (sumAt V c (n + 1) h) (sqAt V c (n + 1) h) := by
  have hN : n + 1 < 10 := lt_of_lt_of_eq h (show cfg6.N = 10 from N_6)
  obtain ⟨-, ihS, ihQ⟩ := outsAt_eq V c n (Nat.lt_of_succ_lt h)
  have h0 : ¬(⟨n + 1, h⟩ : Fin cfg6.N).val % 10 = 0 := by dsimp only; omega
  rw [outsAt6_C V c ⟨n + 1, h⟩ h0 h1]
  dsimp only
  refine ⟨?_, ?_⟩
  · refine (out6_C_7_eq (F := Ideal) c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (ms6_7 ⟨n + 1, h⟩) (hs6_7 ⟨n + 1, h⟩) (ms6_8 ⟨n + 1, h⟩) (hs6_8 ⟨n + 1, h⟩) scM6_0 (Memref.isWhole_whole _) scM6_1 (Memref.isWhole_whole _) (fun hh => h0 ((hcond6_0 ⟨n + 1, h⟩).mp hh)) ((hcond6_1 ⟨n + 1, h⟩).mpr h1) (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) (iblk6 V c 5 ⟨n + 1, h⟩) (outsAt6 V c n (Nat.lt_of_succ_lt h)).2.2.2.1 (outsAt6 V c n (Nat.lt_of_succ_lt h)).2.2.2.2).trans ?_
    exact congrArg (fun s => k6_pay3 (F := Ideal) (k6_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩) s)) ihS
  · refine (out6_C_8_eq (F := Ideal) c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (ms6_7 ⟨n + 1, h⟩) (hs6_7 ⟨n + 1, h⟩) (ms6_8 ⟨n + 1, h⟩) (hs6_8 ⟨n + 1, h⟩) scM6_0 (Memref.isWhole_whole _) scM6_1 (Memref.isWhole_whole _) (fun hh => h0 ((hcond6_0 ⟨n + 1, h⟩).mp hh)) ((hcond6_1 ⟨n + 1, h⟩).mpr h1) (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) (iblk6 V c 5 ⟨n + 1, h⟩) (outsAt6 V c n (Nat.lt_of_succ_lt h)).2.2.2.1 (outsAt6 V c n (Nat.lt_of_succ_lt h)).2.2.2.2).trans ?_
    exact congrArg₂ (fun s q => k6_pay4 (F := Ideal) (k6_pay8 (F := Ideal) (B0 V c ⟨n + 1, h⟩) (B1 V c ⟨n + 1, h⟩) (B2 V c ⟨n + 1, h⟩) (B3 V c ⟨n + 1, h⟩) (B4 V c ⟨n + 1, h⟩) (B5 V c ⟨n + 1, h⟩) s) (k6_pay2 (F := Ideal) (tile V c ⟨n + 1, h⟩) q)) ihS ihQ

/-- After the tenth tile: the mean block … -/
theorem out7_at9 (c : Dev nD) (h : 9 < cfg6.N) :
    (outsAt6 V c 9 h).2.1 = k6_pay3 (F := Ideal) (sumAt V c 9 h) :=
  (outs78_eq V c 8 h rfl).1

/-- … and the variance block. -/
theorem out8_at9 (c : Dev nD) (h : 9 < cfg6.N) :
    (outsAt6 V c 9 h).2.2.1 = k6_pay4 (F := Ideal) (sumAt V c 9 h) (sqAt V c 9 h) :=
  (outs78_eq V c 8 h rfl).2

end Cert.KernelIdeal.HandVal.Reg6

end
-- ==== Proof.KernelIdeal.Mlp6Val.lean ====
/-
  The first statistics pass: the mean and the variance arrays it leaves, on the extended reals.

  Both are one row of 64 columns, stored on the last tile only and written back once. The last
  tile forms them from the two running rows, which by then hold the column sums of the linear
  activations and of their squares over all 50000 rows; so column j of the mean array is the direct
  mean of column j of the activations, and, the activations being reals, column j of the variance
  array is the direct variance of that column.
-/
import proofs.«144771_j36481452212846_1_alg».proof.Proof.KernelIdeal.Mlp6Inv
import Idealize.ShloMosaic.Lib.Pipeline.Value
import Idealize.ShloMosaic.Lib.Tactic
import Idealize.ShloMosaic.Lib.ValueIdx

-- the blocks' rectangles of 5000 rows are compared one coordinate at a time
set_option maxRecDepth 16384

noncomputable section

open scoped BigOperators

namespace Cert.KernelIdeal.HandVal.Reg6

open Cert.KernelIdeal Cert.KernelIdeal.Gen Cert.KernelIdeal.Hand Cert.KernelIdeal.HandVal
open Idealize.ShloMosaic Idealize.ShloMosaic.TcCoe Idealize.ShloMosaic.Tactic Idealize.ShloMosaic.ValueIdx Idealize.SL.Sem
open Idealize.ShloMosaic.Pipeline (Dat)
open Cert.Math

variable (V : (c : Dev nD) → (b : Ref sig .tc) → Buf (Elt Ideal) ((c : Thread nD τ).loc b))

/-- The mean array the pass leaves: every column's direct mean. -/
abbrev meanArr (c : Dev nD) : Vec Ideal S1x64 .f32 := fun i => meanDirect (col V c (i 1))
/-- The variance array the pass leaves: every column's direct variance. -/
abbrev varArr (c : Dev nD) : Vec Ideal S1x64 .f32 := fun i => varDirect (col V c (i 1))

/-- What the last tile writes back of the mean is the mean array: its one block is the array. -/
theorem flushed6_7 (c : Dev nD) (t : Fin cfg6.N) (hf : (cfg6.win 7).flush t = true) :
    (dat6 V c).flushed 7 t = ((cfg6.win 7).blk t).view.read (Elt Ideal) (meanArr V c) := by
  have e := idx0 t
  have h9 : t.val = 9 := t_eq_nine t ((flush6_7 t).mp hf)
  obtain ⟨n, hn⟩ := t
  dsimp only at h9
  subst h9
  show (cfg6.win 7).cut (grid6.coords ⟨9, hn⟩) ((dat6 V c).after 7 ⟨9, hn⟩) = _
  rw [after6_7, out7_at9 V c hn]
  funext y
  obtain ⟨u, j, rfl⟩ : ∃ (u : Fin 1) (j : Fin 64), y = ix2 u j := ⟨y 0, y 1, eq_ix2 y⟩
  obtain rfl : u = 0 := Subsingleton.elim _ _
  have hemb : ((cfg6.win 7).blk ⟨9, hn⟩).view.emb (ix2 (0 : Fin 1) j) = ix2 (0 : Fin 1) j := by
    funext a
    apply Fin.ext
    match a with
    | ⟨0, _⟩ => show win6_7.index ⟨9, hn⟩ (0 : Fin 2) * 1 + 1 * 0 = 0; rw [e.2.2.2.2.2.2.2.2.2.2.2.2.2.2.1]
    | ⟨1, _⟩ => show win6_7.index ⟨9, hn⟩ (1 : Fin 2) * 64 + 1 * j.val = j.val; rw [e.2.2.2.2.2.2.2.2.2.2.2.2.2.2.2.1]; omega
  show k6_pay3 (F := Ideal) (sumAt V c 9 hn) (ix2 0 j) = meanArr V c (((cfg6.win 7).blk ⟨9, hn⟩).view.emb (ix2 (0 : Fin 1) j))
  rw [hemb, pay3_apply]
  exact mean_at9 V c j hn

/-- The same for the variance, when the activations are reals. -/
theorem flushed6_8 (c : Dev nD) (hz : ∀ R j, IsReal (zlin6 V c (ix2 R j))) (t : Fin cfg6.N) (hf : (cfg6.win 8).flush t = true) :
    (dat6 V c).flushed 8 t = ((cfg6.win 8).blk t).view.read (Elt Ideal) (varArr V c) := by
  have e := idx0 t
  have h9 : t.val = 9 := t_eq_nine t ((flush6_8 t).mp hf)
  obtain ⟨n, hn⟩ := t
  dsimp only at h9
  subst h9
  show (cfg6.win 8).cut (grid6.coords ⟨9, hn⟩) ((dat6 V c).after 8 ⟨9, hn⟩) = _
  rw [after6_8, out8_at9 V c hn]
  funext y
  obtain ⟨u, j, rfl⟩ : ∃ (u : Fin 1) (j : Fin 64), y = ix2 u j := ⟨y 0, y 1, eq_ix2 y⟩
  obtain rfl : u = 0 := Subsingleton.elim _ _
  have hemb : ((cfg6.win 8).blk ⟨9, hn⟩).view.emb (ix2 (0 : Fin 1) j) = ix2 (0 : Fin 1) j := by
    funext a
    apply Fin.ext
    match a with
    | ⟨0, _⟩ => show win6_8.index ⟨9, hn⟩ (0 : Fin 2) * 1 + 1 * 0 = 0; rw [e.2.2.2.2.2.2.2.2.2.2.2.2.2.2.2.2.1]
    | ⟨1, _⟩ => show win6_8.index ⟨9, hn⟩ (1 : Fin 2) * 64 + 1 * j.val = j.val; rw [e.2.2.2.2.2.2.2.2.2.2.2.2.2.2.2.2.2]; omega
  show k6_pay4 (F := Ideal) (sumAt V c 9 hn) (sqAt V c 9 hn) (ix2 0 j) = varArr V c (((cfg6.win 8).blk ⟨9, hn⟩).view.emb (ix2 (0 : Fin 1) j))
  rw [hemb, pay4_apply]
  exact var_at9 V c j hn fun R => hz R j

/-- The last tile's block of a one-row array is the array: every index lies in it. -/
theorem cover6_7 (i : S1x64.Idx) : ∃ t : Fin cfg6.N, (cfg6.win 7).flush t = true ∧ i ∈ ((cfg6.win 7).blk t).view.set :=
  ⟨t6_9, (flush6_7 t6_9).mpr rfl, by
    show i ∈ ((View.whole main_v98_1).slice (win6_7.rect t6_9)).set
    rw [View.set_slice_whole, Rect.mem_set_unit]
    intro a
    have h0 : (i 0 : Nat) < 1 := (i 0).isLt
    have h1 : (i 1 : Nat) < 64 := (i 1).isLt
    match a with
    | ⟨0, _⟩ => show win6_7.index t6_9 0 * win6_7.size 0 ≤ (i 0 : Nat) ∧ (i 0 : Nat) < win6_7.index t6_9 0 * win6_7.size 0 + win6_7.xsize (grid6.coords t6_9) 0
                rw [show win6_7.index t6_9 0 * win6_7.size 0 = 0 from by decide +kernel, show win6_7.xsize (grid6.coords t6_9) 0 = 1 from by decide +kernel]; omega
    | ⟨1, _⟩ => show win6_7.index t6_9 1 * win6_7.size 1 ≤ (i 1 : Nat) ∧ (i 1 : Nat) < win6_7.index t6_9 1 * win6_7.size 1 + win6_7.xsize (grid6.coords t6_9) 1
                rw [show win6_7.index t6_9 1 * win6_7.size 1 = 0 from by decide +kernel, show win6_7.xsize (grid6.coords t6_9) 1 = 64 from by decide +kernel]; omega⟩

theorem cover6_8 (i : S1x64.Idx) : ∃ t : Fin cfg6.N, (cfg6.win 8).flush t = true ∧ i ∈ ((cfg6.win 8).blk t).view.set :=
  ⟨t6_9, (flush6_8 t6_9).mpr rfl, by
    show i ∈ ((View.whole main_v98_2).slice (win6_8.rect t6_9)).set
    rw [View.set_slice_whole, Rect.mem_set_unit]
    intro a
    have h0 : (i 0 : Nat) < 1 := (i 0).isLt
    have h1 : (i 1 : Nat) < 64 := (i 1).isLt
    match a with
    | ⟨0, _⟩ => show win6_8.index t6_9 0 * win6_8.size 0 ≤ (i 0 : Nat) ∧ (i 0 : Nat) < win6_8.index t6_9 0 * win6_8.size 0 + win6_8.xsize (grid6.coords t6_9) 0
                rw [show win6_8.index t6_9 0 * win6_8.size 0 = 0 from by decide +kernel, show win6_8.xsize (grid6.coords t6_9) 0 = 1 from by decide +kernel]; omega
    | ⟨1, _⟩ => show win6_8.index t6_9 1 * win6_8.size 1 ≤ (i 1 : Nat) ∧ (i 1 : Nat) < win6_8.index t6_9 1 * win6_8.size 1 + win6_8.xsize (grid6.coords t6_9) 1
                rw [show win6_8.index t6_9 1 * win6_8.size 1 = 0 from by decide +kernel, show win6_8.xsize (grid6.coords t6_9) 1 = 64 from by decide +kernel]; omega⟩

/-- THE MEAN ARRAY after the pass. -/
theorem final7_arr (c : Dev nD) : (dat6 V c).arrAt 7 cfg6.N = meanArr V c :=
  (dat6 V c).arrAt_eq_of_cover 7 (meanArr V c) (flushed6_7 V c) cover6_7

/-- … at column j: the direct mean of column j of the activations. -/
theorem final7 (c : Dev nD) (j : Fin 64) :
    (dat6 V c).arrAt 7 cfg6.N (ix2 0 j) = meanDirect (fun i : Fin 50000 => zlin6 V c (ix2 i j)) :=
  congrFun (final7_arr V c) (ix2 0 j)

/-- THE VARIANCE ARRAY after the pass, when the activations are reals. -/
theorem final8_arr (c : Dev nD) (hz : ∀ R j, IsReal (zlin6 V c (ix2 R j))) : (dat6 V c).arrAt 8 cfg6.N = varArr V c :=
  (dat6 V c).arrAt_eq_of_cover 8 (varArr V c) (flushed6_8 V c hz) cover6_8

/-- … at column j: the direct variance of column j of the activations. -/
theorem final8 (c : Dev nD) (hz : ∀ R j, IsReal (zlin6 V c (ix2 R j))) (j : Fin 64) :
    (dat6 V c).arrAt 8 cfg6.N (ix2 0 j) = varDirect (fun i : Fin 50000 => zlin6 V c (ix2 i j)) :=
  congrFun (final8_arr V c hz) (ix2 0 j)

end Cert.KernelIdeal.HandVal.Reg6

end
-- ==== Proof.KernelIdeal.KVal.L3.lean ====
/-
  Layer 3 of the idealized kernel: regions 6 and 7 after the host stretch that slices index 2 of the stacked
  parameters and sums the neighbours of layer 2's output. The argument is layer 0's (Base.lean), with the previous
  layer's output buffer in the place of the node features and each parameter read through its slice.
-/
import proofs.«144771_j36481452212846_1_alg».proof.Proof.KernelIdeal.KVal.Base
import proofs.«144771_j36481452212846_1_alg».proof.Proof.KernelIdeal.Bn7Val
import proofs.«144771_j36481452212846_1_alg».proof.Proof.KernelIdeal.Mlp6Val

noncomputable section

namespace Cert.KernelIdeal.HandVal

open Cert.KernelIdeal Cert.KernelIdeal.Gen Cert.KernelIdeal.Hand Cert.Math
open Idealize.ShloMosaic Idealize.ShloMosaic.TcCoe Idealize.ShloMosaic.ValueIdx Idealize.SL.Sem
open Cert.ReferenceIdeal.HandVal (agg128_eq agg64_eq mat0_apply mat1_apply mat2_apply row0_apply row1_apply row2_apply)

variable (m : (ℓ : Loc nD τ sig) → Buf (Elt Ideal) ℓ) (ρ : Dev nD → PrngReg)

/-- After regions 6 and 7 the buffer main_v99 holds the reference's layer 3 of what main_v71 held and the
    arguments, with real entries when main_v71's are. -/
theorem out3 (hpre : Cert.Pre_KernelIdeal m) (c : Dev nD)
    (rH : ∀ i, IsReal ((W9 (F := Ideal) m ρ c (Proc.devRef .tc main_v71) : S50000x64.Idx → EReal) i)) :
    (W12 (F := Ideal) m ρ c (Proc.devRef .tc main_v99) : S50000x64.Idx → EReal)
        = Cert.ReferenceIdeal.Hand.layer3 (F := Ideal) (W9 m ρ c (Proc.devRef .tc main_v71))
            (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ ∀ i, IsReal ((W12 (F := Ideal) m ρ c (Proc.devRef .tc main_v99) : S50000x64.Idx → EReal) i) := by
  obtain ⟨a1, a2, a9, a10, a11, a12, a13, a14⟩ := W9_args m ρ c
  have x1 : W10 (F := Ideal) m ρ c (Proc.devRef .tc main_v93)
      = Cert.Math.agg 64 (W9 m ρ c (Proc.devRef .tc main_v71)) (m ((c.tc : Thread nD τ).loc main_arg1)) (m ((c.tc : Thread nD τ).loc main_arg2)) := by
    rw [← a1, ← a2]; exact after6_agg (W9 m ρ c)
  exact layerS_arrays (W9 m ρ c (Proc.devRef .tc main_v71)) (m ((c.tc : Thread nD τ).loc main_arg1)) (m ((c.tc : Thread nD τ).loc main_arg2))
    (Cert.ReferenceIdeal.Hand.mat2 (m ((c.tc : Thread nD τ).loc main_arg9))) (Cert.ReferenceIdeal.Hand.row2 (m ((c.tc : Thread nD τ).loc main_arg10)))
    (Cert.ReferenceIdeal.Hand.mat2 (m ((c.tc : Thread nD τ).loc main_arg11))) (Cert.ReferenceIdeal.Hand.row2 (m ((c.tc : Thread nD τ).loc main_arg12)))
    (Cert.ReferenceIdeal.Hand.row2 (m ((c.tc : Thread nD τ).loc main_arg13))) (Cert.ReferenceIdeal.Hand.row2 (m ((c.tc : Thread nD τ).loc main_arg14)))
    (X0 := W10 m ρ c (Proc.devRef .tc main_v71)) (X1 := W10 m ρ c (Proc.devRef .tc main_v93))
    (X2 := W10 m ρ c (Proc.devRef .tc main_v73)) (X3 := W10 m ρ c (Proc.devRef .tc main_v94))
    (X4 := W10 m ρ c (Proc.devRef .tc main_v77)) (X5 := W10 m ρ c (Proc.devRef .tc main_v95))
    (Z := W11 m ρ c (Proc.devRef .tc main_v98_0)) (Out := W12 m ρ c (Proc.devRef .tc main_v99))
    (Mn := W11 m ρ c (Proc.devRef .tc main_v98_1)) (Vr := W11 m ρ c (Proc.devRef .tc main_v98_2))
    (Gm := W11 m ρ c (Proc.devRef .tc main_v96)) (Bt := W11 m ρ c (Proc.devRef .tc main_v97))
    ((W12_arr m ρ c 5).trans (final7_5 (V11 m ρ) c))
    ((W11_arr m ρ c 6).trans (Reg6.final6 (V10 m ρ) c))
    (fun j => (congrFun (W11_arr m ρ c 7) _).trans (Reg6.final7 (V10 m ρ) c j))
    (fun hz j => (congrFun (W11_arr m ρ c 8) _).trans (Reg6.final8 (V10 m ρ) c hz j))
    (W10_of m ρ c main_v71 (by decide)) (x1.trans (agg64_eq _ _ _).symm)
    (fun l k => (after6_W1_apply (W9 m ρ c) l k).trans (by rw [a9]; exact (mat2_apply _ l k).symm))
    (fun j => (after6_b1r_apply (W9 m ρ c) 0 j).trans (by rw [a10]; exact (row2_apply _ j).symm))
    (fun l k => (after6_W2_apply (W9 m ρ c) l k).trans (by rw [a11]; exact (mat2_apply _ l k).symm))
    (fun j => (after6_b2r_apply (W9 m ρ c) 0 j).trans (by rw [a12]; exact (row2_apply _ j).symm))
    (fun j => (congrFun (W11_of_ne m ρ c main_v96 (by decide)) _).trans
      ((after6_gr_apply (W9 m ρ c) 0 j).trans (by rw [a13]; exact (row2_apply _ j).symm)))
    (fun j => (congrFun (W11_of_ne m ρ c main_v97 (by decide)) _).trans
      ((after6_ber_apply (W9 m ρ c) 0 j).trans (by rw [a14]; exact (row2_apply _ j).symm)))
    rH (fun i => by rw [x1]; exact Cert.Math.agg_real 64 _ _ _ rH i)
    (real_ix2 fun l k => by rw [mat2_apply]; exact real_arg9 m hpre c _)
    (real_ix1 fun j => by rw [row2_apply]; exact real_arg10 m hpre c _)
    (real_ix2 fun l k => by rw [mat2_apply]; exact real_arg11 m hpre c _)
    (real_ix1 fun j => by rw [row2_apply]; exact real_arg12 m hpre c _)
    (real_ix1 fun j => by rw [row2_apply]; exact real_arg13 m hpre c _)
    (real_ix1 fun j => by rw [row2_apply]; exact real_arg14 m hpre c _)

end Cert.KernelIdeal.HandVal

end
-- ==== Proof.KernelIdeal.KVal.lean ====
/-
  The idealized kernel's result is the reference's four layers of the arguments: the four layers' statements
  (Base.lean, L1.lean, L2.lean, L3.lean) chained, each layer's real output feeding the next.
-/
import proofs.«144771_j36481452212846_1_alg».proof.Proof.KernelIdeal.KVal.L1
import proofs.«144771_j36481452212846_1_alg».proof.Proof.KernelIdeal.KVal.L2
import proofs.«144771_j36481452212846_1_alg».proof.Proof.KernelIdeal.KVal.L3

noncomputable section

namespace Cert.KernelIdeal.HandVal

open Cert.KernelIdeal Cert.KernelIdeal.Gen Cert.KernelIdeal.Hand Cert.Math
open Idealize.ShloMosaic Idealize.ShloMosaic.TcCoe Idealize.ShloMosaic.ValueIdx Idealize.SL.Sem
open Cert.ReferenceIdeal.HandVal (agg128_eq agg64_eq mat0_apply mat1_apply mat2_apply row0_apply row1_apply row2_apply)

variable (m : (ℓ : Loc nD τ sig) → Buf (Elt Ideal) ℓ) (ρ : Dev nD → PrngReg)

/-! ## The chain -/

/-- The idealized kernel's result array is the reference's four layers of the arguments' launch contents. -/
theorem result_eq (hpre : Cert.Pre_KernelIdeal m) (c : Dev nD) :
    (W12 (F := Ideal) m ρ c (Proc.devRef .tc main_v99) : S50000x64.Idx → EReal)
      = Cert.ReferenceIdeal.Hand.layer3 (F := Ideal) (Cert.ReferenceIdeal.Hand.layer2 (F := Ideal) (Cert.ReferenceIdeal.Hand.layer1 (F := Ideal)
          (Cert.ReferenceIdeal.Hand.layer0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))
        (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))
      (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  obtain ⟨e0, r0⟩ := out0 m ρ hpre c
  obtain ⟨e1, r1⟩ := out1 m ρ hpre c r0
  obtain ⟨e2, r2⟩ := out2 m ρ hpre c r1
  obtain ⟨e3, _⟩ := out3 m ρ hpre c r2
  rw [e3, e2, e1, e0]

end Cert.KernelIdeal.HandVal

end
-- ==== Proof.lean ====
/-
  A four-layer graph isomorphism network on 50000 nodes and 800000 edges: the tiled kernel against the plain
  reference.

  Each layer takes the node features h, adds to every node the sum of its in-neighbours' features (a gather along
  the edge sources and a scatter-add along the edge targets, done on the host in both programs), applies
  relu((h + agg) W1 + b1) W2 + b2, normalises every column by its mean and variance over all 50000 nodes, scales,
  shifts and clamps below at zero. The kernel does the dense part of a layer in two pipelined launches over ten
  tiles of 5000 rows: the first computes the linear output tile by tile and accumulates the column sums and sums of
  squares in scratch, turning them into mean and variance at the last tile; the second normalises tile by tile. The
  reference does the same with whole-array operations, the variance as the mean of squared deviations.

  The certificate is a conjunction of five statements.

  1. The kernel as printed, over machine words, runs to the end on every fair schedule without fault and leaves its
     fifteen argument arrays as launched. @main is twelve items (a host stretch and two launches, four times); the
     contents of every buffer are named at each boundary between items, every launch is discharged by its body's
     obligation at a generic tile, and the argument arrays are window arrays of no launch's output, so the last
     boundary's contents at an argument are the launch memory.
  2. The same for the program read over the extended reals; the proof is the same text at the other instance.
  3. The reference runs and keeps its arguments: it is a straight line of host operations, and its run names the
     result buffer as the four layer functions chained.
  4. Reading the kernel over the reals changes one thing only: the multiplier 1/50000 of the statistics, printed as
     the nearest single-precision pattern, is read as the rational. Eight occurrences (two in each statistics
     kernel), one table entry.
  5. Over the extended reals, from memories agreeing on the arguments, the two result buffers end equal. The
     kernel's ends at the last boundary's contents; the reference's at the four layers of its arguments, which are
     the kernel's by agreement; and for finite inputs the last boundary's contents equal those four layers: tile by
     tile the linear part is the same matrix expression, the tiled sums add up to the whole-column sums, and for
     real data mean of squares minus squared mean is the mean of squared deviations.
-/
import proofs.«144771_j36481452212846_1_alg».proof.Defs
import proofs.«144771_j36481452212846_1_alg».proof.Proof.Gen.Kernel
import proofs.«144771_j36481452212846_1_alg».proof.Proof.Gen.KernelIdeal
import proofs.«144771_j36481452212846_1_alg».proof.Proof.Gen.ReferenceIdeal
import proofs.«144771_j36481452212846_1_alg».proof.Proof.Gen.Pre_finite_inputs
import proofs.«144771_j36481452212846_1_alg».proof.Proof.Kernel.Segs
import proofs.«144771_j36481452212846_1_alg».proof.Proof.KernelIdeal.Segs
import proofs.«144771_j36481452212846_1_alg».proof.Proof.Ref.Run
import proofs.«144771_j36481452212846_1_alg».proof.Proof.KernelIdeal.KVal
import Idealize.ShloMosaic.Adequacy
import Idealize.ShloMosaic.Init

noncomputable section

namespace Cert.Proof

open Idealize.ShloMosaic Idealize.SL.Sem

/-! ## The three runs -/

/-- The kernel as printed, at machine words: it runs to the end without fault and leaves its fifteen arguments as
    launched (the result buffer and every intermediate are other buffers). -/
theorem frame_words : Cert.frame_Kernel := fun m ρ _ => Cert.Kernel.Hand.frame (F := Bits) m ρ

/-- The same program read over the extended reals: the same run, the same frame. -/
theorem frame_ideal : Cert.frame_KernelIdeal := fun m ρ _ => Cert.KernelIdeal.Hand.frame (F := Ideal) m ρ

/-- The plain reference over the extended reals: its run names the result and keeps the arguments; the frame is the
    second half of that. -/
theorem frame_reference : Cert.frame_ReferenceIdeal := fun m ρ _ =>
  (θ_run Cert.ReferenceIdeal.defs _ _).mono (fun _ h c => (h c).2) (Cert.ReferenceIdeal.Hand.run (F := Ideal) m ρ)

/-! ## The one idealisation -/

/-- The only liberty taken in reading the kernel over the reals: the constant by which the column sums are
    multiplied to get mean and mean square, printed as the single-precision pattern nearest 1/50000, is read as
    the rational 1/50000 itself. It occurs twice in each of the four statistics kernels; each occurrence is the
    same entry of the table of named constants. -/
theorem inv_count : IdealRules.named_const.Statement Cert.KernelIdeal.κ "inv_50000" .f32 0x37A7C5AC#32 ((1 / 50000 : ℝ) : EReal) :=
  IdealRules.named_const.statement Cert.KernelIdeal.κ "inv_50000" .f32 0x37A7C5AC#32 ((1 / 50000 : ℝ) : EReal) rfl

theorem preserves : Cert.preserves_Kernel_KernelIdeal :=
  ⟨inv_count, inv_count, inv_count, inv_count, inv_count, inv_count, inv_count, inv_count⟩

/-! ## Kernel and reference compute one function -/

/-- Over the extended reals, from memories that agree on the fifteen arguments, the kernel's result buffer and the
    reference's end equal. The kernel's run leaves its result buffer at the contents of the last boundary of @main;
    the reference's run leaves its own at the four layers chained over its arguments, which are the kernel's; and the
    last boundary's contents ARE those four layers of the kernel's arguments, for finite inputs. -/
theorem algebraic : Cert.algebraic_KernelIdeal_ReferenceIdeal := by
  intro m ρ m' ρ' hpre hagree
  refine ⟨fun c => Cert.KernelIdeal.Hand.W12 (F := Ideal) m ρ c (Proc.devRef .tc Cert.KernelIdeal.main_v99),
    Cert.KernelIdeal.Hand.run_value (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5, a6, a7, a8, a9, a10, a11, a12, a13, a14⟩ := hagree c
  rw [a0, a1, a2, a3, a4, a5, a6, a7, a8, a9, a10, a11, a12, a13, a14]
  exact (Cert.KernelIdeal.HandVal.result_eq m ρ hpre c).symm

/-! ## The claim -/

theorem claim : Cert.Claim :=
  ⟨Cert.Kernel.Gen.facts, Cert.KernelIdeal.Gen.facts, Cert.ReferenceIdeal.Gen.facts, Cert.Pre_finite_inputs.Gen.facts,
    frame_words, frame_ideal, frame_reference, preserves, algebraic⟩

end Cert.Proof

end
